-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v570) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S2x3 : Shape := ⟨2, ![2, 3]⟩
abbrev S256x256x256 : Shape := ⟨3, ![256, 256, 256]⟩
abbrev S64x3 : Shape := ⟨2, ![64, 3]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel
  bcast_S_S2x3 : S_.BroadcastsInDim S2x3 (![] : Fin 0 → Fin S2x3.rank)
  reducesTo_S2x3_S_d0_1 : S2x3.ReducesTo [0, 1] S_
  bcast_S_S256x256x256 : S_.BroadcastsInDim S256x256x256 (![] : Fin 0 → Fin S256x256x256.rank)
  reducesTo_S256x256x256_S_d0_1_2 : S256x256x256.ReducesTo [0, 1, 2] S_
  bcast_S_S64x3 : S_.BroadcastsInDim S64x3 (![] : Fin 0 → Fin S64x3.rank)
  reducesTo_S64x3_S_d0_1 : S64x3.ReducesTo [0, 1] S_

variable [Facts]

def fn_part1 {F : FTy → Type} [FloatOps F] (main_arg4 : FVec F S64x3 .f32) (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  let main_v19 : FVec F S64x3 .f32 := Host.absf main_arg4
  let main_cst_6 : FVec F S_ .f32 := constant S_ .f32 0x7F800000#32
  let main_v20 : FVec F S64x3 .f32 := broadcastInDim S64x3 ![] bcast_S_S64x3 main_cst_6
  let main_v21 : IVec S64x3 1 := cmpf .olt main_v19 main_v20
  let main_c_7 : IVec S_ 1 := constantI S_ 1 1#1
  let main_v22 : IVec S_ 1 := (fun x v => Host.reduce IntOp.andi x v reducesTo_S64x3_S_d0_1 h_S_) main_v21 main_c_7
  let main_v23 : IVec S_ 1 := andi main_v18 main_v22
  main_v23

def fn {F : FTy → Type} [FloatOps F] (main_arg0 : FVec F S4194304x3 .f32) (main_arg1 : FVec F S2x3 .f32) (main_arg2 : FVec F S256x256x256 .f32) (main_arg3 : FVec F S64x3 .f32) (main_arg4 : FVec F S64x3 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  let main_v4 : FVec F S2x3 .f32 := Host.absf main_arg1
  let main_cst_0 : FVec F S_ .f32 := constant S_ .f32 0x7F800000#32
  let main_v5 : FVec F S2x3 .f32 := broadcastInDim S2x3 ![] bcast_S_S2x3 main_cst_0
  let main_v6 : IVec S2x3 1 := cmpf .olt main_v4 main_v5
  let main_c_1 : IVec S_ 1 := constantI S_ 1 1#1
  let main_v7 : IVec S_ 1 := (fun x v => Host.reduce IntOp.andi x v reducesTo_S2x3_S_d0_1 h_S_) main_v6 main_c_1
  let main_v8 : IVec S_ 1 := andi main_v3 main_v7
  let main_v9 : FVec F S256x256x256 .f32 := Host.absf main_arg2
  let main_cst_2 : FVec F S_ .f32 := constant S_ .f32 0x7F800000#32
  let main_v10 : FVec F S256x256x256 .f32 := broadcastInDim S256x256x256 ![] bcast_S_S256x256x256 main_cst_2
  let main_v11 : IVec S256x256x256 1 := cmpf .olt main_v9 main_v10
  let main_c_3 : IVec S_ 1 := constantI S_ 1 1#1
  let main_v12 : IVec S_ 1 := (fun x v => Host.reduce IntOp.andi x v reducesTo_S256x256x256_S_d0_1_2 h_S_) main_v11 main_c_3
  let main_v13 : IVec S_ 1 := andi main_v8 main_v12
  let main_v14 : FVec F S64x3 .f32 := Host.absf main_arg3
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_arg4 main_v13 main_v16
-- ==== Kernel.lean ====
abbrev S4194304x3 : Shape := ⟨2, ![4194304, 3]⟩
abbrev S2x3 : Shape := ⟨2, ![2, 3]⟩
abbrev S256x256x256 : Shape := ⟨3, ![256, 256, 256]⟩
abbrev S64x3 : Shape := ⟨2, ![64, 3]⟩
abbrev S3 : Shape := ⟨1, ![3]⟩
abbrev S1x3 : Shape := ⟨2, ![1, 3]⟩
abbrev S_ : Shape := ⟨0, ![]⟩
abbrev S4194304 : Shape := ⟨1, ![4194304]⟩
abbrev S4194304x1 : Shape := ⟨2, ![4194304, 1]⟩
abbrev S64 : Shape := ⟨1, ![64]⟩
abbrev S1 : Shape := ⟨1, ![1]⟩
abbrev S63 : Shape := ⟨1, ![63]⟩
abbrev S4210688 : Shape := ⟨1, ![4210688]⟩
abbrev S16448 : Shape := ⟨1, ![16448]⟩
abbrev S16448x1 : Shape := ⟨2, ![16448, 1]⟩
abbrev S1x64 : Shape := ⟨2, ![1, 64]⟩
abbrev S16448x64 : Shape := ⟨2, ![16448, 64]⟩
abbrev S64x64x4096 : Shape := ⟨3, ![64, 64, 4096]⟩
abbrev S1x64x4096 : Shape := ⟨3, ![1, 64, 4096]⟩
abbrev S256 : Shape := ⟨1, ![256]⟩
abbrev S64x4096 : Shape := ⟨2, ![64, 4096]⟩
abbrev S256x64 : Shape := ⟨2, ![256, 64]⟩
abbrev S256x1 : Shape := ⟨2, ![256, 1]⟩
abbrev S256x4096 : Shape := ⟨2, ![256, 4096]⟩
abbrev S1x4096 : Shape := ⟨2, ![1, 4096]⟩

abbrev nBuf : Space → Nat
  | .hbm => 297
  | .vmem => 16
  | .smem => 1
  | _ => 0

abbrev hbmTy0_0 (i : Nat) : BufTy := match i % 128 with
  | 0 => ⟨S4194304x3, .f32⟩
  | 1 => ⟨S2x3, .f32⟩
  | 2 => ⟨S256x256x256, .f32⟩
  | 3 => ⟨S64x3, .f32⟩
  | 4 => ⟨S64x3, .f32⟩
  | 5 => ⟨S3, .f32⟩
  | 6 => ⟨S3, .i32⟩
  | 7 => ⟨S3, .i32⟩
  | 8 => ⟨S1x3, .f32⟩
  | 9 => ⟨S3, .f32⟩
  | 10 => ⟨S1x3, .f32⟩
  | 11 => ⟨S3, .f32⟩
  | 12 => ⟨S3, .f32⟩
  | 13 => ⟨S3, .f32⟩
  | 14 => ⟨S1x3, .f32⟩
  | 15 => ⟨S3, .f32⟩
  | 16 => ⟨S1x3, .f32⟩
  | 17 => ⟨S4194304x3, .f32⟩
  | 18 => ⟨S4194304x3, .f32⟩
  | 19 => ⟨S1x3, .f32⟩
  | 20 => ⟨S4194304x3, .f32⟩
  | 21 => ⟨S4194304x3, .f32⟩
  | 22 => ⟨S4194304x3, .f32⟩
  | 23 => ⟨S4194304x3, .i32⟩
  | 24 => ⟨S_, .i32⟩
  | 25 => ⟨S3, .i32⟩
  | 26 => ⟨S3, .i32⟩
  | 27 => ⟨S_, .i32⟩
  | 28 => ⟨S_, .i32⟩
  | 29 => ⟨S4194304x3, .i32⟩
  | 30 => ⟨S4194304x3, .i32⟩
  | 31 => ⟨S1x3, .i32⟩
  | 32 => ⟨S4194304x3, .i32⟩
  | 33 => ⟨S4194304x3, .i32⟩
  | 34 => ⟨S1x3, .i32⟩
  | 35 => ⟨S4194304x3, .i32⟩
  | 36 => ⟨S4194304x3, .i32⟩
  | 37 => ⟨S_, .i32⟩
  | 38 => ⟨S4194304, .i32⟩
  | 39 => ⟨S4194304, .i32⟩
  | 40 => ⟨S4194304, .i32⟩
  | 41 => ⟨S4194304, .i32⟩
  | 42 => ⟨S_, .i32⟩
  | 43 => ⟨S4194304, .i32⟩
  | 44 => ⟨S4194304, .i1⟩
  | 45 => ⟨S_, .i32⟩
  | 46 => ⟨S4194304, .i32⟩
  | 47 => ⟨S4194304, .i32⟩
  | 48 => ⟨S4194304, .i32⟩
  | 49 => ⟨S4194304x1, .i32⟩
  | 50 => ⟨S4194304, .i32⟩
  | 51 => ⟨S_, .i32⟩
  | 52 => ⟨S4194304, .i32⟩
  | 53 => ⟨S4194304, .i1⟩
  | 54 => ⟨S_, .i32⟩
  | 55 => ⟨S4194304, .i32⟩
  | 56 => ⟨S4194304, .i32⟩
  | 57 => ⟨S4194304, .i32⟩
  | 58 => ⟨S4194304x1, .i32⟩
  | 59 => ⟨S4194304x3, .f32⟩
  | 60 => ⟨S_, .i32⟩
  | 61 => ⟨S4194304, .i32⟩
  | 62 => ⟨S4194304, .i1⟩
  | 63 => ⟨S_, .i32⟩
  | 64 => ⟨S4194304, .i32⟩
  | 65 => ⟨S4194304, .i32⟩
  | 66 => ⟨S4194304, .i32⟩
  | 67 => ⟨S4194304x1, .i32⟩
  | 68 => ⟨S4194304x3, .f32⟩
  | 69 => ⟨S_, .i32⟩
  | 70 => ⟨S4194304, .i32⟩
  | 71 => ⟨S4194304, .i1⟩
  | 72 => ⟨S_, .i32⟩
  | 73 => ⟨S4194304, .i32⟩
  | 74 => ⟨S4194304, .i32⟩
  | 75 => ⟨S4194304, .i32⟩
  | 76 => ⟨S4194304x1, .i32⟩
  | 77 => ⟨S4194304x3, .f32⟩
  | 78 => ⟨S4194304x3, .f32⟩
  | 79 => ⟨S_, .f32⟩
  | 80 => ⟨S4194304x3, .f32⟩
  | 81 => ⟨S4194304x3, .f32⟩
  | 82 => ⟨S4194304x3, .f32⟩
  | 83 => ⟨S4194304x3, .f32⟩
  | 84 => ⟨S_, .f32⟩
  | 85 => ⟨S4194304x3, .f32⟩
  | 86 => ⟨S4194304x3, .f32⟩
  | 87 => ⟨S4194304x1, .f32⟩
  | 88 => ⟨S4194304, .f32⟩
  | 89 => ⟨S_, .f32⟩
  | 90 => ⟨S4194304, .f32⟩
  | 91 => ⟨S4194304, .f32⟩
  | 92 => ⟨S_, .f32⟩
  | 93 => ⟨S4194304, .f32⟩
  | 94 => ⟨S4194304, .f32⟩
  | 95 => ⟨S_, .f32⟩
  | 96 => ⟨S4194304, .f32⟩
  | 97 => ⟨S4194304, .f32⟩
  | 98 => ⟨S4194304x1, .f32⟩
  | 99 => ⟨S4194304, .f32⟩
  | 100 => ⟨S_, .f32⟩
  | 101 => ⟨S4194304, .f32⟩
  | 102 => ⟨S4194304, .f32⟩
  | 103 => ⟨S_, .f32⟩
  | 104 => ⟨S4194304, .f32⟩
  | 105 => ⟨S4194304, .f32⟩
  | 106 => ⟨S_, .f32⟩
  | 107 => ⟨S4194304, .f32⟩
  | 108 => ⟨S4194304, .f32⟩
  | 109 => ⟨S4194304x1, .f32⟩
  | 110 => ⟨S4194304, .f32⟩
  | 111 => ⟨S_, .f32⟩
  | 112 => ⟨S4194304, .f32⟩
  | 113 => ⟨S4194304, .f32⟩
  | 114 => ⟨S_, .f32⟩
  | 115 => ⟨S4194304, .f32⟩
  | 116 => ⟨S4194304, .f32⟩
  | 117 => ⟨S_, .f32⟩
  | 118 => ⟨S4194304, .f32⟩
  | 119 => ⟨S4194304, .f32⟩
  | 120 => ⟨S4194304, .f32⟩
  | 121 => ⟨S4194304, .f32⟩
  | 122 => ⟨S4194304, .f32⟩
  | 123 => ⟨S4194304, .f32⟩
  | 124 => ⟨S4194304, .f32⟩
  | 125 => ⟨S4194304, .f32⟩
  | 126 => ⟨S4194304, .i32⟩
  | 127 => ⟨S4194304, .i32⟩
  | _ => ⟨S4194304x3, .f32⟩

abbrev hbmTy0_1 (i : Nat) : BufTy := match i % 128 with
  | 0 => ⟨S4194304, .i32⟩
  | 1 => ⟨S_, .i32⟩
  | 2 => ⟨S4194304, .i32⟩
  | 3 => ⟨S_, .i32⟩
  | 4 => ⟨S64, .i32⟩
  | 5 => ⟨S4194304x1, .i32⟩
  | 6 => ⟨S64, .i32⟩
  | 7 => ⟨S_, .i32⟩
  | 8 => ⟨S1, .i32⟩
  | 9 => ⟨S_, .i32⟩
  | 10 => ⟨S_, .i32⟩
  | 11 => ⟨S64, .i32⟩
  | 12 => ⟨S63, .i32⟩
  | 13 => ⟨S64, .i32⟩
  | 14 => ⟨S_, .i32⟩
  | 15 => ⟨S64, .i32⟩
  | 16 => ⟨S64, .i32⟩
  | 17 => ⟨S_, .i32⟩
  | 18 => ⟨S64, .i32⟩
  | 19 => ⟨S64, .i32⟩
  | 20 => ⟨S_, .i32⟩
  | 21 => ⟨S_, .i32⟩
  | 22 => ⟨S64, .i32⟩
  | 23 => ⟨S64, .i32⟩
  | 24 => ⟨S64, .i32⟩
  | 25 => ⟨S_, .i32⟩
  | 26 => ⟨S64, .i32⟩
  | 27 => ⟨S64, .i1⟩
  | 28 => ⟨S64, .i32⟩
  | 29 => ⟨S64, .i32⟩
  | 30 => ⟨S_, .i32⟩
  | 31 => ⟨S64, .i32⟩
  | 32 => ⟨S64, .i1⟩
  | 33 => ⟨S64, .i1⟩
  | 34 => ⟨S_, .i32⟩
  | 35 => ⟨S64, .i32⟩
  | 36 => ⟨S64, .i32⟩
  | 37 => ⟨S64, .i32⟩
  | 38 => ⟨S_, .i32⟩
  | 39 => ⟨S64, .i32⟩
  | 40 => ⟨S64, .i32⟩
  | 41 => ⟨S_, .i32⟩
  | 42 => ⟨S1, .i32⟩
  | 43 => ⟨S_, .i32⟩
  | 44 => ⟨S_, .i32⟩
  | 45 => ⟨S64, .i32⟩
  | 46 => ⟨S63, .i32⟩
  | 47 => ⟨S64, .i32⟩
  | 48 => ⟨S_, .i32⟩
  | 49 => ⟨S4194304, .i32⟩
  | 50 => ⟨S4194304, .i1⟩
  | 51 => ⟨S_, .i32⟩
  | 52 => ⟨S4194304, .i32⟩
  | 53 => ⟨S4194304, .i32⟩
  | 54 => ⟨S4194304, .i32⟩
  | 55 => ⟨S4194304x1, .i32⟩
  | 56 => ⟨S4194304, .i32⟩
  | 57 => ⟨S4194304, .i32⟩
  | 58 => ⟨S_, .i32⟩
  | 59 => ⟨S4194304, .i32⟩
  | 60 => ⟨S4194304, .i1⟩
  | 61 => ⟨S_, .i32⟩
  | 62 => ⟨S4194304, .i32⟩
  | 63 => ⟨S4194304, .i32⟩
  | 64 => ⟨S4194304, .i32⟩
  | 65 => ⟨S4194304x1, .i32⟩
  | 66 => ⟨S4194304, .i32⟩
  | 67 => ⟨S4194304, .i32⟩
  | 68 => ⟨S4194304, .i32⟩
  | 69 => ⟨S_, .i32⟩
  | 70 => ⟨S4210688, .i32⟩
  | 71 => ⟨S_, .i32⟩
  | 72 => ⟨S4194304, .i32⟩
  | 73 => ⟨S4194304, .i1⟩
  | 74 => ⟨S_, .i32⟩
  | 75 => ⟨S4194304, .i32⟩
  | 76 => ⟨S4194304, .i32⟩
  | 77 => ⟨S4194304, .i32⟩
  | 78 => ⟨S4194304x1, .i32⟩
  | 79 => ⟨S4210688, .i32⟩
  | 80 => ⟨S_, .i32⟩
  | 81 => ⟨S4210688, .i32⟩
  | 82 => ⟨S_, .i32⟩
  | 83 => ⟨S4194304, .i32⟩
  | 84 => ⟨S4194304, .i1⟩
  | 85 => ⟨S_, .i32⟩
  | 86 => ⟨S4194304, .i32⟩
  | 87 => ⟨S4194304, .i32⟩
  | 88 => ⟨S4194304, .i32⟩
  | 89 => ⟨S4194304x1, .i32⟩
  | 90 => ⟨S4210688, .i32⟩
  | 91 => ⟨S_, .i32⟩
  | 92 => ⟨S4210688, .i32⟩
  | 93 => ⟨S_, .i32⟩
  | 94 => ⟨S4194304, .i32⟩
  | 95 => ⟨S4194304, .i1⟩
  | 96 => ⟨S_, .i32⟩
  | 97 => ⟨S4194304, .i32⟩
  | 98 => ⟨S4194304, .i32⟩
  | 99 => ⟨S4194304, .i32⟩
  | 100 => ⟨S4194304x1, .i32⟩
  | 101 => ⟨S4210688, .i32⟩
  | 102 => ⟨S_, .f32⟩
  | 103 => ⟨S4210688, .f32⟩
  | 104 => ⟨S_, .i32⟩
  | 105 => ⟨S4194304, .i32⟩
  | 106 => ⟨S4194304, .i1⟩
  | 107 => ⟨S_, .i32⟩
  | 108 => ⟨S4194304, .i32⟩
  | 109 => ⟨S4194304, .i32⟩
  | 110 => ⟨S4194304, .i32⟩
  | 111 => ⟨S4194304x1, .i32⟩
  | 112 => ⟨S4210688, .f32⟩
  | 113 => ⟨S_, .f32⟩
  | 114 => ⟨S4210688, .f32⟩
  | 115 => ⟨S_, .i32⟩
  | 116 => ⟨S4194304, .i32⟩
  | 117 => ⟨S4194304, .i1⟩
  | 118 => ⟨S_, .i32⟩
  | 119 => ⟨S4194304, .i32⟩
  | 120 => ⟨S4194304, .i32⟩
  | 121 => ⟨S4194304, .i32⟩
  | 122 => ⟨S4194304x1, .i32⟩
  | 123 => ⟨S4210688, .f32⟩
  | 124 => ⟨S_, .f32⟩
  | 125 => ⟨S4210688, .f32⟩
  | 126 => ⟨S_, .i32⟩
  | 127 => ⟨S4194304, .i32⟩
  | _ => ⟨S4194304x3, .f32⟩

abbrev hbmTy0_2 (i : Nat) : BufTy := match i % 128 with
  | 0 => ⟨S4194304, .i1⟩
  | 1 => ⟨S_, .i32⟩
  | 2 => ⟨S4194304, .i32⟩
  | 3 => ⟨S4194304, .i32⟩
  | 4 => ⟨S4194304, .i32⟩
  | 5 => ⟨S4194304x1, .i32⟩
  | 6 => ⟨S4210688, .f32⟩
  | 7 => ⟨S64, .i32⟩
  | 8 => ⟨S16448, .i32⟩
  | 9 => ⟨S_, .i32⟩
  | 10 => ⟨S16448, .i32⟩
  | 11 => ⟨S16448, .i32⟩
  | 12 => ⟨S16448x1, .i32⟩
  | 13 => ⟨S1x64, .i32⟩
  | 14 => ⟨S16448x64, .i32⟩
  | 15 => ⟨S16448x64, .i32⟩
  | 16 => ⟨S16448x64, .i1⟩
  | 17 => ⟨S16448x1, .i32⟩
  | 18 => ⟨S1x64, .i32⟩
  | 19 => ⟨S16448x64, .i32⟩
  | 20 => ⟨S16448x64, .i32⟩
  | 21 => ⟨S16448x64, .i1⟩
  | 22 => ⟨S16448x64, .i1⟩
  | 23 => ⟨S16448x64, .i32⟩
  | 24 => ⟨S64, .i32⟩
  | 25 => ⟨S1x64, .i32⟩
  | 26 => ⟨S16448x64, .i32⟩
  | 27 => ⟨S16448x64, .i32⟩
  | 28 => ⟨S_, .i32⟩
  | 29 => ⟨S64x64x4096, .f32⟩
  | 30 => ⟨S64x64x4096, .bf16⟩
  | 31 => ⟨S4210688, .f32⟩
  | 32 => ⟨S_, .i32⟩
  | 33 => ⟨S4194304, .i32⟩
  | 34 => ⟨S4194304, .i1⟩
  | 35 => ⟨S_, .i32⟩
  | 36 => ⟨S4194304, .i32⟩
  | 37 => ⟨S4194304, .i32⟩
  | 38 => ⟨S4194304, .i32⟩
  | 39 => ⟨S4194304x1, .i32⟩
  | 40 => ⟨S4194304, .f32⟩
  | _ => ⟨S4194304x3, .f32⟩

abbrev hbmTy (i : Nat) : BufTy := match i / 128 with
  | 0 => hbmTy0_0 i
  | 1 => hbmTy0_1 i
  | 2 => hbmTy0_2 i
  | _ => ⟨S4194304x3, .f32⟩

abbrev bufTy : (tb : Table) → Fin (tcTables nBuf tb) → BufTy
  | .hbm, ⟨i, _⟩ => hbmTy i
  | .local _ .vmem, ⟨0, _⟩ => ⟨S1x64x4096, .bf16⟩
  | .local _ .vmem, ⟨1, _⟩ => ⟨S1x64x4096, .bf16⟩
  | .local _ .vmem, ⟨2, _⟩ => ⟨S256, .i32⟩
  | .local _ .vmem, ⟨3, _⟩ => ⟨S256, .i32⟩
  | .local _ .vmem, ⟨4, _⟩ => ⟨S256, .i32⟩
  | .local _ .vmem, ⟨5, _⟩ => ⟨S256, .i32⟩
  | .local _ .vmem, ⟨6, _⟩ => ⟨S256, .i32⟩
  | .local _ .vmem, ⟨7, _⟩ => ⟨S256, .i32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .smem, ⟨0, _⟩ => ⟨S16448, .i32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_call1_v0 : Ref sig .tc := ⟨.hbm, 39, rfl⟩
abbrev main_call1_v1_0 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩
abbrev main_cst_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_17 : Ref sig .tc := ⟨.hbm, 100, rfl⟩
abbrev main_v69 : Ref sig .tc := ⟨.hbm, 101, rfl⟩
abbrev main_v70 : Ref sig .tc := ⟨.hbm, 102, rfl⟩
abbrev main_cst_18 : Ref sig .tc := ⟨.hbm, 103, rfl⟩
abbrev main_v71 : Ref sig .tc := ⟨.hbm, 104, rfl⟩
abbrev main_v72 : Ref sig .tc := ⟨.hbm, 105, rfl⟩
abbrev main_cst_19 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_20 : Ref sig .tc := ⟨.hbm, 111, rfl⟩
abbrev main_v77 : Ref sig .tc := ⟨.hbm, 112, rfl⟩
abbrev main_v78 : Ref sig .tc := ⟨.hbm, 113, rfl⟩
abbrev main_cst_21 : Ref sig .tc := ⟨.hbm, 114, rfl⟩
abbrev main_v79 : Ref sig .tc := ⟨.hbm, 115, rfl⟩
abbrev main_v80 : Ref sig .tc := ⟨.hbm, 116, rfl⟩
abbrev main_cst_22 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_23 : Ref sig .tc := ⟨.hbm, 129, rfl⟩
abbrev main_v92 : Ref sig .tc := ⟨.hbm, 130, rfl⟩
abbrev main_c_24 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_c_25 : Ref sig .tc := ⟨.hbm, 135, rfl⟩
abbrev main_v96 : Ref sig .tc := ⟨.hbm, 136, rfl⟩
abbrev main_call2_call0_c : Ref sig .tc := ⟨.hbm, 137, rfl⟩
abbrev main_call2_call0_v0 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_26 : Ref sig .tc := ⟨.hbm, 142, rfl⟩
abbrev main_v100 : Ref sig .tc := ⟨.hbm, 143, rfl⟩
abbrev main_v101 : Ref sig .tc := ⟨.hbm, 144, rfl⟩
abbrev main_c_27 : Ref sig .tc := ⟨.hbm, 145, rfl⟩
abbrev main_v102 : Ref sig .tc := ⟨.hbm, 146, rfl⟩
abbrev main_v103 : Ref sig .tc := ⟨.hbm, 147, rfl⟩
abbrev main_c_28 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_v6 : Ref sig .tc := ⟨.hbm, 155, rfl⟩
abbrev main_call3_v7 : Ref sig .tc := ⟨.hbm, 156, rfl⟩
abbrev main_call3_v8 : Ref sig .tc := ⟨.hbm, 157, rfl⟩
abbrev main_call3_c : Ref sig .tc := ⟨.hbm, 158, rfl⟩
abbrev main_call3_v9 : Ref sig .tc := ⟨.hbm, 159, rfl⟩
abbrev main_call3_v10 : Ref sig .tc := ⟨.hbm, 160, rfl⟩
abbrev main_call3_v11 : Ref sig .tc := ⟨.hbm, 161, rfl⟩
abbrev main_call3_c_0 : Ref sig .tc := ⟨.hbm, 162, rfl⟩
abbrev main_call3_v12 : Ref sig .tc := ⟨.hbm, 163, rfl⟩
abbrev main_call3_v13 : Ref sig .tc := ⟨.hbm, 164, rfl⟩
abbrev main_v104 : Ref sig .tc := ⟨.hbm, 165, rfl⟩
abbrev main_c_29 : Ref sig .tc := ⟨.hbm, 166, rfl⟩
abbrev main_v105 : Ref sig .tc := ⟨.hbm, 167, rfl⟩
abbrev main_v106 : Ref sig .tc := ⟨.hbm, 168, rfl⟩
abbrev main_c_30 : Ref sig .tc := ⟨.hbm, 169, rfl⟩
abbrev main_v107 : Ref sig .tc := ⟨.hbm, 170, rfl⟩
abbrev main_call4_call0_c : Ref sig .tc := ⟨.hbm, 171, rfl⟩
abbrev main_call4_call0_v0 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_c_31 : Ref sig .tc := ⟨.hbm, 176, rfl⟩
abbrev main_v111 : Ref sig .tc := ⟨.hbm, 177, rfl⟩
abbrev main_v112 : Ref sig .tc := ⟨.hbm, 178, rfl⟩
abbrev main_c_32 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_c_33 : Ref sig .tc := ⟨.hbm, 186, rfl⟩
abbrev main_v119 : Ref sig .tc := ⟨.hbm, 187, rfl⟩
abbrev main_v120 : Ref sig .tc := ⟨.hbm, 188, rfl⟩
abbrev main_c_34 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_c_35 : Ref sig .tc := ⟨.hbm, 197, rfl⟩
abbrev main_v128 : Ref sig .tc := ⟨.hbm, 198, rfl⟩
abbrev main_c_36 : Ref sig .tc := ⟨.hbm, 199, rfl⟩
abbrev main_v129 : Ref sig .tc := ⟨.hbm, 200, rfl⟩
abbrev main_v130 : Ref sig .tc := ⟨.hbm, 201, rfl⟩
abbrev main_c_37 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_c_38 : Ref sig .tc := ⟨.hbm, 208, rfl⟩
abbrev main_v136 : Ref sig .tc := ⟨.hbm, 209, rfl⟩
abbrev main_c_39 : Ref sig .tc := ⟨.hbm, 210, rfl⟩
abbrev main_v137 : Ref sig .tc := ⟨.hbm, 211, rfl⟩
abbrev main_v138 : Ref sig .tc := ⟨.hbm, 212, rfl⟩
abbrev main_c_40 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_c_41 : Ref sig .tc := ⟨.hbm, 219, rfl⟩
abbrev main_v144 : Ref sig .tc := ⟨.hbm, 220, rfl⟩
abbrev main_c_42 : Ref sig .tc := ⟨.hbm, 221, rfl⟩
abbrev main_v145 : Ref sig .tc := ⟨.hbm, 222, rfl⟩
abbrev main_v146 : Ref sig .tc := ⟨.hbm, 223, rfl⟩
abbrev main_c_43 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_cst_44 : Ref sig .tc := ⟨.hbm, 230, rfl⟩
abbrev main_v152 : Ref sig .tc := ⟨.hbm, 231, rfl⟩
abbrev main_c_45 : Ref sig .tc := ⟨.hbm, 232, rfl⟩
abbrev main_v153 : Ref sig .tc := ⟨.hbm, 233, rfl⟩
abbrev main_v154 : Ref sig .tc := ⟨.hbm, 234, rfl⟩
abbrev main_c_46 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_cst_47 : Ref sig .tc := ⟨.hbm, 241, rfl⟩
abbrev main_v160 : Ref sig .tc := ⟨.hbm, 242, rfl⟩
abbrev main_c_48 : Ref sig .tc := ⟨.hbm, 243, rfl⟩
abbrev main_v161 : Ref sig .tc := ⟨.hbm, 244, rfl⟩
abbrev main_v162 : Ref sig .tc := ⟨.hbm, 245, rfl⟩
abbrev main_c_49 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_cst_50 : Ref sig .tc := ⟨.hbm, 252, rfl⟩
abbrev main_v168 : Ref sig .tc := ⟨.hbm, 253, rfl⟩
abbrev main_c_51 : Ref sig .tc := ⟨.hbm, 254, rfl⟩
abbrev main_v169 : Ref sig .tc := ⟨.hbm, 255, rfl⟩
abbrev main_v170 : Ref sig .tc := ⟨.hbm, 256, rfl⟩
abbrev main_c_52 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_c_53 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_c_54 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_c_55 : Ref sig .tc := ⟨.hbm, 288, rfl⟩
abbrev main_v200 : Ref sig .tc := ⟨.hbm, 289, rfl⟩
abbrev main_v201 : Ref sig .tc := ⟨.hbm, 290, rfl⟩
abbrev main_c_56 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v196 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16448], ![false]⟩

abbrev pre0 : Pipeline.Prefetch sig := ⟨1, ![main_v196.idx], fun | 0 => main_v196.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16448.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16448) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x3_S1x3_1_0 : S2x3.Slices ![1, 0] S1x3
  shapeCasts_S1x3_S3 : S1x3.ShapeCasts S3
  slices_S2x3_S1x3_0_0 : S2x3.Slices ![0, 0] S1x3
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  bcast_S_S3 : S_.BroadcastsInDim S3 (![] : Fin 0 → Fin S3.rank)
  bcast_S_S4194304x3 : S_.BroadcastsInDim S4194304x3 (![] : Fin 0 → Fin S4194304x3.rank)
  reducesTo_S4194304x3_S4194304_d1 : S4194304x3.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  bcast_S_S64 : S_.BroadcastsInDim S64 (![] : Fin 0 → Fin S64.rank)
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  slices_S64_S63_0 : S64.Slices ![0] S63
  concatenates_S1_S63_S64_d0 : Shape.Concatenates [S1, S63] S64 0
  bcast_S_S4210688 : S_.BroadcastsInDim S4210688 (![] : Fin 0 → Fin S4210688.rank)
  bcast_S_S16448 : S_.BroadcastsInDim S16448 (![] : Fin 0 → Fin S16448.rank)
  bcast_S16448_S16448x1_0 : S16448.BroadcastsInDim S16448x1 (![0] : Fin 1 → Fin S16448x1.rank)
  bcast_S64_S1x64_1 : S64.BroadcastsInDim S1x64 (![1] : Fin 1 → Fin S1x64.rank)
  bcast_S16448x1_S16448x64_0_1 : S16448x1.BroadcastsInDim S16448x64 (![0, 1] : Fin 2 → Fin S16448x64.rank)
  bcast_S1x64_S16448x64_0_1 : S1x64.BroadcastsInDim S16448x64 (![0, 1] : Fin 2 → Fin S16448x64.rank)
  natLt_1_32 : 1 < 32
  reducesTo_S16448x64_S16448_d1 : S16448x64.ReducesTo [1] S16448
  shapeCasts_S256x256x256_S64x64x4096 : S256x256x256.ShapeCasts S64x64x4096
  bitsLt_bf16_f32 : FTy.bits .bf16 < FTy.bits .f32
  numel1_S1 : S1.numel = 1
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S256_S256_0 : ∀ a, (![0] : Fin 1 → Nat) a + S256.size a ≤ S256.size a
  h_S256 : 0 < S256.numel
  shapeCasts_S256_S256 : S256.ShapeCasts S256
  iota_S256x64_d1_w32 : S256x64.Iotas .tc 32 [1]
  shapeCasts_S256_S256x1 : S256.ShapeCasts S256x1
  broadcasts_S256x1_S256x64 : S256x1.Broadcasts S256x64
  shapeCasts_S256x1_S256x1 : S256x1.ShapeCasts S256x1
  iota_S1x4096_d1_w32 : S1x4096.Iotas .tc 32 [1]
  broadcasts_S1x4096_S256x4096 : S1x4096.Broadcasts S256x4096
  broadcasts_S256x1_S256x4096 : S256x1.Broadcasts S256x4096
  reduces_S256x4096_S256 : S256x4096.Reduces [1] S256
  gather_S4194304_S4194304x1_S4194304_n_0_n_n_0_1_1_wf : GatherDims.WF S4194304 S4194304x1 S4194304 [] [0] [] [0] [] 1 ![1]
  gather_S4194304x3_S4194304x1_S4194304x3_1_0_n_n_0_1_13_wf : GatherDims.WF S4194304x3 S4194304x1 S4194304x3 [1] [0] [] [0] [] 1 ![1, 3]
  gather_S64x3_S4194304x1_S4194304x3_1_0_n_n_0_1_13_wf : GatherDims.WF S64x3 S4194304x1 S4194304x3 [1] [0] [] [0] [] 1 ![1, 3]
  scatter_S64_S4194304x1_S4194304_n_0_0_1_wf : ScatterDims.WF S64 S4194304x1 S4194304 [] [0] [0] 1
  gather_S64_S4194304x1_S4194304_n_0_n_n_0_1_1_wf : GatherDims.WF S64 S4194304x1 S4194304 [] [0] [] [0] [] 1 ![1]
  scatter_S4210688_S4194304x1_S4194304_n_0_0_1_wf : ScatterDims.WF S4210688 S4194304x1 S4194304 [] [0] [0] 1
  dot_S256x64_S64x4096_S256x4096_1_0_0_1_n_n_wf : DotDims.WF S256x64 S64x4096 S256x4096 [1] [0] [0] [1] [] []
  gather_S4210688_S4194304x1_S4194304_n_0_n_n_0_1_1_wf : GatherDims.WF S4210688 S4194304x1 S4194304 [] [0] [] [0] [] 1 ![1]
  hrank0 : 0 < grid0.rank
  k0_off1_inb : ∀ i : grid0.Coords, ∀ a, (k0_off1 i) a + S1.size a ≤ S16448.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S4210688.size a
  hwx0_1 : ∀ i : grid0.Coords, EltTy.bits .i32 = 32 ∨ (Rect.block (s := S4210688) S256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S4210688.size a
  hwx0_2 : ∀ i : grid0.Coords, EltTy.bits .i32 = 32 ∨ (Rect.block (s := S4210688) S256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S4210688.size a
  hwx0_3 : ∀ i : grid0.Coords, EltTy.bits .i32 = 32 ∨ (Rect.block (s := S4210688) S256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S4210688.size a
  hwx0_4 : ∀ i : grid0.Coords, EltTy.bits .f32 = 32 ∨ (Rect.block (s := S4210688) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S4210688.size a
  hwx0_5 : ∀ i : grid0.Coords, EltTy.bits .f32 = 32 ∨ (Rect.block (s := S4210688) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S4210688.size a
  hwx0_6 : ∀ i : grid0.Coords, EltTy.bits .f32 = 32 ∨ (Rect.block (s := S4210688) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S4210688.size a
  hwx0_7 : ∀ i : grid0.Coords, EltTy.bits .f32 = 32 ∨ (Rect.block (s := S4210688) S256.size (cc0_transform_7 i) (hinb0_7 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S4194304_S4194304x1_S4194304_n_0_n_n_0_1_1 : GatherDims S4194304 S4194304x1 S4194304 where
  offsetDims := []
  collapsedSliceDims := [0]
  operandBatchingDims := []
  startIndicesBatchingDims := []
  startIndexMap := [0]
  indexVectorDim := 1
  sliceSizes := ![1]
  wf := gather_S4194304_S4194304x1_S4194304_n_0_n_n_0_1_1_wf
def gather_S4194304x3_S4194304x1_S4194304x3_1_0_n_n_0_1_13 : GatherDims S4194304x3 S4194304x1 S4194304x3 where
  offsetDims := [1]
  collapsedSliceDims := [0]
  operandBatchingDims := []
  startIndicesBatchingDims := []
  startIndexMap := [0]
  indexVectorDim := 1
  sliceSizes := ![1, 3]
  wf := gather_S4194304x3_S4194304x1_S4194304x3_1_0_n_n_0_1_13_wf
def gather_S64x3_S4194304x1_S4194304x3_1_0_n_n_0_1_13 : GatherDims S64x3 S4194304x1 S4194304x3 where
  offsetDims := [1]
  collapsedSliceDims := [0]
  operandBatchingDims := []
  startIndicesBatchingDims := []
  startIndexMap := [0]
  indexVectorDim := 1
  sliceSizes := ![1, 3]
  wf := gather_S64x3_S4194304x1_S4194304x3_1_0_n_n_0_1_13_wf
def scatter_S64_S4194304x1_S4194304_n_0_0_1 : ScatterDims S64 S4194304x1 S4194304 where
  updateWindowDims := []
  insertedWindowDims := [0]
  scatterDimsToOperandDims := [0]
  indexVectorDim := 1
  wf := scatter_S64_S4194304x1_S4194304_n_0_0_1_wf
def gather_S64_S4194304x1_S4194304_n_0_n_n_0_1_1 : GatherDims S64 S4194304x1 S4194304 where
  offsetDims := []
  collapsedSliceDims := [0]
  operandBatchingDims := []
  startIndicesBatchingDims := []
  startIndexMap := [0]
  indexVectorDim := 1
  sliceSizes := ![1]
  wf := gather_S64_S4194304x1_S4194304_n_0_n_n_0_1_1_wf
def scatter_S4210688_S4194304x1_S4194304_n_0_0_1 : ScatterDims S4210688 S4194304x1 S4194304 where
  updateWindowDims := []
  insertedWindowDims := [0]
  scatterDimsToOperandDims := [0]
  indexVectorDim := 1
  wf := scatter_S4210688_S4194304x1_S4194304_n_0_0_1_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def gather_S4210688_S4194304x1_S4194304_n_0_n_n_0_1_1 : GatherDims S4210688 S4194304x1 S4194304 where
  offsetDims := []
  collapsedSliceDims := [0]
  operandBatchingDims := []
  startIndicesBatchingDims := []
  startIndexMap := [0]
  indexVectorDim := 1
  sliceSizes := ![1]
  wf := gather_S4210688_S4194304x1_S4194304_n_0_n_n_0_1_1_wf

abbrev spec0_0 : Pipeline.WinSpec sig grid0.rank :=
  Pipeline.WinSpec.ofSpec (Memref.whole main_v198) S1x64x4096.size reads0_0 false false 2 stage0_0 sem0_0 nbuf0_0 hstage0_0

abbrev spec0_1 : Pipeline.WinSpec sig grid0.rank :=
  Pipeline.WinSpec.ofSpec (Memref.whole main_v135) S256.size reads0_1 false false 2 stage0_1 sem0_1 nbuf0_1 hstage0_1

abbrev spec0_2 : Pipeline.WinSpec sig grid0.rank :=
  Pipeline.WinSpec.ofSpec (Memref.whole main_v143) S256.size reads0_2 false false 2 stage0_2 sem0_2 nbuf0_2 hstage0_2

abbrev spec0_3 : Pipeline.WinSpec sig grid0.rank :=
  Pipeline.WinSpec.ofSpec (Memref.whole main_v151) S256.size reads0_3 false false 2 stage0_3 sem0_3 nbuf0_3 hstage0_3

abbrev spec0_4 : Pipeline.WinSpec sig grid0.rank :=
  Pipeline.WinSpec.ofSpec (Memref.whole main_v159) S256.size reads0_4 false false 2 stage0_4 sem0_4 nbuf0_4 hstage0_4

abbrev spec0_5 : Pipeline.WinSpec sig grid0.rank :=
  Pipeline.WinSpec.ofSpec (Memref.whole main_v167) S256.size reads0_5 false false 2 stage0_5 sem0_5 nbuf0_5 hstage0_5

abbrev spec0_6 : Pipeline.WinSpec sig grid0.rank :=
  Pipeline.WinSpec.ofSpec (Memref.whole main_v175) S256.size reads0_6 false false 2 stage0_6 sem0_6 nbuf0_6 hstage0_6

abbrev spec0_7 : Pipeline.WinSpec sig grid0.rank :=
  Pipeline.WinSpec.ofSpec (Memref.whole main_v199) S256.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 k0_off1_inb numel1_S1 pf | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x64x4096.size a ≤ S64x64x4096.size a), EltTy.bits .bf16 = 32 ∨ (Rect.block (s := S64x64x4096) S1x64x4096.size (cc0_transform_0 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S4194304x3 : Shape := ⟨2, ![4194304, 3]⟩
abbrev S2x3 : Shape := ⟨2, ![2, 3]⟩
abbrev S256x256x256 : Shape := ⟨3, ![256, 256, 256]⟩
abbrev S64x3 : Shape := ⟨2, ![64, 3]⟩
abbrev S3 : Shape := ⟨1, ![3]⟩
abbrev S1x3 : Shape := ⟨2, ![1, 3]⟩
abbrev S_ : Shape := ⟨0, ![]⟩
abbrev S4194304 : Shape := ⟨1, ![4194304]⟩
abbrev S4194304x1 : Shape := ⟨2, ![4194304, 1]⟩
abbrev S64x64x64x64 : Shape := ⟨4, ![64, 64, 64, 64]⟩
abbrev S4194304x4 : Shape := ⟨2, ![4194304, 4]⟩

abbrev nBuf : Space → Nat
  | .hbm => 946
  | .vmem => 0
  | .smem => 0
  | _ => 0

abbrev hbmTy0_0 (i : Nat) : BufTy := match i % 128 with
  | 0 => ⟨S4194304x3, .f32⟩
  | 1 => ⟨S2x3, .f32⟩
  | 2 => ⟨S256x256x256, .f32⟩
  | 3 => ⟨S64x3, .f32⟩
  | 4 => ⟨S64x3, .f32⟩
  | 5 => ⟨S3, .f32⟩
  | 6 => ⟨S3, .i32⟩
  | 7 => ⟨S3, .i32⟩
  | 8 => ⟨S1x3, .f32⟩
  | 9 => ⟨S3, .f32⟩
  | 10 => ⟨S1x3, .f32⟩
  | 11 => ⟨S3, .f32⟩
  | 12 => ⟨S3, .f32⟩
  | 13 => ⟨S3, .f32⟩
  | 14 => ⟨S1x3, .f32⟩
  | 15 => ⟨S3, .f32⟩
  | 16 => ⟨S1x3, .f32⟩
  | 17 => ⟨S4194304x3, .f32⟩
  | 18 => ⟨S4194304x3, .f32⟩
  | 19 => ⟨S1x3, .f32⟩
  | 20 => ⟨S4194304x3, .f32⟩
  | 21 => ⟨S4194304x3, .f32⟩
  | 22 => ⟨S4194304x3, .f32⟩
  | 23 => ⟨S4194304x3, .i32⟩
  | 24 => ⟨S_, .i32⟩
  | 25 => ⟨S3, .i32⟩
  | 26 => ⟨S3, .i32⟩
  | 27 => ⟨S_, .i32⟩
  | 28 => ⟨S_, .i32⟩
  | 29 => ⟨S4194304x3, .i32⟩
  | 30 => ⟨S4194304x3, .i32⟩
  | 31 => ⟨S1x3, .i32⟩
  | 32 => ⟨S4194304x3, .i32⟩
  | 33 => ⟨S4194304x3, .i32⟩
  | 34 => ⟨S1x3, .i32⟩
  | 35 => ⟨S4194304x3, .i32⟩
  | 36 => ⟨S4194304x3, .i32⟩
  | 37 => ⟨S_, .i32⟩
  | 38 => ⟨S4194304, .i32⟩
  | 39 => ⟨S4194304, .i32⟩
  | 40 => ⟨S4194304, .i32⟩
  | 41 => ⟨S4194304, .i32⟩
  | 42 => ⟨S_, .i32⟩
  | 43 => ⟨S4194304, .i32⟩
  | 44 => ⟨S4194304, .i1⟩
  | 45 => ⟨S_, .i32⟩
  | 46 => ⟨S4194304, .i32⟩
  | 47 => ⟨S4194304, .i32⟩
  | 48 => ⟨S4194304, .i32⟩
  | 49 => ⟨S4194304x1, .i32⟩
  | 50 => ⟨S4194304, .i32⟩
  | 51 => ⟨S_, .i32⟩
  | 52 => ⟨S4194304, .i32⟩
  | 53 => ⟨S4194304, .i1⟩
  | 54 => ⟨S_, .i32⟩
  | 55 => ⟨S4194304, .i32⟩
  | 56 => ⟨S4194304, .i32⟩
  | 57 => ⟨S4194304, .i32⟩
  | 58 => ⟨S4194304x1, .i32⟩
  | 59 => ⟨S4194304x3, .f32⟩
  | 60 => ⟨S_, .i32⟩
  | 61 => ⟨S4194304, .i32⟩
  | 62 => ⟨S4194304, .i1⟩
  | 63 => ⟨S_, .i32⟩
  | 64 => ⟨S4194304, .i32⟩
  | 65 => ⟨S4194304, .i32⟩
  | 66 => ⟨S4194304, .i32⟩
  | 67 => ⟨S4194304x1, .i32⟩
  | 68 => ⟨S4194304x3, .f32⟩
  | 69 => ⟨S4194304x3, .f32⟩
  | 70 => ⟨S_, .f32⟩
  | 71 => ⟨S4194304x3, .f32⟩
  | 72 => ⟨S4194304x3, .f32⟩
  | 73 => ⟨S_, .i32⟩
  | 74 => ⟨S4194304, .i32⟩
  | 75 => ⟨S4194304, .i1⟩
  | 76 => ⟨S_, .i32⟩
  | 77 => ⟨S4194304, .i32⟩
  | 78 => ⟨S4194304, .i32⟩
  | 79 => ⟨S4194304, .i32⟩
  | 80 => ⟨S4194304x1, .i32⟩
  | 81 => ⟨S4194304x3, .f32⟩
  | 82 => ⟨S_, .i32⟩
  | 83 => ⟨S4194304, .i32⟩
  | 84 => ⟨S4194304, .i1⟩
  | 85 => ⟨S_, .i32⟩
  | 86 => ⟨S4194304, .i32⟩
  | 87 => ⟨S4194304, .i32⟩
  | 88 => ⟨S4194304, .i32⟩
  | 89 => ⟨S4194304x1, .i32⟩
  | 90 => ⟨S4194304x3, .f32⟩
  | 91 => ⟨S4194304x3, .f32⟩
  | 92 => ⟨S4194304x3, .f32⟩
  | 93 => ⟨S_, .f32⟩
  | 94 => ⟨S4194304x3, .f32⟩
  | 95 => ⟨S4194304x3, .f32⟩
  | 96 => ⟨S64x64x64x64, .f32⟩
  | 97 => ⟨S4194304x1, .f32⟩
  | 98 => ⟨S4194304, .f32⟩
  | 99 => ⟨S_, .f32⟩
  | 100 => ⟨S4194304, .f32⟩
  | 101 => ⟨S4194304, .f32⟩
  | 102 => ⟨S_, .f32⟩
  | 103 => ⟨S4194304, .f32⟩
  | 104 => ⟨S4194304, .f32⟩
  | 105 => ⟨S_, .f32⟩
  | 106 => ⟨S4194304, .f32⟩
  | 107 => ⟨S4194304, .f32⟩
  | 108 => ⟨S4194304x1, .f32⟩
  | 109 => ⟨S4194304, .f32⟩
  | 110 => ⟨S_, .f32⟩
  | 111 => ⟨S4194304, .f32⟩
  | 112 => ⟨S4194304, .f32⟩
  | 113 => ⟨S_, .f32⟩
  | 114 => ⟨S4194304, .f32⟩
  | 115 => ⟨S4194304, .f32⟩
  | 116 => ⟨S_, .f32⟩
  | 117 => ⟨S4194304, .f32⟩
  | 118 => ⟨S4194304, .f32⟩
  | 119 => ⟨S4194304x1, .f32⟩
  | 120 => ⟨S4194304, .f32⟩
  | 121 => ⟨S_, .f32⟩
  | 122 => ⟨S4194304, .f32⟩
  | 123 => ⟨S4194304, .f32⟩
  | 124 => ⟨S_, .f32⟩
  | 125 => ⟨S4194304, .f32⟩
  | 126 => ⟨S4194304, .f32⟩
  | 127 => ⟨S_, .f32⟩
  | _ => ⟨S4194304x3, .f32⟩

abbrev hbmTy0_1 (i : Nat) : BufTy := match i % 128 with
  | 0 => ⟨S4194304, .f32⟩
  | 1 => ⟨S4194304, .f32⟩
  | 2 => ⟨S4194304, .f32⟩
  | 3 => ⟨S4194304, .f32⟩
  | 4 => ⟨S4194304, .f32⟩
  | 5 => ⟨S4194304, .f32⟩
  | 6 => ⟨S4194304, .f32⟩
  | 7 => ⟨S4194304, .f32⟩
  | 8 => ⟨S4194304, .i32⟩
  | 9 => ⟨S4194304, .i32⟩
  | 10 => ⟨S4194304, .i32⟩
  | 11 => ⟨S_, .f32⟩
  | 12 => ⟨S4194304, .f32⟩
  | 13 => ⟨S_, .f32⟩
  | 14 => ⟨S4194304, .f32⟩
  | 15 => ⟨S4194304, .f32⟩
  | 16 => ⟨S_, .f32⟩
  | 17 => ⟨S4194304, .f32⟩
  | 18 => ⟨S4194304, .f32⟩
  | 19 => ⟨S_, .f32⟩
  | 20 => ⟨S4194304, .f32⟩
  | 21 => ⟨S4194304, .f32⟩
  | 22 => ⟨S4194304, .f32⟩
  | 23 => ⟨S4194304, .f32⟩
  | 24 => ⟨S_, .i32⟩
  | 25 => ⟨S4194304, .i32⟩
  | 26 => ⟨S4194304, .i32⟩
  | 27 => ⟨S_, .i32⟩
  | 28 => ⟨S4194304, .i32⟩
  | 29 => ⟨S4194304, .i32⟩
  | 30 => ⟨S_, .i32⟩
  | 31 => ⟨S4194304, .i32⟩
  | 32 => ⟨S4194304, .i32⟩
  | 33 => ⟨S_, .i32⟩
  | 34 => ⟨S4194304, .i32⟩
  | 35 => ⟨S4194304, .i1⟩
  | 36 => ⟨S_, .i32⟩
  | 37 => ⟨S4194304, .i32⟩
  | 38 => ⟨S4194304, .i1⟩
  | 39 => ⟨S4194304, .i1⟩
  | 40 => ⟨S_, .i32⟩
  | 41 => ⟨S4194304, .i32⟩
  | 42 => ⟨S4194304, .i1⟩
  | 43 => ⟨S4194304, .i1⟩
  | 44 => ⟨S_, .i32⟩
  | 45 => ⟨S4194304, .i32⟩
  | 46 => ⟨S4194304, .i1⟩
  | 47 => ⟨S4194304, .i1⟩
  | 48 => ⟨S_, .i32⟩
  | 49 => ⟨S4194304, .i32⟩
  | 50 => ⟨S4194304, .i1⟩
  | 51 => ⟨S4194304, .i1⟩
  | 52 => ⟨S_, .i32⟩
  | 53 => ⟨S4194304, .i32⟩
  | 54 => ⟨S4194304, .i1⟩
  | 55 => ⟨S4194304, .i1⟩
  | 56 => ⟨S_, .i32⟩
  | 57 => ⟨S_, .i32⟩
  | 58 => ⟨S_, .i32⟩
  | 59 => ⟨S4194304, .i32⟩
  | 60 => ⟨S4194304, .i32⟩
  | 61 => ⟨S_, .i32⟩
  | 62 => ⟨S4194304, .i32⟩
  | 63 => ⟨S4194304, .i32⟩
  | 64 => ⟨S_, .i32⟩
  | 65 => ⟨S_, .i32⟩
  | 66 => ⟨S_, .i32⟩
  | 67 => ⟨S4194304, .i32⟩
  | 68 => ⟨S4194304, .i32⟩
  | 69 => ⟨S_, .i32⟩
  | 70 => ⟨S4194304, .i32⟩
  | 71 => ⟨S4194304, .i32⟩
  | 72 => ⟨S_, .i32⟩
  | 73 => ⟨S_, .i32⟩
  | 74 => ⟨S_, .i32⟩
  | 75 => ⟨S4194304, .i32⟩
  | 76 => ⟨S4194304, .i32⟩
  | 77 => ⟨S_, .i32⟩
  | 78 => ⟨S4194304, .i32⟩
  | 79 => ⟨S4194304, .i32⟩
  | 80 => ⟨S_, .i32⟩
  | 81 => ⟨S4194304, .i32⟩
  | 82 => ⟨S4194304, .i1⟩
  | 83 => ⟨S_, .i32⟩
  | 84 => ⟨S4194304, .i32⟩
  | 85 => ⟨S4194304, .i32⟩
  | 86 => ⟨S4194304, .i32⟩
  | 87 => ⟨S_, .i32⟩
  | 88 => ⟨S4194304, .i32⟩
  | 89 => ⟨S4194304, .i1⟩
  | 90 => ⟨S_, .i32⟩
  | 91 => ⟨S4194304, .i32⟩
  | 92 => ⟨S4194304, .i32⟩
  | 93 => ⟨S4194304, .i32⟩
  | 94 => ⟨S_, .i32⟩
  | 95 => ⟨S4194304, .i32⟩
  | 96 => ⟨S4194304, .i1⟩
  | 97 => ⟨S_, .i32⟩
  | 98 => ⟨S4194304, .i32⟩
  | 99 => ⟨S4194304, .i32⟩
  | 100 => ⟨S4194304, .i32⟩
  | 101 => ⟨S_, .i32⟩
  | 102 => ⟨S4194304, .i32⟩
  | 103 => ⟨S4194304, .i1⟩
  | 104 => ⟨S_, .i32⟩
  | 105 => ⟨S4194304, .i32⟩
  | 106 => ⟨S4194304, .i32⟩
  | 107 => ⟨S4194304, .i32⟩
  | 108 => ⟨S4194304x1, .i32⟩
  | 109 => ⟨S4194304x1, .i32⟩
  | 110 => ⟨S4194304x1, .i32⟩
  | 111 => ⟨S4194304x1, .i32⟩
  | 112 => ⟨S4194304x4, .i32⟩
  | 113 => ⟨S4194304, .f32⟩
  | 114 => ⟨S_, .f32⟩
  | 115 => ⟨S_, .f32⟩
  | 116 => ⟨S4194304, .f32⟩
  | 117 => ⟨S4194304, .f32⟩
  | 118 => ⟨S4194304, .f32⟩
  | 119 => ⟨S4194304, .f32⟩
  | 120 => ⟨S4194304, .f32⟩
  | 121 => ⟨S4194304, .f32⟩
  | 122 => ⟨S_, .i32⟩
  | 123 => ⟨S4194304, .i32⟩
  | 124 => ⟨S4194304, .i32⟩
  | 125 => ⟨S_, .i32⟩
  | 126 => ⟨S4194304, .i32⟩
  | 127 => ⟨S4194304, .i32⟩
  | _ => ⟨S4194304x3, .f32⟩

abbrev hbmTy0_2 (i : Nat) : BufTy := match i % 128 with
  | 0 => ⟨S_, .i32⟩
  | 1 => ⟨S4194304, .i32⟩
  | 2 => ⟨S4194304, .i32⟩
  | 3 => ⟨S_, .i32⟩
  | 4 => ⟨S4194304, .i32⟩
  | 5 => ⟨S4194304, .i1⟩
  | 6 => ⟨S_, .i32⟩
  | 7 => ⟨S4194304, .i32⟩
  | 8 => ⟨S4194304, .i1⟩
  | 9 => ⟨S4194304, .i1⟩
  | 10 => ⟨S_, .i32⟩
  | 11 => ⟨S4194304, .i32⟩
  | 12 => ⟨S4194304, .i1⟩
  | 13 => ⟨S4194304, .i1⟩
  | 14 => ⟨S_, .i32⟩
  | 15 => ⟨S4194304, .i32⟩
  | 16 => ⟨S4194304, .i1⟩
  | 17 => ⟨S4194304, .i1⟩
  | 18 => ⟨S_, .i32⟩
  | 19 => ⟨S4194304, .i32⟩
  | 20 => ⟨S4194304, .i1⟩
  | 21 => ⟨S4194304, .i1⟩
  | 22 => ⟨S_, .i32⟩
  | 23 => ⟨S4194304, .i32⟩
  | 24 => ⟨S4194304, .i1⟩
  | 25 => ⟨S4194304, .i1⟩
  | 26 => ⟨S_, .i32⟩
  | 27 => ⟨S_, .i32⟩
  | 28 => ⟨S_, .i32⟩
  | 29 => ⟨S4194304, .i32⟩
  | 30 => ⟨S4194304, .i32⟩
  | 31 => ⟨S_, .i32⟩
  | 32 => ⟨S4194304, .i32⟩
  | 33 => ⟨S4194304, .i32⟩
  | 34 => ⟨S_, .i32⟩
  | 35 => ⟨S_, .i32⟩
  | 36 => ⟨S_, .i32⟩
  | 37 => ⟨S4194304, .i32⟩
  | 38 => ⟨S4194304, .i32⟩
  | 39 => ⟨S_, .i32⟩
  | 40 => ⟨S4194304, .i32⟩
  | 41 => ⟨S4194304, .i32⟩
  | 42 => ⟨S_, .i32⟩
  | 43 => ⟨S_, .i32⟩
  | 44 => ⟨S_, .i32⟩
  | 45 => ⟨S4194304, .i32⟩
  | 46 => ⟨S4194304, .i32⟩
  | 47 => ⟨S_, .i32⟩
  | 48 => ⟨S4194304, .i32⟩
  | 49 => ⟨S4194304, .i32⟩
  | 50 => ⟨S_, .i32⟩
  | 51 => ⟨S4194304, .i32⟩
  | 52 => ⟨S4194304, .i1⟩
  | 53 => ⟨S_, .i32⟩
  | 54 => ⟨S4194304, .i32⟩
  | 55 => ⟨S4194304, .i32⟩
  | 56 => ⟨S4194304, .i32⟩
  | 57 => ⟨S_, .i32⟩
  | 58 => ⟨S4194304, .i32⟩
  | 59 => ⟨S4194304, .i1⟩
  | 60 => ⟨S_, .i32⟩
  | 61 => ⟨S4194304, .i32⟩
  | 62 => ⟨S4194304, .i32⟩
  | 63 => ⟨S4194304, .i32⟩
  | 64 => ⟨S_, .i32⟩
  | 65 => ⟨S4194304, .i32⟩
  | 66 => ⟨S4194304, .i1⟩
  | 67 => ⟨S_, .i32⟩
  | 68 => ⟨S4194304, .i32⟩
  | 69 => ⟨S4194304, .i32⟩
  | 70 => ⟨S4194304, .i32⟩
  | 71 => ⟨S_, .i32⟩
  | 72 => ⟨S4194304, .i32⟩
  | 73 => ⟨S4194304, .i1⟩
  | 74 => ⟨S_, .i32⟩
  | 75 => ⟨S4194304, .i32⟩
  | 76 => ⟨S4194304, .i32⟩
  | 77 => ⟨S4194304, .i32⟩
  | 78 => ⟨S4194304x1, .i32⟩
  | 79 => ⟨S4194304x1, .i32⟩
  | 80 => ⟨S4194304x1, .i32⟩
  | 81 => ⟨S4194304x1, .i32⟩
  | 82 => ⟨S4194304x4, .i32⟩
  | 83 => ⟨S4194304, .f32⟩
  | 84 => ⟨S_, .f32⟩
  | 85 => ⟨S_, .f32⟩
  | 86 => ⟨S4194304, .f32⟩
  | 87 => ⟨S4194304, .f32⟩
  | 88 => ⟨S4194304, .f32⟩
  | 89 => ⟨S4194304, .f32⟩
  | 90 => ⟨S_, .f32⟩
  | 91 => ⟨S4194304, .f32⟩
  | 92 => ⟨S4194304, .f32⟩
  | 93 => ⟨S4194304, .f32⟩
  | 94 => ⟨S4194304, .f32⟩
  | 95 => ⟨S_, .i32⟩
  | 96 => ⟨S4194304, .i32⟩
  | 97 => ⟨S4194304, .i32⟩
  | 98 => ⟨S_, .i32⟩
  | 99 => ⟨S4194304, .i32⟩
  | 100 => ⟨S4194304, .i32⟩
  | 101 => ⟨S_, .i32⟩
  | 102 => ⟨S4194304, .i32⟩
  | 103 => ⟨S4194304, .i32⟩
  | 104 => ⟨S_, .i32⟩
  | 105 => ⟨S4194304, .i32⟩
  | 106 => ⟨S4194304, .i1⟩
  | 107 => ⟨S_, .i32⟩
  | 108 => ⟨S4194304, .i32⟩
  | 109 => ⟨S4194304, .i1⟩
  | 110 => ⟨S4194304, .i1⟩
  | 111 => ⟨S_, .i32⟩
  | 112 => ⟨S4194304, .i32⟩
  | 113 => ⟨S4194304, .i1⟩
  | 114 => ⟨S4194304, .i1⟩
  | 115 => ⟨S_, .i32⟩
  | 116 => ⟨S4194304, .i32⟩
  | 117 => ⟨S4194304, .i1⟩
  | 118 => ⟨S4194304, .i1⟩
  | 119 => ⟨S_, .i32⟩
  | 120 => ⟨S4194304, .i32⟩
  | 121 => ⟨S4194304, .i1⟩
  | 122 => ⟨S4194304, .i1⟩
  | 123 => ⟨S_, .i32⟩
  | 124 => ⟨S4194304, .i32⟩
  | 125 => ⟨S4194304, .i1⟩
  | 126 => ⟨S4194304, .i1⟩
  | 127 => ⟨S_, .i32⟩
  | _ => ⟨S4194304x3, .f32⟩

abbrev hbmTy0_3 (i : Nat) : BufTy := match i % 128 with
  | 0 => ⟨S_, .i32⟩
  | 1 => ⟨S_, .i32⟩
  | 2 => ⟨S4194304, .i32⟩
  | 3 => ⟨S4194304, .i32⟩
  | 4 => ⟨S_, .i32⟩
  | 5 => ⟨S4194304, .i32⟩
  | 6 => ⟨S4194304, .i32⟩
  | 7 => ⟨S_, .i32⟩
  | 8 => ⟨S_, .i32⟩
  | 9 => ⟨S_, .i32⟩
  | 10 => ⟨S4194304, .i32⟩
  | 11 => ⟨S4194304, .i32⟩
  | 12 => ⟨S_, .i32⟩
  | 13 => ⟨S4194304, .i32⟩
  | 14 => ⟨S4194304, .i32⟩
  | 15 => ⟨S_, .i32⟩
  | 16 => ⟨S_, .i32⟩
  | 17 => ⟨S_, .i32⟩
  | 18 => ⟨S4194304, .i32⟩
  | 19 => ⟨S4194304, .i32⟩
  | 20 => ⟨S_, .i32⟩
  | 21 => ⟨S4194304, .i32⟩
  | 22 => ⟨S4194304, .i32⟩
  | 23 => ⟨S_, .i32⟩
  | 24 => ⟨S4194304, .i32⟩
  | 25 => ⟨S4194304, .i1⟩
  | 26 => ⟨S_, .i32⟩
  | 27 => ⟨S4194304, .i32⟩
  | 28 => ⟨S4194304, .i32⟩
  | 29 => ⟨S4194304, .i32⟩
  | 30 => ⟨S_, .i32⟩
  | 31 => ⟨S4194304, .i32⟩
  | 32 => ⟨S4194304, .i1⟩
  | 33 => ⟨S_, .i32⟩
  | 34 => ⟨S4194304, .i32⟩
  | 35 => ⟨S4194304, .i32⟩
  | 36 => ⟨S4194304, .i32⟩
  | 37 => ⟨S_, .i32⟩
  | 38 => ⟨S4194304, .i32⟩
  | 39 => ⟨S4194304, .i1⟩
  | 40 => ⟨S_, .i32⟩
  | 41 => ⟨S4194304, .i32⟩
  | 42 => ⟨S4194304, .i32⟩
  | 43 => ⟨S4194304, .i32⟩
  | 44 => ⟨S_, .i32⟩
  | 45 => ⟨S4194304, .i32⟩
  | 46 => ⟨S4194304, .i1⟩
  | 47 => ⟨S_, .i32⟩
  | 48 => ⟨S4194304, .i32⟩
  | 49 => ⟨S4194304, .i32⟩
  | 50 => ⟨S4194304, .i32⟩
  | 51 => ⟨S4194304x1, .i32⟩
  | 52 => ⟨S4194304x1, .i32⟩
  | 53 => ⟨S4194304x1, .i32⟩
  | 54 => ⟨S4194304x1, .i32⟩
  | 55 => ⟨S4194304x4, .i32⟩
  | 56 => ⟨S4194304, .f32⟩
  | 57 => ⟨S_, .f32⟩
  | 58 => ⟨S_, .f32⟩
  | 59 => ⟨S4194304, .f32⟩
  | 60 => ⟨S4194304, .f32⟩
  | 61 => ⟨S4194304, .f32⟩
  | 62 => ⟨S4194304, .f32⟩
  | 63 => ⟨S4194304, .f32⟩
  | 64 => ⟨S4194304, .f32⟩
  | 65 => ⟨S_, .i32⟩
  | 66 => ⟨S4194304, .i32⟩
  | 67 => ⟨S4194304, .i32⟩
  | 68 => ⟨S_, .i32⟩
  | 69 => ⟨S4194304, .i32⟩
  | 70 => ⟨S4194304, .i32⟩
  | 71 => ⟨S_, .i32⟩
  | 72 => ⟨S4194304, .i32⟩
  | 73 => ⟨S4194304, .i32⟩
  | 74 => ⟨S_, .i32⟩
  | 75 => ⟨S4194304, .i32⟩
  | 76 => ⟨S4194304, .i1⟩
  | 77 => ⟨S_, .i32⟩
  | 78 => ⟨S4194304, .i32⟩
  | 79 => ⟨S4194304, .i1⟩
  | 80 => ⟨S4194304, .i1⟩
  | 81 => ⟨S_, .i32⟩
  | 82 => ⟨S4194304, .i32⟩
  | 83 => ⟨S4194304, .i1⟩
  | 84 => ⟨S4194304, .i1⟩
  | 85 => ⟨S_, .i32⟩
  | 86 => ⟨S4194304, .i32⟩
  | 87 => ⟨S4194304, .i1⟩
  | 88 => ⟨S4194304, .i1⟩
  | 89 => ⟨S_, .i32⟩
  | 90 => ⟨S4194304, .i32⟩
  | 91 => ⟨S4194304, .i1⟩
  | 92 => ⟨S4194304, .i1⟩
  | 93 => ⟨S_, .i32⟩
  | 94 => ⟨S4194304, .i32⟩
  | 95 => ⟨S4194304, .i1⟩
  | 96 => ⟨S4194304, .i1⟩
  | 97 => ⟨S_, .i32⟩
  | 98 => ⟨S_, .i32⟩
  | 99 => ⟨S_, .i32⟩
  | 100 => ⟨S4194304, .i32⟩
  | 101 => ⟨S4194304, .i32⟩
  | 102 => ⟨S_, .i32⟩
  | 103 => ⟨S4194304, .i32⟩
  | 104 => ⟨S4194304, .i32⟩
  | 105 => ⟨S_, .i32⟩
  | 106 => ⟨S_, .i32⟩
  | 107 => ⟨S_, .i32⟩
  | 108 => ⟨S4194304, .i32⟩
  | 109 => ⟨S4194304, .i32⟩
  | 110 => ⟨S_, .i32⟩
  | 111 => ⟨S4194304, .i32⟩
  | 112 => ⟨S4194304, .i32⟩
  | 113 => ⟨S_, .i32⟩
  | 114 => ⟨S_, .i32⟩
  | 115 => ⟨S_, .i32⟩
  | 116 => ⟨S4194304, .i32⟩
  | 117 => ⟨S4194304, .i32⟩
  | 118 => ⟨S_, .i32⟩
  | 119 => ⟨S4194304, .i32⟩
  | 120 => ⟨S4194304, .i32⟩
  | 121 => ⟨S_, .i32⟩
  | 122 => ⟨S4194304, .i32⟩
  | 123 => ⟨S4194304, .i1⟩
  | 124 => ⟨S_, .i32⟩
  | 125 => ⟨S4194304, .i32⟩
  | 126 => ⟨S4194304, .i32⟩
  | 127 => ⟨S4194304, .i32⟩
  | _ => ⟨S4194304x3, .f32⟩

abbrev hbmTy0_4 (i : Nat) : BufTy := match i % 128 with
  | 0 => ⟨S_, .i32⟩
  | 1 => ⟨S4194304, .i32⟩
  | 2 => ⟨S4194304, .i1⟩
  | 3 => ⟨S_, .i32⟩
  | 4 => ⟨S4194304, .i32⟩
  | 5 => ⟨S4194304, .i32⟩
  | 6 => ⟨S4194304, .i32⟩
  | 7 => ⟨S_, .i32⟩
  | 8 => ⟨S4194304, .i32⟩
  | 9 => ⟨S4194304, .i1⟩
  | 10 => ⟨S_, .i32⟩
  | 11 => ⟨S4194304, .i32⟩
  | 12 => ⟨S4194304, .i32⟩
  | 13 => ⟨S4194304, .i32⟩
  | 14 => ⟨S_, .i32⟩
  | 15 => ⟨S4194304, .i32⟩
  | 16 => ⟨S4194304, .i1⟩
  | 17 => ⟨S_, .i32⟩
  | 18 => ⟨S4194304, .i32⟩
  | 19 => ⟨S4194304, .i32⟩
  | 20 => ⟨S4194304, .i32⟩
  | 21 => ⟨S4194304x1, .i32⟩
  | 22 => ⟨S4194304x1, .i32⟩
  | 23 => ⟨S4194304x1, .i32⟩
  | 24 => ⟨S4194304x1, .i32⟩
  | 25 => ⟨S4194304x4, .i32⟩
  | 26 => ⟨S4194304, .f32⟩
  | 27 => ⟨S_, .f32⟩
  | 28 => ⟨S_, .f32⟩
  | 29 => ⟨S4194304, .f32⟩
  | 30 => ⟨S4194304, .f32⟩
  | 31 => ⟨S4194304, .f32⟩
  | 32 => ⟨S4194304, .f32⟩
  | 33 => ⟨S_, .f32⟩
  | 34 => ⟨S4194304, .f32⟩
  | 35 => ⟨S4194304, .f32⟩
  | 36 => ⟨S_, .f32⟩
  | 37 => ⟨S4194304, .f32⟩
  | 38 => ⟨S4194304, .f32⟩
  | 39 => ⟨S4194304, .f32⟩
  | 40 => ⟨S4194304, .f32⟩
  | 41 => ⟨S_, .i32⟩
  | 42 => ⟨S4194304, .i32⟩
  | 43 => ⟨S4194304, .i32⟩
  | 44 => ⟨S_, .i32⟩
  | 45 => ⟨S4194304, .i32⟩
  | 46 => ⟨S4194304, .i32⟩
  | 47 => ⟨S_, .i32⟩
  | 48 => ⟨S4194304, .i32⟩
  | 49 => ⟨S4194304, .i32⟩
  | 50 => ⟨S_, .i32⟩
  | 51 => ⟨S4194304, .i32⟩
  | 52 => ⟨S4194304, .i1⟩
  | 53 => ⟨S_, .i32⟩
  | 54 => ⟨S4194304, .i32⟩
  | 55 => ⟨S4194304, .i1⟩
  | 56 => ⟨S4194304, .i1⟩
  | 57 => ⟨S_, .i32⟩
  | 58 => ⟨S4194304, .i32⟩
  | 59 => ⟨S4194304, .i1⟩
  | 60 => ⟨S4194304, .i1⟩
  | 61 => ⟨S_, .i32⟩
  | 62 => ⟨S4194304, .i32⟩
  | 63 => ⟨S4194304, .i1⟩
  | 64 => ⟨S4194304, .i1⟩
  | 65 => ⟨S_, .i32⟩
  | 66 => ⟨S4194304, .i32⟩
  | 67 => ⟨S4194304, .i1⟩
  | 68 => ⟨S4194304, .i1⟩
  | 69 => ⟨S_, .i32⟩
  | 70 => ⟨S4194304, .i32⟩
  | 71 => ⟨S4194304, .i1⟩
  | 72 => ⟨S4194304, .i1⟩
  | 73 => ⟨S_, .i32⟩
  | 74 => ⟨S_, .i32⟩
  | 75 => ⟨S_, .i32⟩
  | 76 => ⟨S4194304, .i32⟩
  | 77 => ⟨S4194304, .i32⟩
  | 78 => ⟨S_, .i32⟩
  | 79 => ⟨S4194304, .i32⟩
  | 80 => ⟨S4194304, .i32⟩
  | 81 => ⟨S_, .i32⟩
  | 82 => ⟨S_, .i32⟩
  | 83 => ⟨S_, .i32⟩
  | 84 => ⟨S4194304, .i32⟩
  | 85 => ⟨S4194304, .i32⟩
  | 86 => ⟨S_, .i32⟩
  | 87 => ⟨S4194304, .i32⟩
  | 88 => ⟨S4194304, .i32⟩
  | 89 => ⟨S_, .i32⟩
  | 90 => ⟨S_, .i32⟩
  | 91 => ⟨S_, .i32⟩
  | 92 => ⟨S4194304, .i32⟩
  | 93 => ⟨S4194304, .i32⟩
  | 94 => ⟨S_, .i32⟩
  | 95 => ⟨S4194304, .i32⟩
  | 96 => ⟨S4194304, .i32⟩
  | 97 => ⟨S_, .i32⟩
  | 98 => ⟨S4194304, .i32⟩
  | 99 => ⟨S4194304, .i1⟩
  | 100 => ⟨S_, .i32⟩
  | 101 => ⟨S4194304, .i32⟩
  | 102 => ⟨S4194304, .i32⟩
  | 103 => ⟨S4194304, .i32⟩
  | 104 => ⟨S_, .i32⟩
  | 105 => ⟨S4194304, .i32⟩
  | 106 => ⟨S4194304, .i1⟩
  | 107 => ⟨S_, .i32⟩
  | 108 => ⟨S4194304, .i32⟩
  | 109 => ⟨S4194304, .i32⟩
  | 110 => ⟨S4194304, .i32⟩
  | 111 => ⟨S_, .i32⟩
  | 112 => ⟨S4194304, .i32⟩
  | 113 => ⟨S4194304, .i1⟩
  | 114 => ⟨S_, .i32⟩
  | 115 => ⟨S4194304, .i32⟩
  | 116 => ⟨S4194304, .i32⟩
  | 117 => ⟨S4194304, .i32⟩
  | 118 => ⟨S_, .i32⟩
  | 119 => ⟨S4194304, .i32⟩
  | 120 => ⟨S4194304, .i1⟩
  | 121 => ⟨S_, .i32⟩
  | 122 => ⟨S4194304, .i32⟩
  | 123 => ⟨S4194304, .i32⟩
  | 124 => ⟨S4194304, .i32⟩
  | 125 => ⟨S4194304x1, .i32⟩
  | 126 => ⟨S4194304x1, .i32⟩
  | 127 => ⟨S4194304x1, .i32⟩
  | _ => ⟨S4194304x3, .f32⟩

abbrev hbmTy0_5 (i : Nat) : BufTy := match i % 128 with
  | 0 => ⟨S4194304x1, .i32⟩
  | 1 => ⟨S4194304x4, .i32⟩
  | 2 => ⟨S4194304, .f32⟩
  | 3 => ⟨S_, .f32⟩
  | 4 => ⟨S_, .f32⟩
  | 5 => ⟨S4194304, .f32⟩
  | 6 => ⟨S4194304, .f32⟩
  | 7 => ⟨S4194304, .f32⟩
  | 8 => ⟨S4194304, .f32⟩
  | 9 => ⟨S4194304, .f32⟩
  | 10 => ⟨S4194304, .f32⟩
  | 11 => ⟨S_, .i32⟩
  | 12 => ⟨S4194304, .i32⟩
  | 13 => ⟨S4194304, .i32⟩
  | 14 => ⟨S_, .i32⟩
  | 15 => ⟨S4194304, .i32⟩
  | 16 => ⟨S4194304, .i32⟩
  | 17 => ⟨S_, .i32⟩
  | 18 => ⟨S4194304, .i32⟩
  | 19 => ⟨S4194304, .i32⟩
  | 20 => ⟨S_, .i32⟩
  | 21 => ⟨S4194304, .i32⟩
  | 22 => ⟨S4194304, .i1⟩
  | 23 => ⟨S_, .i32⟩
  | 24 => ⟨S4194304, .i32⟩
  | 25 => ⟨S4194304, .i1⟩
  | 26 => ⟨S4194304, .i1⟩
  | 27 => ⟨S_, .i32⟩
  | 28 => ⟨S4194304, .i32⟩
  | 29 => ⟨S4194304, .i1⟩
  | 30 => ⟨S4194304, .i1⟩
  | 31 => ⟨S_, .i32⟩
  | 32 => ⟨S4194304, .i32⟩
  | 33 => ⟨S4194304, .i1⟩
  | 34 => ⟨S4194304, .i1⟩
  | 35 => ⟨S_, .i32⟩
  | 36 => ⟨S4194304, .i32⟩
  | 37 => ⟨S4194304, .i1⟩
  | 38 => ⟨S4194304, .i1⟩
  | 39 => ⟨S_, .i32⟩
  | 40 => ⟨S4194304, .i32⟩
  | 41 => ⟨S4194304, .i1⟩
  | 42 => ⟨S4194304, .i1⟩
  | 43 => ⟨S_, .i32⟩
  | 44 => ⟨S_, .i32⟩
  | 45 => ⟨S_, .i32⟩
  | 46 => ⟨S4194304, .i32⟩
  | 47 => ⟨S4194304, .i32⟩
  | 48 => ⟨S_, .i32⟩
  | 49 => ⟨S4194304, .i32⟩
  | 50 => ⟨S4194304, .i32⟩
  | 51 => ⟨S_, .i32⟩
  | 52 => ⟨S_, .i32⟩
  | 53 => ⟨S_, .i32⟩
  | 54 => ⟨S4194304, .i32⟩
  | 55 => ⟨S4194304, .i32⟩
  | 56 => ⟨S_, .i32⟩
  | 57 => ⟨S4194304, .i32⟩
  | 58 => ⟨S4194304, .i32⟩
  | 59 => ⟨S_, .i32⟩
  | 60 => ⟨S_, .i32⟩
  | 61 => ⟨S_, .i32⟩
  | 62 => ⟨S4194304, .i32⟩
  | 63 => ⟨S4194304, .i32⟩
  | 64 => ⟨S_, .i32⟩
  | 65 => ⟨S4194304, .i32⟩
  | 66 => ⟨S4194304, .i32⟩
  | 67 => ⟨S_, .i32⟩
  | 68 => ⟨S4194304, .i32⟩
  | 69 => ⟨S4194304, .i1⟩
  | 70 => ⟨S_, .i32⟩
  | 71 => ⟨S4194304, .i32⟩
  | 72 => ⟨S4194304, .i32⟩
  | 73 => ⟨S4194304, .i32⟩
  | 74 => ⟨S_, .i32⟩
  | 75 => ⟨S4194304, .i32⟩
  | 76 => ⟨S4194304, .i1⟩
  | 77 => ⟨S_, .i32⟩
  | 78 => ⟨S4194304, .i32⟩
  | 79 => ⟨S4194304, .i32⟩
  | 80 => ⟨S4194304, .i32⟩
  | 81 => ⟨S_, .i32⟩
  | 82 => ⟨S4194304, .i32⟩
  | 83 => ⟨S4194304, .i1⟩
  | 84 => ⟨S_, .i32⟩
  | 85 => ⟨S4194304, .i32⟩
  | 86 => ⟨S4194304, .i32⟩
  | 87 => ⟨S4194304, .i32⟩
  | 88 => ⟨S_, .i32⟩
  | 89 => ⟨S4194304, .i32⟩
  | 90 => ⟨S4194304, .i1⟩
  | 91 => ⟨S_, .i32⟩
  | 92 => ⟨S4194304, .i32⟩
  | 93 => ⟨S4194304, .i32⟩
  | 94 => ⟨S4194304, .i32⟩
  | 95 => ⟨S4194304x1, .i32⟩
  | 96 => ⟨S4194304x1, .i32⟩
  | 97 => ⟨S4194304x1, .i32⟩
  | 98 => ⟨S4194304x1, .i32⟩
  | 99 => ⟨S4194304x4, .i32⟩
  | 100 => ⟨S4194304, .f32⟩
  | 101 => ⟨S_, .f32⟩
  | 102 => ⟨S_, .f32⟩
  | 103 => ⟨S4194304, .f32⟩
  | 104 => ⟨S4194304, .f32⟩
  | 105 => ⟨S4194304, .f32⟩
  | 106 => ⟨S4194304, .f32⟩
  | 107 => ⟨S_, .f32⟩
  | 108 => ⟨S4194304, .f32⟩
  | 109 => ⟨S4194304, .f32⟩
  | 110 => ⟨S4194304, .f32⟩
  | 111 => ⟨S4194304, .f32⟩
  | 112 => ⟨S_, .i32⟩
  | 113 => ⟨S4194304, .i32⟩
  | 114 => ⟨S4194304, .i32⟩
  | 115 => ⟨S_, .i32⟩
  | 116 => ⟨S4194304, .i32⟩
  | 117 => ⟨S4194304, .i32⟩
  | 118 => ⟨S_, .i32⟩
  | 119 => ⟨S4194304, .i32⟩
  | 120 => ⟨S4194304, .i32⟩
  | 121 => ⟨S_, .i32⟩
  | 122 => ⟨S4194304, .i32⟩
  | 123 => ⟨S4194304, .i1⟩
  | 124 => ⟨S_, .i32⟩
  | 125 => ⟨S4194304, .i32⟩
  | 126 => ⟨S4194304, .i1⟩
  | 127 => ⟨S4194304, .i1⟩
  | _ => ⟨S4194304x3, .f32⟩

abbrev hbmTy0_6 (i : Nat) : BufTy := match i % 128 with
  | 0 => ⟨S_, .i32⟩
  | 1 => ⟨S4194304, .i32⟩
  | 2 => ⟨S4194304, .i1⟩
  | 3 => ⟨S4194304, .i1⟩
  | 4 => ⟨S_, .i32⟩
  | 5 => ⟨S4194304, .i32⟩
  | 6 => ⟨S4194304, .i1⟩
  | 7 => ⟨S4194304, .i1⟩
  | 8 => ⟨S_, .i32⟩
  | 9 => ⟨S4194304, .i32⟩
  | 10 => ⟨S4194304, .i1⟩
  | 11 => ⟨S4194304, .i1⟩
  | 12 => ⟨S_, .i32⟩
  | 13 => ⟨S4194304, .i32⟩
  | 14 => ⟨S4194304, .i1⟩
  | 15 => ⟨S4194304, .i1⟩
  | 16 => ⟨S_, .i32⟩
  | 17 => ⟨S_, .i32⟩
  | 18 => ⟨S_, .i32⟩
  | 19 => ⟨S4194304, .i32⟩
  | 20 => ⟨S4194304, .i32⟩
  | 21 => ⟨S_, .i32⟩
  | 22 => ⟨S4194304, .i32⟩
  | 23 => ⟨S4194304, .i32⟩
  | 24 => ⟨S_, .i32⟩
  | 25 => ⟨S_, .i32⟩
  | 26 => ⟨S_, .i32⟩
  | 27 => ⟨S4194304, .i32⟩
  | 28 => ⟨S4194304, .i32⟩
  | 29 => ⟨S_, .i32⟩
  | 30 => ⟨S4194304, .i32⟩
  | 31 => ⟨S4194304, .i32⟩
  | 32 => ⟨S_, .i32⟩
  | 33 => ⟨S_, .i32⟩
  | 34 => ⟨S_, .i32⟩
  | 35 => ⟨S4194304, .i32⟩
  | 36 => ⟨S4194304, .i32⟩
  | 37 => ⟨S_, .i32⟩
  | 38 => ⟨S4194304, .i32⟩
  | 39 => ⟨S4194304, .i32⟩
  | 40 => ⟨S_, .i32⟩
  | 41 => ⟨S4194304, .i32⟩
  | 42 => ⟨S4194304, .i1⟩
  | 43 => ⟨S_, .i32⟩
  | 44 => ⟨S4194304, .i32⟩
  | 45 => ⟨S4194304, .i32⟩
  | 46 => ⟨S4194304, .i32⟩
  | 47 => ⟨S_, .i32⟩
  | 48 => ⟨S4194304, .i32⟩
  | 49 => ⟨S4194304, .i1⟩
  | 50 => ⟨S_, .i32⟩
  | 51 => ⟨S4194304, .i32⟩
  | 52 => ⟨S4194304, .i32⟩
  | 53 => ⟨S4194304, .i32⟩
  | 54 => ⟨S_, .i32⟩
  | 55 => ⟨S4194304, .i32⟩
  | 56 => ⟨S4194304, .i1⟩
  | 57 => ⟨S_, .i32⟩
  | 58 => ⟨S4194304, .i32⟩
  | 59 => ⟨S4194304, .i32⟩
  | 60 => ⟨S4194304, .i32⟩
  | 61 => ⟨S_, .i32⟩
  | 62 => ⟨S4194304, .i32⟩
  | 63 => ⟨S4194304, .i1⟩
  | 64 => ⟨S_, .i32⟩
  | 65 => ⟨S4194304, .i32⟩
  | 66 => ⟨S4194304, .i32⟩
  | 67 => ⟨S4194304, .i32⟩
  | 68 => ⟨S4194304x1, .i32⟩
  | 69 => ⟨S4194304x1, .i32⟩
  | 70 => ⟨S4194304x1, .i32⟩
  | 71 => ⟨S4194304x1, .i32⟩
  | 72 => ⟨S4194304x4, .i32⟩
  | 73 => ⟨S4194304, .f32⟩
  | 74 => ⟨S_, .f32⟩
  | 75 => ⟨S_, .f32⟩
  | 76 => ⟨S4194304, .f32⟩
  | 77 => ⟨S4194304, .f32⟩
  | 78 => ⟨S4194304, .f32⟩
  | 79 => ⟨S4194304, .f32⟩
  | 80 => ⟨S4194304, .f32⟩
  | 81 => ⟨S4194304, .f32⟩
  | 82 => ⟨S_, .i32⟩
  | 83 => ⟨S4194304, .i32⟩
  | 84 => ⟨S4194304, .i32⟩
  | 85 => ⟨S_, .i32⟩
  | 86 => ⟨S4194304, .i32⟩
  | 87 => ⟨S4194304, .i32⟩
  | 88 => ⟨S_, .i32⟩
  | 89 => ⟨S4194304, .i32⟩
  | 90 => ⟨S4194304, .i32⟩
  | 91 => ⟨S_, .i32⟩
  | 92 => ⟨S4194304, .i32⟩
  | 93 => ⟨S4194304, .i1⟩
  | 94 => ⟨S_, .i32⟩
  | 95 => ⟨S4194304, .i32⟩
  | 96 => ⟨S4194304, .i1⟩
  | 97 => ⟨S4194304, .i1⟩
  | 98 => ⟨S_, .i32⟩
  | 99 => ⟨S4194304, .i32⟩
  | 100 => ⟨S4194304, .i1⟩
  | 101 => ⟨S4194304, .i1⟩
  | 102 => ⟨S_, .i32⟩
  | 103 => ⟨S4194304, .i32⟩
  | 104 => ⟨S4194304, .i1⟩
  | 105 => ⟨S4194304, .i1⟩
  | 106 => ⟨S_, .i32⟩
  | 107 => ⟨S4194304, .i32⟩
  | 108 => ⟨S4194304, .i1⟩
  | 109 => ⟨S4194304, .i1⟩
  | 110 => ⟨S_, .i32⟩
  | 111 => ⟨S4194304, .i32⟩
  | 112 => ⟨S4194304, .i1⟩
  | 113 => ⟨S4194304, .i1⟩
  | 114 => ⟨S_, .i32⟩
  | 115 => ⟨S_, .i32⟩
  | 116 => ⟨S_, .i32⟩
  | 117 => ⟨S4194304, .i32⟩
  | 118 => ⟨S4194304, .i32⟩
  | 119 => ⟨S_, .i32⟩
  | 120 => ⟨S4194304, .i32⟩
  | 121 => ⟨S4194304, .i32⟩
  | 122 => ⟨S_, .i32⟩
  | 123 => ⟨S_, .i32⟩
  | 124 => ⟨S_, .i32⟩
  | 125 => ⟨S4194304, .i32⟩
  | 126 => ⟨S4194304, .i32⟩
  | 127 => ⟨S_, .i32⟩
  | _ => ⟨S4194304x3, .f32⟩

abbrev hbmTy0_7 (i : Nat) : BufTy := match i % 128 with
  | 0 => ⟨S4194304, .i32⟩
  | 1 => ⟨S4194304, .i32⟩
  | 2 => ⟨S_, .i32⟩
  | 3 => ⟨S_, .i32⟩
  | 4 => ⟨S_, .i32⟩
  | 5 => ⟨S4194304, .i32⟩
  | 6 => ⟨S4194304, .i32⟩
  | 7 => ⟨S_, .i32⟩
  | 8 => ⟨S4194304, .i32⟩
  | 9 => ⟨S4194304, .i32⟩
  | 10 => ⟨S_, .i32⟩
  | 11 => ⟨S4194304, .i32⟩
  | 12 => ⟨S4194304, .i1⟩
  | 13 => ⟨S_, .i32⟩
  | 14 => ⟨S4194304, .i32⟩
  | 15 => ⟨S4194304, .i32⟩
  | 16 => ⟨S4194304, .i32⟩
  | 17 => ⟨S_, .i32⟩
  | 18 => ⟨S4194304, .i32⟩
  | 19 => ⟨S4194304, .i1⟩
  | 20 => ⟨S_, .i32⟩
  | 21 => ⟨S4194304, .i32⟩
  | 22 => ⟨S4194304, .i32⟩
  | 23 => ⟨S4194304, .i32⟩
  | 24 => ⟨S_, .i32⟩
  | 25 => ⟨S4194304, .i32⟩
  | 26 => ⟨S4194304, .i1⟩
  | 27 => ⟨S_, .i32⟩
  | 28 => ⟨S4194304, .i32⟩
  | 29 => ⟨S4194304, .i32⟩
  | 30 => ⟨S4194304, .i32⟩
  | 31 => ⟨S_, .i32⟩
  | 32 => ⟨S4194304, .i32⟩
  | 33 => ⟨S4194304, .i1⟩
  | 34 => ⟨S_, .i32⟩
  | 35 => ⟨S4194304, .i32⟩
  | 36 => ⟨S4194304, .i32⟩
  | 37 => ⟨S4194304, .i32⟩
  | 38 => ⟨S4194304x1, .i32⟩
  | 39 => ⟨S4194304x1, .i32⟩
  | 40 => ⟨S4194304x1, .i32⟩
  | 41 => ⟨S4194304x1, .i32⟩
  | 42 => ⟨S4194304x4, .i32⟩
  | 43 => ⟨S4194304, .f32⟩
  | 44 => ⟨S_, .f32⟩
  | 45 => ⟨S_, .f32⟩
  | 46 => ⟨S4194304, .f32⟩
  | 47 => ⟨S4194304, .f32⟩
  | 48 => ⟨S4194304, .f32⟩
  | 49 => ⟨S4194304, .f32⟩
  | _ => ⟨S4194304x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4194304x3, .f32⟩

abbrev bufTy : (tb : Table) → Fin (tcTables nBuf tb) → BufTy
  | .hbm, ⟨i, _⟩ => hbmTy i
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_call1_v0 : Ref sig .tc := ⟨.hbm, 39, rfl⟩
abbrev main_call1_v1_0 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_c_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩
abbrev main_v70 : Ref sig .tc := ⟨.hbm, 101, rfl⟩
abbrev main_cst_17 : Ref sig .tc := ⟨.hbm, 102, rfl⟩
abbrev main_v71 : Ref sig .tc := ⟨.hbm, 103, rfl⟩
abbrev main_v72 : Ref sig .tc := ⟨.hbm, 104, rfl⟩
abbrev main_cst_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_19 : Ref sig .tc := ⟨.hbm, 110, rfl⟩
abbrev main_v77 : Ref sig .tc := ⟨.hbm, 111, rfl⟩
abbrev main_v78 : Ref sig .tc := ⟨.hbm, 112, rfl⟩
abbrev main_cst_20 : Ref sig .tc := ⟨.hbm, 113, rfl⟩
abbrev main_v79 : Ref sig .tc := ⟨.hbm, 114, rfl⟩
abbrev main_v80 : Ref sig .tc := ⟨.hbm, 115, rfl⟩
abbrev main_cst_21 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_22 : Ref sig .tc := ⟨.hbm, 121, rfl⟩
abbrev main_v85 : Ref sig .tc := ⟨.hbm, 122, rfl⟩
abbrev main_v86 : Ref sig .tc := ⟨.hbm, 123, rfl⟩
abbrev main_cst_23 : Ref sig .tc := ⟨.hbm, 124, rfl⟩
abbrev main_v87 : Ref sig .tc := ⟨.hbm, 125, rfl⟩
abbrev main_v88 : Ref sig .tc := ⟨.hbm, 126, rfl⟩
abbrev main_cst_24 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_25 : Ref sig .tc := ⟨.hbm, 139, rfl⟩
abbrev main_v100 : Ref sig .tc := ⟨.hbm, 140, rfl⟩
abbrev main_cst_26 : Ref sig .tc := ⟨.hbm, 141, rfl⟩
abbrev main_v101 : Ref sig .tc := ⟨.hbm, 142, rfl⟩
abbrev main_v102 : Ref sig .tc := ⟨.hbm, 143, rfl⟩
abbrev main_cst_27 : Ref sig .tc := ⟨.hbm, 144, rfl⟩
abbrev main_v103 : Ref sig .tc := ⟨.hbm, 145, rfl⟩
abbrev main_v104 : Ref sig .tc := ⟨.hbm, 146, rfl⟩
abbrev main_cst_28 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_c_29 : Ref sig .tc := ⟨.hbm, 152, rfl⟩
abbrev main_v109 : Ref sig .tc := ⟨.hbm, 153, rfl⟩
abbrev main_v110 : Ref sig .tc := ⟨.hbm, 154, rfl⟩
abbrev main_c_30 : Ref sig .tc := ⟨.hbm, 155, rfl⟩
abbrev main_v111 : Ref sig .tc := ⟨.hbm, 156, rfl⟩
abbrev main_v112 : Ref sig .tc := ⟨.hbm, 157, rfl⟩
abbrev main_c_31 : Ref sig .tc := ⟨.hbm, 158, rfl⟩
abbrev main_v113 : Ref sig .tc := ⟨.hbm, 159, rfl⟩
abbrev main_v114 : Ref sig .tc := ⟨.hbm, 160, rfl⟩
abbrev main_c_32 : Ref sig .tc := ⟨.hbm, 161, rfl⟩
abbrev main_v115 : Ref sig .tc := ⟨.hbm, 162, rfl⟩
abbrev main_v116 : Ref sig .tc := ⟨.hbm, 163, rfl⟩
abbrev main_c_33 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_34 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_c_35 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_c_36 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_37 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_c_38 : Ref sig .tc := ⟨.hbm, 184, rfl⟩
abbrev main_c_39 : Ref sig .tc := ⟨.hbm, 185, rfl⟩
abbrev main_call2_v0 : Ref sig .tc := ⟨.hbm, 186, rfl⟩
abbrev main_call2_v1 : Ref sig .tc := ⟨.hbm, 187, rfl⟩
abbrev main_call2_v2 : Ref sig .tc := ⟨.hbm, 188, rfl⟩
abbrev main_call2_v3 : Ref sig .tc := ⟨.hbm, 189, rfl⟩
abbrev main_call2_v4 : Ref sig .tc := ⟨.hbm, 190, rfl⟩
abbrev main_v132 : Ref sig .tc := ⟨.hbm, 191, rfl⟩
abbrev main_c_40 : Ref sig .tc := ⟨.hbm, 192, rfl⟩
abbrev main_c_41 : Ref sig .tc := ⟨.hbm, 193, rfl⟩
abbrev main_call3_v0 : Ref sig .tc := ⟨.hbm, 194, rfl⟩
abbrev main_call3_v1 : Ref sig .tc := ⟨.hbm, 195, rfl⟩
abbrev main_call3_v2 : Ref sig .tc := ⟨.hbm, 196, rfl⟩
abbrev main_call3_v3 : Ref sig .tc := ⟨.hbm, 197, rfl⟩
abbrev main_call3_v4 : Ref sig .tc := ⟨.hbm, 198, rfl⟩
abbrev main_v133 : Ref sig .tc := ⟨.hbm, 199, rfl⟩
abbrev main_c_42 : Ref sig .tc := ⟨.hbm, 200, rfl⟩
abbrev main_c_43 : Ref sig .tc := ⟨.hbm, 201, rfl⟩
abbrev main_call4_v0 : Ref sig .tc := ⟨.hbm, 202, rfl⟩
abbrev main_call4_v1 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_v134 : Ref sig .tc := ⟨.hbm, 207, rfl⟩
abbrev main_c_44 : Ref sig .tc := ⟨.hbm, 208, rfl⟩
abbrev main_v135 : Ref sig .tc := ⟨.hbm, 209, rfl⟩
abbrev main_v136 : Ref sig .tc := ⟨.hbm, 210, rfl⟩
abbrev main_c_45 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_c_46 : Ref sig .tc := ⟨.hbm, 215, rfl⟩
abbrev main_v140 : Ref sig .tc := ⟨.hbm, 216, rfl⟩
abbrev main_v141 : Ref sig .tc := ⟨.hbm, 217, rfl⟩
abbrev main_c_47 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_c_48 : Ref sig .tc := ⟨.hbm, 222, rfl⟩
abbrev main_v145 : Ref sig .tc := ⟨.hbm, 223, rfl⟩
abbrev main_v146 : Ref sig .tc := ⟨.hbm, 224, rfl⟩
abbrev main_c_49 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_c_50 : Ref sig .tc := ⟨.hbm, 229, rfl⟩
abbrev main_v150 : Ref sig .tc := ⟨.hbm, 230, rfl⟩
abbrev main_v151 : Ref sig .tc := ⟨.hbm, 231, rfl⟩
abbrev main_c_51 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_cst_52 : Ref sig .tc := ⟨.hbm, 242, rfl⟩
abbrev main_call5_v0 : Ref sig .tc := ⟨.hbm, 243, rfl⟩
abbrev main_call5_v1 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_c_53 : Ref sig .tc := ⟨.hbm, 250, rfl⟩
abbrev main_v166 : Ref sig .tc := ⟨.hbm, 251, rfl⟩
abbrev main_v167 : Ref sig .tc := ⟨.hbm, 252, rfl⟩
abbrev main_c_54 : Ref sig .tc := ⟨.hbm, 253, rfl⟩
abbrev main_v168 : Ref sig .tc := ⟨.hbm, 254, rfl⟩
abbrev main_v169 : Ref sig .tc := ⟨.hbm, 255, rfl⟩
abbrev main_c_55 : Ref sig .tc := ⟨.hbm, 256, rfl⟩
abbrev main_v170 : Ref sig .tc := ⟨.hbm, 257, rfl⟩
abbrev main_v171 : Ref sig .tc := ⟨.hbm, 258, rfl⟩
abbrev main_c_56 : Ref sig .tc := ⟨.hbm, 259, rfl⟩
abbrev main_v172 : Ref sig .tc := ⟨.hbm, 260, rfl⟩
abbrev main_v173 : Ref sig .tc := ⟨.hbm, 261, rfl⟩
abbrev main_c_57 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_c_58 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_c_59 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_c_60 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_c_61 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_c_62 : Ref sig .tc := ⟨.hbm, 282, rfl⟩
abbrev main_c_63 : Ref sig .tc := ⟨.hbm, 283, rfl⟩
abbrev main_call6_v0 : Ref sig .tc := ⟨.hbm, 284, rfl⟩
abbrev main_call6_v1 : Ref sig .tc := ⟨.hbm, 285, rfl⟩
abbrev main_call6_v2 : Ref sig .tc := ⟨.hbm, 286, rfl⟩
abbrev main_call6_v3 : Ref sig .tc := ⟨.hbm, 287, rfl⟩
abbrev main_call6_v4 : Ref sig .tc := ⟨.hbm, 288, rfl⟩
abbrev main_v189 : Ref sig .tc := ⟨.hbm, 289, rfl⟩
abbrev main_c_64 : Ref sig .tc := ⟨.hbm, 290, rfl⟩
abbrev main_c_65 : Ref sig .tc := ⟨.hbm, 291, rfl⟩
abbrev main_call7_v0 : Ref sig .tc := ⟨.hbm, 292, rfl⟩
abbrev main_call7_v1 : Ref sig .tc := ⟨.hbm, 293, rfl⟩
abbrev main_call7_v2 : Ref sig .tc := ⟨.hbm, 294, rfl⟩
abbrev main_call7_v3 : Ref sig .tc := ⟨.hbm, 295, rfl⟩
abbrev main_call7_v4 : Ref sig .tc := ⟨.hbm, 296, rfl⟩
abbrev main_v190 : Ref sig .tc := ⟨.hbm, 297, rfl⟩
abbrev main_c_66 : Ref sig .tc := ⟨.hbm, 298, rfl⟩
abbrev main_c_67 : Ref sig .tc := ⟨.hbm, 299, rfl⟩
abbrev main_call8_v0 : Ref sig .tc := ⟨.hbm, 300, rfl⟩
abbrev main_call8_v1 : Ref sig .tc := ⟨.hbm, 301, rfl⟩
abbrev main_call8_v2 : Ref sig .tc := ⟨.hbm, 302, rfl⟩
abbrev main_call8_v3 : Ref sig .tc := ⟨.hbm, 303, rfl⟩
abbrev main_call8_v4 : Ref sig .tc := ⟨.hbm, 304, rfl⟩
abbrev main_v191 : Ref sig .tc := ⟨.hbm, 305, rfl⟩
abbrev main_c_68 : Ref sig .tc := ⟨.hbm, 306, rfl⟩
abbrev main_v192 : Ref sig .tc := ⟨.hbm, 307, rfl⟩
abbrev main_v193 : Ref sig .tc := ⟨.hbm, 308, rfl⟩
abbrev main_c_69 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_c_70 : Ref sig .tc := ⟨.hbm, 313, rfl⟩
abbrev main_v197 : Ref sig .tc := ⟨.hbm, 314, rfl⟩
abbrev main_v198 : Ref sig .tc := ⟨.hbm, 315, rfl⟩
abbrev main_c_71 : Ref sig .tc := ⟨.hbm, 316, rfl⟩
abbrev main_v199 : Ref sig .tc := ⟨.hbm, 317, rfl⟩
abbrev main_v200 : Ref sig .tc := ⟨.hbm, 318, rfl⟩
abbrev main_v201 : Ref sig .tc := ⟨.hbm, 319, rfl⟩
abbrev main_c_72 : Ref sig .tc := ⟨.hbm, 320, rfl⟩
abbrev main_v202 : Ref sig .tc := ⟨.hbm, 321, rfl⟩
abbrev main_v203 : Ref sig .tc := ⟨.hbm, 322, rfl⟩
abbrev main_c_73 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_c_74 : Ref sig .tc := ⟨.hbm, 327, rfl⟩
abbrev main_v207 : Ref sig .tc := ⟨.hbm, 328, rfl⟩
abbrev main_v208 : Ref sig .tc := ⟨.hbm, 329, rfl⟩
abbrev main_c_75 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_v215 : Ref sig .tc := ⟨.hbm, 337, rfl⟩
abbrev main_v216 : Ref sig .tc := ⟨.hbm, 338, rfl⟩
abbrev main_v217 : Ref sig .tc := ⟨.hbm, 339, rfl⟩
abbrev main_cst_76 : Ref sig .tc := ⟨.hbm, 340, rfl⟩
abbrev main_call9_v0 : Ref sig .tc := ⟨.hbm, 341, rfl⟩
abbrev main_call9_v1 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_cst_77 : Ref sig .tc := ⟨.hbm, 346, rfl⟩
abbrev main_v221 : Ref sig .tc := ⟨.hbm, 347, rfl⟩
abbrev main_v222 : Ref sig .tc := ⟨.hbm, 348, rfl⟩
abbrev main_v223 : Ref sig .tc := ⟨.hbm, 349, rfl⟩
abbrev main_v224 : Ref sig .tc := ⟨.hbm, 350, rfl⟩
abbrev main_c_78 : Ref sig .tc := ⟨.hbm, 351, rfl⟩
abbrev main_v225 : Ref sig .tc := ⟨.hbm, 352, rfl⟩
abbrev main_v226 : Ref sig .tc := ⟨.hbm, 353, rfl⟩
abbrev main_c_79 : Ref sig .tc := ⟨.hbm, 354, rfl⟩
abbrev main_v227 : Ref sig .tc := ⟨.hbm, 355, rfl⟩
abbrev main_v228 : Ref sig .tc := ⟨.hbm, 356, rfl⟩
abbrev main_c_80 : Ref sig .tc := ⟨.hbm, 357, rfl⟩
abbrev main_v229 : Ref sig .tc := ⟨.hbm, 358, rfl⟩
abbrev main_v230 : Ref sig .tc := ⟨.hbm, 359, rfl⟩
abbrev main_c_81 : Ref sig .tc := ⟨.hbm, 360, rfl⟩
abbrev main_v231 : Ref sig .tc := ⟨.hbm, 361, rfl⟩
abbrev main_v232 : Ref sig .tc := ⟨.hbm, 362, rfl⟩
abbrev main_c_82 : Ref sig .tc := ⟨.hbm, 363, rfl⟩
abbrev main_v233 : Ref sig .tc := ⟨.hbm, 364, rfl⟩
abbrev main_v234 : Ref sig .tc := ⟨.hbm, 365, rfl⟩
abbrev main_v235 : Ref sig .tc := ⟨.hbm, 366, rfl⟩
abbrev main_c_83 : Ref sig .tc := ⟨.hbm, 367, rfl⟩
abbrev main_v236 : Ref sig .tc := ⟨.hbm, 368, rfl⟩
abbrev main_v237 : Ref sig .tc := ⟨.hbm, 369, rfl⟩
abbrev main_v238 : Ref sig .tc := ⟨.hbm, 370, rfl⟩
abbrev main_c_84 : Ref sig .tc := ⟨.hbm, 371, rfl⟩
abbrev main_v239 : Ref sig .tc := ⟨.hbm, 372, rfl⟩
abbrev main_v240 : Ref sig .tc := ⟨.hbm, 373, rfl⟩
abbrev main_v241 : Ref sig .tc := ⟨.hbm, 374, rfl⟩
abbrev main_c_85 : Ref sig .tc := ⟨.hbm, 375, rfl⟩
abbrev main_v242 : Ref sig .tc := ⟨.hbm, 376, rfl⟩
abbrev main_v243 : Ref sig .tc := ⟨.hbm, 377, rfl⟩
abbrev main_v244 : Ref sig .tc := ⟨.hbm, 378, rfl⟩
abbrev main_c_86 : Ref sig .tc := ⟨.hbm, 379, rfl⟩
abbrev main_v245 : Ref sig .tc := ⟨.hbm, 380, rfl⟩
abbrev main_v246 : Ref sig .tc := ⟨.hbm, 381, rfl⟩
abbrev main_v247 : Ref sig .tc := ⟨.hbm, 382, rfl⟩
abbrev main_c_87 : Ref sig .tc := ⟨.hbm, 383, rfl⟩
abbrev main_c_88 : Ref sig .tc := ⟨.hbm, 384, rfl⟩
abbrev main_call10_v0 : Ref sig .tc := ⟨.hbm, 385, rfl⟩
abbrev main_call10_v1 : Ref sig .tc := ⟨.hbm, 386, rfl⟩
abbrev main_call10_v2 : Ref sig .tc := ⟨.hbm, 387, rfl⟩
abbrev main_call10_v3 : Ref sig .tc := ⟨.hbm, 388, rfl⟩
abbrev main_call10_v4 : Ref sig .tc := ⟨.hbm, 389, rfl⟩
abbrev main_v248 : Ref sig .tc := ⟨.hbm, 390, rfl⟩
abbrev main_c_89 : Ref sig .tc := ⟨.hbm, 391, rfl⟩
abbrev main_c_90 : Ref sig .tc := ⟨.hbm, 392, rfl⟩
abbrev main_call11_v0 : Ref sig .tc := ⟨.hbm, 393, rfl⟩
abbrev main_call11_v1 : Ref sig .tc := ⟨.hbm, 394, rfl⟩
abbrev main_call11_v2 : Ref sig .tc := ⟨.hbm, 395, rfl⟩
abbrev main_call11_v3 : Ref sig .tc := ⟨.hbm, 396, rfl⟩
abbrev main_call11_v4 : Ref sig .tc := ⟨.hbm, 397, rfl⟩
abbrev main_v249 : Ref sig .tc := ⟨.hbm, 398, rfl⟩
abbrev main_c_91 : Ref sig .tc := ⟨.hbm, 399, rfl⟩
abbrev main_c_92 : Ref sig .tc := ⟨.hbm, 400, rfl⟩
abbrev main_call12_v0 : Ref sig .tc := ⟨.hbm, 401, rfl⟩
abbrev main_call12_v1 : Ref sig .tc := ⟨.hbm, 402, rfl⟩
abbrev main_call12_v2 : Ref sig .tc := ⟨.hbm, 403, rfl⟩
abbrev main_call12_v3 : Ref sig .tc := ⟨.hbm, 404, rfl⟩
abbrev main_call12_v4 : Ref sig .tc := ⟨.hbm, 405, rfl⟩
abbrev main_v250 : Ref sig .tc := ⟨.hbm, 406, rfl⟩
abbrev main_c_93 : Ref sig .tc := ⟨.hbm, 407, rfl⟩
abbrev main_v251 : Ref sig .tc := ⟨.hbm, 408, rfl⟩
abbrev main_v252 : Ref sig .tc := ⟨.hbm, 409, rfl⟩
abbrev main_c_94 : Ref sig .tc := ⟨.hbm, 410, rfl⟩
abbrev main_v253 : Ref sig .tc := ⟨.hbm, 411, rfl⟩
abbrev main_v254 : Ref sig .tc := ⟨.hbm, 412, rfl⟩
abbrev main_v255 : Ref sig .tc := ⟨.hbm, 413, rfl⟩
abbrev main_c_95 : Ref sig .tc := ⟨.hbm, 414, rfl⟩
abbrev main_v256 : Ref sig .tc := ⟨.hbm, 415, rfl⟩
abbrev main_v257 : Ref sig .tc := ⟨.hbm, 416, rfl⟩
abbrev main_c_96 : Ref sig .tc := ⟨.hbm, 417, rfl⟩
abbrev main_v258 : Ref sig .tc := ⟨.hbm, 418, rfl⟩
abbrev main_v259 : Ref sig .tc := ⟨.hbm, 419, rfl⟩
abbrev main_v260 : Ref sig .tc := ⟨.hbm, 420, rfl⟩
abbrev main_c_97 : Ref sig .tc := ⟨.hbm, 421, rfl⟩
abbrev main_v261 : Ref sig .tc := ⟨.hbm, 422, rfl⟩
abbrev main_v262 : Ref sig .tc := ⟨.hbm, 423, rfl⟩
abbrev main_c_98 : Ref sig .tc := ⟨.hbm, 424, rfl⟩
abbrev main_v263 : Ref sig .tc := ⟨.hbm, 425, rfl⟩
abbrev main_v264 : Ref sig .tc := ⟨.hbm, 426, rfl⟩
abbrev main_v265 : Ref sig .tc := ⟨.hbm, 427, rfl⟩
abbrev main_c_99 : Ref sig .tc := ⟨.hbm, 428, rfl⟩
abbrev main_v266 : Ref sig .tc := ⟨.hbm, 429, rfl⟩
abbrev main_v267 : Ref sig .tc := ⟨.hbm, 430, rfl⟩
abbrev main_c_100 : Ref sig .tc := ⟨.hbm, 431, rfl⟩
abbrev main_v268 : Ref sig .tc := ⟨.hbm, 432, rfl⟩
abbrev main_v269 : Ref sig .tc := ⟨.hbm, 433, rfl⟩
abbrev main_v270 : Ref sig .tc := ⟨.hbm, 434, rfl⟩
abbrev main_v271 : Ref sig .tc := ⟨.hbm, 435, rfl⟩
abbrev main_v272 : Ref sig .tc := ⟨.hbm, 436, rfl⟩
abbrev main_v273 : Ref sig .tc := ⟨.hbm, 437, rfl⟩
abbrev main_v274 : Ref sig .tc := ⟨.hbm, 438, rfl⟩
abbrev main_v275 : Ref sig .tc := ⟨.hbm, 439, rfl⟩
abbrev main_v276 : Ref sig .tc := ⟨.hbm, 440, rfl⟩
abbrev main_cst_101 : Ref sig .tc := ⟨.hbm, 441, rfl⟩
abbrev main_call13_v0 : Ref sig .tc := ⟨.hbm, 442, rfl⟩
abbrev main_call13_v1 : Ref sig .tc := ⟨.hbm, 443, rfl⟩
abbrev main_v277 : Ref sig .tc := ⟨.hbm, 444, rfl⟩
abbrev main_v278 : Ref sig .tc := ⟨.hbm, 445, rfl⟩
abbrev main_v279 : Ref sig .tc := ⟨.hbm, 446, rfl⟩
abbrev main_v280 : Ref sig .tc := ⟨.hbm, 447, rfl⟩
abbrev main_v281 : Ref sig .tc := ⟨.hbm, 448, rfl⟩
abbrev main_c_102 : Ref sig .tc := ⟨.hbm, 449, rfl⟩
abbrev main_v282 : Ref sig .tc := ⟨.hbm, 450, rfl⟩
abbrev main_v283 : Ref sig .tc := ⟨.hbm, 451, rfl⟩
abbrev main_c_103 : Ref sig .tc := ⟨.hbm, 452, rfl⟩
abbrev main_v284 : Ref sig .tc := ⟨.hbm, 453, rfl⟩
abbrev main_v285 : Ref sig .tc := ⟨.hbm, 454, rfl⟩
abbrev main_c_104 : Ref sig .tc := ⟨.hbm, 455, rfl⟩
abbrev main_v286 : Ref sig .tc := ⟨.hbm, 456, rfl⟩
abbrev main_v287 : Ref sig .tc := ⟨.hbm, 457, rfl⟩
abbrev main_c_105 : Ref sig .tc := ⟨.hbm, 458, rfl⟩
abbrev main_v288 : Ref sig .tc := ⟨.hbm, 459, rfl⟩
abbrev main_v289 : Ref sig .tc := ⟨.hbm, 460, rfl⟩
abbrev main_c_106 : Ref sig .tc := ⟨.hbm, 461, rfl⟩
abbrev main_v290 : Ref sig .tc := ⟨.hbm, 462, rfl⟩
abbrev main_v291 : Ref sig .tc := ⟨.hbm, 463, rfl⟩
abbrev main_v292 : Ref sig .tc := ⟨.hbm, 464, rfl⟩
abbrev main_c_107 : Ref sig .tc := ⟨.hbm, 465, rfl⟩
abbrev main_v293 : Ref sig .tc := ⟨.hbm, 466, rfl⟩
abbrev main_v294 : Ref sig .tc := ⟨.hbm, 467, rfl⟩
abbrev main_v295 : Ref sig .tc := ⟨.hbm, 468, rfl⟩
abbrev main_c_108 : Ref sig .tc := ⟨.hbm, 469, rfl⟩
abbrev main_v296 : Ref sig .tc := ⟨.hbm, 470, rfl⟩
abbrev main_v297 : Ref sig .tc := ⟨.hbm, 471, rfl⟩
abbrev main_v298 : Ref sig .tc := ⟨.hbm, 472, rfl⟩
abbrev main_c_109 : Ref sig .tc := ⟨.hbm, 473, rfl⟩
abbrev main_v299 : Ref sig .tc := ⟨.hbm, 474, rfl⟩
abbrev main_v300 : Ref sig .tc := ⟨.hbm, 475, rfl⟩
abbrev main_v301 : Ref sig .tc := ⟨.hbm, 476, rfl⟩
abbrev main_c_110 : Ref sig .tc := ⟨.hbm, 477, rfl⟩
abbrev main_v302 : Ref sig .tc := ⟨.hbm, 478, rfl⟩
abbrev main_v303 : Ref sig .tc := ⟨.hbm, 479, rfl⟩
abbrev main_v304 : Ref sig .tc := ⟨.hbm, 480, rfl⟩
abbrev main_c_111 : Ref sig .tc := ⟨.hbm, 481, rfl⟩
abbrev main_c_112 : Ref sig .tc := ⟨.hbm, 482, rfl⟩
abbrev main_call14_v0 : Ref sig .tc := ⟨.hbm, 483, rfl⟩
abbrev main_call14_v1 : Ref sig .tc := ⟨.hbm, 484, rfl⟩
abbrev main_call14_v2 : Ref sig .tc := ⟨.hbm, 485, rfl⟩
abbrev main_call14_v3 : Ref sig .tc := ⟨.hbm, 486, rfl⟩
abbrev main_call14_v4 : Ref sig .tc := ⟨.hbm, 487, rfl⟩
abbrev main_v305 : Ref sig .tc := ⟨.hbm, 488, rfl⟩
abbrev main_c_113 : Ref sig .tc := ⟨.hbm, 489, rfl⟩
abbrev main_c_114 : Ref sig .tc := ⟨.hbm, 490, rfl⟩
abbrev main_call15_v0 : Ref sig .tc := ⟨.hbm, 491, rfl⟩
abbrev main_call15_v1 : Ref sig .tc := ⟨.hbm, 492, rfl⟩
abbrev main_call15_v2 : Ref sig .tc := ⟨.hbm, 493, rfl⟩
abbrev main_call15_v3 : Ref sig .tc := ⟨.hbm, 494, rfl⟩
abbrev main_call15_v4 : Ref sig .tc := ⟨.hbm, 495, rfl⟩
abbrev main_v306 : Ref sig .tc := ⟨.hbm, 496, rfl⟩
abbrev main_c_115 : Ref sig .tc := ⟨.hbm, 497, rfl⟩
abbrev main_c_116 : Ref sig .tc := ⟨.hbm, 498, rfl⟩
abbrev main_call16_v0 : Ref sig .tc := ⟨.hbm, 499, rfl⟩
abbrev main_call16_v1 : Ref sig .tc := ⟨.hbm, 500, rfl⟩
abbrev main_call16_v2 : Ref sig .tc := ⟨.hbm, 501, rfl⟩
abbrev main_call16_v3 : Ref sig .tc := ⟨.hbm, 502, rfl⟩
abbrev main_call16_v4 : Ref sig .tc := ⟨.hbm, 503, rfl⟩
abbrev main_v307 : Ref sig .tc := ⟨.hbm, 504, rfl⟩
abbrev main_c_117 : Ref sig .tc := ⟨.hbm, 505, rfl⟩
abbrev main_v308 : Ref sig .tc := ⟨.hbm, 506, rfl⟩
abbrev main_v309 : Ref sig .tc := ⟨.hbm, 507, rfl⟩
abbrev main_c_118 : Ref sig .tc := ⟨.hbm, 508, rfl⟩
abbrev main_v310 : Ref sig .tc := ⟨.hbm, 509, rfl⟩
abbrev main_v311 : Ref sig .tc := ⟨.hbm, 510, rfl⟩
abbrev main_v312 : Ref sig .tc := ⟨.hbm, 511, rfl⟩
abbrev main_c_119 : Ref sig .tc := ⟨.hbm, 512, rfl⟩
abbrev main_v313 : Ref sig .tc := ⟨.hbm, 513, rfl⟩
abbrev main_v314 : Ref sig .tc := ⟨.hbm, 514, rfl⟩
abbrev main_c_120 : Ref sig .tc := ⟨.hbm, 515, rfl⟩
abbrev main_v315 : Ref sig .tc := ⟨.hbm, 516, rfl⟩
abbrev main_v316 : Ref sig .tc := ⟨.hbm, 517, rfl⟩
abbrev main_v317 : Ref sig .tc := ⟨.hbm, 518, rfl⟩
abbrev main_c_121 : Ref sig .tc := ⟨.hbm, 519, rfl⟩
abbrev main_v318 : Ref sig .tc := ⟨.hbm, 520, rfl⟩
abbrev main_v319 : Ref sig .tc := ⟨.hbm, 521, rfl⟩
abbrev main_c_122 : Ref sig .tc := ⟨.hbm, 522, rfl⟩
abbrev main_v320 : Ref sig .tc := ⟨.hbm, 523, rfl⟩
abbrev main_v321 : Ref sig .tc := ⟨.hbm, 524, rfl⟩
abbrev main_v322 : Ref sig .tc := ⟨.hbm, 525, rfl⟩
abbrev main_c_123 : Ref sig .tc := ⟨.hbm, 526, rfl⟩
abbrev main_v323 : Ref sig .tc := ⟨.hbm, 527, rfl⟩
abbrev main_v324 : Ref sig .tc := ⟨.hbm, 528, rfl⟩
abbrev main_c_124 : Ref sig .tc := ⟨.hbm, 529, rfl⟩
abbrev main_v325 : Ref sig .tc := ⟨.hbm, 530, rfl⟩
abbrev main_v326 : Ref sig .tc := ⟨.hbm, 531, rfl⟩
abbrev main_v327 : Ref sig .tc := ⟨.hbm, 532, rfl⟩
abbrev main_v328 : Ref sig .tc := ⟨.hbm, 533, rfl⟩
abbrev main_v329 : Ref sig .tc := ⟨.hbm, 534, rfl⟩
abbrev main_v330 : Ref sig .tc := ⟨.hbm, 535, rfl⟩
abbrev main_v331 : Ref sig .tc := ⟨.hbm, 536, rfl⟩
abbrev main_v332 : Ref sig .tc := ⟨.hbm, 537, rfl⟩
abbrev main_v333 : Ref sig .tc := ⟨.hbm, 538, rfl⟩
abbrev main_cst_125 : Ref sig .tc := ⟨.hbm, 539, rfl⟩
abbrev main_call17_v0 : Ref sig .tc := ⟨.hbm, 540, rfl⟩
abbrev main_call17_v1 : Ref sig .tc := ⟨.hbm, 541, rfl⟩
abbrev main_v334 : Ref sig .tc := ⟨.hbm, 542, rfl⟩
abbrev main_v335 : Ref sig .tc := ⟨.hbm, 543, rfl⟩
abbrev main_v336 : Ref sig .tc := ⟨.hbm, 544, rfl⟩
abbrev main_cst_126 : Ref sig .tc := ⟨.hbm, 545, rfl⟩
abbrev main_v337 : Ref sig .tc := ⟨.hbm, 546, rfl⟩
abbrev main_v338 : Ref sig .tc := ⟨.hbm, 547, rfl⟩
abbrev main_cst_127 : Ref sig .tc := ⟨.hbm, 548, rfl⟩
abbrev main_v339 : Ref sig .tc := ⟨.hbm, 549, rfl⟩
abbrev main_v340 : Ref sig .tc := ⟨.hbm, 550, rfl⟩
abbrev main_v341 : Ref sig .tc := ⟨.hbm, 551, rfl⟩
abbrev main_v342 : Ref sig .tc := ⟨.hbm, 552, rfl⟩
abbrev main_c_128 : Ref sig .tc := ⟨.hbm, 553, rfl⟩
abbrev main_v343 : Ref sig .tc := ⟨.hbm, 554, rfl⟩
abbrev main_v344 : Ref sig .tc := ⟨.hbm, 555, rfl⟩
abbrev main_c_129 : Ref sig .tc := ⟨.hbm, 556, rfl⟩
abbrev main_v345 : Ref sig .tc := ⟨.hbm, 557, rfl⟩
abbrev main_v346 : Ref sig .tc := ⟨.hbm, 558, rfl⟩
abbrev main_c_130 : Ref sig .tc := ⟨.hbm, 559, rfl⟩
abbrev main_v347 : Ref sig .tc := ⟨.hbm, 560, rfl⟩
abbrev main_v348 : Ref sig .tc := ⟨.hbm, 561, rfl⟩
abbrev main_c_131 : Ref sig .tc := ⟨.hbm, 562, rfl⟩
abbrev main_v349 : Ref sig .tc := ⟨.hbm, 563, rfl⟩
abbrev main_v350 : Ref sig .tc := ⟨.hbm, 564, rfl⟩
abbrev main_c_132 : Ref sig .tc := ⟨.hbm, 565, rfl⟩
abbrev main_v351 : Ref sig .tc := ⟨.hbm, 566, rfl⟩
abbrev main_v352 : Ref sig .tc := ⟨.hbm, 567, rfl⟩
abbrev main_v353 : Ref sig .tc := ⟨.hbm, 568, rfl⟩
abbrev main_c_133 : Ref sig .tc := ⟨.hbm, 569, rfl⟩
abbrev main_v354 : Ref sig .tc := ⟨.hbm, 570, rfl⟩
abbrev main_v355 : Ref sig .tc := ⟨.hbm, 571, rfl⟩
abbrev main_v356 : Ref sig .tc := ⟨.hbm, 572, rfl⟩
abbrev main_c_134 : Ref sig .tc := ⟨.hbm, 573, rfl⟩
abbrev main_v357 : Ref sig .tc := ⟨.hbm, 574, rfl⟩
abbrev main_v358 : Ref sig .tc := ⟨.hbm, 575, rfl⟩
abbrev main_v359 : Ref sig .tc := ⟨.hbm, 576, rfl⟩
abbrev main_c_135 : Ref sig .tc := ⟨.hbm, 577, rfl⟩
abbrev main_v360 : Ref sig .tc := ⟨.hbm, 578, rfl⟩
abbrev main_v361 : Ref sig .tc := ⟨.hbm, 579, rfl⟩
abbrev main_v362 : Ref sig .tc := ⟨.hbm, 580, rfl⟩
abbrev main_c_136 : Ref sig .tc := ⟨.hbm, 581, rfl⟩
abbrev main_v363 : Ref sig .tc := ⟨.hbm, 582, rfl⟩
abbrev main_v364 : Ref sig .tc := ⟨.hbm, 583, rfl⟩
abbrev main_v365 : Ref sig .tc := ⟨.hbm, 584, rfl⟩
abbrev main_c_137 : Ref sig .tc := ⟨.hbm, 585, rfl⟩
abbrev main_c_138 : Ref sig .tc := ⟨.hbm, 586, rfl⟩
abbrev main_call18_v0 : Ref sig .tc := ⟨.hbm, 587, rfl⟩
abbrev main_call18_v1 : Ref sig .tc := ⟨.hbm, 588, rfl⟩
abbrev main_call18_v2 : Ref sig .tc := ⟨.hbm, 589, rfl⟩
abbrev main_call18_v3 : Ref sig .tc := ⟨.hbm, 590, rfl⟩
abbrev main_call18_v4 : Ref sig .tc := ⟨.hbm, 591, rfl⟩
abbrev main_v366 : Ref sig .tc := ⟨.hbm, 592, rfl⟩
abbrev main_c_139 : Ref sig .tc := ⟨.hbm, 593, rfl⟩
abbrev main_c_140 : Ref sig .tc := ⟨.hbm, 594, rfl⟩
abbrev main_call19_v0 : Ref sig .tc := ⟨.hbm, 595, rfl⟩
abbrev main_call19_v1 : Ref sig .tc := ⟨.hbm, 596, rfl⟩
abbrev main_call19_v2 : Ref sig .tc := ⟨.hbm, 597, rfl⟩
abbrev main_call19_v3 : Ref sig .tc := ⟨.hbm, 598, rfl⟩
abbrev main_call19_v4 : Ref sig .tc := ⟨.hbm, 599, rfl⟩
abbrev main_v367 : Ref sig .tc := ⟨.hbm, 600, rfl⟩
abbrev main_c_141 : Ref sig .tc := ⟨.hbm, 601, rfl⟩
abbrev main_c_142 : Ref sig .tc := ⟨.hbm, 602, rfl⟩
abbrev main_call20_v0 : Ref sig .tc := ⟨.hbm, 603, rfl⟩
abbrev main_call20_v1 : Ref sig .tc := ⟨.hbm, 604, rfl⟩
abbrev main_call20_v2 : Ref sig .tc := ⟨.hbm, 605, rfl⟩
abbrev main_call20_v3 : Ref sig .tc := ⟨.hbm, 606, rfl⟩
abbrev main_call20_v4 : Ref sig .tc := ⟨.hbm, 607, rfl⟩
abbrev main_v368 : Ref sig .tc := ⟨.hbm, 608, rfl⟩
abbrev main_c_143 : Ref sig .tc := ⟨.hbm, 609, rfl⟩
abbrev main_v369 : Ref sig .tc := ⟨.hbm, 610, rfl⟩
abbrev main_v370 : Ref sig .tc := ⟨.hbm, 611, rfl⟩
abbrev main_c_144 : Ref sig .tc := ⟨.hbm, 612, rfl⟩
abbrev main_v371 : Ref sig .tc := ⟨.hbm, 613, rfl⟩
abbrev main_v372 : Ref sig .tc := ⟨.hbm, 614, rfl⟩
abbrev main_v373 : Ref sig .tc := ⟨.hbm, 615, rfl⟩
abbrev main_c_145 : Ref sig .tc := ⟨.hbm, 616, rfl⟩
abbrev main_v374 : Ref sig .tc := ⟨.hbm, 617, rfl⟩
abbrev main_v375 : Ref sig .tc := ⟨.hbm, 618, rfl⟩
abbrev main_c_146 : Ref sig .tc := ⟨.hbm, 619, rfl⟩
abbrev main_v376 : Ref sig .tc := ⟨.hbm, 620, rfl⟩
abbrev main_v377 : Ref sig .tc := ⟨.hbm, 621, rfl⟩
abbrev main_v378 : Ref sig .tc := ⟨.hbm, 622, rfl⟩
abbrev main_c_147 : Ref sig .tc := ⟨.hbm, 623, rfl⟩
abbrev main_v379 : Ref sig .tc := ⟨.hbm, 624, rfl⟩
abbrev main_v380 : Ref sig .tc := ⟨.hbm, 625, rfl⟩
abbrev main_c_148 : Ref sig .tc := ⟨.hbm, 626, rfl⟩
abbrev main_v381 : Ref sig .tc := ⟨.hbm, 627, rfl⟩
abbrev main_v382 : Ref sig .tc := ⟨.hbm, 628, rfl⟩
abbrev main_v383 : Ref sig .tc := ⟨.hbm, 629, rfl⟩
abbrev main_c_149 : Ref sig .tc := ⟨.hbm, 630, rfl⟩
abbrev main_v384 : Ref sig .tc := ⟨.hbm, 631, rfl⟩
abbrev main_v385 : Ref sig .tc := ⟨.hbm, 632, rfl⟩
abbrev main_c_150 : Ref sig .tc := ⟨.hbm, 633, rfl⟩
abbrev main_v386 : Ref sig .tc := ⟨.hbm, 634, rfl⟩
abbrev main_v387 : Ref sig .tc := ⟨.hbm, 635, rfl⟩
abbrev main_v388 : Ref sig .tc := ⟨.hbm, 636, rfl⟩
abbrev main_v389 : Ref sig .tc := ⟨.hbm, 637, rfl⟩
abbrev main_v390 : Ref sig .tc := ⟨.hbm, 638, rfl⟩
abbrev main_v391 : Ref sig .tc := ⟨.hbm, 639, rfl⟩
abbrev main_v392 : Ref sig .tc := ⟨.hbm, 640, rfl⟩
abbrev main_v393 : Ref sig .tc := ⟨.hbm, 641, rfl⟩
abbrev main_v394 : Ref sig .tc := ⟨.hbm, 642, rfl⟩
abbrev main_cst_151 : Ref sig .tc := ⟨.hbm, 643, rfl⟩
abbrev main_call21_v0 : Ref sig .tc := ⟨.hbm, 644, rfl⟩
abbrev main_call21_v1 : Ref sig .tc := ⟨.hbm, 645, rfl⟩
abbrev main_v395 : Ref sig .tc := ⟨.hbm, 646, rfl⟩
abbrev main_v396 : Ref sig .tc := ⟨.hbm, 647, rfl⟩
abbrev main_v397 : Ref sig .tc := ⟨.hbm, 648, rfl⟩
abbrev main_v398 : Ref sig .tc := ⟨.hbm, 649, rfl⟩
abbrev main_v399 : Ref sig .tc := ⟨.hbm, 650, rfl⟩
abbrev main_c_152 : Ref sig .tc := ⟨.hbm, 651, rfl⟩
abbrev main_v400 : Ref sig .tc := ⟨.hbm, 652, rfl⟩
abbrev main_v401 : Ref sig .tc := ⟨.hbm, 653, rfl⟩
abbrev main_c_153 : Ref sig .tc := ⟨.hbm, 654, rfl⟩
abbrev main_v402 : Ref sig .tc := ⟨.hbm, 655, rfl⟩
abbrev main_v403 : Ref sig .tc := ⟨.hbm, 656, rfl⟩
abbrev main_c_154 : Ref sig .tc := ⟨.hbm, 657, rfl⟩
abbrev main_v404 : Ref sig .tc := ⟨.hbm, 658, rfl⟩
abbrev main_v405 : Ref sig .tc := ⟨.hbm, 659, rfl⟩
abbrev main_c_155 : Ref sig .tc := ⟨.hbm, 660, rfl⟩
abbrev main_v406 : Ref sig .tc := ⟨.hbm, 661, rfl⟩
abbrev main_v407 : Ref sig .tc := ⟨.hbm, 662, rfl⟩
abbrev main_c_156 : Ref sig .tc := ⟨.hbm, 663, rfl⟩
abbrev main_v408 : Ref sig .tc := ⟨.hbm, 664, rfl⟩
abbrev main_v409 : Ref sig .tc := ⟨.hbm, 665, rfl⟩
abbrev main_v410 : Ref sig .tc := ⟨.hbm, 666, rfl⟩
abbrev main_c_157 : Ref sig .tc := ⟨.hbm, 667, rfl⟩
abbrev main_v411 : Ref sig .tc := ⟨.hbm, 668, rfl⟩
abbrev main_v412 : Ref sig .tc := ⟨.hbm, 669, rfl⟩
abbrev main_v413 : Ref sig .tc := ⟨.hbm, 670, rfl⟩
abbrev main_c_158 : Ref sig .tc := ⟨.hbm, 671, rfl⟩
abbrev main_v414 : Ref sig .tc := ⟨.hbm, 672, rfl⟩
abbrev main_v415 : Ref sig .tc := ⟨.hbm, 673, rfl⟩
abbrev main_v416 : Ref sig .tc := ⟨.hbm, 674, rfl⟩
abbrev main_c_159 : Ref sig .tc := ⟨.hbm, 675, rfl⟩
abbrev main_v417 : Ref sig .tc := ⟨.hbm, 676, rfl⟩
abbrev main_v418 : Ref sig .tc := ⟨.hbm, 677, rfl⟩
abbrev main_v419 : Ref sig .tc := ⟨.hbm, 678, rfl⟩
abbrev main_c_160 : Ref sig .tc := ⟨.hbm, 679, rfl⟩
abbrev main_v420 : Ref sig .tc := ⟨.hbm, 680, rfl⟩
abbrev main_v421 : Ref sig .tc := ⟨.hbm, 681, rfl⟩
abbrev main_v422 : Ref sig .tc := ⟨.hbm, 682, rfl⟩
abbrev main_c_161 : Ref sig .tc := ⟨.hbm, 683, rfl⟩
abbrev main_c_162 : Ref sig .tc := ⟨.hbm, 684, rfl⟩
abbrev main_call22_v0 : Ref sig .tc := ⟨.hbm, 685, rfl⟩
abbrev main_call22_v1 : Ref sig .tc := ⟨.hbm, 686, rfl⟩
abbrev main_call22_v2 : Ref sig .tc := ⟨.hbm, 687, rfl⟩
abbrev main_call22_v3 : Ref sig .tc := ⟨.hbm, 688, rfl⟩
abbrev main_call22_v4 : Ref sig .tc := ⟨.hbm, 689, rfl⟩
abbrev main_v423 : Ref sig .tc := ⟨.hbm, 690, rfl⟩
abbrev main_c_163 : Ref sig .tc := ⟨.hbm, 691, rfl⟩
abbrev main_c_164 : Ref sig .tc := ⟨.hbm, 692, rfl⟩
abbrev main_call23_v0 : Ref sig .tc := ⟨.hbm, 693, rfl⟩
abbrev main_call23_v1 : Ref sig .tc := ⟨.hbm, 694, rfl⟩
abbrev main_call23_v2 : Ref sig .tc := ⟨.hbm, 695, rfl⟩
abbrev main_call23_v3 : Ref sig .tc := ⟨.hbm, 696, rfl⟩
abbrev main_call23_v4 : Ref sig .tc := ⟨.hbm, 697, rfl⟩
abbrev main_v424 : Ref sig .tc := ⟨.hbm, 698, rfl⟩
abbrev main_c_165 : Ref sig .tc := ⟨.hbm, 699, rfl⟩
abbrev main_c_166 : Ref sig .tc := ⟨.hbm, 700, rfl⟩
abbrev main_call24_v0 : Ref sig .tc := ⟨.hbm, 701, rfl⟩
abbrev main_call24_v1 : Ref sig .tc := ⟨.hbm, 702, rfl⟩
abbrev main_call24_v2 : Ref sig .tc := ⟨.hbm, 703, rfl⟩
abbrev main_call24_v3 : Ref sig .tc := ⟨.hbm, 704, rfl⟩
abbrev main_call24_v4 : Ref sig .tc := ⟨.hbm, 705, rfl⟩
abbrev main_v425 : Ref sig .tc := ⟨.hbm, 706, rfl⟩
abbrev main_c_167 : Ref sig .tc := ⟨.hbm, 707, rfl⟩
abbrev main_v426 : Ref sig .tc := ⟨.hbm, 708, rfl⟩
abbrev main_v427 : Ref sig .tc := ⟨.hbm, 709, rfl⟩
abbrev main_c_168 : Ref sig .tc := ⟨.hbm, 710, rfl⟩
abbrev main_v428 : Ref sig .tc := ⟨.hbm, 711, rfl⟩
abbrev main_v429 : Ref sig .tc := ⟨.hbm, 712, rfl⟩
abbrev main_v430 : Ref sig .tc := ⟨.hbm, 713, rfl⟩
abbrev main_c_169 : Ref sig .tc := ⟨.hbm, 714, rfl⟩
abbrev main_v431 : Ref sig .tc := ⟨.hbm, 715, rfl⟩
abbrev main_v432 : Ref sig .tc := ⟨.hbm, 716, rfl⟩
abbrev main_c_170 : Ref sig .tc := ⟨.hbm, 717, rfl⟩
abbrev main_v433 : Ref sig .tc := ⟨.hbm, 718, rfl⟩
abbrev main_v434 : Ref sig .tc := ⟨.hbm, 719, rfl⟩
abbrev main_v435 : Ref sig .tc := ⟨.hbm, 720, rfl⟩
abbrev main_c_171 : Ref sig .tc := ⟨.hbm, 721, rfl⟩
abbrev main_v436 : Ref sig .tc := ⟨.hbm, 722, rfl⟩
abbrev main_v437 : Ref sig .tc := ⟨.hbm, 723, rfl⟩
abbrev main_c_172 : Ref sig .tc := ⟨.hbm, 724, rfl⟩
abbrev main_v438 : Ref sig .tc := ⟨.hbm, 725, rfl⟩
abbrev main_v439 : Ref sig .tc := ⟨.hbm, 726, rfl⟩
abbrev main_v440 : Ref sig .tc := ⟨.hbm, 727, rfl⟩
abbrev main_c_173 : Ref sig .tc := ⟨.hbm, 728, rfl⟩
abbrev main_v441 : Ref sig .tc := ⟨.hbm, 729, rfl⟩
abbrev main_v442 : Ref sig .tc := ⟨.hbm, 730, rfl⟩
abbrev main_c_174 : Ref sig .tc := ⟨.hbm, 731, rfl⟩
abbrev main_v443 : Ref sig .tc := ⟨.hbm, 732, rfl⟩
abbrev main_v444 : Ref sig .tc := ⟨.hbm, 733, rfl⟩
abbrev main_v445 : Ref sig .tc := ⟨.hbm, 734, rfl⟩
abbrev main_v446 : Ref sig .tc := ⟨.hbm, 735, rfl⟩
abbrev main_v447 : Ref sig .tc := ⟨.hbm, 736, rfl⟩
abbrev main_v448 : Ref sig .tc := ⟨.hbm, 737, rfl⟩
abbrev main_v449 : Ref sig .tc := ⟨.hbm, 738, rfl⟩
abbrev main_v450 : Ref sig .tc := ⟨.hbm, 739, rfl⟩
abbrev main_v451 : Ref sig .tc := ⟨.hbm, 740, rfl⟩
abbrev main_cst_175 : Ref sig .tc := ⟨.hbm, 741, rfl⟩
abbrev main_call25_v0 : Ref sig .tc := ⟨.hbm, 742, rfl⟩
abbrev main_call25_v1 : Ref sig .tc := ⟨.hbm, 743, rfl⟩
abbrev main_v452 : Ref sig .tc := ⟨.hbm, 744, rfl⟩
abbrev main_v453 : Ref sig .tc := ⟨.hbm, 745, rfl⟩
abbrev main_v454 : Ref sig .tc := ⟨.hbm, 746, rfl⟩
abbrev main_cst_176 : Ref sig .tc := ⟨.hbm, 747, rfl⟩
abbrev main_v455 : Ref sig .tc := ⟨.hbm, 748, rfl⟩
abbrev main_v456 : Ref sig .tc := ⟨.hbm, 749, rfl⟩
abbrev main_v457 : Ref sig .tc := ⟨.hbm, 750, rfl⟩
abbrev main_v458 : Ref sig .tc := ⟨.hbm, 751, rfl⟩
abbrev main_c_177 : Ref sig .tc := ⟨.hbm, 752, rfl⟩
abbrev main_v459 : Ref sig .tc := ⟨.hbm, 753, rfl⟩
abbrev main_v460 : Ref sig .tc := ⟨.hbm, 754, rfl⟩
abbrev main_c_178 : Ref sig .tc := ⟨.hbm, 755, rfl⟩
abbrev main_v461 : Ref sig .tc := ⟨.hbm, 756, rfl⟩
abbrev main_v462 : Ref sig .tc := ⟨.hbm, 757, rfl⟩
abbrev main_c_179 : Ref sig .tc := ⟨.hbm, 758, rfl⟩
abbrev main_v463 : Ref sig .tc := ⟨.hbm, 759, rfl⟩
abbrev main_v464 : Ref sig .tc := ⟨.hbm, 760, rfl⟩
abbrev main_c_180 : Ref sig .tc := ⟨.hbm, 761, rfl⟩
abbrev main_v465 : Ref sig .tc := ⟨.hbm, 762, rfl⟩
abbrev main_v466 : Ref sig .tc := ⟨.hbm, 763, rfl⟩
abbrev main_c_181 : Ref sig .tc := ⟨.hbm, 764, rfl⟩
abbrev main_v467 : Ref sig .tc := ⟨.hbm, 765, rfl⟩
abbrev main_v468 : Ref sig .tc := ⟨.hbm, 766, rfl⟩
abbrev main_v469 : Ref sig .tc := ⟨.hbm, 767, rfl⟩
abbrev main_c_182 : Ref sig .tc := ⟨.hbm, 768, rfl⟩
abbrev main_v470 : Ref sig .tc := ⟨.hbm, 769, rfl⟩
abbrev main_v471 : Ref sig .tc := ⟨.hbm, 770, rfl⟩
abbrev main_v472 : Ref sig .tc := ⟨.hbm, 771, rfl⟩
abbrev main_c_183 : Ref sig .tc := ⟨.hbm, 772, rfl⟩
abbrev main_v473 : Ref sig .tc := ⟨.hbm, 773, rfl⟩
abbrev main_v474 : Ref sig .tc := ⟨.hbm, 774, rfl⟩
abbrev main_v475 : Ref sig .tc := ⟨.hbm, 775, rfl⟩
abbrev main_c_184 : Ref sig .tc := ⟨.hbm, 776, rfl⟩
abbrev main_v476 : Ref sig .tc := ⟨.hbm, 777, rfl⟩
abbrev main_v477 : Ref sig .tc := ⟨.hbm, 778, rfl⟩
abbrev main_v478 : Ref sig .tc := ⟨.hbm, 779, rfl⟩
abbrev main_c_185 : Ref sig .tc := ⟨.hbm, 780, rfl⟩
abbrev main_v479 : Ref sig .tc := ⟨.hbm, 781, rfl⟩
abbrev main_v480 : Ref sig .tc := ⟨.hbm, 782, rfl⟩
abbrev main_v481 : Ref sig .tc := ⟨.hbm, 783, rfl⟩
abbrev main_c_186 : Ref sig .tc := ⟨.hbm, 784, rfl⟩
abbrev main_c_187 : Ref sig .tc := ⟨.hbm, 785, rfl⟩
abbrev main_call26_v0 : Ref sig .tc := ⟨.hbm, 786, rfl⟩
abbrev main_call26_v1 : Ref sig .tc := ⟨.hbm, 787, rfl⟩
abbrev main_call26_v2 : Ref sig .tc := ⟨.hbm, 788, rfl⟩
abbrev main_call26_v3 : Ref sig .tc := ⟨.hbm, 789, rfl⟩
abbrev main_call26_v4 : Ref sig .tc := ⟨.hbm, 790, rfl⟩
abbrev main_v482 : Ref sig .tc := ⟨.hbm, 791, rfl⟩
abbrev main_c_188 : Ref sig .tc := ⟨.hbm, 792, rfl⟩
abbrev main_c_189 : Ref sig .tc := ⟨.hbm, 793, rfl⟩
abbrev main_call27_v0 : Ref sig .tc := ⟨.hbm, 794, rfl⟩
abbrev main_call27_v1 : Ref sig .tc := ⟨.hbm, 795, rfl⟩
abbrev main_call27_v2 : Ref sig .tc := ⟨.hbm, 796, rfl⟩
abbrev main_call27_v3 : Ref sig .tc := ⟨.hbm, 797, rfl⟩
abbrev main_call27_v4 : Ref sig .tc := ⟨.hbm, 798, rfl⟩
abbrev main_v483 : Ref sig .tc := ⟨.hbm, 799, rfl⟩
abbrev main_c_190 : Ref sig .tc := ⟨.hbm, 800, rfl⟩
abbrev main_c_191 : Ref sig .tc := ⟨.hbm, 801, rfl⟩
abbrev main_call28_v0 : Ref sig .tc := ⟨.hbm, 802, rfl⟩
abbrev main_call28_v1 : Ref sig .tc := ⟨.hbm, 803, rfl⟩
abbrev main_call28_v2 : Ref sig .tc := ⟨.hbm, 804, rfl⟩
abbrev main_call28_v3 : Ref sig .tc := ⟨.hbm, 805, rfl⟩
abbrev main_call28_v4 : Ref sig .tc := ⟨.hbm, 806, rfl⟩
abbrev main_v484 : Ref sig .tc := ⟨.hbm, 807, rfl⟩
abbrev main_c_192 : Ref sig .tc := ⟨.hbm, 808, rfl⟩
abbrev main_v485 : Ref sig .tc := ⟨.hbm, 809, rfl⟩
abbrev main_v486 : Ref sig .tc := ⟨.hbm, 810, rfl⟩
abbrev main_c_193 : Ref sig .tc := ⟨.hbm, 811, rfl⟩
abbrev main_v487 : Ref sig .tc := ⟨.hbm, 812, rfl⟩
abbrev main_v488 : Ref sig .tc := ⟨.hbm, 813, rfl⟩
abbrev main_v489 : Ref sig .tc := ⟨.hbm, 814, rfl⟩
abbrev main_c_194 : Ref sig .tc := ⟨.hbm, 815, rfl⟩
abbrev main_v490 : Ref sig .tc := ⟨.hbm, 816, rfl⟩
abbrev main_v491 : Ref sig .tc := ⟨.hbm, 817, rfl⟩
abbrev main_c_195 : Ref sig .tc := ⟨.hbm, 818, rfl⟩
abbrev main_v492 : Ref sig .tc := ⟨.hbm, 819, rfl⟩
abbrev main_v493 : Ref sig .tc := ⟨.hbm, 820, rfl⟩
abbrev main_v494 : Ref sig .tc := ⟨.hbm, 821, rfl⟩
abbrev main_c_196 : Ref sig .tc := ⟨.hbm, 822, rfl⟩
abbrev main_v495 : Ref sig .tc := ⟨.hbm, 823, rfl⟩
abbrev main_v496 : Ref sig .tc := ⟨.hbm, 824, rfl⟩
abbrev main_c_197 : Ref sig .tc := ⟨.hbm, 825, rfl⟩
abbrev main_v497 : Ref sig .tc := ⟨.hbm, 826, rfl⟩
abbrev main_v498 : Ref sig .tc := ⟨.hbm, 827, rfl⟩
abbrev main_v499 : Ref sig .tc := ⟨.hbm, 828, rfl⟩
abbrev main_c_198 : Ref sig .tc := ⟨.hbm, 829, rfl⟩
abbrev main_v500 : Ref sig .tc := ⟨.hbm, 830, rfl⟩
abbrev main_v501 : Ref sig .tc := ⟨.hbm, 831, rfl⟩
abbrev main_c_199 : Ref sig .tc := ⟨.hbm, 832, rfl⟩
abbrev main_v502 : Ref sig .tc := ⟨.hbm, 833, rfl⟩
abbrev main_v503 : Ref sig .tc := ⟨.hbm, 834, rfl⟩
abbrev main_v504 : Ref sig .tc := ⟨.hbm, 835, rfl⟩
abbrev main_v505 : Ref sig .tc := ⟨.hbm, 836, rfl⟩
abbrev main_v506 : Ref sig .tc := ⟨.hbm, 837, rfl⟩
abbrev main_v507 : Ref sig .tc := ⟨.hbm, 838, rfl⟩
abbrev main_v508 : Ref sig .tc := ⟨.hbm, 839, rfl⟩
abbrev main_v509 : Ref sig .tc := ⟨.hbm, 840, rfl⟩
abbrev main_v510 : Ref sig .tc := ⟨.hbm, 841, rfl⟩
abbrev main_cst_200 : Ref sig .tc := ⟨.hbm, 842, rfl⟩
abbrev main_call29_v0 : Ref sig .tc := ⟨.hbm, 843, rfl⟩
abbrev main_call29_v1 : Ref sig .tc := ⟨.hbm, 844, rfl⟩
abbrev main_v511 : Ref sig .tc := ⟨.hbm, 845, rfl⟩
abbrev main_v512 : Ref sig .tc := ⟨.hbm, 846, rfl⟩
abbrev main_v513 : Ref sig .tc := ⟨.hbm, 847, rfl⟩
abbrev main_v514 : Ref sig .tc := ⟨.hbm, 848, rfl⟩
abbrev main_v515 : Ref sig .tc := ⟨.hbm, 849, rfl⟩
abbrev main_c_201 : Ref sig .tc := ⟨.hbm, 850, rfl⟩
abbrev main_v516 : Ref sig .tc := ⟨.hbm, 851, rfl⟩
abbrev main_v517 : Ref sig .tc := ⟨.hbm, 852, rfl⟩
abbrev main_c_202 : Ref sig .tc := ⟨.hbm, 853, rfl⟩
abbrev main_v518 : Ref sig .tc := ⟨.hbm, 854, rfl⟩
abbrev main_v519 : Ref sig .tc := ⟨.hbm, 855, rfl⟩
abbrev main_c_203 : Ref sig .tc := ⟨.hbm, 856, rfl⟩
abbrev main_v520 : Ref sig .tc := ⟨.hbm, 857, rfl⟩
abbrev main_v521 : Ref sig .tc := ⟨.hbm, 858, rfl⟩
abbrev main_c_204 : Ref sig .tc := ⟨.hbm, 859, rfl⟩
abbrev main_v522 : Ref sig .tc := ⟨.hbm, 860, rfl⟩
abbrev main_v523 : Ref sig .tc := ⟨.hbm, 861, rfl⟩
abbrev main_c_205 : Ref sig .tc := ⟨.hbm, 862, rfl⟩
abbrev main_v524 : Ref sig .tc := ⟨.hbm, 863, rfl⟩
abbrev main_v525 : Ref sig .tc := ⟨.hbm, 864, rfl⟩
abbrev main_v526 : Ref sig .tc := ⟨.hbm, 865, rfl⟩
abbrev main_c_206 : Ref sig .tc := ⟨.hbm, 866, rfl⟩
abbrev main_v527 : Ref sig .tc := ⟨.hbm, 867, rfl⟩
abbrev main_v528 : Ref sig .tc := ⟨.hbm, 868, rfl⟩
abbrev main_v529 : Ref sig .tc := ⟨.hbm, 869, rfl⟩
abbrev main_c_207 : Ref sig .tc := ⟨.hbm, 870, rfl⟩
abbrev main_v530 : Ref sig .tc := ⟨.hbm, 871, rfl⟩
abbrev main_v531 : Ref sig .tc := ⟨.hbm, 872, rfl⟩
abbrev main_v532 : Ref sig .tc := ⟨.hbm, 873, rfl⟩
abbrev main_c_208 : Ref sig .tc := ⟨.hbm, 874, rfl⟩
abbrev main_v533 : Ref sig .tc := ⟨.hbm, 875, rfl⟩
abbrev main_v534 : Ref sig .tc := ⟨.hbm, 876, rfl⟩
abbrev main_v535 : Ref sig .tc := ⟨.hbm, 877, rfl⟩
abbrev main_c_209 : Ref sig .tc := ⟨.hbm, 878, rfl⟩
abbrev main_v536 : Ref sig .tc := ⟨.hbm, 879, rfl⟩
abbrev main_v537 : Ref sig .tc := ⟨.hbm, 880, rfl⟩
abbrev main_v538 : Ref sig .tc := ⟨.hbm, 881, rfl⟩
abbrev main_c_210 : Ref sig .tc := ⟨.hbm, 882, rfl⟩
abbrev main_c_211 : Ref sig .tc := ⟨.hbm, 883, rfl⟩
abbrev main_call30_v0 : Ref sig .tc := ⟨.hbm, 884, rfl⟩
abbrev main_call30_v1 : Ref sig .tc := ⟨.hbm, 885, rfl⟩
abbrev main_call30_v2 : Ref sig .tc := ⟨.hbm, 886, rfl⟩
abbrev main_call30_v3 : Ref sig .tc := ⟨.hbm, 887, rfl⟩
abbrev main_call30_v4 : Ref sig .tc := ⟨.hbm, 888, rfl⟩
abbrev main_v539 : Ref sig .tc := ⟨.hbm, 889, rfl⟩
abbrev main_c_212 : Ref sig .tc := ⟨.hbm, 890, rfl⟩
abbrev main_c_213 : Ref sig .tc := ⟨.hbm, 891, rfl⟩
abbrev main_call31_v0 : Ref sig .tc := ⟨.hbm, 892, rfl⟩
abbrev main_call31_v1 : Ref sig .tc := ⟨.hbm, 893, rfl⟩
abbrev main_call31_v2 : Ref sig .tc := ⟨.hbm, 894, rfl⟩
abbrev main_call31_v3 : Ref sig .tc := ⟨.hbm, 895, rfl⟩
abbrev main_call31_v4 : Ref sig .tc := ⟨.hbm, 896, rfl⟩
abbrev main_v540 : Ref sig .tc := ⟨.hbm, 897, rfl⟩
abbrev main_c_214 : Ref sig .tc := ⟨.hbm, 898, rfl⟩
abbrev main_c_215 : Ref sig .tc := ⟨.hbm, 899, rfl⟩
abbrev main_call32_v0 : Ref sig .tc := ⟨.hbm, 900, rfl⟩
abbrev main_call32_v1 : Ref sig .tc := ⟨.hbm, 901, rfl⟩
abbrev main_call32_v2 : Ref sig .tc := ⟨.hbm, 902, rfl⟩
abbrev main_call32_v3 : Ref sig .tc := ⟨.hbm, 903, rfl⟩
abbrev main_call32_v4 : Ref sig .tc := ⟨.hbm, 904, rfl⟩
abbrev main_v541 : Ref sig .tc := ⟨.hbm, 905, rfl⟩
abbrev main_c_216 : Ref sig .tc := ⟨.hbm, 906, rfl⟩
abbrev main_v542 : Ref sig .tc := ⟨.hbm, 907, rfl⟩
abbrev main_v543 : Ref sig .tc := ⟨.hbm, 908, rfl⟩
abbrev main_c_217 : Ref sig .tc := ⟨.hbm, 909, rfl⟩
abbrev main_v544 : Ref sig .tc := ⟨.hbm, 910, rfl⟩
abbrev main_v545 : Ref sig .tc := ⟨.hbm, 911, rfl⟩
abbrev main_v546 : Ref sig .tc := ⟨.hbm, 912, rfl⟩
abbrev main_c_218 : Ref sig .tc := ⟨.hbm, 913, rfl⟩
abbrev main_v547 : Ref sig .tc := ⟨.hbm, 914, rfl⟩
abbrev main_v548 : Ref sig .tc := ⟨.hbm, 915, rfl⟩
abbrev main_c_219 : Ref sig .tc := ⟨.hbm, 916, rfl⟩
abbrev main_v549 : Ref sig .tc := ⟨.hbm, 917, rfl⟩
abbrev main_v550 : Ref sig .tc := ⟨.hbm, 918, rfl⟩
abbrev main_v551 : Ref sig .tc := ⟨.hbm, 919, rfl⟩
abbrev main_c_220 : Ref sig .tc := ⟨.hbm, 920, rfl⟩
abbrev main_v552 : Ref sig .tc := ⟨.hbm, 921, rfl⟩
abbrev main_v553 : Ref sig .tc := ⟨.hbm, 922, rfl⟩
abbrev main_c_221 : Ref sig .tc := ⟨.hbm, 923, rfl⟩
abbrev main_v554 : Ref sig .tc := ⟨.hbm, 924, rfl⟩
abbrev main_v555 : Ref sig .tc := ⟨.hbm, 925, rfl⟩
abbrev main_v556 : Ref sig .tc := ⟨.hbm, 926, rfl⟩
abbrev main_c_222 : Ref sig .tc := ⟨.hbm, 927, rfl⟩
abbrev main_v557 : Ref sig .tc := ⟨.hbm, 928, rfl⟩
abbrev main_v558 : Ref sig .tc := ⟨.hbm, 929, rfl⟩
abbrev main_c_223 : Ref sig .tc := ⟨.hbm, 930, rfl⟩
abbrev main_v559 : Ref sig .tc := ⟨.hbm, 931, rfl⟩
abbrev main_v560 : Ref sig .tc := ⟨.hbm, 932, rfl⟩
abbrev main_v561 : Ref sig .tc := ⟨.hbm, 933, rfl⟩
abbrev main_v562 : Ref sig .tc := ⟨.hbm, 934, rfl⟩
abbrev main_v563 : Ref sig .tc := ⟨.hbm, 935, rfl⟩
abbrev main_v564 : Ref sig .tc := ⟨.hbm, 936, rfl⟩
abbrev main_v565 : Ref sig .tc := ⟨.hbm, 937, rfl⟩
abbrev main_v566 : Ref sig .tc := ⟨.hbm, 938, rfl⟩
abbrev main_v567 : Ref sig .tc := ⟨.hbm, 939, rfl⟩
abbrev main_cst_224 : Ref sig .tc := ⟨.hbm, 940, rfl⟩
abbrev main_call33_v0 : Ref sig .tc := ⟨.hbm, 941, rfl⟩
abbrev main_call33_v1 : Ref sig .tc := ⟨.hbm, 942, rfl⟩
abbrev main_v568 : Ref sig .tc := ⟨.hbm, 943, rfl⟩
abbrev main_v569 : Ref sig .tc := ⟨.hbm, 944, rfl⟩
abbrev main_v570 : Ref sig .tc := ⟨.hbm, 945, rfl⟩

abbrev nD : Nat := 1
abbrev τ : Topo := Topo.v7x

variable {F : FTy → Type} [FloatOps F]

class Facts₀ : Prop where
  slices_S2x3_S1x3_1_0 : S2x3.Slices ![1, 0] S1x3
  shapeCasts_S1x3_S3 : S1x3.ShapeCasts S3
  slices_S2x3_S1x3_0_0 : S2x3.Slices ![0, 0] S1x3
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  bcast_S_S3 : S_.BroadcastsInDim S3 (![] : Fin 0 → Fin S3.rank)
  bcast_S_S4194304x3 : S_.BroadcastsInDim S4194304x3 (![] : Fin 0 → Fin S4194304x3.rank)
  reducesTo_S4194304x3_S4194304_d1 : S4194304x3.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  shapeCasts_S256x256x256_S64x64x64x64 : S256x256x256.ShapeCasts S64x64x64x64
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  concatenates_S4194304x1_S4194304x1_S4194304x1_S4194304x1_S4194304x4_d1 : Shape.Concatenates [S4194304x1, S4194304x1, S4194304x1, S4194304x1] S4194304x4 1
  gather_S4194304_S4194304x1_S4194304_n_0_n_n_0_1_1_wf : GatherDims.WF S4194304 S4194304x1 S4194304 [] [0] [] [0] [] 1 ![1]
  gather_S4194304x3_S4194304x1_S4194304x3_1_0_n_n_0_1_13_wf : GatherDims.WF S4194304x3 S4194304x1 S4194304x3 [1] [0] [] [0] [] 1 ![1, 3]
  gather_S64x3_S4194304x1_S4194304x3_1_0_n_n_0_1_13_wf : GatherDims.WF S64x3 S4194304x1 S4194304x3 [1] [0] [] [0] [] 1 ![1, 3]
  gather_S64x64x64x64_S4194304x4_S4194304_n_0123_n_n_0123_1_1111_wf : GatherDims.WF S64x64x64x64 S4194304x4 S4194304 [] [0, 1, 2, 3] [] [0, 1, 2, 3] [] 1 ![1, 1, 1, 1]

variable [Facts₀]

def comparator_i32_i32_d0 : BitVec 32 × BitVec 32 → BitVec 32 × BitVec 32 → BitVec 1 :=
  fun l r =>
    let v2 := IntOp.cmpi .slt l.1 r.1
    v2
def gather_S4194304_S4194304x1_S4194304_n_0_n_n_0_1_1 : GatherDims S4194304 S4194304x1 S4194304 where
  offsetDims := []
  collapsedSliceDims := [0]
  operandBatchingDims := []
  startIndicesBatchingDims := []
  startIndexMap := [0]
  indexVectorDim := 1
  sliceSizes := ![1]
  wf := gather_S4194304_S4194304x1_S4194304_n_0_n_n_0_1_1_wf
def gather_S4194304x3_S4194304x1_S4194304x3_1_0_n_n_0_1_13 : GatherDims S4194304x3 S4194304x1 S4194304x3 where
  offsetDims := [1]
  collapsedSliceDims := [0]
  operandBatchingDims := []
  startIndicesBatchingDims := []
  startIndexMap := [0]
  indexVectorDim := 1
  sliceSizes := ![1, 3]
  wf := gather_S4194304x3_S4194304x1_S4194304x3_1_0_n_n_0_1_13_wf
def gather_S64x3_S4194304x1_S4194304x3_1_0_n_n_0_1_13 : GatherDims S64x3 S4194304x1 S4194304x3 where
  offsetDims := [1]
  collapsedSliceDims := [0]
  operandBatchingDims := []
  startIndicesBatchingDims := []
  startIndexMap := [0]
  indexVectorDim := 1
  sliceSizes := ![1, 3]
  wf := gather_S64x3_S4194304x1_S4194304x3_1_0_n_n_0_1_13_wf
def gather_S64x64x64x64_S4194304x4_S4194304_n_0123_n_n_0123_1_1111 : GatherDims S64x64x64x64 S4194304x4 S4194304 where
  offsetDims := []
  collapsedSliceDims := [0, 1, 2, 3]
  operandBatchingDims := []
  startIndicesBatchingDims := []
  startIndexMap := [0, 1, 2, 3]
  indexVectorDim := 1
  sliceSizes := ![1, 1, 1, 1]
  wf := gather_S64x64x64x64_S4194304x4_S4194304_n_0123_n_n_0123_1_1111_wf

class Facts : Prop extends Facts₀ where

variable [Facts]
-- ==== Proof.IntChain.lean ====
/- Each integer host operation between the sorted block ids `bs` and (i_v127) the slot of every point in the padded, tile-aligned layout, (i_v196) the block id of every 256-point tile: one definition per operation, the operation applied to the stages of its operands. -/
import proofs.«104803_j90202903151142_1_alg».proof.KernelIdeal

noncomputable section

namespace Cert.AlphaGrid.IntChain

open Idealize.ShloMosaic Cert.KernelIdeal

variable [Cert.KernelIdeal.Facts]
open Cert.KernelIdeal.Facts₀ Cert.KernelIdeal.Facts

def i_c_23 (bs : IVec S4194304 32) :=
  (constantI S_ 32 1#32)

def i_v92 (bs : IVec S4194304 32) :=
  (broadcastInDim S4194304 ![] bcast_S_S4194304 : IVec S_ 32 → IVec S4194304 32) (i_c_23 bs)

def i_c_24 (bs : IVec S4194304 32) :=
  (constantI S_ 32 0#32)

def i_v93 (bs : IVec S4194304 32) :=
  (broadcastInDim S64 ![] bcast_S_S64 : IVec S_ 32 → IVec S64 32) (i_c_24 bs)

def i_v94 (bs : IVec S4194304 32) :=
  (broadcastInDim S4194304x1 ![0] bcast_S4194304_S4194304x1_0 : IVec S4194304 32 → IVec S4194304x1 32) bs

def i_v95 (bs : IVec S4194304 32) :=
  ((fun x i u => Host.scatter scatter_S64_S4194304x1_S4194304_n_0_0_1 IntOp.addi x i u) : IVec S64 32 → IVec S4194304x1 32 → IVec S4194304 32 → IVec S64 32) (i_v93 bs) (i_v94 bs) (i_v92 bs)

def i_c_25 (bs : IVec S4194304 32) :=
  (constantI S_ 32 0#32)

def i_v96 (bs : IVec S4194304 32) :=
  (broadcastInDim S1 ![] bcast_S_S1 : IVec S_ 32 → IVec S1 32) (i_c_25 bs)

def i_call2_call0_c (bs : IVec S4194304 32) :=
  (constantI S_ 32 0#32)

def i_call2_call0_v0 (bs : IVec S4194304 32) :=
  (broadcastInDim S_ ![] bcast_S_S_) (i_call2_call0_c bs)

def i_v97 (bs : IVec S4194304 32) :=
  (fun x v => Host.reduceWindow IntOp.addi ![64] ![1] ![63] ![0] x v reduceWindows_S64_S64_w64s1p63_0 h_S_) (i_v95 bs) (i_call2_call0_v0 bs)

def i_v98 (bs : IVec S4194304 32) :=
  ((extractStridedSlice S63 ![0] · slices_S64_S63_0) : IVec S64 32 → IVec S63 32) (i_v97 bs)

def i_v99 (bs : IVec S4194304 32) :=
  ((fun a b => concatenate S64 0 [⟨S1, a⟩, ⟨S63, b⟩] concatenates_S1_S63_S64_d0) : IVec S1 32 → IVec S63 32 → IVec S64 32) (i_v96 bs) (i_v98 bs)

def i_c_26 (bs : IVec S4194304 32) :=
  (constantI S_ 32 256#32)

def i_v100 (bs : IVec S4194304 32) :=
  (broadcastInDim S64 ![] bcast_S_S64 : IVec S_ 32 → IVec S64 32) (i_c_26 bs)

def i_v101 (bs : IVec S4194304 32) :=
  (addi : IVec S64 32 → IVec S64 32 → IVec S64 32) (i_v95 bs) (i_v100 bs)

def i_c_27 (bs : IVec S4194304 32) :=
  (constantI S_ 32 1#32)

def i_v102 (bs : IVec S4194304 32) :=
  (broadcastInDim S64 ![] bcast_S_S64 : IVec S_ 32 → IVec S64 32) (i_c_27 bs)

def i_v103 (bs : IVec S4194304 32) :=
  (subi : IVec S64 32 → IVec S64 32 → IVec S64 32) (i_v101 bs) (i_v102 bs)

def i_c_28 (bs : IVec S4194304 32) :=
  (constantI S_ 32 256#32)

def i_call3_v0 (bs : IVec S4194304 32) :=
  id (i_c_28 bs)

def i_call3_v1 (bs : IVec S4194304 32) :=
  (broadcastInDim S64 ![] bcast_S_S64) (i_call3_v0 bs)

def i_call3_v2 (bs : IVec S4194304 32) :=
  Host.divsi (i_v103 bs) (i_call3_v1 bs)

def i_call3_v3 (bs : IVec S4194304 32) :=
  signi (i_v103 bs)

def i_call3_v4 (bs : IVec S4194304 32) :=
  signi (i_call3_v0 bs)

def i_call3_v5 (bs : IVec S4194304 32) :=
  (broadcastInDim S64 ![] bcast_S_S64) (i_call3_v4 bs)

def i_call3_v6 (bs : IVec S4194304 32) :=
  (cmpi .ne) (i_call3_v3 bs) (i_call3_v5 bs)

def i_call3_v7 (bs : IVec S4194304 32) :=
  (broadcastInDim S64 ![] bcast_S_S64) (i_call3_v0 bs)

def i_call3_v8 (bs : IVec S4194304 32) :=
  Host.remsi (i_v103 bs) (i_call3_v7 bs)

def i_call3_c (bs : IVec S4194304 32) :=
  (constantI S_ 32 0#32)

def i_call3_v9 (bs : IVec S4194304 32) :=
  (broadcastInDim S64 ![] bcast_S_S64) (i_call3_c bs)

def i_call3_v10 (bs : IVec S4194304 32) :=
  (cmpi .ne) (i_call3_v8 bs) (i_call3_v9 bs)

def i_call3_v11 (bs : IVec S4194304 32) :=
  andi (i_call3_v6 bs) (i_call3_v10 bs)

def i_call3_c_0 (bs : IVec S4194304 32) :=
  (constantI S_ 32 1#32)

def i_call3_v12 (bs : IVec S4194304 32) :=
  (broadcastInDim S64 ![] bcast_S_S64) (i_call3_c_0 bs)

def i_call3_v13 (bs : IVec S4194304 32) :=
  subi (i_call3_v2 bs) (i_call3_v12 bs)

def i_v104 (bs : IVec S4194304 32) :=
  select (i_call3_v11 bs) (i_call3_v13 bs) (i_call3_v2 bs)

def i_c_29 (bs : IVec S4194304 32) :=
  (constantI S_ 32 256#32)

def i_v105 (bs : IVec S4194304 32) :=
  (broadcastInDim S64 ![] bcast_S_S64 : IVec S_ 32 → IVec S64 32) (i_c_29 bs)

def i_v106 (bs : IVec S4194304 32) :=
  (muli : IVec S64 32 → IVec S64 32 → IVec S64 32) (i_v104 bs) (i_v105 bs)

def i_c_30 (bs : IVec S4194304 32) :=
  (constantI S_ 32 0#32)

def i_v107 (bs : IVec S4194304 32) :=
  (broadcastInDim S1 ![] bcast_S_S1 : IVec S_ 32 → IVec S1 32) (i_c_30 bs)

def i_call4_call0_c (bs : IVec S4194304 32) :=
  (constantI S_ 32 0#32)

def i_call4_call0_v0 (bs : IVec S4194304 32) :=
  (broadcastInDim S_ ![] bcast_S_S_) (i_call4_call0_c bs)

def i_v108 (bs : IVec S4194304 32) :=
  (fun x v => Host.reduceWindow IntOp.addi ![64] ![1] ![63] ![0] x v reduceWindows_S64_S64_w64s1p63_0 h_S_) (i_v106 bs) (i_call4_call0_v0 bs)

def i_v109 (bs : IVec S4194304 32) :=
  ((extractStridedSlice S63 ![0] · slices_S64_S63_0) : IVec S64 32 → IVec S63 32) (i_v108 bs)

def i_v110 (bs : IVec S4194304 32) :=
  ((fun a b => concatenate S64 0 [⟨S1, a⟩, ⟨S63, b⟩] concatenates_S1_S63_S64_d0) : IVec S1 32 → IVec S63 32 → IVec S64 32) (i_v107 bs) (i_v109 bs)

def i_c_31 (bs : IVec S4194304 32) :=
  (constantI S_ 32 0#32)

def i_v111 (bs : IVec S4194304 32) :=
  (broadcastInDim S4194304 ![] bcast_S_S4194304 : IVec S_ 32 → IVec S4194304 32) (i_c_31 bs)

def i_v112 (bs : IVec S4194304 32) :=
  (cmpi .slt : IVec S4194304 32 → IVec S4194304 32 → IVec S4194304 1) bs (i_v111 bs)

def i_c_32 (bs : IVec S4194304 32) :=
  (constantI S_ 32 64#32)

def i_v113 (bs : IVec S4194304 32) :=
  (broadcastInDim S4194304 ![] bcast_S_S4194304 : IVec S_ 32 → IVec S4194304 32) (i_c_32 bs)

def i_v114 (bs : IVec S4194304 32) :=
  (addi : IVec S4194304 32 → IVec S4194304 32 → IVec S4194304 32) bs (i_v113 bs)

def i_v115 (bs : IVec S4194304 32) :=
  (select : IVec S4194304 1 → IVec S4194304 32 → IVec S4194304 32 → IVec S4194304 32) (i_v112 bs) (i_v114 bs) bs

def i_v116 (bs : IVec S4194304 32) :=
  (broadcastInDim S4194304x1 ![0] bcast_S4194304_S4194304x1_0 : IVec S4194304 32 → IVec S4194304x1 32) (i_v115 bs)

def i_v117 (bs : IVec S4194304 32) :=
  ((fun x i => Host.gather gather_S64_S4194304x1_S4194304_n_0_n_n_0_1_1 x i) : IVec S64 32 → IVec S4194304x1 32 → IVec S4194304 32) (i_v110 bs) (i_v116 bs)

def i_v118 (bs : IVec S4194304 32) :=
  (iotaInDim S4194304 32 0)

def i_c_33 (bs : IVec S4194304 32) :=
  (constantI S_ 32 0#32)

def i_v119 (bs : IVec S4194304 32) :=
  (broadcastInDim S4194304 ![] bcast_S_S4194304 : IVec S_ 32 → IVec S4194304 32) (i_c_33 bs)

def i_v120 (bs : IVec S4194304 32) :=
  (cmpi .slt : IVec S4194304 32 → IVec S4194304 32 → IVec S4194304 1) bs (i_v119 bs)

def i_c_34 (bs : IVec S4194304 32) :=
  (constantI S_ 32 64#32)

def i_v121 (bs : IVec S4194304 32) :=
  (broadcastInDim S4194304 ![] bcast_S_S4194304 : IVec S_ 32 → IVec S4194304 32) (i_c_34 bs)

def i_v122 (bs : IVec S4194304 32) :=
  (addi : IVec S4194304 32 → IVec S4194304 32 → IVec S4194304 32) bs (i_v121 bs)

def i_v123 (bs : IVec S4194304 32) :=
  (select : IVec S4194304 1 → IVec S4194304 32 → IVec S4194304 32 → IVec S4194304 32) (i_v120 bs) (i_v122 bs) bs

def i_v124 (bs : IVec S4194304 32) :=
  (broadcastInDim S4194304x1 ![0] bcast_S4194304_S4194304x1_0 : IVec S4194304 32 → IVec S4194304x1 32) (i_v123 bs)

def i_v125 (bs : IVec S4194304 32) :=
  ((fun x i => Host.gather gather_S64_S4194304x1_S4194304_n_0_n_n_0_1_1 x i) : IVec S64 32 → IVec S4194304x1 32 → IVec S4194304 32) (i_v99 bs) (i_v124 bs)

def i_v126 (bs : IVec S4194304 32) :=
  (subi : IVec S4194304 32 → IVec S4194304 32 → IVec S4194304 32) (i_v118 bs) (i_v125 bs)

def i_v127 (bs : IVec S4194304 32) :=
  (addi : IVec S4194304 32 → IVec S4194304 32 → IVec S4194304 32) (i_v117 bs) (i_v126 bs)

def i_v176 (bs : IVec S4194304 32) :=
  (addi : IVec S64 32 → IVec S64 32 → IVec S64 32) (i_v110 bs) (i_v106 bs)

def i_v177 (bs : IVec S4194304 32) :=
  (iotaInDim S16448 32 0)

def i_c_53 (bs : IVec S4194304 32) :=
  (constantI S_ 32 256#32)

def i_v178 (bs : IVec S4194304 32) :=
  (broadcastInDim S16448 ![] bcast_S_S16448 : IVec S_ 32 → IVec S16448 32) (i_c_53 bs)

def i_v179 (bs : IVec S4194304 32) :=
  (muli : IVec S16448 32 → IVec S16448 32 → IVec S16448 32) (i_v177 bs) (i_v178 bs)

def i_v180 (bs : IVec S4194304 32) :=
  (broadcastInDim S16448x1 ![0] bcast_S16448_S16448x1_0 : IVec S16448 32 → IVec S16448x1 32) (i_v179 bs)

def i_v181 (bs : IVec S4194304 32) :=
  (broadcastInDim S1x64 ![1] bcast_S64_S1x64_1 : IVec S64 32 → IVec S1x64 32) (i_v110 bs)

def i_v182 (bs : IVec S4194304 32) :=
  (broadcastInDim S16448x64 ![0, 1] bcast_S16448x1_S16448x64_0_1 : IVec S16448x1 32 → IVec S16448x64 32) (i_v180 bs)

def i_v183 (bs : IVec S4194304 32) :=
  (broadcastInDim S16448x64 ![0, 1] bcast_S1x64_S16448x64_0_1 : IVec S1x64 32 → IVec S16448x64 32) (i_v181 bs)

def i_v184 (bs : IVec S4194304 32) :=
  (cmpi .sge : IVec S16448x64 32 → IVec S16448x64 32 → IVec S16448x64 1) (i_v182 bs) (i_v183 bs)

def i_v185 (bs : IVec S4194304 32) :=
  (broadcastInDim S16448x1 ![0] bcast_S16448_S16448x1_0 : IVec S16448 32 → IVec S16448x1 32) (i_v179 bs)

def i_v186 (bs : IVec S4194304 32) :=
  (broadcastInDim S1x64 ![1] bcast_S64_S1x64_1 : IVec S64 32 → IVec S1x64 32) (i_v176 bs)

def i_v187 (bs : IVec S4194304 32) :=
  (broadcastInDim S16448x64 ![0, 1] bcast_S16448x1_S16448x64_0_1 : IVec S16448x1 32 → IVec S16448x64 32) (i_v185 bs)

def i_v188 (bs : IVec S4194304 32) :=
  (broadcastInDim S16448x64 ![0, 1] bcast_S1x64_S16448x64_0_1 : IVec S1x64 32 → IVec S16448x64 32) (i_v186 bs)

def i_v189 (bs : IVec S4194304 32) :=
  (cmpi .slt : IVec S16448x64 32 → IVec S16448x64 32 → IVec S16448x64 1) (i_v187 bs) (i_v188 bs)

def i_v190 (bs : IVec S4194304 32) :=
  (andi : IVec S16448x64 1 → IVec S16448x64 1 → IVec S16448x64 1) (i_v184 bs) (i_v189 bs)

def i_v191 (bs : IVec S4194304 32) :=
  ((extui 32 · natLt_1_32) : IVec S16448x64 1 → IVec S16448x64 32) (i_v190 bs)

def i_v192 (bs : IVec S4194304 32) :=
  (iotaInDim S64 32 0)

def i_v193 (bs : IVec S4194304 32) :=
  (broadcastInDim S1x64 ![1] bcast_S64_S1x64_1 : IVec S64 32 → IVec S1x64 32) (i_v192 bs)

def i_v194 (bs : IVec S4194304 32) :=
  (broadcastInDim S16448x64 ![0, 1] bcast_S1x64_S16448x64_0_1 : IVec S1x64 32 → IVec S16448x64 32) (i_v193 bs)

def i_v195 (bs : IVec S4194304 32) :=
  (muli : IVec S16448x64 32 → IVec S16448x64 32 → IVec S16448x64 32) (i_v191 bs) (i_v194 bs)

def i_c_54 (bs : IVec S4194304 32) :=
  (constantI S_ 32 0#32)

def i_v196 (bs : IVec S4194304 32) :=
  ((fun x v => Host.reduce IntOp.addi x v reducesTo_S16448x64_S16448_d1 h_S_) : IVec S16448x64 32 → IVec S_ 32 → IVec S16448 32) (i_v195 bs) (i_c_54 bs)

end Cert.AlphaGrid.IntChain

end
-- ==== Proof.Glue.lean ====
/- Each host operation between the argument arrays (points a0, bounding box a1, per-block domain corners a3 a4) and: the sorted block ids (g_v30), the weights wx wy wz (g_v86 g_v87 g_v88) and the base cells x0 y0 z0 (g_v89 g_v90 g_v91) of the sorted points: one definition per operation. -/
import proofs.«104803_j90202903151142_1_alg».proof.KernelIdeal

noncomputable section

namespace Cert.AlphaGrid.Glue

open Idealize.ShloMosaic Cert.KernelIdeal

variable [Cert.KernelIdeal.Facts]
open Cert.KernelIdeal.Facts₀ Cert.KernelIdeal.Facts

variable {F : FTy → Type} [FloatOps F]

def g_cst (a0 : FVec F S4194304x3 .f32) (a1 : FVec F S2x3 .f32) (a3 a4 : FVec F S64x3 .f32) :=
  (constant (F := F) S3 .f32 0x40800000#32)

def g_c (a0 : FVec F S4194304x3 .f32) (a1 : FVec F S2x3 .f32) (a3 a4 : FVec F S64x3 .f32) :=
  (constantI S3 32 4#32)

def g_c_0 (a0 : FVec F S4194304x3 .f32) (a1 : FVec F S2x3 .f32) (a3 a4 : FVec F S64x3 .f32) :=
  (fun i => lit0 (S3.rowMajor i))

def g_v0 (a0 : FVec F S4194304x3 .f32) (a1 : FVec F S2x3 .f32) (a3 a4 : FVec F S64x3 .f32) :=
  ((extractStridedSlice S1x3 ![1, 0] · slices_S2x3_S1x3_1_0) : (⟨S2x3, .f32⟩ : BufTy).Contents (Elt F) → (⟨S1x3, .f32⟩ : BufTy).Contents (Elt F)) a1

def g_v1 (a0 : FVec F S4194304x3 .f32) (a1 : FVec F S2x3 .f32) (a3 a4 : FVec F S64x3 .f32) :=
  shapeCast S3 (g_v0 a0 a1 a3 a4) shapeCasts_S1x3_S3

def g_v2 (a0 : FVec F S4194304x3 .f32) (a1 : FVec F S2x3 .f32) (a3 a4 : FVec F S64x3 .f32) :=
  ((extractStridedSlice S1x3 ![0, 0] · slices_S2x3_S1x3_0_0) : (⟨S2x3, .f32⟩ : BufTy).Contents (Elt F) → (⟨S1x3, .f32⟩ : BufTy).Contents (Elt F)) a1

def g_v3 (a0 : FVec F S4194304x3 .f32) (a1 : FVec F S2x3 .f32) (a3 a4 : FVec F S64x3 .f32) :=
  shapeCast S3 (g_v2 a0 a1 a3 a4) shapeCasts_S1x3_S3

def g_v4 (a0 : FVec F S4194304x3 .f32) (a1 : FVec F S2x3 .f32) (a3 a4 : FVec F S64x3 .f32) :=
  (subf : (⟨S3, .f32⟩ : BufTy).Contents (Elt F) → (⟨S3, .f32⟩ : BufTy).Contents (Elt F) → (⟨S3, .f32⟩ : BufTy).Contents (Elt F)) (g_v1 a0 a1 a3 a4) (g_v3 a0 a1 a3 a4)

def g_v5 (a0 : FVec F S4194304x3 .f32) (a1 : FVec F S2x3 .f32) (a3 a4 : FVec F S64x3 .f32) :=
  (Host.divf : (⟨S3, .f32⟩ : BufTy).Contents (Elt F) → (⟨S3, .f32⟩ : BufTy).Contents (Elt F) → (⟨S3, .f32⟩ : BufTy).Contents (Elt F)) (g_v4 a0 a1 a3 a4) (g_cst a0 a1 a3 a4)

def g_v6 (a0 : FVec F S4194304x3 .f32) (a1 : FVec F S2x3 .f32) (a3 a4 : FVec F S64x3 .f32) :=
  ((extractStridedSlice S1x3 ![0, 0] · slices_S2x3_S1x3_0_0) : (⟨S2x3, .f32⟩ : BufTy).Contents (Elt F) → (⟨S1x3, .f32⟩ : BufTy).Contents (Elt F)) a1

def g_v7 (a0 : FVec F S4194304x3 .f32) (a1 : FVec F S2x3 .f32) (a3 a4 : FVec F S64x3 .f32) :=
  shapeCast S3 (g_v6 a0 a1 a3 a4) shapeCasts_S1x3_S3

def g_v8 (a0 : FVec F S4194304x3 .f32) (a1 : FVec F S2x3 .f32) (a3 a4 : FVec F S64x3 .f32) :=
  (broadcastInDim S1x3 ![1] bcast_S3_S1x3_1 : (⟨S3, .f32⟩ : BufTy).Contents (Elt F) → (⟨S1x3, .f32⟩ : BufTy).Contents (Elt F)) (g_v7 a0 a1 a3 a4)

def g_v9 (a0 : FVec F S4194304x3 .f32) (a1 : FVec F S2x3 .f32) (a3 a4 : FVec F S64x3 .f32) :=
  (broadcastInDim S4194304x3 ![0, 1] bcast_S1x3_S4194304x3_0_1 : (⟨S1x3, .f32⟩ : BufTy).Contents (Elt F) → (⟨S4194304x3, .f32⟩ : BufTy).Contents (Elt F)) (g_v8 a0 a1 a3 a4)

def g_v10 (a0 : FVec F S4194304x3 .f32) (a1 : FVec F S2x3 .f32) (a3 a4 : FVec F S64x3 .f32) :=
  (subf : (⟨S4194304x3, .f32⟩ : BufTy).Contents (Elt F) → (⟨S4194304x3, .f32⟩ : BufTy).Contents (Elt F) → (⟨S4194304x3, .f32⟩ : BufTy).Contents (Elt F)) a0 (g_v9 a0 a1 a3 a4)

def g_v11 (a0 : FVec F S4194304x3 .f32) (a1 : FVec F S2x3 .f32) (a3 a4 : FVec F S64x3 .f32) :=
  (broadcastInDim S1x3 ![1] bcast_S3_S1x3_1 : (⟨S3, .f32⟩ : BufTy).Contents (Elt F) → (⟨S1x3, .f32⟩ : BufTy).Contents (Elt F)) (g_v5 a0 a1 a3 a4)

def g_v12 (a0 : FVec F S4194304x3 .f32) (a1 : FVec F S2x3 .f32) (a3 a4 : FVec F S64x3 .f32) :=
  (broadcastInDim S4194304x3 ![0, 1] bcast_S1x3_S4194304x3_0_1 : (⟨S1x3, .f32⟩ : BufTy).Contents (Elt F) → (⟨S4194304x3, .f32⟩ : BufTy).Contents (Elt F)) (g_v11 a0 a1 a3 a4)

def g_v13 (a0 : FVec F S4194304x3 .f32) (a1 : FVec F S2x3 .f32) (a3 a4 : FVec F S64x3 .f32) :=
  (Host.divf : (⟨S4194304x3, .f32⟩ : BufTy).Contents (Elt F) → (⟨S4194304x3, .f32⟩ : BufTy).Contents (Elt F) → (⟨S4194304x3, .f32⟩ : BufTy).Contents (Elt F)) (g_v10 a0 a1 a3 a4) (g_v12 a0 a1 a3 a4)

def g_v14 (a0 : FVec F S4194304x3 .f32) (a1 : FVec F S2x3 .f32) (a3 a4 : FVec F S64x3 .f32) :=
  (Host.floor : (⟨S4194304x3, .f32⟩ : BufTy).Contents (Elt F) → (⟨S4194304x3, .f32⟩ : BufTy).Contents (Elt F)) (g_v13 a0 a1 a3 a4)

def g_v15 (a0 : FVec F S4194304x3 .f32) (a1 : FVec F S2x3 .f32) (a3 a4 : FVec F S64x3 .f32) :=
  (fptosi 32 : (⟨S4194304x3, .f32⟩ : BufTy).Contents (Elt F) → (⟨S4194304x3, .i32⟩ : BufTy).Contents (Elt F)) (g_v14 a0 a1 a3 a4)

def g_c_1 (a0 : FVec F S4194304x3 .f32) (a1 : FVec F S2x3 .f32) (a3 a4 : FVec F S64x3 .f32) :=
  (constantI S_ 32 1#32)

def g_v16 (a0 : FVec F S4194304x3 .f32) (a1 : FVec F S2x3 .f32) (a3 a4 : FVec F S64x3 .f32) :=
  (broadcastInDim S3 ![] bcast_S_S3 : (⟨S_, .i32⟩ : BufTy).Contents (Elt F) → (⟨S3, .i32⟩ : BufTy).Contents (Elt F)) (g_c_1 a0 a1 a3 a4)

def g_v17 (a0 : FVec F S4194304x3 .f32) (a1 : FVec F S2x3 .f32) (a3 a4 : FVec F S64x3 .f32) :=
  (subi : (⟨S3, .i32⟩ : BufTy).Contents (Elt F) → (⟨S3, .i32⟩ : BufTy).Contents (Elt F) → (⟨S3, .i32⟩ : BufTy).Contents (Elt F)) (g_c a0 a1 a3 a4) (g_v16 a0 a1 a3 a4)

def g_c_2 (a0 : FVec F S4194304x3 .f32) (a1 : FVec F S2x3 .f32) (a3 a4 : FVec F S64x3 .f32) :=
  (constantI S_ 32 0#32)

def g_call0_v0 (a0 : FVec F S4194304x3 .f32) (a1 : FVec F S2x3 .f32) (a3 a4 : FVec F S64x3 .f32) :=
  id (g_c_2 a0 a1 a3 a4)

def g_call0_v1 (a0 : FVec F S4194304x3 .f32) (a1 : FVec F S2x3 .f32) (a3 a4 : FVec F S64x3 .f32) :=
  (broadcastInDim S4194304x3 ![] bcast_S_S4194304x3) (g_call0_v0 a0 a1 a3 a4)

def g_call0_v2 (a0 : FVec F S4194304x3 .f32) (a1 : FVec F S2x3 .f32) (a3 a4 : FVec F S64x3 .f32) :=
  maxsi (g_call0_v1 a0 a1 a3 a4) (g_v15 a0 a1 a3 a4)

def g_call0_v3 (a0 : FVec F S4194304x3 .f32) (a1 : FVec F S2x3 .f32) (a3 a4 : FVec F S64x3 .f32) :=
  (broadcastInDim S1x3 ![1] bcast_S3_S1x3_1) (g_v17 a0 a1 a3 a4)

def g_call0_v4 (a0 : FVec F S4194304x3 .f32) (a1 : FVec F S2x3 .f32) (a3 a4 : FVec F S64x3 .f32) :=
  (broadcastInDim S4194304x3 ![0, 1] bcast_S1x3_S4194304x3_0_1) (g_call0_v3 a0 a1 a3 a4)

def g_v18 (a0 : FVec F S4194304x3 .f32) (a1 : FVec F S2x3 .f32) (a3 a4 : FVec F S64x3 .f32) :=
  minsi (g_call0_v4 a0 a1 a3 a4) (g_call0_v2 a0 a1 a3 a4)

def g_v19 (a0 : FVec F S4194304x3 .f32) (a1 : FVec F S2x3 .f32) (a3 a4 : FVec F S64x3 .f32) :=
  (broadcastInDim S1x3 ![1] bcast_S3_S1x3_1 : (⟨S3, .i32⟩ : BufTy).Contents (Elt F) → (⟨S1x3, .i32⟩ : BufTy).Contents (Elt F)) (g_c_0 a0 a1 a3 a4)

def g_v20 (a0 : FVec F S4194304x3 .f32) (a1 : FVec F S2x3 .f32) (a3 a4 : FVec F S64x3 .f32) :=
  (broadcastInDim S4194304x3 ![0, 1] bcast_S1x3_S4194304x3_0_1 : (⟨S1x3, .i32⟩ : BufTy).Contents (Elt F) → (⟨S4194304x3, .i32⟩ : BufTy).Contents (Elt F)) (g_v19 a0 a1 a3 a4)

def g_v21 (a0 : FVec F S4194304x3 .f32) (a1 : FVec F S2x3 .f32) (a3 a4 : FVec F S64x3 .f32) :=
  (muli : (⟨S4194304x3, .i32⟩ : BufTy).Contents (Elt F) → (⟨S4194304x3, .i32⟩ : BufTy).Contents (Elt F) → (⟨S4194304x3, .i32⟩ : BufTy).Contents (Elt F)) (g_v18 a0 a1 a3 a4) (g_v20 a0 a1 a3 a4)

def g_c_3 (a0 : FVec F S4194304x3 .f32) (a1 : FVec F S2x3 .f32) (a3 a4 : FVec F S64x3 .f32) :=
  (constantI S_ 32 0#32)

def g_v22 (a0 : FVec F S4194304x3 .f32) (a1 : FVec F S2x3 .f32) (a3 a4 : FVec F S64x3 .f32) :=
  ((fun x v => Host.reduce IntOp.addi x v reducesTo_S4194304x3_S4194304_d1 h_S_) : (⟨S4194304x3, .i32⟩ : BufTy).Contents (Elt F) → (⟨S_, .i32⟩ : BufTy).Contents (Elt F) → (⟨S4194304, .i32⟩ : BufTy).Contents (Elt F)) (g_v21 a0 a1 a3 a4) (g_c_3 a0 a1 a3 a4)

def g_call1_v0 (a0 : FVec F S4194304x3 .f32) (a1 : FVec F S2x3 .f32) (a3 a4 : FVec F S64x3 .f32) :=
  (iotaInDim S4194304 32 0)

def g_v23 (a0 : FVec F S4194304x3 .f32) (a1 : FVec F S2x3 .f32) (a3 a4 : FVec F S64x3 .f32) :=
  (fun x y => (Host.sort2 S4194304 0 comparator_i32_i32_d0 x y).2) (g_v22 a0 a1 a3 a4) (g_call1_v0 a0 a1 a3 a4)

def g_c_4 (a0 : FVec F S4194304x3 .f32) (a1 : FVec F S2x3 .f32) (a3 a4 : FVec F S64x3 .f32) :=
  (constantI S_ 32 0#32)

def g_v24 (a0 : FVec F S4194304x3 .f32) (a1 : FVec F S2x3 .f32) (a3 a4 : FVec F S64x3 .f32) :=
  (broadcastInDim S4194304 ![] bcast_S_S4194304 : (⟨S_, .i32⟩ : BufTy).Contents (Elt F) → (⟨S4194304, .i32⟩ : BufTy).Contents (Elt F)) (g_c_4 a0 a1 a3 a4)

def g_v25 (a0 : FVec F S4194304x3 .f32) (a1 : FVec F S2x3 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (g_v23 a0 a1 a3 a4) (g_v24 a0 a1 a3 a4)

def g_c_5 (a0 : FVec F S4194304x3 .f32) (a1 : FVec F S2x3 .f32) (a3 a4 : FVec F S64x3 .f32) :=
  (constantI S_ 32 4194304#32)

def g_v26 (a0 : FVec F S4194304x3 .f32) (a1 : FVec F S2x3 .f32) (a3 a4 : FVec F S64x3 .f32) :=
  (broadcastInDim S4194304 ![] bcast_S_S4194304 : (⟨S_, .i32⟩ : BufTy).Contents (Elt F) → (⟨S4194304, .i32⟩ : BufTy).Contents (Elt F)) (g_c_5 a0 a1 a3 a4)

def g_v27 (a0 : FVec F S4194304x3 .f32) (a1 : FVec F S2x3 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (g_v23 a0 a1 a3 a4) (g_v26 a0 a1 a3 a4)

def g_v28 (a0 : FVec F S4194304x3 .f32) (a1 : FVec F S2x3 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (g_v25 a0 a1 a3 a4) (g_v27 a0 a1 a3 a4) (g_v23 a0 a1 a3 a4)

def g_v29 (a0 : FVec F S4194304x3 .f32) (a1 : FVec F S2x3 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (g_v28 a0 a1 a3 a4)

def g_v30 (a0 : FVec F S4194304x3 .f32) (a1 : FVec F S2x3 .f32) (a3 a4 : FVec F S64x3 .f32) :=
  ((fun x i => Host.gather gather_S4194304_S4194304x1_S4194304_n_0_n_n_0_1_1 x i) : (⟨S4194304, .i32⟩ : BufTy).Contents (Elt F) → (⟨S4194304x1, .i32⟩ : BufTy).Contents (Elt F) → (⟨S4194304, .i32⟩ : BufTy).Contents (Elt F)) (g_v22 a0 a1 a3 a4) (g_v29 a0 a1 a3 a4)

def g_c_6 (a0 : FVec F S4194304x3 .f32) (a1 : FVec F S2x3 .f32) (a3 a4 : FVec F S64x3 .f32) :=
  (constantI S_ 32 0#32)

def g_v31 (a0 : FVec F S4194304x3 .f32) (a1 : FVec F S2x3 .f32) (a3 a4 : FVec F S64x3 .f32) :=
  (broadcastInDim S4194304 ![] bcast_S_S4194304 : (⟨S_, .i32⟩ : BufTy).Contents (Elt F) → (⟨S4194304, .i32⟩ : BufTy).Contents (Elt F)) (g_c_6 a0 a1 a3 a4)

def g_v32 (a0 : FVec F S4194304x3 .f32) (a1 : FVec F S2x3 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (g_v23 a0 a1 a3 a4) (g_v31 a0 a1 a3 a4)

def g_c_7 (a0 : FVec F S4194304x3 .f32) (a1 : FVec F S2x3 .f32) (a3 a4 : FVec F S64x3 .f32) :=
  (constantI S_ 32 4194304#32)

def g_v33 (a0 : FVec F S4194304x3 .f32) (a1 : FVec F S2x3 .f32) (a3 a4 : FVec F S64x3 .f32) :=
  (broadcastInDim S4194304 ![] bcast_S_S4194304 : (⟨S_, .i32⟩ : BufTy).Contents (Elt F) → (⟨S4194304, .i32⟩ : BufTy).Contents (Elt F)) (g_c_7 a0 a1 a3 a4)

def g_v34 (a0 : FVec F S4194304x3 .f32) (a1 : FVec F S2x3 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (g_v23 a0 a1 a3 a4) (g_v33 a0 a1 a3 a4)

def g_v35 (a0 : FVec F S4194304x3 .f32) (a1 : FVec F S2x3 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (g_v32 a0 a1 a3 a4) (g_v34 a0 a1 a3 a4) (g_v23 a0 a1 a3 a4)

def g_v36 (a0 : FVec F S4194304x3 .f32) (a1 : FVec F S2x3 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (g_v35 a0 a1 a3 a4)

def g_v37 (a0 : FVec F S4194304x3 .f32) (a1 : FVec F S2x3 .f32) (a3 a4 : FVec F S64x3 .f32) :=
  ((fun x i => Host.gather gather_S4194304x3_S4194304x1_S4194304x3_1_0_n_n_0_1_13 x i) : (⟨S4194304x3, .f32⟩ : BufTy).Contents (Elt F) → (⟨S4194304x1, .i32⟩ : BufTy).Contents (Elt F) → (⟨S4194304x3, .f32⟩ : BufTy).Contents (Elt F)) a0 (g_v36 a0 a1 a3 a4)

def g_c_8 (a0 : FVec F S4194304x3 .f32) (a1 : FVec F S2x3 .f32) (a3 a4 : FVec F S64x3 .f32) :=
  (constantI S_ 32 0#32)

def g_v38 (a0 : FVec F S4194304x3 .f32) (a1 : FVec F S2x3 .f32) (a3 a4 : FVec F S64x3 .f32) :=
  (broadcastInDim S4194304 ![] bcast_S_S4194304 : (⟨S_, .i32⟩ : BufTy).Contents (Elt F) → (⟨S4194304, .i32⟩ : BufTy).Contents (Elt F)) (g_c_8 a0 a1 a3 a4)

def g_v39 (a0 : FVec F S4194304x3 .f32) (a1 : FVec F S2x3 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (g_v30 a0 a1 a3 a4) (g_v38 a0 a1 a3 a4)

def g_c_9 (a0 : FVec F S4194304x3 .f32) (a1 : FVec F S2x3 .f32) (a3 a4 : FVec F S64x3 .f32) :=
  (constantI S_ 32 64#32)

def g_v40 (a0 : FVec F S4194304x3 .f32) (a1 : FVec F S2x3 .f32) (a3 a4 : FVec F S64x3 .f32) :=
  (broadcastInDim S4194304 ![] bcast_S_S4194304 : (⟨S_, .i32⟩ : BufTy).Contents (Elt F) → (⟨S4194304, .i32⟩ : BufTy).Contents (Elt F)) (g_c_9 a0 a1 a3 a4)

def g_v41 (a0 : FVec F S4194304x3 .f32) (a1 : FVec F S2x3 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (g_v30 a0 a1 a3 a4) (g_v40 a0 a1 a3 a4)

def g_v42 (a0 : FVec F S4194304x3 .f32) (a1 : FVec F S2x3 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (g_v39 a0 a1 a3 a4) (g_v41 a0 a1 a3 a4) (g_v30 a0 a1 a3 a4)

def g_v43 (a0 : FVec F S4194304x3 .f32) (a1 : FVec F S2x3 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (g_v42 a0 a1 a3 a4)

def g_v44 (a0 : FVec F S4194304x3 .f32) (a1 : FVec F S2x3 .f32) (a3 a4 : FVec F S64x3 .f32) :=
  ((fun x i => Host.gather gather_S64x3_S4194304x1_S4194304x3_1_0_n_n_0_1_13 x i) : (⟨S64x3, .f32⟩ : BufTy).Contents (Elt F) → (⟨S4194304x1, .i32⟩ : BufTy).Contents (Elt F) → (⟨S4194304x3, .f32⟩ : BufTy).Contents (Elt F)) a3 (g_v43 a0 a1 a3 a4)

def g_c_10 (a0 : FVec F S4194304x3 .f32) (a1 : FVec F S2x3 .f32) (a3 a4 : FVec F S64x3 .f32) :=
  (constantI S_ 32 0#32)

def g_v45 (a0 : FVec F S4194304x3 .f32) (a1 : FVec F S2x3 .f32) (a3 a4 : FVec F S64x3 .f32) :=
  (broadcastInDim S4194304 ![] bcast_S_S4194304 : (⟨S_, .i32⟩ : BufTy).Contents (Elt F) → (⟨S4194304, .i32⟩ : BufTy).Contents (Elt F)) (g_c_10 a0 a1 a3 a4)

def g_v46 (a0 : FVec F S4194304x3 .f32) (a1 : FVec F S2x3 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (g_v30 a0 a1 a3 a4) (g_v45 a0 a1 a3 a4)

def g_c_11 (a0 : FVec F S4194304x3 .f32) (a1 : FVec F S2x3 .f32) (a3 a4 : FVec F S64x3 .f32) :=
  (constantI S_ 32 64#32)

def g_v47 (a0 : FVec F S4194304x3 .f32) (a1 : FVec F S2x3 .f32) (a3 a4 : FVec F S64x3 .f32) :=
  (broadcastInDim S4194304 ![] bcast_S_S4194304 : (⟨S_, .i32⟩ : BufTy).Contents (Elt F) → (⟨S4194304, .i32⟩ : BufTy).Contents (Elt F)) (g_c_11 a0 a1 a3 a4)

def g_v48 (a0 : FVec F S4194304x3 .f32) (a1 : FVec F S2x3 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (g_v30 a0 a1 a3 a4) (g_v47 a0 a1 a3 a4)

def g_v49 (a0 : FVec F S4194304x3 .f32) (a1 : FVec F S2x3 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (g_v46 a0 a1 a3 a4) (g_v48 a0 a1 a3 a4) (g_v30 a0 a1 a3 a4)

def g_v50 (a0 : FVec F S4194304x3 .f32) (a1 : FVec F S2x3 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (g_v49 a0 a1 a3 a4)

def g_v51 (a0 : FVec F S4194304x3 .f32) (a1 : FVec F S2x3 .f32) (a3 a4 : FVec F S64x3 .f32) :=
  ((fun x i => Host.gather gather_S64x3_S4194304x1_S4194304x3_1_0_n_n_0_1_13 x i) : (⟨S64x3, .f32⟩ : BufTy).Contents (Elt F) → (⟨S4194304x1, .i32⟩ : BufTy).Contents (Elt F) → (⟨S4194304x3, .f32⟩ : BufTy).Contents (Elt F)) a4 (g_v50 a0 a1 a3 a4)

def g_v52 (a0 : FVec F S4194304x3 .f32) (a1 : FVec F S2x3 .f32) (a3 a4 : FVec F S64x3 .f32) :=
  (subf : (⟨S4194304x3, .f32⟩ : BufTy).Contents (Elt F) → (⟨S4194304x3, .f32⟩ : BufTy).Contents (Elt F) → (⟨S4194304x3, .f32⟩ : BufTy).Contents (Elt F)) (g_v37 a0 a1 a3 a4) (g_v44 a0 a1 a3 a4)

def g_cst_12 (a0 : FVec F S4194304x3 .f32) (a1 : FVec F S2x3 .f32) (a3 a4 : FVec F S64x3 .f32) :=
  (constant (F := F) S_ .f32 0x40000000#32)

def g_v53 (a0 : FVec F S4194304x3 .f32) (a1 : FVec F S2x3 .f32) (a3 a4 : FVec F S64x3 .f32) :=
  (broadcastInDim S4194304x3 ![] bcast_S_S4194304x3 : (⟨S_, .f32⟩ : BufTy).Contents (Elt F) → (⟨S4194304x3, .f32⟩ : BufTy).Contents (Elt F)) (g_cst_12 a0 a1 a3 a4)

def g_v54 (a0 : FVec F S4194304x3 .f32) (a1 : FVec F S2x3 .f32) (a3 a4 : FVec F S64x3 .f32) :=
  (mulf : (⟨S4194304x3, .f32⟩ : BufTy).Contents (Elt F) → (⟨S4194304x3, .f32⟩ : BufTy).Contents (Elt F) → (⟨S4194304x3, .f32⟩ : BufTy).Contents (Elt F)) (g_v53 a0 a1 a3 a4) (g_v52 a0 a1 a3 a4)

def g_v55 (a0 : FVec F S4194304x3 .f32) (a1 : FVec F S2x3 .f32) (a3 a4 : FVec F S64x3 .f32) :=
  (subf : (⟨S4194304x3, .f32⟩ : BufTy).Contents (Elt F) → (⟨S4194304x3, .f32⟩ : BufTy).Contents (Elt F) → (⟨S4194304x3, .f32⟩ : BufTy).Contents (Elt F)) (g_v51 a0 a1 a3 a4) (g_v44 a0 a1 a3 a4)

def g_v56 (a0 : FVec F S4194304x3 .f32) (a1 : FVec F S2x3 .f32) (a3 a4 : FVec F S64x3 .f32) :=
  (Host.divf : (⟨S4194304x3, .f32⟩ : BufTy).Contents (Elt F) → (⟨S4194304x3, .f32⟩ : BufTy).Contents (Elt F) → (⟨S4194304x3, .f32⟩ : BufTy).Contents (Elt F)) (g_v54 a0 a1 a3 a4) (g_v55 a0 a1 a3 a4)

def g_cst_13 (a0 : FVec F S4194304x3 .f32) (a1 : FVec F S2x3 .f32) (a3 a4 : FVec F S64x3 .f32) :=
  (constant (F := F) S_ .f32 0x3F800000#32)

def g_v57 (a0 : FVec F S4194304x3 .f32) (a1 : FVec F S2x3 .f32) (a3 a4 : FVec F S64x3 .f32) :=
  (broadcastInDim S4194304x3 ![] bcast_S_S4194304x3 : (⟨S_, .f32⟩ : BufTy).Contents (Elt F) → (⟨S4194304x3, .f32⟩ : BufTy).Contents (Elt F)) (g_cst_13 a0 a1 a3 a4)

def g_v58 (a0 : FVec F S4194304x3 .f32) (a1 : FVec F S2x3 .f32) (a3 a4 : FVec F S64x3 .f32) :=
  (subf : (⟨S4194304x3, .f32⟩ : BufTy).Contents (Elt F) → (⟨S4194304x3, .f32⟩ : BufTy).Contents (Elt F) → (⟨S4194304x3, .f32⟩ : BufTy).Contents (Elt F)) (g_v56 a0 a1 a3 a4) (g_v57 a0 a1 a3 a4)

def g_v59 (a0 : FVec F S4194304x3 .f32) (a1 : FVec F S2x3 .f32) (a3 a4 : FVec F S64x3 .f32) :=
  ((extractStridedSlice S4194304x1 ![0, 0] · slices_S4194304x3_S4194304x1_0_0) : (⟨S4194304x3, .f32⟩ : BufTy).Contents (Elt F) → (⟨S4194304x1, .f32⟩ : BufTy).Contents (Elt F)) (g_v58 a0 a1 a3 a4)

def g_v60 (a0 : FVec F S4194304x3 .f32) (a1 : FVec F S2x3 .f32) (a3 a4 : FVec F S64x3 .f32) :=
  shapeCast S4194304 (g_v59 a0 a1 a3 a4) shapeCasts_S4194304x1_S4194304

def g_cst_14 (a0 : FVec F S4194304x3 .f32) (a1 : FVec F S2x3 .f32) (a3 a4 : FVec F S64x3 .f32) :=
  (constant (F := F) S_ .f32 0x3F800000#32)

def g_v61 (a0 : FVec F S4194304x3 .f32) (a1 : FVec F S2x3 .f32) (a3 a4 : FVec F S64x3 .f32) :=
  (broadcastInDim S4194304 ![] bcast_S_S4194304 : (⟨S_, .f32⟩ : BufTy).Contents (Elt F) → (⟨S4194304, .f32⟩ : BufTy).Contents (Elt F)) (g_cst_14 a0 a1 a3 a4)

def g_v62 (a0 : FVec F S4194304x3 .f32) (a1 : FVec F S2x3 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (g_v60 a0 a1 a3 a4) (g_v61 a0 a1 a3 a4)

def g_cst_15 (a0 : FVec F S4194304x3 .f32) (a1 : FVec F S2x3 .f32) (a3 a4 : FVec F S64x3 .f32) :=
  (constant (F := F) S_ .f32 0x3F000000#32)

def g_v63 (a0 : FVec F S4194304x3 .f32) (a1 : FVec F S2x3 .f32) (a3 a4 : FVec F S64x3 .f32) :=
  (broadcastInDim S4194304 ![] bcast_S_S4194304 : (⟨S_, .f32⟩ : BufTy).Contents (Elt F) → (⟨S4194304, .f32⟩ : BufTy).Contents (Elt F)) (g_cst_15 a0 a1 a3 a4)

def g_v64 (a0 : FVec F S4194304x3 .f32) (a1 : FVec F S2x3 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (g_v62 a0 a1 a3 a4) (g_v63 a0 a1 a3 a4)

def g_cst_16 (a0 : FVec F S4194304x3 .f32) (a1 : FVec F S2x3 .f32) (a3 a4 : FVec F S64x3 .f32) :=
  (constant (F := F) S_ .f32 0x427C0000#32)

def g_v65 (a0 : FVec F S4194304x3 .f32) (a1 : FVec F S2x3 .f32) (a3 a4 : FVec F S64x3 .f32) :=
  (broadcastInDim S4194304 ![] bcast_S_S4194304 : (⟨S_, .f32⟩ : BufTy).Contents (Elt F) → (⟨S4194304, .f32⟩ : BufTy).Contents (Elt F)) (g_cst_16 a0 a1 a3 a4)

def g_v66 (a0 : FVec F S4194304x3 .f32) (a1 : FVec F S2x3 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (g_v64 a0 a1 a3 a4) (g_v65 a0 a1 a3 a4)

def g_v67 (a0 : FVec F S4194304x3 .f32) (a1 : FVec F S2x3 .f32) (a3 a4 : FVec F S64x3 .f32) :=
  ((extractStridedSlice S4194304x1 ![0, 1] · slices_S4194304x3_S4194304x1_0_1) : (⟨S4194304x3, .f32⟩ : BufTy).Contents (Elt F) → (⟨S4194304x1, .f32⟩ : BufTy).Contents (Elt F)) (g_v58 a0 a1 a3 a4)

def g_v68 (a0 : FVec F S4194304x3 .f32) (a1 : FVec F S2x3 .f32) (a3 a4 : FVec F S64x3 .f32) :=
  shapeCast S4194304 (g_v67 a0 a1 a3 a4) shapeCasts_S4194304x1_S4194304

def g_cst_17 (a0 : FVec F S4194304x3 .f32) (a1 : FVec F S2x3 .f32) (a3 a4 : FVec F S64x3 .f32) :=
  (constant (F := F) S_ .f32 0x3F800000#32)

def g_v69 (a0 : FVec F S4194304x3 .f32) (a1 : FVec F S2x3 .f32) (a3 a4 : FVec F S64x3 .f32) :=
  (broadcastInDim S4194304 ![] bcast_S_S4194304 : (⟨S_, .f32⟩ : BufTy).Contents (Elt F) → (⟨S4194304, .f32⟩ : BufTy).Contents (Elt F)) (g_cst_17 a0 a1 a3 a4)

def g_v70 (a0 : FVec F S4194304x3 .f32) (a1 : FVec F S2x3 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (g_v68 a0 a1 a3 a4) (g_v69 a0 a1 a3 a4)

def g_cst_18 (a0 : FVec F S4194304x3 .f32) (a1 : FVec F S2x3 .f32) (a3 a4 : FVec F S64x3 .f32) :=
  (constant (F := F) S_ .f32 0x3F000000#32)

def g_v71 (a0 : FVec F S4194304x3 .f32) (a1 : FVec F S2x3 .f32) (a3 a4 : FVec F S64x3 .f32) :=
  (broadcastInDim S4194304 ![] bcast_S_S4194304 : (⟨S_, .f32⟩ : BufTy).Contents (Elt F) → (⟨S4194304, .f32⟩ : BufTy).Contents (Elt F)) (g_cst_18 a0 a1 a3 a4)

def g_v72 (a0 : FVec F S4194304x3 .f32) (a1 : FVec F S2x3 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (g_v70 a0 a1 a3 a4) (g_v71 a0 a1 a3 a4)

def g_cst_19 (a0 : FVec F S4194304x3 .f32) (a1 : FVec F S2x3 .f32) (a3 a4 : FVec F S64x3 .f32) :=
  (constant (F := F) S_ .f32 0x427C0000#32)

def g_v73 (a0 : FVec F S4194304x3 .f32) (a1 : FVec F S2x3 .f32) (a3 a4 : FVec F S64x3 .f32) :=
  (broadcastInDim S4194304 ![] bcast_S_S4194304 : (⟨S_, .f32⟩ : BufTy).Contents (Elt F) → (⟨S4194304, .f32⟩ : BufTy).Contents (Elt F)) (g_cst_19 a0 a1 a3 a4)

def g_v74 (a0 : FVec F S4194304x3 .f32) (a1 : FVec F S2x3 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (g_v72 a0 a1 a3 a4) (g_v73 a0 a1 a3 a4)

def g_v75 (a0 : FVec F S4194304x3 .f32) (a1 : FVec F S2x3 .f32) (a3 a4 : FVec F S64x3 .f32) :=
  ((extractStridedSlice S4194304x1 ![0, 2] · slices_S4194304x3_S4194304x1_0_2) : (⟨S4194304x3, .f32⟩ : BufTy).Contents (Elt F) → (⟨S4194304x1, .f32⟩ : BufTy).Contents (Elt F)) (g_v58 a0 a1 a3 a4)

def g_v76 (a0 : FVec F S4194304x3 .f32) (a1 : FVec F S2x3 .f32) (a3 a4 : FVec F S64x3 .f32) :=
  shapeCast S4194304 (g_v75 a0 a1 a3 a4) shapeCasts_S4194304x1_S4194304

def g_cst_20 (a0 : FVec F S4194304x3 .f32) (a1 : FVec F S2x3 .f32) (a3 a4 : FVec F S64x3 .f32) :=
  (constant (F := F) S_ .f32 0x3F800000#32)

def g_v77 (a0 : FVec F S4194304x3 .f32) (a1 : FVec F S2x3 .f32) (a3 a4 : FVec F S64x3 .f32) :=
  (broadcastInDim S4194304 ![] bcast_S_S4194304 : (⟨S_, .f32⟩ : BufTy).Contents (Elt F) → (⟨S4194304, .f32⟩ : BufTy).Contents (Elt F)) (g_cst_20 a0 a1 a3 a4)

def g_v78 (a0 : FVec F S4194304x3 .f32) (a1 : FVec F S2x3 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (g_v76 a0 a1 a3 a4) (g_v77 a0 a1 a3 a4)

def g_cst_21 (a0 : FVec F S4194304x3 .f32) (a1 : FVec F S2x3 .f32) (a3 a4 : FVec F S64x3 .f32) :=
  (constant (F := F) S_ .f32 0x3F000000#32)

def g_v79 (a0 : FVec F S4194304x3 .f32) (a1 : FVec F S2x3 .f32) (a3 a4 : FVec F S64x3 .f32) :=
  (broadcastInDim S4194304 ![] bcast_S_S4194304 : (⟨S_, .f32⟩ : BufTy).Contents (Elt F) → (⟨S4194304, .f32⟩ : BufTy).Contents (Elt F)) (g_cst_21 a0 a1 a3 a4)

def g_v80 (a0 : FVec F S4194304x3 .f32) (a1 : FVec F S2x3 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (g_v78 a0 a1 a3 a4) (g_v79 a0 a1 a3 a4)

def g_cst_22 (a0 : FVec F S4194304x3 .f32) (a1 : FVec F S2x3 .f32) (a3 a4 : FVec F S64x3 .f32) :=
  (constant (F := F) S_ .f32 0x427C0000#32)

def g_v81 (a0 : FVec F S4194304x3 .f32) (a1 : FVec F S2x3 .f32) (a3 a4 : FVec F S64x3 .f32) :=
  (broadcastInDim S4194304 ![] bcast_S_S4194304 : (⟨S_, .f32⟩ : BufTy).Contents (Elt F) → (⟨S4194304, .f32⟩ : BufTy).Contents (Elt F)) (g_cst_22 a0 a1 a3 a4)

def g_v82 (a0 : FVec F S4194304x3 .f32) (a1 : FVec F S2x3 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (g_v80 a0 a1 a3 a4) (g_v81 a0 a1 a3 a4)

def g_v83 (a0 : FVec F S4194304x3 .f32) (a1 : FVec F S2x3 .f32) (a3 a4 : FVec F S64x3 .f32) :=
  (Host.floor : (⟨S4194304, .f32⟩ : BufTy).Contents (Elt F) → (⟨S4194304, .f32⟩ : BufTy).Contents (Elt F)) (g_v66 a0 a1 a3 a4)

def g_v84 (a0 : FVec F S4194304x3 .f32) (a1 : FVec F S2x3 .f32) (a3 a4 : FVec F S64x3 .f32) :=
  (Host.floor : (⟨S4194304, .f32⟩ : BufTy).Contents (Elt F) → (⟨S4194304, .f32⟩ : BufTy).Contents (Elt F)) (g_v74 a0 a1 a3 a4)

def g_v85 (a0 : FVec F S4194304x3 .f32) (a1 : FVec F S2x3 .f32) (a3 a4 : FVec F S64x3 .f32) :=
  (Host.floor : (⟨S4194304, .f32⟩ : BufTy).Contents (Elt F) → (⟨S4194304, .f32⟩ : BufTy).Contents (Elt F)) (g_v82 a0 a1 a3 a4)

def g_v86 (a0 : FVec F S4194304x3 .f32) (a1 : FVec F S2x3 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (g_v66 a0 a1 a3 a4) (g_v83 a0 a1 a3 a4)

def g_v87 (a0 : FVec F S4194304x3 .f32) (a1 : FVec F S2x3 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (g_v74 a0 a1 a3 a4) (g_v84 a0 a1 a3 a4)

def g_v88 (a0 : FVec F S4194304x3 .f32) (a1 : FVec F S2x3 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (g_v82 a0 a1 a3 a4) (g_v85 a0 a1 a3 a4)

def g_v89 (a0 : FVec F S4194304x3 .f32) (a1 : FVec F S2x3 .f32) (a3 a4 : FVec F S64x3 .f32) :=
  (fptosi 32 : (⟨S4194304, .f32⟩ : BufTy).Contents (Elt F) → (⟨S4194304, .i32⟩ : BufTy).Contents (Elt F)) (g_v83 a0 a1 a3 a4)

def g_v90 (a0 : FVec F S4194304x3 .f32) (a1 : FVec F S2x3 .f32) (a3 a4 : FVec F S64x3 .f32) :=
  (fptosi 32 : (⟨S4194304, .f32⟩ : BufTy).Contents (Elt F) → (⟨S4194304, .i32⟩ : BufTy).Contents (Elt F)) (g_v84 a0 a1 a3 a4)

def g_v91 (a0 : FVec F S4194304x3 .f32) (a1 : FVec F S2x3 .f32) (a3 a4 : FVec F S64x3 .f32) :=
  (fptosi 32 : (⟨S4194304, .f32⟩ : BufTy).Contents (Elt F) → (⟨S4194304, .i32⟩ : BufTy).Contents (Elt F)) (g_v85 a0 a1 a3 a4)

end Cert.AlphaGrid.Glue

end
-- ==== Proof.KernelChainK30.lean ====
/-
  The sorted block ids of the word-level program, when the staged region is entered, as a function of the argument
  arrays: the same composition of operations, one per printed line, that `Glue.g_v30` names.

  The line of host operations before the region is cut where the values are needed. The block id of every point
  (`main_v22`) is what the first three stretches compute from the points, the bounding box and the per-block domain
  corners. The sorting permutation (`main_v23`) is the second component of the stable sort of the block ids paired with
  the point numbers; it is read as that sort applied to the block ids' array, never opened. The sorted block ids
  (`main_v30`) are the block ids gathered at the permutation, nine operations into the next stretch; no later operation
  writes them, so they still hold when the region is entered.
-/
import proofs.«104803_j90202903151142_1_alg».proof.Proof.Gen.Kernel.Frame
import proofs.«104803_j90202903151142_1_alg».proof.Proof.Gen.KernelIdeal
import proofs.«104803_j90202903151142_1_alg».proof.Proof.Glue

set_option maxRecDepth 16384

noncomputable section

namespace Cert.AlphaGrid.KernelChainK30

open Idealize.ShloMosaic Idealize.ShloMosaic.TcCoe
open Cert.Kernel Cert.Kernel.Gen

variable {F : FTy → Type} [FloatOps F]
variable (m : (ℓ : Loc nD τ sig) → Buf (Elt F) ℓ)

attribute [local irreducible] Host.sort2 Host.gather Host.scatter Host.reduce Host.reduceWindow

/-! ### Cutting the line of host operations -/

/-- A line run from `W` is its first `k` operations run from `W`, then the rest. -/
theorem after_split (l : List (HloOp τ sig (Elt F))) (k : Nat) (W : Valuation τ sig (Elt F)) :
    StableHlo.after l W = StableHlo.after (l.drop k) (StableHlo.after (l.take k) W) := by
  rw [← StableHlo.after_append, List.take_append_drop]

/-- The contents when the region is entered, stretch after stretch. -/
theorem V0_eq (c : Dev nD) : V0 m c =
    StableHlo.after hostOps0_10 (StableHlo.after hostOps0_9 (StableHlo.after hostOps0_8 (StableHlo.after hostOps0_7
      (StableHlo.after hostOps0_6 (StableHlo.after hostOps0_5 (StableHlo.after hostOps0_4 (StableHlo.after hostOps0_3
        (StableHlo.after hostOps0_2 (StableHlo.after hostOps0_1 (StableHlo.after hostOps0 (fun b => m (c, b)))))))))))) := by
  show StableHlo.after (List.flatten [hostOps0, hostOps0_1, hostOps0_2, hostOps0_3, hostOps0_4, hostOps0_5, hostOps0_6,
    hostOps0_7, hostOps0_8, hostOps0_9, hostOps0_10]) _ = _
  simp only [List.flatten_cons, List.flatten_nil, List.append_nil, StableHlo.after_append]

/-- The contents before the fifth stretch: the block id of every point is computed and the points are sorted by it. -/
def W3 (c : Dev nD) : Valuation τ sig (Elt F) :=
  StableHlo.after hostOps0_3 (StableHlo.after hostOps0_2 (StableHlo.after hostOps0_1 (StableHlo.after hostOps0 (fun b => m (c, b)))))

/-- The contents once the sorted block ids `main_v30` are written: 9 operations into the fifth stretch. -/
def Ws (c : Dev nD) : Valuation τ sig (Elt F) := StableHlo.after ((hostOps0_4 (F := F)).take 9) (W3 m c)

theorem V0_s (c : Dev nD) : V0 m c =
    StableHlo.after hostOps0_10 (StableHlo.after hostOps0_9 (StableHlo.after hostOps0_8 (StableHlo.after hostOps0_7
      (StableHlo.after hostOps0_6 (StableHlo.after hostOps0_5 (StableHlo.after ((hostOps0_4 (F := F)).drop 9) (Ws m c))))))) := by
  rw [V0_eq, after_split hostOps0_4 9]; rfl

/-- None of the listed operations writes the array: each writes its own result, another array. -/
macro "not_written" : tactic =>
  `(tactic| (refine List.forall_iff_forall_mem.mp ?_
             simp only [hostOps0, hostOps0_1, hostOps0_2, hostOps0_3, hostOps0_4, hostOps0_5, hostOps0_6, hostOps0_7, hostOps0_8, hostOps0_9, hostOps0_10, List.take_succ_cons, List.take_zero, List.drop_succ_cons, List.drop_zero, List.flatten_cons, List.flatten_nil, List.append_nil, List.cons_append, List.nil_append,
               List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-- The sorted block ids are written once: they still hold when the region is entered. -/
theorem keep_s30 (c : Dev nD) : Ws m c (Proc.devRef .tc main_v30) = V m c main_v30 := by
  show _ = V0 m c (Proc.devRef .tc main_v30)
  rw [V0_s m c]
  rw [StableHlo.after_of_forall_not_mem _ _ (by not_written), StableHlo.after_of_forall_not_mem _ _ (by not_written),
    StableHlo.after_of_forall_not_mem _ _ (by not_written), StableHlo.after_of_forall_not_mem _ _ (by not_written),
    StableHlo.after_of_forall_not_mem _ _ (by not_written), StableHlo.after_of_forall_not_mem _ _ (by not_written),
    StableHlo.after_of_forall_not_mem _ _ (by not_written)]

/-! ### The values -/

/-- The block id of every point, before sorting: the printed operations of the first three stretches applied to the
    argument arrays. -/
theorem pre2_v22 (W : Valuation τ sig (Elt F)) :
    StableHlo.after hostOps0_2 (StableHlo.after hostOps0_1 (StableHlo.after hostOps0 W)) (Proc.devRef .tc main_v22)
      = Glue.g_v22 (W (Proc.devRef .tc main_arg0)) (W (Proc.devRef .tc main_arg1)) (W (Proc.devRef .tc main_arg3)) (W (Proc.devRef .tc main_arg4)) := by
  simp only [hostOps0, hostOps0_1, hostOps0_2]
  after_results_simp
  rfl

/-- The permutation that sorts the points by block id: the second component of the stable sort of the block ids paired
    with the point numbers. -/
theorem s3_v23 (X : Valuation τ sig (Elt F)) :
    StableHlo.after hostOps0_3 X (Proc.devRef .tc main_v23)
      = (Host.sort2 S4194304 0 comparator_i32_i32_d0 (X (Proc.devRef .tc main_v22)) (iotaInDim S4194304 32 0)).2 := by
  simp only [hostOps0_3]
  after_results_simp
  simp only [StableHlo.TRef.ofBuf, StableHlo.TRef.toBuf, cast_eq]

/-- The unsorted block ids are not touched by the sort. -/
theorem s3_v22 (X : Valuation τ sig (Elt F)) :
    StableHlo.after hostOps0_3 X (Proc.devRef .tc main_v22) = X (Proc.devRef .tc main_v22) := by
  simp only [hostOps0_3]
  after_results_simp

theorem W3_v22 (c : Dev nD) :
    W3 m c (Proc.devRef .tc main_v22)
      = Glue.g_v22 (m ((c : Thread nD τ).loc main_arg0)) (m ((c : Thread nD τ).loc main_arg1)) (m ((c : Thread nD τ).loc main_arg3)) (m ((c : Thread nD τ).loc main_arg4)) := by
  unfold W3
  rw [s3_v22]
  exact pre2_v22 (fun b => m (c, b))

theorem W3_v23 (c : Dev nD) :
    W3 m c (Proc.devRef .tc main_v23)
      = Glue.g_v23 (m ((c : Thread nD τ).loc main_arg0)) (m ((c : Thread nD τ).loc main_arg1)) (m ((c : Thread nD τ).loc main_arg3)) (m ((c : Thread nD τ).loc main_arg4)) := by
  unfold W3
  rw [s3_v23, pre2_v22 (fun b => m (c, b))]
  rfl

/-- The sorted block ids: the unsorted ones gathered at the sorting permutation (a permutation entry below zero counts
    from the end). -/
theorem Ws_v30 (c : Dev nD) :
    Ws m c (Proc.devRef .tc main_v30)
      = Glue.g_v30 (m ((c : Thread nD τ).loc main_arg0)) (m ((c : Thread nD τ).loc main_arg1)) (m ((c : Thread nD τ).loc main_arg3)) (m ((c : Thread nD τ).loc main_arg4)) := by
  unfold Ws
  have h22 := W3_v22 m c
  have h23 := W3_v23 m c
  unfold Glue.g_v30 Glue.g_v29 Glue.g_v28 Glue.g_v27 Glue.g_v26 Glue.g_c_5 Glue.g_v25 Glue.g_v24 Glue.g_c_4
  rw [← h23, ← h22]
  generalize W3 m c = X
  simp only [hostOps0_4, List.take_succ_cons, List.take_zero]
  after_results_simp
  rfl

/-- THE SORTED BLOCK IDS when the region is entered, as a function of the argument arrays. -/
theorem V_main_v30 (c : Dev nD) :
    V m c main_v30
      = Glue.g_v30 (m ((c : Thread nD τ).loc main_arg0)) (m ((c : Thread nD τ).loc main_arg1)) (m ((c : Thread nD τ).loc main_arg3)) (m ((c : Thread nD τ).loc main_arg4)) :=
  (keep_s30 m c).symm.trans (Ws_v30 m c)

end Cert.AlphaGrid.KernelChainK30

end
-- ==== Proof.KernelChainK.lean ====
/-
  The integer arrays the word-level program computes from the sorted block ids, as they stand when the staged region
  is entered: the padded counts, the exclusive padded offsets and the tile table.

  The host operations before the region form one straight line in which every array is written once. The line is cut
  where a later stretch begins; each cut is read on its own — an array written in a cut is the printed operation
  applied to what its operands held when the cut began, and an array no operation of a cut writes comes out of it as
  it went in — and the values are carried from cut to cut as functions of the sorted block ids alone. The tile table
  is computed by the last operations of the line from the exclusive padded offsets and the padded counts: the tile
  starts 256 t, the two compares of each tile start against each block's padded offset and padded end, the mask of
  the one block a tile falls in, its product with the block numbers and the sum along each row.
-/
import proofs.«104803_j90202903151142_1_alg».proof.Proof.Gen.Kernel.Frame
import proofs.«104803_j90202903151142_1_alg».proof.Proof.Gen.KernelIdeal
import proofs.«104803_j90202903151142_1_alg».proof.Proof.IntChain

set_option maxRecDepth 16384

noncomputable section

namespace Cert.AlphaGrid.KernelChainBK

open Idealize.ShloMosaic Idealize.ShloMosaic.TcCoe
open Cert.Kernel Cert.Kernel.Gen

variable {F : FTy → Type} [FloatOps F]

variable (m : (ℓ : Loc nD τ sig) → Buf (Elt F) ℓ)

/-! ### Cutting the line of host operations -/

/-- A line run from `W` is its first `k` operations run from `W`, then the rest. -/
theorem after_split (l : List (HloOp τ sig (Elt F))) (k : Nat) (W : Valuation τ sig (Elt F)) :
    StableHlo.after l W = StableHlo.after (l.drop k) (StableHlo.after (l.take k) W) := by
  rw [← StableHlo.after_append, List.take_append_drop]

/-- The contents when the sorted block ids, the cells and the weights are in place (the first four stretches and the
    first 87 operations of the fifth). -/
def Wbase (c : Dev nD) : Valuation τ sig (Elt F) :=
  StableHlo.after ((hostOps0_4 (F := F)).take 87) (StableHlo.after hostOps0_3 (StableHlo.after hostOps0_2
    (StableHlo.after hostOps0_1 (StableHlo.after hostOps0 (fun b => m (c, b))))))

/-- After the counts (the rest of the fifth stretch), -/
def Wcnt (c : Dev nD) : Valuation τ sig (Elt F) := StableHlo.after ((hostOps0_4 (F := F)).drop 87) (Wbase m c)
/-- their running sum, -/
def Wsum (c : Dev nD) : Valuation τ sig (Elt F) := StableHlo.after hostOps0_5 (Wcnt m c)
/-- the exclusive offsets and the counts plus 255, -/
def Woff (c : Dev nD) : Valuation τ sig (Elt F) := StableHlo.after hostOps0_6 (Wsum m c)
/-- the floor division by 256, -/
def Wdiv (c : Dev nD) : Valuation τ sig (Elt F) := StableHlo.after hostOps0_7 (Woff m c)
/-- the padded counts, -/
def Wpad (c : Dev nD) : Valuation τ sig (Elt F) := StableHlo.after hostOps0_8 (Wdiv m c)
/-- their running sum, -/
def Wpsum (c : Dev nD) : Valuation τ sig (Elt F) := StableHlo.after hostOps0_9 (Wpad m c)
/-- and the slots (the first 23 operations of the last stretch). -/
def Wslot (c : Dev nD) : Valuation τ sig (Elt F) := StableHlo.after ((hostOps0_10 (F := F)).take 23) (Wpsum m c)

/-- The region is entered after the rest of the last stretch. -/
theorem V0_eq (c : Dev nD) : V0 m c = StableHlo.after ((hostOps0_10 (F := F)).drop 23) (Wslot m c) := by
  show StableHlo.after (List.flatten [hostOps0, hostOps0_1, hostOps0_2, hostOps0_3, hostOps0_4, hostOps0_5, hostOps0_6,
    hostOps0_7, hostOps0_8, hostOps0_9, hostOps0_10]) (fun b => m (c, b)) = _
  rw [List.flatten_cons, List.flatten_cons, List.flatten_cons, List.flatten_cons, List.flatten_cons, List.flatten_cons,
    List.flatten_cons, List.flatten_cons, List.flatten_cons, List.flatten_cons, List.flatten_cons, List.flatten_nil,
    List.append_nil, StableHlo.after_append, StableHlo.after_append, StableHlo.after_append, StableHlo.after_append,
    StableHlo.after_append, StableHlo.after_append, StableHlo.after_append, StableHlo.after_append,
    StableHlo.after_append, StableHlo.after_append, after_split hostOps0_10 23, after_split hostOps0_4 87]
  rfl

/-! ### An array that a cut does not write -/

macro "cut_keeps" : tactic =>
  `(tactic| (refine List.forall_iff_forall_mem.mp ?_
             simp only [hostOps0_4, hostOps0_5, hostOps0_6, hostOps0_7, hostOps0_8, hostOps0_9, hostOps0_10,
               List.drop_succ_cons, List.drop_zero, List.take_succ_cons, List.take_zero, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ### Typed references of an inlined function: storing and reading back change nothing -/

/-- Reading back, at a value's type, what was stored at it. -/
theorem ofBuf_toBuf {T : BufTy} (x : StableHlo.TRef sig T) (v : T.Contents (Elt F)) : x.ofBuf (x.toBuf v) = v := by
  obtain ⟨r, h, _, _⟩ := x
  subst h
  rfl

/-- A transport along an equation of types whose two sides are the same type is the identity. -/
theorem cast_of_heq {A B : Type} (h : A = B) (u : A) (u' : B) (e : HEq u u') : cast h u = u' := cast_eq_iff_heq.2 e

/-- The sorted block ids as the cuts find them. -/
abbrev ids (c : Dev nD) : IVec S4194304 32 := Wbase m c (Proc.devRef .tc main_v30)

/-! ### The counts -/

set_option maxHeartbeats 4000000 in
/-- After the first cut: the sorted block ids are as before, and the per-block counts and the one zero that will stand in
    front of the exclusive offsets are the chain's. -/
theorem cnt_all (c : Dev nD) :
    Wcnt m c (Proc.devRef .tc main_v30) = ids m c
      ∧ Wcnt m c (Proc.devRef .tc main_v95) = IntChain.i_v95 (ids m c)
      ∧ Wcnt m c (Proc.devRef .tc main_v96) = IntChain.i_v96 (ids m c) := by
  show StableHlo.after ((hostOps0_4 (F := F)).drop 87) (Wbase m c) (Proc.devRef .tc main_v30)
        = Wbase m c (Proc.devRef .tc main_v30)
      ∧ StableHlo.after ((hostOps0_4 (F := F)).drop 87) (Wbase m c) (Proc.devRef .tc main_v95)
        = IntChain.i_v95 (Wbase m c (Proc.devRef .tc main_v30))
      ∧ StableHlo.after ((hostOps0_4 (F := F)).drop 87) (Wbase m c) (Proc.devRef .tc main_v96)
        = IntChain.i_v96 (Wbase m c (Proc.devRef .tc main_v30))
  generalize Wbase m c = W
  simp only [hostOps0_4, List.drop_succ_cons, List.drop_zero]
  after_results
  exact ⟨rfl, rfl, rfl⟩

theorem ids_cnt (c : Dev nD) : Wcnt m c (Proc.devRef .tc main_v30) = ids m c := (cnt_all m c).1
theorem cnt_v95 (c : Dev nD) : Wcnt m c (Proc.devRef .tc main_v95) = IntChain.i_v95 (ids m c) := (cnt_all m c).2.1
theorem cnt_v96 (c : Dev nD) : Wcnt m c (Proc.devRef .tc main_v96) = IntChain.i_v96 (ids m c) := (cnt_all m c).2.2

/-! ### Their running sum -/

theorem ids_sum (c : Dev nD) : Wsum m c (Proc.devRef .tc main_v30) = ids m c :=
  (StableHlo.after_of_forall_not_mem _ _ (by cut_keeps)).trans (ids_cnt m c)
theorem sum_v95 (c : Dev nD) : Wsum m c (Proc.devRef .tc main_v95) = IntChain.i_v95 (ids m c) :=
  (StableHlo.after_of_forall_not_mem _ _ (by cut_keeps)).trans (cnt_v95 m c)
theorem sum_v96 (c : Dev nD) : Wsum m c (Proc.devRef .tc main_v96) = IntChain.i_v96 (ids m c) :=
  (StableHlo.after_of_forall_not_mem _ _ (by cut_keeps)).trans (cnt_v96 m c)

set_option maxHeartbeats 1000000 in
theorem sum_v97 (c : Dev nD) : Wsum m c (Proc.devRef .tc main_v97) = IntChain.i_v97 (ids m c) := by
  have h95 := cnt_v95 m c
  show StableHlo.after hostOps0_5 (Wcnt m c) (Proc.devRef .tc main_v97) = _
  generalize ids m c = bs at h95 ⊢
  generalize Wcnt m c = W at h95 ⊢
  have e95 : ∀ h1 h2 h3, (StableHlo.TRef.of main_v95 h1 h2 h3 : StableHlo.TRef sig ⟨S64, .i32⟩).ofBuf (Val := Elt F)
      (W (Proc.devRef .tc main_v95)) = IntChain.i_v95 bs :=
    fun h1 h2 h3 => cast_of_heq _ _ _ (heq_of_eq h95)
  simp only [hostOps0_5]
  after_results
  simp only [ofBuf_toBuf, e95]
  refine cast_of_heq _ _ _ (heq_of_eq ?_)
  rfl

/-! ### The exclusive offsets, and the counts plus 255 -/

theorem ids_off (c : Dev nD) : Woff m c (Proc.devRef .tc main_v30) = ids m c :=
  (StableHlo.after_of_forall_not_mem _ _ (by cut_keeps)).trans (ids_sum m c)

set_option maxHeartbeats 1000000 in
/-- The exclusive offsets: a zero, then the running sum without its last entry. -/
theorem off_v99 (c : Dev nD) : Woff m c (Proc.devRef .tc main_v99) = IntChain.i_v99 (ids m c) := by
  have h96 := sum_v96 m c
  have h97 := sum_v97 m c
  show StableHlo.after hostOps0_6 (Wsum m c) (Proc.devRef .tc main_v99) = _
  generalize ids m c = bs at h96 h97 ⊢
  generalize Wsum m c = W at h96 h97 ⊢
  simp only [hostOps0_6]
  after_results
  rw [h96, h97]
  rfl

set_option maxHeartbeats 1000000 in
/-- The counts plus 255. -/
theorem off_v103 (c : Dev nD) : Woff m c (Proc.devRef .tc main_v103) = IntChain.i_v103 (ids m c) := by
  have h95 := sum_v95 m c
  show StableHlo.after hostOps0_6 (Wsum m c) (Proc.devRef .tc main_v103) = _
  generalize ids m c = bs at h95 ⊢
  generalize Wsum m c = W at h95 ⊢
  simp only [hostOps0_6]
  after_results
  rw [h95]
  rfl

set_option maxHeartbeats 1000000 in
/-- The divisor 256. -/
theorem off_c28 (c : Dev nD) : Woff m c (Proc.devRef .tc main_c_28) = IntChain.i_c_28 (ids m c) := by
  show StableHlo.after hostOps0_6 (Wsum m c) (Proc.devRef .tc main_c_28) = _
  generalize Wsum m c = W
  simp only [hostOps0_6]
  after_results
  rfl

/-! ### The floor division by 256 -/

theorem ids_div (c : Dev nD) : Wdiv m c (Proc.devRef .tc main_v30) = ids m c :=
  (StableHlo.after_of_forall_not_mem _ _ (by cut_keeps)).trans (ids_off m c)
theorem div_v99 (c : Dev nD) : Wdiv m c (Proc.devRef .tc main_v99) = IntChain.i_v99 (ids m c) :=
  (StableHlo.after_of_forall_not_mem _ _ (by cut_keeps)).trans (off_v99 m c)

set_option maxHeartbeats 2000000 in
theorem div_v104 (c : Dev nD) : Wdiv m c (Proc.devRef .tc main_v104) = IntChain.i_v104 (ids m c) := by
  have h103 := off_v103 m c
  have hc := off_c28 m c
  show StableHlo.after hostOps0_7 (Woff m c) (Proc.devRef .tc main_v104) = _
  generalize ids m c = bs at h103 hc ⊢
  generalize Woff m c = W at h103 hc ⊢
  have e103 : ∀ h1 h2 h3, (StableHlo.TRef.of main_v103 h1 h2 h3 : StableHlo.TRef sig ⟨S64, .i32⟩).ofBuf (Val := Elt F)
      (W (Proc.devRef .tc main_v103)) = IntChain.i_v103 bs :=
    fun h1 h2 h3 => cast_of_heq _ _ _ (heq_of_eq h103)
  have ec : ∀ h1 h2 h3, (StableHlo.TRef.of main_c_28 h1 h2 h3 : StableHlo.TRef sig ⟨S_, .i32⟩).ofBuf (Val := Elt F)
      (W (Proc.devRef .tc main_c_28)) = IntChain.i_c_28 bs :=
    fun h1 h2 h3 => cast_of_heq _ _ _ (heq_of_eq hc)
  simp only [hostOps0_7]
  after_results
  simp only [ofBuf_toBuf, e103, ec]
  refine cast_of_heq _ _ _ (heq_of_eq ?_)
  rfl

/-! ### The padded counts -/

theorem ids_pad (c : Dev nD) : Wpad m c (Proc.devRef .tc main_v30) = ids m c :=
  (StableHlo.after_of_forall_not_mem _ _ (by cut_keeps)).trans (ids_div m c)
theorem pad_v99 (c : Dev nD) : Wpad m c (Proc.devRef .tc main_v99) = IntChain.i_v99 (ids m c) :=
  (StableHlo.after_of_forall_not_mem _ _ (by cut_keeps)).trans (div_v99 m c)

set_option maxHeartbeats 1000000 in
theorem pad_v106 (c : Dev nD) : Wpad m c (Proc.devRef .tc main_v106) = IntChain.i_v106 (ids m c) := by
  have h104 := div_v104 m c
  show StableHlo.after hostOps0_8 (Wdiv m c) (Proc.devRef .tc main_v106) = _
  generalize ids m c = bs at h104 ⊢
  generalize Wdiv m c = W at h104 ⊢
  simp only [hostOps0_8]
  after_results
  rw [h104]
  rfl

set_option maxHeartbeats 1000000 in
/-- The one zero in front of the exclusive padded offsets. -/
theorem pad_v107 (c : Dev nD) : Wpad m c (Proc.devRef .tc main_v107) = IntChain.i_v107 (ids m c) := by
  show StableHlo.after hostOps0_8 (Wdiv m c) (Proc.devRef .tc main_v107) = _
  generalize Wdiv m c = W
  simp only [hostOps0_8]
  after_results
  rfl

/-! ### Their running sum -/

theorem ids_psum (c : Dev nD) : Wpsum m c (Proc.devRef .tc main_v30) = ids m c :=
  (StableHlo.after_of_forall_not_mem _ _ (by cut_keeps)).trans (ids_pad m c)
theorem psum_v99 (c : Dev nD) : Wpsum m c (Proc.devRef .tc main_v99) = IntChain.i_v99 (ids m c) :=
  (StableHlo.after_of_forall_not_mem _ _ (by cut_keeps)).trans (pad_v99 m c)
theorem psum_v106 (c : Dev nD) : Wpsum m c (Proc.devRef .tc main_v106) = IntChain.i_v106 (ids m c) :=
  (StableHlo.after_of_forall_not_mem _ _ (by cut_keeps)).trans (pad_v106 m c)
theorem psum_v107 (c : Dev nD) : Wpsum m c (Proc.devRef .tc main_v107) = IntChain.i_v107 (ids m c) :=
  (StableHlo.after_of_forall_not_mem _ _ (by cut_keeps)).trans (pad_v107 m c)

set_option maxHeartbeats 1000000 in
theorem psum_v108 (c : Dev nD) : Wpsum m c (Proc.devRef .tc main_v108) = IntChain.i_v108 (ids m c) := by
  have h106 := pad_v106 m c
  show StableHlo.after hostOps0_9 (Wpad m c) (Proc.devRef .tc main_v108) = _
  generalize ids m c = bs at h106 ⊢
  generalize Wpad m c = W at h106 ⊢
  have e106 : ∀ h1 h2 h3, (StableHlo.TRef.of main_v106 h1 h2 h3 : StableHlo.TRef sig ⟨S64, .i32⟩).ofBuf (Val := Elt F)
      (W (Proc.devRef .tc main_v106)) = IntChain.i_v106 bs :=
    fun h1 h2 h3 => cast_of_heq _ _ _ (heq_of_eq h106)
  simp only [hostOps0_9]
  after_results
  simp only [ofBuf_toBuf, e106]
  refine cast_of_heq _ _ _ (heq_of_eq ?_)
  rfl

/-! ### The exclusive padded offsets and the slots -/

set_option maxHeartbeats 4000000 in
/-- After the cut that ends with the slots: the sorted block ids and the padded counts are as before; the exclusive
    padded offsets are a zero, then the running sum of the padded counts without its last entry; and the slot of every
    point is the padded offset of its block plus its rank inside its block. -/
theorem slot_all (c : Dev nD) :
    Wslot m c (Proc.devRef .tc main_v30) = ids m c
      ∧ Wslot m c (Proc.devRef .tc main_v106) = IntChain.i_v106 (ids m c)
      ∧ Wslot m c (Proc.devRef .tc main_v110) = IntChain.i_v110 (ids m c)
      ∧ Wslot m c (Proc.devRef .tc main_v127) = IntChain.i_v127 (ids m c) := by
  have h30 := ids_psum m c
  have h99 := psum_v99 m c
  have h106 := psum_v106 m c
  have h107 := psum_v107 m c
  have h108 := psum_v108 m c
  show StableHlo.after ((hostOps0_10 (F := F)).take 23) (Wpsum m c) (Proc.devRef .tc main_v30) = _
      ∧ StableHlo.after ((hostOps0_10 (F := F)).take 23) (Wpsum m c) (Proc.devRef .tc main_v106) = _
      ∧ StableHlo.after ((hostOps0_10 (F := F)).take 23) (Wpsum m c) (Proc.devRef .tc main_v110) = _
      ∧ StableHlo.after ((hostOps0_10 (F := F)).take 23) (Wpsum m c) (Proc.devRef .tc main_v127) = _
  generalize ids m c = bs at h30 h99 h106 h107 h108 ⊢
  generalize Wpsum m c = W at h30 h99 h106 h107 h108 ⊢
  simp only [hostOps0_10, List.take_succ_cons, List.take_zero]
  after_results
  rw [h30, h99, h106, h107, h108]
  exact ⟨rfl, rfl, rfl, rfl⟩

/-! ### What the region finds -/

set_option maxHeartbeats 4000000 in
/-- The rest of the last stretch writes none of the four. -/
theorem rest_writes : ∀ op ∈ (hostOps0_10 (F := F)).drop 23,
    (Proc.devRef (τ := τ) .tc main_v30 ∉ op.writes ∧ Proc.devRef (τ := τ) .tc main_v106 ∉ op.writes)
      ∧ (Proc.devRef (τ := τ) .tc main_v110 ∉ op.writes ∧ Proc.devRef (τ := τ) .tc main_v127 ∉ op.writes) := by
  refine List.forall_iff_forall_mem.mp ?_
  simp only [hostOps0_10, List.drop_succ_cons, List.drop_zero, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)

/-- The sorted block ids of the cuts are the region's. -/
theorem ids_eq (c : Dev nD) : ids m c = V m c main_v30 := by
  show _ = V0 m c (Proc.devRef .tc main_v30)
  rw [V0_eq, StableHlo.after_of_forall_not_mem _ _ (fun op h => (rest_writes op h).1.1)]
  exact (slot_all m c).1.symm

/-- THE SLOTS as the region finds them: the chain's function of the sorted block ids. -/
theorem V_v127 (c : Dev nD) : V m c main_v127 = IntChain.i_v127 (V m c main_v30) := by
  show V0 m c (Proc.devRef .tc main_v127) = _
  rw [V0_eq, StableHlo.after_of_forall_not_mem _ _ (fun op h => (rest_writes op h).2.2), ← ids_eq m c]
  exact (slot_all m c).2.2.2

/-- The exclusive padded offsets as the region finds them. -/
theorem V_v110 (c : Dev nD) : V m c main_v110 = IntChain.i_v110 (V m c main_v30) := by
  show V0 m c (Proc.devRef .tc main_v110) = _
  rw [V0_eq, StableHlo.after_of_forall_not_mem _ _ (fun op h => (rest_writes op h).2.1), ← ids_eq m c]
  exact (slot_all m c).2.2.1

/-- The padded counts as the region finds them. -/
theorem V_v106 (c : Dev nD) : V m c main_v106 = IntChain.i_v106 (V m c main_v30) := by
  show V0 m c (Proc.devRef .tc main_v106) = _
  rw [V0_eq, StableHlo.after_of_forall_not_mem _ _ (fun op h => (rest_writes op h).1.2), ← ids_eq m c]
  exact (slot_all m c).2.1

end Cert.AlphaGrid.KernelChainBK

namespace Cert.AlphaGrid.KernelChainCK

open Idealize.ShloMosaic Idealize.ShloMosaic.TcCoe
open Cert.Kernel Cert.Kernel.Gen

variable {F : FTy → Type} [FloatOps F]

variable (m : (ℓ : Loc nD τ sig) → Buf (Elt F) ℓ)

/-! ### Cutting the line of host operations -/

theorem flatten_snoc {α : Type*} (L : List (List α)) (l : List α) :
    List.flatten (L ++ [l]) = List.flatten L ++ l := by
  rw [List.flatten_append, List.flatten_cons, List.flatten_nil, List.append_nil]

/-- A line run from `W` is its first `k` operations run from `W`, then the rest. -/
theorem after_split (l : List (HloOp τ sig (Elt F))) (k : Nat) (W : Valuation τ sig (Elt F)) :
    StableHlo.after l W = StableHlo.after (l.drop k) (StableHlo.after (l.take k) W) := by
  rw [← StableHlo.after_append, List.take_append_drop]

/-- The contents before the last stretch of host operations. -/
def W9 (c : Dev nD) : Valuation τ sig (Elt F) :=
  StableHlo.after (List.flatten [hostOps0, hostOps0_1, hostOps0_2, hostOps0_3, hostOps0_4, hostOps0_5, hostOps0_6,
    hostOps0_7, hostOps0_8, hostOps0_9]) (fun b => m (c, b))

theorem V0_last (c : Dev nD) : V0 m c = StableHlo.after hostOps0_10 (W9 m c) := by
  show StableHlo.after (List.flatten ([hostOps0, hostOps0_1, hostOps0_2, hostOps0_3, hostOps0_4, hostOps0_5,
    hostOps0_6, hostOps0_7, hostOps0_8, hostOps0_9] ++ [hostOps0_10])) _ = _
  rw [flatten_snoc, StableHlo.after_append]
  rfl

/-- The contents after the first `k` operations of the last stretch. -/
def Wk (c : Dev nD) (k : Nat) : Valuation τ sig (Elt F) :=
  StableHlo.after ((hostOps0_10 (F := F)).take k) (W9 m c)

theorem V0_tail (c : Dev nD) (k : Nat) :
    V0 m c = StableHlo.after ((hostOps0_10 (F := F)).drop k) (Wk m c k) := by
  rw [V0_last, after_split _ k]
  rfl

/-- An array that none of the remaining operations writes already holds its final contents. -/
theorem tail_keeps (c : Dev nD) (k : Nat) (b : Ref sig .tc)
    (h : ∀ op ∈ (hostOps0_10 (F := F)).drop k, Proc.devRef .tc b ∉ op.writes) :
    Wk m c k (Proc.devRef .tc b) = V m c b := by
  show _ = V0 m c (Proc.devRef .tc b)
  rw [V0_tail m c k, StableHlo.after_of_forall_not_mem _ _ h]

/-- An array written among the `n` operations that follow the first `k`, and by none after them, holds at the end what
    those `n` operations leave in it. -/
theorem V0_seg (c : Dev nD) (k n : Nat) (y : Ref sig .tc)
    (h : ∀ op ∈ (hostOps0_10 (F := F)).drop (k + n), Proc.devRef .tc y ∉ op.writes) :
    V0 m c (Proc.devRef .tc y)
      = StableHlo.after (((hostOps0_10 (F := F)).drop k).take n) (Wk m c k) (Proc.devRef .tc y) := by
  rw [V0_tail m c k, after_split _ n, List.drop_drop, StableHlo.after_of_forall_not_mem _ _ h]

macro "tail_keeps_all" : tactic =>
  `(tactic| (refine List.forall_iff_forall_mem.mp ?_
             simp only [hostOps0_10, List.drop_succ_cons, List.drop_zero, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ### The tile table -/

/-- The padded offsets are not written from the tile-table operations on. -/
theorem keep_v110 (c : Dev nD) : Wk m c 89 (Proc.devRef .tc main_v110) = V m c main_v110 :=
  tail_keeps m c 89 main_v110 (by tail_keeps_all)

/-- Nor are the padded counts. -/
theorem keep_v106 (c : Dev nD) : Wk m c 89 (Proc.devRef .tc main_v106) = V m c main_v106 :=
  tail_keeps m c 89 main_v106 (by tail_keeps_all)

set_option maxHeartbeats 4000000 in
theorem V_v196 (c : Dev nD)
    (h110 : V m c main_v110 = IntChain.i_v110 (V m c main_v30))
    (h106 : V m c main_v106 = IntChain.i_v106 (V m c main_v30)) :
    V m c main_v196 = IntChain.i_v196 (V m c main_v30) := by
  show V0 m c (Proc.devRef .tc main_v196) = _
  rw [V0_seg m c 89 23 main_v196 (by tail_keeps_all)]
  simp only [IntChain.i_v196, IntChain.i_c_54, IntChain.i_v195, IntChain.i_v194, IntChain.i_v193, IntChain.i_v192,
    IntChain.i_v191, IntChain.i_v190, IntChain.i_v189, IntChain.i_v188, IntChain.i_v187, IntChain.i_v186,
    IntChain.i_v185, IntChain.i_v184, IntChain.i_v183, IntChain.i_v182, IntChain.i_v181, IntChain.i_v180,
    IntChain.i_v179, IntChain.i_v178, IntChain.i_c_53, IntChain.i_v177, IntChain.i_v176]
  rw [← h110, ← h106, ← keep_v110 m c, ← keep_v106 m c]
  generalize Wk m c 89 = W
  simp only [hostOps0_10, List.drop_succ_cons, List.drop_zero, List.take_succ_cons, List.take_zero]
  after_results_simp

/-- THE TILE TABLE as the region finds it: the chain's function of the sorted block ids. -/
theorem V_main_v196 (c : Dev nD) : V m c main_v196 = IntChain.i_v196 (V m c main_v30) :=
  V_v196 m c (KernelChainBK.V_v110 m c) (KernelChainBK.V_v106 m c)

end Cert.AlphaGrid.KernelChainCK

end
-- ==== Proof.Spec.lean ====
/-
  Trilinear sampling of one 64×64×64 block of a volume at one point, written two ways, and the side condition
  under which the two agree on the extended reals.

  A point has a base cell (z, y, x) — three 32-bit words, possibly far outside the block — and fractional
  weights (wz, wy, wx). The block is a slab `vol d q` with depth `d < 64` and flattened plane position
  `q = 64 * h + w < 4096`.

  * `kval` contracts one axis at a time: per axis the weight row `lw c w` has `1 - w` at cell `c`, `w` at cell
    `c + 1` (addition of words, wrapping) and `0` elsewhere; the depth axis is contracted first, then the plane.
  * `rval` sums the eight corners, each weighted by a product of three factors, a corner outside the block
    contributing the value `0`.

  The two agree when the slab is finite and, per axis, either the weight is a real number or the base cell is one of
  the two saturated words (then no cell of that axis is inside the block, on either side).
-/
import Idealize.ShloMosaic.PureOps.Ideal

noncomputable section

namespace Cert.AlphaGrid

open Idealize.ShloMosaic

/-- The weight an axis gives cell `d`: `1 - w` at the base cell `c`, plus `w` at the next cell `c + 1`. -/
def lw (c : BitVec 32) (w : EReal) (d : Nat) : EReal :=
  (if BitVec.ofNat 32 d = c then 1 - w else 0) + (if BitVec.ofNat 32 d = c + 1#32 then w else 0)

/-- The sample by successive contraction: depth first, then the flattened plane (`q / 64` its row, `q % 64` its column). -/
def kval (vol : Nat → Nat → EReal) (z y x : BitVec 32) (wz wy wx : EReal) : EReal :=
  ∑ q ∈ Finset.range 4096, (lw y wy (q / 64) * lw x wx (q % 64)) * ∑ d ∈ Finset.range 64, lw z wz d * vol d q

/-- A cell index lies in the block. -/
def inb (c : BitVec 32) : Prop := 0 ≤ c.toInt ∧ c.toInt < 64

instance (c : BitVec 32) : Decidable (inb c) := by unfold inb; infer_instance

/-- The slab's value at a cell, `0` when any coordinate is outside the block. -/
def corner (vol : Nat → Nat → EReal) (z y x : BitVec 32) : EReal :=
  if inb z ∧ inb y ∧ inb x then vol z.toNat (y.toNat * 64 + x.toNat) else 0

/-- The factor of a corner on one axis: `1 - w` for the base cell, `w` for the next. -/
def side (a : Fin 2) (w : EReal) : EReal := if a = 0 then 1 - w else w

/-- The sample as the sum over the eight corners. -/
def rval (vol : Nat → Nat → EReal) (z y x : BitVec 32) (wz wy wx : EReal) : EReal :=
  ∑ a : Fin 2, ∑ b : Fin 2, ∑ c : Fin 2,
    ((side a wz * side b wy) * side c wx) * corner vol (z + BitVec.ofNat 32 a.val) (y + BitVec.ofNat 32 b.val) (x + BitVec.ofNat 32 c.val)

/-- What is known of an axis: its weight is a real number, or its base cell is saturated (no cell of the axis, base or
    next, is then inside the block). -/
def WOk (c : BitVec 32) (w : EReal) : Prop :=
  (∃ r : ℝ, w = (r : EReal)) ∨ c = BitVec.intMax 32 ∨ c = BitVec.intMin 32

end Cert.AlphaGrid

end
-- ==== Proof.WeightFacts.lean ====
/-
  The fractional weight of a coordinate and its base cell, at the extended reals.

  A coordinate `f` is split into its floor and the remainder `f - ⌊f⌋`; the base cell is the floor converted to a
  32-bit word (toward zero, clamped to the word's range, an infinity to the end of the range on its side).

  * `f` a real number `r`: the floor is the real `⌊r⌋` and the remainder is the real `Int.fract r`, in `[0, 1)`.
  * `f = ⊤`: the floor is `⊤`, the remainder `⊤ - ⊤ = ⊥` is not real, and the word is the largest one.
  * `f = ⊥`: the floor is `⊥`, the remainder `⊥ - ⊥ = ⊥` is not real, and the word is the least one.

  So in every case the pair (word, remainder) satisfies `WOk`. The statements are spelt with the field operations of
  the float interface, which is what the vector operations `Host.floor`, `subf`, `fptosi` are at one index.
-/
import proofs.«104803_j90202903151142_1_alg».proof.Proof.Spec
import Idealize.ShloMosaic.PureOps.Ideal

noncomputable section

namespace Cert.AlphaGrid

open Idealize.ShloMosaic

/-! ## The three vector operations at one index -/

section AtIndex
variable {F : FTy → Type} [FloatOps F] {s : Shape} {φ : FTy}

theorem floor_apply (x : FVec F s φ) (i : s.Idx) : Host.floor x i = FloatOps.hostUnary .floor (x i) := rfl

theorem subf_apply (x y : FVec F s φ) (i : s.Idx) : subf x y i = FloatOps.subf (x i) (y i) := rfl

theorem fptosi_apply (w : Nat) (x : FVec F s φ) (i : s.Idx) : fptosi w x i = FloatOps.fptosi w (x i) := rfl

end AtIndex

/-! ## The two saturated words as conversions of the ends of the range -/

theorem ofInt_lo : BitVec.ofInt 32 (-((2 ^ (32 - 1) : Nat) : Int)) = BitVec.intMin 32 := by decide

theorem ofInt_hi : BitVec.ofInt 32 (((2 ^ (32 - 1) : Nat) : Int) - 1) = BitVec.intMax 32 := by decide

/-! ## The floor, the remainder and the base cell, case by case -/

section Cases
variable {φ : FTy}

theorem floor_coe (r : ℝ) :
    FloatOps.hostUnary (F := Ideal) (φ := φ) .floor ((r : ℝ) : EReal) = (((⌊r⌋ : ℤ) : ℝ) : EReal) := rfl

theorem floor_top : FloatOps.hostUnary (F := Ideal) (φ := φ) .floor (⊤ : EReal) = (⊤ : EReal) := rfl

theorem floor_bot : FloatOps.hostUnary (F := Ideal) (φ := φ) .floor (⊥ : EReal) = (⊥ : EReal) := rfl

/-- The remainder of a real number is its fractional part. -/
theorem subf_floor_coe (r : ℝ) :
    FloatOps.subf (F := Ideal) (φ := φ) ((r : ℝ) : EReal) (FloatOps.hostUnary (F := Ideal) (φ := φ) .floor ((r : ℝ) : EReal))
      = ((Int.fract r : ℝ) : EReal) := by
  show ((r : ℝ) : EReal) - (((⌊r⌋ : ℤ) : ℝ) : EReal) = ((Int.fract r : ℝ) : EReal)
  rw [← EReal.coe_sub]; rfl

/-- The remainder at `⊤` is `⊥`. -/
theorem subf_floor_top :
    FloatOps.subf (F := Ideal) (φ := φ) (⊤ : EReal) (FloatOps.hostUnary (F := Ideal) (φ := φ) .floor (⊤ : EReal)) = (⊥ : EReal) := by
  show (⊤ : EReal) - ⊤ = ⊥
  simp

/-- The remainder at `⊥` is `⊥`. -/
theorem subf_floor_bot :
    FloatOps.subf (F := Ideal) (φ := φ) (⊥ : EReal) (FloatOps.hostUnary (F := Ideal) (φ := φ) .floor (⊥ : EReal)) = (⊥ : EReal) := by
  show (⊥ : EReal) - ⊥ = ⊥
  simp

/-- The base cell of a real number: its floor, clamped to the range of a 32-bit word. -/
theorem fptosi_floor_coe (r : ℝ) :
    FloatOps.fptosi (F := Ideal) (φ := φ) 32 (FloatOps.hostUnary (F := Ideal) (φ := φ) .floor ((r : ℝ) : EReal))
      = BitVec.ofInt 32 (max (-((2 ^ (32 - 1) : Nat) : Int)) (min (((2 ^ (32 - 1) : Nat) : Int) - 1) ⌊r⌋)) := by
  show Ideal.fptosi 32 (((⌊r⌋ : ℤ) : ℝ) : EReal) = _
  rw [Ideal.fptosi, Ideal.toIntClamped_coe, Int.floor_intCast, Int.ceil_intCast, ite_self]

/-- The base cell at `⊤` is the largest word. -/
theorem fptosi_floor_top :
    FloatOps.fptosi (F := Ideal) (φ := φ) 32 (FloatOps.hostUnary (F := Ideal) (φ := φ) .floor (⊤ : EReal)) = BitVec.intMax 32 := by
  show Ideal.fptosi 32 (⊤ : EReal) = _
  rw [Ideal.fptosi, Ideal.toIntClamped_top]; exact ofInt_hi

/-- The base cell at `⊥` is the least word. -/
theorem fptosi_floor_bot :
    FloatOps.fptosi (F := Ideal) (φ := φ) 32 (FloatOps.hostUnary (F := Ideal) (φ := φ) .floor (⊥ : EReal)) = BitVec.intMin 32 := by
  show Ideal.fptosi 32 (⊥ : EReal) = _
  rw [Ideal.fptosi, Ideal.toIntClamped_bot]; exact ofInt_lo

/-- The base cell and the remainder of any coordinate satisfy the side condition: the remainder is real when the
    coordinate is, and the base cell is saturated at an infinity. -/
theorem wok_floor (f : Ideal φ) :
    WOk (FloatOps.fptosi (F := Ideal) (φ := φ) 32 (FloatOps.hostUnary (F := Ideal) (φ := φ) .floor f))
        (FloatOps.subf (F := Ideal) (φ := φ) f (FloatOps.hostUnary (F := Ideal) (φ := φ) .floor f)) := by
  induction f using EReal.rec with
  | bot => exact Or.inr (Or.inr fptosi_floor_bot)
  | coe r => exact Or.inl ⟨Int.fract r, subf_floor_coe r⟩
  | top => exact Or.inr (Or.inl fptosi_floor_top)

/-- The same, with the operations as the functions of the extended reals they are. -/
theorem wok_floor' (f : EReal) :
    WOk (Ideal.fptosi 32 (Ideal.liftRound Int.floor f)) (f - Ideal.liftRound Int.floor f) :=
  wok_floor (φ := .f32) f

/-- The remainder of a real coordinate is a real number in `[0, 1)`. -/
theorem wok_floor_real (r : ℝ) :
    ∃ t : ℝ, FloatOps.subf (F := Ideal) (φ := φ) ((r : ℝ) : EReal)
        (FloatOps.hostUnary (F := Ideal) (φ := φ) .floor ((r : ℝ) : EReal)) = ((t : ℝ) : EReal) ∧ 0 ≤ t ∧ t < 1 :=
  ⟨Int.fract r, subf_floor_coe r, Int.fract_nonneg r, Int.fract_lt_one r⟩

/-- Whenever the remainder is a real number it lies in `[0, 1)` (the coordinate is then real too). -/
theorem weight_bounds (f : Ideal φ) (t : ℝ)
    (h : FloatOps.subf (F := Ideal) (φ := φ) f (FloatOps.hostUnary (F := Ideal) (φ := φ) .floor f) = ((t : ℝ) : EReal)) :
    0 ≤ t ∧ t < 1 := by
  induction f using EReal.rec with
  | bot => rw [subf_floor_bot] at h; exact absurd h.symm (EReal.coe_ne_bot t)
  | coe r =>
    rw [subf_floor_coe] at h
    have ht : Int.fract r = t := EReal.coe_injective h
    exact ht ▸ ⟨Int.fract_nonneg r, Int.fract_lt_one r⟩
  | top => rw [subf_floor_top] at h; exact absurd h.symm (EReal.coe_ne_bot t)

end Cases

end Cert.AlphaGrid

end
-- ==== Proof.GlueFacts.lean ====
/-
  Facts about the kernel program's host stages up to the sorted points' data.

  * Range. A point's block coordinate per axis is its converted cell clipped to [0, 3] (a signed maximum with 0, then a
    signed minimum with 3 = 4 - 1); the block id is the sum over the three axes of the clipped coordinate times the
    weights [16, 4, 1], so it is at most 3·16 + 3·4 + 3 = 63 whatever the point's coordinates were.
  * Order. The points are sorted by block id with a stable sort that carries the table of positions; the carried
    table holds, at sorted position `i`, the word of the source position `π i` (a non-negative word below 2³¹, which
    the index normalisation "add the length if negative" leaves alone), and the sorted block ids are the block ids
    gathered there: sorted id `i` = id `π i`. The sorting permutation has no inversion under the comparator, signed
    less-than on the ids; on words below 64 that is less-than on their values, so the sorted ids are in order.
  * Weights. Per axis the base cell is the floor of the coordinate converted to a word and the weight is the
    coordinate minus its floor, so the pair satisfies the side condition of the sampling identity.
-/
import proofs.«104803_j90202903151142_1_alg».proof.Proof.Glue
import proofs.«104803_j90202903151142_1_alg».proof.Proof.Spec
import proofs.«104803_j90202903151142_1_alg».proof.Proof.WeightFacts
import Idealize.ShloMosaic.Lib.StableHlo.Predicate
import Idealize.ShloMosaic.Lib.ValueIdx
import Idealize.ShloMosaic.Lib.SortFacts
import Idealize.ShloMosaic.PureOps.Reduce

noncomputable section

namespace Cert.AlphaGrid.GlueFacts

open Idealize.ShloMosaic Idealize.ShloMosaic.ValueIdx Idealize.ShloMosaic.StableHlo.Predicate Cert.KernelIdeal

variable [Cert.KernelIdeal.Facts]
open Cert.KernelIdeal.Facts₀ Cert.KernelIdeal.Facts

/-! ## Words -/

/-- A signed word clipped below at 0 and then above at 3 is one of 0, 1, 2, 3. -/
theorem clip3_le (w : BitVec 32) : (IntOp.minsi 3#32 (IntOp.maxsi 0#32 w)).toNat ≤ 3 := by
  unfold IntOp.minsi IntOp.maxsi
  have e := BitVec.toInt_eq_toNat_cond w
  have hw := w.isLt
  by_cases h1 : w.slt 0#32 = true
  · rw [if_pos h1]; decide
  · rw [if_neg h1]
    by_cases h2 : (3#32 : BitVec 32).slt w = true
    · rw [if_pos h2]; decide
    · rw [if_neg h2]
      simp only [BitVec.slt, decide_eq_true_eq, not_lt] at h1 h2
      have e3 : (3#32 : BitVec 32).toInt = 3 := by decide
      have e0 : (0#32 : BitVec 32).toInt = 0 := by decide
      omega

/-- A product of words is at most the product of their values. -/
theorem toNat_muli_le (a b : BitVec 32) : (IntOp.muli a b).toNat ≤ a.toNat * b.toNat := by
  show (a * b).toNat ≤ _
  rw [BitVec.toNat_mul]
  exact Nat.mod_le _ _

/-- A sum of words, wrapping or not, is at most the sum of their values. -/
theorem toNat_fold_addi_le {ι : Type} [DecidableEq ι] (S : Finset ι) (f : ι → BitVec 32) :
    (S.fold IntOp.addi 0#32 f).toNat ≤ ∑ i ∈ S, (f i).toNat := by
  induction S using Finset.cons_induction with
  | empty => simp
  | cons a S ha ih =>
    rw [Finset.fold_cons, Finset.sum_cons]
    show (f a + Finset.fold IntOp.addi 0#32 f S).toNat ≤ _
    rw [BitVec.toNat_add]
    exact (Nat.mod_le _ _).trans (Nat.add_le_add_left ih _)

/-- The weight table [16, 4, 1] by position. -/
theorem lit0_at (q r : Fin 3) (hr : r.val = q.val) :
    (lit0 r).toNat = if q.val = 0 then 16 else if q.val = 1 then 4 else 1 := by
  obtain rfl : r = q := Fin.ext hr
  revert r; decide

section Stages
variable {F : FTy → Type} [FloatOps F]
variable (a0 : FVec F S4194304x3 .f32) (a1 : FVec F S2x3 .f32) (a3 a4 : FVec F S64x3 .f32)

/-- The clipped block coordinate: the converted coordinate clipped to [0, 3]. -/
theorem v18_at (i : S4194304x3.Idx) :
    Glue.g_v18 a0 a1 a3 a4 i = IntOp.minsi 3#32 (IntOp.maxsi 0#32 (Glue.g_v15 a0 a1 a3 a4 i)) := by
  have e : IntOp.subi 4#32 1#32 = 3#32 := by decide
  show IntOp.minsi (IntOp.subi 4#32 1#32) (IntOp.maxsi 0#32 (Glue.g_v15 a0 a1 a3 a4 i)) = _
  rw [e]

theorem v20_at (p : Fin 4194304) (q : Fin 3) :
    Glue.g_v20 a0 a1 a3 a4 (ij p q) = lit0 (S3.rowMajor (Shape.Idx.ofFin q)) :=
  bcast_cols bcast_S3_S1x3_1 bcast_S1x3_S4194304x3_0_1 (Glue.g_c_0 a0 a1 a3 a4) p q

theorem v21_at_le (p : Fin 4194304) (q : Fin 3) :
    (Glue.g_v21 a0 a1 a3 a4 (ij p q)).toNat ≤ 3 * (if q.val = 0 then 16 else if q.val = 1 then 4 else 1) := by
  show (IntOp.muli (Glue.g_v18 a0 a1 a3 a4 (ij p q)) (Glue.g_v20 a0 a1 a3 a4 (ij p q))).toNat ≤ _
  refine (toNat_muli_le _ _).trans ?_
  rw [v18_at, v20_at]
  exact Nat.mul_le_mul (clip3_le _) (le_of_eq (lit0_at q _ (Shape.rowMajor_val_one _)))

/-- The index over result position `p` with column `k` put back. -/
theorem lift_at (hR : S4194304x3.Reduces [1] S4194304) (p : Fin 4194304) (k : Fin 3) :
    hR.lift (ix1 p) k = ij p k := by
  funext c
  match c with
  | ⟨0, _⟩ => exact Fin.ext rfl
  | ⟨1, _⟩ => exact Fin.ext rfl

/-- The sum over the three columns at row `p`, as a fold over the column. -/
theorem reduce_cols_at (x : IVec S4194304x3 32) (init : IVec S_ 32) (p : Fin 4194304) :
    Host.reduce IntOp.addi x init reducesTo_S4194304x3_S4194304_d1 h_S_ (ix1 p)
      = (Finset.univ : Finset (Fin 3)).fold IntOp.addi (init (Shape.Idx.first h_S_)) (fun k => x (ij p k)) := by
  have hR : S4194304x3.Reduces [1] S4194304 := by decide
  rw [Host.reduce_eq_fold_single IntOp.addi x init reducesTo_S4194304x3_S4194304_d1 hR h_S_ (ix1 p)]
  exact congrArg (fun f => Finset.fold IntOp.addi (init (Shape.Idx.first h_S_)) f (Finset.univ : Finset (Fin 3)))
    (funext fun k => congrArg x (lift_at hR p k))

/-- The block id before sorting, `16 bx + 4 by + bz` of clipped coordinates, is below 64. -/
theorem v22_lt (j : S4194304.Idx) : (Glue.g_v22 a0 a1 a3 a4 j).toNat < 64 := by
  obtain ⟨p, rfl⟩ : ∃ p : Fin 4194304, j = ix1 p := ⟨j 0, eq_ix1 j⟩
  show (Host.reduce IntOp.addi (Glue.g_v21 a0 a1 a3 a4) (Glue.g_c_3 a0 a1 a3 a4) reducesTo_S4194304x3_S4194304_d1 h_S_ (ix1 p)).toNat < 64
  rw [reduce_cols_at]
  show ((Finset.univ : Finset (Fin 3)).fold IntOp.addi 0#32 (fun k => Glue.g_v21 a0 a1 a3 a4 (ij p k))).toNat < 64
  refine lt_of_le_of_lt (toNat_fold_addi_le _ _) ?_
  rw [Fin.sum_univ_three]
  have h0 := v21_at_le a0 a1 a3 a4 p 0
  have h1 := v21_at_le a0 a1 a3 a4 p 1
  have h2 := v21_at_le a0 a1 a3 a4 p 2
  simp only [Fin.val_zero, Fin.val_one, Fin.val_two] at h0 h1 h2
  norm_num at h0 h1 h2
  omega

end Stages

/-! ## The sort -/

section Sorting
variable {n : Nat}

/-- The rank-1 index at a coordinate, in either spelling. -/
theorem ofFin_eq_ix1 (k : Fin n) : Shape.Idx.ofFin k = ix1 k := by
  funext d
  match d with
  | ⟨0, _⟩ => rfl

/-- The sorting permutation of the keys `x` under signed less-than, equal keys in position order:
    sorted position ↦ source position. -/
def perm (x : IVec ⟨1, ![n]⟩ 32) : Fin n → Fin n :=
  sortedFrom fun k k' => IntOp.cmpi .slt (x (Shape.Idx.ofFin k)) (x (Shape.Idx.ofFin k')) == 1#1

theorem perm_injective (x : IVec ⟨1, ![n]⟩ 32) : Function.Injective (perm x) := sortedFrom_injective _

theorem perm_surjective (x : IVec ⟨1, ![n]⟩ 32) : Function.Surjective (perm x) := sortedFrom_surjective _

/-- The second result of a two-operand sort of rank-1 arrays along their axis: the second operand read through the
    sorting permutation of the pairs. -/
theorem sort2_snd_rank1 {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The argsort: sorting the position table alongside the keys leaves, at sorted position `i`, the word of the
    source position. -/
theorem argsort_at (cmp : BitVec 32 × BitVec 32 → BitVec 32 × BitVec 32 → BitVec 1)
    (hcmp : ∀ l r, cmp l r = IntOp.cmpi .slt l.1 r.1) (x : IVec ⟨1, ![n]⟩ 32) (i : Fin n) :
    (Host.sort2 ⟨1, ![n]⟩ 0 cmp x (iotaInDim ⟨1, ![n]⟩ 32 0)).2 (Shape.Idx.ofFin i)
      = BitVec.ofNat 32 (perm x i).val := by
  rw [sort2_snd_rank1]
  simp only [hcmp]
  rfl

/-- jnp's wrap of a negative index leaves a non-negative word alone. -/
theorem wrap_nonneg (w c : BitVec 32) (hw : w.toNat < 2 ^ 31) :
    Scalar.select (IntOp.cmpi .slt w 0#32) (IntOp.addi w c) w = w := by
  have h : ¬ IntOp.cmpi .slt w 0#32 = 1#1 := by
    rw [slt_iff_toNat hw (by decide)]
    exact Nat.not_lt_zero _
  exact if_neg h

/-- The gather of the keys at the wrapped argsort reads the keys through the sorting permutation. -/
theorem gathered_at (hn : n < 2 ^ 31) (cmp : BitVec 32 × BitVec 32 → BitVec 32 × BitVec 32 → BitVec 1)
    (hcmp : ∀ l r, cmp l r = IntOp.cmpi .slt l.1 r.1) (x : IVec ⟨1, ![n]⟩ 32)
    (d : GatherDims ⟨1, ![n]⟩ ⟨2, ![n, 1]⟩ ⟨1, ![n]⟩)
    (hcoll : d.collapsedSliceDims = [0]) (hob : d.operandBatchingDims = [])
    (hsim : d.startIndexMap = [0]) (hivd : d.indexVectorDim = 1)
    (hb1 : (⟨1, ![n]⟩ : Shape).BroadcastsInDim ⟨2, ![n, 1]⟩ ![0]) (c : BitVec 32)
    (v23 v28 v30 : IVec ⟨1, ![n]⟩ 32) (v29 : IVec ⟨2, ![n, 1]⟩ 32)
    (h23 : v23 = (Host.sort2 ⟨1, ![n]⟩ 0 cmp x (iotaInDim ⟨1, ![n]⟩ 32 0)).2)
    (h28 : ∀ j, v28 j = Scalar.select (IntOp.cmpi .slt (v23 j) 0#32) (IntOp.addi (v23 j) c) (v23 j))
    (h29 : v29 = broadcastInDim ⟨2, ![n, 1]⟩ ![0] hb1 v28)
    (h30 : v30 = Host.gather d x v29) (i : Fin n) :
    v28 (Shape.Idx.ofFin i) = BitVec.ofNat 32 (perm x i).val ∧ v30 (Shape.Idx.ofFin i) = x (Shape.Idx.ofFin (perm x i)) := by
  have hlt : (perm x i).val < 2 ^ 31 := lt_trans (perm x i).isLt hn
  have e23 : v23 (Shape.Idx.ofFin i) = BitVec.ofNat 32 (perm x i).val := by
    rw [h23]; exact argsort_at cmp hcmp x i
  have e28 : v28 (Shape.Idx.ofFin i) = BitVec.ofNat 32 (perm x i).val := by
    rw [h28, e23]
    refine wrap_nonneg _ _ ?_
    rw [BitVec.toNat_ofNat]
    exact lt_of_le_of_lt (Nat.mod_le _ _) hlt
  refine ⟨e28, ?_⟩
  have hn0 : 0 < n := lt_of_le_of_lt (Nat.zero_le _) i.isLt
  rw [h30, gather_take d hcoll hob hsim hivd x v29 i hn0]
  refine congrArg x (congrArg Shape.Idx.ofFin (Fin.ext ?_))
  show min (v29 (ixP i)).toInt.toNat (n - 1) = (perm x i).val
  rw [h29, bcast_col1 hb1 v28 i, e28, toInt_ofNat_small _ hlt, Int.toNat_natCast]
  have := (perm x i).isLt
  omega

/-- Keys read through the sorting permutation are in order. -/
theorem perm_sorted (x : IVec ⟨1, ![n]⟩ 32) (hx : ∀ k, (x k).toNat < 2 ^ 31) (i j : Fin n) (h : i ≤ j) :
    (x (Shape.Idx.ofFin (perm x i))).toNat ≤ (x (Shape.Idx.ofFin (perm x j))).toNat := by
  rcases eq_or_lt_of_le h with rfl | hij
  · exact le_refl _
  have key : ∀ a b : Fin n, (IntOp.cmpi .slt (x (Shape.Idx.ofFin a)) (x (Shape.Idx.ofFin b)) == 1#1) = true
      ↔ (x (Shape.Idx.ofFin a)).toNat < (x (Shape.Idx.ofFin b)).toNat := fun a b => by
    rw [beq_iff_eq, slt_iff_toNat (hx _) (hx _)]
  have keyF : ∀ a b : Fin n, (IntOp.cmpi .slt (x (Shape.Idx.ofFin a)) (x (Shape.Idx.ofFin b)) == 1#1) = false
      ↔ ¬ (x (Shape.Idx.ofFin a)).toNat < (x (Shape.Idx.ofFin b)).toNat := fun a b => by
    rw [← key a b, Bool.not_eq_true]
  have hno := sortedFrom_noInversion
    (fun k k' => IntOp.cmpi .slt (x (Shape.Idx.ofFin k)) (x (Shape.Idx.ofFin k')) == 1#1)
    (fun k k' => IntOp.cmpi .slt (x (Shape.Idx.ofFin k)) (x (Shape.Idx.ofFin k')) == 1#1)
    (fun a b hab => (keyF b a).2 (Nat.lt_asymm ((key a b).1 hab)))
    (fun _ _ hab => hab)
    (fun a b c hab hbc => (keyF a c).2 (fun hac =>
      (keyF a b).1 hab (lt_of_lt_of_le hac (Nat.le_of_not_lt ((keyF b c).1 hbc)))))
    i j hij
  exact Nat.le_of_not_lt ((keyF _ _).1 hno)

end Sorting

/-! ## The sorted block ids, and the weights -/

section Final
variable {F : FTy → Type} [FloatOps F]
variable (a0 : FVec F S4194304x3 .f32) (a1 : FVec F S2x3 .f32) (a3 a4 : FVec F S64x3 .f32)

/-- The wrapped argsort at sorted position `i` is the word of the source position, and the sorted block id there is
    the block id at the source position. -/
theorem sorted_chain (i : Fin 4194304) :
    Glue.g_v28 a0 a1 a3 a4 (ix1 i) = BitVec.ofNat 32 (perm (Glue.g_v22 a0 a1 a3 a4) i).val
    ∧ Glue.g_v30 a0 a1 a3 a4 (ix1 i) = Glue.g_v22 a0 a1 a3 a4 (ix1 (perm (Glue.g_v22 a0 a1 a3 a4) i)) := by
  rw [← ofFin_eq_ix1, ← ofFin_eq_ix1]
  exact gathered_at (n := 4194304) (by decide) comparator_i32_i32_d0 (fun _ _ => rfl) (Glue.g_v22 a0 a1 a3 a4)
    gather_S4194304_S4194304x1_S4194304_n_0_n_n_0_1_1 rfl rfl rfl rfl bcast_S4194304_S4194304x1_0 4194304#32
    (Glue.g_v23 a0 a1 a3 a4) (Glue.g_v28 a0 a1 a3 a4) (Glue.g_v30 a0 a1 a3 a4) (Glue.g_v29 a0 a1 a3 a4)
    rfl (fun _ => rfl) rfl rfl i

/-- The carried position table itself, before the index normalisation. -/
theorem v23_at (i : Fin 4194304) :
    Glue.g_v23 a0 a1 a3 a4 (ix1 i) = BitVec.ofNat 32 (perm (Glue.g_v22 a0 a1 a3 a4) i).val := by
  rw [← ofFin_eq_ix1]
  exact argsort_at comparator_i32_i32_d0 (fun _ _ => rfl) (Glue.g_v22 a0 a1 a3 a4) i

/-- The second normalised copy of the position table (the one the points are gathered at) is the same word. -/
theorem v35_at (i : Fin 4194304) :
    Glue.g_v35 a0 a1 a3 a4 (ix1 i) = BitVec.ofNat 32 (perm (Glue.g_v22 a0 a1 a3 a4) i).val := by
  rw [← ofFin_eq_ix1]
  exact (gathered_at (n := 4194304) (by decide) comparator_i32_i32_d0 (fun _ _ => rfl) (Glue.g_v22 a0 a1 a3 a4)
    gather_S4194304_S4194304x1_S4194304_n_0_n_n_0_1_1 rfl rfl rfl rfl bcast_S4194304_S4194304x1_0 4194304#32
    (Glue.g_v23 a0 a1 a3 a4) (Glue.g_v35 a0 a1 a3 a4) _ (Glue.g_v36 a0 a1 a3 a4)
    rfl (fun _ => rfl) rfl rfl i).1

/-- Every sorted block id is below 64. -/
theorem bs_lt (i : Fin 4194304) : (Glue.g_v30 a0 a1 a3 a4 (ix1 i)).toNat < 64 := by
  rw [(sorted_chain a0 a1 a3 a4 i).2]
  exact v22_lt a0 a1 a3 a4 _

/-- The sorted block ids are in order. -/
theorem bs_sorted (i j : Fin 4194304) (h : i ≤ j) :
    (Glue.g_v30 a0 a1 a3 a4 (ix1 i)).toNat ≤ (Glue.g_v30 a0 a1 a3 a4 (ix1 j)).toNat := by
  rw [(sorted_chain a0 a1 a3 a4 i).2, (sorted_chain a0 a1 a3 a4 j).2, ← ofFin_eq_ix1, ← ofFin_eq_ix1]
  exact perm_sorted (Glue.g_v22 a0 a1 a3 a4) (fun k => lt_trans (v22_lt a0 a1 a3 a4 k) (by decide)) i j h

end Final

section Weights
variable (a0 : FVec Ideal S4194304x3 .f32) (a1 : FVec Ideal S2x3 .f32) (a3 a4 : FVec Ideal S64x3 .f32)

/-- Along z the base cell and the weight of a sorted point satisfy the side condition. -/
theorem wok_z (i : Fin 4194304) :
    WOk (Glue.g_v91 (F := Ideal) a0 a1 a3 a4 (ix1 i)) (Glue.g_v88 (F := Ideal) a0 a1 a3 a4 (ix1 i)) :=
  wok_floor (φ := .f32) (Glue.g_v82 (F := Ideal) a0 a1 a3 a4 (ix1 i))

/-- Along y. -/
theorem wok_y (i : Fin 4194304) :
    WOk (Glue.g_v90 (F := Ideal) a0 a1 a3 a4 (ix1 i)) (Glue.g_v87 (F := Ideal) a0 a1 a3 a4 (ix1 i)) :=
  wok_floor (φ := .f32) (Glue.g_v74 (F := Ideal) a0 a1 a3 a4 (ix1 i))

/-- Along x. -/
theorem wok_x (i : Fin 4194304) :
    WOk (Glue.g_v89 (F := Ideal) a0 a1 a3 a4 (ix1 i)) (Glue.g_v86 (F := Ideal) a0 a1 a3 a4 (ix1 i)) :=
  wok_floor (φ := .f32) (Glue.g_v66 (F := Ideal) a0 a1 a3 a4 (ix1 i))

end Weights

-- The permutation is used through the facts above, never through its enumeration.
attribute [irreducible] perm

end Cert.AlphaGrid.GlueFacts

end
-- ==== Proof.SlotsNat.lean ====
/-
  Counting for points sorted by block.

  \`b i\` is the block of the \`i\`-th point, \`n\` points in all. A block \`k\` holds \`cnt b k\` points; before it come
  \`off b k\` points. Each block's run of points is padded to a multiple of 256 (\`pc\`), and the padded runs are laid
  end to end (\`po\` is where a padded run starts). \`slot\` sends a point to its place in that layout, and \`tile\`
  reads off, for a window of 256 places, which block it lies in.

  When the points are sorted by block, \`slot\` is injective, stays below \`n + 64 * 256\`, and \`tile\` of the window
  of a point's slot gives back the point's block.
-/
import Mathlib.Algebra.BigOperators.Group.Finset.Basic
import Mathlib.Algebra.BigOperators.Ring.Finset
import Mathlib.Algebra.Order.BigOperators.Group.Finset
import Mathlib.Data.Fintype.Card

namespace Cert.AlphaGrid.Slots

variable {n : Nat} (b : Fin n → Nat)

/-- How many points lie in block \`k\`. -/
def cnt (k : Nat) : Nat := (Finset.univ.filter fun i : Fin n => b i = k).card

/-- How many points lie in blocks before \`k\`. -/
def off (k : Nat) : Nat := ∑ j ∈ Finset.range k, cnt b j

/-- The size of block \`k\` rounded up to a multiple of 256. -/
def pc (k : Nat) : Nat := (cnt b k + 255) / 256 * 256

/-- Where the padded run of block \`k\` starts. -/
def po (k : Nat) : Nat := ∑ j ∈ Finset.range k, pc b j

/-- The place of point \`i\`: the start of its block's padded run plus its rank inside the block. -/
def slot (i : Fin n) : Nat := po b (b i) + (i.val - off b (b i))

/-- The window \`t\` (places \`256 * t ..\`) starts inside the padded run of block \`k\`. -/
def Hit (t k : Nat) : Prop := po b k ≤ 256 * t ∧ 256 * t < po b k + pc b k

instance (t k : Nat) : Decidable (Hit b t k) := by unfold Hit; infer_instance

/-- The block whose padded run contains the start of window \`t\` (and \`0\` if there is none). -/
def tile (t : Nat) : Nat := ∑ k ∈ Finset.range 64, if Hit b t k then k else 0

/-! ### Sizes -/

theorem cnt_le (k : Nat) : cnt b k ≤ n := by
  unfold cnt
  exact (Finset.card_filter_le _ _).trans (by simp)

theorem off_succ (k : Nat) : off b (k + 1) = off b k + cnt b k := by
  unfold off
  exact Finset.sum_range_succ _ _

theorem po_succ (k : Nat) : po b (k + 1) = po b k + pc b k := by
  unfold po
  exact Finset.sum_range_succ _ _

theorem cnt_le_pc (k : Nat) : cnt b k ≤ pc b k := by
  unfold pc
  omega

theorem pc_le (k : Nat) : pc b k ≤ cnt b k + 255 := by
  unfold pc
  omega

theorem pc_dvd (k : Nat) : 256 ∣ pc b k := by
  unfold pc
  exact Nat.dvd_mul_left _ _

theorem po_dvd (k : Nat) : 256 ∣ po b k := by
  unfold po
  exact Finset.dvd_sum fun j _ => pc_dvd b j

theorem po_mono {j k : Nat} (h : j ≤ k) : po b j ≤ po b k := by
  unfold po
  exact Finset.sum_le_sum_of_subset (Finset.range_mono h)

/-- The points of blocks before \`k\` are counted by \`off\`. -/
theorem card_lt (k : Nat) : (Finset.univ.filter fun i : Fin n => b i < k).card = off b k := by
  induction k with
  | zero => simp [off]
  | succ k ih =>
    have hsplit : (Finset.univ.filter fun i : Fin n => b i < k + 1)
        = (Finset.univ.filter fun i : Fin n => b i < k) ∪ (Finset.univ.filter fun i : Fin n => b i = k) := by
      ext i
      simp only [Finset.mem_filter, Finset.mem_univ, true_and, Finset.mem_union]
      omega
    have hdisj : Disjoint (Finset.univ.filter fun i : Fin n => b i < k)
        (Finset.univ.filter fun i : Fin n => b i = k) := by
      refine Finset.disjoint_filter.2 ?_
      intro i _ h1 h2
      omega
    rw [hsplit, Finset.card_union_of_disjoint hdisj, ih, off_succ]
    rfl

/-- With every block below 64, the 64 blocks hold all the points. -/
theorem off_64 (hb : ∀ i, b i < 64) : off b 64 = n := by
  rw [← card_lt]
  have : (Finset.univ.filter fun i : Fin n => b i < 64) = Finset.univ := by
    ext i
    simp [hb i]
  rw [this]
  simp

theorem po_64_le (hb : ∀ i, b i < 64) : po b 64 ≤ n + 64 * 255 := by
  have h1 : po b 64 ≤ ∑ j ∈ Finset.range 64, (cnt b j + 255) := by
    unfold po
    exact Finset.sum_le_sum fun j _ => pc_le b j
  have h2 : ∑ j ∈ Finset.range 64, (cnt b j + 255) = off b 64 + 64 * 255 := by
    unfold off
    rw [Finset.sum_add_distrib]
    simp
  rw [h2, off_64 b hb] at h1
  exact h1

theorem po_add_pc_le (hb : ∀ i, b i < 64) (k : Nat) (hk : k < 64) :
    po b k + pc b k ≤ n + 64 * 255 := by
  rw [← po_succ]
  exact (po_mono b (by omega : k + 1 ≤ 64)).trans (po_64_le b hb)

/-! ### Windows -/

/-- The padded runs do not overlap, so a window starts inside at most one of them. -/
theorem hit_unique {t j k : Nat} (hj : Hit b t j) (hk : Hit b t k) : j = k := by
  unfold Hit at hj hk
  rcases Nat.lt_trichotomy j k with h | h | h
  · have := po_mono b (by omega : j + 1 ≤ k)
    rw [po_succ] at this
    omega
  · exact h
  · have := po_mono b (by omega : k + 1 ≤ j)
    rw [po_succ] at this
    omega

theorem tile_eq_of_hit {t k : Nat} (hk : k < 64) (h : Hit b t k) : tile b t = k := by
  unfold tile
  refine (Finset.sum_eq_single_of_mem k (Finset.mem_range.2 hk) ?_).trans (if_pos h)
  intro j _ hjk
  exact if_neg fun hj => hjk (hit_unique b hj h)

theorem tile_lt (t : Nat) : tile b t < 64 := by
  by_cases h : ∃ k, k < 64 ∧ Hit b t k
  · obtain ⟨k, hk, hh⟩ := h
    rw [tile_eq_of_hit b hk hh]
    exact hk
  · have : tile b t = 0 := by
      unfold tile
      refine Finset.sum_eq_zero ?_
      intro k hk
      exact if_neg fun hh => h ⟨k, Finset.mem_range.1 hk, hh⟩
    omega

/-! ### Sorted points -/

theorem off_le (_hb : ∀ i, b i < 64) (hm : ∀ i j : Fin n, i ≤ j → b i ≤ b j) (i : Fin n) :
    off b (b i) ≤ i.val := by
  rw [← card_lt]
  have h := Finset.card_le_card_of_injOn (s := Finset.univ.filter fun j : Fin n => b j < b i)
    (t := Finset.range i.val) (fun j => j.val) ?_ ?_
  · simpa using h
  · intro j hj
    have hj' : b j < b i := by simpa using hj
    have : j < i := by
      by_contra hc
      have := hm i j (not_lt.1 hc)
      omega
    simpa using this
  · intro j _ j' _ h
    exact Fin.ext h

theorem lt_off_succ (hm : ∀ i j : Fin n, i ≤ j → b i ≤ b j) (i : Fin n) :
    i.val < off b (b i + 1) := by
  rw [← card_lt]
  have himg : Finset.range (i.val + 1)
      ⊆ (Finset.univ.filter fun j : Fin n => b j < b i + 1).image fun j => j.val := by
    intro m hm'
    have hmi : m < i.val + 1 := Finset.mem_range.1 hm'
    have hmn : m < n := by omega
    refine Finset.mem_image.2 ⟨⟨m, hmn⟩, ?_, rfl⟩
    have : b ⟨m, hmn⟩ ≤ b i := hm ⟨m, hmn⟩ i (by
      show m ≤ i.val
      omega)
    simp only [Finset.mem_filter, Finset.mem_univ, true_and]
    omega
  have h1 := Finset.card_le_card himg
  have h2 := Finset.card_image_le (s := Finset.univ.filter fun j : Fin n => b j < b i + 1)
    (f := fun j => j.val)
  rw [Finset.card_range] at h1
  omega

theorem sub_lt (hb : ∀ i, b i < 64) (hm : ∀ i j : Fin n, i ≤ j → b i ≤ b j) (i : Fin n) :
    i.val - off b (b i) < cnt b (b i) := by
  have h1 := off_le b hb hm i
  have h2 := lt_off_succ b hm i
  rw [off_succ] at h2
  omega

theorem po_le_slot (i : Fin n) : po b (b i) ≤ slot b i := by
  unfold slot
  omega

theorem slot_lt_po_add_cnt (hb : ∀ i, b i < 64) (hm : ∀ i j : Fin n, i ≤ j → b i ≤ b j) (i : Fin n) :
    slot b i < po b (b i) + cnt b (b i) := by
  have := sub_lt b hb hm i
  unfold slot
  omega

theorem slot_lt_po_succ (hb : ∀ i, b i < 64) (hm : ∀ i j : Fin n, i ≤ j → b i ≤ b j) (i : Fin n) :
    slot b i < po b (b i + 1) := by
  have h1 := slot_lt_po_add_cnt b hb hm i
  have h2 := cnt_le_pc b (b i)
  rw [po_succ]
  omega

theorem slot_lt (hb : ∀ i, b i < 64) (hm : ∀ i j : Fin n, i ≤ j → b i ≤ b j) (i : Fin n) :
    slot b i < n + 64 * 256 := by
  have h1 := slot_lt_po_succ b hb hm i
  rw [po_succ] at h1
  have h2 := po_add_pc_le b hb (b i) (hb i)
  omega

theorem slot_inj (hb : ∀ i, b i < 64) (hm : ∀ i j : Fin n, i ≤ j → b i ≤ b j) :
    Function.Injective (slot b) := by
  intro i j h
  rcases Nat.lt_trichotomy (b i) (b j) with hlt | heq | hgt
  · have h1 := slot_lt_po_succ b hb hm i
    have h2 := po_mono b (by omega : b i + 1 ≤ b j)
    have h3 := po_le_slot b j
    omega
  · have h1 := off_le b hb hm i
    have h2 := off_le b hb hm j
    unfold slot at h
    rw [heq] at h h1
    exact Fin.ext (by omega)
  · have h1 := slot_lt_po_succ b hb hm j
    have h2 := po_mono b (by omega : b j + 1 ≤ b i)
    have h3 := po_le_slot b i
    omega

theorem hit_slot (hb : ∀ i, b i < 64) (hm : ∀ i j : Fin n, i ≤ j → b i ≤ b j) (i : Fin n) :
    Hit b (slot b i / 256) (b i) := by
  have h1 := po_le_slot b i
  have h2 := slot_lt_po_add_cnt b hb hm i
  have h3 := cnt_le_pc b (b i)
  obtain ⟨a, ha⟩ := po_dvd b (b i)
  obtain ⟨c, hc⟩ := pc_dvd b (b i)
  unfold Hit
  omega

theorem tile_slot (hb : ∀ i, b i < 64) (hm : ∀ i j : Fin n, i ≤ j → b i ≤ b j) (i : Fin n) :
    tile b (slot b i / 256) = b i :=
  tile_eq_of_hit b (hb i) (hit_slot b hb hm i)

end Cert.AlphaGrid.Slots
-- ==== Proof.LibScatter.lean ====
/-
  The host scatter of a flat array at a column of index words, read at one position.

  `Host.scatter` is a left fold over the update positions in row-major order: the update at position `j` lands at the
  operand position its index word names — read as a SIGNED integer, not clamped — and is combined there, by the body
  `f`, with what the array held; an update whose index word names no position of the operand is dropped.

  Here the operand is a flat array of `M` elements, the indices are `n` words (shape `[n, 1]`) and the updates are `n`
  elements, update `i` going to the position word `i` names (no window axes, the operand's one axis inserted, index
  vector on axis 1). Two readings of the result at a position `k`:

  * SET (`f _ b = b`): if exactly one word names `k`, the result there is that update's element; if none does, it is the
    operand's. In particular, when every word is in range and the words are pairwise distinct, the result at word `i`'s
    position is update `i`.
  * ADD of ones into zeros: the result at `k` is the number of words that name `k`, as a word; when `n < 2^31` that
    word reads, signed or unsigned, as the number itself.

  The proofs go through a fold over an ARBITRARY list of update positions (`step`, `foldl_not_hit`, `foldl_set`,
  `foldl_add_one`); of the row-major list they use only that every position occurs in it, and occurs once.
  The last section reads the statements at this program's two scatters.
-/
import Idealize.ShloMosaic.Lib.ValueIdx
import Idealize.ShloMosaic.PureOps.ShapeOps
import proofs.«104803_j90202903151142_1_alg».proof.KernelIdeal

namespace Cert.AlphaGrid.LibScatter

open Idealize.ShloMosaic Idealize.ShloMosaic.ValueIdx

/-! ## A scatter as a fold over a list of update positions -/

section Fold
variable {ι κ α : Type} [DecidableEq κ]

/-- One step of a scatter: the update at position `j` lands at `tgt j` (when that is a position of the
    result) and is combined there by `f` with what the result held; an update with no landing position is dropped. -/
def step (tgt : ι → Option κ) (f : α → α → α) (upd : ι → α) (r : κ → α) (j : ι) : κ → α :=
  match tgt j with
  | some i => fun i' => if i' = i then f (r i) (upd j) else r i'
  | none => r

/-- A step leaves every position but its landing position as it was. -/
theorem step_of_ne (tgt : ι → Option κ) (f : α → α → α) (upd : ι → α) (r : κ → α) (j : ι) (k : κ)
    (h : tgt j ≠ some k) : step tgt f upd r j k = r k := by
  unfold step
  cases hj : tgt j with
  | none => rfl
  | some i =>
    have : k ≠ i := fun e => h (by rw [hj, e])
    simp [this]

/-- At its landing position a step combines the old element with the update's. -/
theorem step_of_eq (tgt : ι → Option κ) (f : α → α → α) (upd : ι → α) (r : κ → α) (j : ι) (k : κ)
    (h : tgt j = some k) : step tgt f upd r j k = f (r k) (upd j) := by
  unfold step
  rw [h]
  simp

/-- A position on which no update of the list lands keeps the initial element, whatever the body. -/
theorem foldl_not_hit (tgt : ι → Option κ) (f : α → α → α) (upd : ι → α) (k : κ) (l : List ι) (x : κ → α)
    (h : ∀ j ∈ l, tgt j ≠ some k) : l.foldl (step tgt f upd) x k = x k := by
  induction l generalizing x with
  | nil => rfl
  | cons j l ih =>
    rw [List.foldl_cons, ih _ (fun j' hj' => h j' (List.mem_cons_of_mem _ hj'))]
    exact step_of_ne tgt f upd x j k (h j List.mem_cons_self)

/-- SET: once position `k` holds update `n`'s element, it keeps it through a list in which only `n` lands on `k`. -/
theorem foldl_set_keep (tgt : ι → Option κ) (upd : ι → α) (k : κ) (n : ι) (l : List ι) (x : κ → α)
    (h : ∀ j ∈ l, tgt j = some k → j = n) (hx : x k = upd n) :
    l.foldl (step tgt (fun _ b => b) upd) x k = upd n := by
  induction l generalizing x with
  | nil => exact hx
  | cons j l ih =>
    rw [List.foldl_cons]
    refine ih _ (fun j' hj' => h j' (List.mem_cons_of_mem _ hj')) ?_
    by_cases hj : tgt j = some k
    · rw [step_of_eq _ _ _ _ _ _ hj, h j List.mem_cons_self hj]
    · rw [step_of_ne _ _ _ _ _ _ hj, hx]

/-- SET: if update `n` is in the list and lands on `k`, and no other update of the list does, the result at `k` is
    update `n`'s element. -/
theorem foldl_set (tgt : ι → Option κ) (upd : ι → α) (k : κ) (n : ι) (l : List ι) (x : κ → α)
    (hn : n ∈ l) (hk : tgt n = some k) (h : ∀ j ∈ l, tgt j = some k → j = n) :
    l.foldl (step tgt (fun _ b => b) upd) x k = upd n := by
  induction l generalizing x with
  | nil => exact absurd hn List.not_mem_nil
  | cons j l ih =>
    rw [List.foldl_cons]
    have hl : ∀ j' ∈ l, tgt j' = some k → j' = n := fun j' hj' => h j' (List.mem_cons_of_mem _ hj')
    rcases List.mem_cons.1 hn with e | hn'
    · subst e
      exact foldl_set_keep tgt upd k n l _ hl (step_of_eq _ _ _ _ _ _ hk)
    · exact ih _ hn' hl

/-- ADD of ones: the result at `k` is the initial element plus the number of updates of the list that land on `k`,
    as a word. -/
theorem foldl_add_one {w : Nat} (tgt : ι → Option κ) (k : κ) (l : List ι) (x : κ → BitVec w) :
    l.foldl (step tgt IntOp.addi (fun _ => 1#w)) x k = x k + BitVec.ofNat w (l.countP (fun j => tgt j = some k)) := by
  induction l generalizing x with
  | nil => simp
  | cons j l ih =>
    rw [List.foldl_cons, ih]
    by_cases hj : tgt j = some k
    · rw [step_of_eq _ _ _ _ _ _ hj, List.countP_cons_of_pos (by simpa using hj)]
      unfold IntOp.addi
      rw [BitVec.add_assoc]
      congr 1
      rw [Nat.add_comm, BitVec.ofNat_add]
    · rw [step_of_ne _ _ _ _ _ _ hj, List.countP_cons_of_neg (by simpa using hj)]

end Fold

/-! ## The row-major list of positions -/

section RowMajor
variable (u : Shape)

/-- The positions of a shape in row-major order. -/
def positions : List u.Idx := (List.finRange u.numel).map u.rowMajor.symm

/-- Every position is in the list … -/
theorem mem_positions (j : u.Idx) : j ∈ positions u :=
  List.mem_map.2 ⟨u.rowMajor j, List.mem_finRange _, u.rowMajor.symm_apply_apply j⟩

/-- … once … -/
theorem nodup_positions : (positions u).Nodup :=
  (List.nodup_finRange _).map u.rowMajor.symm.injective

/-- … so counting in the list is counting positions. -/
theorem countP_positions (p : u.Idx → Bool) :
    (positions u).countP p = (Finset.univ.filter (fun j => p j = true)).card := by
  rw [List.countP_eq_length_filter, ← List.toFinset_card_of_nodup ((nodup_positions u).filter _)]
  congr 1
  ext j
  simp [List.mem_filter, mem_positions]

end RowMajor

/-- `Host.scatter` is the fold of `step` over the updates' positions in row-major order, update `j` landing at
    `d.resultIdx? j idx`. -/
theorem scatter_eq_foldl {α : Type} {s si u : Shape} {w : Nat} (d : ScatterDims s si u) (f : α → α → α) (x : s.Idx → α)
    (idx : IVec si w) (upd : u.Idx → α) :
    Host.scatter d f x idx upd = (positions u).foldl (step (fun j => d.resultIdx? j idx) f upd) x := by
  unfold Host.scatter positions
  rw [List.foldl_map]
  congr 1
  funext r n
  unfold step
  beta_reduce
  generalize d.resultIdx? (u.rowMajor.symm n) idx = o
  cases o <;> rfl

/-! ## Where an update lands: a flat operand, one index word per update -/

section Dims
variable {M n w : Nat}

/-- With no window axes, the operand's one axis inserted and named by the index vector's one component (on axis 1 of
    the indices), update `i` lands on operand position `k` exactly when index word `i`, read signed, is `k`. A word
    that reads negative or `≥ M` lands nowhere. -/
theorem resultIdx?_eq_some_iff (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (i : Fin n) (k : Fin M) :
    d.resultIdx? (ix1 i) idx = some (ix1 k) ↔ (idx (ix2 i 0)).toInt = (k.val : Int) := by
  obtain ⟨uw, iw, sd, iv, wf⟩ := d
  simp only at huw hiw hsd hiv
  subst huw hiw hsd hiv
  generalize hD : (⟨[], [0], [0], 1, wf⟩ : ScatterDims ⟨1, ![M]⟩ ⟨2, ![n, 1]⟩ ⟨1, ![n]⟩) = D
  have hstart : D.start (ix1 i) idx 0 = (idx (ix2 i 0)).toInt := by
    subst hD
    unfold ScatterDims.start
    rw [dif_pos (List.mem_singleton.mpr rfl)]
    congr 1
    congr 1
    funext b; refine Fin.ext ?_
    match b with
    | ⟨0, _⟩ => rfl
    | ⟨1, _⟩ => rfl
  have hwin : D.window (ix1 i) 0 = 0 := by
    subst hD
    unfold ScatterDims.window
    rw [dif_neg]
    simp [ScatterDims.sKept, Shape.kept]
  have hall : ∀ a : Fin 1, D.start (ix1 i) idx a + (D.window (ix1 i) a : Int) = (idx (ix2 i 0)).toInt := by
    intro a
    obtain rfl : a = 0 := Subsingleton.elim _ _
    rw [hstart, hwin]; simp
  unfold ScatterDims.resultIdx?
  constructor
  · intro h
    split at h
    · rename_i hc
      have h0 := congrArg Fin.val (congrFun (Option.some.inj h) 0)
      have hc0 := (hc 0).1
      have e0 := hall 0
      simp only at h0
      change (D.start (ix1 i) idx 0 + (D.window (ix1 i) 0 : Int)).toNat = k.val at h0
      omega
    · exact absurd h (by simp)
  · intro h
    have e0 := hall 0
    have hk := k.isLt
    split
    · congr 1
      funext a
      obtain rfl : a = 0 := Subsingleton.elim _ _
      refine Fin.ext ?_
      change (D.start (ix1 i) idx 0 + (D.window (ix1 i) 0 : Int)).toNat = k.val
      omega
    · rename_i hc
      refine absurd (fun a => ?_) hc
      obtain rfl : a = 0 := Subsingleton.elim _ _
      refine ⟨by omega, ?_⟩
      show _ < (M : Int)
      omega

end Dims

/-! ## Words read signed and unsigned -/

/-- A word that reads as a nonnegative signed integer reads as the same natural number unsigned. -/
theorem toInt_eq_toNat_of_nonneg {w : Nat} (v : BitVec w) (h : 0 ≤ v.toInt) : v.toInt = (v.toNat : Int) := by
  have hlt := v.isLt
  rw [BitVec.toInt_eq_toNat_cond] at h ⊢
  split_ifs at h ⊢ with hc
  · rfl
  · exfalso; omega

/-- A word whose signed reading is in `[0, M)` has its unsigned reading below `M`. -/
theorem toNat_lt_of_toInt {w M : Nat} (v : BitVec w) (h0 : 0 ≤ v.toInt) (h1 : v.toInt < M) : v.toNat < M := by
  have := toInt_eq_toNat_of_nonneg v h0
  omega

/-! ## The scatter read at a position -/

section Main
variable {M n w : Nat} {α : Type}

/-- SET at a position named once: if index word `i` reads `k` and no other index word does, the result at `k` is
    update `i`'s element. (Nothing is asked of the other words: they may repeat, or be out of range.) -/
theorem scatter_set_at (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (x : (⟨1, ![M]⟩ : Shape).Idx → α) (idx : IVec ⟨2, ![n, 1]⟩ w)
    (upd : (⟨1, ![n]⟩ : Shape).Idx → α) (i : Fin n) (k : Fin M)
    (hk : (idx (ix2 i 0)).toInt = (k.val : Int))
    (huniq : ∀ i' : Fin n, (idx (ix2 i' 0)).toInt = (k.val : Int) → i' = i) :
    Host.scatter d (fun _ b => b) x idx upd (ix1 k) = upd (ix1 i) := by
  rw [scatter_eq_foldl]
  refine foldl_set _ upd (ix1 k) (ix1 i) _ x (mem_positions _ _)
    ((resultIdx?_eq_some_iff d huw hiw hsd hiv idx i k).2 hk) ?_
  intro j _ hj
  rw [eq_ix1 j] at hj ⊢
  exact congrArg ix1 (huniq (j 0) ((resultIdx?_eq_some_iff d huw hiw hsd hiv idx (j 0) k).1 hj))

/-- Whatever the body: a position that no index word reads as keeps the operand's element. -/
theorem scatter_not_hit (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (f : α → α → α) (x : (⟨1, ![M]⟩ : Shape).Idx → α) (idx : IVec ⟨2, ![n, 1]⟩ w)
    (upd : (⟨1, ![n]⟩ : Shape).Idx → α) (k : Fin M)
    (hk : ∀ i : Fin n, (idx (ix2 i 0)).toInt ≠ (k.val : Int)) :
    Host.scatter d f x idx upd (ix1 k) = x (ix1 k) := by
  rw [scatter_eq_foldl]
  refine foldl_not_hit _ f upd (ix1 k) _ x ?_
  intro j _ hj
  rw [eq_ix1 j] at hj
  exact hk (j 0) ((resultIdx?_eq_some_iff d huw hiw hsd hiv idx (j 0) k).1 hj)

/-- SET at distinct in-range indices: when every index word reads in `[0, M)` and the words are pairwise distinct,
    the result at word `i`'s position is update `i`'s element. -/
theorem scatter_set_injective (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (x : (⟨1, ![M]⟩ : Shape).Idx → α) (idx : IVec ⟨2, ![n, 1]⟩ w)
    (upd : (⟨1, ![n]⟩ : Shape).Idx → α)
    (hr : ∀ i : Fin n, 0 ≤ (idx (ix2 i 0)).toInt ∧ (idx (ix2 i 0)).toInt < M)
    (hinj : Function.Injective fun i : Fin n => (idx (ix2 i 0)).toNat) (i : Fin n) :
    Host.scatter d (fun _ b => b) x idx upd (ix1 ⟨(idx (ix2 i 0)).toNat, toNat_lt_of_toInt _ (hr i).1 (hr i).2⟩)
      = upd (ix1 i) := by
  refine scatter_set_at d huw hiw hsd hiv x idx upd i _ (toInt_eq_toNat_of_nonneg _ (hr i).1) ?_
  intro i' hi'
  refine hinj ?_
  have := toInt_eq_toNat_of_nonneg _ (hr i').1
  simp only at hi' ⊢
  omega

/-- The same with the words read unsigned: a position that is no index word's unsigned reading keeps the operand's
    element (a word that reads `k` signed reads `k` unsigned). -/
theorem scatter_not_hit_toNat (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (f : α → α → α) (x : (⟨1, ![M]⟩ : Shape).Idx → α) (idx : IVec ⟨2, ![n, 1]⟩ w)
    (upd : (⟨1, ![n]⟩ : Shape).Idx → α) (k : Fin M)
    (hk : ∀ i : Fin n, (idx (ix2 i 0)).toNat ≠ k.val) :
    Host.scatter d f x idx upd (ix1 k) = x (ix1 k) := by
  refine scatter_not_hit d huw hiw hsd hiv f x idx upd k ?_
  intro i hi
  have := toInt_eq_toNat_of_nonneg (idx (ix2 i 0)) (by rw [hi]; exact Int.natCast_nonneg _)
  exact hk i (by omega)

/-- A flat array's positions are its one coordinate's values. -/
def idxEquiv1 (n : Nat) : (⟨1, ![n]⟩ : Shape).Idx ≃ Fin n where
  toFun j := j 0
  invFun := ix1
  left_inv j := (eq_ix1 j).symm
  right_inv _ := rfl

/-- ADD of ones into zeros: the result at `k` is the number of index words that read `k` (signed), as a word. A word
    that reads outside `[0, M)` is counted for no `k`. -/
theorem scatter_add_ones {v : Nat} (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (k : Fin M) :
    Host.scatter d IntOp.addi (fun _ => 0#v) idx (fun _ => 1#v) (ix1 k)
      = BitVec.ofNat v (Finset.univ.filter fun i : Fin n => (idx (ix2 i 0)).toInt = (k.val : Int)).card := by
  rw [scatter_eq_foldl, foldl_add_one, countP_positions]
  simp only [BitVec.zero_add, decide_eq_true_eq]
  congr 1
  refine Finset.card_equiv (idxEquiv1 n) ?_
  intro j
  simp only [Finset.mem_filter, Finset.mem_univ, true_and]
  conv_lhs => rw [eq_ix1 j]
  exact resultIdx?_eq_some_iff d huw hiw hsd hiv idx (j 0) k

/-- The same for an operand and updates given as functions that are zero and one everywhere. -/
theorem scatter_add_ones_of {v : Nat} (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (x : (⟨1, ![M]⟩ : Shape).Idx → BitVec v) (idx : IVec ⟨2, ![n, 1]⟩ w)
    (upd : (⟨1, ![n]⟩ : Shape).Idx → BitVec v) (hx : ∀ p, x p = 0#v) (hu : ∀ j, upd j = 1#v) (k : Fin M) :
    Host.scatter d IntOp.addi x idx upd (ix1 k)
      = BitVec.ofNat v (Finset.univ.filter fun i : Fin n => (idx (ix2 i 0)).toInt = (k.val : Int)).card := by
  obtain rfl : x = fun _ => 0#v := funext hx
  obtain rfl : upd = fun _ => 1#v := funext hu
  exact scatter_add_ones d huw hiw hsd hiv idx k

/-- There are at most `n` index words. -/
theorem card_le (idx : IVec ⟨2, ![n, 1]⟩ w) (c : Int) :
    (Finset.univ.filter fun i : Fin n => (idx (ix2 i 0)).toInt = c).card ≤ n := by
  refine (Finset.card_filter_le _ _).trans ?_
  simp

/-- With fewer than `2^31` updates the 32-bit count reads unsigned as the number of index words that read `k` … -/
theorem scatter_add_ones_toNat (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (k : Fin M) (hn : n < 2 ^ 31) :
    (Host.scatter d IntOp.addi (fun _ => 0#32) idx (fun _ => 1#32) (ix1 k)).toNat
      = (Finset.univ.filter fun i : Fin n => (idx (ix2 i 0)).toInt = (k.val : Int)).card := by
  rw [scatter_add_ones d huw hiw hsd hiv idx k, BitVec.toNat_ofNat]
  have := card_le idx (k.val : Int)
  exact Nat.mod_eq_of_lt (by omega)

/-- … and signed as the same number, so it is not negative. -/
theorem scatter_add_ones_toInt (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (k : Fin M) (hn : n < 2 ^ 31) :
    (Host.scatter d IntOp.addi (fun _ => 0#32) idx (fun _ => 1#32) (ix1 k)).toInt
      = ((Finset.univ.filter fun i : Fin n => (idx (ix2 i 0)).toInt = (k.val : Int)).card : Int) := by
  have h := scatter_add_ones_toNat d huw hiw hsd hiv idx k hn
  have := card_le idx (k.val : Int)
  rw [BitVec.toInt_eq_toNat_of_lt (by omega), h]

/-- The count is not negative read signed. -/
theorem scatter_add_ones_toInt_nonneg (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (k : Fin M) (hn : n < 2 ^ 31) :
    0 ≤ (Host.scatter d IntOp.addi (fun _ => 0#32) idx (fun _ => 1#32) (ix1 k)).toInt := by
  rw [scatter_add_ones_toInt d huw hiw hsd hiv idx k hn]
  exact Int.natCast_nonneg _

end Main

/-! ## This program's two scatters

`4194304` index words; the counts go into `64` positions, the sets into `4210688`. -/

section Program
open Cert.KernelIdeal
variable [Facts₀] {w : Nat} {α : Type}

/-- The count of the index words that read `k`, `k < 64`. -/
theorem counts_apply (idx : IVec S4194304x1 w) (k : Fin 64) :
    Host.scatter scatter_S64_S4194304x1_S4194304_n_0_0_1 IntOp.addi (fun _ => 0#32) idx (fun _ => 1#32) (ix1 k)
      = BitVec.ofNat 32 (Finset.univ.filter fun i : Fin 4194304 => (idx (ix2 i 0)).toInt = (k.val : Int)).card :=
  scatter_add_ones _ rfl rfl rfl rfl idx k

/-- The same for an operand and updates that are zero and one everywhere. -/
theorem counts_apply_of (x : S64.Idx → BitVec 32) (idx : IVec S4194304x1 w) (upd : S4194304.Idx → BitVec 32)
    (hx : ∀ p, x p = 0#32) (hu : ∀ j, upd j = 1#32) (k : Fin 64) :
    Host.scatter scatter_S64_S4194304x1_S4194304_n_0_0_1 IntOp.addi x idx upd (ix1 k)
      = BitVec.ofNat 32 (Finset.univ.filter fun i : Fin 4194304 => (idx (ix2 i 0)).toInt = (k.val : Int)).card :=
  scatter_add_ones_of _ rfl rfl rfl rfl x idx upd hx hu k

/-- It reads unsigned as that number … -/
theorem counts_toNat (idx : IVec S4194304x1 w) (k : Fin 64) :
    (Host.scatter scatter_S64_S4194304x1_S4194304_n_0_0_1 IntOp.addi (fun _ => 0#32) idx (fun _ => 1#32) (ix1 k)).toNat
      = (Finset.univ.filter fun i : Fin 4194304 => (idx (ix2 i 0)).toInt = (k.val : Int)).card :=
  scatter_add_ones_toNat _ rfl rfl rfl rfl idx k (by norm_num)

/-- … and signed. -/
theorem counts_toInt (idx : IVec S4194304x1 w) (k : Fin 64) :
    (Host.scatter scatter_S64_S4194304x1_S4194304_n_0_0_1 IntOp.addi (fun _ => 0#32) idx (fun _ => 1#32) (ix1 k)).toInt
      = ((Finset.univ.filter fun i : Fin 4194304 => (idx (ix2 i 0)).toInt = (k.val : Int)).card : Int) :=
  scatter_add_ones_toInt _ rfl rfl rfl rfl idx k (by norm_num)

/-- SET into the `4210688` slots at a slot named once. -/
theorem slots_set_at (x : S4210688.Idx → α) (idx : IVec S4194304x1 w) (upd : S4194304.Idx → α) (i : Fin 4194304)
    (k : Fin 4210688) (hk : (idx (ix2 i 0)).toInt = (k.val : Int))
    (huniq : ∀ i' : Fin 4194304, (idx (ix2 i' 0)).toInt = (k.val : Int) → i' = i) :
    Host.scatter scatter_S4210688_S4194304x1_S4194304_n_0_0_1 (fun _ b => b) x idx upd (ix1 k) = upd (ix1 i) :=
  scatter_set_at _ rfl rfl rfl rfl x idx upd i k hk huniq

/-- SET into the `4210688` slots at distinct in-range slot words. -/
theorem slots_set_injective (x : S4210688.Idx → α) (idx : IVec S4194304x1 w) (upd : S4194304.Idx → α)
    (hr : ∀ i : Fin 4194304, 0 ≤ (idx (ix2 i 0)).toInt ∧ (idx (ix2 i 0)).toInt < (4210688 : Nat))
    (hinj : Function.Injective fun i : Fin 4194304 => (idx (ix2 i 0)).toNat) (i : Fin 4194304) :
    Host.scatter scatter_S4210688_S4194304x1_S4194304_n_0_0_1 (fun _ b => b) x idx upd
        (ix1 ⟨(idx (ix2 i 0)).toNat, toNat_lt_of_toInt _ (hr i).1 (hr i).2⟩)
      = upd (ix1 i) :=
  scatter_set_injective _ rfl rfl rfl rfl x idx upd hr hinj i

/-- A slot no slot word reads as keeps the operand's element. -/
theorem slots_not_hit (f : α → α → α) (x : S4210688.Idx → α) (idx : IVec S4194304x1 w) (upd : S4194304.Idx → α)
    (k : Fin 4210688) (hk : ∀ i : Fin 4194304, (idx (ix2 i 0)).toInt ≠ (k.val : Int)) :
    Host.scatter scatter_S4210688_S4194304x1_S4194304_n_0_0_1 f x idx upd (ix1 k) = x (ix1 k) :=
  scatter_not_hit _ rfl rfl rfl rfl f x idx upd k hk

/-- The same with the slot words read unsigned. -/
theorem slots_not_hit_toNat (f : α → α → α) (x : S4210688.Idx → α) (idx : IVec S4194304x1 w) (upd : S4194304.Idx → α)
    (k : Fin 4210688) (hk : ∀ i : Fin 4194304, (idx (ix2 i 0)).toNat ≠ k.val) :
    Host.scatter scatter_S4210688_S4194304x1_S4194304_n_0_0_1 f x idx upd (ix1 k) = x (ix1 k) :=
  scatter_not_hit_toNat _ rfl rfl rfl rfl f x idx upd k hk

end Program

end Cert.AlphaGrid.LibScatter
-- ==== Proof.LibIntOps.lean ====
/-
  General facts about 32-bit integer host operations read at an index: word arithmetic that stays
  inside the signed range, signed comparisons, floor division spelled with a sign test and a
  remainder test, sums of words (a reduction over one axis of a rectangle, a cumulative sum written
  as a windowed reduction, and its exclusive shift by one place).  Nothing here names a program.
-/
import Idealize.ShloMosaic.Lib.StableHlo.Predicate
import Idealize.ShloMosaic.Lib.ValueIdx
import Idealize.ShloMosaic.Lib.WordSum
import Idealize.ShloMosaic.Lib.Pipeline.Value

namespace Cert.AlphaGrid.LibIntOps

open Idealize.ShloMosaic Idealize.ShloMosaic.ValueIdx Idealize.ShloMosaic.StableHlo.Predicate
open scoped BigOperators

/-! ## Words: arithmetic that stays inside the non-negative signed range -/

/-- A sum of two words whose values add up below 2³¹ does not wrap. -/
theorem toNat_add_of_lt {a b : BitVec 32} (h : a.toNat + b.toNat < 2 ^ 31) :
    (a + b).toNat = a.toNat + b.toNat := by
  rw [BitVec.toNat_add]; exact Nat.mod_eq_of_lt (by omega)

/-- The same for the integer operation's spelling. -/
theorem toNat_addi_of_lt {a b : BitVec 32} (h : a.toNat + b.toNat < 2 ^ 31) :
    (IntOp.addi a b).toNat = a.toNat + b.toNat := toNat_add_of_lt h

/-- A difference of words with the subtrahend not above the minuend is the difference of the values. -/
theorem toNat_subi_of_le {a b : BitVec 32} (h : b.toNat ≤ a.toNat) :
    (IntOp.subi a b).toNat = a.toNat - b.toNat := by
  have ha := a.isLt
  have hb := b.isLt
  show (a - b).toNat = _
  rw [BitVec.toNat_sub]
  omega

/-- A product of two words whose values multiply below 2³² does not wrap. -/
theorem toNat_mul_of_lt {a b : BitVec 32} (h : a.toNat * b.toNat < 2 ^ 32) :
    (a * b).toNat = a.toNat * b.toNat := by
  rw [BitVec.toNat_mul]; exact Nat.mod_eq_of_lt h

/-- A word times 256 that stays below 2³¹ is the value times 256. -/
theorem toNat_muli_256 {a : BitVec 32} (h : a.toNat * 256 < 2 ^ 31) :
    (IntOp.muli a 256#32).toNat = a.toNat * 256 := by
  show (a * 256#32).toNat = _
  rw [toNat_mul_of_lt (by simp only [BitVec.toNat_ofNat]; omega)]
  rfl

/-- A word is non-negative as a signed integer exactly when its value is below 2³¹. -/
theorem toInt_nonneg_iff {a : BitVec 32} : 0 ≤ a.toInt ↔ a.toNat < 2 ^ 31 := by
  have := a.isLt
  rw [BitVec.toInt_eq_toNat_cond]
  split <;> omega

/-- A non-negative word reads the same signed and unsigned. -/
theorem toInt_eq_toNat_of_nonneg {a : BitVec 32} (h : 0 ≤ a.toInt) : a.toInt = a.toNat :=
  toInt_eq_toNat_of_lt (toInt_nonneg_iff.1 h)

/-- A word below 2³¹ has a clear sign bit. -/
theorem msb_eq_false_of_lt {a : BitVec 32} (h : a.toNat < 2 ^ 31) : a.msb = false :=
  BitVec.msb_eq_false_iff_two_mul_lt.mpr (by omega)

/-- The word of a natural number below 2³² has that number as its value. -/
theorem toNat_ofNat_lt {n : Nat} (h : n < 2 ^ 32) : (BitVec.ofNat 32 n).toNat = n := by
  rw [BitVec.toNat_ofNat]; exact Nat.mod_eq_of_lt h

/-! ## Signed comparisons, at any width: the bit is 1 exactly when the signed integers compare -/

section Compare
variable {w : Nat} {a b : BitVec w}

theorem cmpi_slt_iff : IntOp.cmpi .slt a b = 1#1 ↔ a.toInt < b.toInt := by
  simp only [IntOp.cmpi, ofBool_eq_one_iff, BitVec.slt, decide_eq_true_eq]

theorem cmpi_sle_iff : IntOp.cmpi .sle a b = 1#1 ↔ a.toInt ≤ b.toInt := by
  simp only [IntOp.cmpi, ofBool_eq_one_iff, BitVec.sle, decide_eq_true_eq]

theorem cmpi_sgt_iff : IntOp.cmpi .sgt a b = 1#1 ↔ b.toInt < a.toInt := by
  simp only [IntOp.cmpi, ofBool_eq_one_iff, BitVec.slt, decide_eq_true_eq]

theorem cmpi_sge_iff : IntOp.cmpi .sge a b = 1#1 ↔ b.toInt ≤ a.toInt := by
  simp only [IntOp.cmpi, ofBool_eq_one_iff, BitVec.sle, decide_eq_true_eq]

theorem cmpi_ne_iff : IntOp.cmpi .ne a b = 1#1 ↔ a ≠ b := by
  simp only [IntOp.cmpi, ofBool_eq_one_iff, bne_iff_ne]

/-- A one-bit word is 0 exactly when it is not 1. -/
theorem bit_eq_zero_iff {c : BitVec 1} : c = 0#1 ↔ ¬ c = 1#1 := by
  rcases BitVec.eq_zero_or_eq_one c with rfl | rfl <;> decide

theorem cmpi_slt_eq_zero_iff : IntOp.cmpi .slt a b = 0#1 ↔ b.toInt ≤ a.toInt := by
  rw [bit_eq_zero_iff, cmpi_slt_iff]; omega

theorem cmpi_sge_eq_zero_iff : IntOp.cmpi .sge a b = 0#1 ↔ a.toInt < b.toInt := by
  rw [bit_eq_zero_iff, cmpi_sge_iff]; omega

end Compare

/-- The wrap of a negative index (an index below zero counts from the end, N added) leaves
    a non-negative index alone. -/
theorem wrap_index_of_nonneg (a N : BitVec 32) (h : 0 ≤ a.toInt) :
    Scalar.select (IntOp.cmpi .slt a 0#32) (IntOp.addi a N) a = a := by
  have hc : IntOp.cmpi .slt a 0#32 = 0#1 := by
    rw [cmpi_slt_eq_zero_iff]; exact h
  rw [hc, select_zero]

/-! ## Floor division of integers, spelled over the truncating quotient

The floor division of `a` by `d` rounds the truncating quotient down where the signs differ and the
remainder is not zero: `q − 1` if `sign a ≠ sign d ∧ a rem d ≠ 0`, else `q`, with `q` the
quotient rounded toward zero. -/

/-- The sign of a word as a signed integer: `-1`, `0` or `1`. -/
def signWord {w : Nat} (a : BitVec w) : BitVec w := if a = 0 then 0 else if a.msb then -1 else 1

/-- The elementwise sign at an index is the sign of the element. -/
theorem signi_apply {s : Shape} {w : Nat} (x : IVec s w) (i : s.Idx) : signi x i = signWord (x i) := rfl

/-- The floor division of one word by another, on the host's division and remainder. -/
def floorDivWord (a d : BitVec 32) : BitVec 32 :=
  Scalar.select
    (IntOp.andi (IntOp.cmpi .ne (signWord a) (signWord d)) (IntOp.cmpi .ne (IntOp.remsi .host a d) 0#32))
    (IntOp.subi (IntOp.divsi .host a d) 1#32) (IntOp.divsi .host a d)

/-- Truncating division of a non-negative word by 256 is the division of the values. -/
theorem divsi_256 (u : ArithUnit) {a : BitVec 32} (ha : a.toNat < 2 ^ 31) :
    IntOp.divsi u a 256#32 = BitVec.ofNat 32 (a.toNat / 256) := by
  have hcorner : ¬ IntOp.SDivCorner a 256#32 := by
    intro hc; rcases hc with hc | ⟨_, hc⟩ <;> exact absurd hc (by decide)
  have hm : a.msb = false := msb_eq_false_of_lt ha
  apply BitVec.eq_of_toNat_eq
  simp only [IntOp.divsi, if_neg hcorner, BitVec.sdiv_eq, hm, show (256#32 : BitVec 32).msb = false from by decide,
    BitVec.udiv_eq, BitVec.toNat_udiv, BitVec.toNat_ofNat, Nat.reducePow, Nat.reduceMod]
  omega

/-- The remainder of a non-negative word by 256 is the remainder of the values. -/
theorem remsi_256 (u : ArithUnit) {a : BitVec 32} (ha : a.toNat < 2 ^ 31) :
    IntOp.remsi u a 256#32 = BitVec.ofNat 32 (a.toNat % 256) := by
  have hcorner : ¬ IntOp.SDivCorner a 256#32 := by
    intro hc; rcases hc with hc | ⟨_, hc⟩ <;> exact absurd hc (by decide)
  have hm : a.msb = false := msb_eq_false_of_lt ha
  apply BitVec.eq_of_toNat_eq
  simp only [IntOp.remsi, if_neg hcorner, BitVec.srem_eq, hm, show (256#32 : BitVec 32).msb = false from by decide,
    BitVec.umod_eq, BitVec.toNat_umod, BitVec.toNat_ofNat, Nat.reducePow, Nat.reduceMod]
  omega

/-- FLOOR DIVISION BY 256 of a non-negative word is the division of the values: the signs
    agree unless the word is zero, and then the remainder is zero, so nothing is taken off. -/
theorem floorDivWord_256 {a : BitVec 32} (ha : a.toNat < 2 ^ 31) :
    floorDivWord a 256#32 = BitVec.ofNat 32 (a.toNat / 256) := by
  unfold floorDivWord
  have hc : IntOp.andi (IntOp.cmpi .ne (signWord a) (signWord (256#32 : BitVec 32)))
      (IntOp.cmpi .ne (IntOp.remsi .host a 256#32) 0#32) = 0#1 := by
    by_cases h0 : a = 0
    · subst h0
      rw [remsi_256 .host (by decide)]
      decide
    · have hs : signWord a = 1 := by
        unfold signWord
        rw [if_neg h0, msb_eq_false_of_lt ha]
        rfl
      rw [hs, show signWord (256#32 : BitVec 32) = 1 from by decide,
        show IntOp.cmpi .ne (1 : BitVec 32) 1 = 0#1 from by decide]
      exact BitVec.zero_and
  rw [hc, select_zero, divsi_256 .host ha]

/-- The same with the hypothesis on the signed reading. -/
theorem floorDivWord_256_of_nonneg {a : BitVec 32} (ha : 0 ≤ a.toInt) :
    floorDivWord a 256#32 = BitVec.ofNat 32 (a.toNat / 256) :=
  floorDivWord_256 (toInt_nonneg_iff.1 ha)

/-- Its value. -/
theorem toNat_floorDivWord_256 {a : BitVec 32} (ha : a.toNat < 2 ^ 31) :
    (floorDivWord a 256#32).toNat = a.toNat / 256 := by
  rw [floorDivWord_256 ha, toNat_ofNat_lt (by omega)]

/-! ## Sums of words -/

/-- A left fold of word addition from zero over the positions below `N` is the sum of the words. -/
theorem foldl_addi_eq_sum {N : Nat} (g : Fin N → BitVec 32) :
    (List.finRange N).foldl (fun r k => IntOp.addi r (g k)) 0#32 = ∑ k, g k := by
  rw [Fin.sum_univ_def, List.sum_eq_foldl, List.foldl_map]
  rfl

/-- A set fold of word addition from zero is the sum of the words. -/
theorem fold_addi_eq_sum {ι : Type} (S : Finset ι) (f : ι → BitVec 32) :
    S.fold IntOp.addi 0#32 f = ∑ i ∈ S, f i := by
  induction S using Finset.cons_induction with
  | empty => rfl
  | cons a S ha ih => rw [Finset.fold_cons, Finset.sum_cons, ih]; rfl

/-- A sum of words each of value at most `B` has value at most the number of terms times `B`. -/
theorem sum_toNat_le {ι : Type} (S : Finset ι) (f : ι → BitVec 32) (B : Nat) (hB : ∀ i ∈ S, (f i).toNat ≤ B) :
    ∑ i ∈ S, (f i).toNat ≤ S.card * B := by
  have := Finset.sum_le_card_nsmul S (fun i => (f i).toNat) B hB
  simpa using this

/-- A sum of words each of value at most `B`, over at most `N` terms with `N * B < 2³²`, has the
    sum of the values as its value. -/
theorem toNat_sum_of_le {ι : Type} (S : Finset ι) (f : ι → BitVec 32) (N B : Nat) (hN : S.card ≤ N)
    (hB : ∀ i ∈ S, (f i).toNat ≤ B) (hNB : N * B < 2 ^ 32) :
    (∑ i ∈ S, f i).toNat = ∑ i ∈ S, (f i).toNat := by
  refine WordSum.toNat_sum S f (lt_of_le_of_lt (sum_toNat_le S f B hB) (lt_of_le_of_lt ?_ hNB))
  exact Nat.mul_le_mul_right B hN

/-- The index set of a vector of `n` words is `Fin n`. -/
def idx1Equiv (n : Nat) : Fin n ≃ (⟨1, ![n]⟩ : Shape).Idx where
  toFun := ix1
  invFun i := i 0
  left_inv _ := rfl
  right_inv i := (eq_ix1 i).symm

/-- A sum over the indices of a vector is the sum over its positions. -/
theorem sum_idx1 {M : Type*} [AddCommMonoid M] {n : Nat} (f : (⟨1, ![n]⟩ : Shape).Idx → M) :
    ∑ i, f i = ∑ k : Fin n, f (ix1 k) :=
  (Equiv.sum_comp (idx1Equiv n) f).symm

/-! ### A sum-reduction along the second axis of a rectangle -/

/-- REDUCE-ADD OVER THE COLUMNS: the sum-reduction of an [n × m] array of words along its second
    axis, from zero, is at row `t` the sum of the `m` words of that row. -/
theorem reduce_addi_cols {n m : Nat} (x : IVec ⟨2, ![n, m]⟩ 32)
    (h : (⟨2, ![n, m]⟩ : Shape).ReducesTo [1] ⟨1, ![n]⟩) {u : Shape} (init : u.Idx → BitVec 32) (hu : 0 < u.numel)
    (hinit : init (Shape.Idx.first hu) = 0#32) (t : Fin n) :
    Host.reduce IntOp.addi x init h hu (ix1 t) = ∑ c : Fin m, x (ix2 t c) := by
  classical
  rw [Host.reduce_eq_fold, hinit, fold_addi_eq_sum]
  have hdrop : ∀ i : (⟨2, ![n, m]⟩ : Shape).Idx, h.drop i = ix1 t ↔ i 0 = t := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (⟨2, ![n, m]⟩ : Shape).Idx, i 0 = t → ix2 t (i 1) = i := fun i h0 => by
    funext b; match b with
    | ⟨0, _⟩ => exact h0.symm
    | ⟨1, _⟩ => rfl
  refine Finset.sum_bij' (fun i _ => i 1) (fun c _ => ix2 t c) (fun _ _ => Finset.mem_univ _)
    (fun c _ => Finset.mem_filter.2 ⟨Finset.mem_univ _, (hdrop _).2 rfl⟩)
    (fun i hi => hback i ((hdrop i).1 (Finset.mem_filter.1 hi).2)) (fun _ _ => rfl) ?_
  intro i hi
  exact (congrArg x (hback i ((hdrop i).1 (Finset.mem_filter.1 hi).2))).symm

/-- Its value, where each word of the row is at most `B` and `m * B < 2³²`. -/
theorem toNat_reduce_addi_cols {n m : Nat} (x : IVec ⟨2, ![n, m]⟩ 32)
    (h : (⟨2, ![n, m]⟩ : Shape).ReducesTo [1] ⟨1, ![n]⟩) {u : Shape} (init : u.Idx → BitVec 32) (hu : 0 < u.numel)
    (hinit : init (Shape.Idx.first hu) = 0#32) (t : Fin n) (B : Nat) (hB : ∀ c : Fin m, (x (ix2 t c)).toNat ≤ B)
    (hmB : m * B < 2 ^ 32) :
    (Host.reduce IntOp.addi x init h hu (ix1 t)).toNat = ∑ c : Fin m, (x (ix2 t c)).toNat := by
  rw [reduce_addi_cols x h init hu hinit t]
  exact toNat_sum_of_le _ _ m B (by simp) (fun c _ => hB c) hmB

/-! ### A cumulative sum written as a windowed reduction

The cumulative sum of a vector of `n` words prints as a sum-reduction over windows of `n` places at stride
one of the vector padded with `n − 1` zeros in front: the window of result `j` covers the padded
places `j … j + n − 1`, which are the operand's places `0 … j` after `n − 1 − j` zeros. -/

/-- The position of a vector's index in row-major order is its coordinate. -/
theorem rowMajor_symm_val_one {n : Nat} (k : Fin (⟨1, ![n]⟩ : Shape).numel) :
    (((⟨1, ![n]⟩ : Shape).rowMajor.symm k) 0).val = k.val := by
  have := Shape.rowMajor_val_one ((⟨1, ![n]⟩ : Shape).rowMajor.symm k)
  rw [Equiv.apply_symm_apply] at this
  exact this.symm

/-- THE CUMULATIVE SUM: the windowed sum-reduction of a vector of `n = m + 1` words with window `n`,
    stride one and `m` places of padding in front is, at place `j`, the sum of the words at the
    places up to and including `j`. (Window place `w` of result `j` is the padded place `j + w`, the
    operand's place `j + w − m` when `m ≤ j + w` and a zero otherwise; so operand place `k ≤ j` is
    met exactly once, at window place `k + m − j`.) -/
theorem reduceWindow_cumsum {n m : Nat} (hm : m + 1 = n) (x : IVec ⟨1, ![n]⟩ 32) {u : Shape}
    (init : u.Idx → BitVec 32)
    (h : (⟨1, ![n]⟩ : Shape).ReduceWindows ![n] ![1] ![m] ![0] ⟨1, ![n]⟩) (hu : 0 < u.numel)
    (hinit : init (Shape.Idx.first hu) = 0#32) (j : Fin n) :
    Host.reduceWindow IntOp.addi ![n] ![1] ![m] ![0] x init h hu (ix1 j) = ∑ k ∈ Finset.Iic j, x (ix1 k) := by
  have hnum : (⟨1, ![n]⟩ : Shape).numel = n := Shape.numel_rank1 _
  have hj := j.isLt
  unfold Host.reduceWindow
  simp only [hinit]
  rw [foldl_addi_eq_sum]
  symm
  let e : Fin n → Fin (⟨1, ![n]⟩ : Shape).numel := fun k => ⟨min (k.val + m - j.val) m, by rw [hnum]; omega⟩
  refine Finset.sum_of_injOn e ?_ (fun _ _ => Finset.mem_univ _) ?_ ?_
  · intro k₁ hk₁ k₂ hk₂ he
    have h₁ : k₁.val ≤ j.val := Fin.le_def.1 (Finset.mem_Iic.1 (Finset.mem_coe.1 hk₁))
    have h₂ : k₂.val ≤ j.val := Fin.le_def.1 (Finset.mem_Iic.1 (Finset.mem_coe.1 hk₂))
    have he' : min (k₁.val + m - j.val) m = min (k₂.val + m - j.val) m := congrArg Fin.val he
    exact Fin.ext (by omega)
  · intro w _ hw
    have hwlt : w.val < n := lt_of_lt_of_eq w.isLt hnum
    have hv := rowMajor_symm_val_one w
    split
    · next hin =>
      exfalso
      have h0 : m ≤ j.val * 1 + ((⟨1, ![n]⟩ : Shape).rowMajor.symm w 0).val := (hin 0).1
      rw [hv] at h0
      exact hw ⟨⟨j.val + w.val - m, by omega⟩,
        Finset.mem_coe.2 (Finset.mem_Iic.2 (Fin.le_def.2 (by show j.val + w.val - m ≤ j.val; omega))),
        Fin.ext (by show min (j.val + w.val - m + m - j.val) m = w.val; omega)⟩
    · rfl
  · intro k hk
    have hkj : k.val ≤ j.val := Fin.le_def.1 (Finset.mem_Iic.1 hk)
    have hv : (((⟨1, ![n]⟩ : Shape).rowMajor.symm (e k)) 0).val = min (k.val + m - j.val) m :=
      rowMajor_symm_val_one (e k)
    split
    · next hin =>
      congr 1
      funext a
      obtain rfl : a = 0 := Subsingleton.elim _ _
      refine Fin.ext ?_
      show k.val = j.val * 1 + (((⟨1, ![n]⟩ : Shape).rowMajor.symm (e k)) 0).val - m
      rw [hv]; omega
    · next hnin =>
      refine absurd (fun a => ?_) hnin
      obtain rfl : a = 0 := Subsingleton.elim _ _
      show m ≤ j.val * 1 + (((⟨1, ![n]⟩ : Shape).rowMajor.symm (e k)) 0).val
        ∧ j.val * 1 + (((⟨1, ![n]⟩ : Shape).rowMajor.symm (e k)) 0).val - m < n
      rw [hv]; omega

/-- Its value, where each word is at most `B` and `n * B < 2³²`. -/
theorem toNat_reduceWindow_cumsum {n m : Nat} (hm : m + 1 = n) (x : IVec ⟨1, ![n]⟩ 32) {u : Shape}
    (init : u.Idx → BitVec 32)
    (h : (⟨1, ![n]⟩ : Shape).ReduceWindows ![n] ![1] ![m] ![0] ⟨1, ![n]⟩) (hu : 0 < u.numel)
    (hinit : init (Shape.Idx.first hu) = 0#32) (j : Fin n) (B : Nat) (hB : ∀ k : Fin n, (x (ix1 k)).toNat ≤ B)
    (hnB : n * B < 2 ^ 32) :
    (Host.reduceWindow IntOp.addi ![n] ![1] ![m] ![0] x init h hu (ix1 j)).toNat
      = ∑ k ∈ Finset.Iic j, (x (ix1 k)).toNat := by
  rw [reduceWindow_cumsum hm x init h hu hinit j]
  exact toNat_sum_of_le _ _ n B (by simpa using Finset.card_le_univ (Finset.Iic j)) (fun k _ => hB k) hnB

/-! ### The exclusive shift: one element in front, the last element dropped -/

/-- THE SHIFT BY ONE PLACE: a one-element vector `z` laid in front of the first `m` elements of a
    vector `c` of `n = m + 1` elements reads `z` at place 0 and `c` one place back elsewhere. -/
theorem concat_slice_shift {α : Type} {n m : Nat} (hm : m + 1 = n) (z : (⟨1, ![1]⟩ : Shape).Idx → α)
    (c : (⟨1, ![n]⟩ : Shape).Idx → α) (hs : (⟨1, ![n]⟩ : Shape).Slices ![0] ⟨1, ![m]⟩)
    (hc : Shape.Concatenates [(⟨1, ![1]⟩ : Shape), ⟨1, ![m]⟩] ⟨1, ![n]⟩ 0) (k : Fin n) :
    concatenate ⟨1, ![n]⟩ 0 [⟨⟨1, ![1]⟩, z⟩, ⟨⟨1, ![m]⟩, extractStridedSlice ⟨1, ![m]⟩ ![0] c hs⟩] hc (ix1 k)
      = if hk : k.val = 0 then z (ix1 0) else c (ix1 ⟨k.val - 1, by have := k.isLt; omega⟩) := by
  have hk' := k.isLt
  by_cases hk : k.val = 0
  · rw [dif_pos hk]
    refine concatenate_pair_apply_left (t := ⟨1, ![n]⟩) (s₁ := ⟨1, ![1]⟩) (s₂ := ⟨1, ![m]⟩) (0 : Fin 1) z
      (extractStridedSlice ⟨1, ![m]⟩ ![0] c hs) hc (ix1 k) rfl (ix1 0) ?_
    intro b
    match b with
    | ⟨0, _⟩ => exact hk.symm
  · rw [dif_neg hk]
    refine (concatenate_pair_apply_right (t := ⟨1, ![n]⟩) (s₁ := ⟨1, ![1]⟩) (s₂ := ⟨1, ![m]⟩) (0 : Fin 1) z
      (extractStridedSlice ⟨1, ![m]⟩ ![0] c hs) hc (ix1 k) rfl rfl (ix1 ⟨k.val - 1, by omega⟩) ?_ ?_).trans ?_
    · intro b hb
      exact absurd (Subsingleton.elim _ _) hb
    · show k.val - 1 + 1 = k.val
      omega
    · show c _ = c _
      congr 1
      funext a
      match a with
      | ⟨0, _⟩ => exact Fin.ext (by show 0 + (k.val - 1) = k.val - 1; omega)

/-- THE EXCLUSIVE CUMULATIVE SUM: a zero laid in front of the cumulative sum's first `m` places is, at
    place `k`, the sum of the words at the places strictly before `k`. -/
theorem exclusive_cumsum {n m : Nat} (hm : m + 1 = n) (x : IVec ⟨1, ![n]⟩ 32) {u : Shape}
    (init : u.Idx → BitVec 32)
    (h : (⟨1, ![n]⟩ : Shape).ReduceWindows ![n] ![1] ![m] ![0] ⟨1, ![n]⟩) (hu : 0 < u.numel)
    (hinit : init (Shape.Idx.first hu) = 0#32) (z : IVec ⟨1, ![1]⟩ 32) (hz : z (ix1 0) = 0#32)
    (hs : (⟨1, ![n]⟩ : Shape).Slices ![0] ⟨1, ![m]⟩)
    (hc : Shape.Concatenates [(⟨1, ![1]⟩ : Shape), ⟨1, ![m]⟩] ⟨1, ![n]⟩ 0) (k : Fin n) :
    concatenate ⟨1, ![n]⟩ 0 [⟨⟨1, ![1]⟩, z⟩, ⟨⟨1, ![m]⟩, extractStridedSlice ⟨1, ![m]⟩ ![0]
        (Host.reduceWindow IntOp.addi ![n] ![1] ![m] ![0] x init h hu) hs⟩] hc (ix1 k)
      = ∑ i ∈ Finset.Iio k, x (ix1 i) := by
  have hk' := k.isLt
  rw [concat_slice_shift hm]
  by_cases hk : k.val = 0
  · rw [dif_pos hk, hz]
    have : Finset.Iio k = ∅ := by
      ext i
      simp only [Finset.mem_Iio, Finset.notMem_empty, iff_false, Fin.lt_def]
      omega
    rw [this, Finset.sum_empty]
    rfl
  · rw [dif_neg hk, reduceWindow_cumsum hm x init h hu hinit]
    refine Finset.sum_congr ?_ (fun _ _ => rfl)
    ext i
    simp only [Finset.mem_Iic, Finset.mem_Iio, Fin.le_def, Fin.lt_def]
    omega

/-! ### The floor division read under the vector operations -/

/-- A scalar broadcast to any shape reads the scalar everywhere. -/
theorem bcast_scalar_ix0 {α : Type} {t : Shape} (hb : (⟨0, ![]⟩ : Shape).BroadcastsInDim t ![])
    (v : (⟨0, ![]⟩ : Shape).Idx → α) (i : t.Idx) : broadcastInDim t ![] hb v i = v ix0 :=
  congrArg v (funext fun a => a.elim0)

/-- THE PRINTED FLOOR DIVISION AT AN INDEX: the elementwise composite (truncating quotient, signs
    compared, remainder tested against zero, one taken off under the two tests) of a vector `x` by a
    broadcast scalar `d` is, at every index, the floor division of the element by the scalar. -/
theorem floorDivide_apply {t : Shape} (hb : (⟨0, ![]⟩ : Shape).BroadcastsInDim t ![]) (x : IVec t 32)
    (d : IVec ⟨0, ![]⟩ 32) (i : t.Idx) :
    select
        (andi (cmpi .ne (signi x) (broadcastInDim t ![] hb (signi d)))
          (cmpi .ne (Host.remsi x (broadcastInDim t ![] hb d)) (broadcastInDim t ![] hb (constantI ⟨0, ![]⟩ 32 0#32))))
        (subi (Host.divsi x (broadcastInDim t ![] hb d)) (broadcastInDim t ![] hb (constantI ⟨0, ![]⟩ 32 1#32)))
        (Host.divsi x (broadcastInDim t ![] hb d)) i
      = floorDivWord (x i) (d ix0) := by
  show Scalar.select (IntOp.andi (IntOp.cmpi .ne (signWord (x i)) (broadcastInDim t ![] hb (signi d) i))
      (IntOp.cmpi .ne (IntOp.remsi .host (x i) (broadcastInDim t ![] hb d i)) (broadcastInDim t ![] hb (constantI ⟨0, ![]⟩ 32 0#32) i)))
      (IntOp.subi (IntOp.divsi .host (x i) (broadcastInDim t ![] hb d i)) (broadcastInDim t ![] hb (constantI ⟨0, ![]⟩ 32 1#32) i))
      (IntOp.divsi .host (x i) (broadcastInDim t ![] hb d i)) = _
  rw [bcast_scalar_ix0 hb d i, bcast_scalar_ix0 hb (signi d) i, bcast_scalar_ix0 hb (constantI ⟨0, ![]⟩ 32 0#32) i,
    bcast_scalar_ix0 hb (constantI ⟨0, ![]⟩ 32 1#32) i]
  rfl

/-- With the divisor 256 and non-negative elements it is the division of the values. -/
theorem floorDivide_256_apply {t : Shape} (hb : (⟨0, ![]⟩ : Shape).BroadcastsInDim t ![]) (x : IVec t 32)
    (d : IVec ⟨0, ![]⟩ 32) (hd : d ix0 = 256#32) (i : t.Idx) (hx : (x i).toNat < 2 ^ 31) :
    select
        (andi (cmpi .ne (signi x) (broadcastInDim t ![] hb (signi d)))
          (cmpi .ne (Host.remsi x (broadcastInDim t ![] hb d)) (broadcastInDim t ![] hb (constantI ⟨0, ![]⟩ 32 0#32))))
        (subi (Host.divsi x (broadcastInDim t ![] hb d)) (broadcastInDim t ![] hb (constantI ⟨0, ![]⟩ 32 1#32)))
        (Host.divsi x (broadcastInDim t ![] hb d)) i
      = BitVec.ofNat 32 ((x i).toNat / 256) := by
  rw [floorDivide_apply, hd, floorDivWord_256 hx]

/-! ### Values of the exclusive cumulative sum, and the index wrap under the vector operations -/

/-- The exclusive cumulative sum's value, where each word is at most `B` and `n * B < 2³²`. -/
theorem toNat_exclusive_cumsum {n m : Nat} (hm : m + 1 = n) (x : IVec ⟨1, ![n]⟩ 32) {u : Shape}
    (init : u.Idx → BitVec 32)
    (h : (⟨1, ![n]⟩ : Shape).ReduceWindows ![n] ![1] ![m] ![0] ⟨1, ![n]⟩) (hu : 0 < u.numel)
    (hinit : init (Shape.Idx.first hu) = 0#32) (z : IVec ⟨1, ![1]⟩ 32) (hz : z (ix1 0) = 0#32)
    (hs : (⟨1, ![n]⟩ : Shape).Slices ![0] ⟨1, ![m]⟩)
    (hc : Shape.Concatenates [(⟨1, ![1]⟩ : Shape), ⟨1, ![m]⟩] ⟨1, ![n]⟩ 0) (k : Fin n) (B : Nat)
    (hB : ∀ i : Fin n, (x (ix1 i)).toNat ≤ B) (hnB : n * B < 2 ^ 32) :
    (concatenate ⟨1, ![n]⟩ 0 [⟨⟨1, ![1]⟩, z⟩, ⟨⟨1, ![m]⟩, extractStridedSlice ⟨1, ![m]⟩ ![0]
        (Host.reduceWindow IntOp.addi ![n] ![1] ![m] ![0] x init h hu) hs⟩] hc (ix1 k)).toNat
      = ∑ i ∈ Finset.Iio k, (x (ix1 i)).toNat := by
  rw [exclusive_cumsum hm x init h hu hinit z hz hs hc k]
  exact toNat_sum_of_le _ _ n B (by simpa using Finset.card_le_univ (Finset.Iio k)) (fun i _ => hB i) hnB

/-- THE INDEX WRAP AT AN INDEX: the elementwise select of `x + N` where `x` is below a broadcast zero, else
    `x`, is `x` at every index where `x` is non-negative. -/
theorem wrap_index_apply {t : Shape} (hb : (⟨0, ![]⟩ : Shape).BroadcastsInDim t ![]) (x N : IVec t 32)
    (z : IVec ⟨0, ![]⟩ 32) (hz : z ix0 = 0#32) (i : t.Idx) (hx : 0 ≤ (x i).toInt) :
    select (cmpi .slt x (broadcastInDim t ![] hb z)) (addi x N) x i = x i := by
  show Scalar.select (IntOp.cmpi .slt (x i) (broadcastInDim t ![] hb z i)) (IntOp.addi (x i) (N i)) (x i) = x i
  rw [bcast_scalar_ix0 hb z i, hz]
  exact wrap_index_of_nonneg (x i) (N i) hx

end Cert.AlphaGrid.LibIntOps
-- ==== Proof.IntBridge.lean ====
/-
  The integer host operations that lay the sorted points out in tiles, read as natural numbers.

  The points come sorted by block, `bs i` the block of point `i`, every block below 64. The host program counts the
  points of each block (a scatter-add of ones), takes cumulative sums for the offsets, rounds every count up to a
  multiple of 256, takes cumulative sums again for the padded offsets, sends point `i` to the slot
  "padded offset of its block + its rank inside the block", and reads off, for every window of 256 slots, the block
  whose padded run contains the window's first slot. Every word met on the way is a small non-negative number
  (at most 4194304 + 64 · 255, far below 2³¹), so no 32-bit operation wraps and each stage is the natural-number
  quantity of the same name: `cnt`, `off`, `pc`, `po`, `slot`, `tile`.
-/
import proofs.«104803_j90202903151142_1_alg».proof.Proof.IntChain
import proofs.«104803_j90202903151142_1_alg».proof.Proof.SlotsNat
import proofs.«104803_j90202903151142_1_alg».proof.Proof.LibScatter
import proofs.«104803_j90202903151142_1_alg».proof.Proof.LibIntOps

namespace Cert.AlphaGrid.IntBridge

open Idealize.ShloMosaic Idealize.ShloMosaic.ValueIdx Idealize.ShloMosaic.StableHlo.Predicate
open Cert.KernelIdeal Cert.AlphaGrid Cert.AlphaGrid.IntChain Cert.AlphaGrid.LibIntOps
open scoped BigOperators

variable [Cert.KernelIdeal.Facts]
open Cert.KernelIdeal.Facts₀ Cert.KernelIdeal.Facts

/-- The block of every point, as a natural number. -/
abbrev blk (bs : IVec S4194304 32) : Fin 4194304 → Nat := fun i => (bs (ix1 i)).toNat

/-! ## Indices -/

theorem ofFin_eq_ix1 {n : Nat} (k : Fin n) : Shape.Idx.ofFin k = ix1 k := by
  funext a
  match a with
  | ⟨0, _⟩ => rfl

theorem ixP_eq_ix2 {n : Nat} (p : Fin n) : (ixP p : (⟨2, ![n, 1]⟩ : Shape).Idx) = ix2 p 0 := by
  funext a
  match a with
  | ⟨0, _⟩ => rfl
  | ⟨1, _⟩ => rfl

theorem ij_eq_ix2 {n m : Nat} (p : Fin n) (q : Fin m) : ij p q = ix2 p q := by
  funext a
  match a with
  | ⟨0, _⟩ => rfl
  | ⟨1, _⟩ => rfl

/-- A sum over the positions of a vector before position `k` is the sum over the numbers below `k`. -/
theorem sum_Iio_fin {n : Nat} (f : Nat → Nat) (k : Fin n) :
    ∑ i ∈ Finset.Iio k, f i.val = ∑ j ∈ Finset.range k.val, f j := by
  refine Finset.sum_bij (fun i _ => i.val) ?_ ?_ ?_ ?_
  · intro i hi
    exact Finset.mem_range.2 (Fin.lt_def.1 (Finset.mem_Iio.1 hi))
  · intro i _ j _ h
    exact Fin.ext h
  · intro j hj
    have hjk := Finset.mem_range.1 hj
    have hk := k.isLt
    exact ⟨⟨j, by omega⟩, Finset.mem_Iio.2 (Fin.lt_def.2 hjk), rfl⟩
  · intro i _
    rfl

/-- A column of one word per row reads, at row `i`, the vector at `i`. -/
theorem col_apply {n : Nat} (h₁ : (⟨1, ![n]⟩ : Shape).BroadcastsInDim ⟨2, ![n, 1]⟩ ![0])
    (v : IVec ⟨1, ![n]⟩ 32) (i : Fin n) : broadcastInDim ⟨2, ![n, 1]⟩ ![0] h₁ v (ix2 i 0) = v (ix1 i) := by
  have h := bcast_col1 h₁ v i
  rw [ixP_eq_ix2, ofFin_eq_ix1] at h
  exact h

/-! ## Counts -/

section Stages
variable (bs : IVec S4194304 32) (hb : ∀ i : Fin 4194304, (bs (ix1 i)).toNat < 64)
include hb

omit hb in
theorem v94_apply (i : Fin 4194304) : i_v94 bs (ix2 i 0) = bs (ix1 i) :=
  col_apply bcast_S4194304_S4194304x1_0 bs i

/-- The index words that read `k` are the points of block `k`. -/
theorem card_eq_cnt (k : Fin 64) :
    (Finset.univ.filter fun i : Fin 4194304 => ((i_v94 bs) (ix2 i 0)).toInt = (k.val : Int)).card
      = Slots.cnt (blk bs) k.val := by
  unfold Slots.cnt
  refine congrArg Finset.card (Finset.filter_congr ?_)
  intro i _
  rw [v94_apply, toInt_eq_toNat_of_lt (by have := hb i; omega)]
  exact Int.natCast_inj

/-- The scatter-add of ones: the word at `k` is the number of points of block `k`. -/
theorem v95_apply (k : Fin 64) : i_v95 bs (ix1 k) = BitVec.ofNat 32 (Slots.cnt (blk bs) k.val) := by
  rw [← card_eq_cnt bs hb k]
  exact LibScatter.counts_apply_of (i_v93 bs) (i_v94 bs) (i_v92 bs) (fun _ => rfl) (fun _ => rfl) k

theorem cnt_eq (k : Fin 64) : (i_v95 bs (ix1 k)).toNat = Slots.cnt (blk bs) k.val := by
  rw [v95_apply bs hb k]
  have := Slots.cnt_le (blk bs) k.val
  exact toNat_ofNat_lt (by omega)

/-! ## Offsets: the exclusive cumulative sum of the counts -/

theorem off_eq (k : Fin 64) : (i_v99 bs (ix1 k)).toNat = Slots.off (blk bs) k.val := by
  have h := toNat_exclusive_cumsum (n := 64) (m := 63) rfl (i_v95 bs) (i_call2_call0_v0 bs)
    reduceWindows_S64_S64_w64s1p63_0 h_S_ rfl (i_v96 bs) rfl slices_S64_S63_0 concatenates_S1_S63_S64_d0 k 4194304
    (fun i => by rw [cnt_eq bs hb i]; exact Slots.cnt_le (blk bs) i.val) (by norm_num)
  refine h.trans ?_
  rw [Finset.sum_congr rfl (fun i _ => cnt_eq bs hb i)]
  exact sum_Iio_fin (fun j => Slots.cnt (blk bs) j) k

/-! ## Padded counts: the count rounded up to a multiple of 256 -/

/-- The count plus 255 (256 added, one taken off). -/
theorem v103_toNat (k : Fin 64) : (i_v103 bs (ix1 k)).toNat = Slots.cnt (blk bs) k.val + 255 := by
  have hc := cnt_eq bs hb k
  have hle := Slots.cnt_le (blk bs) k.val
  have h256 : ((256#32 : BitVec 32)).toNat = 256 := rfl
  have h1 : ((1#32 : BitVec 32)).toNat = 1 := rfl
  have ha : (IntOp.addi (i_v95 bs (ix1 k)) 256#32).toNat = Slots.cnt (blk bs) k.val + 256 := by
    rw [toNat_addi_of_lt (by rw [hc, h256]; omega), hc, h256]
  show (IntOp.subi (IntOp.addi (i_v95 bs (ix1 k)) 256#32) 1#32).toNat = _
  rw [toNat_subi_of_le (by rw [ha, h1]; omega), ha, h1]
  omega

/-- The floor division by 256. -/
theorem v104_apply (k : Fin 64) :
    i_v104 bs (ix1 k) = BitVec.ofNat 32 ((Slots.cnt (blk bs) k.val + 255) / 256) := by
  have hle := Slots.cnt_le (blk bs) k.val
  rw [← v103_toNat bs hb k]
  exact floorDivide_256_apply bcast_S_S64 (i_v103 bs) (i_call3_v0 bs) rfl (ix1 k)
    (by rw [v103_toNat bs hb k]; omega)

theorem pc_eq (k : Fin 64) : (i_v106 bs (ix1 k)).toNat = Slots.pc (blk bs) k.val := by
  have hle := Slots.cnt_le (blk bs) k.val
  have hq : (i_v104 bs (ix1 k)).toNat = (Slots.cnt (blk bs) k.val + 255) / 256 := by
    rw [v104_apply bs hb k]
    exact toNat_ofNat_lt (by omega)
  show (IntOp.muli (i_v104 bs (ix1 k)) 256#32).toNat = _
  rw [toNat_muli_256 (by rw [hq]; omega), hq]
  rfl

/-! ## Padded offsets and padded ends -/

theorem po_eq (k : Fin 64) : (i_v110 bs (ix1 k)).toNat = Slots.po (blk bs) k.val := by
  have hB : ∀ i : Fin 64, (i_v106 bs (ix1 i)).toNat ≤ 4194304 + 255 := fun i => by
    rw [pc_eq bs hb i]
    exact (Slots.pc_le (blk bs) i.val).trans (Nat.add_le_add_right (Slots.cnt_le (blk bs) i.val) 255)
  have h := toNat_exclusive_cumsum (n := 64) (m := 63) rfl (i_v106 bs) (i_call4_call0_v0 bs)
    reduceWindows_S64_S64_w64s1p63_0 h_S_ rfl (i_v107 bs) rfl slices_S64_S63_0 concatenates_S1_S63_S64_d0 k
    (4194304 + 255) hB (by norm_num)
  refine h.trans ?_
  rw [Finset.sum_congr rfl (fun i _ => pc_eq bs hb i)]
  exact sum_Iio_fin (fun j => Slots.pc (blk bs) j) k

theorem pe_eq (k : Fin 64) :
    (i_v176 bs (ix1 k)).toNat = Slots.po (blk bs) k.val + Slots.pc (blk bs) k.val := by
  have hle := Slots.po_add_pc_le (blk bs) hb k.val k.isLt
  show (IntOp.addi (i_v110 bs (ix1 k)) (i_v106 bs (ix1 k))).toNat = _
  rw [toNat_addi_of_lt (by rw [po_eq bs hb k, pc_eq bs hb k]; omega), po_eq bs hb k, pc_eq bs hb k]

/-! ## Slots: the padded offset of a point's block plus the point's rank inside the block -/

omit hb in
/-- A table of 64 words taken at a column of index words: where the index word reads `v`, below 64, the table at `v`. -/
theorem take64_apply (x : IVec S64 32) (idx : IVec S4194304x1 32) (i : Fin 4194304) (v : Fin 64)
    (hv : (idx (ix2 i 0)).toInt = (v.val : Int)) :
    Host.gather gather_S64_S4194304x1_S4194304_n_0_n_n_0_1_1 x idx (ix1 i) = x (ix1 v) := by
  have h := gather_take gather_S64_S4194304x1_S4194304_n_0_n_n_0_1_1 rfl rfl rfl rfl x idx i (by norm_num)
  rw [ofFin_eq_ix1, ofFin_eq_ix1] at h
  refine h.trans (congrArg x ?_)
  funext a
  match a with
  | ⟨0, _⟩ =>
    refine Fin.ext ?_
    have hv' := v.isLt
    show min (idx (ixP i)).toInt.toNat (64 - 1) = v.val
    rw [ixP_eq_ix2, hv, Int.toNat_natCast]
    omega

/-- The index wrap leaves a block word alone, and the column of wrapped words reads the block word. -/
theorem v116_apply (i : Fin 4194304) : i_v116 bs (ix2 i 0) = bs (ix1 i) := by
  have h : i_v116 bs (ix2 i 0) = i_v115 bs (ix1 i) := col_apply bcast_S4194304_S4194304x1_0 (i_v115 bs) i
  rw [h]
  exact wrap_index_apply bcast_S_S4194304 bs (i_v113 bs) (i_c_31 bs) rfl (ix1 i)
    (toInt_nonneg_iff.2 (by have := hb i; omega))

theorem v124_apply (i : Fin 4194304) : i_v124 bs (ix2 i 0) = bs (ix1 i) := by
  have h : i_v124 bs (ix2 i 0) = i_v123 bs (ix1 i) := col_apply bcast_S4194304_S4194304x1_0 (i_v123 bs) i
  rw [h]
  exact wrap_index_apply bcast_S_S4194304 bs (i_v121 bs) (i_c_33 bs) rfl (ix1 i)
    (toInt_nonneg_iff.2 (by have := hb i; omega))

/-- The padded offset of a point's block. -/
theorem v117_apply (i : Fin 4194304) : i_v117 bs (ix1 i) = i_v110 bs (ix1 ⟨blk bs i, hb i⟩) :=
  take64_apply (i_v110 bs) (i_v116 bs) i ⟨blk bs i, hb i⟩
    (by rw [v116_apply bs hb i]; exact toInt_eq_toNat_of_lt (by have := hb i; omega))

/-- The offset of a point's block. -/
theorem v125_apply (i : Fin 4194304) : i_v125 bs (ix1 i) = i_v99 bs (ix1 ⟨blk bs i, hb i⟩) :=
  take64_apply (i_v99 bs) (i_v124 bs) i ⟨blk bs i, hb i⟩
    (by rw [v124_apply bs hb i]; exact toInt_eq_toNat_of_lt (by have := hb i; omega))

variable (hm : ∀ i j : Fin 4194304, i ≤ j → (bs (ix1 i)).toNat ≤ (bs (ix1 j)).toNat)
include hm

/-- A point's rank inside its block: its position less its block's offset (the offset is not above the position). -/
theorem v126_toNat (i : Fin 4194304) :
    (i_v126 bs (ix1 i)).toNat = i.val - Slots.off (blk bs) (blk bs i) := by
  have hi := i.isLt
  have hoff : (i_v125 bs (ix1 i)).toNat = Slots.off (blk bs) (blk bs i) := by
    rw [v125_apply bs hb i]
    exact off_eq bs hb ⟨blk bs i, hb i⟩
  have hle := Slots.off_le (blk bs) hb hm i
  have hio : (BitVec.ofNat 32 i.val).toNat = i.val := toNat_ofNat_lt (by omega)
  show (IntOp.subi (BitVec.ofNat 32 i.val) (i_v125 bs (ix1 i))).toNat = _
  rw [toNat_subi_of_le (by rw [hoff, hio]; exact hle), hoff, hio]

theorem slot_eq (i : Fin 4194304) : (i_v127 bs (ix1 i)).toNat = Slots.slot (blk bs) i := by
  have hlt := Slots.slot_lt (blk bs) hb hm i
  have hpo : (i_v117 bs (ix1 i)).toNat = Slots.po (blk bs) (blk bs i) := by
    rw [v117_apply bs hb i]
    exact po_eq bs hb ⟨blk bs i, hb i⟩
  have hrk := v126_toNat bs hb hm i
  have hs : Slots.slot (blk bs) i = Slots.po (blk bs) (blk bs i) + (i.val - Slots.off (blk bs) (blk bs i)) := rfl
  show (IntOp.addi (i_v117 bs (ix1 i)) (i_v126 bs (ix1 i))).toNat = _
  rw [toNat_addi_of_lt (by rw [hpo, hrk, ← hs]; omega), hpo, hrk, hs]

theorem slot_lt (i : Fin 4194304) : (i_v127 bs (ix1 i)).toNat < 4210688 := by
  rw [slot_eq bs hb hm i]
  have := Slots.slot_lt (blk bs) hb hm i
  omega

theorem slot_nonneg (i : Fin 4194304) : 0 ≤ (i_v127 bs (ix1 i)).toInt :=
  toInt_nonneg_iff.2 (by have := slot_lt bs hb hm i; omega)

theorem slot_inj : Function.Injective fun i : Fin 4194304 => (i_v127 bs (ix1 i)).toNat := by
  intro i j h
  simp only [slot_eq bs hb hm] at h
  exact Slots.slot_inj (blk bs) hb hm h

theorem slot_div_lt (i : Fin 4194304) : (i_v127 bs (ix1 i)).toNat / 256 < 16448 := by
  have := slot_lt bs hb hm i
  omega

end Stages

/-! ## The statements with the block map written out -/

section Statements
variable (bs : IVec S4194304 32) (hb : ∀ i : Fin 4194304, (bs (ix1 i)).toNat < 64)
include hb

theorem counts : ∀ k : Fin 64,
    (IntChain.i_v95 bs (ix1 k)).toNat = Slots.cnt (fun i : Fin 4194304 => (bs (ix1 i)).toNat) k :=
  cnt_eq bs hb

theorem offsets : ∀ k : Fin 64,
    (IntChain.i_v99 bs (ix1 k)).toNat = Slots.off (fun i : Fin 4194304 => (bs (ix1 i)).toNat) k :=
  off_eq bs hb

theorem paddedCounts : ∀ k : Fin 64,
    (IntChain.i_v106 bs (ix1 k)).toNat = Slots.pc (fun i : Fin 4194304 => (bs (ix1 i)).toNat) k :=
  pc_eq bs hb

theorem hpo : ∀ k : Fin 64,
    (IntChain.i_v110 bs (ix1 k)).toNat = Slots.po (fun i : Fin 4194304 => (bs (ix1 i)).toNat) k :=
  po_eq bs hb

theorem hpe : ∀ k : Fin 64,
    (IntChain.i_v176 bs (ix1 k)).toNat
      = Slots.po (fun i : Fin 4194304 => (bs (ix1 i)).toNat) k + Slots.pc (fun i : Fin 4194304 => (bs (ix1 i)).toNat) k :=
  pe_eq bs hb

variable (hm : ∀ i j : Fin 4194304, i ≤ j → (bs (ix1 i)).toNat ≤ (bs (ix1 j)).toNat)
include hm

theorem slots : ∀ i : Fin 4194304,
    (IntChain.i_v127 bs (ix1 i)).toNat = Slots.slot (fun i : Fin 4194304 => (bs (ix1 i)).toNat) i :=
  slot_eq bs hb hm

/-- Once the tile table is known to be `tile`, the window of a point's slot gives back the point's block. -/
theorem tbl_slot_of
    (htile : ∀ t : Fin 16448,
      (IntChain.i_v196 bs (ix1 t)).toNat = Slots.tile (fun i : Fin 4194304 => (bs (ix1 i)).toNat) t.val)
    (i : Fin 4194304) (h : (IntChain.i_v127 bs (ix1 i)).toNat / 256 < 16448) :
    (IntChain.i_v196 bs (ix1 ⟨(IntChain.i_v127 bs (ix1 i)).toNat / 256, h⟩)).toNat = (bs (ix1 i)).toNat := by
  rw [htile]
  show Slots.tile (blk bs) ((IntChain.i_v127 bs (ix1 i)).toNat / 256) = _
  rw [slot_eq bs hb hm i]
  exact Slots.tile_slot (blk bs) hb hm i

end Statements

end Cert.AlphaGrid.IntBridge
-- ==== Proof.IntBridgeTile.lean ====
/-
  The tile table of the padded layout.

  Window \`t\` of 256 places starts at place \`256 * t\`. The table compares that start with every block's padded
  run \`[po k, po k + pc k)\`: a mask bit per (window, block) says whether the start lies in the run, the bit is
  widened and multiplied by the block number, and the products are summed over the 64 blocks. All words involved
  are non-negative and below 2³¹, so the signed comparisons are comparisons of values; each product is the block
  number or zero, so the sum of 64 of them does not wrap. The sum is \`Slots.tile\`.
-/
import proofs.«104803_j90202903151142_1_alg».proof.Proof.IntChain
import proofs.«104803_j90202903151142_1_alg».proof.Proof.SlotsNat
import proofs.«104803_j90202903151142_1_alg».proof.Proof.LibIntOps
import Idealize.ShloMosaic.Lib.StableHlo.Predicate
import Idealize.ShloMosaic.Lib.ValueIdx

namespace Cert.AlphaGrid.IntBridgeTile

open Idealize.ShloMosaic Idealize.ShloMosaic.ValueIdx Idealize.ShloMosaic.StableHlo.Predicate Cert.KernelIdeal
open Cert.AlphaGrid

variable [Cert.KernelIdeal.Facts]
open Cert.KernelIdeal.Facts₀ Cert.KernelIdeal.Facts

/-! ### Indices -/

/-- The two spellings of a vector's index at a coordinate agree. -/
theorem ofFin_eq_ix1 {n : Nat} (p : Fin n) : Shape.Idx.ofFin p = ix1 p := by
  funext a
  match a with
  | ⟨0, _⟩ => exact Fin.ext rfl

/-- The two spellings of a rectangle's index at (row, column) agree. -/
theorem ij_eq_ix2 {n m : Nat} (p : Fin n) (q : Fin m) : ij p q = ix2 p q := by
  funext a
  match a with
  | ⟨0, _⟩ => rfl
  | ⟨1, _⟩ => rfl

/-- A one-bit conjunction is 1 exactly when both bits are. -/
theorem andi_eq_one_iff (x y : BitVec 1) : IntOp.andi x y = 1#1 ↔ x = 1#1 ∧ y = 1#1 := by
  rcases BitVec.eq_zero_or_eq_one x with rfl | rfl <;>
    rcases BitVec.eq_zero_or_eq_one y with rfl | rfl <;> decide

variable (bs : IVec S4194304 32)

/-! ### The stages read at a window \`t\` and a block \`k\` -/

/-- The start of window \`t\`: the position times 256. -/
theorem v179_apply (t : Fin 16448) :
    IntChain.i_v179 bs (ix1 t) = IntOp.muli (BitVec.ofNat 32 t.val) 256#32 := rfl

theorem v179_toNat (t : Fin 16448) : (IntChain.i_v179 bs (ix1 t)).toNat = 256 * t.val := by
  have ht := t.isLt
  have h0 : (BitVec.ofNat 32 t.val).toNat = t.val := LibIntOps.toNat_ofNat_lt (by omega)
  rw [v179_apply, LibIntOps.toNat_muli_256 (by rw [h0]; omega), h0]
  omega

theorem v182_apply (t : Fin 16448) (k : Fin 64) :
    IntChain.i_v182 bs (ix2 t k) = IntChain.i_v179 bs (ix1 t) := by
  have h := bcast_rows (m := 64) bcast_S16448_S16448x1_0 bcast_S16448x1_S16448x64_0_1 (IntChain.i_v179 bs) t k
  rw [ij_eq_ix2, ofFin_eq_ix1] at h
  exact h

theorem v183_apply (t : Fin 16448) (k : Fin 64) :
    IntChain.i_v183 bs (ix2 t k) = IntChain.i_v110 bs (ix1 k) := by
  have h := bcast_cols (n := 16448) bcast_S64_S1x64_1 bcast_S1x64_S16448x64_0_1 (IntChain.i_v110 bs) t k
  rw [ij_eq_ix2, ofFin_eq_ix1] at h
  exact h

theorem v187_apply (t : Fin 16448) (k : Fin 64) :
    IntChain.i_v187 bs (ix2 t k) = IntChain.i_v179 bs (ix1 t) := by
  have h := bcast_rows (m := 64) bcast_S16448_S16448x1_0 bcast_S16448x1_S16448x64_0_1 (IntChain.i_v179 bs) t k
  rw [ij_eq_ix2, ofFin_eq_ix1] at h
  exact h

theorem v188_apply (t : Fin 16448) (k : Fin 64) :
    IntChain.i_v188 bs (ix2 t k) = IntChain.i_v176 bs (ix1 k) := by
  have h := bcast_cols (n := 16448) bcast_S64_S1x64_1 bcast_S1x64_S16448x64_0_1 (IntChain.i_v176 bs) t k
  rw [ij_eq_ix2, ofFin_eq_ix1] at h
  exact h

theorem v194_apply (t : Fin 16448) (k : Fin 64) :
    IntChain.i_v194 bs (ix2 t k) = BitVec.ofNat 32 k.val := by
  have h := bcast_cols (n := 16448) bcast_S64_S1x64_1 bcast_S1x64_S16448x64_0_1 (IntChain.i_v192 bs) t k
  rw [ij_eq_ix2, ofFin_eq_ix1] at h
  exact h

/-- The mask bit of window \`t\` and block \`k\`: start not before the padded offset, and before the padded end. -/
theorem v190_apply (t : Fin 16448) (k : Fin 64) :
    IntChain.i_v190 bs (ix2 t k)
      = IntOp.andi (IntOp.cmpi .sge (IntChain.i_v179 bs (ix1 t)) (IntChain.i_v110 bs (ix1 k)))
          (IntOp.cmpi .slt (IntChain.i_v179 bs (ix1 t)) (IntChain.i_v176 bs (ix1 k))) := by
  show IntOp.andi (IntOp.cmpi .sge (IntChain.i_v182 bs (ix2 t k)) (IntChain.i_v183 bs (ix2 t k)))
      (IntOp.cmpi .slt (IntChain.i_v187 bs (ix2 t k)) (IntChain.i_v188 bs (ix2 t k))) = _
  rw [v182_apply, v183_apply, v187_apply, v188_apply]

/-- The product of the widened mask bit and the block number. -/
theorem v195_apply (t : Fin 16448) (k : Fin 64) :
    IntChain.i_v195 bs (ix2 t k)
      = (IntChain.i_v190 bs (ix2 t k)).setWidth 32 * BitVec.ofNat 32 k.val := by
  show IntOp.muli ((IntChain.i_v190 bs (ix2 t k)).setWidth 32) (IntChain.i_v194 bs (ix2 t k)) = _
  rw [v194_apply]
  rfl

/-! ### The values -/

section Values

variable (b : Fin 4194304 → Nat)
  (hpo : ∀ k : Fin 64, (IntChain.i_v110 bs (ix1 k)).toNat = Slots.po b k)
  (hpe : ∀ k : Fin 64, (IntChain.i_v176 bs (ix1 k)).toNat = Slots.po b k + Slots.pc b k)
  (hb : ∀ i, b i < 64)

include hpo hpe hb

/-- The mask bit is set exactly when the window starts inside the block's padded run. -/
theorem mask_iff (t : Fin 16448) (k : Fin 64) :
    IntChain.i_v190 bs (ix2 t k) = 1#1 ↔ Slots.Hit b t.val k.val := by
  have ht := t.isLt
  have hA := v179_toNat bs t
  have hP := hpo k
  have hE := hpe k
  have hle := Slots.po_add_pc_le b hb k.val k.isLt
  have hA31 : (IntChain.i_v179 bs (ix1 t)).toNat < 2 ^ 31 := by omega
  have hP31 : (IntChain.i_v110 bs (ix1 k)).toNat < 2 ^ 31 := by omega
  have hE31 : (IntChain.i_v176 bs (ix1 k)).toNat < 2 ^ 31 := by omega
  rw [v190_apply, andi_eq_one_iff, LibIntOps.cmpi_sge_iff, LibIntOps.cmpi_slt_iff,
    toInt_eq_toNat_of_lt hA31, toInt_eq_toNat_of_lt hP31, toInt_eq_toNat_of_lt hE31]
  unfold Slots.Hit
  omega

/-- Each product is the block number when the window starts inside the block's padded run, else zero. -/
theorem v195_toNat (t : Fin 16448) (k : Fin 64) :
    (IntChain.i_v195 bs (ix2 t k)).toNat = if Slots.Hit b t.val k.val then k.val else 0 := by
  have hk := k.isLt
  have hkw : (BitVec.ofNat 32 k.val).toNat = k.val := LibIntOps.toNat_ofNat_lt (by omega)
  have hm : ((IntChain.i_v190 bs (ix2 t k)).setWidth 32).toNat = if Slots.Hit b t.val k.val then 1 else 0 := by
    rw [toNat_setWidth_bit]
    by_cases h : Slots.Hit b t.val k.val
    · rw [if_pos ((mask_iff bs b hpo hpe hb t k).2 h), if_pos h]
    · rw [if_neg (fun hc => h ((mask_iff bs b hpo hpe hb t k).1 hc)), if_neg h]
  rw [v195_apply, LibIntOps.toNat_mul_of_lt (by rw [hm, hkw]; split <;> omega), hm, hkw]
  split <;> omega

/-- THE TILE TABLE: entry \`t\` is the block whose padded run contains the start of window \`t\`. -/
theorem tile_eq (t : Fin 16448) : (IntChain.i_v196 bs (ix1 t)).toNat = Slots.tile b t.val := by
  have h := LibIntOps.toNat_reduce_addi_cols (IntChain.i_v195 bs) reducesTo_S16448x64_S16448_d1
    (IntChain.i_c_54 bs) h_S_ rfl t 63
    (fun c => by
      rw [v195_toNat bs b hpo hpe hb t c]
      have := c.isLt
      split <;> omega)
    (by norm_num)
  refine h.trans ?_
  unfold Slots.tile
  rw [← Fin.sum_univ_eq_sum_range (fun k => if Slots.Hit b t.val k then k else 0) 64]
  exact Finset.sum_congr rfl fun k _ => v195_toNat bs b hpo hpe hb t k

theorem tile_lt (t : Fin 16448) : (IntChain.i_v196 bs (ix1 t)).toNat < 64 := by
  rw [tile_eq bs b hpo hpe hb t]
  exact Slots.tile_lt b t.val

end Values

end Cert.AlphaGrid.IntBridgeTile
-- ==== Proof.OkKernel.lean ====
/-
  The side condition of the block pipeline of the word-level program. Window 0 stages, at grid point t, the block
  [1, 64, 4096] of the [64, 64, 4096] volume whose first coordinate is word t of the tile table (the block id of
  tile t), the other two coordinates being 0. The block lies inside the volume as soon as that word is below 64,
  and it is made of whole 32-bit words of bf16 pairs because it takes every row of the slab it meets (its row axis
  has the volume's full extent 64, starting at 0). The table is computed by @main itself: it is the tile table of
  the sorted block ids, each of which is below 64 (a block id is 16 bx + 4 by + bz of coordinates clipped to
  [0, 3], and sorting permutes them), so every word of it is the id of the block whose padded run holds the tile's
  start, below 64, and no hypothesis on the inputs is needed.
-/
import proofs.«104803_j90202903151142_1_alg».proof.Proof.Gen.Kernel.Frame
import proofs.«104803_j90202903151142_1_alg».proof.Proof.Gen.KernelIdeal
import proofs.«104803_j90202903151142_1_alg».proof.Proof.IntChain
import proofs.«104803_j90202903151142_1_alg».proof.Proof.Glue
import proofs.«104803_j90202903151142_1_alg».proof.Proof.KernelChainK30
import proofs.«104803_j90202903151142_1_alg».proof.Proof.KernelChainK
import proofs.«104803_j90202903151142_1_alg».proof.Proof.GlueFacts
import proofs.«104803_j90202903151142_1_alg».proof.Proof.IntBridge
import proofs.«104803_j90202903151142_1_alg».proof.Proof.IntBridgeTile
import Idealize.ShloMosaic.Lib.Affine
import Idealize.ShloMosaic.Lib.ValueIdx

set_option maxRecDepth 16384

noncomputable section

namespace Cert.AlphaGrid.OkKernel

open Cert.Kernel Cert.Kernel.Gen
open Idealize.ShloMosaic Idealize.ShloMosaic.TcCoe Idealize.SL.Sem
open Idealize.ShloMosaic.ValueIdx

variable {F : FTy → Type} [FloatOps F]

/-- For ANY contents pf of the table whose 16448 words are all below 64, every block of window 0 is inside the
    volume and is whole words. The index map at point i is (w, 0, 0) with w a word of pf; on the first axis
    (w + 1) * 1 ≤ 64, on the two others (0 + 1) * 64 ≤ 64 and (0 + 1) * 4096 ≤ 4096. The block's row axis (extent
    64) is the volume's whole row axis, so the block is a union of whole rows: whole words at any packing, in
    particular at two bf16 per word. -/
theorem ok0_of_lt (pf : pre0.Contents (Elt F)) (h : ∀ t : Fin 16448, (pf 0 (ix1 t)).toNat < 64) : ok0 pf := by
  intro i
  have hl : ∀ x, (pf 0 x).toNat < 64 := fun x => by rw [eq_ix1 x]; exact h _
  obtain ⟨w, hw, e⟩ : ∃ w : BitVec 32, w.toNat < 64 ∧
      cc0_transform_0 Facts₀.k0_off1_inb Facts₀.numel1_S1 pf i = ![w.toNat, 0, 0] :=
    ⟨_, hl _, rfl⟩
  refine ⟨fun a => ?_, Or.inr ?_⟩
  · rw [e]
    fin_cases a <;> simp [S1x64x4096, S64x64x4096] <;> omega
  · exact Affine.block_words_rows (by decide) rfl

/-- Every word of the tile table of block ids below 64 is below 64: it is the id of the one block whose padded run
    of slots holds the tile's start. -/
theorem tile_words_lt (bs : IVec Cert.KernelIdeal.S4194304 32) (hb : ∀ i : Fin 4194304, (bs (ix1 i)).toNat < 64)
    (t : Fin 16448) : (Cert.AlphaGrid.IntChain.i_v196 bs (ix1 t)).toNat < 64 :=
  Cert.AlphaGrid.IntBridgeTile.tile_lt bs (fun i => (bs (ix1 i)).toNat) (Cert.AlphaGrid.IntBridge.hpo bs hb)
    (Cert.AlphaGrid.IntBridge.hpe bs hb) hb t

variable (m : (ℓ : Loc nD τ sig) → Buf (Elt F) ℓ)

/-- The table the region reads at entry is what @main has left in the table's buffer. If that is the tile table
    of some block ids bs and its words are below 64, the side condition holds. -/
theorem ok_of_tbl (bs : IVec Cert.KernelIdeal.S4194304 32)
    (hT : V m (0 : Dev nD) main_v196 = Cert.AlphaGrid.IntChain.i_v196 bs)
    (hlt : ∀ t : Fin 16448, (Cert.AlphaGrid.IntChain.i_v196 bs (ix1 t)).toNat < 64) : Ok m := by
  refine ok0_of_lt (tbl m) fun t => ?_
  have e : tbl m 0 = Cert.AlphaGrid.IntChain.i_v196 bs := hT
  rw [e]; exact hlt t

/-- The side condition from the two values @main leaves: the sorted block ids are the ones computed from the points
    (h30), hence below 64, and the table is their tile table (h196). -/
theorem ok_of_chain
    (h30 : V m (0 : Dev nD) main_v30 = Cert.AlphaGrid.Glue.g_v30 (m (((0 : Dev nD) : Thread nD τ).loc main_arg0))
      (m (((0 : Dev nD) : Thread nD τ).loc main_arg1)) (m (((0 : Dev nD) : Thread nD τ).loc main_arg3))
      (m (((0 : Dev nD) : Thread nD τ).loc main_arg4)))
    (h196 : V m (0 : Dev nD) main_v196 = Cert.AlphaGrid.IntChain.i_v196 (V m (0 : Dev nD) main_v30)) : Ok m := by
  refine ok_of_tbl m _ h196 (tile_words_lt _ fun i => ?_)
  rw [h30]
  exact Cert.AlphaGrid.GlueFacts.bs_lt _ _ _ _ i

/-- THE SIDE CONDITION, for every launch memory: no hypothesis on the inputs is needed, the table being computed by
    @main itself from block ids that are below 64 by construction. -/
theorem ok_of_pre : Ok m :=
  ok_of_chain m (Cert.AlphaGrid.KernelChainK30.V_main_v30 m 0)
    (Cert.AlphaGrid.KernelChainCK.V_main_v196 m 0)

end Cert.AlphaGrid.OkKernel

end
-- ==== Proof.KernelChain0.lean ====
/- The host operations before the region, cut into stretches: the buffer contents between the stretches as
   named valuations, each the fold of one short list of operations over the one before it, and the whole fold
   `Gen.V0` as the last of them. A value is then read over one stretch at a time. -/
import proofs.«104803_j90202903151142_1_alg».proof.Proof.Gen.KernelIdeal.Frame
import proofs.«104803_j90202903151142_1_alg».proof.Proof.Glue
import proofs.«104803_j90202903151142_1_alg».proof.Proof.IntChain

set_option maxRecDepth 16384

noncomputable section

namespace Cert.AlphaGrid.KernelChain

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

attribute [local irreducible] Host.sort2 Host.gather Host.scatter Host.reduce Host.reduceWindow

/-- The contents after a line of operations is the contents after its tail from the contents after its head. -/
theorem after_split (l : List (HloOp τ sig (Elt F))) (k : Nat) (W : Valuation τ sig (Elt F)) :
    StableHlo.after l W = StableHlo.after (l.drop k) (StableHlo.after (l.take k) W) := by
  rw [← StableHlo.after_append, List.take_append_drop]

/-- The buffer contents after the host operations up to the sort of the block ids. -/
@[irreducible] def Wa (c : Dev nD) : Valuation τ sig (Elt F) :=
  StableHlo.after hostOps0_3 (StableHlo.after hostOps0_2 (StableHlo.after hostOps0_1 (StableHlo.after hostOps0 (fun b => m (c, b)))))
/-- … once the block ids are sorted. -/
@[irreducible] def W4a (c : Dev nD) : Valuation τ sig (Elt F) := StableHlo.after (hostOps0_4.take 9) (Wa m c)
/-- … once the sorted points' weights and base cells are computed. -/
@[irreducible] def W4b (c : Dev nD) : Valuation τ sig (Elt F) := StableHlo.after ((hostOps0_4.drop 9).take 78) (W4a m c)
/-- … once the points of every block are counted. -/
@[irreducible] def W4 (c : Dev nD) : Valuation τ sig (Elt F) := StableHlo.after ((hostOps0_4.drop 9).drop 78) (W4b m c)
/-- … after the offsets and the padded offsets of the blocks. -/
@[irreducible] def Wb (c : Dev nD) : Valuation τ sig (Elt F) :=
  StableHlo.after hostOps0_9 (StableHlo.after hostOps0_8 (StableHlo.after hostOps0_7 (StableHlo.after hostOps0_6 (StableHlo.after hostOps0_5 (W4 m c)))))
/-- … once every point has its slot. -/
@[irreducible] def W10a (c : Dev nD) : Valuation τ sig (Elt F) := StableHlo.after (hostOps0_10.take 23) (Wb m c)
/-- … once the six arrays are scattered to the slots. -/
@[irreducible] def W10b (c : Dev nD) : Valuation τ sig (Elt F) := StableHlo.after ((hostOps0_10.drop 23).take 66) (W10a m c)
/-- … once every tile has its block. -/
@[irreducible] def W10c (c : Dev nD) : Valuation τ sig (Elt F) := StableHlo.after (((hostOps0_10.drop 23).drop 66).take 23) (W10b m c)
/-- … when the region is entered. -/
@[irreducible] def W10 (c : Dev nD) : Valuation τ sig (Elt F) := StableHlo.after (((hostOps0_10.drop 23).drop 66).drop 23) (W10c m c)

/-- The fold over all the host operations before the region, cut at those points. -/
theorem V0_eq (c : Dev nD) : V0 m c = W10 m c := by
  unfold W10 W10c W10b W10a Wb W4 W4b W4a Wa
  rw [← after_split, ← after_split, ← after_split, ← after_split, ← after_split]
  simp only [Gen.V0, List.flatten_cons, List.flatten_nil, List.append_nil, StableHlo.after_append]

end Cert.AlphaGrid.KernelChain
end
-- ==== Proof.KernelChain.lean ====
/- The values the region finds, read stretch by stretch over the valuations of KernelChain0: the sorted block ids
   (main_v30) as the stage function of the four argument arrays, and the integer chain after them (counts,
   offsets, padded offsets, slots, the tile table) as stage functions of the sorted block ids. Each value is
   read over one short stretch from the values the stretch takes in; a value a stretch does not write is
   carried across it. -/
import proofs.«104803_j90202903151142_1_alg».proof.Proof.KernelChain0

set_option maxRecDepth 16384

noncomputable section

namespace Cert.AlphaGrid.KernelChain

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

attribute [local irreducible] Host.sort2 Host.gather Host.scatter Host.reduce Host.reduceWindow
/-- The host operations up to the sort do not write this argument. -/
theorem Wa_arg0 (c : Dev nD) : Wa m c (Proc.devRef .tc main_arg0) = m ((c : Thread nD τ).loc main_arg0) := by
  unfold Wa
  simp only [Gen.hostOps0, Gen.hostOps0_1, Gen.hostOps0_2, Gen.hostOps0_3]
  after_results_simp <;> (try simp only [StableHlo.TRef.ofBuf, StableHlo.TRef.toBuf, cast_eq]) <;> (try rfl)
/-- The host operations up to the sort do not write this argument. -/
theorem Wa_arg3 (c : Dev nD) : Wa m c (Proc.devRef .tc main_arg3) = m ((c : Thread nD τ).loc main_arg3) := by
  unfold Wa
  simp only [Gen.hostOps0, Gen.hostOps0_1, Gen.hostOps0_2, Gen.hostOps0_3]
  after_results_simp <;> (try simp only [StableHlo.TRef.ofBuf, StableHlo.TRef.toBuf, cast_eq]) <;> (try rfl)
/-- The host operations up to the sort do not write this argument. -/
theorem Wa_arg4 (c : Dev nD) : Wa m c (Proc.devRef .tc main_arg4) = m ((c : Thread nD τ).loc main_arg4) := by
  unfold Wa
  simp only [Gen.hostOps0, Gen.hostOps0_1, Gen.hostOps0_2, Gen.hostOps0_3]
  after_results_simp <;> (try simp only [StableHlo.TRef.ofBuf, StableHlo.TRef.toBuf, cast_eq]) <;> (try rfl)
/-- The block id of every point, before sorting. -/
theorem Wa_v22 (c : Dev nD) : Wa m c (Proc.devRef .tc main_v22) = Glue.g_v22 (m ((c : Thread nD τ).loc main_arg0)) (m ((c : Thread nD τ).loc main_arg1)) (m ((c : Thread nD τ).loc main_arg3)) (m ((c : Thread nD τ).loc main_arg4)) := by
  unfold Wa
  simp only [Gen.hostOps0, Gen.hostOps0_1, Gen.hostOps0_2, Gen.hostOps0_3]
  after_results_simp <;> (try simp only [StableHlo.TRef.ofBuf, StableHlo.TRef.toBuf, cast_eq]) <;> (try rfl)

/-- The block id of every point, before sorting (read before the sort's own line). -/
theorem pre_v22 (c : Dev nD) : StableHlo.after hostOps0_2 (StableHlo.after hostOps0_1 (StableHlo.after hostOps0 (fun b => m (c, b)))) (Proc.devRef .tc main_v22) = Glue.g_v22 (m ((c : Thread nD τ).loc main_arg0)) (m ((c : Thread nD τ).loc main_arg1)) (m ((c : Thread nD τ).loc main_arg3)) (m ((c : Thread nD τ).loc main_arg4)) := by
  after_results_simp
  simp only [StableHlo.TRef.ofBuf, StableHlo.TRef.toBuf, cast_eq]
  try rfl

/-- The permutation that sorts the points by block: the sort's second result, its operands the block ids and the
    identity permutation. -/
theorem Wa_v23 (c : Dev nD) : Wa m c (Proc.devRef .tc main_v23) = Glue.g_v23 (m ((c : Thread nD τ).loc main_arg0)) (m ((c : Thread nD τ).loc main_arg1)) (m ((c : Thread nD τ).loc main_arg3)) (m ((c : Thread nD τ).loc main_arg4)) := by
  unfold Wa
  have h := pre_v22 m c
  generalize StableHlo.after hostOps0_2 (StableHlo.after hostOps0_1 (StableHlo.after hostOps0 (fun b => m (c, b)))) = W at h ⊢
  after_results_simp
  simp only [StableHlo.TRef.ofBuf, StableHlo.TRef.toBuf, cast_eq, h]
  try rfl
/-- The sorted block ids: the block ids gathered along the sorting permutation. -/
theorem W4a_v30 (c : Dev nD) : W4a m c (Proc.devRef .tc main_v30) = Glue.g_v30 (m ((c : Thread nD τ).loc main_arg0)) (m ((c : Thread nD τ).loc main_arg1)) (m ((c : Thread nD τ).loc main_arg3)) (m ((c : Thread nD τ).loc main_arg4)) := by
  unfold W4a
  simp only [Gen.hostOps0_4, List.take_succ_cons, List.take_zero, List.drop_succ_cons, List.drop_zero]
  after_results_simp <;> (try simp only [StableHlo.TRef.ofBuf, StableHlo.TRef.toBuf, cast_eq, Wa_v22 m c, Wa_v23 m c]) <;> (try rfl)
theorem W4a_arg0 (c : Dev nD) : W4a m c (Proc.devRef .tc main_arg0) = m ((c : Thread nD τ).loc main_arg0) := by
  unfold W4a
  simp only [Gen.hostOps0_4, List.take_succ_cons, List.take_zero, List.drop_succ_cons, List.drop_zero]
  after_results_simp <;> (try simp only [StableHlo.TRef.ofBuf, StableHlo.TRef.toBuf, cast_eq, Wa_arg0 m c]) <;> (try rfl)
theorem W4a_arg3 (c : Dev nD) : W4a m c (Proc.devRef .tc main_arg3) = m ((c : Thread nD τ).loc main_arg3) := by
  unfold W4a
  simp only [Gen.hostOps0_4, List.take_succ_cons, List.take_zero, List.drop_succ_cons, List.drop_zero]
  after_results_simp <;> (try simp only [StableHlo.TRef.ofBuf, StableHlo.TRef.toBuf, cast_eq, Wa_arg3 m c]) <;> (try rfl)
theorem W4a_arg4 (c : Dev nD) : W4a m c (Proc.devRef .tc main_arg4) = m ((c : Thread nD τ).loc main_arg4) := by
  unfold W4a
  simp only [Gen.hostOps0_4, List.take_succ_cons, List.take_zero, List.drop_succ_cons, List.drop_zero]
  after_results_simp <;> (try simp only [StableHlo.TRef.ofBuf, StableHlo.TRef.toBuf, cast_eq, Wa_arg4 m c]) <;> (try rfl)
theorem W4a_v22 (c : Dev nD) : W4a m c (Proc.devRef .tc main_v22) = Glue.g_v22 (m ((c : Thread nD τ).loc main_arg0)) (m ((c : Thread nD τ).loc main_arg1)) (m ((c : Thread nD τ).loc main_arg3)) (m ((c : Thread nD τ).loc main_arg4)) := by
  unfold W4a
  simp only [Gen.hostOps0_4, List.take_succ_cons, List.take_zero, List.drop_succ_cons, List.drop_zero]
  after_results_simp <;> (try simp only [StableHlo.TRef.ofBuf, StableHlo.TRef.toBuf, cast_eq, Wa_v22 m c]) <;> (try rfl)
theorem W4a_v23 (c : Dev nD) : W4a m c (Proc.devRef .tc main_v23) = Glue.g_v23 (m ((c : Thread nD τ).loc main_arg0)) (m ((c : Thread nD τ).loc main_arg1)) (m ((c : Thread nD τ).loc main_arg3)) (m ((c : Thread nD τ).loc main_arg4)) := by
  unfold W4a
  simp only [Gen.hostOps0_4, List.take_succ_cons, List.take_zero, List.drop_succ_cons, List.drop_zero]
  after_results_simp <;> (try simp only [StableHlo.TRef.ofBuf, StableHlo.TRef.toBuf, cast_eq, Wa_v23 m c]) <;> (try rfl)
/-- The sorted block ids are not written while the points' coordinates are computed. -/
theorem W4b_v30 (c : Dev nD) : W4b m c (Proc.devRef .tc main_v30) = Glue.g_v30 (m ((c : Thread nD τ).loc main_arg0)) (m ((c : Thread nD τ).loc main_arg1)) (m ((c : Thread nD τ).loc main_arg3)) (m ((c : Thread nD τ).loc main_arg4)) := by
  unfold W4b
  refine (StableHlo.after_of_forall_not_mem (b := Proc.devRef .tc main_v30) _ _ (List.forall_iff_forall_mem.mp (by
    simp only [Gen.hostOps0_4, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact W4a_v30 m c
theorem W4_v30 (c : Dev nD) : W4 m c (Proc.devRef .tc main_v30) = Glue.g_v30 (m ((c : Thread nD τ).loc main_arg0)) (m ((c : Thread nD τ).loc main_arg1)) (m ((c : Thread nD τ).loc main_arg3)) (m ((c : Thread nD τ).loc main_arg4)) := by
  unfold W4
  simp only [Gen.hostOps0_4, List.take_succ_cons, List.take_zero, List.drop_succ_cons, List.drop_zero]
  after_results_simp <;> (try simp only [StableHlo.TRef.ofBuf, StableHlo.TRef.toBuf, cast_eq, W4b_v30 m c]) <;> (try rfl)
theorem Wb_v30 (c : Dev nD) : Wb m c (Proc.devRef .tc main_v30) = Glue.g_v30 (m ((c : Thread nD τ).loc main_arg0)) (m ((c : Thread nD τ).loc main_arg1)) (m ((c : Thread nD τ).loc main_arg3)) (m ((c : Thread nD τ).loc main_arg4)) := by
  unfold Wb
  simp only [Gen.hostOps0_5, Gen.hostOps0_6, Gen.hostOps0_7, Gen.hostOps0_8, Gen.hostOps0_9]
  after_results_simp <;> (try simp only [StableHlo.TRef.ofBuf, StableHlo.TRef.toBuf, cast_eq, W4_v30 m c]) <;> (try rfl)
theorem W10a_v30 (c : Dev nD) : W10a m c (Proc.devRef .tc main_v30) = Glue.g_v30 (m ((c : Thread nD τ).loc main_arg0)) (m ((c : Thread nD τ).loc main_arg1)) (m ((c : Thread nD τ).loc main_arg3)) (m ((c : Thread nD τ).loc main_arg4)) := by
  unfold W10a
  simp only [Gen.hostOps0_10, List.take_succ_cons, List.take_zero, List.drop_succ_cons, List.drop_zero]
  after_results_simp <;> (try simp only [StableHlo.TRef.ofBuf, StableHlo.TRef.toBuf, cast_eq, Wb_v30 m c]) <;> (try rfl)
theorem W10b_v30 (c : Dev nD) : W10b m c (Proc.devRef .tc main_v30) = Glue.g_v30 (m ((c : Thread nD τ).loc main_arg0)) (m ((c : Thread nD τ).loc main_arg1)) (m ((c : Thread nD τ).loc main_arg3)) (m ((c : Thread nD τ).loc main_arg4)) := by
  unfold W10b
  refine (StableHlo.after_of_forall_not_mem (b := Proc.devRef .tc main_v30) _ _ (List.forall_iff_forall_mem.mp (by
    simp only [Gen.hostOps0_10, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact W10a_v30 m c
theorem W10c_v30 (c : Dev nD) : W10c m c (Proc.devRef .tc main_v30) = Glue.g_v30 (m ((c : Thread nD τ).loc main_arg0)) (m ((c : Thread nD τ).loc main_arg1)) (m ((c : Thread nD τ).loc main_arg3)) (m ((c : Thread nD τ).loc main_arg4)) := by
  unfold W10c
  simp only [Gen.hostOps0_10, List.take_succ_cons, List.take_zero, List.drop_succ_cons, List.drop_zero]
  after_results_simp <;> (try simp only [StableHlo.TRef.ofBuf, StableHlo.TRef.toBuf, cast_eq, W10b_v30 m c]) <;> (try rfl)
theorem W10_v30 (c : Dev nD) : W10 m c (Proc.devRef .tc main_v30) = Glue.g_v30 (m ((c : Thread nD τ).loc main_arg0)) (m ((c : Thread nD τ).loc main_arg1)) (m ((c : Thread nD τ).loc main_arg3)) (m ((c : Thread nD τ).loc main_arg4)) := by
  unfold W10
  simp only [Gen.hostOps0_10, List.take_succ_cons, List.take_zero, List.drop_succ_cons, List.drop_zero]
  after_results_simp <;> (try simp only [StableHlo.TRef.ofBuf, StableHlo.TRef.toBuf, cast_eq, W10c_v30 m c]) <;> (try rfl)

/-- The sorted block ids, as the region finds them. -/
theorem V_v30 (c : Dev nD) : V m c main_v30 = Glue.g_v30 (m ((c : Thread nD τ).loc main_arg0)) (m ((c : Thread nD τ).loc main_arg1)) (m ((c : Thread nD τ).loc main_arg3)) (m ((c : Thread nD τ).loc main_arg4)) := by
  show V0 m c (Proc.devRef .tc main_v30) = _
  rw [V0_eq]; exact W10_v30 m c

end Cert.AlphaGrid.KernelChain
end
-- ==== Proof.KernelChainB.lean ====
/-
  The integer arrays the kernel's program computes from the sorted block ids, as they stand when the staged region is
  entered.

  The host operations before the region form one straight line in which every array is written once. The line is cut
  where a later stretch begins: after the sorted block ids and the cells and weights are in place come the per-block
  counts (a scatter-add of ones), their running sum, the exclusive offsets, the counts rounded up to whole tiles of 256
  (add 255, floor-divide by 256, multiply by 256), the running sum and exclusive offsets of those, and per point the
  padded offset of its block, its rank inside its block, and their sum: the point's slot. Each cut is read on its own
  — an array written in a cut is the printed operation applied to what its operands held when the cut began, and an
  array no operation of a cut writes comes out of it as it went in — and the values are carried from cut to cut as
  functions of the sorted block ids alone.
-/
import proofs.«104803_j90202903151142_1_alg».proof.Proof.Gen.KernelIdeal.Frame
import proofs.«104803_j90202903151142_1_alg».proof.Proof.IntChain

set_option maxRecDepth 16384

noncomputable section

namespace Cert.AlphaGrid.KernelChainB

open Idealize.ShloMosaic Idealize.ShloMosaic.TcCoe
open Cert.KernelIdeal Cert.KernelIdeal.Gen

variable {F : FTy → Type} [FloatOps F]

variable (m : (ℓ : Loc nD τ sig) → Buf (Elt F) ℓ)

/-! ### Cutting the line of host operations -/

/-- A line run from `W` is its first `k` operations run from `W`, then the rest. -/
theorem after_split (l : List (HloOp τ sig (Elt F))) (k : Nat) (W : Valuation τ sig (Elt F)) :
    StableHlo.after l W = StableHlo.after (l.drop k) (StableHlo.after (l.take k) W) := by
  rw [← StableHlo.after_append, List.take_append_drop]

/-- The contents when the sorted block ids, the cells and the weights are in place (the first four stretches and the
    first 87 operations of the fifth). -/
def Wbase (c : Dev nD) : Valuation τ sig (Elt F) :=
  StableHlo.after ((hostOps0_4 (F := F)).take 87) (StableHlo.after hostOps0_3 (StableHlo.after hostOps0_2
    (StableHlo.after hostOps0_1 (StableHlo.after hostOps0 (fun b => m (c, b))))))

/-- After the counts (the rest of the fifth stretch), -/
def Wcnt (c : Dev nD) : Valuation τ sig (Elt F) := StableHlo.after ((hostOps0_4 (F := F)).drop 87) (Wbase m c)
/-- their running sum, -/
def Wsum (c : Dev nD) : Valuation τ sig (Elt F) := StableHlo.after hostOps0_5 (Wcnt m c)
/-- the exclusive offsets and the counts plus 255, -/
def Woff (c : Dev nD) : Valuation τ sig (Elt F) := StableHlo.after hostOps0_6 (Wsum m c)
/-- the floor division by 256, -/
def Wdiv (c : Dev nD) : Valuation τ sig (Elt F) := StableHlo.after hostOps0_7 (Woff m c)
/-- the padded counts, -/
def Wpad (c : Dev nD) : Valuation τ sig (Elt F) := StableHlo.after hostOps0_8 (Wdiv m c)
/-- their running sum, -/
def Wpsum (c : Dev nD) : Valuation τ sig (Elt F) := StableHlo.after hostOps0_9 (Wpad m c)
/-- and the slots (the first 23 operations of the last stretch). -/
def Wslot (c : Dev nD) : Valuation τ sig (Elt F) := StableHlo.after ((hostOps0_10 (F := F)).take 23) (Wpsum m c)

/-- The region is entered after the rest of the last stretch. -/
theorem V0_eq (c : Dev nD) : V0 m c = StableHlo.after ((hostOps0_10 (F := F)).drop 23) (Wslot m c) := by
  show StableHlo.after (List.flatten [hostOps0, hostOps0_1, hostOps0_2, hostOps0_3, hostOps0_4, hostOps0_5, hostOps0_6,
    hostOps0_7, hostOps0_8, hostOps0_9, hostOps0_10]) (fun b => m (c, b)) = _
  rw [List.flatten_cons, List.flatten_cons, List.flatten_cons, List.flatten_cons, List.flatten_cons, List.flatten_cons,
    List.flatten_cons, List.flatten_cons, List.flatten_cons, List.flatten_cons, List.flatten_cons, List.flatten_nil,
    List.append_nil, StableHlo.after_append, StableHlo.after_append, StableHlo.after_append, StableHlo.after_append,
    StableHlo.after_append, StableHlo.after_append, StableHlo.after_append, StableHlo.after_append,
    StableHlo.after_append, StableHlo.after_append, after_split hostOps0_10 23, after_split hostOps0_4 87]
  rfl

/-! ### An array that a cut does not write -/

macro "not_written" : tactic =>
  `(tactic| (refine List.forall_iff_forall_mem.mp ?_
             simp only [hostOps0_4, hostOps0_5, hostOps0_6, hostOps0_7, hostOps0_8, hostOps0_9, hostOps0_10,
               List.drop_succ_cons, List.drop_zero, List.take_succ_cons, List.take_zero, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ### Typed references of an inlined function: storing and reading back change nothing -/

/-- Reading back, at a value's type, what was stored at it. -/
theorem ofBuf_toBuf {T : BufTy} (x : StableHlo.TRef sig T) (v : T.Contents (Elt F)) : x.ofBuf (x.toBuf v) = v := by
  obtain ⟨r, h, _, _⟩ := x
  subst h
  rfl

/-- A transport along an equation of types whose two sides are the same type is the identity. -/
theorem cast_of_heq {A B : Type} (h : A = B) (u : A) (u' : B) (e : HEq u u') : cast h u = u' := cast_eq_iff_heq.2 e

/-- The sorted block ids as the cuts find them. -/
abbrev ids (c : Dev nD) : IVec S4194304 32 := Wbase m c (Proc.devRef .tc main_v30)

/-! ### The counts -/

set_option maxHeartbeats 4000000 in
/-- After the first cut: the sorted block ids are as before, and the per-block counts and the one zero that will stand in
    front of the exclusive offsets are the chain's. -/
theorem cnt_all (c : Dev nD) :
    Wcnt m c (Proc.devRef .tc main_v30) = ids m c
      ∧ Wcnt m c (Proc.devRef .tc main_v95) = IntChain.i_v95 (ids m c)
      ∧ Wcnt m c (Proc.devRef .tc main_v96) = IntChain.i_v96 (ids m c) := by
  show StableHlo.after ((hostOps0_4 (F := F)).drop 87) (Wbase m c) (Proc.devRef .tc main_v30)
        = Wbase m c (Proc.devRef .tc main_v30)
      ∧ StableHlo.after ((hostOps0_4 (F := F)).drop 87) (Wbase m c) (Proc.devRef .tc main_v95)
        = IntChain.i_v95 (Wbase m c (Proc.devRef .tc main_v30))
      ∧ StableHlo.after ((hostOps0_4 (F := F)).drop 87) (Wbase m c) (Proc.devRef .tc main_v96)
        = IntChain.i_v96 (Wbase m c (Proc.devRef .tc main_v30))
  generalize Wbase m c = W
  simp only [hostOps0_4, List.drop_succ_cons, List.drop_zero]
  after_results
  exact ⟨rfl, rfl, rfl⟩

theorem ids_cnt (c : Dev nD) : Wcnt m c (Proc.devRef .tc main_v30) = ids m c := (cnt_all m c).1
theorem cnt_v95 (c : Dev nD) : Wcnt m c (Proc.devRef .tc main_v95) = IntChain.i_v95 (ids m c) := (cnt_all m c).2.1
theorem cnt_v96 (c : Dev nD) : Wcnt m c (Proc.devRef .tc main_v96) = IntChain.i_v96 (ids m c) := (cnt_all m c).2.2

/-! ### Their running sum -/

theorem ids_sum (c : Dev nD) : Wsum m c (Proc.devRef .tc main_v30) = ids m c :=
  (StableHlo.after_of_forall_not_mem _ _ (by not_written)).trans (ids_cnt m c)
theorem sum_v95 (c : Dev nD) : Wsum m c (Proc.devRef .tc main_v95) = IntChain.i_v95 (ids m c) :=
  (StableHlo.after_of_forall_not_mem _ _ (by not_written)).trans (cnt_v95 m c)
theorem sum_v96 (c : Dev nD) : Wsum m c (Proc.devRef .tc main_v96) = IntChain.i_v96 (ids m c) :=
  (StableHlo.after_of_forall_not_mem _ _ (by not_written)).trans (cnt_v96 m c)

set_option maxHeartbeats 1000000 in
theorem sum_v97 (c : Dev nD) : Wsum m c (Proc.devRef .tc main_v97) = IntChain.i_v97 (ids m c) := by
  have h95 := cnt_v95 m c
  show StableHlo.after hostOps0_5 (Wcnt m c) (Proc.devRef .tc main_v97) = _
  generalize ids m c = bs at h95 ⊢
  generalize Wcnt m c = W at h95 ⊢
  have e95 : ∀ h1 h2 h3, (StableHlo.TRef.of main_v95 h1 h2 h3 : StableHlo.TRef sig ⟨S64, .i32⟩).ofBuf (Val := Elt F)
      (W (Proc.devRef .tc main_v95)) = IntChain.i_v95 bs :=
    fun h1 h2 h3 => cast_of_heq _ _ _ (heq_of_eq h95)
  simp only [hostOps0_5]
  after_results
  simp only [ofBuf_toBuf, e95]
  refine cast_of_heq _ _ _ (heq_of_eq ?_)
  rfl

/-! ### The exclusive offsets, and the counts plus 255 -/

theorem ids_off (c : Dev nD) : Woff m c (Proc.devRef .tc main_v30) = ids m c :=
  (StableHlo.after_of_forall_not_mem _ _ (by not_written)).trans (ids_sum m c)

set_option maxHeartbeats 1000000 in
/-- The exclusive offsets: a zero, then the running sum without its last entry. -/
theorem off_v99 (c : Dev nD) : Woff m c (Proc.devRef .tc main_v99) = IntChain.i_v99 (ids m c) := by
  have h96 := sum_v96 m c
  have h97 := sum_v97 m c
  show StableHlo.after hostOps0_6 (Wsum m c) (Proc.devRef .tc main_v99) = _
  generalize ids m c = bs at h96 h97 ⊢
  generalize Wsum m c = W at h96 h97 ⊢
  simp only [hostOps0_6]
  after_results
  rw [h96, h97]
  rfl

set_option maxHeartbeats 1000000 in
/-- The counts plus 255. -/
theorem off_v103 (c : Dev nD) : Woff m c (Proc.devRef .tc main_v103) = IntChain.i_v103 (ids m c) := by
  have h95 := sum_v95 m c
  show StableHlo.after hostOps0_6 (Wsum m c) (Proc.devRef .tc main_v103) = _
  generalize ids m c = bs at h95 ⊢
  generalize Wsum m c = W at h95 ⊢
  simp only [hostOps0_6]
  after_results
  rw [h95]
  rfl

set_option maxHeartbeats 1000000 in
/-- The divisor 256. -/
theorem off_c28 (c : Dev nD) : Woff m c (Proc.devRef .tc main_c_28) = IntChain.i_c_28 (ids m c) := by
  show StableHlo.after hostOps0_6 (Wsum m c) (Proc.devRef .tc main_c_28) = _
  generalize Wsum m c = W
  simp only [hostOps0_6]
  after_results
  rfl

/-! ### The floor division by 256 -/

theorem ids_div (c : Dev nD) : Wdiv m c (Proc.devRef .tc main_v30) = ids m c :=
  (StableHlo.after_of_forall_not_mem _ _ (by not_written)).trans (ids_off m c)
theorem div_v99 (c : Dev nD) : Wdiv m c (Proc.devRef .tc main_v99) = IntChain.i_v99 (ids m c) :=
  (StableHlo.after_of_forall_not_mem _ _ (by not_written)).trans (off_v99 m c)

set_option maxHeartbeats 2000000 in
theorem div_v104 (c : Dev nD) : Wdiv m c (Proc.devRef .tc main_v104) = IntChain.i_v104 (ids m c) := by
  have h103 := off_v103 m c
  have hc := off_c28 m c
  show StableHlo.after hostOps0_7 (Woff m c) (Proc.devRef .tc main_v104) = _
  generalize ids m c = bs at h103 hc ⊢
  generalize Woff m c = W at h103 hc ⊢
  have e103 : ∀ h1 h2 h3, (StableHlo.TRef.of main_v103 h1 h2 h3 : StableHlo.TRef sig ⟨S64, .i32⟩).ofBuf (Val := Elt F)
      (W (Proc.devRef .tc main_v103)) = IntChain.i_v103 bs :=
    fun h1 h2 h3 => cast_of_heq _ _ _ (heq_of_eq h103)
  have ec : ∀ h1 h2 h3, (StableHlo.TRef.of main_c_28 h1 h2 h3 : StableHlo.TRef sig ⟨S_, .i32⟩).ofBuf (Val := Elt F)
      (W (Proc.devRef .tc main_c_28)) = IntChain.i_c_28 bs :=
    fun h1 h2 h3 => cast_of_heq _ _ _ (heq_of_eq hc)
  simp only [hostOps0_7]
  after_results
  simp only [ofBuf_toBuf, e103, ec]
  refine cast_of_heq _ _ _ (heq_of_eq ?_)
  rfl

/-! ### The padded counts -/

theorem ids_pad (c : Dev nD) : Wpad m c (Proc.devRef .tc main_v30) = ids m c :=
  (StableHlo.after_of_forall_not_mem _ _ (by not_written)).trans (ids_div m c)
theorem pad_v99 (c : Dev nD) : Wpad m c (Proc.devRef .tc main_v99) = IntChain.i_v99 (ids m c) :=
  (StableHlo.after_of_forall_not_mem _ _ (by not_written)).trans (div_v99 m c)

set_option maxHeartbeats 1000000 in
theorem pad_v106 (c : Dev nD) : Wpad m c (Proc.devRef .tc main_v106) = IntChain.i_v106 (ids m c) := by
  have h104 := div_v104 m c
  show StableHlo.after hostOps0_8 (Wdiv m c) (Proc.devRef .tc main_v106) = _
  generalize ids m c = bs at h104 ⊢
  generalize Wdiv m c = W at h104 ⊢
  simp only [hostOps0_8]
  after_results
  rw [h104]
  rfl

set_option maxHeartbeats 1000000 in
/-- The one zero in front of the exclusive padded offsets. -/
theorem pad_v107 (c : Dev nD) : Wpad m c (Proc.devRef .tc main_v107) = IntChain.i_v107 (ids m c) := by
  show StableHlo.after hostOps0_8 (Wdiv m c) (Proc.devRef .tc main_v107) = _
  generalize Wdiv m c = W
  simp only [hostOps0_8]
  after_results
  rfl

/-! ### Their running sum -/

theorem ids_psum (c : Dev nD) : Wpsum m c (Proc.devRef .tc main_v30) = ids m c :=
  (StableHlo.after_of_forall_not_mem _ _ (by not_written)).trans (ids_pad m c)
theorem psum_v99 (c : Dev nD) : Wpsum m c (Proc.devRef .tc main_v99) = IntChain.i_v99 (ids m c) :=
  (StableHlo.after_of_forall_not_mem _ _ (by not_written)).trans (pad_v99 m c)
theorem psum_v106 (c : Dev nD) : Wpsum m c (Proc.devRef .tc main_v106) = IntChain.i_v106 (ids m c) :=
  (StableHlo.after_of_forall_not_mem _ _ (by not_written)).trans (pad_v106 m c)
theorem psum_v107 (c : Dev nD) : Wpsum m c (Proc.devRef .tc main_v107) = IntChain.i_v107 (ids m c) :=
  (StableHlo.after_of_forall_not_mem _ _ (by not_written)).trans (pad_v107 m c)

set_option maxHeartbeats 1000000 in
theorem psum_v108 (c : Dev nD) : Wpsum m c (Proc.devRef .tc main_v108) = IntChain.i_v108 (ids m c) := by
  have h106 := pad_v106 m c
  show StableHlo.after hostOps0_9 (Wpad m c) (Proc.devRef .tc main_v108) = _
  generalize ids m c = bs at h106 ⊢
  generalize Wpad m c = W at h106 ⊢
  have e106 : ∀ h1 h2 h3, (StableHlo.TRef.of main_v106 h1 h2 h3 : StableHlo.TRef sig ⟨S64, .i32⟩).ofBuf (Val := Elt F)
      (W (Proc.devRef .tc main_v106)) = IntChain.i_v106 bs :=
    fun h1 h2 h3 => cast_of_heq _ _ _ (heq_of_eq h106)
  simp only [hostOps0_9]
  after_results
  simp only [ofBuf_toBuf, e106]
  refine cast_of_heq _ _ _ (heq_of_eq ?_)
  rfl

/-! ### The exclusive padded offsets and the slots -/

set_option maxHeartbeats 4000000 in
/-- After the cut that ends with the slots: the sorted block ids and the padded counts are as before; the exclusive
    padded offsets are a zero, then the running sum of the padded counts without its last entry; and the slot of every
    point is the padded offset of its block plus its rank inside its block. -/
theorem slot_all (c : Dev nD) :
    Wslot m c (Proc.devRef .tc main_v30) = ids m c
      ∧ Wslot m c (Proc.devRef .tc main_v106) = IntChain.i_v106 (ids m c)
      ∧ Wslot m c (Proc.devRef .tc main_v110) = IntChain.i_v110 (ids m c)
      ∧ Wslot m c (Proc.devRef .tc main_v127) = IntChain.i_v127 (ids m c) := by
  have h30 := ids_psum m c
  have h99 := psum_v99 m c
  have h106 := psum_v106 m c
  have h107 := psum_v107 m c
  have h108 := psum_v108 m c
  show StableHlo.after ((hostOps0_10 (F := F)).take 23) (Wpsum m c) (Proc.devRef .tc main_v30) = _
      ∧ StableHlo.after ((hostOps0_10 (F := F)).take 23) (Wpsum m c) (Proc.devRef .tc main_v106) = _
      ∧ StableHlo.after ((hostOps0_10 (F := F)).take 23) (Wpsum m c) (Proc.devRef .tc main_v110) = _
      ∧ StableHlo.after ((hostOps0_10 (F := F)).take 23) (Wpsum m c) (Proc.devRef .tc main_v127) = _
  generalize ids m c = bs at h30 h99 h106 h107 h108 ⊢
  generalize Wpsum m c = W at h30 h99 h106 h107 h108 ⊢
  simp only [hostOps0_10, List.take_succ_cons, List.take_zero]
  after_results
  rw [h30, h99, h106, h107, h108]
  exact ⟨rfl, rfl, rfl, rfl⟩

/-! ### What the region finds -/

set_option maxHeartbeats 4000000 in
/-- The rest of the last stretch writes none of the four. -/
theorem rest_writes : ∀ op ∈ (hostOps0_10 (F := F)).drop 23,
    (Proc.devRef (τ := τ) .tc main_v30 ∉ op.writes ∧ Proc.devRef (τ := τ) .tc main_v106 ∉ op.writes)
      ∧ (Proc.devRef (τ := τ) .tc main_v110 ∉ op.writes ∧ Proc.devRef (τ := τ) .tc main_v127 ∉ op.writes) := by
  refine List.forall_iff_forall_mem.mp ?_
  simp only [hostOps0_10, List.drop_succ_cons, List.drop_zero, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)

/-- The sorted block ids of the cuts are the region's. -/
theorem ids_eq (c : Dev nD) : ids m c = V m c main_v30 := by
  show _ = V0 m c (Proc.devRef .tc main_v30)
  rw [V0_eq, StableHlo.after_of_forall_not_mem _ _ (fun op h => (rest_writes op h).1.1)]
  exact (slot_all m c).1.symm

/-- THE SLOTS as the region finds them: the chain's function of the sorted block ids. -/
theorem V_v127 (c : Dev nD) : V m c main_v127 = IntChain.i_v127 (V m c main_v30) := by
  show V0 m c (Proc.devRef .tc main_v127) = _
  rw [V0_eq, StableHlo.after_of_forall_not_mem _ _ (fun op h => (rest_writes op h).2.2), ← ids_eq m c]
  exact (slot_all m c).2.2.2

/-- The exclusive padded offsets as the region finds them. -/
theorem V_v110 (c : Dev nD) : V m c main_v110 = IntChain.i_v110 (V m c main_v30) := by
  show V0 m c (Proc.devRef .tc main_v110) = _
  rw [V0_eq, StableHlo.after_of_forall_not_mem _ _ (fun op h => (rest_writes op h).2.1), ← ids_eq m c]
  exact (slot_all m c).2.2.1

/-- The padded counts as the region finds them. -/
theorem V_v106 (c : Dev nD) : V m c main_v106 = IntChain.i_v106 (V m c main_v30) := by
  show V0 m c (Proc.devRef .tc main_v106) = _
  rw [V0_eq, StableHlo.after_of_forall_not_mem _ _ (fun op h => (rest_writes op h).1.2), ← ids_eq m c]
  exact (slot_all m c).2.1

end Cert.AlphaGrid.KernelChainB

end
-- ==== Proof.WrapIdx.lean ====
/- The integer host operations that turn the per-point slots `s` into scatter and gather indices: the wrap of a negative index (select (s < 0) (s + 4210688) s) broadcast to a column — printed once per scatter (w_v134 w_v142 w_v150 w_v158 w_v166 w_v174) and once for the final gather (w_v205) — and the integer zero arrays the scatters start from (w_v128 w_v136 w_v144): one definition per operation. -/
import proofs.«104803_j90202903151142_1_alg».proof.KernelIdeal

noncomputable section

namespace Cert.AlphaGrid.WrapIdx

open Idealize.ShloMosaic Cert.KernelIdeal

variable [Cert.KernelIdeal.Facts]
open Cert.KernelIdeal.Facts₀ Cert.KernelIdeal.Facts

def w_c_35 (s : IVec S4194304 32) :=
  (constantI S_ 32 0#32)

def w_v128 (s : IVec S4194304 32) :=
  (broadcastInDim S4210688 ![] bcast_S_S4210688 : IVec S_ 32 → IVec S4210688 32) (w_c_35 s)

def w_c_36 (s : IVec S4194304 32) :=
  (constantI S_ 32 0#32)

def w_v129 (s : IVec S4194304 32) :=
  (broadcastInDim S4194304 ![] bcast_S_S4194304 : IVec S_ 32 → IVec S4194304 32) (w_c_36 s)

def w_v130 (s : IVec S4194304 32) :=
  (cmpi .slt : IVec S4194304 32 → IVec S4194304 32 → IVec S4194304 1) s (w_v129 s)

def w_c_37 (s : IVec S4194304 32) :=
  (constantI S_ 32 4210688#32)

def w_v131 (s : IVec S4194304 32) :=
  (broadcastInDim S4194304 ![] bcast_S_S4194304 : IVec S_ 32 → IVec S4194304 32) (w_c_37 s)

def w_v132 (s : IVec S4194304 32) :=
  (addi : IVec S4194304 32 → IVec S4194304 32 → IVec S4194304 32) s (w_v131 s)

def w_v133 (s : IVec S4194304 32) :=
  (select : IVec S4194304 1 → IVec S4194304 32 → IVec S4194304 32 → IVec S4194304 32) (w_v130 s) (w_v132 s) s

def w_v134 (s : IVec S4194304 32) :=
  (broadcastInDim S4194304x1 ![0] bcast_S4194304_S4194304x1_0 : IVec S4194304 32 → IVec S4194304x1 32) (w_v133 s)

def w_c_38 (s : IVec S4194304 32) :=
  (constantI S_ 32 0#32)

def w_v136 (s : IVec S4194304 32) :=
  (broadcastInDim S4210688 ![] bcast_S_S4210688 : IVec S_ 32 → IVec S4210688 32) (w_c_38 s)

def w_c_39 (s : IVec S4194304 32) :=
  (constantI S_ 32 0#32)

def w_v137 (s : IVec S4194304 32) :=
  (broadcastInDim S4194304 ![] bcast_S_S4194304 : IVec S_ 32 → IVec S4194304 32) (w_c_39 s)

def w_v138 (s : IVec S4194304 32) :=
  (cmpi .slt : IVec S4194304 32 → IVec S4194304 32 → IVec S4194304 1) s (w_v137 s)

def w_c_40 (s : IVec S4194304 32) :=
  (constantI S_ 32 4210688#32)

def w_v139 (s : IVec S4194304 32) :=
  (broadcastInDim S4194304 ![] bcast_S_S4194304 : IVec S_ 32 → IVec S4194304 32) (w_c_40 s)

def w_v140 (s : IVec S4194304 32) :=
  (addi : IVec S4194304 32 → IVec S4194304 32 → IVec S4194304 32) s (w_v139 s)

def w_v141 (s : IVec S4194304 32) :=
  (select : IVec S4194304 1 → IVec S4194304 32 → IVec S4194304 32 → IVec S4194304 32) (w_v138 s) (w_v140 s) s

def w_v142 (s : IVec S4194304 32) :=
  (broadcastInDim S4194304x1 ![0] bcast_S4194304_S4194304x1_0 : IVec S4194304 32 → IVec S4194304x1 32) (w_v141 s)

def w_c_41 (s : IVec S4194304 32) :=
  (constantI S_ 32 0#32)

def w_v144 (s : IVec S4194304 32) :=
  (broadcastInDim S4210688 ![] bcast_S_S4210688 : IVec S_ 32 → IVec S4210688 32) (w_c_41 s)

def w_c_42 (s : IVec S4194304 32) :=
  (constantI S_ 32 0#32)

def w_v145 (s : IVec S4194304 32) :=
  (broadcastInDim S4194304 ![] bcast_S_S4194304 : IVec S_ 32 → IVec S4194304 32) (w_c_42 s)

def w_v146 (s : IVec S4194304 32) :=
  (cmpi .slt : IVec S4194304 32 → IVec S4194304 32 → IVec S4194304 1) s (w_v145 s)

def w_c_43 (s : IVec S4194304 32) :=
  (constantI S_ 32 4210688#32)

def w_v147 (s : IVec S4194304 32) :=
  (broadcastInDim S4194304 ![] bcast_S_S4194304 : IVec S_ 32 → IVec S4194304 32) (w_c_43 s)

def w_v148 (s : IVec S4194304 32) :=
  (addi : IVec S4194304 32 → IVec S4194304 32 → IVec S4194304 32) s (w_v147 s)

def w_v149 (s : IVec S4194304 32) :=
  (select : IVec S4194304 1 → IVec S4194304 32 → IVec S4194304 32 → IVec S4194304 32) (w_v146 s) (w_v148 s) s

def w_v150 (s : IVec S4194304 32) :=
  (broadcastInDim S4194304x1 ![0] bcast_S4194304_S4194304x1_0 : IVec S4194304 32 → IVec S4194304x1 32) (w_v149 s)

def w_c_45 (s : IVec S4194304 32) :=
  (constantI S_ 32 0#32)

def w_v153 (s : IVec S4194304 32) :=
  (broadcastInDim S4194304 ![] bcast_S_S4194304 : IVec S_ 32 → IVec S4194304 32) (w_c_45 s)

def w_v154 (s : IVec S4194304 32) :=
  (cmpi .slt : IVec S4194304 32 → IVec S4194304 32 → IVec S4194304 1) s (w_v153 s)

def w_c_46 (s : IVec S4194304 32) :=
  (constantI S_ 32 4210688#32)

def w_v155 (s : IVec S4194304 32) :=
  (broadcastInDim S4194304 ![] bcast_S_S4194304 : IVec S_ 32 → IVec S4194304 32) (w_c_46 s)

def w_v156 (s : IVec S4194304 32) :=
  (addi : IVec S4194304 32 → IVec S4194304 32 → IVec S4194304 32) s (w_v155 s)

def w_v157 (s : IVec S4194304 32) :=
  (select : IVec S4194304 1 → IVec S4194304 32 → IVec S4194304 32 → IVec S4194304 32) (w_v154 s) (w_v156 s) s

def w_v158 (s : IVec S4194304 32) :=
  (broadcastInDim S4194304x1 ![0] bcast_S4194304_S4194304x1_0 : IVec S4194304 32 → IVec S4194304x1 32) (w_v157 s)

def w_c_48 (s : IVec S4194304 32) :=
  (constantI S_ 32 0#32)

def w_v161 (s : IVec S4194304 32) :=
  (broadcastInDim S4194304 ![] bcast_S_S4194304 : IVec S_ 32 → IVec S4194304 32) (w_c_48 s)

def w_v162 (s : IVec S4194304 32) :=
  (cmpi .slt : IVec S4194304 32 → IVec S4194304 32 → IVec S4194304 1) s (w_v161 s)

def w_c_49 (s : IVec S4194304 32) :=
  (constantI S_ 32 4210688#32)

def w_v163 (s : IVec S4194304 32) :=
  (broadcastInDim S4194304 ![] bcast_S_S4194304 : IVec S_ 32 → IVec S4194304 32) (w_c_49 s)

def w_v164 (s : IVec S4194304 32) :=
  (addi : IVec S4194304 32 → IVec S4194304 32 → IVec S4194304 32) s (w_v163 s)

def w_v165 (s : IVec S4194304 32) :=
  (select : IVec S4194304 1 → IVec S4194304 32 → IVec S4194304 32 → IVec S4194304 32) (w_v162 s) (w_v164 s) s

def w_v166 (s : IVec S4194304 32) :=
  (broadcastInDim S4194304x1 ![0] bcast_S4194304_S4194304x1_0 : IVec S4194304 32 → IVec S4194304x1 32) (w_v165 s)

def w_c_51 (s : IVec S4194304 32) :=
  (constantI S_ 32 0#32)

def w_v169 (s : IVec S4194304 32) :=
  (broadcastInDim S4194304 ![] bcast_S_S4194304 : IVec S_ 32 → IVec S4194304 32) (w_c_51 s)

def w_v170 (s : IVec S4194304 32) :=
  (cmpi .slt : IVec S4194304 32 → IVec S4194304 32 → IVec S4194304 1) s (w_v169 s)

def w_c_52 (s : IVec S4194304 32) :=
  (constantI S_ 32 4210688#32)

def w_v171 (s : IVec S4194304 32) :=
  (broadcastInDim S4194304 ![] bcast_S_S4194304 : IVec S_ 32 → IVec S4194304 32) (w_c_52 s)

def w_v172 (s : IVec S4194304 32) :=
  (addi : IVec S4194304 32 → IVec S4194304 32 → IVec S4194304 32) s (w_v171 s)

def w_v173 (s : IVec S4194304 32) :=
  (select : IVec S4194304 1 → IVec S4194304 32 → IVec S4194304 32 → IVec S4194304 32) (w_v170 s) (w_v172 s) s

def w_v174 (s : IVec S4194304 32) :=
  (broadcastInDim S4194304x1 ![0] bcast_S4194304_S4194304x1_0 : IVec S4194304 32 → IVec S4194304x1 32) (w_v173 s)

def w_c_55 (s : IVec S4194304 32) :=
  (constantI S_ 32 0#32)

def w_v200 (s : IVec S4194304 32) :=
  (broadcastInDim S4194304 ![] bcast_S_S4194304 : IVec S_ 32 → IVec S4194304 32) (w_c_55 s)

def w_v201 (s : IVec S4194304 32) :=
  (cmpi .slt : IVec S4194304 32 → IVec S4194304 32 → IVec S4194304 1) s (w_v200 s)

def w_c_56 (s : IVec S4194304 32) :=
  (constantI S_ 32 4210688#32)

def w_v202 (s : IVec S4194304 32) :=
  (broadcastInDim S4194304 ![] bcast_S_S4194304 : IVec S_ 32 → IVec S4194304 32) (w_c_56 s)

def w_v203 (s : IVec S4194304 32) :=
  (addi : IVec S4194304 32 → IVec S4194304 32 → IVec S4194304 32) s (w_v202 s)

def w_v204 (s : IVec S4194304 32) :=
  (select : IVec S4194304 1 → IVec S4194304 32 → IVec S4194304 32 → IVec S4194304 32) (w_v201 s) (w_v203 s) s

def w_v205 (s : IVec S4194304 32) :=
  (broadcastInDim S4194304x1 ![0] bcast_S4194304_S4194304x1_0 : IVec S4194304 32 → IVec S4194304x1 32) (w_v204 s)

end Cert.AlphaGrid.WrapIdx

end
-- ==== Proof.ZeroF.lean ====
/- The float zero arrays the three weight scatters start from (z_v152 z_v160 z_v168): one definition per operation. -/
import proofs.«104803_j90202903151142_1_alg».proof.KernelIdeal

noncomputable section

namespace Cert.AlphaGrid.ZeroF

open Idealize.ShloMosaic Cert.KernelIdeal

variable [Cert.KernelIdeal.Facts]
open Cert.KernelIdeal.Facts₀ Cert.KernelIdeal.Facts

variable {F : FTy → Type} [FloatOps F]

def z_cst_44  :=
  (constant (F := F) S_ .f32 0x00000000#32)

def z_v152  :=
  (broadcastInDim S4210688 ![] bcast_S_S4210688 : (⟨S_, .f32⟩ : BufTy).Contents (Elt F) → (⟨S4210688, .f32⟩ : BufTy).Contents (Elt F)) (z_cst_44)

def z_cst_47  :=
  (constant (F := F) S_ .f32 0x00000000#32)

def z_v160  :=
  (broadcastInDim S4210688 ![] bcast_S_S4210688 : (⟨S_, .f32⟩ : BufTy).Contents (Elt F) → (⟨S4210688, .f32⟩ : BufTy).Contents (Elt F)) (z_cst_47)

def z_cst_50  :=
  (constant (F := F) S_ .f32 0x00000000#32)

def z_v168  :=
  (broadcastInDim S4210688 ![] bcast_S_S4210688 : (⟨S_, .f32⟩ : BufTy).Contents (Elt F) → (⟨S4210688, .f32⟩ : BufTy).Contents (Elt F)) (z_cst_50)

end Cert.AlphaGrid.ZeroF

end
-- ==== Proof.KernelChainC.lean ====
/-
  What the buffers hold when the region is entered, for the arrays written by the last host operations before it:
  the six scatters that place the sorted points' cells and weights at their padded slots, and the volume recast
  as 64 blocks in bfloat16. Each is the printed operation applied to what its operands hold at that same moment:
  the operations form a straight line in which every array is written once, so an array written early in the line
  still holds its value at the end of it.
-/
import proofs.«104803_j90202903151142_1_alg».proof.Proof.Gen.KernelIdeal.Frame
import proofs.«104803_j90202903151142_1_alg».proof.Proof.IntChain
import proofs.«104803_j90202903151142_1_alg».proof.Proof.Glue
import proofs.«104803_j90202903151142_1_alg».proof.Proof.WrapIdx
import proofs.«104803_j90202903151142_1_alg».proof.Proof.ZeroF

set_option maxRecDepth 16384

noncomputable section

namespace Cert.AlphaGrid.KernelChainC

open Idealize.ShloMosaic Idealize.ShloMosaic.TcCoe
open Cert.KernelIdeal Cert.KernelIdeal.Gen

variable {F : FTy → Type} [FloatOps F]

variable (m : (ℓ : Loc nD τ sig) → Buf (Elt F) ℓ)

/-! ### Cutting the line of host operations -/

theorem flatten_snoc {α : Type*} (L : List (List α)) (l : List α) :
    List.flatten (L ++ [l]) = List.flatten L ++ l := by
  rw [List.flatten_append, List.flatten_cons, List.flatten_nil, List.append_nil]

/-- A line run from `W` is its first `k` operations run from `W`, then the rest. -/
theorem after_split (l : List (HloOp τ sig (Elt F))) (k : Nat) (W : Valuation τ sig (Elt F)) :
    StableHlo.after l W = StableHlo.after (l.drop k) (StableHlo.after (l.take k) W) := by
  rw [← StableHlo.after_append, List.take_append_drop]

/-- The contents before the last stretch of host operations. -/
def W9 (c : Dev nD) : Valuation τ sig (Elt F) :=
  StableHlo.after (List.flatten [hostOps0, hostOps0_1, hostOps0_2, hostOps0_3, hostOps0_4, hostOps0_5, hostOps0_6,
    hostOps0_7, hostOps0_8, hostOps0_9]) (fun b => m (c, b))

theorem V0_last (c : Dev nD) : V0 m c = StableHlo.after hostOps0_10 (W9 m c) := by
  show StableHlo.after (List.flatten ([hostOps0, hostOps0_1, hostOps0_2, hostOps0_3, hostOps0_4, hostOps0_5,
    hostOps0_6, hostOps0_7, hostOps0_8, hostOps0_9] ++ [hostOps0_10])) _ = _
  rw [flatten_snoc, StableHlo.after_append]
  rfl

/-- The contents after the first `k` operations of the last stretch. -/
def Wk (c : Dev nD) (k : Nat) : Valuation τ sig (Elt F) :=
  StableHlo.after ((hostOps0_10 (F := F)).take k) (W9 m c)

theorem V0_tail (c : Dev nD) (k : Nat) :
    V0 m c = StableHlo.after ((hostOps0_10 (F := F)).drop k) (Wk m c k) := by
  rw [V0_last, after_split _ k]
  rfl

/-- An array that none of the remaining operations writes already holds its final contents. -/
theorem tail_keeps (c : Dev nD) (k : Nat) (b : Ref sig .tc)
    (h : ∀ op ∈ (hostOps0_10 (F := F)).drop k, Proc.devRef .tc b ∉ op.writes) :
    Wk m c k (Proc.devRef .tc b) = V m c b := by
  show _ = V0 m c (Proc.devRef .tc b)
  rw [V0_tail m c k, StableHlo.after_of_forall_not_mem _ _ h]

/-- An array written among the `n` operations that follow the first `k`, and by none after them, holds at the end what
    those `n` operations leave in it. -/
theorem V0_seg (c : Dev nD) (k n : Nat) (y : Ref sig .tc)
    (h : ∀ op ∈ (hostOps0_10 (F := F)).drop (k + n), Proc.devRef .tc y ∉ op.writes) :
    V0 m c (Proc.devRef .tc y)
      = StableHlo.after (((hostOps0_10 (F := F)).drop k).take n) (Wk m c k) (Proc.devRef .tc y) := by
  rw [V0_tail m c k, after_split _ n, List.drop_drop, StableHlo.after_of_forall_not_mem _ _ h]

/-! ### The volume as 64 blocks in bfloat16 -/

theorem V_main_v198 (c : Dev nD) :
    V m c main_v198 = truncf .bf16 (shapeCast S64x64x4096 (m ((c : Thread nD τ).loc main_arg2))
      shapeCasts_S256x256x256_S64x64x4096) bitsLt_bf16_f32 := by
  have h2 : Wk m c 112 (Proc.devRef .tc main_arg2) = V m c main_arg2 :=
    tail_keeps m c 112 main_arg2 (List.forall_iff_forall_mem.mp (by
      simp only [hostOps0_10, List.drop_succ_cons, List.drop_zero, List.Forall, StableHlo.unary_writes,
        StableHlo.reshape_writes, Finset.mem_singleton]
      repeat' apply And.intro
      all_goals exact StableHlo.devRef_ne_of_ne (by decide)))
  show V0 m c (Proc.devRef .tc main_v198) = _
  rw [V0_tail m c 112, ← V_main_arg2 m c, ← h2]
  generalize Wk m c 112 = W
  simp only [hostOps0_10, List.drop_succ_cons, List.drop_zero]
  after_results
  rfl

/-! ### The six scatters

  The tail of the line that starts right after the slots `main_v127` are computed writes neither the slots nor the
  sorted cells and weights, so these hold their final contents when it starts. -/

macro "tail_not_written" : tactic =>
  `(tactic| (refine List.forall_iff_forall_mem.mp ?_
             simp only [hostOps0_10, List.drop_succ_cons, List.drop_zero, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

theorem keep_v127 (c : Dev nD) : Wk m c 23 (Proc.devRef .tc main_v127) = V m c main_v127 :=
  tail_keeps m c 23 main_v127 (by tail_not_written)
theorem keep_v91 (c : Dev nD) : Wk m c 23 (Proc.devRef .tc main_v91) = V m c main_v91 :=
  tail_keeps m c 23 main_v91 (by tail_not_written)
theorem keep_v90 (c : Dev nD) : Wk m c 23 (Proc.devRef .tc main_v90) = V m c main_v90 :=
  tail_keeps m c 23 main_v90 (by tail_not_written)
theorem keep_v89 (c : Dev nD) : Wk m c 23 (Proc.devRef .tc main_v89) = V m c main_v89 :=
  tail_keeps m c 23 main_v89 (by tail_not_written)
theorem keep_v88 (c : Dev nD) : Wk m c 23 (Proc.devRef .tc main_v88) = V m c main_v88 :=
  tail_keeps m c 23 main_v88 (by tail_not_written)
theorem keep_v87 (c : Dev nD) : Wk m c 23 (Proc.devRef .tc main_v87) = V m c main_v87 :=
  tail_keeps m c 23 main_v87 (by tail_not_written)
theorem keep_v86 (c : Dev nD) : Wk m c 23 (Proc.devRef .tc main_v86) = V m c main_v86 :=
  tail_keeps m c 23 main_v86 (by tail_not_written)

set_option maxHeartbeats 4000000 in
theorem V_main_v135 (c : Dev nD) :
    V m c main_v135 = Host.scatter scatter_S4210688_S4194304x1_S4194304_n_0_0_1 (fun _ b => b)
      (WrapIdx.w_v128 (V m c main_v127)) (WrapIdx.w_v134 (V m c main_v127)) (V m c main_v91) := by
  show V0 m c (Proc.devRef .tc main_v135) = _
  rw [V0_seg m c 23 11 main_v135 (by tail_not_written), ← keep_v127 m c, ← keep_v91 m c]
  generalize Wk m c 23 = W
  simp only [hostOps0_10, List.drop_succ_cons, List.drop_zero, List.take_succ_cons, List.take_zero]
  after_results_simp
  rfl

set_option maxHeartbeats 4000000 in
theorem V_main_v143 (c : Dev nD) :
    V m c main_v143 = Host.scatter scatter_S4210688_S4194304x1_S4194304_n_0_0_1 (fun _ b => b)
      (WrapIdx.w_v136 (V m c main_v127)) (WrapIdx.w_v142 (V m c main_v127)) (V m c main_v90) := by
  show V0 m c (Proc.devRef .tc main_v143) = _
  rw [V0_seg m c 23 22 main_v143 (by tail_not_written), ← keep_v127 m c, ← keep_v90 m c]
  generalize Wk m c 23 = W
  simp only [hostOps0_10, List.drop_succ_cons, List.drop_zero, List.take_succ_cons, List.take_zero]
  after_results_simp
  rfl

set_option maxHeartbeats 4000000 in
theorem V_main_v151 (c : Dev nD) :
    V m c main_v151 = Host.scatter scatter_S4210688_S4194304x1_S4194304_n_0_0_1 (fun _ b => b)
      (WrapIdx.w_v144 (V m c main_v127)) (WrapIdx.w_v150 (V m c main_v127)) (V m c main_v89) := by
  show V0 m c (Proc.devRef .tc main_v151) = _
  rw [V0_seg m c 23 33 main_v151 (by tail_not_written), ← keep_v127 m c, ← keep_v89 m c]
  generalize Wk m c 23 = W
  simp only [hostOps0_10, List.drop_succ_cons, List.drop_zero, List.take_succ_cons, List.take_zero]
  after_results_simp
  rfl

set_option maxHeartbeats 4000000 in
theorem V_main_v159 (c : Dev nD) :
    V m c main_v159 = Host.scatter scatter_S4210688_S4194304x1_S4194304_n_0_0_1 (fun _ b => b)
      (ZeroF.z_v152) (WrapIdx.w_v158 (V m c main_v127)) (V m c main_v88) := by
  show V0 m c (Proc.devRef .tc main_v159) = _
  rw [V0_seg m c 23 44 main_v159 (by tail_not_written), ← keep_v127 m c, ← keep_v88 m c]
  generalize Wk m c 23 = W
  simp only [hostOps0_10, List.drop_succ_cons, List.drop_zero, List.take_succ_cons, List.take_zero]
  after_results_simp
  rfl

set_option maxHeartbeats 4000000 in
theorem V_main_v167 (c : Dev nD) :
    V m c main_v167 = Host.scatter scatter_S4210688_S4194304x1_S4194304_n_0_0_1 (fun _ b => b)
      (ZeroF.z_v160) (WrapIdx.w_v166 (V m c main_v127)) (V m c main_v87) := by
  show V0 m c (Proc.devRef .tc main_v167) = _
  rw [V0_seg m c 23 55 main_v167 (by tail_not_written), ← keep_v127 m c, ← keep_v87 m c]
  generalize Wk m c 23 = W
  simp only [hostOps0_10, List.drop_succ_cons, List.drop_zero, List.take_succ_cons, List.take_zero]
  after_results_simp
  rfl

set_option maxHeartbeats 4000000 in
theorem V_main_v175 (c : Dev nD) :
    V m c main_v175 = Host.scatter scatter_S4210688_S4194304x1_S4194304_n_0_0_1 (fun _ b => b)
      (ZeroF.z_v168) (WrapIdx.w_v174 (V m c main_v127)) (V m c main_v86) := by
  show V0 m c (Proc.devRef .tc main_v175) = _
  rw [V0_seg m c 23 66 main_v175 (by tail_not_written), ← keep_v127 m c, ← keep_v86 m c]
  generalize Wk m c 23 = W
  simp only [hostOps0_10, List.drop_succ_cons, List.drop_zero, List.take_succ_cons, List.take_zero]
  after_results_simp
  rfl

end Cert.AlphaGrid.KernelChainC

end
-- ==== Proof.KernelChainB2.lean ====
/-
  What the tile table holds when the region is entered. The table is computed by the last host operations before the
  region from two arrays written earlier in the line, the padded offsets and the padded counts of the blocks: the
  tile starts, the two compares of each tile start against each block's padded offset and padded end, the mask of
  the block a tile falls in, its product with the column numbers and the sum along each row. None of these
  operations writes the two earlier arrays, so the table is the composite of the printed operations applied to what
  those arrays hold at the end of the line.
-/
import proofs.«104803_j90202903151142_1_alg».proof.Proof.KernelChainC
import proofs.«104803_j90202903151142_1_alg».proof.Proof.IntChain

set_option maxRecDepth 16384

noncomputable section

namespace Cert.AlphaGrid.KernelChainB2

open Idealize.ShloMosaic Idealize.ShloMosaic.TcCoe
open Cert.KernelIdeal Cert.KernelIdeal.Gen
open Cert.AlphaGrid.KernelChainC

variable {F : FTy → Type} [FloatOps F]

variable (m : (ℓ : Loc nD τ sig) → Buf (Elt F) ℓ)

/-- The padded offsets are not written from the tile-table operations on. -/
theorem keep_v110 (c : Dev nD) : Wk m c 89 (Proc.devRef .tc main_v110) = V m c main_v110 :=
  tail_keeps m c 89 main_v110 (by tail_not_written)

/-- Nor are the padded counts. -/
theorem keep_v106 (c : Dev nD) : Wk m c 89 (Proc.devRef .tc main_v106) = V m c main_v106 :=
  tail_keeps m c 89 main_v106 (by tail_not_written)

set_option maxHeartbeats 4000000 in
theorem V_v196 (c : Dev nD)
    (h110 : V m c main_v110 = IntChain.i_v110 (V m c main_v30))
    (h106 : V m c main_v106 = IntChain.i_v106 (V m c main_v30)) :
    V m c main_v196 = IntChain.i_v196 (V m c main_v30) := by
  show V0 m c (Proc.devRef .tc main_v196) = _
  rw [V0_seg m c 89 23 main_v196 (by tail_not_written)]
  simp only [IntChain.i_v196, IntChain.i_c_54, IntChain.i_v195, IntChain.i_v194, IntChain.i_v193, IntChain.i_v192,
    IntChain.i_v191, IntChain.i_v190, IntChain.i_v189, IntChain.i_v188, IntChain.i_v187, IntChain.i_v186,
    IntChain.i_v185, IntChain.i_v184, IntChain.i_v183, IntChain.i_v182, IntChain.i_v181, IntChain.i_v180,
    IntChain.i_v179, IntChain.i_v178, IntChain.i_c_53, IntChain.i_v177, IntChain.i_v176]
  rw [← h110, ← h106, ← keep_v110 m c, ← keep_v106 m c]
  generalize Wk m c 89 = W
  simp only [hostOps0_10, List.drop_succ_cons, List.drop_zero, List.take_succ_cons, List.take_zero]
  after_results_simp

end Cert.AlphaGrid.KernelChainB2

end
-- ==== Proof.OkKernelIdeal.lean ====
/-
  The side condition of the block pipeline of the kernel's program. Window 0 stages, at grid point t, the block
  [1, 64, 4096] of the [64, 64, 4096] volume whose first coordinate is word t of the tile table (the block id of
  tile t), the other two coordinates being 0. The block lies inside the volume as soon as that word is below 64,
  and it is made of whole 32-bit words of bf16 pairs because it takes every row of the slab it meets (its row axis
  has the volume's full extent 64, starting at 0). The table is computed by @main itself: it is the tile table of
  the sorted block ids, each of which is below 64 (a block id is 16 bx + 4 by + bz of coordinates clipped to
  [0, 3], and sorting permutes them), so every word of it is the id of the block whose padded run holds the tile's
  start, below 64, and no hypothesis on the inputs is needed.
-/
import proofs.«104803_j90202903151142_1_alg».proof.Proof.Gen.KernelIdeal.Frame
import proofs.«104803_j90202903151142_1_alg».proof.Proof.IntChain
import proofs.«104803_j90202903151142_1_alg».proof.Proof.Glue
import proofs.«104803_j90202903151142_1_alg».proof.Proof.KernelChain
import proofs.«104803_j90202903151142_1_alg».proof.Proof.KernelChainB
import proofs.«104803_j90202903151142_1_alg».proof.Proof.KernelChainB2
import proofs.«104803_j90202903151142_1_alg».proof.Proof.GlueFacts
import proofs.«104803_j90202903151142_1_alg».proof.Proof.IntBridge
import proofs.«104803_j90202903151142_1_alg».proof.Proof.IntBridgeTile
import Idealize.ShloMosaic.Lib.Affine
import Idealize.ShloMosaic.Lib.ValueIdx

set_option maxRecDepth 16384

noncomputable section

namespace Cert.AlphaGrid.OkKernelIdeal

open Cert.KernelIdeal Cert.KernelIdeal.Gen
open Idealize.ShloMosaic Idealize.ShloMosaic.TcCoe Idealize.SL.Sem
open Idealize.ShloMosaic.ValueIdx

variable {F : FTy → Type} [FloatOps F]

/-- For ANY contents pf of the table whose 16448 words are all below 64, every block of window 0 is inside the
    volume and is whole words. The index map at point i is (w, 0, 0) with w a word of pf; on the first axis
    (w + 1) * 1 ≤ 64, on the two others (0 + 1) * 64 ≤ 64 and (0 + 1) * 4096 ≤ 4096. The block's row axis (extent
    64) is the volume's whole row axis, so the block is a union of whole rows: whole words at any packing, in
    particular at two bf16 per word. -/
theorem ok0_of_lt (pf : pre0.Contents (Elt F)) (h : ∀ t : Fin 16448, (pf 0 (ix1 t)).toNat < 64) : ok0 pf := by
  intro i
  have hl : ∀ x, (pf 0 x).toNat < 64 := fun x => by rw [eq_ix1 x]; exact h _
  obtain ⟨w, hw, e⟩ : ∃ w : BitVec 32, w.toNat < 64 ∧
      cc0_transform_0 Facts₀.k0_off1_inb Facts₀.numel1_S1 pf i = ![w.toNat, 0, 0] :=
    ⟨_, hl _, rfl⟩
  refine ⟨fun a => ?_, Or.inr ?_⟩
  · rw [e]
    fin_cases a <;> simp [S1x64x4096, S64x64x4096] <;> omega
  · exact Affine.block_words_rows (by decide) rfl

/-- Every word of the tile table of block ids below 64 is below 64: it is the id of the one block whose padded run
    of slots holds the tile's start. -/
theorem tile_words_lt (bs : IVec Cert.KernelIdeal.S4194304 32) (hb : ∀ i : Fin 4194304, (bs (ix1 i)).toNat < 64)
    (t : Fin 16448) : (Cert.AlphaGrid.IntChain.i_v196 bs (ix1 t)).toNat < 64 :=
  Cert.AlphaGrid.IntBridgeTile.tile_lt bs (fun i => (bs (ix1 i)).toNat) (Cert.AlphaGrid.IntBridge.hpo bs hb)
    (Cert.AlphaGrid.IntBridge.hpe bs hb) hb t

variable (m : (ℓ : Loc nD τ sig) → Buf (Elt F) ℓ)

/-- The table the region reads at entry is what @main has left in the table's buffer. If that is the tile table
    of some block ids bs and its words are below 64, the side condition holds. -/
theorem ok_of_tbl (bs : IVec Cert.KernelIdeal.S4194304 32)
    (hT : V m (0 : Dev nD) main_v196 = Cert.AlphaGrid.IntChain.i_v196 bs)
    (hlt : ∀ t : Fin 16448, (Cert.AlphaGrid.IntChain.i_v196 bs (ix1 t)).toNat < 64) : Ok m := by
  refine ok0_of_lt (tbl m) fun t => ?_
  have e : tbl m 0 = Cert.AlphaGrid.IntChain.i_v196 bs := hT
  rw [e]; exact hlt t

/-- The side condition from the two values @main leaves: the sorted block ids are the ones computed from the points
    (h30), hence below 64, and the table is their tile table (h196). -/
theorem ok_of_chain
    (h30 : V m (0 : Dev nD) main_v30 = Cert.AlphaGrid.Glue.g_v30 (m (((0 : Dev nD) : Thread nD τ).loc main_arg0))
      (m (((0 : Dev nD) : Thread nD τ).loc main_arg1)) (m (((0 : Dev nD) : Thread nD τ).loc main_arg3))
      (m (((0 : Dev nD) : Thread nD τ).loc main_arg4)))
    (h196 : V m (0 : Dev nD) main_v196 = Cert.AlphaGrid.IntChain.i_v196 (V m (0 : Dev nD) main_v30)) : Ok m := by
  refine ok_of_tbl m _ h196 (tile_words_lt _ fun i => ?_)
  rw [h30]
  exact Cert.AlphaGrid.GlueFacts.bs_lt _ _ _ _ i

/-- THE SIDE CONDITION, for every launch memory: no hypothesis on the inputs is needed, the table being computed by
    @main itself from block ids that are below 64 by construction. -/
theorem ok_of_pre : Ok m :=
  ok_of_chain m (Cert.AlphaGrid.KernelChain.V_v30 m 0)
    (Cert.AlphaGrid.KernelChainB2.V_v196 m 0 (Cert.AlphaGrid.KernelChainB.V_v110 m 0) (Cert.AlphaGrid.KernelChainB.V_v106 m 0))

end Cert.AlphaGrid.OkKernelIdeal

end
-- ==== Proof.KernelChainD.lean ====
/-
  The kernel program's result after the staged region: the lines that follow the region wrap the
  per-point slot (a slot below zero counts from the end of the padded array) and gather the region's
  output array at the wrapped slots.  Read off the frame run: the output array is what the region's
  write-backs left, the slots are what the lines before the region computed.
-/
import proofs.«104803_j90202903151142_1_alg».proof.Proof.Gen.KernelIdeal.Frame
import proofs.«104803_j90202903151142_1_alg».proof.Proof.WrapIdx

set_option maxRecDepth 16384

noncomputable section

namespace Cert.AlphaGrid.KernelChainD

open Idealize.ShloMosaic Idealize.ShloMosaic.TcCoe
open Idealize.SL Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The region's output array, as the lines after the region find it: what the write-backs left. -/
theorem exit_v199 (hO : Ok m) (c : Dev nD) :
    Pipeline.withArrays (Pipeline.pin pcfgs (fun _ => adm m hO) 0).spec c (V0 m c)
        (fun w => (dats m hO 0 c).arrAt w (Pipeline.pin pcfgs (fun _ => adm m hO) 0).N) (Proc.devRef .tc main_v199)
      = (dats m hO 0 c).arrAt 7 (cfgM m hO).N :=
  Pipeline.withArrays_arr spec0 (launch0 (F := F)).win.arr_inj c _ _ 7

/-- The per-point slots, as the lines after the region find them: no array of the region, so what the
    lines before the region computed. -/
theorem exit_v127 (hO : Ok m) (c : Dev nD) :
    Pipeline.withArrays (Pipeline.pin pcfgs (fun _ => adm m hO) 0).spec c (V0 m c)
        (fun w => (dats m hO 0 c).arrAt w (Pipeline.pin pcfgs (fun _ => adm m hO) 0).N) (Proc.devRef .tc main_v127)
      = V m c main_v127 :=
  Pipeline.withArrays_of_ne _ c (V0 m c) _ main_v127 (by exact (by decide : ∀ w, Pipeline.arrRef spec0 w ≠ main_v127))

/-- THE TAIL'S RESULT: after the lines that follow the region the result buffer holds the gather of the
    region's output array (as the write-backs left it) at the wrapped per-point slots. -/
theorem tail_v206 (hO : Ok m) (c : Dev nD) :
    Pipeline.afterTail pcfgs (fun _ => adm m hO) (dats m hO) 0 (V0 m) [hostOps1] c main_v206
      = Host.gather gather_S4210688_S4194304x1_S4194304_n_0_n_n_0_1_1 ((dats m hO 0 c).arrAt 7 (cfgM m hO).N)
          (WrapIdx.w_v205 (V m c main_v127)) := by
  unfold Pipeline.afterTail
  show StableHlo.after hostOps1 _ (Proc.devRef .tc main_v206) = _
  after_results
  rw [exit_v199 m hO c, exit_v127 m hO c]
  rfl

/-- THE RUN: every weakly fair execution of the program terminates with the result buffer at that gather
    and the five argument arrays as launched. -/
theorem run_v206 (hO : Ok m) :
    θ_run defs (onTc (τ := τ) (main (F := F))) ⟨m, fun _ => 0, ρ⟩ (fun r => ∀ c : Dev nD,
      r.2.mem ((c.tc : Thread nD τ).loc main_v206)
          = Host.gather gather_S4210688_S4194304x1_S4194304_n_0_n_n_0_1_1 ((dats m hO 0 c).arrAt 7 (cfgM m hO).N)
              (WrapIdx.w_v205 (V m c main_v127))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v206 (Pipeline.mem_restRefs_of main_v206 (by decide)
        (by exact (by decide : ∀ w, Pipeline.arrRef spec0 w ≠ main_v206)))).trans (tail_v206 m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c)⟩)
    (run_main m ρ hO)

end Cert.AlphaGrid.KernelChainD

end
-- ==== Proof.Vol.lean ====
/-
  The volume as slabs. The 256³ array, read in row-major order, is 64 blocks of 64 × 4096: entry `(d, q)` of
  block `b` is the array's element number `(64 b + d) · 4096 + q`. The same element is entry `(z, y, x)` of the
  block seen as 64³ when `d = z` and `q = 64 y + x`.
-/
import Idealize.ShloMosaic.PureOps.Ideal
import Idealize.ShloMosaic.Lib.ValueIdx

noncomputable section

namespace Cert.AlphaGrid

open Idealize.ShloMosaic Idealize.ShloMosaic.ValueIdx

/-- The element of the 256³ array with row-major number `n` (`0` past the end). -/
def flatAt (a2 : FVec Ideal (⟨3, ![256, 256, 256]⟩ : Shape) .f32) (n : Nat) : EReal :=
  if h : n < 16777216 then
    a2 (ix3 (⟨n / 65536, by omega⟩ : Fin 256) (⟨n / 256 % 256, by omega⟩ : Fin 256) (⟨n % 256, by omega⟩ : Fin 256))
  else 0

/-- Entry `(d, q)` of the block whose id is the word `b`. -/
def volAt (a2 : FVec Ideal (⟨3, ![256, 256, 256]⟩ : Shape) .f32) (b : BitVec 32) (d q : Nat) : EReal :=
  flatAt a2 ((b.toNat * 64 + d) * 4096 + q)

/-- A staged block `[1, 64, 4096]` as a slab (`0` outside it). -/
def slab {φ : FTy} (x : FVec Ideal (⟨3, ![1, 64, 4096]⟩ : Shape) φ) (d q : Nat) : EReal :=
  if h : d < 64 ∧ q < 4096 then x (ix3 (0 : Fin 1) (⟨d, h.1⟩ : Fin 64) (⟨q, h.2⟩ : Fin 4096)) else 0

end Cert.AlphaGrid

end
-- ==== Proof.KOut.lean ====
/-
  The result of both programs, as one function of the argument arrays: at the sorted point `j`, the sample of the
  slab of the point's block (`g_v30`: the sorted block ids) at its base cell (`g_v91 g_v90 g_v89`: z y x) with its
  weights (`g_v88 g_v87 g_v86`: wz wy wx) — written as the contracted sample `kval` (the kernel's form) and as the
  eight-corner sum `rval` (the reference's form).
-/
import proofs.«104803_j90202903151142_1_alg».proof.Proof.Spec
import proofs.«104803_j90202903151142_1_alg».proof.Proof.Vol
import proofs.«104803_j90202903151142_1_alg».proof.Proof.Glue

noncomputable section

namespace Cert.AlphaGrid

open Idealize.ShloMosaic Cert.KernelIdeal

variable [Cert.KernelIdeal.Facts]

/-- The kernel's form of the result. -/
def kout (a0 : FVec Ideal S4194304x3 .f32) (a1 : FVec Ideal S2x3 .f32) (a2 : FVec Ideal S256x256x256 .f32)
    (a3 a4 : FVec Ideal S64x3 .f32) : S4194304.Idx → EReal := fun j =>
  kval (volAt a2 (Glue.g_v30 (F := Ideal) a0 a1 a3 a4 j)) (Glue.g_v91 (F := Ideal) a0 a1 a3 a4 j)
    (Glue.g_v90 (F := Ideal) a0 a1 a3 a4 j) (Glue.g_v89 (F := Ideal) a0 a1 a3 a4 j)
    (Glue.g_v88 (F := Ideal) a0 a1 a3 a4 j) (Glue.g_v87 (F := Ideal) a0 a1 a3 a4 j) (Glue.g_v86 (F := Ideal) a0 a1 a3 a4 j)

/-- The reference's form of the result. -/
def rout (a0 : FVec Ideal S4194304x3 .f32) (a1 : FVec Ideal S2x3 .f32) (a2 : FVec Ideal S256x256x256 .f32)
    (a3 a4 : FVec Ideal S64x3 .f32) : S4194304.Idx → EReal := fun j =>
  rval (volAt a2 (Glue.g_v30 (F := Ideal) a0 a1 a3 a4 j)) (Glue.g_v91 (F := Ideal) a0 a1 a3 a4 j)
    (Glue.g_v90 (F := Ideal) a0 a1 a3 a4 j) (Glue.g_v89 (F := Ideal) a0 a1 a3 a4 j)
    (Glue.g_v88 (F := Ideal) a0 a1 a3 a4 j) (Glue.g_v87 (F := Ideal) a0 a1 a3 a4 j) (Glue.g_v86 (F := Ideal) a0 a1 a3 a4 j)

end Cert.AlphaGrid

end
-- ==== Proof.KernelTop.lean ====
/-
  The kernel program's run, with its result named as one function of the argument arrays: given that
  the gather the lines after the region compute is that function at every point, every execution
  terminates with the result buffer holding it and the five argument arrays as launched.
-/
import proofs.«104803_j90202903151142_1_alg».proof.Proof.KernelChainD
import proofs.«104803_j90202903151142_1_alg».proof.Proof.KOut

set_option maxRecDepth 16384

noncomputable section

namespace Cert.AlphaGrid.KernelTop

open Idealize.ShloMosaic Idealize.ShloMosaic.TcCoe Idealize.ShloMosaic.ValueIdx
open Idealize.SL Idealize.SL.Sem
open Cert.KernelIdeal Cert.KernelIdeal.Gen

/-- THE KERNEL SIDE OF THE CLAIM: if the result's gather reads, at every point, the function of the
    launched argument arrays, then the run ends with the result buffer at that function (two functions
    on a vector's indices that agree at every coordinate are equal) and the arguments unchanged. -/
theorem kernel_run (m : (ℓ : Loc nD τ sig) → Buf (Elt Ideal) ℓ) (ρ : Dev nD → PrngReg) (hO : Ok m)
    (hval : ∀ (c : Dev nD) (i : Fin 4194304),
      Host.gather gather_S4210688_S4194304x1_S4194304_n_0_n_n_0_1_1 ((dats m hO 0 c).arrAt 7 (cfgM m hO).N)
          (WrapIdx.w_v205 (V m c main_v127)) (ix1 i)
        = kout (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (ix1 i)) :
    θ_run (defs (F := Ideal)) (onTc (τ := τ) (main (F := Ideal))) ⟨m, fun _ => 0, ρ⟩ (fun r => ∀ c : Dev nD,
      r.2.mem ((c.tc : Thread nD τ).loc main_v206)
          = kout (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (funext fun j => by
      obtain ⟨i, rfl⟩ : ∃ i, j = ix1 i := ⟨j 0, eq_ix1 j⟩
      exact hval c i), (h c).2⟩) (KernelChainD.run_v206 m ρ hO)

end Cert.AlphaGrid.KernelTop

end
-- ==== Proof.SpecLemmas.lean ====
/-
  The contracted sample only looks at the slab inside the block: two slabs that agree for depth `d < 64` and plane
  position `q < 4096` give the same sample.
-/
import proofs.«104803_j90202903151142_1_alg».proof.Proof.Spec

noncomputable section

namespace Cert.AlphaGrid

theorem kval_congr {vol vol' : Nat → Nat → EReal} (h : ∀ d q, d < 64 → q < 4096 → vol d q = vol' d q)
    (z y x : BitVec 32) (wz wy wx : EReal) : kval vol z y x wz wy wx = kval vol' z y x wz wy wx := by
  unfold kval
  refine Finset.sum_congr rfl fun q hq => ?_
  refine congrArg _ ?_
  refine Finset.sum_congr rfl fun d hd => ?_
  rw [h d q (Finset.mem_range.mp hd) (Finset.mem_range.mp hq)]

end Cert.AlphaGrid

end
-- ==== Proof.KernelReads.lean ====
/-
  The kernel program's slot arrays read at an index.

  Each point `i` has a slot word `s i`; the slots are pairwise distinct and below `4210688`. The program wraps a
  negative slot (`s + 4210688` where `s < 0`), lays the wrapped slots out as a column, and with that column
  * scatters six per-point arrays into slot order (SET into an array of `4210688` zeros), and
  * gathers the kernel's per-slot result back to point order.
  A slot below `4210688` is not negative as a signed word, so the wrap leaves it alone; distinct in-range slots make the
  scatter's result at slot `s i` the update's element `i`; and an in-range start index is not moved by the gather's
  clamp. Last, the volume block the kernel reads: the `256³` array seen as `64` blocks of `64 × 4096` in row-major
  order, narrowed to bf16 (the identity on extended reals).
-/
import Idealize.ShloMosaic.Lib.ValueIdx
import Idealize.ShloMosaic.Lib.StableHlo.Predicate
import Idealize.ShloMosaic.Lib.Pipeline.Value
import proofs.«104803_j90202903151142_1_alg».proof.Proof.WrapIdx
import proofs.«104803_j90202903151142_1_alg».proof.Proof.ZeroF
import proofs.«104803_j90202903151142_1_alg».proof.Proof.LibScatter
import proofs.«104803_j90202903151142_1_alg».proof.Proof.Vol
import proofs.«104803_j90202903151142_1_alg».proof.Proof.Spec

namespace Cert.AlphaGrid.KernelReads

open Idealize.ShloMosaic Idealize.ShloMosaic.ValueIdx Cert.KernelIdeal
open Idealize.ShloMosaic.StableHlo.Predicate (ixP bcast_col1 gather_take slt_iff_toNat)

variable [Cert.KernelIdeal.Facts]
open Cert.KernelIdeal.Facts₀ Cert.KernelIdeal.Facts

/-! ## Indices by coordinates, two spellings -/

/-- Row `p` of a column is the rank-2 index `(p, 0)`. -/
theorem ixP_eq {n : Nat} (p : Fin n) : ixP p = ix2 p (0 : Fin 1) := by
  funext a; match a with | ⟨0, _⟩ => rfl | ⟨1, _⟩ => rfl

/-- The rank-1 index at a coordinate. -/
theorem ofFin_eq {n : Nat} (p : Fin n) : Shape.Idx.ofFin p = ix1 p := by
  funext a; match a with | ⟨0, _⟩ => rfl

/-! ## The wrap of a nonnegative slot -/

/-- A word below `2^31` is not negative, so the select on "negative" keeps it. -/
theorem wrap_word (a c : BitVec 32) (h : a.toNat < 2 ^ 31) :
    Scalar.select (IntOp.cmpi .slt a 0#32) (IntOp.addi a c) a = a := by
  have hne : ¬ IntOp.cmpi .slt a 0#32 = 1#1 := by
    rw [slt_iff_toNat h (by decide)]
    simp
  exact if_neg hne

/-- The column of wrapped slots reads, at row `i`, the slot of `i` when that is below `2^31`. -/
theorem wrapCol_apply (s : IVec S4194304 32) (i : Fin 4194304) (h : (s (ix1 i)).toNat < 2 ^ 31) :
    (broadcastInDim S4194304x1 ![0] bcast_S4194304_S4194304x1_0
      (select (cmpi .slt s (broadcastInDim S4194304 ![] bcast_S_S4194304 (constantI S_ 32 0#32)))
        (addi s (broadcastInDim S4194304 ![] bcast_S_S4194304 (constantI S_ 32 4210688#32))) s) : IVec S4194304x1 32)
      (ix2 i 0) = s (ix1 i) := by
  rw [← ixP_eq, bcast_col1, ofFin_eq]
  exact wrap_word _ _ h

/-! ## The columns of wrapped slots -/

section Cols
variable (s : IVec S4194304 32) (i : Fin 4194304) (h : (s (ix1 i)).toNat < 2 ^ 31)
include h

/-- The first scatter's index column at row `i` is the slot of `i`. -/
theorem w_v134_apply : WrapIdx.w_v134 s (ix2 i 0) = s (ix1 i) := wrapCol_apply s i h
/-- The second scatter's. -/
theorem w_v142_apply : WrapIdx.w_v142 s (ix2 i 0) = s (ix1 i) := wrapCol_apply s i h
/-- The third scatter's. -/
theorem w_v150_apply : WrapIdx.w_v150 s (ix2 i 0) = s (ix1 i) := wrapCol_apply s i h
/-- The fourth scatter's. -/
theorem w_v158_apply : WrapIdx.w_v158 s (ix2 i 0) = s (ix1 i) := wrapCol_apply s i h
/-- The fifth scatter's. -/
theorem w_v166_apply : WrapIdx.w_v166 s (ix2 i 0) = s (ix1 i) := wrapCol_apply s i h
/-- The sixth scatter's. -/
theorem w_v174_apply : WrapIdx.w_v174 s (ix2 i 0) = s (ix1 i) := wrapCol_apply s i h
/-- The final gather's start-index column at row `i` is the slot of `i`. -/
theorem w_v205_apply : WrapIdx.w_v205 s (ix2 i 0) = s (ix1 i) := wrapCol_apply s i h

end Cols

/-! ## The six scatters read at a slot -/

section Reads
variable {α : Type}

/-- A slot below `4210688` is below `2^31`. -/
theorem lt_two_pow_31 {a : BitVec 32} (h : a.toNat < 4210688) : a.toNat < 2 ^ 31 := by omega

/-- SET at distinct in-range slots through ANY index column that reads the slot of `i` at row `i`: the result at slot
    `s i` is the update's element `i`, whatever array the scatter started from. -/
theorem set_read (x : S4210688.Idx → α) (col : IVec S4194304x1 32) (u : S4194304.Idx → α) (s : IVec S4194304 32)
    (hcol : ∀ i : Fin 4194304, col (ix2 i 0) = s (ix1 i))
    (hr : ∀ i : Fin 4194304, (s (ix1 i)).toNat < 4210688)
    (hinj : Function.Injective fun i : Fin 4194304 => (s (ix1 i)).toNat) (i : Fin 4194304) :
    Host.scatter scatter_S4210688_S4194304x1_S4194304_n_0_0_1 (fun _ b => b) x col u (ix1 ⟨(s (ix1 i)).toNat, hr i⟩)
      = u (ix1 i) := by
  have hI : ∀ i' : Fin 4194304, (col (ix2 i' 0)).toInt = ((s (ix1 i')).toNat : Int) := fun i' => by
    rw [hcol i']
    exact Idealize.ShloMosaic.StableHlo.Predicate.toInt_eq_toNat_of_lt (lt_two_pow_31 (hr i'))
  refine LibScatter.slots_set_at x col u i ⟨(s (ix1 i)).toNat, hr i⟩ (hI i) ?_
  intro i' hi'
  refine hinj ?_
  have := hI i'
  simp only at hi' ⊢
  omega

/-- A position that is no point's slot keeps the element of the array the scatter started from. -/
theorem set_read_other (x : S4210688.Idx → α) (col : IVec S4194304x1 32) (u : S4194304.Idx → α) (s : IVec S4194304 32)
    (hcol : ∀ i : Fin 4194304, col (ix2 i 0) = s (ix1 i))
    (hr : ∀ i : Fin 4194304, (s (ix1 i)).toNat < 4210688)
    (k : Fin 4210688) (hk : ∀ i : Fin 4194304, (s (ix1 i)).toNat ≠ k.val) :
    Host.scatter scatter_S4210688_S4194304x1_S4194304_n_0_0_1 (fun _ b => b) x col u (ix1 k) = x (ix1 k) := by
  refine LibScatter.slots_not_hit_toNat _ x col u k ?_
  intro i
  rw [hcol i]
  exact hk i

variable (s : IVec S4194304 32) (hr : ∀ i : Fin 4194304, (s (ix1 i)).toNat < 4210688)
  (hinj : Function.Injective fun i : Fin 4194304 => (s (ix1 i)).toNat)
include hinj

/-- The first scatter (integer updates) at the slot of `i`. -/
theorem scatter_v135_apply (u : IVec S4194304 32) (i : Fin 4194304) :
    Host.scatter scatter_S4210688_S4194304x1_S4194304_n_0_0_1 (fun _ b => b) (WrapIdx.w_v128 s) (WrapIdx.w_v134 s) u
      (ix1 ⟨(s (ix1 i)).toNat, hr i⟩) = u (ix1 i) :=
  set_read _ _ u s (fun i' => w_v134_apply s i' (lt_two_pow_31 (hr i'))) hr hinj i

/-- The second scatter (integer updates) at the slot of `i`. -/
theorem scatter_v143_apply (u : IVec S4194304 32) (i : Fin 4194304) :
    Host.scatter scatter_S4210688_S4194304x1_S4194304_n_0_0_1 (fun _ b => b) (WrapIdx.w_v136 s) (WrapIdx.w_v142 s) u
      (ix1 ⟨(s (ix1 i)).toNat, hr i⟩) = u (ix1 i) :=
  set_read _ _ u s (fun i' => w_v142_apply s i' (lt_two_pow_31 (hr i'))) hr hinj i

/-- The third scatter (integer updates) at the slot of `i`. -/
theorem scatter_v151_apply (u : IVec S4194304 32) (i : Fin 4194304) :
    Host.scatter scatter_S4210688_S4194304x1_S4194304_n_0_0_1 (fun _ b => b) (WrapIdx.w_v144 s) (WrapIdx.w_v150 s) u
      (ix1 ⟨(s (ix1 i)).toNat, hr i⟩) = u (ix1 i) :=
  set_read _ _ u s (fun i' => w_v150_apply s i' (lt_two_pow_31 (hr i'))) hr hinj i

variable {F : FTy → Type} [FloatOps F]

/-- The fourth scatter (float updates) at the slot of `i`. -/
theorem scatter_v159_apply (u : FVec F S4194304 .f32) (i : Fin 4194304) :
    Host.scatter scatter_S4210688_S4194304x1_S4194304_n_0_0_1 (fun _ b => b) (ZeroF.z_v152 (F := F)) (WrapIdx.w_v158 s) u
      (ix1 ⟨(s (ix1 i)).toNat, hr i⟩) = u (ix1 i) :=
  set_read _ _ u s (fun i' => w_v158_apply s i' (lt_two_pow_31 (hr i'))) hr hinj i

/-- The fifth scatter (float updates) at the slot of `i`. -/
theorem scatter_v167_apply (u : FVec F S4194304 .f32) (i : Fin 4194304) :
    Host.scatter scatter_S4210688_S4194304x1_S4194304_n_0_0_1 (fun _ b => b) (ZeroF.z_v160 (F := F)) (WrapIdx.w_v166 s) u
      (ix1 ⟨(s (ix1 i)).toNat, hr i⟩) = u (ix1 i) :=
  set_read _ _ u s (fun i' => w_v166_apply s i' (lt_two_pow_31 (hr i'))) hr hinj i

/-- The sixth scatter (float updates) at the slot of `i`. -/
theorem scatter_v175_apply (u : FVec F S4194304 .f32) (i : Fin 4194304) :
    Host.scatter scatter_S4210688_S4194304x1_S4194304_n_0_0_1 (fun _ b => b) (ZeroF.z_v168 (F := F)) (WrapIdx.w_v174 s) u
      (ix1 ⟨(s (ix1 i)).toNat, hr i⟩) = u (ix1 i) :=
  set_read _ _ u s (fun i' => w_v174_apply s i' (lt_two_pow_31 (hr i'))) hr hinj i

end Reads

/-! ## The final gather read at a point -/

section Gather
variable {α : Type}

/-- The take through ANY start-index column that reads the slot of `i` at row `i`: an in-range slot is not moved by
    the clamp, so point `i` reads the table at its slot. -/
theorem gather_read (X : S4210688.Idx → α) (col : IVec S4194304x1 32) (s : IVec S4194304 32) (i : Fin 4194304)
    (hcol : col (ix2 i 0) = s (ix1 i)) (hri : (s (ix1 i)).toNat < 4210688) :
    Host.gather gather_S4210688_S4194304x1_S4194304_n_0_n_n_0_1_1 X col (ix1 i) = X (ix1 ⟨(s (ix1 i)).toNat, hri⟩) := by
  have hg := gather_take gather_S4210688_S4194304x1_S4194304_n_0_n_n_0_1_1 rfl rfl rfl rfl X col i (by norm_num)
  rw [ofFin_eq, ofFin_eq] at hg
  rw [hg]
  congr 2
  refine Fin.ext ?_
  show min (col (ixP i)).toInt.toNat (4210688 - 1) = (s (ix1 i)).toNat
  rw [ixP_eq, hcol, Idealize.ShloMosaic.StableHlo.Predicate.toInt_eq_toNat_of_lt (lt_two_pow_31 hri)]
  simp only [Int.toNat_natCast]
  omega

/-- The program's final gather at point `i`. -/
theorem gather_v206_apply (X : S4210688.Idx → α) (s : IVec S4194304 32) (i : Fin 4194304)
    (hri : (s (ix1 i)).toNat < 4210688) :
    Host.gather gather_S4210688_S4194304x1_S4194304_n_0_n_n_0_1_1 X (WrapIdx.w_v205 s) (ix1 i)
      = X (ix1 ⟨(s (ix1 i)).toNat, hri⟩) :=
  gather_read X _ s i (w_v205_apply s i (lt_two_pow_31 hri)) hri

end Gather

/-! ## The volume block read at an index -/

/-- Entry `(b, d, q)` of the `256³` array seen as `[64, 64, 4096]` and narrowed to bf16 is the array's element number
    `(64 b + d) · 4096 + q`. -/
theorem volBlock_apply (a2 : FVec Ideal S256x256x256 .f32) (b d : Fin 64) (q : Fin 4096) :
    (truncf .bf16 (shapeCast S64x64x4096 a2 shapeCasts_S256x256x256_S64x64x4096) bitsLt_bf16_f32 :
        FVec Ideal S64x64x4096 .bf16) (ix3 b d q)
      = flatAt a2 ((b.val * 64 + d.val) * 4096 + q.val) := by
  have hb := b.isLt
  have hd := d.isLt
  have hq := q.isLt
  have hN : (b.val * 64 + d.val) * 4096 + q.val < 16777216 := by omega
  rw [truncf_apply]
  unfold flatAt
  rw [dif_pos hN]
  refine shapeCast_apply a2 _ _ _ ?_
  rw [Shape.rowMajor_val_three, Shape.rowMajor_val_three]
  show (((b.val * 64 + d.val) * 4096 + q.val) / 65536 * 256 + ((b.val * 64 + d.val) * 4096 + q.val) / 256 % 256) * 256
      + ((b.val * 64 + d.val) * 4096 + q.val) % 256 = (b.val * 64 + d.val) * 4096 + q.val
  omega

/-- The same as the slab entry of the block whose id is a word `w` with value `b`. -/
theorem volBlock_eq_volAt (a2 : FVec Ideal S256x256x256 .f32) (w : BitVec 32) (b d : Fin 64) (q : Fin 4096)
    (hw : w.toNat = b.val) :
    (truncf .bf16 (shapeCast S64x64x4096 a2 shapeCasts_S256x256x256_S64x64x4096) bitsLt_bf16_f32 :
        FVec Ideal S64x64x4096 .bf16) (ix3 b d q)
      = volAt a2 w d.val q.val := by
  rw [volBlock_apply]
  unfold volAt
  rw [hw]

end Cert.AlphaGrid.KernelReads
-- ==== Proof.BodyValue.lean ====
/-
  What the body of the sampling kernel leaves in its output block, point by point.

  At one grid step the body sees a slab `x0` of the volume (64 depths × 4096 plane positions, a plane position `q`
  being row `q / 64` and column `q % 64` of a 64 × 64 plane), and for each of 256 points a base cell `(z, y, x)`
  (`x1 x2 x3`) with fractional weights `(wz, wy, wx)` (`x4 x5 x6`). Per axis it forms the weight row `lw c w`
  (`1 - w` at the base cell, `w` at the next, `0` elsewhere): the depth row as a 256 × 64 matrix, multiplied into the
  slab (a matrix product into a zero accumulator, so at the extended reals just the sum over the 64 depths); the plane
  row over `q / 64` and the plane column over `q % 64`, both as 256 × 4096 arrays; and it stores, for point `p`, the
  sum over the 4096 plane positions of (row weight · column weight) · (depth-contracted slab). That is `kval`.

  The steps: the output block is the value of the body's one covering store (`out_piece`, at any float
  interpretation); the row and column of a plane position as words (`pay9_apply`, `pay10_apply`: on `0 ≤ q < 4096`
  the signed quotient and remainder by 64 meet no corner and the rounding correction never fires); each weight
  array at an index (`pay11_apply`, `pay12_apply`, and inside `pay6_apply` the depth weights); the matrix product at an
  index (`pay6_apply`); the lane sum (`pay1_apply`); and the sums over `Fin n` as sums over `Finset.range n`
  (`body_value`, `out_value`).
-/
import proofs.«104803_j90202903151142_1_alg».proof.Proof.Gen.KernelIdeal.Frame
import proofs.«104803_j90202903151142_1_alg».proof.Proof.Spec
import proofs.«104803_j90202903151142_1_alg».proof.Proof.Vol
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws
import Idealize.ShloMosaic.Lib.Tactic

noncomputable section

namespace Cert.AlphaGrid.BodyValue

open Idealize.ShloMosaic Idealize.ShloMosaic.TcCoe Idealize.ShloMosaic.ValueIdx Idealize.SL.Sem
open Cert.KernelIdeal Cert.KernelIdeal.Gen

/-! ## The output block is the value of the one covering store -/

/-- The plane positions `0 … 4095` as one row of words. -/
abbrev planeIota : IVec S1x4096 32 := iota .tc S1x4096 32 [1] iota_S1x4096_d1_w32

section Piece

variable {F : FTy → Type} [FloatOps F]

theorem hz1 : (![0] : Fin 1 → Nat) = fun _ => 0 := funext fun a => by fin_cases a; rfl

theorem hz3 : (![0, 0, 0] : Fin 3 → Nat) = fun _ => 0 := funext fun a => by fin_cases a <;> rfl

/-- The value the body stores, as one term over the seven loaded blocks. -/
def bodyTerm (x0 : Vec F S1x64x4096 .bf16) (x1 x2 x3 : Vec F S256 .i32) (x4 x5 x6 : Vec F S256 .f32) : FVec F S256 .f32 :=
  k0_pay1 (k0_pay3 x3) (k0_pay5 x6) (k0_pay6 x0 x1 x4)
    (k0_pay10 planeIota 64#32 k0_pay7 k0_pay8)
    (k0_pay11 (k0_pay2 x2) (k0_pay4 x5) planeIota 64#32 k0_pay7 k0_pay8)
    (k0_pay12 (k0_pay3 x3) planeIota 64#32 k0_pay7 k0_pay8)

/-- What the body leaves in the output block is its one covering store's value. -/
theorem out_piece (c : Dev nD) (i : grid0.Coords) (arg2 : Memref sig .tc .vmem S1x64x4096 .bf16) (harg2 : arg2.IsWhole) (arg3 : Memref sig .tc .vmem S256 .i32) (harg3 : arg3.IsWhole) (arg4 : Memref sig .tc .vmem S256 .i32) (harg4 : arg4.IsWhole) (arg5 : Memref sig .tc .vmem S256 .i32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole)
    (x0 : Vec F S1x64x4096 .bf16) (x1 : Vec F S256 .i32) (x2 : Vec F S256 .i32) (x3 : Vec F S256 .i32) (x4 : Vec F S256 .f32) (x5 : Vec F S256 .f32) (x6 : Vec F S256 .f32) (xt0 : TbBuf0 (F := F) c tbM0_0) :
    out0_A_7 c i arg2 harg2 arg3 harg3 arg4 harg4 arg5 harg5 arg6 harg6 arg7 harg7 arg8 harg8 arg9 harg9 x0 x1 x2 x3 x4 x5 x6 xt0 = bodyTerm x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6 xt0)]
  unfold kernelRun0_A
  dsimp only
  sl_unfold_words
  rw [View.canon_unit_zero hz1]
  simp only [View.readAt_eq_ld, harg2.read_unread, harg3.read_unread, harg4.read_unread, harg5.read_unread,
    harg6.read_unread, harg7.read_unread, harg8.read_unread, View.ld_unit_zero (S := S256) hz1,
    View.ld_unit_zero (S := S1x64x4096) hz3]
  rfl

end Piece

/-! ## Words: the row and the column of a plane position -/

theorem toNat_ofNat_small (n : ℕ) (h : n < 4096) : (BitVec.ofNat 32 n).toNat = n := by
  rw [BitVec.toNat_ofNat]; exact Nat.mod_eq_of_lt (by omega)

theorem msb_ofNat_small (n : ℕ) (h : n < 4096) : (BitVec.ofNat 32 n).msb = false :=
  BitVec.msb_eq_false_iff_two_mul_lt.mpr (by rw [toNat_ofNat_small n h]; omega)

theorem not_corner_64 (x : BitVec 32) : ¬ IntOp.SDivCorner x 64#32 := by
  intro hc; rcases hc with hc | ⟨_, hc⟩ <;> exact absurd hc (by decide)

/-- The signed quotient of a small word by 64 is the quotient of the numbers. -/
theorem divsi_64 (n : ℕ) (h : n < 4096) : IntOp.divsi .vector (BitVec.ofNat 32 n) 64#32 = BitVec.ofNat 32 (n / 64) := by
  apply BitVec.eq_of_toNat_eq
  simp only [IntOp.divsi, if_neg (not_corner_64 _), BitVec.sdiv_eq, msb_ofNat_small n h,
    show (64#32 : BitVec 32).msb = false from by decide, BitVec.udiv_eq, BitVec.toNat_udiv, BitVec.toNat_ofNat, Nat.reducePow, Nat.reduceMod]
  omega

/-- The sign of the divisor 64 — the bit of `64 > 0` less the bit of `64 < 0`, both widened to words — is the word one. -/
theorem sgn_64 : Scalar.subi (Scalar.extui (Scalar.cmpi .sgt 64#32 0#32)) (Scalar.extui (Scalar.cmpi .slt 64#32 0#32)) = 1#32 := by
  decide

/-- Division by 64 rounding down, through the quotient toward zero (less one when the signs of dividend and divisor
    differ and the remainder is not zero): on a small non-negative word it is the quotient of the numbers. -/
theorem floordiv_64 (n : ℕ) (h : n < 4096) :
    Scalar.select
      (IntOp.andi
        (IntOp.cmpi .ne (IntOp.subi ((IntOp.cmpi .sgt (BitVec.ofNat 32 n) 0#32).setWidth 32)
            ((IntOp.cmpi .slt (BitVec.ofNat 32 n) 0#32).setWidth 32))
          (Scalar.subi (Scalar.extui (Scalar.cmpi .sgt 64#32 0#32)) (Scalar.extui (Scalar.cmpi .slt 64#32 0#32))))
        (IntOp.cmpi .ne (IntOp.remsi .vector (BitVec.ofNat 32 n) 64#32) 0#32))
      (IntOp.subi (IntOp.divsi .vector (BitVec.ofNat 32 n) 64#32) 1#32)
      (IntOp.divsi .vector (BitVec.ofNat 32 n) 64#32) = BitVec.ofNat 32 (n / 64) := by
  have hcond : IntOp.andi
        (IntOp.cmpi .ne (IntOp.subi ((IntOp.cmpi .sgt (BitVec.ofNat 32 n) 0#32).setWidth 32)
            ((IntOp.cmpi .slt (BitVec.ofNat 32 n) 0#32).setWidth 32))
          (Scalar.subi (Scalar.extui (Scalar.cmpi .sgt 64#32 0#32)) (Scalar.extui (Scalar.cmpi .slt 64#32 0#32))))
        (IntOp.cmpi .ne (IntOp.remsi .vector (BitVec.ofNat 32 n) 64#32) 0#32) = 0#1 := by
    rw [sgn_64]
    rcases Nat.eq_zero_or_pos n with h0 | hpos
    · subst h0; decide
    · have hx : (BitVec.ofNat 32 n).toNat < 2 ^ 31 := by rw [toNat_ofNat_small n h]; omega
      have hz : (0#32 : BitVec 32).toNat < 2 ^ 31 := by decide
      have hgt : IntOp.cmpi .sgt (BitVec.ofNat 32 n) 0#32 = 1#1 :=
        (StableHlo.Predicate.sgt_iff_toNat hx hz).mpr (by rw [toNat_ofNat_small n h]; exact hpos)
      have hlt : IntOp.cmpi .slt (BitVec.ofNat 32 n) 0#32 = 0#1 :=
        eq_zero_of_ne_one fun hc => absurd ((StableHlo.Predicate.slt_iff_toNat hx hz).mp hc) (by simp)
      rw [hgt, hlt]
      have h1 : IntOp.cmpi .ne (IntOp.subi ((1#1 : BitVec 1).setWidth 32) ((0#1 : BitVec 1).setWidth 32)) 1#32 = 0#1 := by decide
      rw [h1]
      unfold IntOp.andi
      exact BitVec.zero_and
  rw [hcond, select_zero, divsi_64 n h]

/-- The column of a plane position: the position less 64 times its row. -/
theorem sub_mul_64 (n : ℕ) (h : n < 4096) :
    IntOp.subi (BitVec.ofNat 32 n) (IntOp.muli (BitVec.ofNat 32 (n / 64)) 64#32) = BitVec.ofNat 32 (n % 64) := by
  apply BitVec.eq_of_toNat_eq
  simp only [IntOp.subi, IntOp.muli, BitVec.toNat_sub, BitVec.toNat_mul, BitVec.toNat_ofNat, Nat.reducePow, Nat.reduceMod]
  omega

/-- A select on an equality test of words is the `if` on the equality. -/
theorem select_cmpi_eq {α : Type} {w : ℕ} (a b : BitVec w) (x y : α) :
    Scalar.select (IntOp.cmpi .eq a b) x y = if a = b then x else y := by
  unfold Scalar.select
  by_cases hab : a = b
  · rw [if_pos hab]; exact if_pos (StableHlo.Predicate.cmpi_eq_iff.mpr hab)
  · rw [if_neg hab]; exact if_neg (fun hc => hab (StableHlo.Predicate.cmpi_eq_iff.mp hc))

/-! ## Layout: a vector as a column, the column spread over the rows' lanes -/

section Layout
variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector made a column, the column re-cast to itself and spread over `b` lanes, reads the vector's entry of the row. -/
theorem column_apply {a b : ℕ} (x : (⟨1, ![a]⟩ : Shape).Idx → α) (h1 : (⟨1, ![a]⟩ : Shape).ShapeCasts ⟨2, ![a, 1]⟩)
    (h2 : (⟨2, ![a, 1]⟩ : Shape).ShapeCasts ⟨2, ![a, 1]⟩) (h3 : (⟨2, ![a, 1]⟩ : Shape).Broadcasts ⟨2, ![a, b]⟩)
    (p : Fin a) (c : Fin b) :
    broadcastTo ⟨2, ![a, b]⟩ (shapeCast ⟨2, ![a, 1]⟩ (shapeCast ⟨2, ![a, 1]⟩ x h1) h2) h3 (ix2 p c) = x (ix1 p) := by
  rw [broadcastTo_a1_ab_apply, shapeCast_self, shapeCast_a_a1_apply]

/-- The same without the re-cast. -/
theorem column_apply' {a b : ℕ} (x : (⟨1, ![a]⟩ : Shape).Idx → α) (h1 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h1) h3 (ix2 p c) = x (ix1 p) := by
  rw [broadcastTo_a1_ab_apply, shapeCast_a_a1_apply]

end Layout

theorem cmpi_apply {s : Shape} {w : ℕ} (p : CmpIPredicate) (x y : IVec s w) (i : s.Idx) :
    cmpi p x y i = IntOp.cmpi p (x i) (y i) := rfl

theorem addi_apply {s : Shape} {w : ℕ} (x y : IVec s w) (i : s.Idx) : addi x y i = x i + y i := rfl

/-- The bit patterns of the two constants. -/
theorem one_f32 : (Scalar.ofBits (F := Ideal) .f32 0x3F800000#32 : EReal) = 1 := Ideal.ofBits_one_f32

theorem zero_f32 : (Scalar.ofBits (F := Ideal) .f32 0x00000000#32 : EReal) = 0 := Ideal.ofBits_zero_f32

/-! ## The payloads at an index -/

theorem planeIota_apply (u : Fin 1) (q : Fin 4096) : planeIota (ix2 u q) = BitVec.ofNat 32 q.val :=
  iota_single_apply .tc S1x4096 32 1 iota_S1x4096_d1_w32 (ix2 u q)

/-- The row of a plane position, as the body computes it. -/
theorem pay9_apply (u : Fin 1) (q : Fin 4096) :
    k0_pay9 planeIota 64#32 k0_pay7 k0_pay8 (ix2 u q) = BitVec.ofNat 32 (q.val / 64) := by
  have e := floordiv_64 q.val q.isLt
  rw [← planeIota_apply u q] at e
  exact e

/-- The column of a plane position, as the body computes it. -/
theorem pay10_apply (u : Fin 1) (q : Fin 4096) :
    k0_pay10 planeIota 64#32 k0_pay7 k0_pay8 (ix2 u q) = BitVec.ofNat 32 (q.val % 64) := by
  show IntOp.subi (planeIota (ix2 u q)) (IntOp.muli (k0_pay9 planeIota 64#32 k0_pay7 k0_pay8 (ix2 u q)) 64#32) = _
  rw [pay9_apply, planeIota_apply]
  exact sub_mul_64 q.val q.isLt

/-! ## The three weight rows and the matrix product -/

/-- The plane-row weights: at point `p` and plane position `q`, the weight the row axis gives row `q / 64`. -/
theorem pay11_apply (v5 : IVec S256 32) (v11 : FVec Ideal S256 .f32) (p : Fin 256) (q : Fin 4096) :
    k0_pay11 (F := Ideal) v5 v11 planeIota 64#32 k0_pay7 k0_pay8 (ix2 p q)
      = lw (v5 (ix1 p)) (v11 (ix1 p)) (q.val / 64) := by
  unfold k0_pay11 lw
  simp only [addf_apply, select_apply, cmpi_apply, subf_apply, addi_apply, broadcast_apply, column_apply, column_apply',
    broadcastTo_1b_ab_apply, broadcastTo_a1_ab_apply, shapeCast_self, shapeCast_a_a1_apply, pay9_apply, select_cmpi_eq, one_f32, zero_f32]

/-- The test "the plane column of `q` is the base column of point `p`". -/
theorem pay12_apply (v7 : IVec S256 32) (p : Fin 256) (q : Fin 4096) :
    k0_pay12 v7 planeIota 64#32 k0_pay7 k0_pay8 (ix2 p q) = IntOp.cmpi .eq (BitVec.ofNat 32 (q.val % 64)) (v7 (ix1 p)) := by
  unfold k0_pay12
  simp only [cmpi_apply, column_apply', broadcastTo_1b_ab_apply, pay10_apply]

/-! ## The matrix product: the depth weights against the slab -/

theorem depthIota_apply (p : Fin 256) (d : Fin 64) :
    iota .tc S256x64 32 [1] iota_S256x64_d1_w32 (ix2 p d) = BitVec.ofNat 32 d.val :=
  iota_single_apply .tc S256x64 32 1 iota_S256x64_d1_w32 (ix2 p d)

theorem lhs_0 (j : S256x4096.Idx) (k : (dot_S256x64_S64x4096_S256x4096_1_0_0_1_n_n).contr.Idx) :
    ((dot_S256x64_S64x4096_S256x4096_1_0_0_1_n_n).lhsIdx j k 0).val = (j 0).val := by
  simp [DotDims.lhsIdx, dot_S256x64_S64x4096_S256x4096_1_0_0_1_n_n]; rfl

theorem lhs_1 (j : S256x4096.Idx) (k : (dot_S256x64_S64x4096_S256x4096_1_0_0_1_n_n).contr.Idx) :
    ((dot_S256x64_S64x4096_S256x4096_1_0_0_1_n_n).lhsIdx j k 1).val = (k ⟨0, by decide⟩).val :=
  DotDims.lhsIdx_val_of_single (dot_S256x64_S64x4096_S256x4096_1_0_0_1_n_n) rfl j k

theorem rhs_0 (j : S256x4096.Idx) (k : (dot_S256x64_S64x4096_S256x4096_1_0_0_1_n_n).contr.Idx) :
    ((dot_S256x64_S64x4096_S256x4096_1_0_0_1_n_n).rhsIdx j k 0).val = (k ⟨0, by decide⟩).val :=
  DotDims.rhsIdx_val_of_single (dot_S256x64_S64x4096_S256x4096_1_0_0_1_n_n) rfl j k

theorem rhs_1 (j : S256x4096.Idx) (k : (dot_S256x64_S64x4096_S256x4096_1_0_0_1_n_n).contr.Idx) :
    ((dot_S256x64_S64x4096_S256x4096_1_0_0_1_n_n).rhsIdx j k 1).val = (j 1).val := by
  simp [DotDims.rhsIdx, dot_S256x64_S64x4096_S256x4096_1_0_0_1_n_n]; rfl

/-- The product of the depth-weight matrix with the slab: at point `p` and plane position `q`, the depth axis contracted. -/
theorem pay6_apply (v0 : FVec Ideal S1x64x4096 .bf16) (v2 : IVec S256 32) (v8 : FVec Ideal S256 .f32) (p : Fin 256) (q : Fin 4096) :
    k0_pay6 (F := Ideal) v0 v2 v8 (ix2 p q)
      = ∑ d : Fin 64, lw (v2 (ix1 p)) (v8 (ix1 p)) d.val * v0 (ix3 (0 : Fin 1) d q) := by
  unfold k0_pay6
  dsimp only
  refine (Ideal.matmul_constant_zero_apply (dot_S256x64_S64x4096_S256x4096_1_0_0_1_n_n) none _ _ (ix2 p q)).trans ?_
  rw [← Equiv.sum_comp (contrEquiv1 (dot_S256x64_S64x4096_S256x4096_1_0_0_1_n_n) 64 rfl rfl).symm]
  refine Finset.sum_congr rfl fun d _ => ?_
  have c := contrEquiv1_symm_val (dot_S256x64_S64x4096_S256x4096_1_0_0_1_n_n) 64 rfl rfl d
  have l : (dot_S256x64_S64x4096_S256x4096_1_0_0_1_n_n).lhsIdx (ix2 p q) ((contrEquiv1 (dot_S256x64_S64x4096_S256x4096_1_0_0_1_n_n) 64 rfl rfl).symm d) = ix2 p d := by
    funext ax; apply Fin.ext
    match ax with
    | ⟨0, _⟩ => exact lhs_0 _ _
    | ⟨1, _⟩ => exact (lhs_1 _ _).trans c
  have r : (dot_S256x64_S64x4096_S256x4096_1_0_0_1_n_n).rhsIdx (ix2 p q) ((contrEquiv1 (dot_S256x64_S64x4096_S256x4096_1_0_0_1_n_n) 64 rfl rfl).symm d) = ix2 d q := by
    funext ax; apply Fin.ext
    match ax with
    | ⟨0, _⟩ => exact (rhs_0 _ _).trans c
    | ⟨1, _⟩ => exact rhs_1 _ _
  rw [l, r, shapeCast_1ab_ab_apply]
  refine congrArg (· * v0 (ix3 (0 : Fin 1) d q)) ?_
  unfold lw
  simp only [truncf_apply, addf_apply, select_apply, cmpi_apply, subf_apply, addi_apply, broadcast_apply, shapeCast_self,
    column_apply, column_apply', broadcastTo_a1_ab_apply, shapeCast_a_a1_apply, select_cmpi_eq, one_f32, zero_f32]
  rw [depthIota_apply]

/-! ## The lane sum and the whole value -/

/-- A sum over the lanes of a `[256, 4096]` array, at row `p`. -/
theorem lane_sum (src : FVec Ideal S256x4096 .f32) (hφ : FKind.Formats .f32)
    (hacc : (0x00000000#32 : BitVec 32) = 0x00000000#32) (p : Fin 256) :
    multiReduction (F := Ideal) .add [1] S256 src 0x00000000#32 reduces_S256x4096_S256 hφ hacc (ix1 p)
      = ∑ q : Fin 4096, src (ix2 p q) := by
  refine (Ideal.multiReduction_add_single src 0x00000000#32 reduces_S256x4096_S256 hφ hacc (ix1 p)).trans ?_
  refine Finset.sum_congr rfl fun q _ => congrArg src ?_
  funext c; apply Fin.ext
  match c with
  | ⟨0, _⟩ => rfl
  | ⟨1, _⟩ => rfl

/-- The stored value at point `p`: the sum over the plane of (row weight · column weight) · depth-contracted slab. -/
theorem pay1_apply (v7 : IVec S256 32) (v13 : FVec Ideal S256 .f32) (v37 : FVec Ideal S256x4096 .f32) (v65 : IVec S1x4096 32)
    (v88 : FVec Ideal S256x4096 .f32) (v92 : IVec S256x4096 1) (p : Fin 256) :
    k0_pay1 (F := Ideal) v7 v13 v37 v65 v88 v92 (ix1 p)
      = ∑ q : Fin 4096, (v88 (ix2 p q) * (Scalar.select (v92 (ix2 p q)) (1 - v13 (ix1 p)) 0
          + (if v65 (ix2 (0 : Fin 1) q) = v7 (ix1 p) + 1#32 then v13 (ix1 p) else 0))) * v37 (ix2 p q) := by
  unfold k0_pay1
  dsimp only
  refine (lane_sum _ _ _ p).trans ?_
  refine Finset.sum_congr rfl fun q _ => ?_
  simp only [mulf_apply, addf_apply, select_apply, cmpi_apply, subf_apply, addi_apply, broadcast_apply,
    column_apply, column_apply', broadcastTo_1b_ab_apply, broadcastTo_a1_ab_apply, shapeCast_self, shapeCast_a_a1_apply,
    select_cmpi_eq, one_f32, zero_f32]

/-! ## The four re-casts of loaded vectors to their own shape -/

section Recasts
variable {F : FTy → Type} [FloatOps F]

theorem pay2_eq (v : Vec F S256 .i32) : k0_pay2 (F := F) v = v := by unfold k0_pay2; exact shapeCast_self _ _

theorem pay3_eq (v : Vec F S256 .i32) : k0_pay3 (F := F) v = v := by unfold k0_pay3; exact shapeCast_self _ _

theorem pay4_eq (v : Vec F S256 .f32) : k0_pay4 (F := F) v = v := by unfold k0_pay4; exact shapeCast_self _ _

theorem pay5_eq (v : Vec F S256 .f32) : k0_pay5 (F := F) v = v := by unfold k0_pay5; exact shapeCast_self _ _

end Recasts

/-! ## The stored value is the sample by successive contraction -/

theorem slab_apply (x0 : FVec Ideal S1x64x4096 .bf16) (d : Fin 64) (q : Fin 4096) :
    slab (φ := .bf16) x0 d.val q.val = x0 (ix3 (0 : Fin 1) d q) := by
  unfold slab
  rw [dif_pos ⟨d.isLt, q.isLt⟩]

/-- The body's value at point `p`, over the seven loaded blocks. -/
theorem body_value (x0 : Vec Ideal S1x64x4096 .bf16) (x1 x2 x3 : Vec Ideal S256 .i32) (x4 x5 x6 : Vec Ideal S256 .f32)
    (p : Fin 256) :
    bodyTerm (F := Ideal) x0 x1 x2 x3 x4 x5 x6 (ix1 p)
      = kval (slab (φ := .bf16) x0) (x1 (ix1 p)) (x2 (ix1 p)) (x3 (ix1 p)) (x4 (ix1 p)) (x5 (ix1 p)) (x6 (ix1 p)) := by
  unfold bodyTerm
  rw [pay2_eq, pay3_eq, pay4_eq, pay5_eq]
  refine (pay1_apply _ _ _ _ _ _ p).trans ?_
  unfold kval
  rw [Finset.sum_range]
  refine Finset.sum_congr rfl fun q _ => ?_
  rw [pay11_apply, pay12_apply, pay10_apply, pay6_apply, select_cmpi_eq, Finset.sum_range]
  refine congrArg₂ (· * ·) rfl (Finset.sum_congr rfl fun d _ => ?_)
  rw [slab_apply]

/-- What the body leaves in the output block at point `p`: the sample of the slab at that point's cell and weights. -/
theorem out_value (c : Dev nD) (i : grid0.Coords) (arg2 : Memref sig .tc .vmem S1x64x4096 .bf16) (harg2 : arg2.IsWhole) (arg3 : Memref sig .tc .vmem S256 .i32) (harg3 : arg3.IsWhole) (arg4 : Memref sig .tc .vmem S256 .i32) (harg4 : arg4.IsWhole) (arg5 : Memref sig .tc .vmem S256 .i32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole)
    (x0 : Vec Ideal S1x64x4096 .bf16) (x1 : Vec Ideal S256 .i32) (x2 : Vec Ideal S256 .i32) (x3 : Vec Ideal S256 .i32) (x4 : Vec Ideal S256 .f32) (x5 : Vec Ideal S256 .f32) (x6 : Vec Ideal S256 .f32) (xt0 : TbBuf0 (F := Ideal) c tbM0_0) (p : Fin 256) :
    out0_A_7 (F := Ideal) c i arg2 harg2 arg3 harg3 arg4 harg4 arg5 harg5 arg6 harg6 arg7 harg7 arg8 harg8 arg9 harg9 x0 x1 x2 x3 x4 x5 x6 xt0 (ix1 p)
      = kval (slab (φ := .bf16) x0) (x1 (ix1 p)) (x2 (ix1 p)) (x3 (ix1 p)) (x4 (ix1 p)) (x5 (ix1 p)) (x6 (ix1 p)) :=
  (congrFun (out_piece (F := Ideal) c i arg2 harg2 arg3 harg3 arg4 harg4 arg5 harg5 arg6 harg6 arg7 harg7 arg8 harg8 arg9 harg9 x0 x1 x2 x3 x4 x5 x6 xt0) (ix1 p)).trans (body_value x0 x1 x2 x3 x4 x5 x6 p)

end Cert.AlphaGrid.BodyValue

end
-- ==== Proof.FrameValue.lean ====
/-
  From the tiles to the padded array. The kernel walks 16448 tiles of 256 slots. At tile `t` it reads block
  `table[t]` of the `[64, 64, 4096]` volume (the table's word at `t` picks the block), tile `t` of six
  `[4210688]` point-data arrays, and writes tile `t` of the `[4210688]` result. A slot `s` belongs to tile
  `s / 256` at position `s % 256`; conversely position `p` of tile `t` is slot `256 t + p`.

  Given what the body computes on one tile (`BodySamples`: at each position the sample `kval` of the staged volume
  block at the six staged point-data words), the result array ends holding, at every slot `s`, the sample of the
  volume block of tile `s / 256` at the six arrays' words of slot `s` (`out_padded`). The steps:

  * the index maps: every tile window sits on tile `t` at point `t` (`index1` … `index7`), the volume window on block
    `table[t]` (`index0_0`), for any admissible contents of the table;
  * the block reads: a tile window's block at position `p` is its array at slot `256 t + p` (`read1` … `read7`); the
    volume window's block at `(0, d, q)` is the volume at `(table[t], d, q)` (`read0`), the word being below 64 by the
    table's side condition (`word_lt`);
  * the cover: slot `s` lies in the result window's block at point `s / 256`, and every point writes back
    (`mem_blk7`, `cover7`), so an array `G` whose tile `t` every point leaves is what the result array ends holding
    (`arr_of_tiles`);
  * the instance: at the table the program computes, the body's samples are `padded` (`tile_value`), whence `arr_padded`
    and `out_padded`; the staged blocks as entries of the arrays are `iblk0_apply` … `iblk6_apply`, `blockSlab_in`,
    `blockSlab_out`.
-/
import proofs.«104803_j90202903151142_1_alg».proof.Proof.Gen.KernelIdeal.Frame
import proofs.«104803_j90202903151142_1_alg».proof.Proof.Spec
import proofs.«104803_j90202903151142_1_alg».proof.Proof.Vol
import Idealize.ShloMosaic.Lib.Pipeline.Value
import Idealize.ShloMosaic.Lib.ValueIdx

set_option maxRecDepth 16384

noncomputable section

namespace Cert.AlphaGrid.FrameValue

open Idealize.ShloMosaic Idealize.ShloMosaic.TcCoe Idealize.SL.Sem Idealize.ShloMosaic.ValueIdx
open Idealize.ShloMosaic.Pipeline (Dat)
open Idealize.SL Idealize.SL.RA Idealize.ShloMosaic.Rounds
open Cert.KernelIdeal Cert.KernelIdeal.Gen

variable {F : FTy → Type} [FloatOps F]

/-- On the one-axis grid the coordinate of a point is the point's number. -/
theorem coords0 (t : Fin grid0.N) : (grid0.coords t 0).val = t.val := by
  have hN : grid0.N = 16448 := N_0
  have ht := t.isLt
  show t.val / grid0.stride 0 % grid0.bound 0 = t.val
  rw [show grid0.stride 0 = 1 from by decide, show grid0.bound 0 = 16448 from rfl]
  omega

/-- The 32-bit word of a point's coordinate is the point's number (it is below 16448). -/
theorem word_coord (t : Fin grid0.N) : (BitVec.ofNat 32 (grid0.coords t 0).val).toNat = t.val := by
  have hN : grid0.N = 16448 := N_0
  have ht : t.val < grid0.N := t.isLt
  rw [BitVec.toNat_ofNat, coords0]
  omega

/-! The six point-data windows and the result window sit on tile `t` at point `t`, whatever the table holds. -/
theorem index7 (a : (pcfg0 (F := F)).Adm) (t : Fin (cfg0 a).N) : ((cfg0 a).win 7).index t (0 : Fin 1) = t.val := word_coord t
theorem index1 (a : (pcfg0 (F := F)).Adm) (t : Fin (cfg0 a).N) : ((cfg0 a).win 1).index t (0 : Fin 1) = t.val := word_coord t
theorem index2 (a : (pcfg0 (F := F)).Adm) (t : Fin (cfg0 a).N) : ((cfg0 a).win 2).index t (0 : Fin 1) = t.val := word_coord t
theorem index3 (a : (pcfg0 (F := F)).Adm) (t : Fin (cfg0 a).N) : ((cfg0 a).win 3).index t (0 : Fin 1) = t.val := word_coord t
theorem index4 (a : (pcfg0 (F := F)).Adm) (t : Fin (cfg0 a).N) : ((cfg0 a).win 4).index t (0 : Fin 1) = t.val := word_coord t
theorem index5 (a : (pcfg0 (F := F)).Adm) (t : Fin (cfg0 a).N) : ((cfg0 a).win 5).index t (0 : Fin 1) = t.val := word_coord t
theorem index6 (a : (pcfg0 (F := F)).Adm) (t : Fin (cfg0 a).N) : ((cfg0 a).win 6).index t (0 : Fin 1) = t.val := word_coord t

/-- The number of a point of the grid is below 16448. -/
theorem pt_lt (t : Fin grid0.N) : t.val < 16448 := lt_of_lt_of_eq t.isLt N_0

/-- The word of the tile table at tile `t`. -/
abbrev tword (pf : pre0.Contents (Elt F)) (t : Fin grid0.N) : BitVec 32 :=
  (pf 0 : IVec S16448 32) (ix1 (⟨t.val, pt_lt t⟩ : Fin 16448))

/-- The volume window's index map at point `t` reads the table's word at `t` for the block axis. -/
theorem tf0 (pf : pre0.Contents (Elt F)) (t : Fin grid0.N) :
    cc0_transform_0 k0_off1_inb numel1_S1 pf (grid0.coords t) (0 : Fin 3) = (tword pf t).toNat := by
  show ((pf 0 : IVec S16448 32) _).toNat = ((pf 0 : IVec S16448 32) _).toNat
  refine congrArg (fun j => ((pf 0 : IVec S16448 32) j).toNat) (funext fun d => Fin.ext ?_)
  match d with
  | ⟨0, _⟩ =>
    show (BitVec.ofNat 32 (grid0.coords t 0).val).toNat + 1 * 0 = t.val
    rw [word_coord]; omega

/-- The side condition on the table's contents: its word at every point names one of the 64 blocks of the volume. -/
theorem word_lt (pf : pre0.Contents (Elt F)) (hok : ok0 pf) (t : Fin grid0.N) : (tword pf t).toNat < 64 := by
  obtain ⟨h, -⟩ := hok (grid0.coords t)
  have h0 : (cc0_transform_0 k0_off1_inb numel1_S1 pf (grid0.coords t) (0 : Fin 3) + 1) * 1 ≤ 64 := h 0
  rw [tf0] at h0; omega

/-- The volume window's block index at point `t` is the table's word there on the block axis, -/
theorem index0_0 (a : (pcfg0 (F := F)).Adm) (pf : pre0.Contents (Elt F)) (hpf : a.1 = pf) (t : Fin (cfg0 a).N) :
    ((cfg0 a).win 0).index t (0 : Fin 3) = (tword pf t).toNat := by
  subst hpf; exact tf0 a.1 t
/-- and zero on the two axes inside a block. -/
theorem index0_1 (a : (pcfg0 (F := F)).Adm) (t : Fin (cfg0 a).N) : ((cfg0 a).win 0).index t (1 : Fin 3) = 0 := rfl
theorem index0_2 (a : (pcfg0 (F := F)).Adm) (t : Fin (cfg0 a).N) : ((cfg0 a).win 0).index t (2 : Fin 3) = 0 := rfl

/-! ## The blocks the windows read -/

/-- The slot of point `t`'s tile at position `p`. -/
theorem slot_lt (t : Fin grid0.N) (p : Fin 256) : 256 * t.val + p.val < 4210688 := by
  have := pt_lt t; have := p.isLt; omega

/-! A tile window (the six point-data windows 1 to 6 and the output window 7 all sit on tile `t` at point `t`):
    block `t` of a `[4210688]` array at position `p` is the array at slot `256 t + p`. -/
theorem read1 (a : (pcfg0 (F := F)).Adm) (t : Fin (cfg0 a).N) (A : Vec F S4210688 .i32) (p : Fin 256) :
    (((cfg0 a).win 1).blk t).view.read (Elt F) A (ix1 p) = A (ix1 (⟨256 * t.val + p.val, slot_lt t p⟩ : Fin 4210688)) := by
  show A _ = A _
  refine congrArg A (funext fun d => Fin.ext ?_)
  match d with
  | ⟨0, _⟩ =>
    show ((cfg0 a).win 1).index t (0 : Fin 1) * 256 + 1 * p.val = 256 * t.val + p.val
    rw [index1]; omega
theorem read2 (a : (pcfg0 (F := F)).Adm) (t : Fin (cfg0 a).N) (A : Vec F S4210688 .i32) (p : Fin 256) :
    (((cfg0 a).win 2).blk t).view.read (Elt F) A (ix1 p) = A (ix1 (⟨256 * t.val + p.val, slot_lt t p⟩ : Fin 4210688)) := by
  show A _ = A _
  refine congrArg A (funext fun d => Fin.ext ?_)
  match d with
  | ⟨0, _⟩ =>
    show ((cfg0 a).win 2).index t (0 : Fin 1) * 256 + 1 * p.val = 256 * t.val + p.val
    rw [index2]; omega
theorem read3 (a : (pcfg0 (F := F)).Adm) (t : Fin (cfg0 a).N) (A : Vec F S4210688 .i32) (p : Fin 256) :
    (((cfg0 a).win 3).blk t).view.read (Elt F) A (ix1 p) = A (ix1 (⟨256 * t.val + p.val, slot_lt t p⟩ : Fin 4210688)) := by
  show A _ = A _
  refine congrArg A (funext fun d => Fin.ext ?_)
  match d with
  | ⟨0, _⟩ =>
    show ((cfg0 a).win 3).index t (0 : Fin 1) * 256 + 1 * p.val = 256 * t.val + p.val
    rw [index3]; omega
theorem read4 (a : (pcfg0 (F := F)).Adm) (t : Fin (cfg0 a).N) (A : Vec F S4210688 .f32) (p : Fin 256) :
    (((cfg0 a).win 4).blk t).view.read (Elt F) A (ix1 p) = A (ix1 (⟨256 * t.val + p.val, slot_lt t p⟩ : Fin 4210688)) := by
  show A _ = A _
  refine congrArg A (funext fun d => Fin.ext ?_)
  match d with
  | ⟨0, _⟩ =>
    show ((cfg0 a).win 4).index t (0 : Fin 1) * 256 + 1 * p.val = 256 * t.val + p.val
    rw [index4]; omega
theorem read5 (a : (pcfg0 (F := F)).Adm) (t : Fin (cfg0 a).N) (A : Vec F S4210688 .f32) (p : Fin 256) :
    (((cfg0 a).win 5).blk t).view.read (Elt F) A (ix1 p) = A (ix1 (⟨256 * t.val + p.val, slot_lt t p⟩ : Fin 4210688)) := by
  show A _ = A _
  refine congrArg A (funext fun d => Fin.ext ?_)
  match d with
  | ⟨0, _⟩ =>
    show ((cfg0 a).win 5).index t (0 : Fin 1) * 256 + 1 * p.val = 256 * t.val + p.val
    rw [index5]; omega
theorem read6 (a : (pcfg0 (F := F)).Adm) (t : Fin (cfg0 a).N) (A : Vec F S4210688 .f32) (p : Fin 256) :
    (((cfg0 a).win 6).blk t).view.read (Elt F) A (ix1 p) = A (ix1 (⟨256 * t.val + p.val, slot_lt t p⟩ : Fin 4210688)) := by
  show A _ = A _
  refine congrArg A (funext fun d => Fin.ext ?_)
  match d with
  | ⟨0, _⟩ =>
    show ((cfg0 a).win 6).index t (0 : Fin 1) * 256 + 1 * p.val = 256 * t.val + p.val
    rw [index6]; omega
theorem read7 (a : (pcfg0 (F := F)).Adm) (t : Fin (cfg0 a).N) (A : Vec F S4210688 .f32) (p : Fin 256) :
    (((cfg0 a).win 7).blk t).view.read (Elt F) A (ix1 p) = A (ix1 (⟨256 * t.val + p.val, slot_lt t p⟩ : Fin 4210688)) := by
  show A _ = A _
  refine congrArg A (funext fun d => Fin.ext ?_)
  match d with
  | ⟨0, _⟩ =>
    show ((cfg0 a).win 7).index t (0 : Fin 1) * 256 + 1 * p.val = 256 * t.val + p.val
    rw [index7]; omega

/-- The volume window's block at point `t` is block number `table[t]` of the `[64, 64, 4096]` array: entry
    `(0, d, q)` of it is the array's entry `(table[t], d, q)`. -/
theorem read0 (a : (pcfg0 (F := F)).Adm) (pf : pre0.Contents (Elt F)) (hpf : a.1 = pf) (hok : ok0 pf) (t : Fin (cfg0 a).N)
    (A : Vec F S64x64x4096 .bf16) (d : Fin 64) (q : Fin 4096) :
    (((cfg0 a).win 0).blk t).view.read (Elt F) A (ix3 (0 : Fin 1) d q)
      = A (ix3 (⟨(tword pf t).toNat, word_lt pf hok t⟩ : Fin 64) d q) := by
  show A _ = A _
  refine congrArg A (funext fun e => Fin.ext ?_)
  match e with
  | ⟨0, _⟩ =>
    show ((cfg0 a).win 0).index t (0 : Fin 3) * 1 + 1 * 0 = (tword pf t).toNat
    rw [index0_0 a pf hpf]; omega
  | ⟨1, _⟩ =>
    show ((cfg0 a).win 0).index t (1 : Fin 3) * 64 + 1 * d.val = d.val
    rw [index0_1]; omega
  | ⟨2, _⟩ =>
    show ((cfg0 a).win 0).index t (2 : Fin 3) * 4096 + 1 * q.val = q.val
    rw [index0_2]; omega

/-! ## From the tiles to the padded array -/

/-- A slot whose tile is `t` lies in the output window's block at point `t`. -/
theorem mem_blk7 (a : (pcfg0 (F := F)).Adm) (t : Fin (cfg0 a).N) (i : S4210688.Idx) (h : 256 * t.val ≤ (i 0).val ∧ (i 0).val < 256 * t.val + 256) :
    i ∈ (((cfg0 a).win 7).blk t).view.set := by
  have e : (((cfg0 a).win 7).blk t).view.set = (((cfg0 a).win 7).rect t).set :=
    View.set_slice_whole main_v199 (((cfg0 a).win 7).rect t)
  refine (Finset.ext_iff.mp e i).mpr (Rect.mem_set_unit.mpr fun d => ?_)
  match d with
  | ⟨0, _⟩ =>
    show ((cfg0 a).win 7).index t (0 : Fin 1) * 256 ≤ (i 0).val ∧ (i 0).val < ((cfg0 a).win 7).index t (0 : Fin 1) * 256 + 256
    rw [index7]; omega

/-- Every slot of the padded array is in the block of its tile's point, and every point writes its block back. -/
theorem cover7 (a : (pcfg0 (F := F)).Adm) (i : S4210688.Idx) :
    ∃ t : Fin (cfg0 a).N, ((cfg0 a).win 7).flush t = true ∧ i ∈ (((cfg0 a).win 7).blk t).view.set := by
  have hi : (i 0).val < 4210688 := (i 0).isLt
  have hN : grid0.N = 16448 := N_0
  refine ⟨⟨(i 0).val / 256, by show _ < grid0.N; omega⟩, flush0_7 a _, mem_blk7 a _ i ?_⟩
  show 256 * ((i 0).val / 256) ≤ (i 0).val ∧ (i 0).val < 256 * ((i 0).val / 256) + 256
  omega

/-- If the body leaves, at every point `t` and position `p`, the value `G` has at slot `256 t + p`, the padded array ends
    holding `G`: what point `t` writes back is block `t` of `G`, and the blocks tile the array. -/
theorem arr_of_tiles (a : (pcfg0 (F := Ideal)).Adm) (c : Dev nD)
    (dat : Dat τ (Elt Ideal) Unit ℕ (UR sig nD τ) ℕ (cfg0 a) c)
    (X : Fin (cfg0 a).N → Vec Ideal S256 .f32) (hafter : ∀ t, dat.after 7 t = X t)
    (G : Vec Ideal S4210688 .f32)
    (hX : ∀ (t : Fin (cfg0 a).N) (p : Fin 256), X t (ix1 p) = G (ix1 (⟨256 * t.val + p.val, slot_lt t p⟩ : Fin 4210688))) :
    dat.arrAt 7 (cfg0 a).N = G := by
  refine dat.arrAt_eq_of_cover 7 G (fun t _ => ?_) (cover7 a)
  show ((cfg0 a).win 7).cut ((cfg0 a).grid.coords t) (dat.after 7 t) = _
  rw [hafter]
  refine funext fun (j : S256.Idx) => ?_
  obtain ⟨p, rfl⟩ : ∃ p : Fin 256, j = ix1 p := ⟨j 0, eq_ix1 j⟩
  exact (hX t p).trans (read7 a t G p).symm

/-! ## The padded array the kernel leaves -/

variable (m : (ℓ : Loc nD τ sig) → Buf (Elt Ideal) ℓ)

/-- What the kernel body computes on its staged blocks, position by position of the tile: the sample `kval` of the
    staged volume block at the tile's six point-data words. -/
abbrev BodySamples : Prop :=
  ∀ (c : Dev nD) (i : grid0.Coords) (arg2 : Memref sig .tc .vmem S1x64x4096 .bf16) (harg2 : arg2.IsWhole) (arg3 : Memref sig .tc .vmem S256 .i32) (harg3 : arg3.IsWhole) (arg4 : Memref sig .tc .vmem S256 .i32) (harg4 : arg4.IsWhole) (arg5 : Memref sig .tc .vmem S256 .i32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole)
    (x0 : Vec Ideal S1x64x4096 .bf16) (x1 : Vec Ideal S256 .i32) (x2 : Vec Ideal S256 .i32) (x3 : Vec Ideal S256 .i32)
    (x4 : Vec Ideal S256 .f32) (x5 : Vec Ideal S256 .f32) (x6 : Vec Ideal S256 .f32) (xt0 : TbBuf0 (F := Ideal) c tbM0_0) (p : Fin 256),
    out0_A_7 (F := Ideal) c i arg2 harg2 arg3 harg3 arg4 harg4 arg5 harg5 arg6 harg6 arg7 harg7 arg8 harg8 arg9 harg9 x0 x1 x2 x3 x4 x5 x6 xt0 (ix1 p)
      = kval (slab (φ := .bf16) x0) (x1 (ix1 p)) (x2 (ix1 p)) (x3 (ix1 p)) (x4 (ix1 p)) (x5 (ix1 p)) (x6 (ix1 p))

/-- The tile of a slot. -/
def tileOf (n : Nat) (h : n < 4210688) : Fin grid0.N := ⟨n / 256, by rw [N_0]; omega⟩

/-- The volume block staged at point `t`, as a slab. -/
def blockSlab (hO : Ok m) (c : Dev nD) (t : Fin grid0.N) : Nat → Nat → EReal :=
  slab (φ := .bf16) (iblk m hO c 0 t)

/-- The padded array: at slot `s` the sample of the block staged at the slot's tile, at the slot's six point-data words. -/
def padded (hO : Ok m) (c : Dev nD) : Vec Ideal S4210688 .f32 := fun i =>
  kval (blockSlab m hO c (tileOf (i 0).val (i 0).isLt))
    ((V m c main_v135 : Vec Ideal S4210688 .i32) i) ((V m c main_v143 : Vec Ideal S4210688 .i32) i) ((V m c main_v151 : Vec Ideal S4210688 .i32) i)
    ((V m c main_v159 : Vec Ideal S4210688 .f32) i) ((V m c main_v167 : Vec Ideal S4210688 .f32) i) ((V m c main_v175 : Vec Ideal S4210688 .f32) i)

/-- At point `t`, position `p`, the body leaves the padded array's value at slot `256 t + p`: the slot's tile is `t`, and each
    staged point-data block at `p` is its array at that slot. -/
theorem tile_value (hbody : BodySamples) (hO : Ok m) (c : Dev nD) (t : Fin (cfgM m hO).N) (p : Fin 256) :
    outsAt0 m hO c t (ix1 p) = padded m hO c (ix1 (⟨256 * t.val + p.val, slot_lt t p⟩ : Fin 4210688)) := by
  unfold outsAt0
  refine (hbody c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) p).trans ?_
  have et : tileOf (256 * t.val + p.val) (slot_lt t p) = t := Fin.ext (by show (256 * t.val + p.val) / 256 = t.val; have := p.isLt; omega)
  show kval (blockSlab m hO c t) _ _ _ _ _ _ = kval (blockSlab m hO c (tileOf (256 * t.val + p.val) (slot_lt t p))) _ _ _ _ _ _
  rw [et]
  exact congr (congr (congr (congr (congr (congrArg (kval (blockSlab m hO c t))
    (read1 (adm m hO) t (V m c main_v135) p)) (read2 (adm m hO) t (V m c main_v143) p)) (read3 (adm m hO) t (V m c main_v151) p))
    (read4 (adm m hO) t (V m c main_v159) p)) (read5 (adm m hO) t (V m c main_v167) p)) (read6 (adm m hO) t (V m c main_v175) p)

/-- THE PADDED ARRAY after the run: at every slot the sample of the block staged at the slot's tile. -/
theorem arr_padded (hbody : BodySamples) (hO : Ok m) (c : Dev nD) :
    (dats m hO 0 c).arrAt 7 (cfgM m hO).N = padded m hO c :=
  arr_of_tiles (adm m hO) c (dats m hO 0 c) (outsAt0 m hO c) (after0_7 m hO c) (padded m hO c) (tile_value m hbody hO c)

/-- At every slot: the padded array holds the sample of the volume block staged at the slot's tile, at the six
    point-data arrays' words of that slot. -/
theorem out_padded (hbody : BodySamples) (hO : Ok m) (c : Dev nD) (s : Fin 4210688) :
    (dats m hO 0 c).arrAt 7 (cfgM m hO).N (ix1 s)
      = kval (blockSlab m hO c (tileOf s.val s.isLt))
          ((V m c main_v135 : Vec Ideal S4210688 .i32) (ix1 s)) ((V m c main_v143 : Vec Ideal S4210688 .i32) (ix1 s))
          ((V m c main_v151 : Vec Ideal S4210688 .i32) (ix1 s)) ((V m c main_v159 : Vec Ideal S4210688 .f32) (ix1 s))
          ((V m c main_v167 : Vec Ideal S4210688 .f32) (ix1 s)) ((V m c main_v175 : Vec Ideal S4210688 .f32) (ix1 s)) :=
  congrFun (arr_padded m hbody hO c) (ix1 s)

/-! ## The staged blocks as entries of the arrays -/

/-- The volume block staged at point `t` is block number `table[t]` of the `[64, 64, 4096]` volume. -/
theorem iblk0_apply (hO : Ok m) (c : Dev nD) (t : Fin (cfgM m hO).N) (d : Fin 64) (q : Fin 4096) :
    (iblk m hO c 0 t : Vec Ideal S1x64x4096 .bf16) (ix3 (0 : Fin 1) d q)
      = (V m c main_v198 : Vec Ideal S64x64x4096 .bf16) (ix3 (⟨(tword (tbl m) t).toNat, word_lt (tbl m) hO t⟩ : Fin 64) d q) :=
  read0 (adm m hO) (tbl m) rfl hO t (V m c main_v198) d q

/-! Each point-data block at point `t`, position `p`, is its array at slot `256 t + p`. -/
theorem iblk1_apply (hO : Ok m) (c : Dev nD) (t : Fin (cfgM m hO).N) (p : Fin 256) :
    (iblk m hO c 1 t : Vec Ideal S256 .i32) (ix1 p)
      = (V m c main_v135 : Vec Ideal S4210688 .i32) (ix1 (⟨256 * t.val + p.val, slot_lt t p⟩ : Fin 4210688)) :=
  read1 (adm m hO) t (V m c main_v135) p
theorem iblk2_apply (hO : Ok m) (c : Dev nD) (t : Fin (cfgM m hO).N) (p : Fin 256) :
    (iblk m hO c 2 t : Vec Ideal S256 .i32) (ix1 p)
      = (V m c main_v143 : Vec Ideal S4210688 .i32) (ix1 (⟨256 * t.val + p.val, slot_lt t p⟩ : Fin 4210688)) :=
  read2 (adm m hO) t (V m c main_v143) p
theorem iblk3_apply (hO : Ok m) (c : Dev nD) (t : Fin (cfgM m hO).N) (p : Fin 256) :
    (iblk m hO c 3 t : Vec Ideal S256 .i32) (ix1 p)
      = (V m c main_v151 : Vec Ideal S4210688 .i32) (ix1 (⟨256 * t.val + p.val, slot_lt t p⟩ : Fin 4210688)) :=
  read3 (adm m hO) t (V m c main_v151) p
theorem iblk4_apply (hO : Ok m) (c : Dev nD) (t : Fin (cfgM m hO).N) (p : Fin 256) :
    (iblk m hO c 4 t : Vec Ideal S256 .f32) (ix1 p)
      = (V m c main_v159 : Vec Ideal S4210688 .f32) (ix1 (⟨256 * t.val + p.val, slot_lt t p⟩ : Fin 4210688)) :=
  read4 (adm m hO) t (V m c main_v159) p
theorem iblk5_apply (hO : Ok m) (c : Dev nD) (t : Fin (cfgM m hO).N) (p : Fin 256) :
    (iblk m hO c 5 t : Vec Ideal S256 .f32) (ix1 p)
      = (V m c main_v167 : Vec Ideal S4210688 .f32) (ix1 (⟨256 * t.val + p.val, slot_lt t p⟩ : Fin 4210688)) :=
  read5 (adm m hO) t (V m c main_v167) p
theorem iblk6_apply (hO : Ok m) (c : Dev nD) (t : Fin (cfgM m hO).N) (p : Fin 256) :
    (iblk m hO c 6 t : Vec Ideal S256 .f32) (ix1 p)
      = (V m c main_v175 : Vec Ideal S4210688 .f32) (ix1 (⟨256 * t.val + p.val, slot_lt t p⟩ : Fin 4210688)) :=
  read6 (adm m hO) t (V m c main_v175) p

/-- So the slab of point `t` is that block of the volume inside `d < 64`, `q < 4096`, -/
theorem blockSlab_in (hO : Ok m) (c : Dev nD) (t : Fin grid0.N) (d q : Nat) (hd : d < 64) (hq : q < 4096) :
    blockSlab m hO c t d q
      = (V m c main_v198 : Vec Ideal S64x64x4096 .bf16) (ix3 (⟨(tword (tbl m) t).toNat, word_lt (tbl m) hO t⟩ : Fin 64) (⟨d, hd⟩ : Fin 64) (⟨q, hq⟩ : Fin 4096)) := by
  have e : blockSlab m hO c t d q = (iblk m hO c 0 t : Vec Ideal S1x64x4096 .bf16) (ix3 (0 : Fin 1) (⟨d, hd⟩ : Fin 64) (⟨q, hq⟩ : Fin 4096)) := by
    unfold blockSlab slab
    exact dif_pos ⟨hd, hq⟩
  exact e.trans (iblk0_apply m hO c t ⟨d, hd⟩ ⟨q, hq⟩)

/-- and `0` outside. -/
theorem blockSlab_out (hO : Ok m) (c : Dev nD) (t : Fin grid0.N) (d q : Nat) (h : ¬(d < 64 ∧ q < 4096)) :
    blockSlab m hO c t d q = 0 := by
  unfold blockSlab slab
  exact dif_neg h

end Cert.AlphaGrid.FrameValue

end
-- ==== Proof.KernelValue.lean ====
/-
  The value of the kernel program's result at a point.

  The program sorts the points by block, lays each block's points out in a padded run of 256-point windows, and
  scatters the six per-point quantities (base cell z y x, weights wz wy wx) to the points' slots. Each window is
  sampled against the one volume block named by the window's entry of the tile table; the result array is then
  gathered back at the points' slots.

  Read at point `i` with slot `σ`: the gather reads the output array at `σ`; the output there is the contracted
  sample over the staged block of window `σ / 256` at the six staged quantities at `σ`; each staged quantity at `σ`
  is the sorted-point array read back at `i` (slots are distinct and in range); the staged block is block number
  `table[σ / 256]`, which is the point's block, so its entries are the volume's entries of that block.
-/
import proofs.«104803_j90202903151142_1_alg».proof.Proof.Gen.KernelIdeal.Frame
import proofs.«104803_j90202903151142_1_alg».proof.Proof.Spec
import proofs.«104803_j90202903151142_1_alg».proof.Proof.SpecLemmas
import proofs.«104803_j90202903151142_1_alg».proof.Proof.Vol
import proofs.«104803_j90202903151142_1_alg».proof.Proof.Glue
import proofs.«104803_j90202903151142_1_alg».proof.Proof.GlueFacts
import proofs.«104803_j90202903151142_1_alg».proof.Proof.IntChain
import proofs.«104803_j90202903151142_1_alg».proof.Proof.IntBridge
import proofs.«104803_j90202903151142_1_alg».proof.Proof.IntBridgeTile
import proofs.«104803_j90202903151142_1_alg».proof.Proof.KernelReads
import proofs.«104803_j90202903151142_1_alg».proof.Proof.BodyValue
import proofs.«104803_j90202903151142_1_alg».proof.Proof.FrameValue
import proofs.«104803_j90202903151142_1_alg».proof.Proof.WrapIdx
import proofs.«104803_j90202903151142_1_alg».proof.Proof.ZeroF
import Idealize.ShloMosaic.Lib.ValueIdx

noncomputable section

namespace Cert.AlphaGrid.KernelValue

open Idealize.ShloMosaic Idealize.ShloMosaic.ValueIdx Idealize.ShloMosaic.TcCoe
open Cert.KernelIdeal Cert.KernelIdeal.Gen
open Cert.AlphaGrid

local notation "𝕀" => Idealize.ShloMosaic.Ideal

/-- A slab entry inside the block is the staged block's entry. -/
theorem slab_apply {φ : FTy} (x : FVec 𝕀 (⟨3, ![1, 64, 4096]⟩ : Shape) φ) (d : Fin 64) (q : Fin 4096) :
    slab x d.val q.val = x (ix3 (0 : Fin 1) d q) := by
  unfold slab
  rw [dif_pos ⟨d.isLt, q.isLt⟩]

/-- The contracted sample depends on the slab inside the block, the base cell and the weights only. -/
theorem kval_congr_all {vol vol' : Nat → Nat → EReal} (h : ∀ d q, d < 64 → q < 4096 → vol d q = vol' d q)
    {z z' y y' x x' : BitVec 32} {wz wz' wy wy' wx wx' : EReal}
    (hz : z = z') (hy : y = y') (hx : x = x') (hwz : wz = wz') (hwy : wy = wy') (hwx : wx = wx') :
    kval vol z y x wz wy wx = kval vol' z' y' x' wz' wy' wx' := by
  subst hz hy hx hwz hwy hwx
  exact kval_congr h _ _ _ _ _ _

/-- The staged block of a slot's window, entry by entry: if every window's staged block is the volume block named by the
    window's table word, and the table word of the window of slot `x` is `b`, then the staged block of that window
    is volume block `b`. (Stated over opaque read functions: `tblw` a table word's value, `blkAt` a staged block's
    entry, `volB` a volume block's entry.) -/
theorem block_of_slot {N : Nat} (hN : N = 16448) (tblw : Fin 16448 → Nat) (blkAt : Fin N → Fin 64 → Fin 4096 → EReal)
    (volB : Fin 64 → Fin 64 → Fin 4096 → EReal)
    (hiblk : ∀ (t : Fin N) (k : Fin 64), tblw ⟨t.val, by have := t.isLt; omega⟩ = k.val →
      ∀ (d : Fin 64) (q : Fin 4096), blkAt t d q = volB k d q)
    (x b : Nat) (hx : x < 4210688) (hb : b < 64) (htbl : tblw ⟨x / 256, by omega⟩ = b)
    (haN : (⟨x, hx⟩ : Fin 4210688).val / 256 < N) (d : Fin 64) (q : Fin 4096) :
    blkAt ⟨(⟨x, hx⟩ : Fin 4210688).val / 256, haN⟩ d q = volB ⟨b, hb⟩ d q :=
  hiblk _ ⟨b, hb⟩ htbl d q

variable (m : (ℓ : Loc nD τ sig) → Buf (Elt 𝕀) ℓ) (c : Dev nD)

/-- The five argument arrays as launched. -/
abbrev A0 : FVec 𝕀 S4194304x3 .f32 := m ((c : Thread nD τ).loc main_arg0)
abbrev A1 : FVec 𝕀 S2x3 .f32 := m ((c : Thread nD τ).loc main_arg1)
abbrev A2 : FVec 𝕀 S256x256x256 .f32 := m ((c : Thread nD τ).loc main_arg2)
abbrev A3 : FVec 𝕀 S64x3 .f32 := m ((c : Thread nD τ).loc main_arg3)
abbrev A4 : FVec 𝕀 S64x3 .f32 := m ((c : Thread nD τ).loc main_arg4)

/-- The sorted block ids, and the slot of every sorted point. -/
abbrev BS : IVec S4194304 32 := Glue.g_v30 (A0 m c) (A1 m c) (A3 m c) (A4 m c)
abbrev SL : IVec S4194304 32 := IntChain.i_v127 (BS m c)

variable (hO : Ok m)

/-- A slot's window is one of the grid's points. -/
theorem tile_lt_N (σ : Fin 4210688) : σ.val / 256 < (cfgM m hO).N := by
  have h : (cfgM m hO).N = 16448 := N_0
  have := σ.isLt
  rw [h]
  omega

/-- A grid point is a position of the tile table. -/
theorem lt_16448 (t : Fin (cfgM m hO).N) : t.val < 16448 := by
  have h : (cfgM m hO).N = 16448 := N_0
  have := t.isLt
  omega

set_option maxRecDepth 16384 in
/-- The assembly, from the facts about the slots, the scatters, the gather and the volume block. -/
theorem v206_value_of
    (hV30 : (V m c main_v30 : IVec S4194304 32) = BS m c)
    (hV86 : (V m c main_v86 : FVec 𝕀 S4194304 .f32) = Glue.g_v86 (A0 m c) (A1 m c) (A3 m c) (A4 m c))
    (hV87 : (V m c main_v87 : FVec 𝕀 S4194304 .f32) = Glue.g_v87 (A0 m c) (A1 m c) (A3 m c) (A4 m c))
    (hV88 : (V m c main_v88 : FVec 𝕀 S4194304 .f32) = Glue.g_v88 (A0 m c) (A1 m c) (A3 m c) (A4 m c))
    (hV89 : (V m c main_v89 : IVec S4194304 32) = Glue.g_v89 (A0 m c) (A1 m c) (A3 m c) (A4 m c))
    (hV90 : (V m c main_v90 : IVec S4194304 32) = Glue.g_v90 (A0 m c) (A1 m c) (A3 m c) (A4 m c))
    (hV91 : (V m c main_v91 : IVec S4194304 32) = Glue.g_v91 (A0 m c) (A1 m c) (A3 m c) (A4 m c))
    (hV127 : (V m c main_v127 : IVec S4194304 32) = IntChain.i_v127 (V m c main_v30))
    (hV196 : (V m c main_v196 : IVec S16448 32) = IntChain.i_v196 (V m c main_v30))
    (hV135 : (V m c main_v135 : IVec S4210688 32)
      = Host.scatter scatter_S4210688_S4194304x1_S4194304_n_0_0_1 (fun _ b => b) (WrapIdx.w_v128 (V m c main_v127 : IVec S4194304 32)) (WrapIdx.w_v134 (V m c main_v127 : IVec S4194304 32)) (V m c main_v91 : IVec S4194304 32))
    (hV143 : (V m c main_v143 : IVec S4210688 32)
      = Host.scatter scatter_S4210688_S4194304x1_S4194304_n_0_0_1 (fun _ b => b) (WrapIdx.w_v136 (V m c main_v127 : IVec S4194304 32)) (WrapIdx.w_v142 (V m c main_v127 : IVec S4194304 32)) (V m c main_v90 : IVec S4194304 32))
    (hV151 : (V m c main_v151 : IVec S4210688 32)
      = Host.scatter scatter_S4210688_S4194304x1_S4194304_n_0_0_1 (fun _ b => b) (WrapIdx.w_v144 (V m c main_v127 : IVec S4194304 32)) (WrapIdx.w_v150 (V m c main_v127 : IVec S4194304 32)) (V m c main_v89 : IVec S4194304 32))
    (hV159 : (V m c main_v159 : FVec 𝕀 S4210688 .f32)
      = Host.scatter scatter_S4210688_S4194304x1_S4194304_n_0_0_1 (fun _ b => b) (ZeroF.z_v152 (F := 𝕀)) (WrapIdx.w_v158 (V m c main_v127 : IVec S4194304 32)) (V m c main_v88 : FVec 𝕀 S4194304 .f32))
    (hV167 : (V m c main_v167 : FVec 𝕀 S4210688 .f32)
      = Host.scatter scatter_S4210688_S4194304x1_S4194304_n_0_0_1 (fun _ b => b) (ZeroF.z_v160 (F := 𝕀)) (WrapIdx.w_v166 (V m c main_v127 : IVec S4194304 32)) (V m c main_v87 : FVec 𝕀 S4194304 .f32))
    (hV175 : (V m c main_v175 : FVec 𝕀 S4210688 .f32)
      = Host.scatter scatter_S4210688_S4194304x1_S4194304_n_0_0_1 (fun _ b => b) (ZeroF.z_v168 (F := 𝕀)) (WrapIdx.w_v174 (V m c main_v127 : IVec S4194304 32)) (V m c main_v86 : FVec 𝕀 S4194304 .f32))
    (hV198 : (V m c main_v198 : FVec 𝕀 S64x64x4096 .bf16)
      = truncf .bf16 (shapeCast S64x64x4096 (A2 m c) shapeCasts_S256x256x256_S64x64x4096) bitsLt_bf16_f32)
    (hslt : ∀ i : Fin 4194304, (SL m c (ix1 i)).toNat < 4210688)
    (htbl : ∀ i : Fin 4194304,
      (IntChain.i_v196 (BS m c) (ix1 (⟨(SL m c (ix1 i)).toNat / 256, by have := hslt i; omega⟩ : Fin 16448))).toNat
        = (BS m c (ix1 i)).toNat)
    (hbs : ∀ i : Fin 4194304, (BS m c (ix1 i)).toNat < 64)
    (hsc135 : ∀ (u : IVec S4194304 32) (i : Fin 4194304),
      Host.scatter scatter_S4210688_S4194304x1_S4194304_n_0_0_1 (fun _ b => b) (WrapIdx.w_v128 (SL m c)) (WrapIdx.w_v134 (SL m c)) u (ix1 (⟨(SL m c (ix1 i)).toNat, hslt i⟩ : Fin 4210688)) = u (ix1 i))
    (hsc143 : ∀ (u : IVec S4194304 32) (i : Fin 4194304),
      Host.scatter scatter_S4210688_S4194304x1_S4194304_n_0_0_1 (fun _ b => b) (WrapIdx.w_v136 (SL m c)) (WrapIdx.w_v142 (SL m c)) u (ix1 (⟨(SL m c (ix1 i)).toNat, hslt i⟩ : Fin 4210688)) = u (ix1 i))
    (hsc151 : ∀ (u : IVec S4194304 32) (i : Fin 4194304),
      Host.scatter scatter_S4210688_S4194304x1_S4194304_n_0_0_1 (fun _ b => b) (WrapIdx.w_v144 (SL m c)) (WrapIdx.w_v150 (SL m c)) u (ix1 (⟨(SL m c (ix1 i)).toNat, hslt i⟩ : Fin 4210688)) = u (ix1 i))
    (hsc159 : ∀ (u : FVec 𝕀 S4194304 .f32) (i : Fin 4194304),
      Host.scatter scatter_S4210688_S4194304x1_S4194304_n_0_0_1 (fun _ b => b) (ZeroF.z_v152 (F := 𝕀)) (WrapIdx.w_v158 (SL m c)) u (ix1 (⟨(SL m c (ix1 i)).toNat, hslt i⟩ : Fin 4210688)) = u (ix1 i))
    (hsc167 : ∀ (u : FVec 𝕀 S4194304 .f32) (i : Fin 4194304),
      Host.scatter scatter_S4210688_S4194304x1_S4194304_n_0_0_1 (fun _ b => b) (ZeroF.z_v160 (F := 𝕀)) (WrapIdx.w_v166 (SL m c)) u (ix1 (⟨(SL m c (ix1 i)).toNat, hslt i⟩ : Fin 4210688)) = u (ix1 i))
    (hsc175 : ∀ (u : FVec 𝕀 S4194304 .f32) (i : Fin 4194304),
      Host.scatter scatter_S4210688_S4194304x1_S4194304_n_0_0_1 (fun _ b => b) (ZeroF.z_v168 (F := 𝕀)) (WrapIdx.w_v174 (SL m c)) u (ix1 (⟨(SL m c (ix1 i)).toNat, hslt i⟩ : Fin 4210688)) = u (ix1 i))
    (hgat : ∀ (X : FVec 𝕀 S4210688 .f32) (i : Fin 4194304),
      Host.gather gather_S4210688_S4194304x1_S4194304_n_0_n_n_0_1_1 X (WrapIdx.w_v205 (SL m c)) (ix1 i) = X (ix1 (⟨(SL m c (ix1 i)).toNat, hslt i⟩ : Fin 4210688)))
    (hvol : ∀ (w : BitVec 32) (b : Fin 64) (d : Fin 64) (q : Fin 4096), w.toNat = b.val →
      (truncf .bf16 (shapeCast S64x64x4096 (A2 m c) shapeCasts_S256x256x256_S64x64x4096) bitsLt_bf16_f32 :
          FVec 𝕀 S64x64x4096 .bf16) (ix3 b d q)
        = volAt (A2 m c) w d.val q.val)
    (hout : ∀ σ : Fin 4210688,
      ((dats m hO 0 c).arrAt 7 (cfgM m hO).N : FVec 𝕀 S4210688 .f32) (ix1 σ)
        = kval (slab (φ := .bf16) (iblk m hO c 0 ⟨σ.val / 256, tile_lt_N m hO σ⟩))
            ((V m c main_v135 : IVec S4210688 32) (ix1 σ)) ((V m c main_v143 : IVec S4210688 32) (ix1 σ))
            ((V m c main_v151 : IVec S4210688 32) (ix1 σ)) ((V m c main_v159 : FVec 𝕀 S4210688 .f32) (ix1 σ))
            ((V m c main_v167 : FVec 𝕀 S4210688 .f32) (ix1 σ)) ((V m c main_v175 : FVec 𝕀 S4210688 .f32) (ix1 σ)))
    (hiblk0 : ∀ (t : Fin (cfgM m hO).N) (k : Fin 64),
      ((tbl m 0 : IVec S16448 32) (ix1 (⟨t.val, lt_16448 m hO t⟩ : Fin 16448))).toNat = k.val →
      ∀ (d : Fin 64) (q : Fin 4096),
        (iblk m hO c 0 t : FVec 𝕀 S1x64x4096 .bf16) (ix3 (0 : Fin 1) d q)
          = (V m c main_v198 : FVec 𝕀 S64x64x4096 .bf16) (ix3 k d q))
    (i : Fin 4194304) :
    Host.gather gather_S4210688_S4194304x1_S4194304_n_0_n_n_0_1_1
        ((dats m hO 0 c).arrAt 7 (cfgM m hO).N : FVec 𝕀 S4210688 .f32) (WrapIdx.w_v205 (V m c main_v127 : IVec S4194304 32)) (ix1 i)
      = kval (volAt (A2 m c) (BS m c (ix1 i)))
          (Glue.g_v91 (A0 m c) (A1 m c) (A3 m c) (A4 m c) (ix1 i)) (Glue.g_v90 (A0 m c) (A1 m c) (A3 m c) (A4 m c) (ix1 i)) (Glue.g_v89 (A0 m c) (A1 m c) (A3 m c) (A4 m c) (ix1 i))
          (Glue.g_v88 (A0 m c) (A1 m c) (A3 m c) (A4 m c) (ix1 i)) (Glue.g_v87 (A0 m c) (A1 m c) (A3 m c) (A4 m c) (ix1 i)) (Glue.g_v86 (A0 m c) (A1 m c) (A3 m c) (A4 m c) (ix1 i)) := by
  have hs : (V m c main_v127 : IVec S4194304 32) = SL m c := hV127.trans (congrArg IntChain.i_v127 hV30)
  rw [hs] at hV135 hV143 hV151 hV159 hV167 hV175
  rw [hs]
  have hk : ((tbl m 0 : IVec S16448 32)
      (ix1 (⟨(SL m c (ix1 i)).toNat / 256, by have := hslt i; omega⟩ : Fin 16448))).toNat = (BS m c (ix1 i)).toNat := by
    have h196 : (tbl m 0 : IVec S16448 32) = IntChain.i_v196 (BS m c) := by
      obtain rfl : c = 0 := Subsingleton.elim _ _
      exact hV196.trans (congrArg IntChain.i_v196 hV30)
    exact (congrArg BitVec.toNat (congrFun h196 _)).trans (htbl i)
  refine (hgat _ i).trans ?_
  refine (hout ⟨_, hslt i⟩).trans ?_
  refine kval_congr_all (fun d q hd hq => ?_)
    ((congrFun hV135 _).trans ((hsc135 _ i).trans (congrFun hV91 _)))
    ((congrFun hV143 _).trans ((hsc143 _ i).trans (congrFun hV90 _)))
    ((congrFun hV151 _).trans ((hsc151 _ i).trans (congrFun hV89 _)))
    ((congrFun hV159 _).trans ((hsc159 _ i).trans (congrFun hV88 _)))
    ((congrFun hV167 _).trans ((hsc167 _ i).trans (congrFun hV87 _)))
    ((congrFun hV175 _).trans ((hsc175 _ i).trans (congrFun hV86 _)))
  refine (slab_apply (φ := .bf16) _ ⟨d, hd⟩ ⟨q, hq⟩).trans ?_
  refine (block_of_slot (N := (cfgM m hO).N) N_0
    (fun t => ((tbl m 0 : IVec S16448 32) (ix1 t)).toNat)
    (fun t d q => (iblk m hO c 0 t : FVec 𝕀 S1x64x4096 .bf16) (ix3 (0 : Fin 1) d q))
    (fun k d q => (V m c main_v198 : FVec 𝕀 S64x64x4096 .bf16) (ix3 k d q))
    hiblk0 (SL m c (ix1 i)).toNat (BS m c (ix1 i)).toNat (hslt i) (hbs i) hk (tile_lt_N m hO ⟨_, hslt i⟩)
    ⟨d, hd⟩ ⟨q, hq⟩).trans ?_
  refine (congrFun hV198 _).trans ?_
  exact hvol (BS m c (ix1 i)) ⟨(BS m c (ix1 i)).toNat, hbs i⟩ ⟨d, hd⟩ ⟨q, hq⟩ (Fin.val_mk (hbs i)).symm

/-- The staged-block fact in the form `v206_value` takes, from its form with the table word as the block number:
    a block number equal in value to `k` is `k`. -/
theorem hiblk0_of
    (hlt : ∀ t : Fin (cfgM m hO).N,
      ((tbl m 0 : IVec S16448 32) (ix1 (⟨t.val, lt_16448 m hO t⟩ : Fin 16448))).toNat < 64)
    (h : ∀ (t : Fin (cfgM m hO).N) (d : Fin 64) (q : Fin 4096),
      (iblk m hO c 0 t : FVec 𝕀 S1x64x4096 .bf16) (ix3 (0 : Fin 1) d q)
        = (V m c main_v198 : FVec 𝕀 S64x64x4096 .bf16)
            (ix3 (⟨((tbl m 0 : IVec S16448 32) (ix1 (⟨t.val, lt_16448 m hO t⟩ : Fin 16448))).toNat, hlt t⟩ : Fin 64) d q)) :
    ∀ (t : Fin (cfgM m hO).N) (k : Fin 64),
      ((tbl m 0 : IVec S16448 32) (ix1 (⟨t.val, lt_16448 m hO t⟩ : Fin 16448))).toNat = k.val →
      ∀ (d : Fin 64) (q : Fin 4096),
        (iblk m hO c 0 t : FVec 𝕀 S1x64x4096 .bf16) (ix3 (0 : Fin 1) d q)
          = (V m c main_v198 : FVec 𝕀 S64x64x4096 .bf16) (ix3 k d q) :=
  fun t k hk d q => (h t d q).trans
    (congrArg (fun k' : Fin 64 => (V m c main_v198 : FVec 𝕀 S64x64x4096 .bf16) (ix3 k' d q))
      (Fin.ext ((Fin.val_mk (hlt t)).trans hk)))

/-- THE RESULT AT A POINT: the program's result buffer holds, at sorted point `i`, the contracted sample of the
    point's block at the point's base cell and weights. What remains assumed is that each named intermediate array is
    its defining operation applied to its operands' arrays. -/
theorem v206_value
    (hV30 : (V m c main_v30 : IVec S4194304 32) = BS m c)
    (hV86 : (V m c main_v86 : FVec 𝕀 S4194304 .f32) = Glue.g_v86 (A0 m c) (A1 m c) (A3 m c) (A4 m c))
    (hV87 : (V m c main_v87 : FVec 𝕀 S4194304 .f32) = Glue.g_v87 (A0 m c) (A1 m c) (A3 m c) (A4 m c))
    (hV88 : (V m c main_v88 : FVec 𝕀 S4194304 .f32) = Glue.g_v88 (A0 m c) (A1 m c) (A3 m c) (A4 m c))
    (hV89 : (V m c main_v89 : IVec S4194304 32) = Glue.g_v89 (A0 m c) (A1 m c) (A3 m c) (A4 m c))
    (hV90 : (V m c main_v90 : IVec S4194304 32) = Glue.g_v90 (A0 m c) (A1 m c) (A3 m c) (A4 m c))
    (hV91 : (V m c main_v91 : IVec S4194304 32) = Glue.g_v91 (A0 m c) (A1 m c) (A3 m c) (A4 m c))
    (hV127 : (V m c main_v127 : IVec S4194304 32) = IntChain.i_v127 (V m c main_v30))
    (hV196 : (V m c main_v196 : IVec S16448 32) = IntChain.i_v196 (V m c main_v30))
    (hV135 : (V m c main_v135 : IVec S4210688 32)
      = Host.scatter scatter_S4210688_S4194304x1_S4194304_n_0_0_1 (fun _ b => b) (WrapIdx.w_v128 (V m c main_v127 : IVec S4194304 32)) (WrapIdx.w_v134 (V m c main_v127 : IVec S4194304 32)) (V m c main_v91 : IVec S4194304 32))
    (hV143 : (V m c main_v143 : IVec S4210688 32)
      = Host.scatter scatter_S4210688_S4194304x1_S4194304_n_0_0_1 (fun _ b => b) (WrapIdx.w_v136 (V m c main_v127 : IVec S4194304 32)) (WrapIdx.w_v142 (V m c main_v127 : IVec S4194304 32)) (V m c main_v90 : IVec S4194304 32))
    (hV151 : (V m c main_v151 : IVec S4210688 32)
      = Host.scatter scatter_S4210688_S4194304x1_S4194304_n_0_0_1 (fun _ b => b) (WrapIdx.w_v144 (V m c main_v127 : IVec S4194304 32)) (WrapIdx.w_v150 (V m c main_v127 : IVec S4194304 32)) (V m c main_v89 : IVec S4194304 32))
    (hV159 : (V m c main_v159 : FVec 𝕀 S4210688 .f32)
      = Host.scatter scatter_S4210688_S4194304x1_S4194304_n_0_0_1 (fun _ b => b) (ZeroF.z_v152 (F := 𝕀)) (WrapIdx.w_v158 (V m c main_v127 : IVec S4194304 32)) (V m c main_v88 : FVec 𝕀 S4194304 .f32))
    (hV167 : (V m c main_v167 : FVec 𝕀 S4210688 .f32)
      = Host.scatter scatter_S4210688_S4194304x1_S4194304_n_0_0_1 (fun _ b => b) (ZeroF.z_v160 (F := 𝕀)) (WrapIdx.w_v166 (V m c main_v127 : IVec S4194304 32)) (V m c main_v87 : FVec 𝕀 S4194304 .f32))
    (hV175 : (V m c main_v175 : FVec 𝕀 S4210688 .f32)
      = Host.scatter scatter_S4210688_S4194304x1_S4194304_n_0_0_1 (fun _ b => b) (ZeroF.z_v168 (F := 𝕀)) (WrapIdx.w_v174 (V m c main_v127 : IVec S4194304 32)) (V m c main_v86 : FVec 𝕀 S4194304 .f32))
    (hV198 : (V m c main_v198 : FVec 𝕀 S64x64x4096 .bf16)
      = truncf .bf16 (shapeCast S64x64x4096 (A2 m c) shapeCasts_S256x256x256_S64x64x4096) bitsLt_bf16_f32)
    (i : Fin 4194304) :
    Host.gather gather_S4210688_S4194304x1_S4194304_n_0_n_n_0_1_1
        ((dats m hO 0 c).arrAt 7 (cfgM m hO).N : FVec 𝕀 S4210688 .f32) (WrapIdx.w_v205 (V m c main_v127 : IVec S4194304 32)) (ix1 i)
      = kval (volAt (A2 m c) (BS m c (ix1 i)))
          (Glue.g_v91 (A0 m c) (A1 m c) (A3 m c) (A4 m c) (ix1 i)) (Glue.g_v90 (A0 m c) (A1 m c) (A3 m c) (A4 m c) (ix1 i)) (Glue.g_v89 (A0 m c) (A1 m c) (A3 m c) (A4 m c) (ix1 i))
          (Glue.g_v88 (A0 m c) (A1 m c) (A3 m c) (A4 m c) (ix1 i)) (Glue.g_v87 (A0 m c) (A1 m c) (A3 m c) (A4 m c) (ix1 i)) (Glue.g_v86 (A0 m c) (A1 m c) (A3 m c) (A4 m c) (ix1 i)) := by
  have hb : ∀ i : Fin 4194304, (BS m c (ix1 i)).toNat < 64 := GlueFacts.bs_lt (A0 m c) (A1 m c) (A3 m c) (A4 m c)
  have hm : ∀ i j : Fin 4194304, i ≤ j → (BS m c (ix1 i)).toNat ≤ (BS m c (ix1 j)).toNat :=
    GlueFacts.bs_sorted (A0 m c) (A1 m c) (A3 m c) (A4 m c)
  have hslt : ∀ i : Fin 4194304, (SL m c (ix1 i)).toNat < 4210688 := IntBridge.slot_lt (BS m c) hb hm
  have hinj : Function.Injective fun i : Fin 4194304 => (SL m c (ix1 i)).toNat := IntBridge.slot_inj (BS m c) hb hm
  have htile : ∀ t : Fin 16448, (IntChain.i_v196 (BS m c) (ix1 t)).toNat
      = Slots.tile (fun i : Fin 4194304 => (BS m c (ix1 i)).toNat) t.val :=
    IntBridgeTile.tile_eq (BS m c) (fun i : Fin 4194304 => (BS m c (ix1 i)).toNat)
      (IntBridge.hpo (BS m c) hb) (IntBridge.hpe (BS m c) hb) hb
  exact v206_value_of m c hO hV30 hV86 hV87 hV88 hV89 hV90 hV91 hV127 hV196 hV135 hV143 hV151 hV159 hV167 hV175 hV198
    hslt (fun i => IntBridge.tbl_slot_of (BS m c) hb hm htile i _) hb
    (fun u i => KernelReads.scatter_v135_apply (SL m c) hslt hinj u i)
    (fun u i => KernelReads.scatter_v143_apply (SL m c) hslt hinj u i)
    (fun u i => KernelReads.scatter_v151_apply (SL m c) hslt hinj u i)
    (fun u i => KernelReads.scatter_v159_apply (SL m c) hslt hinj u i)
    (fun u i => KernelReads.scatter_v167_apply (SL m c) hslt hinj u i)
    (fun u i => KernelReads.scatter_v175_apply (SL m c) hslt hinj u i)
    (fun X i => KernelReads.gather_v206_apply X (SL m c) i (hslt i))
    (fun w b d q hw => KernelReads.volBlock_eq_volAt (A2 m c) w b d q hw)
    (fun σ => FrameValue.out_padded m BodyValue.out_value hO c σ)
    (hiblk0_of m c hO (fun t => FrameValue.word_lt (tbl m) hO t) (fun t d q => FrameValue.iblk0_apply m hO c t d q))
    i

end Cert.AlphaGrid.KernelValue

end
-- ==== Proof.KernelChainA2.lean ====
/-
  What the buffers hold when the staged region is entered, for the six arrays of the sorted points that
  the region's windows read besides the volume: the weights wx wy wz and the base cells x0 y0 z0.  Each is
  the printed operations applied, in order, to the argument arrays: the host operations before the region
  form a straight line in which every array is written once, so the line can be cut anywhere, an array
  written before a cut keeps its contents after it, and a piece of the line is read from the contents at
  its start.
-/
import proofs.«104803_j90202903151142_1_alg».proof.Proof.Gen.KernelIdeal.Frame
import proofs.«104803_j90202903151142_1_alg».proof.Proof.Glue

set_option maxRecDepth 16384

noncomputable section

namespace Cert.AlphaGrid.KernelChainA2

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

attribute [local irreducible] Host.sort2 Host.gather Host.scatter Host.reduce Host.reduceWindow

/-! ### Cutting the line of host operations -/

/-- A line run from `W` is its first `k` operations run from `W`, then the rest. -/
theorem after_split (l : List (HloOp τ sig (Elt F))) (k : Nat) (W : Valuation τ sig (Elt F)) :
    StableHlo.after l W = StableHlo.after (l.drop k) (StableHlo.after (l.take k) W) := by
  rw [← StableHlo.after_append, List.take_append_drop]

/-- The contents before the long stretch that sorts the points and splits their coordinates. -/
def W3 (c : Dev nD) : Valuation τ sig (Elt F) :=
  StableHlo.after hostOps0_3 (StableHlo.after hostOps0_2 (StableHlo.after hostOps0_1 (StableHlo.after hostOps0 (fun b => m (c, b)))))

/-- The contents after the first `k` operations of the long stretch. -/
def Y (c : Dev nD) (k : Nat) : Valuation τ sig (Elt F) := StableHlo.after ((hostOps0_4 (F := F)).take k) (W3 m c)

/-- The contents after the long stretch. -/
def W4 (c : Dev nD) : Valuation τ sig (Elt F) := StableHlo.after hostOps0_4 (W3 m c)

/-- The stretches between the long one and the region. -/
abbrev later : List (HloOp τ sig (Elt F)) :=
  List.flatten [hostOps0_5, hostOps0_6, hostOps0_7, hostOps0_8, hostOps0_9, hostOps0_10]

theorem V0_later (c : Dev nD) : V0 m c = StableHlo.after later (W4 m c) := by
  show StableHlo.after (List.flatten [hostOps0, hostOps0_1, hostOps0_2, hostOps0_3, hostOps0_4, hostOps0_5, hostOps0_6,
    hostOps0_7, hostOps0_8, hostOps0_9, hostOps0_10]) _ = _
  unfold later W4 W3
  simp only [List.flatten_cons, List.flatten_nil, List.append_nil, StableHlo.after_append]

theorem W4_drop (c : Dev nD) (k : Nat) : W4 m c = StableHlo.after ((hostOps0_4 (F := F)).drop k) (Y m c k) := by
  unfold W4 Y
  exact after_split _ k _

theorem Y_zero (c : Dev nD) : Y m c 0 = W3 m c := rfl

/-- An array none of the later stretches writes holds, when the region is entered, what the long stretch left. -/
theorem V_keep (c : Dev nD) (b : Ref sig .tc)
    (h : ∀ op ∈ (later : List (HloOp τ sig (Elt F))), Proc.devRef .tc b ∉ op.writes) :
    V m c b = W4 m c (Proc.devRef .tc b) := by
  show V0 m c (Proc.devRef .tc b) = _
  rw [V0_later m c, StableHlo.after_of_forall_not_mem _ _ h]

/-- An array none of the operations from the `k`-th on writes already holds, after the first `k`, what the
    stretch leaves in it. -/
theorem Y_read (c : Dev nD) (k : Nat) (r : Ref sig .tc)
    (h : ∀ op ∈ (hostOps0_4 (F := F)).drop k, Proc.devRef .tc r ∉ op.writes) :
    Y m c k (Proc.devRef .tc r) = W4 m c (Proc.devRef .tc r) := by
  rw [W4_drop m c k, StableHlo.after_of_forall_not_mem _ _ h]

/-- An array written among the `n` operations that follow the first `k`, and by none after them, holds after
    the stretch what those `n` operations leave in it. -/
theorem W4_piece (c : Dev nD) (k n kn : Nat) (hkn : k + n = kn) (y : Ref sig .tc)
    (h : ∀ op ∈ (hostOps0_4 (F := F)).drop kn, Proc.devRef .tc y ∉ op.writes) :
    W4 m c (Proc.devRef .tc y)
      = StableHlo.after (((hostOps0_4 (F := F)).drop k).take n) (Y m c k) (Proc.devRef .tc y) := by
  subst hkn
  rw [W4_drop m c k, after_split _ n, List.drop_drop, StableHlo.after_of_forall_not_mem _ _ h]

/-- None of the listed operations writes the array: each writes its own result, another array. -/
macro "not_written" : tactic =>
  `(tactic| (refine List.forall_iff_forall_mem.mp ?_
             simp only [later, hostOps0, hostOps0_1, hostOps0_2, hostOps0_3, hostOps0_4, hostOps0_5, hostOps0_6, hostOps0_7, hostOps0_8, hostOps0_9, hostOps0_10, List.take_succ_cons, List.take_zero, List.drop_succ_cons, List.drop_zero, List.flatten_cons, List.flatten_nil, List.append_nil, List.cons_append, List.nil_append,
               List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-- Unfolds a piece of the long stretch to its operations. -/
macro "open_piece" : tactic =>
  `(tactic| simp only [hostOps0, hostOps0_1, hostOps0_2, hostOps0_3, hostOps0_4, List.take_succ_cons, List.take_zero, List.drop_succ_cons, List.drop_zero])

/-- The argument arrays as the launch holds them. -/
abbrev a0 (c : Dev nD) : FVec F S4194304x3 .f32 := m ((c.tc : Thread nD τ).loc main_arg0)
abbrev a1 (c : Dev nD) : FVec F S2x3 .f32 := m ((c.tc : Thread nD τ).loc main_arg1)
abbrev a3 (c : Dev nD) : FVec F S64x3 .f32 := m ((c.tc : Thread nD τ).loc main_arg3)
abbrev a4 (c : Dev nD) : FVec F S64x3 .f32 := m ((c.tc : Thread nD τ).loc main_arg4)

/-! ### Before the long stretch -/

/-- The contents before the sort of the block ids. -/
def W2 (c : Dev nD) : Valuation τ sig (Elt F) :=
  StableHlo.after hostOps0_2 (StableHlo.after hostOps0_1 (StableHlo.after hostOps0 (fun b => m (c, b))))

theorem W3_eq (c : Dev nD) : W3 m c = StableHlo.after hostOps0_3 (W2 m c) := rfl

theorem W2_v22 (c : Dev nD) : W2 m c (Proc.devRef .tc main_v22) = Glue.g_v22 (a0 m c) (a1 m c) (a3 m c) (a4 m c) := by
  unfold W2
  simp only [hostOps0, hostOps0_1, hostOps0_2]
  after_results_simp
  try rfl

/-- The sort, from any contents: the permutation that sorts the block ids held at its start. -/
theorem sort_v23 (X : Valuation τ sig (Elt F)) :
    StableHlo.after hostOps0_3 X (Proc.devRef .tc main_v23)
      = (Host.sort2 S4194304 0 comparator_i32_i32_d0 (X (Proc.devRef .tc main_v22)) (iotaInDim S4194304 32 0)).2 := by
  simp only [hostOps0_3]
  after_results_simp
  simp only [StableHlo.TRef.ofBuf, StableHlo.TRef.toBuf, cast_eq]

theorem W3_v23 (c : Dev nD) : W3 m c (Proc.devRef .tc main_v23) = Glue.g_v23 (a0 m c) (a1 m c) (a3 m c) (a4 m c) := by
  rw [W3_eq, sort_v23, W2_v22]
  simp only [Glue.g_v23, Glue.g_call1_v0]

theorem W3_v22 (c : Dev nD) : W3 m c (Proc.devRef .tc main_v22) = Glue.g_v22 (a0 m c) (a1 m c) (a3 m c) (a4 m c) := by
  rw [W3_eq, StableHlo.after_of_forall_not_mem _ _ (by not_written)]
  exact W2_v22 m c

theorem W3_arg0 (c : Dev nD) : W3 m c (Proc.devRef .tc main_arg0) = a0 m c := by
  unfold W3
  rw [StableHlo.after_of_forall_not_mem _ _ (by not_written), StableHlo.after_of_forall_not_mem _ _ (by not_written),
    StableHlo.after_of_forall_not_mem _ _ (by not_written), StableHlo.after_of_forall_not_mem _ _ (by not_written)]
theorem W3_arg3 (c : Dev nD) : W3 m c (Proc.devRef .tc main_arg3) = a3 m c := by
  unfold W3
  rw [StableHlo.after_of_forall_not_mem _ _ (by not_written), StableHlo.after_of_forall_not_mem _ _ (by not_written),
    StableHlo.after_of_forall_not_mem _ _ (by not_written), StableHlo.after_of_forall_not_mem _ _ (by not_written)]
theorem W3_arg4 (c : Dev nD) : W3 m c (Proc.devRef .tc main_arg4) = a4 m c := by
  unfold W3
  rw [StableHlo.after_of_forall_not_mem _ _ (by not_written), StableHlo.after_of_forall_not_mem _ _ (by not_written),
    StableHlo.after_of_forall_not_mem _ _ (by not_written), StableHlo.after_of_forall_not_mem _ _ (by not_written)]

/-- The long stretch writes none of them. -/
theorem W4_arg0 (c : Dev nD) : W4 m c (Proc.devRef .tc main_arg0) = a0 m c :=
  (StableHlo.after_of_forall_not_mem _ _ (by not_written)).trans (W3_arg0 m c)
theorem W4_arg3 (c : Dev nD) : W4 m c (Proc.devRef .tc main_arg3) = a3 m c :=
  (StableHlo.after_of_forall_not_mem _ _ (by not_written)).trans (W3_arg3 m c)
theorem W4_arg4 (c : Dev nD) : W4 m c (Proc.devRef .tc main_arg4) = a4 m c :=
  (StableHlo.after_of_forall_not_mem _ _ (by not_written)).trans (W3_arg4 m c)
theorem W4_v22 (c : Dev nD) : W4 m c (Proc.devRef .tc main_v22) = Glue.g_v22 (a0 m c) (a1 m c) (a3 m c) (a4 m c) :=
  (StableHlo.after_of_forall_not_mem _ _ (by not_written)).trans (W3_v22 m c)
theorem W4_v23 (c : Dev nD) : W4 m c (Proc.devRef .tc main_v23) = Glue.g_v23 (a0 m c) (a1 m c) (a3 m c) (a4 m c) :=
  (StableHlo.after_of_forall_not_mem _ _ (by not_written)).trans (W3_v23 m c)

/-! ### The long stretch, piece by piece

  Operations 0–17 gather the block ids and the points in sorted order; 18–35 gather each point's block
  corners; 36–55 normalise the coordinates and scale the first; 56–77 scale the other two; 78–86 take the
  floors, the fractional parts (the weights) and the integer floors (the base cells). -/

set_option maxHeartbeats 4000000 in
theorem W4_v30 (c : Dev nD) : W4 m c (Proc.devRef .tc main_v30) = Glue.g_v30 (a0 m c) (a1 m c) (a3 m c) (a4 m c) := by
  rw [W4_piece m c 0 18 18 rfl main_v30 (by not_written)]
  have h_v23 : Y m c 0 (Proc.devRef .tc main_v23) = Glue.g_v23 (a0 m c) (a1 m c) (a3 m c) (a4 m c) :=
    (Y_read m c 0 main_v23 (by not_written)).trans (W4_v23 m c)
  have h_v22 : Y m c 0 (Proc.devRef .tc main_v22) = Glue.g_v22 (a0 m c) (a1 m c) (a3 m c) (a4 m c) :=
    (Y_read m c 0 main_v22 (by not_written)).trans (W4_v22 m c)
  generalize Y m c 0 = W at h_v23 h_v22 ⊢
  open_piece
  after_results
  rw [h_v23, h_v22]
  unfold Glue.g_v30 Glue.g_v29 Glue.g_v28 Glue.g_v27 Glue.g_v26 Glue.g_c_5 Glue.g_v25 Glue.g_v24 Glue.g_c_4
  rfl

set_option maxHeartbeats 4000000 in
theorem W4_v37 (c : Dev nD) : W4 m c (Proc.devRef .tc main_v37) = Glue.g_v37 (a0 m c) (a1 m c) (a3 m c) (a4 m c) := by
  rw [W4_piece m c 0 18 18 rfl main_v37 (by not_written)]
  have h_v23 : Y m c 0 (Proc.devRef .tc main_v23) = Glue.g_v23 (a0 m c) (a1 m c) (a3 m c) (a4 m c) :=
    (Y_read m c 0 main_v23 (by not_written)).trans (W4_v23 m c)
  have h_arg0 : Y m c 0 (Proc.devRef .tc main_arg0) = a0 m c :=
    (Y_read m c 0 main_arg0 (by not_written)).trans (W4_arg0 m c)
  generalize Y m c 0 = W at h_v23 h_arg0 ⊢
  open_piece
  after_results
  rw [h_v23, h_arg0]
  unfold Glue.g_v37 Glue.g_v36 Glue.g_v35 Glue.g_v34 Glue.g_v33 Glue.g_c_7 Glue.g_v32 Glue.g_v31 Glue.g_c_6
  rfl

set_option maxHeartbeats 4000000 in
theorem W4_v44 (c : Dev nD) : W4 m c (Proc.devRef .tc main_v44) = Glue.g_v44 (a0 m c) (a1 m c) (a3 m c) (a4 m c) := by
  rw [W4_piece m c 18 18 36 rfl main_v44 (by not_written)]
  have h_v30 : Y m c 18 (Proc.devRef .tc main_v30) = Glue.g_v30 (a0 m c) (a1 m c) (a3 m c) (a4 m c) :=
    (Y_read m c 18 main_v30 (by not_written)).trans (W4_v30 m c)
  have h_arg3 : Y m c 18 (Proc.devRef .tc main_arg3) = a3 m c :=
    (Y_read m c 18 main_arg3 (by not_written)).trans (W4_arg3 m c)
  generalize Y m c 18 = W at h_v30 h_arg3 ⊢
  open_piece
  after_results
  rw [h_v30, h_arg3]
  unfold Glue.g_v44 Glue.g_v43 Glue.g_v42 Glue.g_v41 Glue.g_v40 Glue.g_c_9 Glue.g_v39 Glue.g_v38 Glue.g_c_8
  rfl

set_option maxHeartbeats 4000000 in
theorem W4_v51 (c : Dev nD) : W4 m c (Proc.devRef .tc main_v51) = Glue.g_v51 (a0 m c) (a1 m c) (a3 m c) (a4 m c) := by
  rw [W4_piece m c 18 18 36 rfl main_v51 (by not_written)]
  have h_v30 : Y m c 18 (Proc.devRef .tc main_v30) = Glue.g_v30 (a0 m c) (a1 m c) (a3 m c) (a4 m c) :=
    (Y_read m c 18 main_v30 (by not_written)).trans (W4_v30 m c)
  have h_arg4 : Y m c 18 (Proc.devRef .tc main_arg4) = a4 m c :=
    (Y_read m c 18 main_arg4 (by not_written)).trans (W4_arg4 m c)
  generalize Y m c 18 = W at h_v30 h_arg4 ⊢
  open_piece
  after_results
  rw [h_v30, h_arg4]
  unfold Glue.g_v51 Glue.g_v50 Glue.g_v49 Glue.g_v48 Glue.g_v47 Glue.g_c_11 Glue.g_v46 Glue.g_v45 Glue.g_c_10
  rfl

set_option maxHeartbeats 4000000 in
theorem W4_v58 (c : Dev nD) : W4 m c (Proc.devRef .tc main_v58) = Glue.g_v58 (a0 m c) (a1 m c) (a3 m c) (a4 m c) := by
  rw [W4_piece m c 36 20 56 rfl main_v58 (by not_written)]
  have h_v44 : Y m c 36 (Proc.devRef .tc main_v44) = Glue.g_v44 (a0 m c) (a1 m c) (a3 m c) (a4 m c) :=
    (Y_read m c 36 main_v44 (by not_written)).trans (W4_v44 m c)
  have h_v51 : Y m c 36 (Proc.devRef .tc main_v51) = Glue.g_v51 (a0 m c) (a1 m c) (a3 m c) (a4 m c) :=
    (Y_read m c 36 main_v51 (by not_written)).trans (W4_v51 m c)
  have h_v37 : Y m c 36 (Proc.devRef .tc main_v37) = Glue.g_v37 (a0 m c) (a1 m c) (a3 m c) (a4 m c) :=
    (Y_read m c 36 main_v37 (by not_written)).trans (W4_v37 m c)
  generalize Y m c 36 = W at h_v44 h_v51 h_v37 ⊢
  open_piece
  after_results
  rw [h_v44, h_v51, h_v37]
  unfold Glue.g_v58 Glue.g_v57 Glue.g_cst_13 Glue.g_v56 Glue.g_v55 Glue.g_v54 Glue.g_v53 Glue.g_cst_12 Glue.g_v52
  rfl

set_option maxHeartbeats 4000000 in
theorem W4_v66 (c : Dev nD) : W4 m c (Proc.devRef .tc main_v66) = Glue.g_v66 (a0 m c) (a1 m c) (a3 m c) (a4 m c) := by
  rw [W4_piece m c 36 20 56 rfl main_v66 (by not_written)]
  have h_v44 : Y m c 36 (Proc.devRef .tc main_v44) = Glue.g_v44 (a0 m c) (a1 m c) (a3 m c) (a4 m c) :=
    (Y_read m c 36 main_v44 (by not_written)).trans (W4_v44 m c)
  have h_v51 : Y m c 36 (Proc.devRef .tc main_v51) = Glue.g_v51 (a0 m c) (a1 m c) (a3 m c) (a4 m c) :=
    (Y_read m c 36 main_v51 (by not_written)).trans (W4_v51 m c)
  have h_v37 : Y m c 36 (Proc.devRef .tc main_v37) = Glue.g_v37 (a0 m c) (a1 m c) (a3 m c) (a4 m c) :=
    (Y_read m c 36 main_v37 (by not_written)).trans (W4_v37 m c)
  generalize Y m c 36 = W at h_v44 h_v51 h_v37 ⊢
  open_piece
  after_results
  rw [h_v44, h_v51, h_v37]
  unfold Glue.g_v66 Glue.g_v65 Glue.g_cst_16 Glue.g_v64 Glue.g_v63 Glue.g_cst_15 Glue.g_v62 Glue.g_v61 Glue.g_cst_14 Glue.g_v60 Glue.g_v59 Glue.g_v58 Glue.g_v57 Glue.g_cst_13 Glue.g_v56 Glue.g_v55 Glue.g_v54 Glue.g_v53 Glue.g_cst_12 Glue.g_v52
  rfl

set_option maxHeartbeats 4000000 in
theorem W4_v74 (c : Dev nD) : W4 m c (Proc.devRef .tc main_v74) = Glue.g_v74 (a0 m c) (a1 m c) (a3 m c) (a4 m c) := by
  rw [W4_piece m c 56 22 78 rfl main_v74 (by not_written)]
  have h_v58 : Y m c 56 (Proc.devRef .tc main_v58) = Glue.g_v58 (a0 m c) (a1 m c) (a3 m c) (a4 m c) :=
    (Y_read m c 56 main_v58 (by not_written)).trans (W4_v58 m c)
  generalize Y m c 56 = W at h_v58 ⊢
  open_piece
  after_results
  rw [h_v58]
  unfold Glue.g_v74 Glue.g_v73 Glue.g_cst_19 Glue.g_v72 Glue.g_v71 Glue.g_cst_18 Glue.g_v70 Glue.g_v69 Glue.g_cst_17 Glue.g_v68 Glue.g_v67
  rfl

set_option maxHeartbeats 4000000 in
theorem W4_v82 (c : Dev nD) : W4 m c (Proc.devRef .tc main_v82) = Glue.g_v82 (a0 m c) (a1 m c) (a3 m c) (a4 m c) := by
  rw [W4_piece m c 56 22 78 rfl main_v82 (by not_written)]
  have h_v58 : Y m c 56 (Proc.devRef .tc main_v58) = Glue.g_v58 (a0 m c) (a1 m c) (a3 m c) (a4 m c) :=
    (Y_read m c 56 main_v58 (by not_written)).trans (W4_v58 m c)
  generalize Y m c 56 = W at h_v58 ⊢
  open_piece
  after_results
  rw [h_v58]
  unfold Glue.g_v82 Glue.g_v81 Glue.g_cst_22 Glue.g_v80 Glue.g_v79 Glue.g_cst_21 Glue.g_v78 Glue.g_v77 Glue.g_cst_20 Glue.g_v76 Glue.g_v75
  rfl

set_option maxHeartbeats 4000000 in
theorem W4_v86 (c : Dev nD) : W4 m c (Proc.devRef .tc main_v86) = Glue.g_v86 (a0 m c) (a1 m c) (a3 m c) (a4 m c) := by
  rw [W4_piece m c 78 9 87 rfl main_v86 (by not_written)]
  have h_v66 : Y m c 78 (Proc.devRef .tc main_v66) = Glue.g_v66 (a0 m c) (a1 m c) (a3 m c) (a4 m c) :=
    (Y_read m c 78 main_v66 (by not_written)).trans (W4_v66 m c)
  generalize Y m c 78 = W at h_v66 ⊢
  open_piece
  after_results
  rw [h_v66]
  unfold Glue.g_v86 Glue.g_v83
  rfl

set_option maxHeartbeats 4000000 in
theorem W4_v87 (c : Dev nD) : W4 m c (Proc.devRef .tc main_v87) = Glue.g_v87 (a0 m c) (a1 m c) (a3 m c) (a4 m c) := by
  rw [W4_piece m c 78 9 87 rfl main_v87 (by not_written)]
  have h_v74 : Y m c 78 (Proc.devRef .tc main_v74) = Glue.g_v74 (a0 m c) (a1 m c) (a3 m c) (a4 m c) :=
    (Y_read m c 78 main_v74 (by not_written)).trans (W4_v74 m c)
  generalize Y m c 78 = W at h_v74 ⊢
  open_piece
  after_results
  rw [h_v74]
  unfold Glue.g_v87 Glue.g_v84
  rfl

set_option maxHeartbeats 4000000 in
theorem W4_v88 (c : Dev nD) : W4 m c (Proc.devRef .tc main_v88) = Glue.g_v88 (a0 m c) (a1 m c) (a3 m c) (a4 m c) := by
  rw [W4_piece m c 78 9 87 rfl main_v88 (by not_written)]
  have h_v82 : Y m c 78 (Proc.devRef .tc main_v82) = Glue.g_v82 (a0 m c) (a1 m c) (a3 m c) (a4 m c) :=
    (Y_read m c 78 main_v82 (by not_written)).trans (W4_v82 m c)
  generalize Y m c 78 = W at h_v82 ⊢
  open_piece
  after_results
  rw [h_v82]
  unfold Glue.g_v88 Glue.g_v85
  rfl

set_option maxHeartbeats 4000000 in
theorem W4_v89 (c : Dev nD) : W4 m c (Proc.devRef .tc main_v89) = Glue.g_v89 (a0 m c) (a1 m c) (a3 m c) (a4 m c) := by
  rw [W4_piece m c 78 9 87 rfl main_v89 (by not_written)]
  have h_v66 : Y m c 78 (Proc.devRef .tc main_v66) = Glue.g_v66 (a0 m c) (a1 m c) (a3 m c) (a4 m c) :=
    (Y_read m c 78 main_v66 (by not_written)).trans (W4_v66 m c)
  generalize Y m c 78 = W at h_v66 ⊢
  open_piece
  after_results
  rw [h_v66]
  unfold Glue.g_v89 Glue.g_v83
  rfl

set_option maxHeartbeats 4000000 in
theorem W4_v90 (c : Dev nD) : W4 m c (Proc.devRef .tc main_v90) = Glue.g_v90 (a0 m c) (a1 m c) (a3 m c) (a4 m c) := by
  rw [W4_piece m c 78 9 87 rfl main_v90 (by not_written)]
  have h_v74 : Y m c 78 (Proc.devRef .tc main_v74) = Glue.g_v74 (a0 m c) (a1 m c) (a3 m c) (a4 m c) :=
    (Y_read m c 78 main_v74 (by not_written)).trans (W4_v74 m c)
  generalize Y m c 78 = W at h_v74 ⊢
  open_piece
  after_results
  rw [h_v74]
  unfold Glue.g_v90 Glue.g_v84
  rfl

set_option maxHeartbeats 4000000 in
theorem W4_v91 (c : Dev nD) : W4 m c (Proc.devRef .tc main_v91) = Glue.g_v91 (a0 m c) (a1 m c) (a3 m c) (a4 m c) := by
  rw [W4_piece m c 78 9 87 rfl main_v91 (by not_written)]
  have h_v82 : Y m c 78 (Proc.devRef .tc main_v82) = Glue.g_v82 (a0 m c) (a1 m c) (a3 m c) (a4 m c) :=
    (Y_read m c 78 main_v82 (by not_written)).trans (W4_v82 m c)
  generalize Y m c 78 = W at h_v82 ⊢
  open_piece
  after_results
  rw [h_v82]
  unfold Glue.g_v91 Glue.g_v85
  rfl

/-! ### When the region is entered -/

set_option maxHeartbeats 4000000 in
/-- The weight `wx` of the sorted points, as the region finds it: the printed operations applied to the
    argument arrays. -/
theorem V_v86 (c : Dev nD) :
    V m c main_v86 = Glue.g_v86 (m ((c.tc : Thread nD τ).loc main_arg0)) (m ((c.tc : Thread nD τ).loc main_arg1))
      (m ((c.tc : Thread nD τ).loc main_arg3)) (m ((c.tc : Thread nD τ).loc main_arg4)) :=
  (V_keep m c main_v86 (by not_written)).trans (W4_v86 m c)

set_option maxHeartbeats 4000000 in
/-- The weight `wy` of the sorted points, as the region finds it: the printed operations applied to the
    argument arrays. -/
theorem V_v87 (c : Dev nD) :
    V m c main_v87 = Glue.g_v87 (m ((c.tc : Thread nD τ).loc main_arg0)) (m ((c.tc : Thread nD τ).loc main_arg1))
      (m ((c.tc : Thread nD τ).loc main_arg3)) (m ((c.tc : Thread nD τ).loc main_arg4)) :=
  (V_keep m c main_v87 (by not_written)).trans (W4_v87 m c)

set_option maxHeartbeats 4000000 in
/-- The weight `wz` of the sorted points, as the region finds it: the printed operations applied to the
    argument arrays. -/
theorem V_v88 (c : Dev nD) :
    V m c main_v88 = Glue.g_v88 (m ((c.tc : Thread nD τ).loc main_arg0)) (m ((c.tc : Thread nD τ).loc main_arg1))
      (m ((c.tc : Thread nD τ).loc main_arg3)) (m ((c.tc : Thread nD τ).loc main_arg4)) :=
  (V_keep m c main_v88 (by not_written)).trans (W4_v88 m c)

set_option maxHeartbeats 4000000 in
/-- The base cell `x0` of the sorted points, as the region finds it: the printed operations applied to the
    argument arrays. -/
theorem V_v89 (c : Dev nD) :
    V m c main_v89 = Glue.g_v89 (m ((c.tc : Thread nD τ).loc main_arg0)) (m ((c.tc : Thread nD τ).loc main_arg1))
      (m ((c.tc : Thread nD τ).loc main_arg3)) (m ((c.tc : Thread nD τ).loc main_arg4)) :=
  (V_keep m c main_v89 (by not_written)).trans (W4_v89 m c)

set_option maxHeartbeats 4000000 in
/-- The base cell `y0` of the sorted points, as the region finds it: the printed operations applied to the
    argument arrays. -/
theorem V_v90 (c : Dev nD) :
    V m c main_v90 = Glue.g_v90 (m ((c.tc : Thread nD τ).loc main_arg0)) (m ((c.tc : Thread nD τ).loc main_arg1))
      (m ((c.tc : Thread nD τ).loc main_arg3)) (m ((c.tc : Thread nD τ).loc main_arg4)) :=
  (V_keep m c main_v90 (by not_written)).trans (W4_v90 m c)

set_option maxHeartbeats 4000000 in
/-- The base cell `z0` of the sorted points, as the region finds it: the printed operations applied to the
    argument arrays. -/
theorem V_v91 (c : Dev nD) :
    V m c main_v91 = Glue.g_v91 (m ((c.tc : Thread nD τ).loc main_arg0)) (m ((c.tc : Thread nD τ).loc main_arg1))
      (m ((c.tc : Thread nD τ).loc main_arg3)) (m ((c.tc : Thread nD τ).loc main_arg4)) :=
  (V_keep m c main_v91 (by not_written)).trans (W4_v91 m c)

end Cert.AlphaGrid.KernelChainA2

end
-- ==== Proof.RefRunOps0.lean ====
/- The operations 1 … 67 of the reference (of 941, calls unfolded at their sites), in order: the window main_part0 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops0 : List (HloOp τ sig (Elt F)) :=
  [ nullary main_cst (constant S3 .f32 0x40800000#32),
    nullary main_c (constantI S3 32 4#32),
    nullary main_c_0 (fun i => lit0 (S3.rowMajor i)),
    unary main_arg1 main_v0 ((extractStridedSlice S1x3 ![1, 0] · slices_S2x3_S1x3_1_0) : (⟨S2x3, .f32⟩ : BufTy).Contents (Elt F) → (⟨S1x3, .f32⟩ : BufTy).Contents (Elt F)),
    reshape main_v0 main_v1 rfl shapeCasts_S1x3_S3,
    unary main_arg1 main_v2 ((extractStridedSlice S1x3 ![0, 0] · slices_S2x3_S1x3_0_0) : (⟨S2x3, .f32⟩ : BufTy).Contents (Elt F) → (⟨S1x3, .f32⟩ : BufTy).Contents (Elt F)),
    reshape main_v2 main_v3 rfl shapeCasts_S1x3_S3,
    binary main_v1 main_v3 main_v4 (subf : (⟨S3, .f32⟩ : BufTy).Contents (Elt F) → (⟨S3, .f32⟩ : BufTy).Contents (Elt F) → (⟨S3, .f32⟩ : BufTy).Contents (Elt F)),
    binary main_v4 main_cst main_v5 (Host.divf : (⟨S3, .f32⟩ : BufTy).Contents (Elt F) → (⟨S3, .f32⟩ : BufTy).Contents (Elt F) → (⟨S3, .f32⟩ : BufTy).Contents (Elt F)),
    unary main_arg1 main_v6 ((extractStridedSlice S1x3 ![0, 0] · slices_S2x3_S1x3_0_0) : (⟨S2x3, .f32⟩ : BufTy).Contents (Elt F) → (⟨S1x3, .f32⟩ : BufTy).Contents (Elt F)),
    reshape main_v6 main_v7 rfl shapeCasts_S1x3_S3,
    unary main_v7 main_v8 (broadcastInDim S1x3 ![1] bcast_S3_S1x3_1 : (⟨S3, .f32⟩ : BufTy).Contents (Elt F) → (⟨S1x3, .f32⟩ : BufTy).Contents (Elt F)),
    unary main_v8 main_v9 (broadcastInDim S4194304x3 ![0, 1] bcast_S1x3_S4194304x3_0_1 : (⟨S1x3, .f32⟩ : BufTy).Contents (Elt F) → (⟨S4194304x3, .f32⟩ : BufTy).Contents (Elt F)),
    binary main_arg0 main_v9 main_v10 (subf : (⟨S4194304x3, .f32⟩ : BufTy).Contents (Elt F) → (⟨S4194304x3, .f32⟩ : BufTy).Contents (Elt F) → (⟨S4194304x3, .f32⟩ : BufTy).Contents (Elt F)),
    unary main_v5 main_v11 (broadcastInDim S1x3 ![1] bcast_S3_S1x3_1 : (⟨S3, .f32⟩ : BufTy).Contents (Elt F) → (⟨S1x3, .f32⟩ : BufTy).Contents (Elt F)),
    unary main_v11 main_v12 (broadcastInDim S4194304x3 ![0, 1] bcast_S1x3_S4194304x3_0_1 : (⟨S1x3, .f32⟩ : BufTy).Contents (Elt F) → (⟨S4194304x3, .f32⟩ : BufTy).Contents (Elt F)),
    binary main_v10 main_v12 main_v13 (Host.divf : (⟨S4194304x3, .f32⟩ : BufTy).Contents (Elt F) → (⟨S4194304x3, .f32⟩ : BufTy).Contents (Elt F) → (⟨S4194304x3, .f32⟩ : BufTy).Contents (Elt F)),
    unary main_v13 main_v14 (Host.floor : (⟨S4194304x3, .f32⟩ : BufTy).Contents (Elt F) → (⟨S4194304x3, .f32⟩ : BufTy).Contents (Elt F)),
    unary main_v14 main_v15 (fptosi 32 : (⟨S4194304x3, .f32⟩ : BufTy).Contents (Elt F) → (⟨S4194304x3, .i32⟩ : BufTy).Contents (Elt F)),
    nullary main_c_1 (constantI S_ 32 1#32),
    unary main_c_1 main_v16 (broadcastInDim S3 ![] bcast_S_S3 : (⟨S_, .i32⟩ : BufTy).Contents (Elt F) → (⟨S3, .i32⟩ : BufTy).Contents (Elt F)),
    binary main_c main_v16 main_v17 (subi : (⟨S3, .i32⟩ : BufTy).Contents (Elt F) → (⟨S3, .i32⟩ : BufTy).Contents (Elt F) → (⟨S3, .i32⟩ : BufTy).Contents (Elt F)),
    nullary main_c_2 (constantI S_ 32 0#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S4194304x3, .i32⟩) main_call0_v1) (broadcastInDim S4194304x3 ![] bcast_S_S4194304x3),
    TRef.binary (TRef.of (T := ⟨S4194304x3, .i32⟩) main_call0_v1) (TRef.of (T := ⟨S4194304x3, .i32⟩) main_v15) (TRef.of (T := ⟨S4194304x3, .i32⟩) main_call0_v2) maxsi,
    TRef.unary (TRef.of (T := ⟨S3, .i32⟩) main_v17) (TRef.of (T := ⟨S1x3, .i32⟩) main_call0_v3) (broadcastInDim S1x3 ![1] bcast_S3_S1x3_1),
    TRef.unary (TRef.of (T := ⟨S1x3, .i32⟩) main_call0_v3) (TRef.of (T := ⟨S4194304x3, .i32⟩) main_call0_v4) (broadcastInDim S4194304x3 ![0, 1] bcast_S1x3_S4194304x3_0_1),
    TRef.binary (TRef.of (T := ⟨S4194304x3, .i32⟩) main_call0_v4) (TRef.of (T := ⟨S4194304x3, .i32⟩) main_call0_v2) (TRef.of (T := ⟨S4194304x3, .i32⟩) main_v18) minsi,
    unary main_c_0 main_v19 (broadcastInDim S1x3 ![1] bcast_S3_S1x3_1 : (⟨S3, .i32⟩ : BufTy).Contents (Elt F) → (⟨S1x3, .i32⟩ : BufTy).Contents (Elt F)),
    unary main_v19 main_v20 (broadcastInDim S4194304x3 ![0, 1] bcast_S1x3_S4194304x3_0_1 : (⟨S1x3, .i32⟩ : BufTy).Contents (Elt F) → (⟨S4194304x3, .i32⟩ : BufTy).Contents (Elt F)),
    binary main_v18 main_v20 main_v21 (muli : (⟨S4194304x3, .i32⟩ : BufTy).Contents (Elt F) → (⟨S4194304x3, .i32⟩ : BufTy).Contents (Elt F) → (⟨S4194304x3, .i32⟩ : BufTy).Contents (Elt F)),
    nullary main_c_3 (constantI S_ 32 0#32),
    binary main_v21 main_c_3 main_v22 ((fun x v => Host.reduce IntOp.addi x v reducesTo_S4194304x3_S4194304_d1 h_S_) : (⟨S4194304x3, .i32⟩ : BufTy).Contents (Elt F) → (⟨S_, .i32⟩ : BufTy).Contents (Elt F) → (⟨S4194304, .i32⟩ : BufTy).Contents (Elt F)),
    TRef.nullary (TRef.of (T := ⟨S4194304, .i32⟩) main_call1_v0) (iotaInDim S4194304 32 0),
    TRef.binary (TRef.of (T := ⟨S4194304, .i32⟩) main_v22) (TRef.of (T := ⟨S4194304, .i32⟩) main_call1_v0) (TRef.of (T := ⟨S4194304, .i32⟩) main_call1_v1_0) (fun x y => (Host.sort2 S4194304 0 comparator_i32_i32_d0 x y).1),
    TRef.binary (TRef.of (T := ⟨S4194304, .i32⟩) main_v22) (TRef.of (T := ⟨S4194304, .i32⟩) main_call1_v0) (TRef.of (T := ⟨S4194304, .i32⟩) main_v23) (fun x y => (Host.sort2 S4194304 0 comparator_i32_i32_d0 x y).2),
    nullary main_c_4 (constantI S_ 32 0#32),
    unary main_c_4 main_v24 (broadcastInDim S4194304 ![] bcast_S_S4194304 : (⟨S_, .i32⟩ : BufTy).Contents (Elt F) → (⟨S4194304, .i32⟩ : BufTy).Contents (Elt F)),
    binary main_v23 main_v24 main_v25 (cmpi .slt : (⟨S4194304, .i32⟩ : BufTy).Contents (Elt F) → (⟨S4194304, .i32⟩ : BufTy).Contents (Elt F) → (⟨S4194304, .i1⟩ : BufTy).Contents (Elt F)),
    nullary main_c_5 (constantI S_ 32 4194304#32),
    unary main_c_5 main_v26 (broadcastInDim S4194304 ![] bcast_S_S4194304 : (⟨S_, .i32⟩ : BufTy).Contents (Elt F) → (⟨S4194304, .i32⟩ : BufTy).Contents (Elt F)),
    binary main_v23 main_v26 main_v27 (addi : (⟨S4194304, .i32⟩ : BufTy).Contents (Elt F) → (⟨S4194304, .i32⟩ : BufTy).Contents (Elt F) → (⟨S4194304, .i32⟩ : BufTy).Contents (Elt F)),
    ternary main_v25 main_v27 main_v23 main_v28 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v28 main_v29 (broadcastInDim S4194304x1 ![0] bcast_S4194304_S4194304x1_0 : (⟨S4194304, .i32⟩ : BufTy).Contents (Elt F) → (⟨S4194304x1, .i32⟩ : BufTy).Contents (Elt F)),
    binary main_v22 main_v29 main_v30 ((fun x i => Host.gather gather_S4194304_S4194304x1_S4194304_n_0_n_n_0_1_1 x i) : (⟨S4194304, .i32⟩ : BufTy).Contents (Elt F) → (⟨S4194304x1, .i32⟩ : BufTy).Contents (Elt F) → (⟨S4194304, .i32⟩ : BufTy).Contents (Elt F)),
    nullary main_c_6 (constantI S_ 32 0#32),
    unary main_c_6 main_v31 (broadcastInDim S4194304 ![] bcast_S_S4194304 : (⟨S_, .i32⟩ : BufTy).Contents (Elt F) → (⟨S4194304, .i32⟩ : BufTy).Contents (Elt F)),
    binary main_v23 main_v31 main_v32 (cmpi .slt : (⟨S4194304, .i32⟩ : BufTy).Contents (Elt F) → (⟨S4194304, .i32⟩ : BufTy).Contents (Elt F) → (⟨S4194304, .i1⟩ : BufTy).Contents (Elt F)),
    nullary main_c_7 (constantI S_ 32 4194304#32),
    unary main_c_7 main_v33 (broadcastInDim S4194304 ![] bcast_S_S4194304 : (⟨S_, .i32⟩ : BufTy).Contents (Elt F) → (⟨S4194304, .i32⟩ : BufTy).Contents (Elt F)),
    binary main_v23 main_v33 main_v34 (addi : (⟨S4194304, .i32⟩ : BufTy).Contents (Elt F) → (⟨S4194304, .i32⟩ : BufTy).Contents (Elt F) → (⟨S4194304, .i32⟩ : BufTy).Contents (Elt F)),
    ternary main_v32 main_v34 main_v23 main_v35 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v35 main_v36 (broadcastInDim S4194304x1 ![0] bcast_S4194304_S4194304x1_0 : (⟨S4194304, .i32⟩ : BufTy).Contents (Elt F) → (⟨S4194304x1, .i32⟩ : BufTy).Contents (Elt F)),
    binary main_arg0 main_v36 main_v37 ((fun x i => Host.gather gather_S4194304x3_S4194304x1_S4194304x3_1_0_n_n_0_1_13 x i) : (⟨S4194304x3, .f32⟩ : BufTy).Contents (Elt F) → (⟨S4194304x1, .i32⟩ : BufTy).Contents (Elt F) → (⟨S4194304x3, .f32⟩ : BufTy).Contents (Elt F)),
    nullary main_c_8 (constantI S_ 32 0#32),
    unary main_c_8 main_v38 (broadcastInDim S4194304 ![] bcast_S_S4194304 : (⟨S_, .i32⟩ : BufTy).Contents (Elt F) → (⟨S4194304, .i32⟩ : BufTy).Contents (Elt F)),
    binary main_v30 main_v38 main_v39 (cmpi .slt : (⟨S4194304, .i32⟩ : BufTy).Contents (Elt F) → (⟨S4194304, .i32⟩ : BufTy).Contents (Elt F) → (⟨S4194304, .i1⟩ : BufTy).Contents (Elt F)),
    nullary main_c_9 (constantI S_ 32 64#32),
    unary main_c_9 main_v40 (broadcastInDim S4194304 ![] bcast_S_S4194304 : (⟨S_, .i32⟩ : BufTy).Contents (Elt F) → (⟨S4194304, .i32⟩ : BufTy).Contents (Elt F)),
    binary main_v30 main_v40 main_v41 (addi : (⟨S4194304, .i32⟩ : BufTy).Contents (Elt F) → (⟨S4194304, .i32⟩ : BufTy).Contents (Elt F) → (⟨S4194304, .i32⟩ : BufTy).Contents (Elt F)),
    ternary main_v39 main_v41 main_v30 main_v42 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v42 main_v43 (broadcastInDim S4194304x1 ![0] bcast_S4194304_S4194304x1_0 : (⟨S4194304, .i32⟩ : BufTy).Contents (Elt F) → (⟨S4194304x1, .i32⟩ : BufTy).Contents (Elt F)),
    binary main_arg3 main_v43 main_v44 ((fun x i => Host.gather gather_S64x3_S4194304x1_S4194304x3_1_0_n_n_0_1_13 x i) : (⟨S64x3, .f32⟩ : BufTy).Contents (Elt F) → (⟨S4194304x1, .i32⟩ : BufTy).Contents (Elt F) → (⟨S4194304x3, .f32⟩ : BufTy).Contents (Elt F)),
    binary main_v37 main_v44 main_v45 (subf : (⟨S4194304x3, .f32⟩ : BufTy).Contents (Elt F) → (⟨S4194304x3, .f32⟩ : BufTy).Contents (Elt F) → (⟨S4194304x3, .f32⟩ : BufTy).Contents (Elt F)),
    nullary main_cst_10 (constant S_ .f32 0x40000000#32),
    unary main_cst_10 main_v46 (broadcastInDim S4194304x3 ![] bcast_S_S4194304x3 : (⟨S_, .f32⟩ : BufTy).Contents (Elt F) → (⟨S4194304x3, .f32⟩ : BufTy).Contents (Elt F)) ]

theorem ops0_sub : (ops0 : List (HloOp τ sig (Elt F))).Forall fun op => op.bufs ⊆ tcRefs τ sig :=
  ⟨nullary_bufs_sub .., nullary_bufs_sub .., nullary_bufs_sub .., unary_bufs_sub .., reshape_bufs_sub .., unary_bufs_sub .., reshape_bufs_sub .., binary_bufs_sub .., binary_bufs_sub .., unary_bufs_sub .., reshape_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.AlphaGrid.RefRun

end
-- ==== Proof.RefStages.lean ====
/- Each host operation of the reference, from the argument arrays (points a0, bounding box a1, volume a2, per-block domain
   corners a3 a4) to its one result r_v570: one definition per operation, the operation applied to the stages of its operands. -/
import proofs.«104803_j90202903151142_1_alg».proof.ReferenceIdeal

noncomputable section

namespace Cert.AlphaGrid.RefStages

open Idealize.ShloMosaic Cert.ReferenceIdeal

variable [Cert.ReferenceIdeal.Facts]
open Cert.ReferenceIdeal.Facts₀ Cert.ReferenceIdeal.Facts

variable {F : FTy → Type} [FloatOps F]

def r_cst (a0 : FVec F S4194304x3 .f32) (a1 : FVec F S2x3 .f32) (a2 : FVec F S256x256x256 .f32) (a3 a4 : FVec F S64x3 .f32) :=
  (constant (F := F) S3 .f32 0x40800000#32)

def r_c (a0 : FVec F S4194304x3 .f32) (a1 : FVec F S2x3 .f32) (a2 : FVec F S256x256x256 .f32) (a3 a4 : FVec F S64x3 .f32) :=
  (constantI S3 32 4#32)

def r_c_0 (a0 : FVec F S4194304x3 .f32) (a1 : FVec F S2x3 .f32) (a2 : FVec F S256x256x256 .f32) (a3 a4 : FVec F S64x3 .f32) :=
  (fun i => lit0 (S3.rowMajor i))

def r_v0 (a0 : FVec F S4194304x3 .f32) (a1 : FVec F S2x3 .f32) (a2 : FVec F S256x256x256 .f32) (a3 a4 : FVec F S64x3 .f32) :=
  ((extractStridedSlice S1x3 ![1, 0] · slices_S2x3_S1x3_1_0) : (⟨S2x3, .f32⟩ : BufTy).Contents (Elt F) → (⟨S1x3, .f32⟩ : BufTy).Contents (Elt F)) a1

def r_v1 (a0 : FVec F S4194304x3 .f32) (a1 : FVec F S2x3 .f32) (a2 : FVec F S256x256x256 .f32) (a3 a4 : FVec F S64x3 .f32) :=
  shapeCast S3 (r_v0 a0 a1 a2 a3 a4) shapeCasts_S1x3_S3

def r_v2 (a0 : FVec F S4194304x3 .f32) (a1 : FVec F S2x3 .f32) (a2 : FVec F S256x256x256 .f32) (a3 a4 : FVec F S64x3 .f32) :=
  ((extractStridedSlice S1x3 ![0, 0] · slices_S2x3_S1x3_0_0) : (⟨S2x3, .f32⟩ : BufTy).Contents (Elt F) → (⟨S1x3, .f32⟩ : BufTy).Contents (Elt F)) a1

def r_v3 (a0 : FVec F S4194304x3 .f32) (a1 : FVec F S2x3 .f32) (a2 : FVec F S256x256x256 .f32) (a3 a4 : FVec F S64x3 .f32) :=
  shapeCast S3 (r_v2 a0 a1 a2 a3 a4) shapeCasts_S1x3_S3

def r_v4 (a0 : FVec F S4194304x3 .f32) (a1 : FVec F S2x3 .f32) (a2 : FVec F S256x256x256 .f32) (a3 a4 : FVec F S64x3 .f32) :=
  (subf : (⟨S3, .f32⟩ : BufTy).Contents (Elt F) → (⟨S3, .f32⟩ : BufTy).Contents (Elt F) → (⟨S3, .f32⟩ : BufTy).Contents (Elt F)) (r_v1 a0 a1 a2 a3 a4) (r_v3 a0 a1 a2 a3 a4)

def r_v5 (a0 : FVec F S4194304x3 .f32) (a1 : FVec F S2x3 .f32) (a2 : FVec F S256x256x256 .f32) (a3 a4 : FVec F S64x3 .f32) :=
  (Host.divf : (⟨S3, .f32⟩ : BufTy).Contents (Elt F) → (⟨S3, .f32⟩ : BufTy).Contents (Elt F) → (⟨S3, .f32⟩ : BufTy).Contents (Elt F)) (r_v4 a0 a1 a2 a3 a4) (r_cst a0 a1 a2 a3 a4)

def r_v6 (a0 : FVec F S4194304x3 .f32) (a1 : FVec F S2x3 .f32) (a2 : FVec F S256x256x256 .f32) (a3 a4 : FVec F S64x3 .f32) :=
  ((extractStridedSlice S1x3 ![0, 0] · slices_S2x3_S1x3_0_0) : (⟨S2x3, .f32⟩ : BufTy).Contents (Elt F) → (⟨S1x3, .f32⟩ : BufTy).Contents (Elt F)) a1

def r_v7 (a0 : FVec F S4194304x3 .f32) (a1 : FVec F S2x3 .f32) (a2 : FVec F S256x256x256 .f32) (a3 a4 : FVec F S64x3 .f32) :=
  shapeCast S3 (r_v6 a0 a1 a2 a3 a4) shapeCasts_S1x3_S3

def r_v8 (a0 : FVec F S4194304x3 .f32) (a1 : FVec F S2x3 .f32) (a2 : FVec F S256x256x256 .f32) (a3 a4 : FVec F S64x3 .f32) :=
  (broadcastInDim S1x3 ![1] bcast_S3_S1x3_1 : (⟨S3, .f32⟩ : BufTy).Contents (Elt F) → (⟨S1x3, .f32⟩ : BufTy).Contents (Elt F)) (r_v7 a0 a1 a2 a3 a4)

def r_v9 (a0 : FVec F S4194304x3 .f32) (a1 : FVec F S2x3 .f32) (a2 : FVec F S256x256x256 .f32) (a3 a4 : FVec F S64x3 .f32) :=
  (broadcastInDim S4194304x3 ![0, 1] bcast_S1x3_S4194304x3_0_1 : (⟨S1x3, .f32⟩ : BufTy).Contents (Elt F) → (⟨S4194304x3, .f32⟩ : BufTy).Contents (Elt F)) (r_v8 a0 a1 a2 a3 a4)

def r_v10 (a0 : FVec F S4194304x3 .f32) (a1 : FVec F S2x3 .f32) (a2 : FVec F S256x256x256 .f32) (a3 a4 : FVec F S64x3 .f32) :=
  (subf : (⟨S4194304x3, .f32⟩ : BufTy).Contents (Elt F) → (⟨S4194304x3, .f32⟩ : BufTy).Contents (Elt F) → (⟨S4194304x3, .f32⟩ : BufTy).Contents (Elt F)) a0 (r_v9 a0 a1 a2 a3 a4)

def r_v11 (a0 : FVec F S4194304x3 .f32) (a1 : FVec F S2x3 .f32) (a2 : FVec F S256x256x256 .f32) (a3 a4 : FVec F S64x3 .f32) :=
  (broadcastInDim S1x3 ![1] bcast_S3_S1x3_1 : (⟨S3, .f32⟩ : BufTy).Contents (Elt F) → (⟨S1x3, .f32⟩ : BufTy).Contents (Elt F)) (r_v5 a0 a1 a2 a3 a4)

def r_v12 (a0 : FVec F S4194304x3 .f32) (a1 : FVec F S2x3 .f32) (a2 : FVec F S256x256x256 .f32) (a3 a4 : FVec F S64x3 .f32) :=
  (broadcastInDim S4194304x3 ![0, 1] bcast_S1x3_S4194304x3_0_1 : (⟨S1x3, .f32⟩ : BufTy).Contents (Elt F) → (⟨S4194304x3, .f32⟩ : BufTy).Contents (Elt F)) (r_v11 a0 a1 a2 a3 a4)

def r_v13 (a0 : FVec F S4194304x3 .f32) (a1 : FVec F S2x3 .f32) (a2 : FVec F S256x256x256 .f32) (a3 a4 : FVec F S64x3 .f32) :=
  (Host.divf : (⟨S4194304x3, .f32⟩ : BufTy).Contents (Elt F) → (⟨S4194304x3, .f32⟩ : BufTy).Contents (Elt F) → (⟨S4194304x3, .f32⟩ : BufTy).Contents (Elt F)) (r_v10 a0 a1 a2 a3 a4) (r_v12 a0 a1 a2 a3 a4)

def r_v14 (a0 : FVec F S4194304x3 .f32) (a1 : FVec F S2x3 .f32) (a2 : FVec F S256x256x256 .f32) (a3 a4 : FVec F S64x3 .f32) :=
  (Host.floor : (⟨S4194304x3, .f32⟩ : BufTy).Contents (Elt F) → (⟨S4194304x3, .f32⟩ : BufTy).Contents (Elt F)) (r_v13 a0 a1 a2 a3 a4)

def r_v15 (a0 : FVec F S4194304x3 .f32) (a1 : FVec F S2x3 .f32) (a2 : FVec F S256x256x256 .f32) (a3 a4 : FVec F S64x3 .f32) :=
  (fptosi 32 : (⟨S4194304x3, .f32⟩ : BufTy).Contents (Elt F) → (⟨S4194304x3, .i32⟩ : BufTy).Contents (Elt F)) (r_v14 a0 a1 a2 a3 a4)

def r_c_1 (a0 : FVec F S4194304x3 .f32) (a1 : FVec F S2x3 .f32) (a2 : FVec F S256x256x256 .f32) (a3 a4 : FVec F S64x3 .f32) :=
  (constantI S_ 32 1#32)

def r_v16 (a0 : FVec F S4194304x3 .f32) (a1 : FVec F S2x3 .f32) (a2 : FVec F S256x256x256 .f32) (a3 a4 : FVec F S64x3 .f32) :=
  (broadcastInDim S3 ![] bcast_S_S3 : (⟨S_, .i32⟩ : BufTy).Contents (Elt F) → (⟨S3, .i32⟩ : BufTy).Contents (Elt F)) (r_c_1 a0 a1 a2 a3 a4)

def r_v17 (a0 : FVec F S4194304x3 .f32) (a1 : FVec F S2x3 .f32) (a2 : FVec F S256x256x256 .f32) (a3 a4 : FVec F S64x3 .f32) :=
  (subi : (⟨S3, .i32⟩ : BufTy).Contents (Elt F) → (⟨S3, .i32⟩ : BufTy).Contents (Elt F) → (⟨S3, .i32⟩ : BufTy).Contents (Elt F)) (r_c a0 a1 a2 a3 a4) (r_v16 a0 a1 a2 a3 a4)

def r_c_2 (a0 : FVec F S4194304x3 .f32) (a1 : FVec F S2x3 .f32) (a2 : FVec F S256x256x256 .f32) (a3 a4 : FVec F S64x3 .f32) :=
  (constantI S_ 32 0#32)

def r_call0_v0 (a0 : FVec F S4194304x3 .f32) (a1 : FVec F S2x3 .f32) (a2 : FVec F S256x256x256 .f32) (a3 a4 : FVec F S64x3 .f32) :=
  id (r_c_2 a0 a1 a2 a3 a4)

def r_call0_v1 (a0 : FVec F S4194304x3 .f32) (a1 : FVec F S2x3 .f32) (a2 : FVec F S256x256x256 .f32) (a3 a4 : FVec F S64x3 .f32) :=
  (broadcastInDim S4194304x3 ![] bcast_S_S4194304x3) (r_call0_v0 a0 a1 a2 a3 a4)

def r_call0_v2 (a0 : FVec F S4194304x3 .f32) (a1 : FVec F S2x3 .f32) (a2 : FVec F S256x256x256 .f32) (a3 a4 : FVec F S64x3 .f32) :=
  maxsi (r_call0_v1 a0 a1 a2 a3 a4) (r_v15 a0 a1 a2 a3 a4)

def r_call0_v3 (a0 : FVec F S4194304x3 .f32) (a1 : FVec F S2x3 .f32) (a2 : FVec F S256x256x256 .f32) (a3 a4 : FVec F S64x3 .f32) :=
  (broadcastInDim S1x3 ![1] bcast_S3_S1x3_1) (r_v17 a0 a1 a2 a3 a4)

def r_call0_v4 (a0 : FVec F S4194304x3 .f32) (a1 : FVec F S2x3 .f32) (a2 : FVec F S256x256x256 .f32) (a3 a4 : FVec F S64x3 .f32) :=
  (broadcastInDim S4194304x3 ![0, 1] bcast_S1x3_S4194304x3_0_1) (r_call0_v3 a0 a1 a2 a3 a4)

def r_v18 (a0 : FVec F S4194304x3 .f32) (a1 : FVec F S2x3 .f32) (a2 : FVec F S256x256x256 .f32) (a3 a4 : FVec F S64x3 .f32) :=
  minsi (r_call0_v4 a0 a1 a2 a3 a4) (r_call0_v2 a0 a1 a2 a3 a4)

def r_v19 (a0 : FVec F S4194304x3 .f32) (a1 : FVec F S2x3 .f32) (a2 : FVec F S256x256x256 .f32) (a3 a4 : FVec F S64x3 .f32) :=
  (broadcastInDim S1x3 ![1] bcast_S3_S1x3_1 : (⟨S3, .i32⟩ : BufTy).Contents (Elt F) → (⟨S1x3, .i32⟩ : BufTy).Contents (Elt F)) (r_c_0 a0 a1 a2 a3 a4)

def r_v20 (a0 : FVec F S4194304x3 .f32) (a1 : FVec F S2x3 .f32) (a2 : FVec F S256x256x256 .f32) (a3 a4 : FVec F S64x3 .f32) :=
  (broadcastInDim S4194304x3 ![0, 1] bcast_S1x3_S4194304x3_0_1 : (⟨S1x3, .i32⟩ : BufTy).Contents (Elt F) → (⟨S4194304x3, .i32⟩ : BufTy).Contents (Elt F)) (r_v19 a0 a1 a2 a3 a4)

def r_v21 (a0 : FVec F S4194304x3 .f32) (a1 : FVec F S2x3 .f32) (a2 : FVec F S256x256x256 .f32) (a3 a4 : FVec F S64x3 .f32) :=
  (muli : (⟨S4194304x3, .i32⟩ : BufTy).Contents (Elt F) → (⟨S4194304x3, .i32⟩ : BufTy).Contents (Elt F) → (⟨S4194304x3, .i32⟩ : BufTy).Contents (Elt F)) (r_v18 a0 a1 a2 a3 a4) (r_v20 a0 a1 a2 a3 a4)

def r_c_3 (a0 : FVec F S4194304x3 .f32) (a1 : FVec F S2x3 .f32) (a2 : FVec F S256x256x256 .f32) (a3 a4 : FVec F S64x3 .f32) :=
  (constantI S_ 32 0#32)

def r_v22 (a0 : FVec F S4194304x3 .f32) (a1 : FVec F S2x3 .f32) (a2 : FVec F S256x256x256 .f32) (a3 a4 : FVec F S64x3 .f32) :=
  ((fun x v => Host.reduce IntOp.addi x v reducesTo_S4194304x3_S4194304_d1 h_S_) : (⟨S4194304x3, .i32⟩ : BufTy).Contents (Elt F) → (⟨S_, .i32⟩ : BufTy).Contents (Elt F) → (⟨S4194304, .i32⟩ : BufTy).Contents (Elt F)) (r_v21 a0 a1 a2 a3 a4) (r_c_3 a0 a1 a2 a3 a4)

def r_call1_v0 (a0 : FVec F S4194304x3 .f32) (a1 : FVec F S2x3 .f32) (a2 : FVec F S256x256x256 .f32) (a3 a4 : FVec F S64x3 .f32) :=
  (iotaInDim S4194304 32 0)

def r_call1_v1_0 (a0 : FVec F S4194304x3 .f32) (a1 : FVec F S2x3 .f32) (a2 : FVec F S256x256x256 .f32) (a3 a4 : FVec F S64x3 .f32) :=
  (fun x y => (Host.sort2 S4194304 0 comparator_i32_i32_d0 x y).1) (r_v22 a0 a1 a2 a3 a4) (r_call1_v0 a0 a1 a2 a3 a4)

def r_v23 (a0 : FVec F S4194304x3 .f32) (a1 : FVec F S2x3 .f32) (a2 : FVec F S256x256x256 .f32) (a3 a4 : FVec F S64x3 .f32) :=
  (fun x y => (Host.sort2 S4194304 0 comparator_i32_i32_d0 x y).2) (r_v22 a0 a1 a2 a3 a4) (r_call1_v0 a0 a1 a2 a3 a4)

def r_c_4 (a0 : FVec F S4194304x3 .f32) (a1 : FVec F S2x3 .f32) (a2 : FVec F S256x256x256 .f32) (a3 a4 : FVec F S64x3 .f32) :=
  (constantI S_ 32 0#32)

def r_v24 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_4 a0 a1 a2 a3 a4)

def r_v25 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v23 a0 a1 a2 a3 a4) (r_v24 a0 a1 a2 a3 a4)

def r_c_5 (a0 : FVec F S4194304x3 .f32) (a1 : FVec F S2x3 .f32) (a2 : FVec F S256x256x256 .f32) (a3 a4 : FVec F S64x3 .f32) :=
  (constantI S_ 32 4194304#32)

def r_v26 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_5 a0 a1 a2 a3 a4)

def r_v27 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v23 a0 a1 a2 a3 a4) (r_v26 a0 a1 a2 a3 a4)

def r_v28 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v25 a0 a1 a2 a3 a4) (r_v27 a0 a1 a2 a3 a4) (r_v23 a0 a1 a2 a3 a4)

def r_v29 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v28 a0 a1 a2 a3 a4)

def r_v30 (a0 : FVec F S4194304x3 .f32) (a1 : FVec F S2x3 .f32) (a2 : FVec F S256x256x256 .f32) (a3 a4 : FVec F S64x3 .f32) :=
  ((fun x i => Host.gather gather_S4194304_S4194304x1_S4194304_n_0_n_n_0_1_1 x i) : (⟨S4194304, .i32⟩ : BufTy).Contents (Elt F) → (⟨S4194304x1, .i32⟩ : BufTy).Contents (Elt F) → (⟨S4194304, .i32⟩ : BufTy).Contents (Elt F)) (r_v22 a0 a1 a2 a3 a4) (r_v29 a0 a1 a2 a3 a4)

def r_c_6 (a0 : FVec F S4194304x3 .f32) (a1 : FVec F S2x3 .f32) (a2 : FVec F S256x256x256 .f32) (a3 a4 : FVec F S64x3 .f32) :=
  (constantI S_ 32 0#32)

def r_v31 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_6 a0 a1 a2 a3 a4)

def r_v32 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v23 a0 a1 a2 a3 a4) (r_v31 a0 a1 a2 a3 a4)

def r_c_7 (a0 : FVec F S4194304x3 .f32) (a1 : FVec F S2x3 .f32) (a2 : FVec F S256x256x256 .f32) (a3 a4 : FVec F S64x3 .f32) :=
  (constantI S_ 32 4194304#32)

def r_v33 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_7 a0 a1 a2 a3 a4)

def r_v34 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v23 a0 a1 a2 a3 a4) (r_v33 a0 a1 a2 a3 a4)

def r_v35 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v32 a0 a1 a2 a3 a4) (r_v34 a0 a1 a2 a3 a4) (r_v23 a0 a1 a2 a3 a4)

def r_v36 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v35 a0 a1 a2 a3 a4)

def r_v37 (a0 : FVec F S4194304x3 .f32) (a1 : FVec F S2x3 .f32) (a2 : FVec F S256x256x256 .f32) (a3 a4 : FVec F S64x3 .f32) :=
  ((fun x i => Host.gather gather_S4194304x3_S4194304x1_S4194304x3_1_0_n_n_0_1_13 x i) : (⟨S4194304x3, .f32⟩ : BufTy).Contents (Elt F) → (⟨S4194304x1, .i32⟩ : BufTy).Contents (Elt F) → (⟨S4194304x3, .f32⟩ : BufTy).Contents (Elt F)) a0 (r_v36 a0 a1 a2 a3 a4)

def r_c_8 (a0 : FVec F S4194304x3 .f32) (a1 : FVec F S2x3 .f32) (a2 : FVec F S256x256x256 .f32) (a3 a4 : FVec F S64x3 .f32) :=
  (constantI S_ 32 0#32)

def r_v38 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_8 a0 a1 a2 a3 a4)

def r_v39 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v30 a0 a1 a2 a3 a4) (r_v38 a0 a1 a2 a3 a4)

def r_c_9 (a0 : FVec F S4194304x3 .f32) (a1 : FVec F S2x3 .f32) (a2 : FVec F S256x256x256 .f32) (a3 a4 : FVec F S64x3 .f32) :=
  (constantI S_ 32 64#32)

def r_v40 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_9 a0 a1 a2 a3 a4)

def r_v41 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v30 a0 a1 a2 a3 a4) (r_v40 a0 a1 a2 a3 a4)

def r_v42 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v39 a0 a1 a2 a3 a4) (r_v41 a0 a1 a2 a3 a4) (r_v30 a0 a1 a2 a3 a4)

def r_v43 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v42 a0 a1 a2 a3 a4)

def r_v44 (a0 : FVec F S4194304x3 .f32) (a1 : FVec F S2x3 .f32) (a2 : FVec F S256x256x256 .f32) (a3 a4 : FVec F S64x3 .f32) :=
  ((fun x i => Host.gather gather_S64x3_S4194304x1_S4194304x3_1_0_n_n_0_1_13 x i) : (⟨S64x3, .f32⟩ : BufTy).Contents (Elt F) → (⟨S4194304x1, .i32⟩ : BufTy).Contents (Elt F) → (⟨S4194304x3, .f32⟩ : BufTy).Contents (Elt F)) a3 (r_v43 a0 a1 a2 a3 a4)

def r_v45 (a0 : FVec F S4194304x3 .f32) (a1 : FVec F S2x3 .f32) (a2 : FVec F S256x256x256 .f32) (a3 a4 : FVec F S64x3 .f32) :=
  (subf : (⟨S4194304x3, .f32⟩ : BufTy).Contents (Elt F) → (⟨S4194304x3, .f32⟩ : BufTy).Contents (Elt F) → (⟨S4194304x3, .f32⟩ : BufTy).Contents (Elt F)) (r_v37 a0 a1 a2 a3 a4) (r_v44 a0 a1 a2 a3 a4)

def r_cst_10 (a0 : FVec F S4194304x3 .f32) (a1 : FVec F S2x3 .f32) (a2 : FVec F S256x256x256 .f32) (a3 a4 : FVec F S64x3 .f32) :=
  (constant (F := F) S_ .f32 0x40000000#32)

def r_v46 (a0 : FVec F S4194304x3 .f32) (a1 : FVec F S2x3 .f32) (a2 : FVec F S256x256x256 .f32) (a3 a4 : FVec F S64x3 .f32) :=
  (broadcastInDim S4194304x3 ![] bcast_S_S4194304x3 : (⟨S_, .f32⟩ : BufTy).Contents (Elt F) → (⟨S4194304x3, .f32⟩ : BufTy).Contents (Elt F)) (r_cst_10 a0 a1 a2 a3 a4)

def r_v47 (a0 : FVec F S4194304x3 .f32) (a1 : FVec F S2x3 .f32) (a2 : FVec F S256x256x256 .f32) (a3 a4 : FVec F S64x3 .f32) :=
  (mulf : (⟨S4194304x3, .f32⟩ : BufTy).Contents (Elt F) → (⟨S4194304x3, .f32⟩ : BufTy).Contents (Elt F) → (⟨S4194304x3, .f32⟩ : BufTy).Contents (Elt F)) (r_v46 a0 a1 a2 a3 a4) (r_v45 a0 a1 a2 a3 a4)

def r_c_11 (a0 : FVec F S4194304x3 .f32) (a1 : FVec F S2x3 .f32) (a2 : FVec F S256x256x256 .f32) (a3 a4 : FVec F S64x3 .f32) :=
  (constantI S_ 32 0#32)

def r_v48 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_11 a0 a1 a2 a3 a4)

def r_v49 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v30 a0 a1 a2 a3 a4) (r_v48 a0 a1 a2 a3 a4)

def r_c_12 (a0 : FVec F S4194304x3 .f32) (a1 : FVec F S2x3 .f32) (a2 : FVec F S256x256x256 .f32) (a3 a4 : FVec F S64x3 .f32) :=
  (constantI S_ 32 64#32)

def r_v50 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_12 a0 a1 a2 a3 a4)

def r_v51 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v30 a0 a1 a2 a3 a4) (r_v50 a0 a1 a2 a3 a4)

def r_v52 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v49 a0 a1 a2 a3 a4) (r_v51 a0 a1 a2 a3 a4) (r_v30 a0 a1 a2 a3 a4)

def r_v53 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v52 a0 a1 a2 a3 a4)

def r_v54 (a0 : FVec F S4194304x3 .f32) (a1 : FVec F S2x3 .f32) (a2 : FVec F S256x256x256 .f32) (a3 a4 : FVec F S64x3 .f32) :=
  ((fun x i => Host.gather gather_S64x3_S4194304x1_S4194304x3_1_0_n_n_0_1_13 x i) : (⟨S64x3, .f32⟩ : BufTy).Contents (Elt F) → (⟨S4194304x1, .i32⟩ : BufTy).Contents (Elt F) → (⟨S4194304x3, .f32⟩ : BufTy).Contents (Elt F)) a4 (r_v53 a0 a1 a2 a3 a4)

def r_c_13 (a0 : FVec F S4194304x3 .f32) (a1 : FVec F S2x3 .f32) (a2 : FVec F S256x256x256 .f32) (a3 a4 : FVec F S64x3 .f32) :=
  (constantI S_ 32 0#32)

def r_v55 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_13 a0 a1 a2 a3 a4)

def r_v56 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v30 a0 a1 a2 a3 a4) (r_v55 a0 a1 a2 a3 a4)

def r_c_14 (a0 : FVec F S4194304x3 .f32) (a1 : FVec F S2x3 .f32) (a2 : FVec F S256x256x256 .f32) (a3 a4 : FVec F S64x3 .f32) :=
  (constantI S_ 32 64#32)

def r_v57 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_14 a0 a1 a2 a3 a4)

def r_v58 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v30 a0 a1 a2 a3 a4) (r_v57 a0 a1 a2 a3 a4)

def r_v59 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v56 a0 a1 a2 a3 a4) (r_v58 a0 a1 a2 a3 a4) (r_v30 a0 a1 a2 a3 a4)

def r_v60 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v59 a0 a1 a2 a3 a4)

def r_v61 (a0 : FVec F S4194304x3 .f32) (a1 : FVec F S2x3 .f32) (a2 : FVec F S256x256x256 .f32) (a3 a4 : FVec F S64x3 .f32) :=
  ((fun x i => Host.gather gather_S64x3_S4194304x1_S4194304x3_1_0_n_n_0_1_13 x i) : (⟨S64x3, .f32⟩ : BufTy).Contents (Elt F) → (⟨S4194304x1, .i32⟩ : BufTy).Contents (Elt F) → (⟨S4194304x3, .f32⟩ : BufTy).Contents (Elt F)) a3 (r_v60 a0 a1 a2 a3 a4)

def r_v62 (a0 : FVec F S4194304x3 .f32) (a1 : FVec F S2x3 .f32) (a2 : FVec F S256x256x256 .f32) (a3 a4 : FVec F S64x3 .f32) :=
  (subf : (⟨S4194304x3, .f32⟩ : BufTy).Contents (Elt F) → (⟨S4194304x3, .f32⟩ : BufTy).Contents (Elt F) → (⟨S4194304x3, .f32⟩ : BufTy).Contents (Elt F)) (r_v54 a0 a1 a2 a3 a4) (r_v61 a0 a1 a2 a3 a4)

def r_v63 (a0 : FVec F S4194304x3 .f32) (a1 : FVec F S2x3 .f32) (a2 : FVec F S256x256x256 .f32) (a3 a4 : FVec F S64x3 .f32) :=
  (Host.divf : (⟨S4194304x3, .f32⟩ : BufTy).Contents (Elt F) → (⟨S4194304x3, .f32⟩ : BufTy).Contents (Elt F) → (⟨S4194304x3, .f32⟩ : BufTy).Contents (Elt F)) (r_v47 a0 a1 a2 a3 a4) (r_v62 a0 a1 a2 a3 a4)

def r_cst_15 (a0 : FVec F S4194304x3 .f32) (a1 : FVec F S2x3 .f32) (a2 : FVec F S256x256x256 .f32) (a3 a4 : FVec F S64x3 .f32) :=
  (constant (F := F) S_ .f32 0x3F800000#32)

def r_v64 (a0 : FVec F S4194304x3 .f32) (a1 : FVec F S2x3 .f32) (a2 : FVec F S256x256x256 .f32) (a3 a4 : FVec F S64x3 .f32) :=
  (broadcastInDim S4194304x3 ![] bcast_S_S4194304x3 : (⟨S_, .f32⟩ : BufTy).Contents (Elt F) → (⟨S4194304x3, .f32⟩ : BufTy).Contents (Elt F)) (r_cst_15 a0 a1 a2 a3 a4)

def r_v65 (a0 : FVec F S4194304x3 .f32) (a1 : FVec F S2x3 .f32) (a2 : FVec F S256x256x256 .f32) (a3 a4 : FVec F S64x3 .f32) :=
  (subf : (⟨S4194304x3, .f32⟩ : BufTy).Contents (Elt F) → (⟨S4194304x3, .f32⟩ : BufTy).Contents (Elt F) → (⟨S4194304x3, .f32⟩ : BufTy).Contents (Elt F)) (r_v63 a0 a1 a2 a3 a4) (r_v64 a0 a1 a2 a3 a4)

def r_v66 (a0 : FVec F S4194304x3 .f32) (a1 : FVec F S2x3 .f32) (a2 : FVec F S256x256x256 .f32) (a3 a4 : FVec F S64x3 .f32) :=
  shapeCast S64x64x64x64 a2 shapeCasts_S256x256x256_S64x64x64x64

def r_v67 (a0 : FVec F S4194304x3 .f32) (a1 : FVec F S2x3 .f32) (a2 : FVec F S256x256x256 .f32) (a3 a4 : FVec F S64x3 .f32) :=
  ((extractStridedSlice S4194304x1 ![0, 0] · slices_S4194304x3_S4194304x1_0_0) : (⟨S4194304x3, .f32⟩ : BufTy).Contents (Elt F) → (⟨S4194304x1, .f32⟩ : BufTy).Contents (Elt F)) (r_v65 a0 a1 a2 a3 a4)

def r_v68 (a0 : FVec F S4194304x3 .f32) (a1 : FVec F S2x3 .f32) (a2 : FVec F S256x256x256 .f32) (a3 a4 : FVec F S64x3 .f32) :=
  shapeCast S4194304 (r_v67 a0 a1 a2 a3 a4) shapeCasts_S4194304x1_S4194304

def r_cst_16 (a0 : FVec F S4194304x3 .f32) (a1 : FVec F S2x3 .f32) (a2 : FVec F S256x256x256 .f32) (a3 a4 : FVec F S64x3 .f32) :=
  (constant (F := F) S_ .f32 0x3F800000#32)

def r_v69 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_16 a0 a1 a2 a3 a4)

def r_v70 (a0 : FVec F S4194304x3 .f32) (a1 : FVec F S2x3 .f32) (a2 : FVec F S256x256x256 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (r_v68 a0 a1 a2 a3 a4) (r_v69 a0 a1 a2 a3 a4)

def r_cst_17 (a0 : FVec F S4194304x3 .f32) (a1 : FVec F S2x3 .f32) (a2 : FVec F S256x256x256 .f32) (a3 a4 : FVec F S64x3 .f32) :=
  (constant (F := F) S_ .f32 0x3F000000#32)

def r_v71 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_17 a0 a1 a2 a3 a4)

def r_v72 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v70 a0 a1 a2 a3 a4) (r_v71 a0 a1 a2 a3 a4)

def r_cst_18 (a0 : FVec F S4194304x3 .f32) (a1 : FVec F S2x3 .f32) (a2 : FVec F S256x256x256 .f32) (a3 a4 : FVec F S64x3 .f32) :=
  (constant (F := F) S_ .f32 0x427C0000#32)

def r_v73 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_18 a0 a1 a2 a3 a4)

def r_v74 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v72 a0 a1 a2 a3 a4) (r_v73 a0 a1 a2 a3 a4)

def r_v75 (a0 : FVec F S4194304x3 .f32) (a1 : FVec F S2x3 .f32) (a2 : FVec F S256x256x256 .f32) (a3 a4 : FVec F S64x3 .f32) :=
  ((extractStridedSlice S4194304x1 ![0, 1] · slices_S4194304x3_S4194304x1_0_1) : (⟨S4194304x3, .f32⟩ : BufTy).Contents (Elt F) → (⟨S4194304x1, .f32⟩ : BufTy).Contents (Elt F)) (r_v65 a0 a1 a2 a3 a4)

def r_v76 (a0 : FVec F S4194304x3 .f32) (a1 : FVec F S2x3 .f32) (a2 : FVec F S256x256x256 .f32) (a3 a4 : FVec F S64x3 .f32) :=
  shapeCast S4194304 (r_v75 a0 a1 a2 a3 a4) shapeCasts_S4194304x1_S4194304

def r_cst_19 (a0 : FVec F S4194304x3 .f32) (a1 : FVec F S2x3 .f32) (a2 : FVec F S256x256x256 .f32) (a3 a4 : FVec F S64x3 .f32) :=
  (constant (F := F) S_ .f32 0x3F800000#32)

def r_v77 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_19 a0 a1 a2 a3 a4)

def r_v78 (a0 : FVec F S4194304x3 .f32) (a1 : FVec F S2x3 .f32) (a2 : FVec F S256x256x256 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (r_v76 a0 a1 a2 a3 a4) (r_v77 a0 a1 a2 a3 a4)

def r_cst_20 (a0 : FVec F S4194304x3 .f32) (a1 : FVec F S2x3 .f32) (a2 : FVec F S256x256x256 .f32) (a3 a4 : FVec F S64x3 .f32) :=
  (constant (F := F) S_ .f32 0x3F000000#32)

def r_v79 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_20 a0 a1 a2 a3 a4)

def r_v80 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v78 a0 a1 a2 a3 a4) (r_v79 a0 a1 a2 a3 a4)

def r_cst_21 (a0 : FVec F S4194304x3 .f32) (a1 : FVec F S2x3 .f32) (a2 : FVec F S256x256x256 .f32) (a3 a4 : FVec F S64x3 .f32) :=
  (constant (F := F) S_ .f32 0x427C0000#32)

def r_v81 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_21 a0 a1 a2 a3 a4)

def r_v82 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v80 a0 a1 a2 a3 a4) (r_v81 a0 a1 a2 a3 a4)

def r_v83 (a0 : FVec F S4194304x3 .f32) (a1 : FVec F S2x3 .f32) (a2 : FVec F S256x256x256 .f32) (a3 a4 : FVec F S64x3 .f32) :=
  ((extractStridedSlice S4194304x1 ![0, 2] · slices_S4194304x3_S4194304x1_0_2) : (⟨S4194304x3, .f32⟩ : BufTy).Contents (Elt F) → (⟨S4194304x1, .f32⟩ : BufTy).Contents (Elt F)) (r_v65 a0 a1 a2 a3 a4)

def r_v84 (a0 : FVec F S4194304x3 .f32) (a1 : FVec F S2x3 .f32) (a2 : FVec F S256x256x256 .f32) (a3 a4 : FVec F S64x3 .f32) :=
  shapeCast S4194304 (r_v83 a0 a1 a2 a3 a4) shapeCasts_S4194304x1_S4194304

def r_cst_22 (a0 : FVec F S4194304x3 .f32) (a1 : FVec F S2x3 .f32) (a2 : FVec F S256x256x256 .f32) (a3 a4 : FVec F S64x3 .f32) :=
  (constant (F := F) S_ .f32 0x3F800000#32)

def r_v85 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_22 a0 a1 a2 a3 a4)

def r_v86 (a0 : FVec F S4194304x3 .f32) (a1 : FVec F S2x3 .f32) (a2 : FVec F S256x256x256 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (r_v84 a0 a1 a2 a3 a4) (r_v85 a0 a1 a2 a3 a4)

def r_cst_23 (a0 : FVec F S4194304x3 .f32) (a1 : FVec F S2x3 .f32) (a2 : FVec F S256x256x256 .f32) (a3 a4 : FVec F S64x3 .f32) :=
  (constant (F := F) S_ .f32 0x3F000000#32)

def r_v87 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_23 a0 a1 a2 a3 a4)

def r_v88 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v86 a0 a1 a2 a3 a4) (r_v87 a0 a1 a2 a3 a4)

def r_cst_24 (a0 : FVec F S4194304x3 .f32) (a1 : FVec F S2x3 .f32) (a2 : FVec F S256x256x256 .f32) (a3 a4 : FVec F S64x3 .f32) :=
  (constant (F := F) S_ .f32 0x427C0000#32)

def r_v89 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_24 a0 a1 a2 a3 a4)

def r_v90 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v88 a0 a1 a2 a3 a4) (r_v89 a0 a1 a2 a3 a4)

def r_v91 (a0 : FVec F S4194304x3 .f32) (a1 : FVec F S2x3 .f32) (a2 : FVec F S256x256x256 .f32) (a3 a4 : FVec F S64x3 .f32) :=
  (Host.floor : (⟨S4194304, .f32⟩ : BufTy).Contents (Elt F) → (⟨S4194304, .f32⟩ : BufTy).Contents (Elt F)) (r_v74 a0 a1 a2 a3 a4)

def r_v92 (a0 : FVec F S4194304x3 .f32) (a1 : FVec F S2x3 .f32) (a2 : FVec F S256x256x256 .f32) (a3 a4 : FVec F S64x3 .f32) :=
  (Host.floor : (⟨S4194304, .f32⟩ : BufTy).Contents (Elt F) → (⟨S4194304, .f32⟩ : BufTy).Contents (Elt F)) (r_v82 a0 a1 a2 a3 a4)

def r_v93 (a0 : FVec F S4194304x3 .f32) (a1 : FVec F S2x3 .f32) (a2 : FVec F S256x256x256 .f32) (a3 a4 : FVec F S64x3 .f32) :=
  (Host.floor : (⟨S4194304, .f32⟩ : BufTy).Contents (Elt F) → (⟨S4194304, .f32⟩ : BufTy).Contents (Elt F)) (r_v90 a0 a1 a2 a3 a4)

def r_v94 (a0 : FVec F S4194304x3 .f32) (a1 : FVec F S2x3 .f32) (a2 : FVec F S256x256x256 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (r_v74 a0 a1 a2 a3 a4) (r_v91 a0 a1 a2 a3 a4)

def r_v95 (a0 : FVec F S4194304x3 .f32) (a1 : FVec F S2x3 .f32) (a2 : FVec F S256x256x256 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (r_v82 a0 a1 a2 a3 a4) (r_v92 a0 a1 a2 a3 a4)

def r_v96 (a0 : FVec F S4194304x3 .f32) (a1 : FVec F S2x3 .f32) (a2 : FVec F S256x256x256 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (r_v90 a0 a1 a2 a3 a4) (r_v93 a0 a1 a2 a3 a4)

def r_v97 (a0 : FVec F S4194304x3 .f32) (a1 : FVec F S2x3 .f32) (a2 : FVec F S256x256x256 .f32) (a3 a4 : FVec F S64x3 .f32) :=
  (fptosi 32 : (⟨S4194304, .f32⟩ : BufTy).Contents (Elt F) → (⟨S4194304, .i32⟩ : BufTy).Contents (Elt F)) (r_v91 a0 a1 a2 a3 a4)

def r_v98 (a0 : FVec F S4194304x3 .f32) (a1 : FVec F S2x3 .f32) (a2 : FVec F S256x256x256 .f32) (a3 a4 : FVec F S64x3 .f32) :=
  (fptosi 32 : (⟨S4194304, .f32⟩ : BufTy).Contents (Elt F) → (⟨S4194304, .i32⟩ : BufTy).Contents (Elt F)) (r_v92 a0 a1 a2 a3 a4)

def r_v99 (a0 : FVec F S4194304x3 .f32) (a1 : FVec F S2x3 .f32) (a2 : FVec F S256x256x256 .f32) (a3 a4 : FVec F S64x3 .f32) :=
  (fptosi 32 : (⟨S4194304, .f32⟩ : BufTy).Contents (Elt F) → (⟨S4194304, .i32⟩ : BufTy).Contents (Elt F)) (r_v93 a0 a1 a2 a3 a4)

def r_cst_25 (a0 : FVec F S4194304x3 .f32) (a1 : FVec F S2x3 .f32) (a2 : FVec F S256x256x256 .f32) (a3 a4 : FVec F S64x3 .f32) :=
  (constant (F := F) S_ .f32 0x00000000#32)

def r_v100 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_25 a0 a1 a2 a3 a4)

def r_cst_26 (a0 : FVec F S4194304x3 .f32) (a1 : FVec F S2x3 .f32) (a2 : FVec F S256x256x256 .f32) (a3 a4 : FVec F S64x3 .f32) :=
  (constant (F := F) S_ .f32 0x3F800000#32)

def r_v101 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_26 a0 a1 a2 a3 a4)

def r_v102 (a0 : FVec F S4194304x3 .f32) (a1 : FVec F S2x3 .f32) (a2 : FVec F S256x256x256 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (r_v101 a0 a1 a2 a3 a4) (r_v96 a0 a1 a2 a3 a4)

def r_cst_27 (a0 : FVec F S4194304x3 .f32) (a1 : FVec F S2x3 .f32) (a2 : FVec F S256x256x256 .f32) (a3 a4 : FVec F S64x3 .f32) :=
  (constant (F := F) S_ .f32 0x3F800000#32)

def r_v103 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_27 a0 a1 a2 a3 a4)

def r_v104 (a0 : FVec F S4194304x3 .f32) (a1 : FVec F S2x3 .f32) (a2 : FVec F S256x256x256 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (r_v103 a0 a1 a2 a3 a4) (r_v95 a0 a1 a2 a3 a4)

def r_cst_28 (a0 : FVec F S4194304x3 .f32) (a1 : FVec F S2x3 .f32) (a2 : FVec F S256x256x256 .f32) (a3 a4 : FVec F S64x3 .f32) :=
  (constant (F := F) S_ .f32 0x3F800000#32)

def r_v105 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_28 a0 a1 a2 a3 a4)

def r_v106 (a0 : FVec F S4194304x3 .f32) (a1 : FVec F S2x3 .f32) (a2 : FVec F S256x256x256 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (r_v105 a0 a1 a2 a3 a4) (r_v94 a0 a1 a2 a3 a4)

def r_v107 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v102 a0 a1 a2 a3 a4) (r_v104 a0 a1 a2 a3 a4)

def r_v108 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v107 a0 a1 a2 a3 a4) (r_v106 a0 a1 a2 a3 a4)

def r_c_29 (a0 : FVec F S4194304x3 .f32) (a1 : FVec F S2x3 .f32) (a2 : FVec F S256x256x256 .f32) (a3 a4 : FVec F S64x3 .f32) :=
  (constantI S_ 32 0#32)

def r_v109 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_29 a0 a1 a2 a3 a4)

def r_v110 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v99 a0 a1 a2 a3 a4) (r_v109 a0 a1 a2 a3 a4)

def r_c_30 (a0 : FVec F S4194304x3 .f32) (a1 : FVec F S2x3 .f32) (a2 : FVec F S256x256x256 .f32) (a3 a4 : FVec F S64x3 .f32) :=
  (constantI S_ 32 0#32)

def r_v111 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_30 a0 a1 a2 a3 a4)

def r_v112 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v98 a0 a1 a2 a3 a4) (r_v111 a0 a1 a2 a3 a4)

def r_c_31 (a0 : FVec F S4194304x3 .f32) (a1 : FVec F S2x3 .f32) (a2 : FVec F S256x256x256 .f32) (a3 a4 : FVec F S64x3 .f32) :=
  (constantI S_ 32 0#32)

def r_v113 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_31 a0 a1 a2 a3 a4)

def r_v114 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v97 a0 a1 a2 a3 a4) (r_v113 a0 a1 a2 a3 a4)

def r_c_32 (a0 : FVec F S4194304x3 .f32) (a1 : FVec F S2x3 .f32) (a2 : FVec F S256x256x256 .f32) (a3 a4 : FVec F S64x3 .f32) :=
  (constantI S_ 32 0#32)

def r_v115 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_32 a0 a1 a2 a3 a4)

def r_v116 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v110 a0 a1 a2 a3 a4) (r_v115 a0 a1 a2 a3 a4)

def r_c_33 (a0 : FVec F S4194304x3 .f32) (a1 : FVec F S2x3 .f32) (a2 : FVec F S256x256x256 .f32) (a3 a4 : FVec F S64x3 .f32) :=
  (constantI S_ 32 64#32)

def r_v117 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_33 a0 a1 a2 a3 a4)

def r_v118 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v110 a0 a1 a2 a3 a4) (r_v117 a0 a1 a2 a3 a4)

def r_v119 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v116 a0 a1 a2 a3 a4) (r_v118 a0 a1 a2 a3 a4)

def r_c_34 (a0 : FVec F S4194304x3 .f32) (a1 : FVec F S2x3 .f32) (a2 : FVec F S256x256x256 .f32) (a3 a4 : FVec F S64x3 .f32) :=
  (constantI S_ 32 0#32)

def r_v120 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_34 a0 a1 a2 a3 a4)

def r_v121 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v112 a0 a1 a2 a3 a4) (r_v120 a0 a1 a2 a3 a4)

def r_v122 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v119 a0 a1 a2 a3 a4) (r_v121 a0 a1 a2 a3 a4)

def r_c_35 (a0 : FVec F S4194304x3 .f32) (a1 : FVec F S2x3 .f32) (a2 : FVec F S256x256x256 .f32) (a3 a4 : FVec F S64x3 .f32) :=
  (constantI S_ 32 64#32)

def r_v123 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_35 a0 a1 a2 a3 a4)

def r_v124 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v112 a0 a1 a2 a3 a4) (r_v123 a0 a1 a2 a3 a4)

def r_v125 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v122 a0 a1 a2 a3 a4) (r_v124 a0 a1 a2 a3 a4)

def r_c_36 (a0 : FVec F S4194304x3 .f32) (a1 : FVec F S2x3 .f32) (a2 : FVec F S256x256x256 .f32) (a3 a4 : FVec F S64x3 .f32) :=
  (constantI S_ 32 0#32)

def r_v126 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_36 a0 a1 a2 a3 a4)

def r_v127 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v114 a0 a1 a2 a3 a4) (r_v126 a0 a1 a2 a3 a4)

def r_v128 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v125 a0 a1 a2 a3 a4) (r_v127 a0 a1 a2 a3 a4)

def r_c_37 (a0 : FVec F S4194304x3 .f32) (a1 : FVec F S2x3 .f32) (a2 : FVec F S256x256x256 .f32) (a3 a4 : FVec F S64x3 .f32) :=
  (constantI S_ 32 64#32)

def r_v129 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_37 a0 a1 a2 a3 a4)

def r_v130 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v114 a0 a1 a2 a3 a4) (r_v129 a0 a1 a2 a3 a4)

def r_v131 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v128 a0 a1 a2 a3 a4) (r_v130 a0 a1 a2 a3 a4)

def r_c_38 (a0 : FVec F S4194304x3 .f32) (a1 : FVec F S2x3 .f32) (a2 : FVec F S256x256x256 .f32) (a3 a4 : FVec F S64x3 .f32) :=
  (constantI S_ 32 0#32)

def r_c_39 (a0 : FVec F S4194304x3 .f32) (a1 : FVec F S2x3 .f32) (a2 : FVec F S256x256x256 .f32) (a3 a4 : FVec F S64x3 .f32) :=
  (constantI S_ 32 63#32)

def r_call2_v0 (a0 : FVec F S4194304x3 .f32) (a1 : FVec F S2x3 .f32) (a2 : FVec F S256x256x256 .f32) (a3 a4 : FVec F S64x3 .f32) :=
  id (r_c_38 a0 a1 a2 a3 a4)

def r_call2_v1 (a0 : FVec F S4194304x3 .f32) (a1 : FVec F S2x3 .f32) (a2 : FVec F S256x256x256 .f32) (a3 a4 : FVec F S64x3 .f32) :=
  (broadcastInDim S4194304 ![] bcast_S_S4194304) (r_call2_v0 a0 a1 a2 a3 a4)

def r_call2_v2 (a0 : FVec F S4194304x3 .f32) (a1 : FVec F S2x3 .f32) (a2 : FVec F S256x256x256 .f32) (a3 a4 : FVec F S64x3 .f32) :=
  maxsi (r_call2_v1 a0 a1 a2 a3 a4) (r_v110 a0 a1 a2 a3 a4)

def r_call2_v3 (a0 : FVec F S4194304x3 .f32) (a1 : FVec F S2x3 .f32) (a2 : FVec F S256x256x256 .f32) (a3 a4 : FVec F S64x3 .f32) :=
  id (r_c_39 a0 a1 a2 a3 a4)

def r_call2_v4 (a0 : FVec F S4194304x3 .f32) (a1 : FVec F S2x3 .f32) (a2 : FVec F S256x256x256 .f32) (a3 a4 : FVec F S64x3 .f32) :=
  (broadcastInDim S4194304 ![] bcast_S_S4194304) (r_call2_v3 a0 a1 a2 a3 a4)

def r_v132 (a0 : FVec F S4194304x3 .f32) (a1 : FVec F S2x3 .f32) (a2 : FVec F S256x256x256 .f32) (a3 a4 : FVec F S64x3 .f32) :=
  minsi (r_call2_v4 a0 a1 a2 a3 a4) (r_call2_v2 a0 a1 a2 a3 a4)

def r_c_40 (a0 : FVec F S4194304x3 .f32) (a1 : FVec F S2x3 .f32) (a2 : FVec F S256x256x256 .f32) (a3 a4 : FVec F S64x3 .f32) :=
  (constantI S_ 32 0#32)

def r_c_41 (a0 : FVec F S4194304x3 .f32) (a1 : FVec F S2x3 .f32) (a2 : FVec F S256x256x256 .f32) (a3 a4 : FVec F S64x3 .f32) :=
  (constantI S_ 32 63#32)

def r_call3_v0 (a0 : FVec F S4194304x3 .f32) (a1 : FVec F S2x3 .f32) (a2 : FVec F S256x256x256 .f32) (a3 a4 : FVec F S64x3 .f32) :=
  id (r_c_40 a0 a1 a2 a3 a4)

def r_call3_v1 (a0 : FVec F S4194304x3 .f32) (a1 : FVec F S2x3 .f32) (a2 : FVec F S256x256x256 .f32) (a3 a4 : FVec F S64x3 .f32) :=
  (broadcastInDim S4194304 ![] bcast_S_S4194304) (r_call3_v0 a0 a1 a2 a3 a4)

def r_call3_v2 (a0 : FVec F S4194304x3 .f32) (a1 : FVec F S2x3 .f32) (a2 : FVec F S256x256x256 .f32) (a3 a4 : FVec F S64x3 .f32) :=
  maxsi (r_call3_v1 a0 a1 a2 a3 a4) (r_v112 a0 a1 a2 a3 a4)

def r_call3_v3 (a0 : FVec F S4194304x3 .f32) (a1 : FVec F S2x3 .f32) (a2 : FVec F S256x256x256 .f32) (a3 a4 : FVec F S64x3 .f32) :=
  id (r_c_41 a0 a1 a2 a3 a4)

def r_call3_v4 (a0 : FVec F S4194304x3 .f32) (a1 : FVec F S2x3 .f32) (a2 : FVec F S256x256x256 .f32) (a3 a4 : FVec F S64x3 .f32) :=
  (broadcastInDim S4194304 ![] bcast_S_S4194304) (r_call3_v3 a0 a1 a2 a3 a4)

def r_v133 (a0 : FVec F S4194304x3 .f32) (a1 : FVec F S2x3 .f32) (a2 : FVec F S256x256x256 .f32) (a3 a4 : FVec F S64x3 .f32) :=
  minsi (r_call3_v4 a0 a1 a2 a3 a4) (r_call3_v2 a0 a1 a2 a3 a4)

def r_c_42 (a0 : FVec F S4194304x3 .f32) (a1 : FVec F S2x3 .f32) (a2 : FVec F S256x256x256 .f32) (a3 a4 : FVec F S64x3 .f32) :=
  (constantI S_ 32 0#32)

def r_c_43 (a0 : FVec F S4194304x3 .f32) (a1 : FVec F S2x3 .f32) (a2 : FVec F S256x256x256 .f32) (a3 a4 : FVec F S64x3 .f32) :=
  (constantI S_ 32 63#32)

def r_call4_v0 (a0 : FVec F S4194304x3 .f32) (a1 : FVec F S2x3 .f32) (a2 : FVec F S256x256x256 .f32) (a3 a4 : FVec F S64x3 .f32) :=
  id (r_c_42 a0 a1 a2 a3 a4)

def r_call4_v1 (a0 : FVec F S4194304x3 .f32) (a1 : FVec F S2x3 .f32) (a2 : FVec F S256x256x256 .f32) (a3 a4 : FVec F S64x3 .f32) :=
  (broadcastInDim S4194304 ![] bcast_S_S4194304) (r_call4_v0 a0 a1 a2 a3 a4)

def r_call4_v2 (a0 : FVec F S4194304x3 .f32) (a1 : FVec F S2x3 .f32) (a2 : FVec F S256x256x256 .f32) (a3 a4 : FVec F S64x3 .f32) :=
  maxsi (r_call4_v1 a0 a1 a2 a3 a4) (r_v114 a0 a1 a2 a3 a4)

def r_call4_v3 (a0 : FVec F S4194304x3 .f32) (a1 : FVec F S2x3 .f32) (a2 : FVec F S256x256x256 .f32) (a3 a4 : FVec F S64x3 .f32) :=
  id (r_c_43 a0 a1 a2 a3 a4)

def r_call4_v4 (a0 : FVec F S4194304x3 .f32) (a1 : FVec F S2x3 .f32) (a2 : FVec F S256x256x256 .f32) (a3 a4 : FVec F S64x3 .f32) :=
  (broadcastInDim S4194304 ![] bcast_S_S4194304) (r_call4_v3 a0 a1 a2 a3 a4)

def r_v134 (a0 : FVec F S4194304x3 .f32) (a1 : FVec F S2x3 .f32) (a2 : FVec F S256x256x256 .f32) (a3 a4 : FVec F S64x3 .f32) :=
  minsi (r_call4_v4 a0 a1 a2 a3 a4) (r_call4_v2 a0 a1 a2 a3 a4)

def r_c_44 (a0 : FVec F S4194304x3 .f32) (a1 : FVec F S2x3 .f32) (a2 : FVec F S256x256x256 .f32) (a3 a4 : FVec F S64x3 .f32) :=
  (constantI S_ 32 0#32)

def r_v135 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_44 a0 a1 a2 a3 a4)

def r_v136 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v30 a0 a1 a2 a3 a4) (r_v135 a0 a1 a2 a3 a4)

def r_c_45 (a0 : FVec F S4194304x3 .f32) (a1 : FVec F S2x3 .f32) (a2 : FVec F S256x256x256 .f32) (a3 a4 : FVec F S64x3 .f32) :=
  (constantI S_ 32 64#32)

def r_v137 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_45 a0 a1 a2 a3 a4)

def r_v138 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v30 a0 a1 a2 a3 a4) (r_v137 a0 a1 a2 a3 a4)

def r_v139 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v136 a0 a1 a2 a3 a4) (r_v138 a0 a1 a2 a3 a4) (r_v30 a0 a1 a2 a3 a4)

def r_c_46 (a0 : FVec F S4194304x3 .f32) (a1 : FVec F S2x3 .f32) (a2 : FVec F S256x256x256 .f32) (a3 a4 : FVec F S64x3 .f32) :=
  (constantI S_ 32 0#32)

def r_v140 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_46 a0 a1 a2 a3 a4)

def r_v141 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v132 a0 a1 a2 a3 a4) (r_v140 a0 a1 a2 a3 a4)

def r_c_47 (a0 : FVec F S4194304x3 .f32) (a1 : FVec F S2x3 .f32) (a2 : FVec F S256x256x256 .f32) (a3 a4 : FVec F S64x3 .f32) :=
  (constantI S_ 32 64#32)

def r_v142 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_47 a0 a1 a2 a3 a4)

def r_v143 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v132 a0 a1 a2 a3 a4) (r_v142 a0 a1 a2 a3 a4)

def r_v144 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v141 a0 a1 a2 a3 a4) (r_v143 a0 a1 a2 a3 a4) (r_v132 a0 a1 a2 a3 a4)

def r_c_48 (a0 : FVec F S4194304x3 .f32) (a1 : FVec F S2x3 .f32) (a2 : FVec F S256x256x256 .f32) (a3 a4 : FVec F S64x3 .f32) :=
  (constantI S_ 32 0#32)

def r_v145 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_48 a0 a1 a2 a3 a4)

def r_v146 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v133 a0 a1 a2 a3 a4) (r_v145 a0 a1 a2 a3 a4)

def r_c_49 (a0 : FVec F S4194304x3 .f32) (a1 : FVec F S2x3 .f32) (a2 : FVec F S256x256x256 .f32) (a3 a4 : FVec F S64x3 .f32) :=
  (constantI S_ 32 64#32)

def r_v147 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_49 a0 a1 a2 a3 a4)

def r_v148 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v133 a0 a1 a2 a3 a4) (r_v147 a0 a1 a2 a3 a4)

def r_v149 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v146 a0 a1 a2 a3 a4) (r_v148 a0 a1 a2 a3 a4) (r_v133 a0 a1 a2 a3 a4)

def r_c_50 (a0 : FVec F S4194304x3 .f32) (a1 : FVec F S2x3 .f32) (a2 : FVec F S256x256x256 .f32) (a3 a4 : FVec F S64x3 .f32) :=
  (constantI S_ 32 0#32)

def r_v150 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_50 a0 a1 a2 a3 a4)

def r_v151 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v134 a0 a1 a2 a3 a4) (r_v150 a0 a1 a2 a3 a4)

def r_c_51 (a0 : FVec F S4194304x3 .f32) (a1 : FVec F S2x3 .f32) (a2 : FVec F S256x256x256 .f32) (a3 a4 : FVec F S64x3 .f32) :=
  (constantI S_ 32 64#32)

def r_v152 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_51 a0 a1 a2 a3 a4)

def r_v153 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v134 a0 a1 a2 a3 a4) (r_v152 a0 a1 a2 a3 a4)

def r_v154 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v151 a0 a1 a2 a3 a4) (r_v153 a0 a1 a2 a3 a4) (r_v134 a0 a1 a2 a3 a4)

def r_v155 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v139 a0 a1 a2 a3 a4)

def r_v156 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v144 a0 a1 a2 a3 a4)

def r_v157 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v149 a0 a1 a2 a3 a4)

def r_v158 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v154 a0 a1 a2 a3 a4)

def r_v159 (a0 : FVec F S4194304x3 .f32) (a1 : FVec F S2x3 .f32) (a2 : FVec F S256x256x256 .f32) (a3 a4 : FVec F S64x3 .f32) :=
  (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ![(r_v155 a0 a1 a2 a3 a4), (r_v156 a0 a1 a2 a3 a4), (r_v157 a0 a1 a2 a3 a4), (r_v158 a0 a1 a2 a3 a4)]

def r_v160 (a0 : FVec F S4194304x3 .f32) (a1 : FVec F S2x3 .f32) (a2 : FVec F S256x256x256 .f32) (a3 a4 : FVec F S64x3 .f32) :=
  ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)) (r_v66 a0 a1 a2 a3 a4) (r_v159 a0 a1 a2 a3 a4)

def r_cst_52 (a0 : FVec F S4194304x3 .f32) (a1 : FVec F S2x3 .f32) (a2 : FVec F S256x256x256 .f32) (a3 a4 : FVec F S64x3 .f32) :=
  (constant (F := F) S_ .f32 0x00000000#32)

def r_call5_v0 (a0 : FVec F S4194304x3 .f32) (a1 : FVec F S2x3 .f32) (a2 : FVec F S256x256x256 .f32) (a3 a4 : FVec F S64x3 .f32) :=
  id (r_cst_52 a0 a1 a2 a3 a4)

def r_call5_v1 (a0 : FVec F S4194304x3 .f32) (a1 : FVec F S2x3 .f32) (a2 : FVec F S256x256x256 .f32) (a3 a4 : FVec F S64x3 .f32) :=
  (broadcastInDim S4194304 ![] bcast_S_S4194304) (r_call5_v0 a0 a1 a2 a3 a4)

def r_v161 (a0 : FVec F S4194304x3 .f32) (a1 : FVec F S2x3 .f32) (a2 : FVec F S256x256x256 .f32) (a3 a4 : FVec F S64x3 .f32) :=
  select (r_v131 a0 a1 a2 a3 a4) (r_v160 a0 a1 a2 a3 a4) (r_call5_v1 a0 a1 a2 a3 a4)

def r_v162 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v108 a0 a1 a2 a3 a4) (r_v161 a0 a1 a2 a3 a4)

def r_v163 (a0 : FVec F S4194304x3 .f32) (a1 : FVec F S2x3 .f32) (a2 : FVec F S256x256x256 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (r_v100 a0 a1 a2 a3 a4) (r_v162 a0 a1 a2 a3 a4)

def r_v164 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v102 a0 a1 a2 a3 a4) (r_v104 a0 a1 a2 a3 a4)

def r_v165 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v164 a0 a1 a2 a3 a4) (r_v94 a0 a1 a2 a3 a4)

def r_c_53 (a0 : FVec F S4194304x3 .f32) (a1 : FVec F S2x3 .f32) (a2 : FVec F S256x256x256 .f32) (a3 a4 : FVec F S64x3 .f32) :=
  (constantI S_ 32 0#32)

def r_v166 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_53 a0 a1 a2 a3 a4)

def r_v167 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v99 a0 a1 a2 a3 a4) (r_v166 a0 a1 a2 a3 a4)

def r_c_54 (a0 : FVec F S4194304x3 .f32) (a1 : FVec F S2x3 .f32) (a2 : FVec F S256x256x256 .f32) (a3 a4 : FVec F S64x3 .f32) :=
  (constantI S_ 32 0#32)

def r_v168 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_54 a0 a1 a2 a3 a4)

def r_v169 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v98 a0 a1 a2 a3 a4) (r_v168 a0 a1 a2 a3 a4)

def r_c_55 (a0 : FVec F S4194304x3 .f32) (a1 : FVec F S2x3 .f32) (a2 : FVec F S256x256x256 .f32) (a3 a4 : FVec F S64x3 .f32) :=
  (constantI S_ 32 1#32)

def r_v170 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_55 a0 a1 a2 a3 a4)

def r_v171 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v97 a0 a1 a2 a3 a4) (r_v170 a0 a1 a2 a3 a4)

def r_c_56 (a0 : FVec F S4194304x3 .f32) (a1 : FVec F S2x3 .f32) (a2 : FVec F S256x256x256 .f32) (a3 a4 : FVec F S64x3 .f32) :=
  (constantI S_ 32 0#32)

def r_v172 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_56 a0 a1 a2 a3 a4)

def r_v173 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v167 a0 a1 a2 a3 a4) (r_v172 a0 a1 a2 a3 a4)

def r_c_57 (a0 : FVec F S4194304x3 .f32) (a1 : FVec F S2x3 .f32) (a2 : FVec F S256x256x256 .f32) (a3 a4 : FVec F S64x3 .f32) :=
  (constantI S_ 32 64#32)

def r_v174 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_57 a0 a1 a2 a3 a4)

def r_v175 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v167 a0 a1 a2 a3 a4) (r_v174 a0 a1 a2 a3 a4)

def r_v176 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v173 a0 a1 a2 a3 a4) (r_v175 a0 a1 a2 a3 a4)

def r_c_58 (a0 : FVec F S4194304x3 .f32) (a1 : FVec F S2x3 .f32) (a2 : FVec F S256x256x256 .f32) (a3 a4 : FVec F S64x3 .f32) :=
  (constantI S_ 32 0#32)

def r_v177 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_58 a0 a1 a2 a3 a4)

def r_v178 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v169 a0 a1 a2 a3 a4) (r_v177 a0 a1 a2 a3 a4)

def r_v179 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v176 a0 a1 a2 a3 a4) (r_v178 a0 a1 a2 a3 a4)

def r_c_59 (a0 : FVec F S4194304x3 .f32) (a1 : FVec F S2x3 .f32) (a2 : FVec F S256x256x256 .f32) (a3 a4 : FVec F S64x3 .f32) :=
  (constantI S_ 32 64#32)

def r_v180 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_59 a0 a1 a2 a3 a4)

def r_v181 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v169 a0 a1 a2 a3 a4) (r_v180 a0 a1 a2 a3 a4)

def r_v182 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v179 a0 a1 a2 a3 a4) (r_v181 a0 a1 a2 a3 a4)

def r_c_60 (a0 : FVec F S4194304x3 .f32) (a1 : FVec F S2x3 .f32) (a2 : FVec F S256x256x256 .f32) (a3 a4 : FVec F S64x3 .f32) :=
  (constantI S_ 32 0#32)

def r_v183 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_60 a0 a1 a2 a3 a4)

def r_v184 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v171 a0 a1 a2 a3 a4) (r_v183 a0 a1 a2 a3 a4)

def r_v185 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v182 a0 a1 a2 a3 a4) (r_v184 a0 a1 a2 a3 a4)

def r_c_61 (a0 : FVec F S4194304x3 .f32) (a1 : FVec F S2x3 .f32) (a2 : FVec F S256x256x256 .f32) (a3 a4 : FVec F S64x3 .f32) :=
  (constantI S_ 32 64#32)

def r_v186 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_61 a0 a1 a2 a3 a4)

def r_v187 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v171 a0 a1 a2 a3 a4) (r_v186 a0 a1 a2 a3 a4)

def r_v188 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v185 a0 a1 a2 a3 a4) (r_v187 a0 a1 a2 a3 a4)

def r_c_62 (a0 : FVec F S4194304x3 .f32) (a1 : FVec F S2x3 .f32) (a2 : FVec F S256x256x256 .f32) (a3 a4 : FVec F S64x3 .f32) :=
  (constantI S_ 32 0#32)

def r_c_63 (a0 : FVec F S4194304x3 .f32) (a1 : FVec F S2x3 .f32) (a2 : FVec F S256x256x256 .f32) (a3 a4 : FVec F S64x3 .f32) :=
  (constantI S_ 32 63#32)

def r_call6_v0 (a0 : FVec F S4194304x3 .f32) (a1 : FVec F S2x3 .f32) (a2 : FVec F S256x256x256 .f32) (a3 a4 : FVec F S64x3 .f32) :=
  id (r_c_62 a0 a1 a2 a3 a4)

def r_call6_v1 (a0 : FVec F S4194304x3 .f32) (a1 : FVec F S2x3 .f32) (a2 : FVec F S256x256x256 .f32) (a3 a4 : FVec F S64x3 .f32) :=
  (broadcastInDim S4194304 ![] bcast_S_S4194304) (r_call6_v0 a0 a1 a2 a3 a4)

def r_call6_v2 (a0 : FVec F S4194304x3 .f32) (a1 : FVec F S2x3 .f32) (a2 : FVec F S256x256x256 .f32) (a3 a4 : FVec F S64x3 .f32) :=
  maxsi (r_call6_v1 a0 a1 a2 a3 a4) (r_v167 a0 a1 a2 a3 a4)

def r_call6_v3 (a0 : FVec F S4194304x3 .f32) (a1 : FVec F S2x3 .f32) (a2 : FVec F S256x256x256 .f32) (a3 a4 : FVec F S64x3 .f32) :=
  id (r_c_63 a0 a1 a2 a3 a4)

def r_call6_v4 (a0 : FVec F S4194304x3 .f32) (a1 : FVec F S2x3 .f32) (a2 : FVec F S256x256x256 .f32) (a3 a4 : FVec F S64x3 .f32) :=
  (broadcastInDim S4194304 ![] bcast_S_S4194304) (r_call6_v3 a0 a1 a2 a3 a4)

def r_v189 (a0 : FVec F S4194304x3 .f32) (a1 : FVec F S2x3 .f32) (a2 : FVec F S256x256x256 .f32) (a3 a4 : FVec F S64x3 .f32) :=
  minsi (r_call6_v4 a0 a1 a2 a3 a4) (r_call6_v2 a0 a1 a2 a3 a4)

def r_c_64 (a0 : FVec F S4194304x3 .f32) (a1 : FVec F S2x3 .f32) (a2 : FVec F S256x256x256 .f32) (a3 a4 : FVec F S64x3 .f32) :=
  (constantI S_ 32 0#32)

def r_c_65 (a0 : FVec F S4194304x3 .f32) (a1 : FVec F S2x3 .f32) (a2 : FVec F S256x256x256 .f32) (a3 a4 : FVec F S64x3 .f32) :=
  (constantI S_ 32 63#32)

def r_call7_v0 (a0 : FVec F S4194304x3 .f32) (a1 : FVec F S2x3 .f32) (a2 : FVec F S256x256x256 .f32) (a3 a4 : FVec F S64x3 .f32) :=
  id (r_c_64 a0 a1 a2 a3 a4)

def r_call7_v1 (a0 : FVec F S4194304x3 .f32) (a1 : FVec F S2x3 .f32) (a2 : FVec F S256x256x256 .f32) (a3 a4 : FVec F S64x3 .f32) :=
  (broadcastInDim S4194304 ![] bcast_S_S4194304) (r_call7_v0 a0 a1 a2 a3 a4)

def r_call7_v2 (a0 : FVec F S4194304x3 .f32) (a1 : FVec F S2x3 .f32) (a2 : FVec F S256x256x256 .f32) (a3 a4 : FVec F S64x3 .f32) :=
  maxsi (r_call7_v1 a0 a1 a2 a3 a4) (r_v169 a0 a1 a2 a3 a4)

def r_call7_v3 (a0 : FVec F S4194304x3 .f32) (a1 : FVec F S2x3 .f32) (a2 : FVec F S256x256x256 .f32) (a3 a4 : FVec F S64x3 .f32) :=
  id (r_c_65 a0 a1 a2 a3 a4)

def r_call7_v4 (a0 : FVec F S4194304x3 .f32) (a1 : FVec F S2x3 .f32) (a2 : FVec F S256x256x256 .f32) (a3 a4 : FVec F S64x3 .f32) :=
  (broadcastInDim S4194304 ![] bcast_S_S4194304) (r_call7_v3 a0 a1 a2 a3 a4)

def r_v190 (a0 : FVec F S4194304x3 .f32) (a1 : FVec F S2x3 .f32) (a2 : FVec F S256x256x256 .f32) (a3 a4 : FVec F S64x3 .f32) :=
  minsi (r_call7_v4 a0 a1 a2 a3 a4) (r_call7_v2 a0 a1 a2 a3 a4)

def r_c_66 (a0 : FVec F S4194304x3 .f32) (a1 : FVec F S2x3 .f32) (a2 : FVec F S256x256x256 .f32) (a3 a4 : FVec F S64x3 .f32) :=
  (constantI S_ 32 0#32)

def r_c_67 (a0 : FVec F S4194304x3 .f32) (a1 : FVec F S2x3 .f32) (a2 : FVec F S256x256x256 .f32) (a3 a4 : FVec F S64x3 .f32) :=
  (constantI S_ 32 63#32)

def r_call8_v0 (a0 : FVec F S4194304x3 .f32) (a1 : FVec F S2x3 .f32) (a2 : FVec F S256x256x256 .f32) (a3 a4 : FVec F S64x3 .f32) :=
  id (r_c_66 a0 a1 a2 a3 a4)

def r_call8_v1 (a0 : FVec F S4194304x3 .f32) (a1 : FVec F S2x3 .f32) (a2 : FVec F S256x256x256 .f32) (a3 a4 : FVec F S64x3 .f32) :=
  (broadcastInDim S4194304 ![] bcast_S_S4194304) (r_call8_v0 a0 a1 a2 a3 a4)

def r_call8_v2 (a0 : FVec F S4194304x3 .f32) (a1 : FVec F S2x3 .f32) (a2 : FVec F S256x256x256 .f32) (a3 a4 : FVec F S64x3 .f32) :=
  maxsi (r_call8_v1 a0 a1 a2 a3 a4) (r_v171 a0 a1 a2 a3 a4)

def r_call8_v3 (a0 : FVec F S4194304x3 .f32) (a1 : FVec F S2x3 .f32) (a2 : FVec F S256x256x256 .f32) (a3 a4 : FVec F S64x3 .f32) :=
  id (r_c_67 a0 a1 a2 a3 a4)

def r_call8_v4 (a0 : FVec F S4194304x3 .f32) (a1 : FVec F S2x3 .f32) (a2 : FVec F S256x256x256 .f32) (a3 a4 : FVec F S64x3 .f32) :=
  (broadcastInDim S4194304 ![] bcast_S_S4194304) (r_call8_v3 a0 a1 a2 a3 a4)

def r_v191 (a0 : FVec F S4194304x3 .f32) (a1 : FVec F S2x3 .f32) (a2 : FVec F S256x256x256 .f32) (a3 a4 : FVec F S64x3 .f32) :=
  minsi (r_call8_v4 a0 a1 a2 a3 a4) (r_call8_v2 a0 a1 a2 a3 a4)

def r_c_68 (a0 : FVec F S4194304x3 .f32) (a1 : FVec F S2x3 .f32) (a2 : FVec F S256x256x256 .f32) (a3 a4 : FVec F S64x3 .f32) :=
  (constantI S_ 32 0#32)

def r_v192 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_68 a0 a1 a2 a3 a4)

def r_v193 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v30 a0 a1 a2 a3 a4) (r_v192 a0 a1 a2 a3 a4)

def r_c_69 (a0 : FVec F S4194304x3 .f32) (a1 : FVec F S2x3 .f32) (a2 : FVec F S256x256x256 .f32) (a3 a4 : FVec F S64x3 .f32) :=
  (constantI S_ 32 64#32)

def r_v194 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_69 a0 a1 a2 a3 a4)

def r_v195 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v30 a0 a1 a2 a3 a4) (r_v194 a0 a1 a2 a3 a4)

def r_v196 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v193 a0 a1 a2 a3 a4) (r_v195 a0 a1 a2 a3 a4) (r_v30 a0 a1 a2 a3 a4)

def r_c_70 (a0 : FVec F S4194304x3 .f32) (a1 : FVec F S2x3 .f32) (a2 : FVec F S256x256x256 .f32) (a3 a4 : FVec F S64x3 .f32) :=
  (constantI S_ 32 0#32)

def r_v197 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_70 a0 a1 a2 a3 a4)

def r_v198 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v189 a0 a1 a2 a3 a4) (r_v197 a0 a1 a2 a3 a4)

def r_c_71 (a0 : FVec F S4194304x3 .f32) (a1 : FVec F S2x3 .f32) (a2 : FVec F S256x256x256 .f32) (a3 a4 : FVec F S64x3 .f32) :=
  (constantI S_ 32 64#32)

def r_v199 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_71 a0 a1 a2 a3 a4)

def r_v200 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v189 a0 a1 a2 a3 a4) (r_v199 a0 a1 a2 a3 a4)

def r_v201 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v198 a0 a1 a2 a3 a4) (r_v200 a0 a1 a2 a3 a4) (r_v189 a0 a1 a2 a3 a4)

def r_c_72 (a0 : FVec F S4194304x3 .f32) (a1 : FVec F S2x3 .f32) (a2 : FVec F S256x256x256 .f32) (a3 a4 : FVec F S64x3 .f32) :=
  (constantI S_ 32 0#32)

def r_v202 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_72 a0 a1 a2 a3 a4)

def r_v203 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v190 a0 a1 a2 a3 a4) (r_v202 a0 a1 a2 a3 a4)

def r_c_73 (a0 : FVec F S4194304x3 .f32) (a1 : FVec F S2x3 .f32) (a2 : FVec F S256x256x256 .f32) (a3 a4 : FVec F S64x3 .f32) :=
  (constantI S_ 32 64#32)

def r_v204 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_73 a0 a1 a2 a3 a4)

def r_v205 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v190 a0 a1 a2 a3 a4) (r_v204 a0 a1 a2 a3 a4)

def r_v206 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v203 a0 a1 a2 a3 a4) (r_v205 a0 a1 a2 a3 a4) (r_v190 a0 a1 a2 a3 a4)

def r_c_74 (a0 : FVec F S4194304x3 .f32) (a1 : FVec F S2x3 .f32) (a2 : FVec F S256x256x256 .f32) (a3 a4 : FVec F S64x3 .f32) :=
  (constantI S_ 32 0#32)

def r_v207 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_74 a0 a1 a2 a3 a4)

def r_v208 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v191 a0 a1 a2 a3 a4) (r_v207 a0 a1 a2 a3 a4)

def r_c_75 (a0 : FVec F S4194304x3 .f32) (a1 : FVec F S2x3 .f32) (a2 : FVec F S256x256x256 .f32) (a3 a4 : FVec F S64x3 .f32) :=
  (constantI S_ 32 64#32)

def r_v209 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_75 a0 a1 a2 a3 a4)

def r_v210 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v191 a0 a1 a2 a3 a4) (r_v209 a0 a1 a2 a3 a4)

def r_v211 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v208 a0 a1 a2 a3 a4) (r_v210 a0 a1 a2 a3 a4) (r_v191 a0 a1 a2 a3 a4)

def r_v212 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v196 a0 a1 a2 a3 a4)

def r_v213 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v201 a0 a1 a2 a3 a4)

def r_v214 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v206 a0 a1 a2 a3 a4)

def r_v215 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v211 a0 a1 a2 a3 a4)

def r_v216 (a0 : FVec F S4194304x3 .f32) (a1 : FVec F S2x3 .f32) (a2 : FVec F S256x256x256 .f32) (a3 a4 : FVec F S64x3 .f32) :=
  (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ![(r_v212 a0 a1 a2 a3 a4), (r_v213 a0 a1 a2 a3 a4), (r_v214 a0 a1 a2 a3 a4), (r_v215 a0 a1 a2 a3 a4)]

def r_v217 (a0 : FVec F S4194304x3 .f32) (a1 : FVec F S2x3 .f32) (a2 : FVec F S256x256x256 .f32) (a3 a4 : FVec F S64x3 .f32) :=
  ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)) (r_v66 a0 a1 a2 a3 a4) (r_v216 a0 a1 a2 a3 a4)

def r_cst_76 (a0 : FVec F S4194304x3 .f32) (a1 : FVec F S2x3 .f32) (a2 : FVec F S256x256x256 .f32) (a3 a4 : FVec F S64x3 .f32) :=
  (constant (F := F) S_ .f32 0x00000000#32)

def r_call9_v0 (a0 : FVec F S4194304x3 .f32) (a1 : FVec F S2x3 .f32) (a2 : FVec F S256x256x256 .f32) (a3 a4 : FVec F S64x3 .f32) :=
  id (r_cst_76 a0 a1 a2 a3 a4)

def r_call9_v1 (a0 : FVec F S4194304x3 .f32) (a1 : FVec F S2x3 .f32) (a2 : FVec F S256x256x256 .f32) (a3 a4 : FVec F S64x3 .f32) :=
  (broadcastInDim S4194304 ![] bcast_S_S4194304) (r_call9_v0 a0 a1 a2 a3 a4)

def r_v218 (a0 : FVec F S4194304x3 .f32) (a1 : FVec F S2x3 .f32) (a2 : FVec F S256x256x256 .f32) (a3 a4 : FVec F S64x3 .f32) :=
  select (r_v188 a0 a1 a2 a3 a4) (r_v217 a0 a1 a2 a3 a4) (r_call9_v1 a0 a1 a2 a3 a4)

def r_v219 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v165 a0 a1 a2 a3 a4) (r_v218 a0 a1 a2 a3 a4)

def r_v220 (a0 : FVec F S4194304x3 .f32) (a1 : FVec F S2x3 .f32) (a2 : FVec F S256x256x256 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (r_v163 a0 a1 a2 a3 a4) (r_v219 a0 a1 a2 a3 a4)

def r_cst_77 (a0 : FVec F S4194304x3 .f32) (a1 : FVec F S2x3 .f32) (a2 : FVec F S256x256x256 .f32) (a3 a4 : FVec F S64x3 .f32) :=
  (constant (F := F) S_ .f32 0x3F800000#32)

def r_v221 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_77 a0 a1 a2 a3 a4)

def r_v222 (a0 : FVec F S4194304x3 .f32) (a1 : FVec F S2x3 .f32) (a2 : FVec F S256x256x256 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (r_v221 a0 a1 a2 a3 a4) (r_v94 a0 a1 a2 a3 a4)

def r_v223 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v102 a0 a1 a2 a3 a4) (r_v95 a0 a1 a2 a3 a4)

def r_v224 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v223 a0 a1 a2 a3 a4) (r_v222 a0 a1 a2 a3 a4)

def r_c_78 (a0 : FVec F S4194304x3 .f32) (a1 : FVec F S2x3 .f32) (a2 : FVec F S256x256x256 .f32) (a3 a4 : FVec F S64x3 .f32) :=
  (constantI S_ 32 0#32)

def r_v225 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_78 a0 a1 a2 a3 a4)

def r_v226 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v99 a0 a1 a2 a3 a4) (r_v225 a0 a1 a2 a3 a4)

def r_c_79 (a0 : FVec F S4194304x3 .f32) (a1 : FVec F S2x3 .f32) (a2 : FVec F S256x256x256 .f32) (a3 a4 : FVec F S64x3 .f32) :=
  (constantI S_ 32 1#32)

def r_v227 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_79 a0 a1 a2 a3 a4)

def r_v228 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v98 a0 a1 a2 a3 a4) (r_v227 a0 a1 a2 a3 a4)

def r_c_80 (a0 : FVec F S4194304x3 .f32) (a1 : FVec F S2x3 .f32) (a2 : FVec F S256x256x256 .f32) (a3 a4 : FVec F S64x3 .f32) :=
  (constantI S_ 32 0#32)

def r_v229 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_80 a0 a1 a2 a3 a4)

def r_v230 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v97 a0 a1 a2 a3 a4) (r_v229 a0 a1 a2 a3 a4)

def r_c_81 (a0 : FVec F S4194304x3 .f32) (a1 : FVec F S2x3 .f32) (a2 : FVec F S256x256x256 .f32) (a3 a4 : FVec F S64x3 .f32) :=
  (constantI S_ 32 0#32)

def r_v231 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_81 a0 a1 a2 a3 a4)

def r_v232 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v226 a0 a1 a2 a3 a4) (r_v231 a0 a1 a2 a3 a4)

def r_c_82 (a0 : FVec F S4194304x3 .f32) (a1 : FVec F S2x3 .f32) (a2 : FVec F S256x256x256 .f32) (a3 a4 : FVec F S64x3 .f32) :=
  (constantI S_ 32 64#32)

def r_v233 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_82 a0 a1 a2 a3 a4)

def r_v234 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v226 a0 a1 a2 a3 a4) (r_v233 a0 a1 a2 a3 a4)

def r_v235 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v232 a0 a1 a2 a3 a4) (r_v234 a0 a1 a2 a3 a4)

def r_c_83 (a0 : FVec F S4194304x3 .f32) (a1 : FVec F S2x3 .f32) (a2 : FVec F S256x256x256 .f32) (a3 a4 : FVec F S64x3 .f32) :=
  (constantI S_ 32 0#32)

def r_v236 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_83 a0 a1 a2 a3 a4)

def r_v237 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v228 a0 a1 a2 a3 a4) (r_v236 a0 a1 a2 a3 a4)

def r_v238 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v235 a0 a1 a2 a3 a4) (r_v237 a0 a1 a2 a3 a4)

def r_c_84 (a0 : FVec F S4194304x3 .f32) (a1 : FVec F S2x3 .f32) (a2 : FVec F S256x256x256 .f32) (a3 a4 : FVec F S64x3 .f32) :=
  (constantI S_ 32 64#32)

def r_v239 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_84 a0 a1 a2 a3 a4)

def r_v240 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v228 a0 a1 a2 a3 a4) (r_v239 a0 a1 a2 a3 a4)

def r_v241 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v238 a0 a1 a2 a3 a4) (r_v240 a0 a1 a2 a3 a4)

def r_c_85 (a0 : FVec F S4194304x3 .f32) (a1 : FVec F S2x3 .f32) (a2 : FVec F S256x256x256 .f32) (a3 a4 : FVec F S64x3 .f32) :=
  (constantI S_ 32 0#32)

def r_v242 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_85 a0 a1 a2 a3 a4)

def r_v243 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v230 a0 a1 a2 a3 a4) (r_v242 a0 a1 a2 a3 a4)

def r_v244 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v241 a0 a1 a2 a3 a4) (r_v243 a0 a1 a2 a3 a4)

def r_c_86 (a0 : FVec F S4194304x3 .f32) (a1 : FVec F S2x3 .f32) (a2 : FVec F S256x256x256 .f32) (a3 a4 : FVec F S64x3 .f32) :=
  (constantI S_ 32 64#32)

def r_v245 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_86 a0 a1 a2 a3 a4)

def r_v246 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v230 a0 a1 a2 a3 a4) (r_v245 a0 a1 a2 a3 a4)

def r_v247 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v244 a0 a1 a2 a3 a4) (r_v246 a0 a1 a2 a3 a4)

def r_c_87 (a0 : FVec F S4194304x3 .f32) (a1 : FVec F S2x3 .f32) (a2 : FVec F S256x256x256 .f32) (a3 a4 : FVec F S64x3 .f32) :=
  (constantI S_ 32 0#32)

def r_c_88 (a0 : FVec F S4194304x3 .f32) (a1 : FVec F S2x3 .f32) (a2 : FVec F S256x256x256 .f32) (a3 a4 : FVec F S64x3 .f32) :=
  (constantI S_ 32 63#32)

def r_call10_v0 (a0 : FVec F S4194304x3 .f32) (a1 : FVec F S2x3 .f32) (a2 : FVec F S256x256x256 .f32) (a3 a4 : FVec F S64x3 .f32) :=
  id (r_c_87 a0 a1 a2 a3 a4)

def r_call10_v1 (a0 : FVec F S4194304x3 .f32) (a1 : FVec F S2x3 .f32) (a2 : FVec F S256x256x256 .f32) (a3 a4 : FVec F S64x3 .f32) :=
  (broadcastInDim S4194304 ![] bcast_S_S4194304) (r_call10_v0 a0 a1 a2 a3 a4)

def r_call10_v2 (a0 : FVec F S4194304x3 .f32) (a1 : FVec F S2x3 .f32) (a2 : FVec F S256x256x256 .f32) (a3 a4 : FVec F S64x3 .f32) :=
  maxsi (r_call10_v1 a0 a1 a2 a3 a4) (r_v226 a0 a1 a2 a3 a4)

def r_call10_v3 (a0 : FVec F S4194304x3 .f32) (a1 : FVec F S2x3 .f32) (a2 : FVec F S256x256x256 .f32) (a3 a4 : FVec F S64x3 .f32) :=
  id (r_c_88 a0 a1 a2 a3 a4)

def r_call10_v4 (a0 : FVec F S4194304x3 .f32) (a1 : FVec F S2x3 .f32) (a2 : FVec F S256x256x256 .f32) (a3 a4 : FVec F S64x3 .f32) :=
  (broadcastInDim S4194304 ![] bcast_S_S4194304) (r_call10_v3 a0 a1 a2 a3 a4)

def r_v248 (a0 : FVec F S4194304x3 .f32) (a1 : FVec F S2x3 .f32) (a2 : FVec F S256x256x256 .f32) (a3 a4 : FVec F S64x3 .f32) :=
  minsi (r_call10_v4 a0 a1 a2 a3 a4) (r_call10_v2 a0 a1 a2 a3 a4)

def r_c_89 (a0 : FVec F S4194304x3 .f32) (a1 : FVec F S2x3 .f32) (a2 : FVec F S256x256x256 .f32) (a3 a4 : FVec F S64x3 .f32) :=
  (constantI S_ 32 0#32)

def r_c_90 (a0 : FVec F S4194304x3 .f32) (a1 : FVec F S2x3 .f32) (a2 : FVec F S256x256x256 .f32) (a3 a4 : FVec F S64x3 .f32) :=
  (constantI S_ 32 63#32)

def r_call11_v0 (a0 : FVec F S4194304x3 .f32) (a1 : FVec F S2x3 .f32) (a2 : FVec F S256x256x256 .f32) (a3 a4 : FVec F S64x3 .f32) :=
  id (r_c_89 a0 a1 a2 a3 a4)

def r_call11_v1 (a0 : FVec F S4194304x3 .f32) (a1 : FVec F S2x3 .f32) (a2 : FVec F S256x256x256 .f32) (a3 a4 : FVec F S64x3 .f32) :=
  (broadcastInDim S4194304 ![] bcast_S_S4194304) (r_call11_v0 a0 a1 a2 a3 a4)

def r_call11_v2 (a0 : FVec F S4194304x3 .f32) (a1 : FVec F S2x3 .f32) (a2 : FVec F S256x256x256 .f32) (a3 a4 : FVec F S64x3 .f32) :=
  maxsi (r_call11_v1 a0 a1 a2 a3 a4) (r_v228 a0 a1 a2 a3 a4)

def r_call11_v3 (a0 : FVec F S4194304x3 .f32) (a1 : FVec F S2x3 .f32) (a2 : FVec F S256x256x256 .f32) (a3 a4 : FVec F S64x3 .f32) :=
  id (r_c_90 a0 a1 a2 a3 a4)

def r_call11_v4 (a0 : FVec F S4194304x3 .f32) (a1 : FVec F S2x3 .f32) (a2 : FVec F S256x256x256 .f32) (a3 a4 : FVec F S64x3 .f32) :=
  (broadcastInDim S4194304 ![] bcast_S_S4194304) (r_call11_v3 a0 a1 a2 a3 a4)

def r_v249 (a0 : FVec F S4194304x3 .f32) (a1 : FVec F S2x3 .f32) (a2 : FVec F S256x256x256 .f32) (a3 a4 : FVec F S64x3 .f32) :=
  minsi (r_call11_v4 a0 a1 a2 a3 a4) (r_call11_v2 a0 a1 a2 a3 a4)

def r_c_91 (a0 : FVec F S4194304x3 .f32) (a1 : FVec F S2x3 .f32) (a2 : FVec F S256x256x256 .f32) (a3 a4 : FVec F S64x3 .f32) :=
  (constantI S_ 32 0#32)

def r_c_92 (a0 : FVec F S4194304x3 .f32) (a1 : FVec F S2x3 .f32) (a2 : FVec F S256x256x256 .f32) (a3 a4 : FVec F S64x3 .f32) :=
  (constantI S_ 32 63#32)

def r_call12_v0 (a0 : FVec F S4194304x3 .f32) (a1 : FVec F S2x3 .f32) (a2 : FVec F S256x256x256 .f32) (a3 a4 : FVec F S64x3 .f32) :=
  id (r_c_91 a0 a1 a2 a3 a4)

def r_call12_v1 (a0 : FVec F S4194304x3 .f32) (a1 : FVec F S2x3 .f32) (a2 : FVec F S256x256x256 .f32) (a3 a4 : FVec F S64x3 .f32) :=
  (broadcastInDim S4194304 ![] bcast_S_S4194304) (r_call12_v0 a0 a1 a2 a3 a4)

def r_call12_v2 (a0 : FVec F S4194304x3 .f32) (a1 : FVec F S2x3 .f32) (a2 : FVec F S256x256x256 .f32) (a3 a4 : FVec F S64x3 .f32) :=
  maxsi (r_call12_v1 a0 a1 a2 a3 a4) (r_v230 a0 a1 a2 a3 a4)

def r_call12_v3 (a0 : FVec F S4194304x3 .f32) (a1 : FVec F S2x3 .f32) (a2 : FVec F S256x256x256 .f32) (a3 a4 : FVec F S64x3 .f32) :=
  id (r_c_92 a0 a1 a2 a3 a4)

def r_call12_v4 (a0 : FVec F S4194304x3 .f32) (a1 : FVec F S2x3 .f32) (a2 : FVec F S256x256x256 .f32) (a3 a4 : FVec F S64x3 .f32) :=
  (broadcastInDim S4194304 ![] bcast_S_S4194304) (r_call12_v3 a0 a1 a2 a3 a4)

def r_v250 (a0 : FVec F S4194304x3 .f32) (a1 : FVec F S2x3 .f32) (a2 : FVec F S256x256x256 .f32) (a3 a4 : FVec F S64x3 .f32) :=
  minsi (r_call12_v4 a0 a1 a2 a3 a4) (r_call12_v2 a0 a1 a2 a3 a4)

def r_c_93 (a0 : FVec F S4194304x3 .f32) (a1 : FVec F S2x3 .f32) (a2 : FVec F S256x256x256 .f32) (a3 a4 : FVec F S64x3 .f32) :=
  (constantI S_ 32 0#32)

def r_v251 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_93 a0 a1 a2 a3 a4)

def r_v252 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v30 a0 a1 a2 a3 a4) (r_v251 a0 a1 a2 a3 a4)

def r_c_94 (a0 : FVec F S4194304x3 .f32) (a1 : FVec F S2x3 .f32) (a2 : FVec F S256x256x256 .f32) (a3 a4 : FVec F S64x3 .f32) :=
  (constantI S_ 32 64#32)

def r_v253 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_94 a0 a1 a2 a3 a4)

def r_v254 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v30 a0 a1 a2 a3 a4) (r_v253 a0 a1 a2 a3 a4)

def r_v255 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v252 a0 a1 a2 a3 a4) (r_v254 a0 a1 a2 a3 a4) (r_v30 a0 a1 a2 a3 a4)

def r_c_95 (a0 : FVec F S4194304x3 .f32) (a1 : FVec F S2x3 .f32) (a2 : FVec F S256x256x256 .f32) (a3 a4 : FVec F S64x3 .f32) :=
  (constantI S_ 32 0#32)

def r_v256 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_95 a0 a1 a2 a3 a4)

def r_v257 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v248 a0 a1 a2 a3 a4) (r_v256 a0 a1 a2 a3 a4)

def r_c_96 (a0 : FVec F S4194304x3 .f32) (a1 : FVec F S2x3 .f32) (a2 : FVec F S256x256x256 .f32) (a3 a4 : FVec F S64x3 .f32) :=
  (constantI S_ 32 64#32)

def r_v258 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_96 a0 a1 a2 a3 a4)

def r_v259 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v248 a0 a1 a2 a3 a4) (r_v258 a0 a1 a2 a3 a4)

def r_v260 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v257 a0 a1 a2 a3 a4) (r_v259 a0 a1 a2 a3 a4) (r_v248 a0 a1 a2 a3 a4)

def r_c_97 (a0 : FVec F S4194304x3 .f32) (a1 : FVec F S2x3 .f32) (a2 : FVec F S256x256x256 .f32) (a3 a4 : FVec F S64x3 .f32) :=
  (constantI S_ 32 0#32)

def r_v261 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_97 a0 a1 a2 a3 a4)

def r_v262 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v249 a0 a1 a2 a3 a4) (r_v261 a0 a1 a2 a3 a4)

def r_c_98 (a0 : FVec F S4194304x3 .f32) (a1 : FVec F S2x3 .f32) (a2 : FVec F S256x256x256 .f32) (a3 a4 : FVec F S64x3 .f32) :=
  (constantI S_ 32 64#32)

def r_v263 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_98 a0 a1 a2 a3 a4)

def r_v264 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v249 a0 a1 a2 a3 a4) (r_v263 a0 a1 a2 a3 a4)

def r_v265 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v262 a0 a1 a2 a3 a4) (r_v264 a0 a1 a2 a3 a4) (r_v249 a0 a1 a2 a3 a4)

def r_c_99 (a0 : FVec F S4194304x3 .f32) (a1 : FVec F S2x3 .f32) (a2 : FVec F S256x256x256 .f32) (a3 a4 : FVec F S64x3 .f32) :=
  (constantI S_ 32 0#32)

def r_v266 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_99 a0 a1 a2 a3 a4)

def r_v267 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v250 a0 a1 a2 a3 a4) (r_v266 a0 a1 a2 a3 a4)

def r_c_100 (a0 : FVec F S4194304x3 .f32) (a1 : FVec F S2x3 .f32) (a2 : FVec F S256x256x256 .f32) (a3 a4 : FVec F S64x3 .f32) :=
  (constantI S_ 32 64#32)

def r_v268 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_100 a0 a1 a2 a3 a4)

def r_v269 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v250 a0 a1 a2 a3 a4) (r_v268 a0 a1 a2 a3 a4)

def r_v270 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v267 a0 a1 a2 a3 a4) (r_v269 a0 a1 a2 a3 a4) (r_v250 a0 a1 a2 a3 a4)

def r_v271 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v255 a0 a1 a2 a3 a4)

def r_v272 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v260 a0 a1 a2 a3 a4)

def r_v273 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v265 a0 a1 a2 a3 a4)

def r_v274 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v270 a0 a1 a2 a3 a4)

def r_v275 (a0 : FVec F S4194304x3 .f32) (a1 : FVec F S2x3 .f32) (a2 : FVec F S256x256x256 .f32) (a3 a4 : FVec F S64x3 .f32) :=
  (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ![(r_v271 a0 a1 a2 a3 a4), (r_v272 a0 a1 a2 a3 a4), (r_v273 a0 a1 a2 a3 a4), (r_v274 a0 a1 a2 a3 a4)]

def r_v276 (a0 : FVec F S4194304x3 .f32) (a1 : FVec F S2x3 .f32) (a2 : FVec F S256x256x256 .f32) (a3 a4 : FVec F S64x3 .f32) :=
  ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)) (r_v66 a0 a1 a2 a3 a4) (r_v275 a0 a1 a2 a3 a4)

def r_cst_101 (a0 : FVec F S4194304x3 .f32) (a1 : FVec F S2x3 .f32) (a2 : FVec F S256x256x256 .f32) (a3 a4 : FVec F S64x3 .f32) :=
  (constant (F := F) S_ .f32 0x00000000#32)

def r_call13_v0 (a0 : FVec F S4194304x3 .f32) (a1 : FVec F S2x3 .f32) (a2 : FVec F S256x256x256 .f32) (a3 a4 : FVec F S64x3 .f32) :=
  id (r_cst_101 a0 a1 a2 a3 a4)

def r_call13_v1 (a0 : FVec F S4194304x3 .f32) (a1 : FVec F S2x3 .f32) (a2 : FVec F S256x256x256 .f32) (a3 a4 : FVec F S64x3 .f32) :=
  (broadcastInDim S4194304 ![] bcast_S_S4194304) (r_call13_v0 a0 a1 a2 a3 a4)

def r_v277 (a0 : FVec F S4194304x3 .f32) (a1 : FVec F S2x3 .f32) (a2 : FVec F S256x256x256 .f32) (a3 a4 : FVec F S64x3 .f32) :=
  select (r_v247 a0 a1 a2 a3 a4) (r_v276 a0 a1 a2 a3 a4) (r_call13_v1 a0 a1 a2 a3 a4)

def r_v278 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v224 a0 a1 a2 a3 a4) (r_v277 a0 a1 a2 a3 a4)

def r_v279 (a0 : FVec F S4194304x3 .f32) (a1 : FVec F S2x3 .f32) (a2 : FVec F S256x256x256 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (r_v220 a0 a1 a2 a3 a4) (r_v278 a0 a1 a2 a3 a4)

def r_v280 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v102 a0 a1 a2 a3 a4) (r_v95 a0 a1 a2 a3 a4)

def r_v281 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v280 a0 a1 a2 a3 a4) (r_v94 a0 a1 a2 a3 a4)

def r_c_102 (a0 : FVec F S4194304x3 .f32) (a1 : FVec F S2x3 .f32) (a2 : FVec F S256x256x256 .f32) (a3 a4 : FVec F S64x3 .f32) :=
  (constantI S_ 32 0#32)

def r_v282 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_102 a0 a1 a2 a3 a4)

def r_v283 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v99 a0 a1 a2 a3 a4) (r_v282 a0 a1 a2 a3 a4)

def r_c_103 (a0 : FVec F S4194304x3 .f32) (a1 : FVec F S2x3 .f32) (a2 : FVec F S256x256x256 .f32) (a3 a4 : FVec F S64x3 .f32) :=
  (constantI S_ 32 1#32)

def r_v284 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_103 a0 a1 a2 a3 a4)

def r_v285 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v98 a0 a1 a2 a3 a4) (r_v284 a0 a1 a2 a3 a4)

def r_c_104 (a0 : FVec F S4194304x3 .f32) (a1 : FVec F S2x3 .f32) (a2 : FVec F S256x256x256 .f32) (a3 a4 : FVec F S64x3 .f32) :=
  (constantI S_ 32 1#32)

def r_v286 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_104 a0 a1 a2 a3 a4)

def r_v287 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v97 a0 a1 a2 a3 a4) (r_v286 a0 a1 a2 a3 a4)

def r_c_105 (a0 : FVec F S4194304x3 .f32) (a1 : FVec F S2x3 .f32) (a2 : FVec F S256x256x256 .f32) (a3 a4 : FVec F S64x3 .f32) :=
  (constantI S_ 32 0#32)

def r_v288 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_105 a0 a1 a2 a3 a4)

def r_v289 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v283 a0 a1 a2 a3 a4) (r_v288 a0 a1 a2 a3 a4)

def r_c_106 (a0 : FVec F S4194304x3 .f32) (a1 : FVec F S2x3 .f32) (a2 : FVec F S256x256x256 .f32) (a3 a4 : FVec F S64x3 .f32) :=
  (constantI S_ 32 64#32)

def r_v290 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_106 a0 a1 a2 a3 a4)

def r_v291 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v283 a0 a1 a2 a3 a4) (r_v290 a0 a1 a2 a3 a4)

def r_v292 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v289 a0 a1 a2 a3 a4) (r_v291 a0 a1 a2 a3 a4)

def r_c_107 (a0 : FVec F S4194304x3 .f32) (a1 : FVec F S2x3 .f32) (a2 : FVec F S256x256x256 .f32) (a3 a4 : FVec F S64x3 .f32) :=
  (constantI S_ 32 0#32)

def r_v293 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_107 a0 a1 a2 a3 a4)

def r_v294 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v285 a0 a1 a2 a3 a4) (r_v293 a0 a1 a2 a3 a4)

def r_v295 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v292 a0 a1 a2 a3 a4) (r_v294 a0 a1 a2 a3 a4)

def r_c_108 (a0 : FVec F S4194304x3 .f32) (a1 : FVec F S2x3 .f32) (a2 : FVec F S256x256x256 .f32) (a3 a4 : FVec F S64x3 .f32) :=
  (constantI S_ 32 64#32)

def r_v296 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_108 a0 a1 a2 a3 a4)

def r_v297 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v285 a0 a1 a2 a3 a4) (r_v296 a0 a1 a2 a3 a4)

def r_v298 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v295 a0 a1 a2 a3 a4) (r_v297 a0 a1 a2 a3 a4)

def r_c_109 (a0 : FVec F S4194304x3 .f32) (a1 : FVec F S2x3 .f32) (a2 : FVec F S256x256x256 .f32) (a3 a4 : FVec F S64x3 .f32) :=
  (constantI S_ 32 0#32)

def r_v299 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_109 a0 a1 a2 a3 a4)

def r_v300 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v287 a0 a1 a2 a3 a4) (r_v299 a0 a1 a2 a3 a4)

def r_v301 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v298 a0 a1 a2 a3 a4) (r_v300 a0 a1 a2 a3 a4)

def r_c_110 (a0 : FVec F S4194304x3 .f32) (a1 : FVec F S2x3 .f32) (a2 : FVec F S256x256x256 .f32) (a3 a4 : FVec F S64x3 .f32) :=
  (constantI S_ 32 64#32)

def r_v302 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_110 a0 a1 a2 a3 a4)

def r_v303 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v287 a0 a1 a2 a3 a4) (r_v302 a0 a1 a2 a3 a4)

def r_v304 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v301 a0 a1 a2 a3 a4) (r_v303 a0 a1 a2 a3 a4)

def r_c_111 (a0 : FVec F S4194304x3 .f32) (a1 : FVec F S2x3 .f32) (a2 : FVec F S256x256x256 .f32) (a3 a4 : FVec F S64x3 .f32) :=
  (constantI S_ 32 0#32)

def r_c_112 (a0 : FVec F S4194304x3 .f32) (a1 : FVec F S2x3 .f32) (a2 : FVec F S256x256x256 .f32) (a3 a4 : FVec F S64x3 .f32) :=
  (constantI S_ 32 63#32)

def r_call14_v0 (a0 : FVec F S4194304x3 .f32) (a1 : FVec F S2x3 .f32) (a2 : FVec F S256x256x256 .f32) (a3 a4 : FVec F S64x3 .f32) :=
  id (r_c_111 a0 a1 a2 a3 a4)

def r_call14_v1 (a0 : FVec F S4194304x3 .f32) (a1 : FVec F S2x3 .f32) (a2 : FVec F S256x256x256 .f32) (a3 a4 : FVec F S64x3 .f32) :=
  (broadcastInDim S4194304 ![] bcast_S_S4194304) (r_call14_v0 a0 a1 a2 a3 a4)

def r_call14_v2 (a0 : FVec F S4194304x3 .f32) (a1 : FVec F S2x3 .f32) (a2 : FVec F S256x256x256 .f32) (a3 a4 : FVec F S64x3 .f32) :=
  maxsi (r_call14_v1 a0 a1 a2 a3 a4) (r_v283 a0 a1 a2 a3 a4)

def r_call14_v3 (a0 : FVec F S4194304x3 .f32) (a1 : FVec F S2x3 .f32) (a2 : FVec F S256x256x256 .f32) (a3 a4 : FVec F S64x3 .f32) :=
  id (r_c_112 a0 a1 a2 a3 a4)

def r_call14_v4 (a0 : FVec F S4194304x3 .f32) (a1 : FVec F S2x3 .f32) (a2 : FVec F S256x256x256 .f32) (a3 a4 : FVec F S64x3 .f32) :=
  (broadcastInDim S4194304 ![] bcast_S_S4194304) (r_call14_v3 a0 a1 a2 a3 a4)

def r_v305 (a0 : FVec F S4194304x3 .f32) (a1 : FVec F S2x3 .f32) (a2 : FVec F S256x256x256 .f32) (a3 a4 : FVec F S64x3 .f32) :=
  minsi (r_call14_v4 a0 a1 a2 a3 a4) (r_call14_v2 a0 a1 a2 a3 a4)

def r_c_113 (a0 : FVec F S4194304x3 .f32) (a1 : FVec F S2x3 .f32) (a2 : FVec F S256x256x256 .f32) (a3 a4 : FVec F S64x3 .f32) :=
  (constantI S_ 32 0#32)

def r_c_114 (a0 : FVec F S4194304x3 .f32) (a1 : FVec F S2x3 .f32) (a2 : FVec F S256x256x256 .f32) (a3 a4 : FVec F S64x3 .f32) :=
  (constantI S_ 32 63#32)

def r_call15_v0 (a0 : FVec F S4194304x3 .f32) (a1 : FVec F S2x3 .f32) (a2 : FVec F S256x256x256 .f32) (a3 a4 : FVec F S64x3 .f32) :=
  id (r_c_113 a0 a1 a2 a3 a4)

def r_call15_v1 (a0 : FVec F S4194304x3 .f32) (a1 : FVec F S2x3 .f32) (a2 : FVec F S256x256x256 .f32) (a3 a4 : FVec F S64x3 .f32) :=
  (broadcastInDim S4194304 ![] bcast_S_S4194304) (r_call15_v0 a0 a1 a2 a3 a4)

def r_call15_v2 (a0 : FVec F S4194304x3 .f32) (a1 : FVec F S2x3 .f32) (a2 : FVec F S256x256x256 .f32) (a3 a4 : FVec F S64x3 .f32) :=
  maxsi (r_call15_v1 a0 a1 a2 a3 a4) (r_v285 a0 a1 a2 a3 a4)

def r_call15_v3 (a0 : FVec F S4194304x3 .f32) (a1 : FVec F S2x3 .f32) (a2 : FVec F S256x256x256 .f32) (a3 a4 : FVec F S64x3 .f32) :=
  id (r_c_114 a0 a1 a2 a3 a4)

def r_call15_v4 (a0 : FVec F S4194304x3 .f32) (a1 : FVec F S2x3 .f32) (a2 : FVec F S256x256x256 .f32) (a3 a4 : FVec F S64x3 .f32) :=
  (broadcastInDim S4194304 ![] bcast_S_S4194304) (r_call15_v3 a0 a1 a2 a3 a4)

def r_v306 (a0 : FVec F S4194304x3 .f32) (a1 : FVec F S2x3 .f32) (a2 : FVec F S256x256x256 .f32) (a3 a4 : FVec F S64x3 .f32) :=
  minsi (r_call15_v4 a0 a1 a2 a3 a4) (r_call15_v2 a0 a1 a2 a3 a4)

def r_c_115 (a0 : FVec F S4194304x3 .f32) (a1 : FVec F S2x3 .f32) (a2 : FVec F S256x256x256 .f32) (a3 a4 : FVec F S64x3 .f32) :=
  (constantI S_ 32 0#32)

def r_c_116 (a0 : FVec F S4194304x3 .f32) (a1 : FVec F S2x3 .f32) (a2 : FVec F S256x256x256 .f32) (a3 a4 : FVec F S64x3 .f32) :=
  (constantI S_ 32 63#32)

def r_call16_v0 (a0 : FVec F S4194304x3 .f32) (a1 : FVec F S2x3 .f32) (a2 : FVec F S256x256x256 .f32) (a3 a4 : FVec F S64x3 .f32) :=
  id (r_c_115 a0 a1 a2 a3 a4)

def r_call16_v1 (a0 : FVec F S4194304x3 .f32) (a1 : FVec F S2x3 .f32) (a2 : FVec F S256x256x256 .f32) (a3 a4 : FVec F S64x3 .f32) :=
  (broadcastInDim S4194304 ![] bcast_S_S4194304) (r_call16_v0 a0 a1 a2 a3 a4)

def r_call16_v2 (a0 : FVec F S4194304x3 .f32) (a1 : FVec F S2x3 .f32) (a2 : FVec F S256x256x256 .f32) (a3 a4 : FVec F S64x3 .f32) :=
  maxsi (r_call16_v1 a0 a1 a2 a3 a4) (r_v287 a0 a1 a2 a3 a4)

def r_call16_v3 (a0 : FVec F S4194304x3 .f32) (a1 : FVec F S2x3 .f32) (a2 : FVec F S256x256x256 .f32) (a3 a4 : FVec F S64x3 .f32) :=
  id (r_c_116 a0 a1 a2 a3 a4)

def r_call16_v4 (a0 : FVec F S4194304x3 .f32) (a1 : FVec F S2x3 .f32) (a2 : FVec F S256x256x256 .f32) (a3 a4 : FVec F S64x3 .f32) :=
  (broadcastInDim S4194304 ![] bcast_S_S4194304) (r_call16_v3 a0 a1 a2 a3 a4)

def r_v307 (a0 : FVec F S4194304x3 .f32) (a1 : FVec F S2x3 .f32) (a2 : FVec F S256x256x256 .f32) (a3 a4 : FVec F S64x3 .f32) :=
  minsi (r_call16_v4 a0 a1 a2 a3 a4) (r_call16_v2 a0 a1 a2 a3 a4)

def r_c_117 (a0 : FVec F S4194304x3 .f32) (a1 : FVec F S2x3 .f32) (a2 : FVec F S256x256x256 .f32) (a3 a4 : FVec F S64x3 .f32) :=
  (constantI S_ 32 0#32)

def r_v308 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_117 a0 a1 a2 a3 a4)

def r_v309 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v30 a0 a1 a2 a3 a4) (r_v308 a0 a1 a2 a3 a4)

def r_c_118 (a0 : FVec F S4194304x3 .f32) (a1 : FVec F S2x3 .f32) (a2 : FVec F S256x256x256 .f32) (a3 a4 : FVec F S64x3 .f32) :=
  (constantI S_ 32 64#32)

def r_v310 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_118 a0 a1 a2 a3 a4)

def r_v311 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v30 a0 a1 a2 a3 a4) (r_v310 a0 a1 a2 a3 a4)

def r_v312 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v309 a0 a1 a2 a3 a4) (r_v311 a0 a1 a2 a3 a4) (r_v30 a0 a1 a2 a3 a4)

def r_c_119 (a0 : FVec F S4194304x3 .f32) (a1 : FVec F S2x3 .f32) (a2 : FVec F S256x256x256 .f32) (a3 a4 : FVec F S64x3 .f32) :=
  (constantI S_ 32 0#32)

def r_v313 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_119 a0 a1 a2 a3 a4)

def r_v314 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v305 a0 a1 a2 a3 a4) (r_v313 a0 a1 a2 a3 a4)

def r_c_120 (a0 : FVec F S4194304x3 .f32) (a1 : FVec F S2x3 .f32) (a2 : FVec F S256x256x256 .f32) (a3 a4 : FVec F S64x3 .f32) :=
  (constantI S_ 32 64#32)

def r_v315 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_120 a0 a1 a2 a3 a4)

def r_v316 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v305 a0 a1 a2 a3 a4) (r_v315 a0 a1 a2 a3 a4)

def r_v317 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v314 a0 a1 a2 a3 a4) (r_v316 a0 a1 a2 a3 a4) (r_v305 a0 a1 a2 a3 a4)

def r_c_121 (a0 : FVec F S4194304x3 .f32) (a1 : FVec F S2x3 .f32) (a2 : FVec F S256x256x256 .f32) (a3 a4 : FVec F S64x3 .f32) :=
  (constantI S_ 32 0#32)

def r_v318 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_121 a0 a1 a2 a3 a4)

def r_v319 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v306 a0 a1 a2 a3 a4) (r_v318 a0 a1 a2 a3 a4)

def r_c_122 (a0 : FVec F S4194304x3 .f32) (a1 : FVec F S2x3 .f32) (a2 : FVec F S256x256x256 .f32) (a3 a4 : FVec F S64x3 .f32) :=
  (constantI S_ 32 64#32)

def r_v320 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_122 a0 a1 a2 a3 a4)

def r_v321 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v306 a0 a1 a2 a3 a4) (r_v320 a0 a1 a2 a3 a4)

def r_v322 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v319 a0 a1 a2 a3 a4) (r_v321 a0 a1 a2 a3 a4) (r_v306 a0 a1 a2 a3 a4)

def r_c_123 (a0 : FVec F S4194304x3 .f32) (a1 : FVec F S2x3 .f32) (a2 : FVec F S256x256x256 .f32) (a3 a4 : FVec F S64x3 .f32) :=
  (constantI S_ 32 0#32)

def r_v323 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_123 a0 a1 a2 a3 a4)

def r_v324 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v307 a0 a1 a2 a3 a4) (r_v323 a0 a1 a2 a3 a4)

def r_c_124 (a0 : FVec F S4194304x3 .f32) (a1 : FVec F S2x3 .f32) (a2 : FVec F S256x256x256 .f32) (a3 a4 : FVec F S64x3 .f32) :=
  (constantI S_ 32 64#32)

def r_v325 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_124 a0 a1 a2 a3 a4)

def r_v326 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v307 a0 a1 a2 a3 a4) (r_v325 a0 a1 a2 a3 a4)

def r_v327 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v324 a0 a1 a2 a3 a4) (r_v326 a0 a1 a2 a3 a4) (r_v307 a0 a1 a2 a3 a4)

def r_v328 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v312 a0 a1 a2 a3 a4)

def r_v329 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v317 a0 a1 a2 a3 a4)

def r_v330 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v322 a0 a1 a2 a3 a4)

def r_v331 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v327 a0 a1 a2 a3 a4)

def r_v332 (a0 : FVec F S4194304x3 .f32) (a1 : FVec F S2x3 .f32) (a2 : FVec F S256x256x256 .f32) (a3 a4 : FVec F S64x3 .f32) :=
  (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ![(r_v328 a0 a1 a2 a3 a4), (r_v329 a0 a1 a2 a3 a4), (r_v330 a0 a1 a2 a3 a4), (r_v331 a0 a1 a2 a3 a4)]

def r_v333 (a0 : FVec F S4194304x3 .f32) (a1 : FVec F S2x3 .f32) (a2 : FVec F S256x256x256 .f32) (a3 a4 : FVec F S64x3 .f32) :=
  ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)) (r_v66 a0 a1 a2 a3 a4) (r_v332 a0 a1 a2 a3 a4)

def r_cst_125 (a0 : FVec F S4194304x3 .f32) (a1 : FVec F S2x3 .f32) (a2 : FVec F S256x256x256 .f32) (a3 a4 : FVec F S64x3 .f32) :=
  (constant (F := F) S_ .f32 0x00000000#32)

def r_call17_v0 (a0 : FVec F S4194304x3 .f32) (a1 : FVec F S2x3 .f32) (a2 : FVec F S256x256x256 .f32) (a3 a4 : FVec F S64x3 .f32) :=
  id (r_cst_125 a0 a1 a2 a3 a4)

def r_call17_v1 (a0 : FVec F S4194304x3 .f32) (a1 : FVec F S2x3 .f32) (a2 : FVec F S256x256x256 .f32) (a3 a4 : FVec F S64x3 .f32) :=
  (broadcastInDim S4194304 ![] bcast_S_S4194304) (r_call17_v0 a0 a1 a2 a3 a4)

def r_v334 (a0 : FVec F S4194304x3 .f32) (a1 : FVec F S2x3 .f32) (a2 : FVec F S256x256x256 .f32) (a3 a4 : FVec F S64x3 .f32) :=
  select (r_v304 a0 a1 a2 a3 a4) (r_v333 a0 a1 a2 a3 a4) (r_call17_v1 a0 a1 a2 a3 a4)

def r_v335 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v281 a0 a1 a2 a3 a4) (r_v334 a0 a1 a2 a3 a4)

def r_v336 (a0 : FVec F S4194304x3 .f32) (a1 : FVec F S2x3 .f32) (a2 : FVec F S256x256x256 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (r_v279 a0 a1 a2 a3 a4) (r_v335 a0 a1 a2 a3 a4)

def r_cst_126 (a0 : FVec F S4194304x3 .f32) (a1 : FVec F S2x3 .f32) (a2 : FVec F S256x256x256 .f32) (a3 a4 : FVec F S64x3 .f32) :=
  (constant (F := F) S_ .f32 0x3F800000#32)

def r_v337 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_126 a0 a1 a2 a3 a4)

def r_v338 (a0 : FVec F S4194304x3 .f32) (a1 : FVec F S2x3 .f32) (a2 : FVec F S256x256x256 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (r_v337 a0 a1 a2 a3 a4) (r_v95 a0 a1 a2 a3 a4)

def r_cst_127 (a0 : FVec F S4194304x3 .f32) (a1 : FVec F S2x3 .f32) (a2 : FVec F S256x256x256 .f32) (a3 a4 : FVec F S64x3 .f32) :=
  (constant (F := F) S_ .f32 0x3F800000#32)

def r_v339 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_127 a0 a1 a2 a3 a4)

def r_v340 (a0 : FVec F S4194304x3 .f32) (a1 : FVec F S2x3 .f32) (a2 : FVec F S256x256x256 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (r_v339 a0 a1 a2 a3 a4) (r_v94 a0 a1 a2 a3 a4)

def r_v341 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v96 a0 a1 a2 a3 a4) (r_v338 a0 a1 a2 a3 a4)

def r_v342 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v341 a0 a1 a2 a3 a4) (r_v340 a0 a1 a2 a3 a4)

def r_c_128 (a0 : FVec F S4194304x3 .f32) (a1 : FVec F S2x3 .f32) (a2 : FVec F S256x256x256 .f32) (a3 a4 : FVec F S64x3 .f32) :=
  (constantI S_ 32 1#32)

def r_v343 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_128 a0 a1 a2 a3 a4)

def r_v344 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v99 a0 a1 a2 a3 a4) (r_v343 a0 a1 a2 a3 a4)

def r_c_129 (a0 : FVec F S4194304x3 .f32) (a1 : FVec F S2x3 .f32) (a2 : FVec F S256x256x256 .f32) (a3 a4 : FVec F S64x3 .f32) :=
  (constantI S_ 32 0#32)

def r_v345 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_129 a0 a1 a2 a3 a4)

def r_v346 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v98 a0 a1 a2 a3 a4) (r_v345 a0 a1 a2 a3 a4)

def r_c_130 (a0 : FVec F S4194304x3 .f32) (a1 : FVec F S2x3 .f32) (a2 : FVec F S256x256x256 .f32) (a3 a4 : FVec F S64x3 .f32) :=
  (constantI S_ 32 0#32)

def r_v347 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_130 a0 a1 a2 a3 a4)

def r_v348 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v97 a0 a1 a2 a3 a4) (r_v347 a0 a1 a2 a3 a4)

def r_c_131 (a0 : FVec F S4194304x3 .f32) (a1 : FVec F S2x3 .f32) (a2 : FVec F S256x256x256 .f32) (a3 a4 : FVec F S64x3 .f32) :=
  (constantI S_ 32 0#32)

def r_v349 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_131 a0 a1 a2 a3 a4)

def r_v350 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v344 a0 a1 a2 a3 a4) (r_v349 a0 a1 a2 a3 a4)

def r_c_132 (a0 : FVec F S4194304x3 .f32) (a1 : FVec F S2x3 .f32) (a2 : FVec F S256x256x256 .f32) (a3 a4 : FVec F S64x3 .f32) :=
  (constantI S_ 32 64#32)

def r_v351 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_132 a0 a1 a2 a3 a4)

def r_v352 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v344 a0 a1 a2 a3 a4) (r_v351 a0 a1 a2 a3 a4)

def r_v353 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v350 a0 a1 a2 a3 a4) (r_v352 a0 a1 a2 a3 a4)

def r_c_133 (a0 : FVec F S4194304x3 .f32) (a1 : FVec F S2x3 .f32) (a2 : FVec F S256x256x256 .f32) (a3 a4 : FVec F S64x3 .f32) :=
  (constantI S_ 32 0#32)

def r_v354 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_133 a0 a1 a2 a3 a4)

def r_v355 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v346 a0 a1 a2 a3 a4) (r_v354 a0 a1 a2 a3 a4)

def r_v356 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v353 a0 a1 a2 a3 a4) (r_v355 a0 a1 a2 a3 a4)

def r_c_134 (a0 : FVec F S4194304x3 .f32) (a1 : FVec F S2x3 .f32) (a2 : FVec F S256x256x256 .f32) (a3 a4 : FVec F S64x3 .f32) :=
  (constantI S_ 32 64#32)

def r_v357 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_134 a0 a1 a2 a3 a4)

def r_v358 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v346 a0 a1 a2 a3 a4) (r_v357 a0 a1 a2 a3 a4)

def r_v359 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v356 a0 a1 a2 a3 a4) (r_v358 a0 a1 a2 a3 a4)

def r_c_135 (a0 : FVec F S4194304x3 .f32) (a1 : FVec F S2x3 .f32) (a2 : FVec F S256x256x256 .f32) (a3 a4 : FVec F S64x3 .f32) :=
  (constantI S_ 32 0#32)

def r_v360 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_135 a0 a1 a2 a3 a4)

def r_v361 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v348 a0 a1 a2 a3 a4) (r_v360 a0 a1 a2 a3 a4)

def r_v362 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v359 a0 a1 a2 a3 a4) (r_v361 a0 a1 a2 a3 a4)

def r_c_136 (a0 : FVec F S4194304x3 .f32) (a1 : FVec F S2x3 .f32) (a2 : FVec F S256x256x256 .f32) (a3 a4 : FVec F S64x3 .f32) :=
  (constantI S_ 32 64#32)

def r_v363 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_136 a0 a1 a2 a3 a4)

def r_v364 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v348 a0 a1 a2 a3 a4) (r_v363 a0 a1 a2 a3 a4)

def r_v365 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v362 a0 a1 a2 a3 a4) (r_v364 a0 a1 a2 a3 a4)

def r_c_137 (a0 : FVec F S4194304x3 .f32) (a1 : FVec F S2x3 .f32) (a2 : FVec F S256x256x256 .f32) (a3 a4 : FVec F S64x3 .f32) :=
  (constantI S_ 32 0#32)

def r_c_138 (a0 : FVec F S4194304x3 .f32) (a1 : FVec F S2x3 .f32) (a2 : FVec F S256x256x256 .f32) (a3 a4 : FVec F S64x3 .f32) :=
  (constantI S_ 32 63#32)

def r_call18_v0 (a0 : FVec F S4194304x3 .f32) (a1 : FVec F S2x3 .f32) (a2 : FVec F S256x256x256 .f32) (a3 a4 : FVec F S64x3 .f32) :=
  id (r_c_137 a0 a1 a2 a3 a4)

def r_call18_v1 (a0 : FVec F S4194304x3 .f32) (a1 : FVec F S2x3 .f32) (a2 : FVec F S256x256x256 .f32) (a3 a4 : FVec F S64x3 .f32) :=
  (broadcastInDim S4194304 ![] bcast_S_S4194304) (r_call18_v0 a0 a1 a2 a3 a4)

def r_call18_v2 (a0 : FVec F S4194304x3 .f32) (a1 : FVec F S2x3 .f32) (a2 : FVec F S256x256x256 .f32) (a3 a4 : FVec F S64x3 .f32) :=
  maxsi (r_call18_v1 a0 a1 a2 a3 a4) (r_v344 a0 a1 a2 a3 a4)

def r_call18_v3 (a0 : FVec F S4194304x3 .f32) (a1 : FVec F S2x3 .f32) (a2 : FVec F S256x256x256 .f32) (a3 a4 : FVec F S64x3 .f32) :=
  id (r_c_138 a0 a1 a2 a3 a4)

def r_call18_v4 (a0 : FVec F S4194304x3 .f32) (a1 : FVec F S2x3 .f32) (a2 : FVec F S256x256x256 .f32) (a3 a4 : FVec F S64x3 .f32) :=
  (broadcastInDim S4194304 ![] bcast_S_S4194304) (r_call18_v3 a0 a1 a2 a3 a4)

def r_v366 (a0 : FVec F S4194304x3 .f32) (a1 : FVec F S2x3 .f32) (a2 : FVec F S256x256x256 .f32) (a3 a4 : FVec F S64x3 .f32) :=
  minsi (r_call18_v4 a0 a1 a2 a3 a4) (r_call18_v2 a0 a1 a2 a3 a4)

def r_c_139 (a0 : FVec F S4194304x3 .f32) (a1 : FVec F S2x3 .f32) (a2 : FVec F S256x256x256 .f32) (a3 a4 : FVec F S64x3 .f32) :=
  (constantI S_ 32 0#32)

def r_c_140 (a0 : FVec F S4194304x3 .f32) (a1 : FVec F S2x3 .f32) (a2 : FVec F S256x256x256 .f32) (a3 a4 : FVec F S64x3 .f32) :=
  (constantI S_ 32 63#32)

def r_call19_v0 (a0 : FVec F S4194304x3 .f32) (a1 : FVec F S2x3 .f32) (a2 : FVec F S256x256x256 .f32) (a3 a4 : FVec F S64x3 .f32) :=
  id (r_c_139 a0 a1 a2 a3 a4)

def r_call19_v1 (a0 : FVec F S4194304x3 .f32) (a1 : FVec F S2x3 .f32) (a2 : FVec F S256x256x256 .f32) (a3 a4 : FVec F S64x3 .f32) :=
  (broadcastInDim S4194304 ![] bcast_S_S4194304) (r_call19_v0 a0 a1 a2 a3 a4)

def r_call19_v2 (a0 : FVec F S4194304x3 .f32) (a1 : FVec F S2x3 .f32) (a2 : FVec F S256x256x256 .f32) (a3 a4 : FVec F S64x3 .f32) :=
  maxsi (r_call19_v1 a0 a1 a2 a3 a4) (r_v346 a0 a1 a2 a3 a4)

def r_call19_v3 (a0 : FVec F S4194304x3 .f32) (a1 : FVec F S2x3 .f32) (a2 : FVec F S256x256x256 .f32) (a3 a4 : FVec F S64x3 .f32) :=
  id (r_c_140 a0 a1 a2 a3 a4)

def r_call19_v4 (a0 : FVec F S4194304x3 .f32) (a1 : FVec F S2x3 .f32) (a2 : FVec F S256x256x256 .f32) (a3 a4 : FVec F S64x3 .f32) :=
  (broadcastInDim S4194304 ![] bcast_S_S4194304) (r_call19_v3 a0 a1 a2 a3 a4)

def r_v367 (a0 : FVec F S4194304x3 .f32) (a1 : FVec F S2x3 .f32) (a2 : FVec F S256x256x256 .f32) (a3 a4 : FVec F S64x3 .f32) :=
  minsi (r_call19_v4 a0 a1 a2 a3 a4) (r_call19_v2 a0 a1 a2 a3 a4)

def r_c_141 (a0 : FVec F S4194304x3 .f32) (a1 : FVec F S2x3 .f32) (a2 : FVec F S256x256x256 .f32) (a3 a4 : FVec F S64x3 .f32) :=
  (constantI S_ 32 0#32)

def r_c_142 (a0 : FVec F S4194304x3 .f32) (a1 : FVec F S2x3 .f32) (a2 : FVec F S256x256x256 .f32) (a3 a4 : FVec F S64x3 .f32) :=
  (constantI S_ 32 63#32)

def r_call20_v0 (a0 : FVec F S4194304x3 .f32) (a1 : FVec F S2x3 .f32) (a2 : FVec F S256x256x256 .f32) (a3 a4 : FVec F S64x3 .f32) :=
  id (r_c_141 a0 a1 a2 a3 a4)

def r_call20_v1 (a0 : FVec F S4194304x3 .f32) (a1 : FVec F S2x3 .f32) (a2 : FVec F S256x256x256 .f32) (a3 a4 : FVec F S64x3 .f32) :=
  (broadcastInDim S4194304 ![] bcast_S_S4194304) (r_call20_v0 a0 a1 a2 a3 a4)

def r_call20_v2 (a0 : FVec F S4194304x3 .f32) (a1 : FVec F S2x3 .f32) (a2 : FVec F S256x256x256 .f32) (a3 a4 : FVec F S64x3 .f32) :=
  maxsi (r_call20_v1 a0 a1 a2 a3 a4) (r_v348 a0 a1 a2 a3 a4)

def r_call20_v3 (a0 : FVec F S4194304x3 .f32) (a1 : FVec F S2x3 .f32) (a2 : FVec F S256x256x256 .f32) (a3 a4 : FVec F S64x3 .f32) :=
  id (r_c_142 a0 a1 a2 a3 a4)

def r_call20_v4 (a0 : FVec F S4194304x3 .f32) (a1 : FVec F S2x3 .f32) (a2 : FVec F S256x256x256 .f32) (a3 a4 : FVec F S64x3 .f32) :=
  (broadcastInDim S4194304 ![] bcast_S_S4194304) (r_call20_v3 a0 a1 a2 a3 a4)

def r_v368 (a0 : FVec F S4194304x3 .f32) (a1 : FVec F S2x3 .f32) (a2 : FVec F S256x256x256 .f32) (a3 a4 : FVec F S64x3 .f32) :=
  minsi (r_call20_v4 a0 a1 a2 a3 a4) (r_call20_v2 a0 a1 a2 a3 a4)

def r_c_143 (a0 : FVec F S4194304x3 .f32) (a1 : FVec F S2x3 .f32) (a2 : FVec F S256x256x256 .f32) (a3 a4 : FVec F S64x3 .f32) :=
  (constantI S_ 32 0#32)

def r_v369 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_143 a0 a1 a2 a3 a4)

def r_v370 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v30 a0 a1 a2 a3 a4) (r_v369 a0 a1 a2 a3 a4)

def r_c_144 (a0 : FVec F S4194304x3 .f32) (a1 : FVec F S2x3 .f32) (a2 : FVec F S256x256x256 .f32) (a3 a4 : FVec F S64x3 .f32) :=
  (constantI S_ 32 64#32)

def r_v371 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_144 a0 a1 a2 a3 a4)

def r_v372 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v30 a0 a1 a2 a3 a4) (r_v371 a0 a1 a2 a3 a4)

def r_v373 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v370 a0 a1 a2 a3 a4) (r_v372 a0 a1 a2 a3 a4) (r_v30 a0 a1 a2 a3 a4)

def r_c_145 (a0 : FVec F S4194304x3 .f32) (a1 : FVec F S2x3 .f32) (a2 : FVec F S256x256x256 .f32) (a3 a4 : FVec F S64x3 .f32) :=
  (constantI S_ 32 0#32)

def r_v374 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_145 a0 a1 a2 a3 a4)

def r_v375 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v366 a0 a1 a2 a3 a4) (r_v374 a0 a1 a2 a3 a4)

def r_c_146 (a0 : FVec F S4194304x3 .f32) (a1 : FVec F S2x3 .f32) (a2 : FVec F S256x256x256 .f32) (a3 a4 : FVec F S64x3 .f32) :=
  (constantI S_ 32 64#32)

def r_v376 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_146 a0 a1 a2 a3 a4)

def r_v377 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v366 a0 a1 a2 a3 a4) (r_v376 a0 a1 a2 a3 a4)

def r_v378 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v375 a0 a1 a2 a3 a4) (r_v377 a0 a1 a2 a3 a4) (r_v366 a0 a1 a2 a3 a4)

def r_c_147 (a0 : FVec F S4194304x3 .f32) (a1 : FVec F S2x3 .f32) (a2 : FVec F S256x256x256 .f32) (a3 a4 : FVec F S64x3 .f32) :=
  (constantI S_ 32 0#32)

def r_v379 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_147 a0 a1 a2 a3 a4)

def r_v380 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v367 a0 a1 a2 a3 a4) (r_v379 a0 a1 a2 a3 a4)

def r_c_148 (a0 : FVec F S4194304x3 .f32) (a1 : FVec F S2x3 .f32) (a2 : FVec F S256x256x256 .f32) (a3 a4 : FVec F S64x3 .f32) :=
  (constantI S_ 32 64#32)

def r_v381 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_148 a0 a1 a2 a3 a4)

def r_v382 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v367 a0 a1 a2 a3 a4) (r_v381 a0 a1 a2 a3 a4)

def r_v383 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v380 a0 a1 a2 a3 a4) (r_v382 a0 a1 a2 a3 a4) (r_v367 a0 a1 a2 a3 a4)

def r_c_149 (a0 : FVec F S4194304x3 .f32) (a1 : FVec F S2x3 .f32) (a2 : FVec F S256x256x256 .f32) (a3 a4 : FVec F S64x3 .f32) :=
  (constantI S_ 32 0#32)

def r_v384 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_149 a0 a1 a2 a3 a4)

def r_v385 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v368 a0 a1 a2 a3 a4) (r_v384 a0 a1 a2 a3 a4)

def r_c_150 (a0 : FVec F S4194304x3 .f32) (a1 : FVec F S2x3 .f32) (a2 : FVec F S256x256x256 .f32) (a3 a4 : FVec F S64x3 .f32) :=
  (constantI S_ 32 64#32)

def r_v386 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_150 a0 a1 a2 a3 a4)

def r_v387 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v368 a0 a1 a2 a3 a4) (r_v386 a0 a1 a2 a3 a4)

def r_v388 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v385 a0 a1 a2 a3 a4) (r_v387 a0 a1 a2 a3 a4) (r_v368 a0 a1 a2 a3 a4)

def r_v389 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v373 a0 a1 a2 a3 a4)

def r_v390 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v378 a0 a1 a2 a3 a4)

def r_v391 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v383 a0 a1 a2 a3 a4)

def r_v392 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v388 a0 a1 a2 a3 a4)

def r_v393 (a0 : FVec F S4194304x3 .f32) (a1 : FVec F S2x3 .f32) (a2 : FVec F S256x256x256 .f32) (a3 a4 : FVec F S64x3 .f32) :=
  (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ![(r_v389 a0 a1 a2 a3 a4), (r_v390 a0 a1 a2 a3 a4), (r_v391 a0 a1 a2 a3 a4), (r_v392 a0 a1 a2 a3 a4)]

def r_v394 (a0 : FVec F S4194304x3 .f32) (a1 : FVec F S2x3 .f32) (a2 : FVec F S256x256x256 .f32) (a3 a4 : FVec F S64x3 .f32) :=
  ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)) (r_v66 a0 a1 a2 a3 a4) (r_v393 a0 a1 a2 a3 a4)

def r_cst_151 (a0 : FVec F S4194304x3 .f32) (a1 : FVec F S2x3 .f32) (a2 : FVec F S256x256x256 .f32) (a3 a4 : FVec F S64x3 .f32) :=
  (constant (F := F) S_ .f32 0x00000000#32)

def r_call21_v0 (a0 : FVec F S4194304x3 .f32) (a1 : FVec F S2x3 .f32) (a2 : FVec F S256x256x256 .f32) (a3 a4 : FVec F S64x3 .f32) :=
  id (r_cst_151 a0 a1 a2 a3 a4)

def r_call21_v1 (a0 : FVec F S4194304x3 .f32) (a1 : FVec F S2x3 .f32) (a2 : FVec F S256x256x256 .f32) (a3 a4 : FVec F S64x3 .f32) :=
  (broadcastInDim S4194304 ![] bcast_S_S4194304) (r_call21_v0 a0 a1 a2 a3 a4)

def r_v395 (a0 : FVec F S4194304x3 .f32) (a1 : FVec F S2x3 .f32) (a2 : FVec F S256x256x256 .f32) (a3 a4 : FVec F S64x3 .f32) :=
  select (r_v365 a0 a1 a2 a3 a4) (r_v394 a0 a1 a2 a3 a4) (r_call21_v1 a0 a1 a2 a3 a4)

def r_v396 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v342 a0 a1 a2 a3 a4) (r_v395 a0 a1 a2 a3 a4)

def r_v397 (a0 : FVec F S4194304x3 .f32) (a1 : FVec F S2x3 .f32) (a2 : FVec F S256x256x256 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (r_v336 a0 a1 a2 a3 a4) (r_v396 a0 a1 a2 a3 a4)

def r_v398 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v96 a0 a1 a2 a3 a4) (r_v338 a0 a1 a2 a3 a4)

def r_v399 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v398 a0 a1 a2 a3 a4) (r_v94 a0 a1 a2 a3 a4)

def r_c_152 (a0 : FVec F S4194304x3 .f32) (a1 : FVec F S2x3 .f32) (a2 : FVec F S256x256x256 .f32) (a3 a4 : FVec F S64x3 .f32) :=
  (constantI S_ 32 1#32)

def r_v400 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_152 a0 a1 a2 a3 a4)

def r_v401 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v99 a0 a1 a2 a3 a4) (r_v400 a0 a1 a2 a3 a4)

def r_c_153 (a0 : FVec F S4194304x3 .f32) (a1 : FVec F S2x3 .f32) (a2 : FVec F S256x256x256 .f32) (a3 a4 : FVec F S64x3 .f32) :=
  (constantI S_ 32 0#32)

def r_v402 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_153 a0 a1 a2 a3 a4)

def r_v403 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v98 a0 a1 a2 a3 a4) (r_v402 a0 a1 a2 a3 a4)

def r_c_154 (a0 : FVec F S4194304x3 .f32) (a1 : FVec F S2x3 .f32) (a2 : FVec F S256x256x256 .f32) (a3 a4 : FVec F S64x3 .f32) :=
  (constantI S_ 32 1#32)

def r_v404 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_154 a0 a1 a2 a3 a4)

def r_v405 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v97 a0 a1 a2 a3 a4) (r_v404 a0 a1 a2 a3 a4)

def r_c_155 (a0 : FVec F S4194304x3 .f32) (a1 : FVec F S2x3 .f32) (a2 : FVec F S256x256x256 .f32) (a3 a4 : FVec F S64x3 .f32) :=
  (constantI S_ 32 0#32)

def r_v406 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_155 a0 a1 a2 a3 a4)

def r_v407 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v401 a0 a1 a2 a3 a4) (r_v406 a0 a1 a2 a3 a4)

def r_c_156 (a0 : FVec F S4194304x3 .f32) (a1 : FVec F S2x3 .f32) (a2 : FVec F S256x256x256 .f32) (a3 a4 : FVec F S64x3 .f32) :=
  (constantI S_ 32 64#32)

def r_v408 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_156 a0 a1 a2 a3 a4)

def r_v409 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v401 a0 a1 a2 a3 a4) (r_v408 a0 a1 a2 a3 a4)

def r_v410 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v407 a0 a1 a2 a3 a4) (r_v409 a0 a1 a2 a3 a4)

def r_c_157 (a0 : FVec F S4194304x3 .f32) (a1 : FVec F S2x3 .f32) (a2 : FVec F S256x256x256 .f32) (a3 a4 : FVec F S64x3 .f32) :=
  (constantI S_ 32 0#32)

def r_v411 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_157 a0 a1 a2 a3 a4)

def r_v412 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v403 a0 a1 a2 a3 a4) (r_v411 a0 a1 a2 a3 a4)

def r_v413 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v410 a0 a1 a2 a3 a4) (r_v412 a0 a1 a2 a3 a4)

def r_c_158 (a0 : FVec F S4194304x3 .f32) (a1 : FVec F S2x3 .f32) (a2 : FVec F S256x256x256 .f32) (a3 a4 : FVec F S64x3 .f32) :=
  (constantI S_ 32 64#32)

def r_v414 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_158 a0 a1 a2 a3 a4)

def r_v415 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v403 a0 a1 a2 a3 a4) (r_v414 a0 a1 a2 a3 a4)

def r_v416 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v413 a0 a1 a2 a3 a4) (r_v415 a0 a1 a2 a3 a4)

def r_c_159 (a0 : FVec F S4194304x3 .f32) (a1 : FVec F S2x3 .f32) (a2 : FVec F S256x256x256 .f32) (a3 a4 : FVec F S64x3 .f32) :=
  (constantI S_ 32 0#32)

def r_v417 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_159 a0 a1 a2 a3 a4)

def r_v418 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v405 a0 a1 a2 a3 a4) (r_v417 a0 a1 a2 a3 a4)

def r_v419 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v416 a0 a1 a2 a3 a4) (r_v418 a0 a1 a2 a3 a4)

def r_c_160 (a0 : FVec F S4194304x3 .f32) (a1 : FVec F S2x3 .f32) (a2 : FVec F S256x256x256 .f32) (a3 a4 : FVec F S64x3 .f32) :=
  (constantI S_ 32 64#32)

def r_v420 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_160 a0 a1 a2 a3 a4)

def r_v421 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v405 a0 a1 a2 a3 a4) (r_v420 a0 a1 a2 a3 a4)

def r_v422 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v419 a0 a1 a2 a3 a4) (r_v421 a0 a1 a2 a3 a4)

def r_c_161 (a0 : FVec F S4194304x3 .f32) (a1 : FVec F S2x3 .f32) (a2 : FVec F S256x256x256 .f32) (a3 a4 : FVec F S64x3 .f32) :=
  (constantI S_ 32 0#32)

def r_c_162 (a0 : FVec F S4194304x3 .f32) (a1 : FVec F S2x3 .f32) (a2 : FVec F S256x256x256 .f32) (a3 a4 : FVec F S64x3 .f32) :=
  (constantI S_ 32 63#32)

def r_call22_v0 (a0 : FVec F S4194304x3 .f32) (a1 : FVec F S2x3 .f32) (a2 : FVec F S256x256x256 .f32) (a3 a4 : FVec F S64x3 .f32) :=
  id (r_c_161 a0 a1 a2 a3 a4)

def r_call22_v1 (a0 : FVec F S4194304x3 .f32) (a1 : FVec F S2x3 .f32) (a2 : FVec F S256x256x256 .f32) (a3 a4 : FVec F S64x3 .f32) :=
  (broadcastInDim S4194304 ![] bcast_S_S4194304) (r_call22_v0 a0 a1 a2 a3 a4)

def r_call22_v2 (a0 : FVec F S4194304x3 .f32) (a1 : FVec F S2x3 .f32) (a2 : FVec F S256x256x256 .f32) (a3 a4 : FVec F S64x3 .f32) :=
  maxsi (r_call22_v1 a0 a1 a2 a3 a4) (r_v401 a0 a1 a2 a3 a4)

def r_call22_v3 (a0 : FVec F S4194304x3 .f32) (a1 : FVec F S2x3 .f32) (a2 : FVec F S256x256x256 .f32) (a3 a4 : FVec F S64x3 .f32) :=
  id (r_c_162 a0 a1 a2 a3 a4)

def r_call22_v4 (a0 : FVec F S4194304x3 .f32) (a1 : FVec F S2x3 .f32) (a2 : FVec F S256x256x256 .f32) (a3 a4 : FVec F S64x3 .f32) :=
  (broadcastInDim S4194304 ![] bcast_S_S4194304) (r_call22_v3 a0 a1 a2 a3 a4)

def r_v423 (a0 : FVec F S4194304x3 .f32) (a1 : FVec F S2x3 .f32) (a2 : FVec F S256x256x256 .f32) (a3 a4 : FVec F S64x3 .f32) :=
  minsi (r_call22_v4 a0 a1 a2 a3 a4) (r_call22_v2 a0 a1 a2 a3 a4)

def r_c_163 (a0 : FVec F S4194304x3 .f32) (a1 : FVec F S2x3 .f32) (a2 : FVec F S256x256x256 .f32) (a3 a4 : FVec F S64x3 .f32) :=
  (constantI S_ 32 0#32)

def r_c_164 (a0 : FVec F S4194304x3 .f32) (a1 : FVec F S2x3 .f32) (a2 : FVec F S256x256x256 .f32) (a3 a4 : FVec F S64x3 .f32) :=
  (constantI S_ 32 63#32)

def r_call23_v0 (a0 : FVec F S4194304x3 .f32) (a1 : FVec F S2x3 .f32) (a2 : FVec F S256x256x256 .f32) (a3 a4 : FVec F S64x3 .f32) :=
  id (r_c_163 a0 a1 a2 a3 a4)

def r_call23_v1 (a0 : FVec F S4194304x3 .f32) (a1 : FVec F S2x3 .f32) (a2 : FVec F S256x256x256 .f32) (a3 a4 : FVec F S64x3 .f32) :=
  (broadcastInDim S4194304 ![] bcast_S_S4194304) (r_call23_v0 a0 a1 a2 a3 a4)

def r_call23_v2 (a0 : FVec F S4194304x3 .f32) (a1 : FVec F S2x3 .f32) (a2 : FVec F S256x256x256 .f32) (a3 a4 : FVec F S64x3 .f32) :=
  maxsi (r_call23_v1 a0 a1 a2 a3 a4) (r_v403 a0 a1 a2 a3 a4)

def r_call23_v3 (a0 : FVec F S4194304x3 .f32) (a1 : FVec F S2x3 .f32) (a2 : FVec F S256x256x256 .f32) (a3 a4 : FVec F S64x3 .f32) :=
  id (r_c_164 a0 a1 a2 a3 a4)

def r_call23_v4 (a0 : FVec F S4194304x3 .f32) (a1 : FVec F S2x3 .f32) (a2 : FVec F S256x256x256 .f32) (a3 a4 : FVec F S64x3 .f32) :=
  (broadcastInDim S4194304 ![] bcast_S_S4194304) (r_call23_v3 a0 a1 a2 a3 a4)

def r_v424 (a0 : FVec F S4194304x3 .f32) (a1 : FVec F S2x3 .f32) (a2 : FVec F S256x256x256 .f32) (a3 a4 : FVec F S64x3 .f32) :=
  minsi (r_call23_v4 a0 a1 a2 a3 a4) (r_call23_v2 a0 a1 a2 a3 a4)

def r_c_165 (a0 : FVec F S4194304x3 .f32) (a1 : FVec F S2x3 .f32) (a2 : FVec F S256x256x256 .f32) (a3 a4 : FVec F S64x3 .f32) :=
  (constantI S_ 32 0#32)

def r_c_166 (a0 : FVec F S4194304x3 .f32) (a1 : FVec F S2x3 .f32) (a2 : FVec F S256x256x256 .f32) (a3 a4 : FVec F S64x3 .f32) :=
  (constantI S_ 32 63#32)

def r_call24_v0 (a0 : FVec F S4194304x3 .f32) (a1 : FVec F S2x3 .f32) (a2 : FVec F S256x256x256 .f32) (a3 a4 : FVec F S64x3 .f32) :=
  id (r_c_165 a0 a1 a2 a3 a4)

def r_call24_v1 (a0 : FVec F S4194304x3 .f32) (a1 : FVec F S2x3 .f32) (a2 : FVec F S256x256x256 .f32) (a3 a4 : FVec F S64x3 .f32) :=
  (broadcastInDim S4194304 ![] bcast_S_S4194304) (r_call24_v0 a0 a1 a2 a3 a4)

def r_call24_v2 (a0 : FVec F S4194304x3 .f32) (a1 : FVec F S2x3 .f32) (a2 : FVec F S256x256x256 .f32) (a3 a4 : FVec F S64x3 .f32) :=
  maxsi (r_call24_v1 a0 a1 a2 a3 a4) (r_v405 a0 a1 a2 a3 a4)

def r_call24_v3 (a0 : FVec F S4194304x3 .f32) (a1 : FVec F S2x3 .f32) (a2 : FVec F S256x256x256 .f32) (a3 a4 : FVec F S64x3 .f32) :=
  id (r_c_166 a0 a1 a2 a3 a4)

def r_call24_v4 (a0 : FVec F S4194304x3 .f32) (a1 : FVec F S2x3 .f32) (a2 : FVec F S256x256x256 .f32) (a3 a4 : FVec F S64x3 .f32) :=
  (broadcastInDim S4194304 ![] bcast_S_S4194304) (r_call24_v3 a0 a1 a2 a3 a4)

def r_v425 (a0 : FVec F S4194304x3 .f32) (a1 : FVec F S2x3 .f32) (a2 : FVec F S256x256x256 .f32) (a3 a4 : FVec F S64x3 .f32) :=
  minsi (r_call24_v4 a0 a1 a2 a3 a4) (r_call24_v2 a0 a1 a2 a3 a4)

def r_c_167 (a0 : FVec F S4194304x3 .f32) (a1 : FVec F S2x3 .f32) (a2 : FVec F S256x256x256 .f32) (a3 a4 : FVec F S64x3 .f32) :=
  (constantI S_ 32 0#32)

def r_v426 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_167 a0 a1 a2 a3 a4)

def r_v427 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v30 a0 a1 a2 a3 a4) (r_v426 a0 a1 a2 a3 a4)

def r_c_168 (a0 : FVec F S4194304x3 .f32) (a1 : FVec F S2x3 .f32) (a2 : FVec F S256x256x256 .f32) (a3 a4 : FVec F S64x3 .f32) :=
  (constantI S_ 32 64#32)

def r_v428 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_168 a0 a1 a2 a3 a4)

def r_v429 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v30 a0 a1 a2 a3 a4) (r_v428 a0 a1 a2 a3 a4)

def r_v430 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v427 a0 a1 a2 a3 a4) (r_v429 a0 a1 a2 a3 a4) (r_v30 a0 a1 a2 a3 a4)

def r_c_169 (a0 : FVec F S4194304x3 .f32) (a1 : FVec F S2x3 .f32) (a2 : FVec F S256x256x256 .f32) (a3 a4 : FVec F S64x3 .f32) :=
  (constantI S_ 32 0#32)

def r_v431 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_169 a0 a1 a2 a3 a4)

def r_v432 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v423 a0 a1 a2 a3 a4) (r_v431 a0 a1 a2 a3 a4)

def r_c_170 (a0 : FVec F S4194304x3 .f32) (a1 : FVec F S2x3 .f32) (a2 : FVec F S256x256x256 .f32) (a3 a4 : FVec F S64x3 .f32) :=
  (constantI S_ 32 64#32)

def r_v433 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_170 a0 a1 a2 a3 a4)

def r_v434 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v423 a0 a1 a2 a3 a4) (r_v433 a0 a1 a2 a3 a4)

def r_v435 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v432 a0 a1 a2 a3 a4) (r_v434 a0 a1 a2 a3 a4) (r_v423 a0 a1 a2 a3 a4)

def r_c_171 (a0 : FVec F S4194304x3 .f32) (a1 : FVec F S2x3 .f32) (a2 : FVec F S256x256x256 .f32) (a3 a4 : FVec F S64x3 .f32) :=
  (constantI S_ 32 0#32)

def r_v436 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_171 a0 a1 a2 a3 a4)

def r_v437 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v424 a0 a1 a2 a3 a4) (r_v436 a0 a1 a2 a3 a4)

def r_c_172 (a0 : FVec F S4194304x3 .f32) (a1 : FVec F S2x3 .f32) (a2 : FVec F S256x256x256 .f32) (a3 a4 : FVec F S64x3 .f32) :=
  (constantI S_ 32 64#32)

def r_v438 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_172 a0 a1 a2 a3 a4)

def r_v439 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v424 a0 a1 a2 a3 a4) (r_v438 a0 a1 a2 a3 a4)

def r_v440 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v437 a0 a1 a2 a3 a4) (r_v439 a0 a1 a2 a3 a4) (r_v424 a0 a1 a2 a3 a4)

def r_c_173 (a0 : FVec F S4194304x3 .f32) (a1 : FVec F S2x3 .f32) (a2 : FVec F S256x256x256 .f32) (a3 a4 : FVec F S64x3 .f32) :=
  (constantI S_ 32 0#32)

def r_v441 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_173 a0 a1 a2 a3 a4)

def r_v442 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v425 a0 a1 a2 a3 a4) (r_v441 a0 a1 a2 a3 a4)

def r_c_174 (a0 : FVec F S4194304x3 .f32) (a1 : FVec F S2x3 .f32) (a2 : FVec F S256x256x256 .f32) (a3 a4 : FVec F S64x3 .f32) :=
  (constantI S_ 32 64#32)

def r_v443 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_174 a0 a1 a2 a3 a4)

def r_v444 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v425 a0 a1 a2 a3 a4) (r_v443 a0 a1 a2 a3 a4)

def r_v445 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v442 a0 a1 a2 a3 a4) (r_v444 a0 a1 a2 a3 a4) (r_v425 a0 a1 a2 a3 a4)

def r_v446 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v430 a0 a1 a2 a3 a4)

def r_v447 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v435 a0 a1 a2 a3 a4)

def r_v448 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v440 a0 a1 a2 a3 a4)

def r_v449 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v445 a0 a1 a2 a3 a4)

def r_v450 (a0 : FVec F S4194304x3 .f32) (a1 : FVec F S2x3 .f32) (a2 : FVec F S256x256x256 .f32) (a3 a4 : FVec F S64x3 .f32) :=
  (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ![(r_v446 a0 a1 a2 a3 a4), (r_v447 a0 a1 a2 a3 a4), (r_v448 a0 a1 a2 a3 a4), (r_v449 a0 a1 a2 a3 a4)]

def r_v451 (a0 : FVec F S4194304x3 .f32) (a1 : FVec F S2x3 .f32) (a2 : FVec F S256x256x256 .f32) (a3 a4 : FVec F S64x3 .f32) :=
  ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)) (r_v66 a0 a1 a2 a3 a4) (r_v450 a0 a1 a2 a3 a4)

def r_cst_175 (a0 : FVec F S4194304x3 .f32) (a1 : FVec F S2x3 .f32) (a2 : FVec F S256x256x256 .f32) (a3 a4 : FVec F S64x3 .f32) :=
  (constant (F := F) S_ .f32 0x00000000#32)

def r_call25_v0 (a0 : FVec F S4194304x3 .f32) (a1 : FVec F S2x3 .f32) (a2 : FVec F S256x256x256 .f32) (a3 a4 : FVec F S64x3 .f32) :=
  id (r_cst_175 a0 a1 a2 a3 a4)

def r_call25_v1 (a0 : FVec F S4194304x3 .f32) (a1 : FVec F S2x3 .f32) (a2 : FVec F S256x256x256 .f32) (a3 a4 : FVec F S64x3 .f32) :=
  (broadcastInDim S4194304 ![] bcast_S_S4194304) (r_call25_v0 a0 a1 a2 a3 a4)

def r_v452 (a0 : FVec F S4194304x3 .f32) (a1 : FVec F S2x3 .f32) (a2 : FVec F S256x256x256 .f32) (a3 a4 : FVec F S64x3 .f32) :=
  select (r_v422 a0 a1 a2 a3 a4) (r_v451 a0 a1 a2 a3 a4) (r_call25_v1 a0 a1 a2 a3 a4)

def r_v453 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v399 a0 a1 a2 a3 a4) (r_v452 a0 a1 a2 a3 a4)

def r_v454 (a0 : FVec F S4194304x3 .f32) (a1 : FVec F S2x3 .f32) (a2 : FVec F S256x256x256 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (r_v397 a0 a1 a2 a3 a4) (r_v453 a0 a1 a2 a3 a4)

def r_cst_176 (a0 : FVec F S4194304x3 .f32) (a1 : FVec F S2x3 .f32) (a2 : FVec F S256x256x256 .f32) (a3 a4 : FVec F S64x3 .f32) :=
  (constant (F := F) S_ .f32 0x3F800000#32)

def r_v455 (a0 : FVec F S4194304x3 .f32) (a1 : FVec F S2x3 .f32) (a2 : FVec F S256x256x256 .f32) (a3 a4 : FVec F S64x3 .f32) :=
  (broadcastInDim S4194304 ![] bcast_S_S4194304 : (⟨S_, .f32⟩ : BufTy).Contents (Elt F) → (⟨S4194304, .f32⟩ : BufTy).Contents (Elt F)) (r_cst_176 a0 a1 a2 a3 a4)

def r_v456 (a0 : FVec F S4194304x3 .f32) (a1 : FVec F S2x3 .f32) (a2 : FVec F S256x256x256 .f32) (a3 a4 : FVec F S64x3 .f32) :=
  (subf : (⟨S4194304, .f32⟩ : BufTy).Contents (Elt F) → (⟨S4194304, .f32⟩ : BufTy).Contents (Elt F) → (⟨S4194304, .f32⟩ : BufTy).Contents (Elt F)) (r_v455 a0 a1 a2 a3 a4) (r_v94 a0 a1 a2 a3 a4)

def r_v457 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v96 a0 a1 a2 a3 a4) (r_v95 a0 a1 a2 a3 a4)

def r_v458 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v457 a0 a1 a2 a3 a4) (r_v456 a0 a1 a2 a3 a4)

def r_c_177 (a0 : FVec F S4194304x3 .f32) (a1 : FVec F S2x3 .f32) (a2 : FVec F S256x256x256 .f32) (a3 a4 : FVec F S64x3 .f32) :=
  (constantI S_ 32 1#32)

def r_v459 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_177 a0 a1 a2 a3 a4)

def r_v460 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v99 a0 a1 a2 a3 a4) (r_v459 a0 a1 a2 a3 a4)

def r_c_178 (a0 : FVec F S4194304x3 .f32) (a1 : FVec F S2x3 .f32) (a2 : FVec F S256x256x256 .f32) (a3 a4 : FVec F S64x3 .f32) :=
  (constantI S_ 32 1#32)

def r_v461 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_178 a0 a1 a2 a3 a4)

def r_v462 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v98 a0 a1 a2 a3 a4) (r_v461 a0 a1 a2 a3 a4)

def r_c_179 (a0 : FVec F S4194304x3 .f32) (a1 : FVec F S2x3 .f32) (a2 : FVec F S256x256x256 .f32) (a3 a4 : FVec F S64x3 .f32) :=
  (constantI S_ 32 0#32)

def r_v463 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_179 a0 a1 a2 a3 a4)

def r_v464 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v97 a0 a1 a2 a3 a4) (r_v463 a0 a1 a2 a3 a4)

def r_c_180 (a0 : FVec F S4194304x3 .f32) (a1 : FVec F S2x3 .f32) (a2 : FVec F S256x256x256 .f32) (a3 a4 : FVec F S64x3 .f32) :=
  (constantI S_ 32 0#32)

def r_v465 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_180 a0 a1 a2 a3 a4)

def r_v466 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v460 a0 a1 a2 a3 a4) (r_v465 a0 a1 a2 a3 a4)

def r_c_181 (a0 : FVec F S4194304x3 .f32) (a1 : FVec F S2x3 .f32) (a2 : FVec F S256x256x256 .f32) (a3 a4 : FVec F S64x3 .f32) :=
  (constantI S_ 32 64#32)

def r_v467 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_181 a0 a1 a2 a3 a4)

def r_v468 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v460 a0 a1 a2 a3 a4) (r_v467 a0 a1 a2 a3 a4)

def r_v469 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v466 a0 a1 a2 a3 a4) (r_v468 a0 a1 a2 a3 a4)

def r_c_182 (a0 : FVec F S4194304x3 .f32) (a1 : FVec F S2x3 .f32) (a2 : FVec F S256x256x256 .f32) (a3 a4 : FVec F S64x3 .f32) :=
  (constantI S_ 32 0#32)

def r_v470 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_182 a0 a1 a2 a3 a4)

def r_v471 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v462 a0 a1 a2 a3 a4) (r_v470 a0 a1 a2 a3 a4)

def r_v472 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v469 a0 a1 a2 a3 a4) (r_v471 a0 a1 a2 a3 a4)

def r_c_183 (a0 : FVec F S4194304x3 .f32) (a1 : FVec F S2x3 .f32) (a2 : FVec F S256x256x256 .f32) (a3 a4 : FVec F S64x3 .f32) :=
  (constantI S_ 32 64#32)

def r_v473 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_183 a0 a1 a2 a3 a4)

def r_v474 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v462 a0 a1 a2 a3 a4) (r_v473 a0 a1 a2 a3 a4)

def r_v475 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v472 a0 a1 a2 a3 a4) (r_v474 a0 a1 a2 a3 a4)

def r_c_184 (a0 : FVec F S4194304x3 .f32) (a1 : FVec F S2x3 .f32) (a2 : FVec F S256x256x256 .f32) (a3 a4 : FVec F S64x3 .f32) :=
  (constantI S_ 32 0#32)

def r_v476 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_184 a0 a1 a2 a3 a4)

def r_v477 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v464 a0 a1 a2 a3 a4) (r_v476 a0 a1 a2 a3 a4)

def r_v478 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v475 a0 a1 a2 a3 a4) (r_v477 a0 a1 a2 a3 a4)

def r_c_185 (a0 : FVec F S4194304x3 .f32) (a1 : FVec F S2x3 .f32) (a2 : FVec F S256x256x256 .f32) (a3 a4 : FVec F S64x3 .f32) :=
  (constantI S_ 32 64#32)

def r_v479 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_185 a0 a1 a2 a3 a4)

def r_v480 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v464 a0 a1 a2 a3 a4) (r_v479 a0 a1 a2 a3 a4)

def r_v481 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v478 a0 a1 a2 a3 a4) (r_v480 a0 a1 a2 a3 a4)

def r_c_186 (a0 : FVec F S4194304x3 .f32) (a1 : FVec F S2x3 .f32) (a2 : FVec F S256x256x256 .f32) (a3 a4 : FVec F S64x3 .f32) :=
  (constantI S_ 32 0#32)

def r_c_187 (a0 : FVec F S4194304x3 .f32) (a1 : FVec F S2x3 .f32) (a2 : FVec F S256x256x256 .f32) (a3 a4 : FVec F S64x3 .f32) :=
  (constantI S_ 32 63#32)

def r_call26_v0 (a0 : FVec F S4194304x3 .f32) (a1 : FVec F S2x3 .f32) (a2 : FVec F S256x256x256 .f32) (a3 a4 : FVec F S64x3 .f32) :=
  id (r_c_186 a0 a1 a2 a3 a4)

def r_call26_v1 (a0 : FVec F S4194304x3 .f32) (a1 : FVec F S2x3 .f32) (a2 : FVec F S256x256x256 .f32) (a3 a4 : FVec F S64x3 .f32) :=
  (broadcastInDim S4194304 ![] bcast_S_S4194304) (r_call26_v0 a0 a1 a2 a3 a4)

def r_call26_v2 (a0 : FVec F S4194304x3 .f32) (a1 : FVec F S2x3 .f32) (a2 : FVec F S256x256x256 .f32) (a3 a4 : FVec F S64x3 .f32) :=
  maxsi (r_call26_v1 a0 a1 a2 a3 a4) (r_v460 a0 a1 a2 a3 a4)

def r_call26_v3 (a0 : FVec F S4194304x3 .f32) (a1 : FVec F S2x3 .f32) (a2 : FVec F S256x256x256 .f32) (a3 a4 : FVec F S64x3 .f32) :=
  id (r_c_187 a0 a1 a2 a3 a4)

def r_call26_v4 (a0 : FVec F S4194304x3 .f32) (a1 : FVec F S2x3 .f32) (a2 : FVec F S256x256x256 .f32) (a3 a4 : FVec F S64x3 .f32) :=
  (broadcastInDim S4194304 ![] bcast_S_S4194304) (r_call26_v3 a0 a1 a2 a3 a4)

def r_v482 (a0 : FVec F S4194304x3 .f32) (a1 : FVec F S2x3 .f32) (a2 : FVec F S256x256x256 .f32) (a3 a4 : FVec F S64x3 .f32) :=
  minsi (r_call26_v4 a0 a1 a2 a3 a4) (r_call26_v2 a0 a1 a2 a3 a4)

def r_c_188 (a0 : FVec F S4194304x3 .f32) (a1 : FVec F S2x3 .f32) (a2 : FVec F S256x256x256 .f32) (a3 a4 : FVec F S64x3 .f32) :=
  (constantI S_ 32 0#32)

def r_c_189 (a0 : FVec F S4194304x3 .f32) (a1 : FVec F S2x3 .f32) (a2 : FVec F S256x256x256 .f32) (a3 a4 : FVec F S64x3 .f32) :=
  (constantI S_ 32 63#32)

def r_call27_v0 (a0 : FVec F S4194304x3 .f32) (a1 : FVec F S2x3 .f32) (a2 : FVec F S256x256x256 .f32) (a3 a4 : FVec F S64x3 .f32) :=
  id (r_c_188 a0 a1 a2 a3 a4)

def r_call27_v1 (a0 : FVec F S4194304x3 .f32) (a1 : FVec F S2x3 .f32) (a2 : FVec F S256x256x256 .f32) (a3 a4 : FVec F S64x3 .f32) :=
  (broadcastInDim S4194304 ![] bcast_S_S4194304) (r_call27_v0 a0 a1 a2 a3 a4)

def r_call27_v2 (a0 : FVec F S4194304x3 .f32) (a1 : FVec F S2x3 .f32) (a2 : FVec F S256x256x256 .f32) (a3 a4 : FVec F S64x3 .f32) :=
  maxsi (r_call27_v1 a0 a1 a2 a3 a4) (r_v462 a0 a1 a2 a3 a4)

def r_call27_v3 (a0 : FVec F S4194304x3 .f32) (a1 : FVec F S2x3 .f32) (a2 : FVec F S256x256x256 .f32) (a3 a4 : FVec F S64x3 .f32) :=
  id (r_c_189 a0 a1 a2 a3 a4)

def r_call27_v4 (a0 : FVec F S4194304x3 .f32) (a1 : FVec F S2x3 .f32) (a2 : FVec F S256x256x256 .f32) (a3 a4 : FVec F S64x3 .f32) :=
  (broadcastInDim S4194304 ![] bcast_S_S4194304) (r_call27_v3 a0 a1 a2 a3 a4)

def r_v483 (a0 : FVec F S4194304x3 .f32) (a1 : FVec F S2x3 .f32) (a2 : FVec F S256x256x256 .f32) (a3 a4 : FVec F S64x3 .f32) :=
  minsi (r_call27_v4 a0 a1 a2 a3 a4) (r_call27_v2 a0 a1 a2 a3 a4)

def r_c_190 (a0 : FVec F S4194304x3 .f32) (a1 : FVec F S2x3 .f32) (a2 : FVec F S256x256x256 .f32) (a3 a4 : FVec F S64x3 .f32) :=
  (constantI S_ 32 0#32)

def r_c_191 (a0 : FVec F S4194304x3 .f32) (a1 : FVec F S2x3 .f32) (a2 : FVec F S256x256x256 .f32) (a3 a4 : FVec F S64x3 .f32) :=
  (constantI S_ 32 63#32)

def r_call28_v0 (a0 : FVec F S4194304x3 .f32) (a1 : FVec F S2x3 .f32) (a2 : FVec F S256x256x256 .f32) (a3 a4 : FVec F S64x3 .f32) :=
  id (r_c_190 a0 a1 a2 a3 a4)

def r_call28_v1 (a0 : FVec F S4194304x3 .f32) (a1 : FVec F S2x3 .f32) (a2 : FVec F S256x256x256 .f32) (a3 a4 : FVec F S64x3 .f32) :=
  (broadcastInDim S4194304 ![] bcast_S_S4194304) (r_call28_v0 a0 a1 a2 a3 a4)

def r_call28_v2 (a0 : FVec F S4194304x3 .f32) (a1 : FVec F S2x3 .f32) (a2 : FVec F S256x256x256 .f32) (a3 a4 : FVec F S64x3 .f32) :=
  maxsi (r_call28_v1 a0 a1 a2 a3 a4) (r_v464 a0 a1 a2 a3 a4)

def r_call28_v3 (a0 : FVec F S4194304x3 .f32) (a1 : FVec F S2x3 .f32) (a2 : FVec F S256x256x256 .f32) (a3 a4 : FVec F S64x3 .f32) :=
  id (r_c_191 a0 a1 a2 a3 a4)

def r_call28_v4 (a0 : FVec F S4194304x3 .f32) (a1 : FVec F S2x3 .f32) (a2 : FVec F S256x256x256 .f32) (a3 a4 : FVec F S64x3 .f32) :=
  (broadcastInDim S4194304 ![] bcast_S_S4194304) (r_call28_v3 a0 a1 a2 a3 a4)

def r_v484 (a0 : FVec F S4194304x3 .f32) (a1 : FVec F S2x3 .f32) (a2 : FVec F S256x256x256 .f32) (a3 a4 : FVec F S64x3 .f32) :=
  minsi (r_call28_v4 a0 a1 a2 a3 a4) (r_call28_v2 a0 a1 a2 a3 a4)

def r_c_192 (a0 : FVec F S4194304x3 .f32) (a1 : FVec F S2x3 .f32) (a2 : FVec F S256x256x256 .f32) (a3 a4 : FVec F S64x3 .f32) :=
  (constantI S_ 32 0#32)

def r_v485 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_192 a0 a1 a2 a3 a4)

def r_v486 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v30 a0 a1 a2 a3 a4) (r_v485 a0 a1 a2 a3 a4)

def r_c_193 (a0 : FVec F S4194304x3 .f32) (a1 : FVec F S2x3 .f32) (a2 : FVec F S256x256x256 .f32) (a3 a4 : FVec F S64x3 .f32) :=
  (constantI S_ 32 64#32)

def r_v487 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_193 a0 a1 a2 a3 a4)

def r_v488 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v30 a0 a1 a2 a3 a4) (r_v487 a0 a1 a2 a3 a4)

def r_v489 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v486 a0 a1 a2 a3 a4) (r_v488 a0 a1 a2 a3 a4) (r_v30 a0 a1 a2 a3 a4)

def r_c_194 (a0 : FVec F S4194304x3 .f32) (a1 : FVec F S2x3 .f32) (a2 : FVec F S256x256x256 .f32) (a3 a4 : FVec F S64x3 .f32) :=
  (constantI S_ 32 0#32)

def r_v490 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_194 a0 a1 a2 a3 a4)

def r_v491 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v482 a0 a1 a2 a3 a4) (r_v490 a0 a1 a2 a3 a4)

def r_c_195 (a0 : FVec F S4194304x3 .f32) (a1 : FVec F S2x3 .f32) (a2 : FVec F S256x256x256 .f32) (a3 a4 : FVec F S64x3 .f32) :=
  (constantI S_ 32 64#32)

def r_v492 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_195 a0 a1 a2 a3 a4)

def r_v493 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v482 a0 a1 a2 a3 a4) (r_v492 a0 a1 a2 a3 a4)

def r_v494 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v491 a0 a1 a2 a3 a4) (r_v493 a0 a1 a2 a3 a4) (r_v482 a0 a1 a2 a3 a4)

def r_c_196 (a0 : FVec F S4194304x3 .f32) (a1 : FVec F S2x3 .f32) (a2 : FVec F S256x256x256 .f32) (a3 a4 : FVec F S64x3 .f32) :=
  (constantI S_ 32 0#32)

def r_v495 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_196 a0 a1 a2 a3 a4)

def r_v496 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v483 a0 a1 a2 a3 a4) (r_v495 a0 a1 a2 a3 a4)

def r_c_197 (a0 : FVec F S4194304x3 .f32) (a1 : FVec F S2x3 .f32) (a2 : FVec F S256x256x256 .f32) (a3 a4 : FVec F S64x3 .f32) :=
  (constantI S_ 32 64#32)

def r_v497 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_197 a0 a1 a2 a3 a4)

def r_v498 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v483 a0 a1 a2 a3 a4) (r_v497 a0 a1 a2 a3 a4)

def r_v499 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v496 a0 a1 a2 a3 a4) (r_v498 a0 a1 a2 a3 a4) (r_v483 a0 a1 a2 a3 a4)

def r_c_198 (a0 : FVec F S4194304x3 .f32) (a1 : FVec F S2x3 .f32) (a2 : FVec F S256x256x256 .f32) (a3 a4 : FVec F S64x3 .f32) :=
  (constantI S_ 32 0#32)

def r_v500 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_198 a0 a1 a2 a3 a4)

def r_v501 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v484 a0 a1 a2 a3 a4) (r_v500 a0 a1 a2 a3 a4)

def r_c_199 (a0 : FVec F S4194304x3 .f32) (a1 : FVec F S2x3 .f32) (a2 : FVec F S256x256x256 .f32) (a3 a4 : FVec F S64x3 .f32) :=
  (constantI S_ 32 64#32)

def r_v502 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_199 a0 a1 a2 a3 a4)

def r_v503 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v484 a0 a1 a2 a3 a4) (r_v502 a0 a1 a2 a3 a4)

def r_v504 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v501 a0 a1 a2 a3 a4) (r_v503 a0 a1 a2 a3 a4) (r_v484 a0 a1 a2 a3 a4)

def r_v505 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v489 a0 a1 a2 a3 a4)

def r_v506 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v494 a0 a1 a2 a3 a4)

def r_v507 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v499 a0 a1 a2 a3 a4)

def r_v508 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v504 a0 a1 a2 a3 a4)

def r_v509 (a0 : FVec F S4194304x3 .f32) (a1 : FVec F S2x3 .f32) (a2 : FVec F S256x256x256 .f32) (a3 a4 : FVec F S64x3 .f32) :=
  (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ![(r_v505 a0 a1 a2 a3 a4), (r_v506 a0 a1 a2 a3 a4), (r_v507 a0 a1 a2 a3 a4), (r_v508 a0 a1 a2 a3 a4)]

def r_v510 (a0 : FVec F S4194304x3 .f32) (a1 : FVec F S2x3 .f32) (a2 : FVec F S256x256x256 .f32) (a3 a4 : FVec F S64x3 .f32) :=
  ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)) (r_v66 a0 a1 a2 a3 a4) (r_v509 a0 a1 a2 a3 a4)

def r_cst_200 (a0 : FVec F S4194304x3 .f32) (a1 : FVec F S2x3 .f32) (a2 : FVec F S256x256x256 .f32) (a3 a4 : FVec F S64x3 .f32) :=
  (constant (F := F) S_ .f32 0x00000000#32)

def r_call29_v0 (a0 : FVec F S4194304x3 .f32) (a1 : FVec F S2x3 .f32) (a2 : FVec F S256x256x256 .f32) (a3 a4 : FVec F S64x3 .f32) :=
  id (r_cst_200 a0 a1 a2 a3 a4)

def r_call29_v1 (a0 : FVec F S4194304x3 .f32) (a1 : FVec F S2x3 .f32) (a2 : FVec F S256x256x256 .f32) (a3 a4 : FVec F S64x3 .f32) :=
  (broadcastInDim S4194304 ![] bcast_S_S4194304) (r_call29_v0 a0 a1 a2 a3 a4)

def r_v511 (a0 : FVec F S4194304x3 .f32) (a1 : FVec F S2x3 .f32) (a2 : FVec F S256x256x256 .f32) (a3 a4 : FVec F S64x3 .f32) :=
  select (r_v481 a0 a1 a2 a3 a4) (r_v510 a0 a1 a2 a3 a4) (r_call29_v1 a0 a1 a2 a3 a4)

def r_v512 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v458 a0 a1 a2 a3 a4) (r_v511 a0 a1 a2 a3 a4)

def r_v513 (a0 : FVec F S4194304x3 .f32) (a1 : FVec F S2x3 .f32) (a2 : FVec F S256x256x256 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (r_v454 a0 a1 a2 a3 a4) (r_v512 a0 a1 a2 a3 a4)

def r_v514 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v96 a0 a1 a2 a3 a4) (r_v95 a0 a1 a2 a3 a4)

def r_v515 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v514 a0 a1 a2 a3 a4) (r_v94 a0 a1 a2 a3 a4)

def r_c_201 (a0 : FVec F S4194304x3 .f32) (a1 : FVec F S2x3 .f32) (a2 : FVec F S256x256x256 .f32) (a3 a4 : FVec F S64x3 .f32) :=
  (constantI S_ 32 1#32)

def r_v516 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_201 a0 a1 a2 a3 a4)

def r_v517 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v99 a0 a1 a2 a3 a4) (r_v516 a0 a1 a2 a3 a4)

def r_c_202 (a0 : FVec F S4194304x3 .f32) (a1 : FVec F S2x3 .f32) (a2 : FVec F S256x256x256 .f32) (a3 a4 : FVec F S64x3 .f32) :=
  (constantI S_ 32 1#32)

def r_v518 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_202 a0 a1 a2 a3 a4)

def r_v519 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v98 a0 a1 a2 a3 a4) (r_v518 a0 a1 a2 a3 a4)

def r_c_203 (a0 : FVec F S4194304x3 .f32) (a1 : FVec F S2x3 .f32) (a2 : FVec F S256x256x256 .f32) (a3 a4 : FVec F S64x3 .f32) :=
  (constantI S_ 32 1#32)

def r_v520 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_203 a0 a1 a2 a3 a4)

def r_v521 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v97 a0 a1 a2 a3 a4) (r_v520 a0 a1 a2 a3 a4)

def r_c_204 (a0 : FVec F S4194304x3 .f32) (a1 : FVec F S2x3 .f32) (a2 : FVec F S256x256x256 .f32) (a3 a4 : FVec F S64x3 .f32) :=
  (constantI S_ 32 0#32)

def r_v522 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_204 a0 a1 a2 a3 a4)

def r_v523 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v517 a0 a1 a2 a3 a4) (r_v522 a0 a1 a2 a3 a4)

def r_c_205 (a0 : FVec F S4194304x3 .f32) (a1 : FVec F S2x3 .f32) (a2 : FVec F S256x256x256 .f32) (a3 a4 : FVec F S64x3 .f32) :=
  (constantI S_ 32 64#32)

def r_v524 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_205 a0 a1 a2 a3 a4)

def r_v525 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v517 a0 a1 a2 a3 a4) (r_v524 a0 a1 a2 a3 a4)

def r_v526 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v523 a0 a1 a2 a3 a4) (r_v525 a0 a1 a2 a3 a4)

def r_c_206 (a0 : FVec F S4194304x3 .f32) (a1 : FVec F S2x3 .f32) (a2 : FVec F S256x256x256 .f32) (a3 a4 : FVec F S64x3 .f32) :=
  (constantI S_ 32 0#32)

def r_v527 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_206 a0 a1 a2 a3 a4)

def r_v528 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v519 a0 a1 a2 a3 a4) (r_v527 a0 a1 a2 a3 a4)

def r_v529 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v526 a0 a1 a2 a3 a4) (r_v528 a0 a1 a2 a3 a4)

def r_c_207 (a0 : FVec F S4194304x3 .f32) (a1 : FVec F S2x3 .f32) (a2 : FVec F S256x256x256 .f32) (a3 a4 : FVec F S64x3 .f32) :=
  (constantI S_ 32 64#32)

def r_v530 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_207 a0 a1 a2 a3 a4)

def r_v531 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v519 a0 a1 a2 a3 a4) (r_v530 a0 a1 a2 a3 a4)

def r_v532 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v529 a0 a1 a2 a3 a4) (r_v531 a0 a1 a2 a3 a4)

def r_c_208 (a0 : FVec F S4194304x3 .f32) (a1 : FVec F S2x3 .f32) (a2 : FVec F S256x256x256 .f32) (a3 a4 : FVec F S64x3 .f32) :=
  (constantI S_ 32 0#32)

def r_v533 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_208 a0 a1 a2 a3 a4)

def r_v534 (a0 : FVec F S4194304x3 .f32) (a1 : FVec F S2x3 .f32) (a2 : FVec F S256x256x256 .f32) (a3 a4 : FVec F S64x3 .f32) :=
  (cmpi .sge : (⟨S4194304, .i32⟩ : BufTy).Contents (Elt F) → (⟨S4194304, .i32⟩ : BufTy).Contents (Elt F) → (⟨S4194304, .i1⟩ : BufTy).Contents (Elt F)) (r_v521 a0 a1 a2 a3 a4) (r_v533 a0 a1 a2 a3 a4)

def r_v535 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v532 a0 a1 a2 a3 a4) (r_v534 a0 a1 a2 a3 a4)

def r_c_209 (a0 : FVec F S4194304x3 .f32) (a1 : FVec F S2x3 .f32) (a2 : FVec F S256x256x256 .f32) (a3 a4 : FVec F S64x3 .f32) :=
  (constantI S_ 32 64#32)

def r_v536 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_209 a0 a1 a2 a3 a4)

def r_v537 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v521 a0 a1 a2 a3 a4) (r_v536 a0 a1 a2 a3 a4)

def r_v538 (a0 : FVec F S4194304x3 .f32) (a1 : FVec F S2x3 .f32) (a2 : FVec F S256x256x256 .f32) (a3 a4 : FVec F S64x3 .f32) :=
  (andi : (⟨S4194304, .i1⟩ : BufTy).Contents (Elt F) → (⟨S4194304, .i1⟩ : BufTy).Contents (Elt F) → (⟨S4194304, .i1⟩ : BufTy).Contents (Elt F)) (r_v535 a0 a1 a2 a3 a4) (r_v537 a0 a1 a2 a3 a4)

def r_c_210 (a0 : FVec F S4194304x3 .f32) (a1 : FVec F S2x3 .f32) (a2 : FVec F S256x256x256 .f32) (a3 a4 : FVec F S64x3 .f32) :=
  (constantI S_ 32 0#32)

def r_c_211 (a0 : FVec F S4194304x3 .f32) (a1 : FVec F S2x3 .f32) (a2 : FVec F S256x256x256 .f32) (a3 a4 : FVec F S64x3 .f32) :=
  (constantI S_ 32 63#32)

def r_call30_v0 (a0 : FVec F S4194304x3 .f32) (a1 : FVec F S2x3 .f32) (a2 : FVec F S256x256x256 .f32) (a3 a4 : FVec F S64x3 .f32) :=
  id (r_c_210 a0 a1 a2 a3 a4)

def r_call30_v1 (a0 : FVec F S4194304x3 .f32) (a1 : FVec F S2x3 .f32) (a2 : FVec F S256x256x256 .f32) (a3 a4 : FVec F S64x3 .f32) :=
  (broadcastInDim S4194304 ![] bcast_S_S4194304) (r_call30_v0 a0 a1 a2 a3 a4)

def r_call30_v2 (a0 : FVec F S4194304x3 .f32) (a1 : FVec F S2x3 .f32) (a2 : FVec F S256x256x256 .f32) (a3 a4 : FVec F S64x3 .f32) :=
  maxsi (r_call30_v1 a0 a1 a2 a3 a4) (r_v517 a0 a1 a2 a3 a4)

def r_call30_v3 (a0 : FVec F S4194304x3 .f32) (a1 : FVec F S2x3 .f32) (a2 : FVec F S256x256x256 .f32) (a3 a4 : FVec F S64x3 .f32) :=
  id (r_c_211 a0 a1 a2 a3 a4)

def r_call30_v4 (a0 : FVec F S4194304x3 .f32) (a1 : FVec F S2x3 .f32) (a2 : FVec F S256x256x256 .f32) (a3 a4 : FVec F S64x3 .f32) :=
  (broadcastInDim S4194304 ![] bcast_S_S4194304) (r_call30_v3 a0 a1 a2 a3 a4)

def r_v539 (a0 : FVec F S4194304x3 .f32) (a1 : FVec F S2x3 .f32) (a2 : FVec F S256x256x256 .f32) (a3 a4 : FVec F S64x3 .f32) :=
  minsi (r_call30_v4 a0 a1 a2 a3 a4) (r_call30_v2 a0 a1 a2 a3 a4)

def r_c_212 (a0 : FVec F S4194304x3 .f32) (a1 : FVec F S2x3 .f32) (a2 : FVec F S256x256x256 .f32) (a3 a4 : FVec F S64x3 .f32) :=
  (constantI S_ 32 0#32)

def r_c_213 (a0 : FVec F S4194304x3 .f32) (a1 : FVec F S2x3 .f32) (a2 : FVec F S256x256x256 .f32) (a3 a4 : FVec F S64x3 .f32) :=
  (constantI S_ 32 63#32)

def r_call31_v0 (a0 : FVec F S4194304x3 .f32) (a1 : FVec F S2x3 .f32) (a2 : FVec F S256x256x256 .f32) (a3 a4 : FVec F S64x3 .f32) :=
  id (r_c_212 a0 a1 a2 a3 a4)

def r_call31_v1 (a0 : FVec F S4194304x3 .f32) (a1 : FVec F S2x3 .f32) (a2 : FVec F S256x256x256 .f32) (a3 a4 : FVec F S64x3 .f32) :=
  (broadcastInDim S4194304 ![] bcast_S_S4194304) (r_call31_v0 a0 a1 a2 a3 a4)

def r_call31_v2 (a0 : FVec F S4194304x3 .f32) (a1 : FVec F S2x3 .f32) (a2 : FVec F S256x256x256 .f32) (a3 a4 : FVec F S64x3 .f32) :=
  maxsi (r_call31_v1 a0 a1 a2 a3 a4) (r_v519 a0 a1 a2 a3 a4)

def r_call31_v3 (a0 : FVec F S4194304x3 .f32) (a1 : FVec F S2x3 .f32) (a2 : FVec F S256x256x256 .f32) (a3 a4 : FVec F S64x3 .f32) :=
  id (r_c_213 a0 a1 a2 a3 a4)

def r_call31_v4 (a0 : FVec F S4194304x3 .f32) (a1 : FVec F S2x3 .f32) (a2 : FVec F S256x256x256 .f32) (a3 a4 : FVec F S64x3 .f32) :=
  (broadcastInDim S4194304 ![] bcast_S_S4194304) (r_call31_v3 a0 a1 a2 a3 a4)

def r_v540 (a0 : FVec F S4194304x3 .f32) (a1 : FVec F S2x3 .f32) (a2 : FVec F S256x256x256 .f32) (a3 a4 : FVec F S64x3 .f32) :=
  minsi (r_call31_v4 a0 a1 a2 a3 a4) (r_call31_v2 a0 a1 a2 a3 a4)

def r_c_214 (a0 : FVec F S4194304x3 .f32) (a1 : FVec F S2x3 .f32) (a2 : FVec F S256x256x256 .f32) (a3 a4 : FVec F S64x3 .f32) :=
  (constantI S_ 32 0#32)

def r_c_215 (a0 : FVec F S4194304x3 .f32) (a1 : FVec F S2x3 .f32) (a2 : FVec F S256x256x256 .f32) (a3 a4 : FVec F S64x3 .f32) :=
  (constantI S_ 32 63#32)

def r_call32_v0 (a0 : FVec F S4194304x3 .f32) (a1 : FVec F S2x3 .f32) (a2 : FVec F S256x256x256 .f32) (a3 a4 : FVec F S64x3 .f32) :=
  id (r_c_214 a0 a1 a2 a3 a4)

def r_call32_v1 (a0 : FVec F S4194304x3 .f32) (a1 : FVec F S2x3 .f32) (a2 : FVec F S256x256x256 .f32) (a3 a4 : FVec F S64x3 .f32) :=
  (broadcastInDim S4194304 ![] bcast_S_S4194304) (r_call32_v0 a0 a1 a2 a3 a4)

def r_call32_v2 (a0 : FVec F S4194304x3 .f32) (a1 : FVec F S2x3 .f32) (a2 : FVec F S256x256x256 .f32) (a3 a4 : FVec F S64x3 .f32) :=
  maxsi (r_call32_v1 a0 a1 a2 a3 a4) (r_v521 a0 a1 a2 a3 a4)

def r_call32_v3 (a0 : FVec F S4194304x3 .f32) (a1 : FVec F S2x3 .f32) (a2 : FVec F S256x256x256 .f32) (a3 a4 : FVec F S64x3 .f32) :=
  id (r_c_215 a0 a1 a2 a3 a4)

def r_call32_v4 (a0 : FVec F S4194304x3 .f32) (a1 : FVec F S2x3 .f32) (a2 : FVec F S256x256x256 .f32) (a3 a4 : FVec F S64x3 .f32) :=
  (broadcastInDim S4194304 ![] bcast_S_S4194304) (r_call32_v3 a0 a1 a2 a3 a4)

def r_v541 (a0 : FVec F S4194304x3 .f32) (a1 : FVec F S2x3 .f32) (a2 : FVec F S256x256x256 .f32) (a3 a4 : FVec F S64x3 .f32) :=
  minsi (r_call32_v4 a0 a1 a2 a3 a4) (r_call32_v2 a0 a1 a2 a3 a4)

def r_c_216 (a0 : FVec F S4194304x3 .f32) (a1 : FVec F S2x3 .f32) (a2 : FVec F S256x256x256 .f32) (a3 a4 : FVec F S64x3 .f32) :=
  (constantI S_ 32 0#32)

def r_v542 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_216 a0 a1 a2 a3 a4)

def r_v543 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v30 a0 a1 a2 a3 a4) (r_v542 a0 a1 a2 a3 a4)

def r_c_217 (a0 : FVec F S4194304x3 .f32) (a1 : FVec F S2x3 .f32) (a2 : FVec F S256x256x256 .f32) (a3 a4 : FVec F S64x3 .f32) :=
  (constantI S_ 32 64#32)

def r_v544 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_217 a0 a1 a2 a3 a4)

def r_v545 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v30 a0 a1 a2 a3 a4) (r_v544 a0 a1 a2 a3 a4)

def r_v546 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v543 a0 a1 a2 a3 a4) (r_v545 a0 a1 a2 a3 a4) (r_v30 a0 a1 a2 a3 a4)

def r_c_218 (a0 : FVec F S4194304x3 .f32) (a1 : FVec F S2x3 .f32) (a2 : FVec F S256x256x256 .f32) (a3 a4 : FVec F S64x3 .f32) :=
  (constantI S_ 32 0#32)

def r_v547 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_218 a0 a1 a2 a3 a4)

def r_v548 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v539 a0 a1 a2 a3 a4) (r_v547 a0 a1 a2 a3 a4)

def r_c_219 (a0 : FVec F S4194304x3 .f32) (a1 : FVec F S2x3 .f32) (a2 : FVec F S256x256x256 .f32) (a3 a4 : FVec F S64x3 .f32) :=
  (constantI S_ 32 64#32)

def r_v549 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_219 a0 a1 a2 a3 a4)

def r_v550 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v539 a0 a1 a2 a3 a4) (r_v549 a0 a1 a2 a3 a4)

def r_v551 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v548 a0 a1 a2 a3 a4) (r_v550 a0 a1 a2 a3 a4) (r_v539 a0 a1 a2 a3 a4)

def r_c_220 (a0 : FVec F S4194304x3 .f32) (a1 : FVec F S2x3 .f32) (a2 : FVec F S256x256x256 .f32) (a3 a4 : FVec F S64x3 .f32) :=
  (constantI S_ 32 0#32)

def r_v552 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_220 a0 a1 a2 a3 a4)

def r_v553 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v540 a0 a1 a2 a3 a4) (r_v552 a0 a1 a2 a3 a4)

def r_c_221 (a0 : FVec F S4194304x3 .f32) (a1 : FVec F S2x3 .f32) (a2 : FVec F S256x256x256 .f32) (a3 a4 : FVec F S64x3 .f32) :=
  (constantI S_ 32 64#32)

def r_v554 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_221 a0 a1 a2 a3 a4)

def r_v555 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v540 a0 a1 a2 a3 a4) (r_v554 a0 a1 a2 a3 a4)

def r_v556 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v553 a0 a1 a2 a3 a4) (r_v555 a0 a1 a2 a3 a4) (r_v540 a0 a1 a2 a3 a4)

def r_c_222 (a0 : FVec F S4194304x3 .f32) (a1 : FVec F S2x3 .f32) (a2 : FVec F S256x256x256 .f32) (a3 a4 : FVec F S64x3 .f32) :=
  (constantI S_ 32 0#32)

def r_v557 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_222 a0 a1 a2 a3 a4)

def r_v558 (a0 : FVec F S4194304x3 .f32) (a1 : FVec F S2x3 .f32) (a2 : FVec F S256x256x256 .f32) (a3 a4 : FVec F S64x3 .f32) :=
  (cmpi .slt : (⟨S4194304, .i32⟩ : BufTy).Contents (Elt F) → (⟨S4194304, .i32⟩ : BufTy).Contents (Elt F) → (⟨S4194304, .i1⟩ : BufTy).Contents (Elt F)) (r_v541 a0 a1 a2 a3 a4) (r_v557 a0 a1 a2 a3 a4)

def r_c_223 (a0 : FVec F S4194304x3 .f32) (a1 : FVec F S2x3 .f32) (a2 : FVec F S256x256x256 .f32) (a3 a4 : FVec F S64x3 .f32) :=
  (constantI S_ 32 64#32)

def r_v559 (a0 : FVec F S4194304x3 .f32) (a1 : FVec F S2x3 .f32) (a2 : FVec F S256x256x256 .f32) (a3 a4 : FVec F S64x3 .f32) :=
  (broadcastInDim S4194304 ![] bcast_S_S4194304 : (⟨S_, .i32⟩ : BufTy).Contents (Elt F) → (⟨S4194304, .i32⟩ : BufTy).Contents (Elt F)) (r_c_223 a0 a1 a2 a3 a4)

def r_v560 (a0 : FVec F S4194304x3 .f32) (a1 : FVec F S2x3 .f32) (a2 : FVec F S256x256x256 .f32) (a3 a4 : FVec F S64x3 .f32) :=
  (addi : (⟨S4194304, .i32⟩ : BufTy).Contents (Elt F) → (⟨S4194304, .i32⟩ : BufTy).Contents (Elt F) → (⟨S4194304, .i32⟩ : BufTy).Contents (Elt F)) (r_v541 a0 a1 a2 a3 a4) (r_v559 a0 a1 a2 a3 a4)

def r_v561 (a0 : FVec F S4194304x3 .f32) (a1 : FVec F S2x3 .f32) (a2 : FVec F S256x256x256 .f32) (a3 a4 : FVec F S64x3 .f32) :=
  (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) (r_v558 a0 a1 a2 a3 a4) (r_v560 a0 a1 a2 a3 a4) (r_v541 a0 a1 a2 a3 a4)

def r_v562 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v546 a0 a1 a2 a3 a4)

def r_v563 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v551 a0 a1 a2 a3 a4)

def r_v564 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v556 a0 a1 a2 a3 a4)

def r_v565 (a0 : FVec F S4194304x3 .f32) (a1 : FVec F S2x3 .f32) (a2 : FVec F S256x256x256 .f32) (a3 a4 : FVec F S64x3 .f32) :=
  (broadcastInDim S4194304x1 ![0] bcast_S4194304_S4194304x1_0 : (⟨S4194304, .i32⟩ : BufTy).Contents (Elt F) → (⟨S4194304x1, .i32⟩ : BufTy).Contents (Elt F)) (r_v561 a0 a1 a2 a3 a4)

def r_v566 (a0 : FVec F S4194304x3 .f32) (a1 : FVec F S2x3 .f32) (a2 : FVec F S256x256x256 .f32) (a3 a4 : FVec F S64x3 .f32) :=
  (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ![(r_v562 a0 a1 a2 a3 a4), (r_v563 a0 a1 a2 a3 a4), (r_v564 a0 a1 a2 a3 a4), (r_v565 a0 a1 a2 a3 a4)]

def r_v567 (a0 : FVec F S4194304x3 .f32) (a1 : FVec F S2x3 .f32) (a2 : FVec F S256x256x256 .f32) (a3 a4 : FVec F S64x3 .f32) :=
  ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)) (r_v66 a0 a1 a2 a3 a4) (r_v566 a0 a1 a2 a3 a4)

def r_cst_224 (a0 : FVec F S4194304x3 .f32) (a1 : FVec F S2x3 .f32) (a2 : FVec F S256x256x256 .f32) (a3 a4 : FVec F S64x3 .f32) :=
  (constant (F := F) S_ .f32 0x00000000#32)

def r_call33_v0 (a0 : FVec F S4194304x3 .f32) (a1 : FVec F S2x3 .f32) (a2 : FVec F S256x256x256 .f32) (a3 a4 : FVec F S64x3 .f32) :=
  id (r_cst_224 a0 a1 a2 a3 a4)

def r_call33_v1 (a0 : FVec F S4194304x3 .f32) (a1 : FVec F S2x3 .f32) (a2 : FVec F S256x256x256 .f32) (a3 a4 : FVec F S64x3 .f32) :=
  (broadcastInDim S4194304 ![] bcast_S_S4194304) (r_call33_v0 a0 a1 a2 a3 a4)

def r_v568 (a0 : FVec F S4194304x3 .f32) (a1 : FVec F S2x3 .f32) (a2 : FVec F S256x256x256 .f32) (a3 a4 : FVec F S64x3 .f32) :=
  select (r_v538 a0 a1 a2 a3 a4) (r_v567 a0 a1 a2 a3 a4) (r_call33_v1 a0 a1 a2 a3 a4)

def r_v569 (a0 : FVec F S4194304x3 .f32) (a1 : FVec F S2x3 .f32) (a2 : FVec F S256x256x256 .f32) (a3 a4 : FVec F S64x3 .f32) :=
  (mulf : (⟨S4194304, .f32⟩ : BufTy).Contents (Elt F) → (⟨S4194304, .f32⟩ : BufTy).Contents (Elt F) → (⟨S4194304, .f32⟩ : BufTy).Contents (Elt F)) (r_v515 a0 a1 a2 a3 a4) (r_v568 a0 a1 a2 a3 a4)

def r_v570 (a0 : FVec F S4194304x3 .f32) (a1 : FVec F S2x3 .f32) (a2 : FVec F S256x256x256 .f32) (a3 a4 : FVec F S64x3 .f32) :=
  (addf : (⟨S4194304, .f32⟩ : BufTy).Contents (Elt F) → (⟨S4194304, .f32⟩ : BufTy).Contents (Elt F) → (⟨S4194304, .f32⟩ : BufTy).Contents (Elt F)) (r_v513 a0 a1 a2 a3 a4) (r_v569 a0 a1 a2 a3 a4)

end Cert.AlphaGrid.RefStages

end
-- ==== Proof.RefRunInv.lean ====
/- What the buffers hold at each boundary of the reference run: Inv<k> (at the start of window k) and Inv<k><letter> (at the start of a
   later piece of it) say that every buffer written before that point and still read at or after it (at the end: the returned one) is
   at its stage of the five argument arrays, and that the argument buffers hold those arrays. -/
import proofs.«104803_j90202903151142_1_alg».proof.Proof.RefStages
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

def Inv0 (W : Valuation τ sig (Elt F)) (a0 : FVec F S4194304x3 .f32) (a1 : FVec F S2x3 .f32) (a2 : FVec F S256x256x256 .f32) (a3 a4 : FVec F S64x3 .f32) : Prop :=
  W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv1 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v45 : DevRef τ sig) = r_v45 a0 a1 a2 a3 a4
  ∧ W (main_v46 : DevRef τ sig) = r_v46 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv2 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v74 : DevRef τ sig) = r_v74 a0 a1 a2 a3 a4
  ∧ W (main_v82 : DevRef τ sig) = r_v82 a0 a1 a2 a3 a4
  ∧ W (main_v90 : DevRef τ sig) = r_v90 a0 a1 a2 a3 a4
  ∧ W (main_v91 : DevRef τ sig) = r_v91 a0 a1 a2 a3 a4
  ∧ W (main_v92 : DevRef τ sig) = r_v92 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv3 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v100 : DevRef τ sig) = r_v100 a0 a1 a2 a3 a4
  ∧ W (main_v102 : DevRef τ sig) = r_v102 a0 a1 a2 a3 a4
  ∧ W (main_v104 : DevRef τ sig) = r_v104 a0 a1 a2 a3 a4
  ∧ W (main_v108 : DevRef τ sig) = r_v108 a0 a1 a2 a3 a4
  ∧ W (main_v114 : DevRef τ sig) = r_v114 a0 a1 a2 a3 a4
  ∧ W (main_v131 : DevRef τ sig) = r_v131 a0 a1 a2 a3 a4
  ∧ W (main_v132 : DevRef τ sig) = r_v132 a0 a1 a2 a3 a4
  ∧ W (main_v133 : DevRef τ sig) = r_v133 a0 a1 a2 a3 a4
  ∧ W (main_c_42 : DevRef τ sig) = r_c_42 a0 a1 a2 a3 a4
  ∧ W (main_c_43 : DevRef τ sig) = r_c_43 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv3b (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v100 : DevRef τ sig) = r_v100 a0 a1 a2 a3 a4
  ∧ W (main_v102 : DevRef τ sig) = r_v102 a0 a1 a2 a3 a4
  ∧ W (main_v104 : DevRef τ sig) = r_v104 a0 a1 a2 a3 a4
  ∧ W (main_v108 : DevRef τ sig) = r_v108 a0 a1 a2 a3 a4
  ∧ W (main_v131 : DevRef τ sig) = r_v131 a0 a1 a2 a3 a4
  ∧ W (main_v155 : DevRef τ sig) = r_v155 a0 a1 a2 a3 a4
  ∧ W (main_v156 : DevRef τ sig) = r_v156 a0 a1 a2 a3 a4
  ∧ W (main_v157 : DevRef τ sig) = r_v157 a0 a1 a2 a3 a4
  ∧ W (main_v158 : DevRef τ sig) = r_v158 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv3c (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v100 : DevRef τ sig) = r_v100 a0 a1 a2 a3 a4
  ∧ W (main_v102 : DevRef τ sig) = r_v102 a0 a1 a2 a3 a4
  ∧ W (main_v104 : DevRef τ sig) = r_v104 a0 a1 a2 a3 a4
  ∧ W (main_v108 : DevRef τ sig) = r_v108 a0 a1 a2 a3 a4
  ∧ W (main_v131 : DevRef τ sig) = r_v131 a0 a1 a2 a3 a4
  ∧ W (main_v159 : DevRef τ sig) = r_v159 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv4 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v102 : DevRef τ sig) = r_v102 a0 a1 a2 a3 a4
  ∧ W (main_v163 : DevRef τ sig) = r_v163 a0 a1 a2 a3 a4
  ∧ W (main_v165 : DevRef τ sig) = r_v165 a0 a1 a2 a3 a4
  ∧ W (main_v167 : DevRef τ sig) = r_v167 a0 a1 a2 a3 a4
  ∧ W (main_v169 : DevRef τ sig) = r_v169 a0 a1 a2 a3 a4
  ∧ W (main_v171 : DevRef τ sig) = r_v171 a0 a1 a2 a3 a4
  ∧ W (main_v176 : DevRef τ sig) = r_v176 a0 a1 a2 a3 a4
  ∧ W (main_v178 : DevRef τ sig) = r_v178 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv4b (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v102 : DevRef τ sig) = r_v102 a0 a1 a2 a3 a4
  ∧ W (main_v163 : DevRef τ sig) = r_v163 a0 a1 a2 a3 a4
  ∧ W (main_v165 : DevRef τ sig) = r_v165 a0 a1 a2 a3 a4
  ∧ W (main_v188 : DevRef τ sig) = r_v188 a0 a1 a2 a3 a4
  ∧ W (main_v212 : DevRef τ sig) = r_v212 a0 a1 a2 a3 a4
  ∧ W (main_v213 : DevRef τ sig) = r_v213 a0 a1 a2 a3 a4
  ∧ W (main_v214 : DevRef τ sig) = r_v214 a0 a1 a2 a3 a4
  ∧ W (main_v215 : DevRef τ sig) = r_v215 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv4c (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v102 : DevRef τ sig) = r_v102 a0 a1 a2 a3 a4
  ∧ W (main_v163 : DevRef τ sig) = r_v163 a0 a1 a2 a3 a4
  ∧ W (main_v165 : DevRef τ sig) = r_v165 a0 a1 a2 a3 a4
  ∧ W (main_v188 : DevRef τ sig) = r_v188 a0 a1 a2 a3 a4
  ∧ W (main_v216 : DevRef τ sig) = r_v216 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv5 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v102 : DevRef τ sig) = r_v102 a0 a1 a2 a3 a4
  ∧ W (main_v220 : DevRef τ sig) = r_v220 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv6 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v102 : DevRef τ sig) = r_v102 a0 a1 a2 a3 a4
  ∧ W (main_v220 : DevRef τ sig) = r_v220 a0 a1 a2 a3 a4
  ∧ W (main_v224 : DevRef τ sig) = r_v224 a0 a1 a2 a3 a4
  ∧ W (main_v247 : DevRef τ sig) = r_v247 a0 a1 a2 a3 a4
  ∧ W (main_v249 : DevRef τ sig) = r_v249 a0 a1 a2 a3 a4
  ∧ W (main_v250 : DevRef τ sig) = r_v250 a0 a1 a2 a3 a4
  ∧ W (main_v255 : DevRef τ sig) = r_v255 a0 a1 a2 a3 a4
  ∧ W (main_v260 : DevRef τ sig) = r_v260 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv6b (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v102 : DevRef τ sig) = r_v102 a0 a1 a2 a3 a4
  ∧ W (main_v220 : DevRef τ sig) = r_v220 a0 a1 a2 a3 a4
  ∧ W (main_v224 : DevRef τ sig) = r_v224 a0 a1 a2 a3 a4
  ∧ W (main_v247 : DevRef τ sig) = r_v247 a0 a1 a2 a3 a4
  ∧ W (main_v271 : DevRef τ sig) = r_v271 a0 a1 a2 a3 a4
  ∧ W (main_v272 : DevRef τ sig) = r_v272 a0 a1 a2 a3 a4
  ∧ W (main_v273 : DevRef τ sig) = r_v273 a0 a1 a2 a3 a4
  ∧ W (main_v274 : DevRef τ sig) = r_v274 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv6c (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v102 : DevRef τ sig) = r_v102 a0 a1 a2 a3 a4
  ∧ W (main_v220 : DevRef τ sig) = r_v220 a0 a1 a2 a3 a4
  ∧ W (main_v224 : DevRef τ sig) = r_v224 a0 a1 a2 a3 a4
  ∧ W (main_v247 : DevRef τ sig) = r_v247 a0 a1 a2 a3 a4
  ∧ W (main_v275 : DevRef τ sig) = r_v275 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv7 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v279 : DevRef τ sig) = r_v279 a0 a1 a2 a3 a4
  ∧ W (main_v281 : DevRef τ sig) = r_v281 a0 a1 a2 a3 a4
  ∧ W (main_v283 : DevRef τ sig) = r_v283 a0 a1 a2 a3 a4
  ∧ W (main_v285 : DevRef τ sig) = r_v285 a0 a1 a2 a3 a4
  ∧ W (main_v287 : DevRef τ sig) = r_v287 a0 a1 a2 a3 a4
  ∧ W (main_v304 : DevRef τ sig) = r_v304 a0 a1 a2 a3 a4
  ∧ W (main_c_111 : DevRef τ sig) = r_c_111 a0 a1 a2 a3 a4
  ∧ W (main_c_112 : DevRef τ sig) = r_c_112 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv7b (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v279 : DevRef τ sig) = r_v279 a0 a1 a2 a3 a4
  ∧ W (main_v281 : DevRef τ sig) = r_v281 a0 a1 a2 a3 a4
  ∧ W (main_v304 : DevRef τ sig) = r_v304 a0 a1 a2 a3 a4
  ∧ W (main_v328 : DevRef τ sig) = r_v328 a0 a1 a2 a3 a4
  ∧ W (main_v329 : DevRef τ sig) = r_v329 a0 a1 a2 a3 a4
  ∧ W (main_v330 : DevRef τ sig) = r_v330 a0 a1 a2 a3 a4
  ∧ W (main_v331 : DevRef τ sig) = r_v331 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv7c (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v279 : DevRef τ sig) = r_v279 a0 a1 a2 a3 a4
  ∧ W (main_v281 : DevRef τ sig) = r_v281 a0 a1 a2 a3 a4
  ∧ W (main_v304 : DevRef τ sig) = r_v304 a0 a1 a2 a3 a4
  ∧ W (main_v332 : DevRef τ sig) = r_v332 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv8 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v336 : DevRef τ sig) = r_v336 a0 a1 a2 a3 a4
  ∧ W (main_v338 : DevRef τ sig) = r_v338 a0 a1 a2 a3 a4
  ∧ W (main_v342 : DevRef τ sig) = r_v342 a0 a1 a2 a3 a4
  ∧ W (main_v344 : DevRef τ sig) = r_v344 a0 a1 a2 a3 a4
  ∧ W (main_v346 : DevRef τ sig) = r_v346 a0 a1 a2 a3 a4
  ∧ W (main_c_130 : DevRef τ sig) = r_c_130 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv9 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v336 : DevRef τ sig) = r_v336 a0 a1 a2 a3 a4
  ∧ W (main_v338 : DevRef τ sig) = r_v338 a0 a1 a2 a3 a4
  ∧ W (main_v342 : DevRef τ sig) = r_v342 a0 a1 a2 a3 a4
  ∧ W (main_v365 : DevRef τ sig) = r_v365 a0 a1 a2 a3 a4
  ∧ W (main_v368 : DevRef τ sig) = r_v368 a0 a1 a2 a3 a4
  ∧ W (main_v373 : DevRef τ sig) = r_v373 a0 a1 a2 a3 a4
  ∧ W (main_v378 : DevRef τ sig) = r_v378 a0 a1 a2 a3 a4
  ∧ W (main_v383 : DevRef τ sig) = r_v383 a0 a1 a2 a3 a4
  ∧ W (main_v385 : DevRef τ sig) = r_v385 a0 a1 a2 a3 a4
  ∧ W (main_v386 : DevRef τ sig) = r_v386 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv9b (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v336 : DevRef τ sig) = r_v336 a0 a1 a2 a3 a4
  ∧ W (main_v338 : DevRef τ sig) = r_v338 a0 a1 a2 a3 a4
  ∧ W (main_v342 : DevRef τ sig) = r_v342 a0 a1 a2 a3 a4
  ∧ W (main_v365 : DevRef τ sig) = r_v365 a0 a1 a2 a3 a4
  ∧ W (main_v389 : DevRef τ sig) = r_v389 a0 a1 a2 a3 a4
  ∧ W (main_v390 : DevRef τ sig) = r_v390 a0 a1 a2 a3 a4
  ∧ W (main_v391 : DevRef τ sig) = r_v391 a0 a1 a2 a3 a4
  ∧ W (main_v392 : DevRef τ sig) = r_v392 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv9c (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v336 : DevRef τ sig) = r_v336 a0 a1 a2 a3 a4
  ∧ W (main_v338 : DevRef τ sig) = r_v338 a0 a1 a2 a3 a4
  ∧ W (main_v342 : DevRef τ sig) = r_v342 a0 a1 a2 a3 a4
  ∧ W (main_v365 : DevRef τ sig) = r_v365 a0 a1 a2 a3 a4
  ∧ W (main_v393 : DevRef τ sig) = r_v393 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv10 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v397 : DevRef τ sig) = r_v397 a0 a1 a2 a3 a4
  ∧ W (main_v399 : DevRef τ sig) = r_v399 a0 a1 a2 a3 a4
  ∧ W (main_v422 : DevRef τ sig) = r_v422 a0 a1 a2 a3 a4
  ∧ W (main_v423 : DevRef τ sig) = r_v423 a0 a1 a2 a3 a4
  ∧ W (main_v424 : DevRef τ sig) = r_v424 a0 a1 a2 a3 a4
  ∧ W (main_v425 : DevRef τ sig) = r_v425 a0 a1 a2 a3 a4
  ∧ W (main_v427 : DevRef τ sig) = r_v427 a0 a1 a2 a3 a4
  ∧ W (main_v428 : DevRef τ sig) = r_v428 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv10b (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v397 : DevRef τ sig) = r_v397 a0 a1 a2 a3 a4
  ∧ W (main_v399 : DevRef τ sig) = r_v399 a0 a1 a2 a3 a4
  ∧ W (main_v422 : DevRef τ sig) = r_v422 a0 a1 a2 a3 a4
  ∧ W (main_v446 : DevRef τ sig) = r_v446 a0 a1 a2 a3 a4
  ∧ W (main_v447 : DevRef τ sig) = r_v447 a0 a1 a2 a3 a4
  ∧ W (main_v448 : DevRef τ sig) = r_v448 a0 a1 a2 a3 a4
  ∧ W (main_v449 : DevRef τ sig) = r_v449 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv10c (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v397 : DevRef τ sig) = r_v397 a0 a1 a2 a3 a4
  ∧ W (main_v399 : DevRef τ sig) = r_v399 a0 a1 a2 a3 a4
  ∧ W (main_v422 : DevRef τ sig) = r_v422 a0 a1 a2 a3 a4
  ∧ W (main_v450 : DevRef τ sig) = r_v450 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv11 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v454 : DevRef τ sig) = r_v454 a0 a1 a2 a3 a4
  ∧ W (main_v458 : DevRef τ sig) = r_v458 a0 a1 a2 a3 a4
  ∧ W (main_v460 : DevRef τ sig) = r_v460 a0 a1 a2 a3 a4
  ∧ W (main_v462 : DevRef τ sig) = r_v462 a0 a1 a2 a3 a4
  ∧ W (main_v464 : DevRef τ sig) = r_v464 a0 a1 a2 a3 a4
  ∧ W (main_v472 : DevRef τ sig) = r_v472 a0 a1 a2 a3 a4
  ∧ W (main_v473 : DevRef τ sig) = r_v473 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv11b (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v454 : DevRef τ sig) = r_v454 a0 a1 a2 a3 a4
  ∧ W (main_v458 : DevRef τ sig) = r_v458 a0 a1 a2 a3 a4
  ∧ W (main_v481 : DevRef τ sig) = r_v481 a0 a1 a2 a3 a4
  ∧ W (main_v505 : DevRef τ sig) = r_v505 a0 a1 a2 a3 a4
  ∧ W (main_v506 : DevRef τ sig) = r_v506 a0 a1 a2 a3 a4
  ∧ W (main_v507 : DevRef τ sig) = r_v507 a0 a1 a2 a3 a4
  ∧ W (main_v508 : DevRef τ sig) = r_v508 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv11c (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v94 : DevRef τ sig) = r_v94 a0 a1 a2 a3 a4
  ∧ W (main_v95 : DevRef τ sig) = r_v95 a0 a1 a2 a3 a4
  ∧ W (main_v96 : DevRef τ sig) = r_v96 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v454 : DevRef τ sig) = r_v454 a0 a1 a2 a3 a4
  ∧ W (main_v458 : DevRef τ sig) = r_v458 a0 a1 a2 a3 a4
  ∧ W (main_v481 : DevRef τ sig) = r_v481 a0 a1 a2 a3 a4
  ∧ W (main_v509 : DevRef τ sig) = r_v509 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv12 (W : Valuation τ sig (Elt F)) (a0 : FVec F S4194304x3 .f32) (a1 : FVec F S2x3 .f32) (a2 : FVec F S256x256x256 .f32) (a3 a4 : FVec F S64x3 .f32) : Prop :=
  W (main_v30 : DevRef τ sig) = r_v30 a0 a1 a2 a3 a4
  ∧ W (main_v66 : DevRef τ sig) = r_v66 a0 a1 a2 a3 a4
  ∧ W (main_v97 : DevRef τ sig) = r_v97 a0 a1 a2 a3 a4
  ∧ W (main_v98 : DevRef τ sig) = r_v98 a0 a1 a2 a3 a4
  ∧ W (main_v99 : DevRef τ sig) = r_v99 a0 a1 a2 a3 a4
  ∧ W (main_v513 : DevRef τ sig) = r_v513 a0 a1 a2 a3 a4
  ∧ W (main_v515 : DevRef τ sig) = r_v515 a0 a1 a2 a3 a4
  ∧ W (main_c_201 : DevRef τ sig) = r_c_201 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv13 (W : Valuation τ sig (Elt F)) (a0 : FVec F S4194304x3 .f32) (a1 : FVec F S2x3 .f32) (a2 : FVec F S256x256x256 .f32) (a3 a4 : FVec F S64x3 .f32) : Prop :=
  W (main_v66 : DevRef τ sig) = r_v66 a0 a1 a2 a3 a4
  ∧ W (main_v513 : DevRef τ sig) = r_v513 a0 a1 a2 a3 a4
  ∧ W (main_v515 : DevRef τ sig) = r_v515 a0 a1 a2 a3 a4
  ∧ W (main_v538 : DevRef τ sig) = r_v538 a0 a1 a2 a3 a4
  ∧ W (main_v540 : DevRef τ sig) = r_v540 a0 a1 a2 a3 a4
  ∧ W (main_v541 : DevRef τ sig) = r_v541 a0 a1 a2 a3 a4
  ∧ W (main_v546 : DevRef τ sig) = r_v546 a0 a1 a2 a3 a4
  ∧ W (main_v551 : DevRef τ sig) = r_v551 a0 a1 a2 a3 a4
  ∧ W (main_v553 : DevRef τ sig) = r_v553 a0 a1 a2 a3 a4
  ∧ W (main_v555 : DevRef τ sig) = r_v555 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv13b (W : Valuation τ sig (Elt F)) (a0 : FVec F S4194304x3 .f32) (a1 : FVec F S2x3 .f32) (a2 : FVec F S256x256x256 .f32) (a3 a4 : FVec F S64x3 .f32) : Prop :=
  W (main_v66 : DevRef τ sig) = r_v66 a0 a1 a2 a3 a4
  ∧ W (main_v513 : DevRef τ sig) = r_v513 a0 a1 a2 a3 a4
  ∧ W (main_v515 : DevRef τ sig) = r_v515 a0 a1 a2 a3 a4
  ∧ W (main_v538 : DevRef τ sig) = r_v538 a0 a1 a2 a3 a4
  ∧ W (main_v562 : DevRef τ sig) = r_v562 a0 a1 a2 a3 a4
  ∧ W (main_v563 : DevRef τ sig) = r_v563 a0 a1 a2 a3 a4
  ∧ W (main_v564 : DevRef τ sig) = r_v564 a0 a1 a2 a3 a4
  ∧ W (main_v565 : DevRef τ sig) = r_v565 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv13c (W : Valuation τ sig (Elt F)) (a0 : FVec F S4194304x3 .f32) (a1 : FVec F S2x3 .f32) (a2 : FVec F S256x256x256 .f32) (a3 a4 : FVec F S64x3 .f32) : Prop :=
  W (main_v66 : DevRef τ sig) = r_v66 a0 a1 a2 a3 a4
  ∧ W (main_v513 : DevRef τ sig) = r_v513 a0 a1 a2 a3 a4
  ∧ W (main_v515 : DevRef τ sig) = r_v515 a0 a1 a2 a3 a4
  ∧ W (main_v538 : DevRef τ sig) = r_v538 a0 a1 a2 a3 a4
  ∧ W (main_v566 : DevRef τ sig) = r_v566 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

def Inv14 (W : Valuation τ sig (Elt F)) (a0 : FVec F S4194304x3 .f32) (a1 : FVec F S2x3 .f32) (a2 : FVec F S256x256x256 .f32) (a3 a4 : FVec F S64x3 .f32) : Prop :=
  W (main_v570 : DevRef τ sig) = r_v570 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

end Cert.AlphaGrid.RefRun

end
-- ==== Proof.RefRunBase.lean ====
/- Two general facts about a straight line of host operations, used by every window of the reference run: what the buffers
   hold after two lines run one after the other is the second line's fold over the first's; and a four-piece concatenate run
   alone, from contents whose four operand buffers are known, leaves its result buffer at the concatenate of those four values. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable {F : FTy → Type} [FloatOps F]

/-- What the buffers hold after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation over four operand buffers, run alone from contents that hold known values at the four: its result buffer holds
    the operation's function of those values, in order. -/
theorem nary4_chunk {x a b c y : Ref sig .tc}
    (f : ((k : Fin 4) → ((![x, a, b, c] : Fin 4 → Ref sig .tc) k).ty.Contents (Elt F)) → y.ty.Contents (Elt F)) (hxs hy)
    (W : Valuation τ sig (Elt F)) {vx : x.ty.Contents (Elt F)} {va : a.ty.Contents (Elt F)} {vb : b.ty.Contents (Elt F)}
    {vc : c.ty.Contents (Elt F)}
    (hx : W (Proc.devRef .tc x) = vx) (ha : W (Proc.devRef .tc a) = va) (hb : W (Proc.devRef .tc b) = vb)
    (hc : W (Proc.devRef .tc c) = vc) :
    after [nary (τ := τ) ![x, a, b, c] y f hxs hy] W (Proc.devRef .tc y)
      = f (Fin.cons vx (Fin.cons va (Fin.cons vb (Fin.cons vc (fun i => i.elim0))))) := by
  subst hx ha hb hc
  exact nary4_result f hxs hy W

end Cert.AlphaGrid.RefRun

end
-- ==== Proof.RefRunWin0.lean ====
/- Window 0 of the reference's @main: it is the line of its operations (every call it makes unfolds to the callee's operations
   over that call's buffers, and the sequencing reassociates), and running that line carries the boundary facts across: from the
   stages held at the window's start to the stages held at its end. Each buffer the line writes holds its operation's function of
   its operands' contents; those are stages by hypothesis or by the same fact one operation earlier, and a stage is by definition
   its operation applied to its operands' stages. A buffer the line does not write keeps what it held.
   The window is long: the line is cut in 7 consecutive pieces, with the facts held at each cut stated here. -/
import proofs.«104803_j90202903151142_1_alg».proof.Proof.RefRunOps0
import proofs.«104803_j90202903151142_1_alg».proof.Proof.RefRunInv
import proofs.«104803_j90202903151142_1_alg».proof.Proof.RefRunBase

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part0_eq (c : Dev nD) : main_part0 (F := F) c = seq ops0 := rfl

/-- The operations 1 … 19. -/
abbrev ops0a : List (HloOp τ sig (Elt F)) :=
  [ nullary main_cst (constant S3 .f32 0x40800000#32),
    nullary main_c (constantI S3 32 4#32),
    nullary main_c_0 (fun i => lit0 (S3.rowMajor i)),
    unary main_arg1 main_v0 ((extractStridedSlice S1x3 ![1, 0] · slices_S2x3_S1x3_1_0) : (⟨S2x3, .f32⟩ : BufTy).Contents (Elt F) → (⟨S1x3, .f32⟩ : BufTy).Contents (Elt F)),
    reshape main_v0 main_v1 rfl shapeCasts_S1x3_S3,
    unary main_arg1 main_v2 ((extractStridedSlice S1x3 ![0, 0] · slices_S2x3_S1x3_0_0) : (⟨S2x3, .f32⟩ : BufTy).Contents (Elt F) → (⟨S1x3, .f32⟩ : BufTy).Contents (Elt F)),
    reshape main_v2 main_v3 rfl shapeCasts_S1x3_S3,
    binary main_v1 main_v3 main_v4 (subf : (⟨S3, .f32⟩ : BufTy).Contents (Elt F) → (⟨S3, .f32⟩ : BufTy).Contents (Elt F) → (⟨S3, .f32⟩ : BufTy).Contents (Elt F)),
    binary main_v4 main_cst main_v5 (Host.divf : (⟨S3, .f32⟩ : BufTy).Contents (Elt F) → (⟨S3, .f32⟩ : BufTy).Contents (Elt F) → (⟨S3, .f32⟩ : BufTy).Contents (Elt F)),
    unary main_arg1 main_v6 ((extractStridedSlice S1x3 ![0, 0] · slices_S2x3_S1x3_0_0) : (⟨S2x3, .f32⟩ : BufTy).Contents (Elt F) → (⟨S1x3, .f32⟩ : BufTy).Contents (Elt F)),
    reshape main_v6 main_v7 rfl shapeCasts_S1x3_S3,
    unary main_v7 main_v8 (broadcastInDim S1x3 ![1] bcast_S3_S1x3_1 : (⟨S3, .f32⟩ : BufTy).Contents (Elt F) → (⟨S1x3, .f32⟩ : BufTy).Contents (Elt F)),
    unary main_v8 main_v9 (broadcastInDim S4194304x3 ![0, 1] bcast_S1x3_S4194304x3_0_1 : (⟨S1x3, .f32⟩ : BufTy).Contents (Elt F) → (⟨S4194304x3, .f32⟩ : BufTy).Contents (Elt F)),
    binary main_arg0 main_v9 main_v10 (subf : (⟨S4194304x3, .f32⟩ : BufTy).Contents (Elt F) → (⟨S4194304x3, .f32⟩ : BufTy).Contents (Elt F) → (⟨S4194304x3, .f32⟩ : BufTy).Contents (Elt F)),
    unary main_v5 main_v11 (broadcastInDim S1x3 ![1] bcast_S3_S1x3_1 : (⟨S3, .f32⟩ : BufTy).Contents (Elt F) → (⟨S1x3, .f32⟩ : BufTy).Contents (Elt F)),
    unary main_v11 main_v12 (broadcastInDim S4194304x3 ![0, 1] bcast_S1x3_S4194304x3_0_1 : (⟨S1x3, .f32⟩ : BufTy).Contents (Elt F) → (⟨S4194304x3, .f32⟩ : BufTy).Contents (Elt F)),
    binary main_v10 main_v12 main_v13 (Host.divf : (⟨S4194304x3, .f32⟩ : BufTy).Contents (Elt F) → (⟨S4194304x3, .f32⟩ : BufTy).Contents (Elt F) → (⟨S4194304x3, .f32⟩ : BufTy).Contents (Elt F)),
    unary main_v13 main_v14 (Host.floor : (⟨S4194304x3, .f32⟩ : BufTy).Contents (Elt F) → (⟨S4194304x3, .f32⟩ : BufTy).Contents (Elt F)),
    unary main_v14 main_v15 (fptosi 32 : (⟨S4194304x3, .f32⟩ : BufTy).Contents (Elt F) → (⟨S4194304x3, .i32⟩ : BufTy).Contents (Elt F)) ]

/-- The operations 20 … 29. -/
abbrev ops0b : List (HloOp τ sig (Elt F)) :=
  [ nullary main_c_1 (constantI S_ 32 1#32),
    unary main_c_1 main_v16 (broadcastInDim S3 ![] bcast_S_S3 : (⟨S_, .i32⟩ : BufTy).Contents (Elt F) → (⟨S3, .i32⟩ : BufTy).Contents (Elt F)),
    binary main_c main_v16 main_v17 (subi : (⟨S3, .i32⟩ : BufTy).Contents (Elt F) → (⟨S3, .i32⟩ : BufTy).Contents (Elt F) → (⟨S3, .i32⟩ : BufTy).Contents (Elt F)),
    nullary main_c_2 (constantI S_ 32 0#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S4194304x3, .i32⟩) main_call0_v1) (broadcastInDim S4194304x3 ![] bcast_S_S4194304x3),
    TRef.binary (TRef.of (T := ⟨S4194304x3, .i32⟩) main_call0_v1) (TRef.of (T := ⟨S4194304x3, .i32⟩) main_v15) (TRef.of (T := ⟨S4194304x3, .i32⟩) main_call0_v2) maxsi,
    TRef.unary (TRef.of (T := ⟨S3, .i32⟩) main_v17) (TRef.of (T := ⟨S1x3, .i32⟩) main_call0_v3) (broadcastInDim S1x3 ![1] bcast_S3_S1x3_1),
    TRef.unary (TRef.of (T := ⟨S1x3, .i32⟩) main_call0_v3) (TRef.of (T := ⟨S4194304x3, .i32⟩) main_call0_v4) (broadcastInDim S4194304x3 ![0, 1] bcast_S1x3_S4194304x3_0_1),
    TRef.binary (TRef.of (T := ⟨S4194304x3, .i32⟩) main_call0_v4) (TRef.of (T := ⟨S4194304x3, .i32⟩) main_call0_v2) (TRef.of (T := ⟨S4194304x3, .i32⟩) main_v18) minsi ]

/-- The operations 30 … 34. -/
abbrev ops0c : List (HloOp τ sig (Elt F)) :=
  [ unary main_c_0 main_v19 (broadcastInDim S1x3 ![1] bcast_S3_S1x3_1 : (⟨S3, .i32⟩ : BufTy).Contents (Elt F) → (⟨S1x3, .i32⟩ : BufTy).Contents (Elt F)),
    unary main_v19 main_v20 (broadcastInDim S4194304x3 ![0, 1] bcast_S1x3_S4194304x3_0_1 : (⟨S1x3, .i32⟩ : BufTy).Contents (Elt F) → (⟨S4194304x3, .i32⟩ : BufTy).Contents (Elt F)),
    binary main_v18 main_v20 main_v21 (muli : (⟨S4194304x3, .i32⟩ : BufTy).Contents (Elt F) → (⟨S4194304x3, .i32⟩ : BufTy).Contents (Elt F) → (⟨S4194304x3, .i32⟩ : BufTy).Contents (Elt F)),
    nullary main_c_3 (constantI S_ 32 0#32),
    binary main_v21 main_c_3 main_v22 ((fun x v => Host.reduce IntOp.addi x v reducesTo_S4194304x3_S4194304_d1 h_S_) : (⟨S4194304x3, .i32⟩ : BufTy).Contents (Elt F) → (⟨S_, .i32⟩ : BufTy).Contents (Elt F) → (⟨S4194304, .i32⟩ : BufTy).Contents (Elt F)) ]

/-- The operations 35 … 35. -/
abbrev ops0d : List (HloOp τ sig (Elt F)) :=
  [ TRef.nullary (TRef.of (T := ⟨S4194304, .i32⟩) main_call1_v0) (iotaInDim S4194304 32 0) ]

/-- The operations 36 … 37. -/
abbrev ops0e : List (HloOp τ sig (Elt F)) :=
  [ TRef.binary (TRef.of (T := ⟨S4194304, .i32⟩) main_v22) (TRef.of (T := ⟨S4194304, .i32⟩) main_call1_v0) (TRef.of (T := ⟨S4194304, .i32⟩) main_call1_v1_0) (fun x y => (Host.sort2 S4194304 0 comparator_i32_i32_d0 x y).1),
    TRef.binary (TRef.of (T := ⟨S4194304, .i32⟩) main_v22) (TRef.of (T := ⟨S4194304, .i32⟩) main_call1_v0) (TRef.of (T := ⟨S4194304, .i32⟩) main_v23) (fun x y => (Host.sort2 S4194304 0 comparator_i32_i32_d0 x y).2) ]

/-- The operations 38 … 46. -/
abbrev ops0f : List (HloOp τ sig (Elt F)) :=
  [ nullary main_c_4 (constantI S_ 32 0#32),
    unary main_c_4 main_v24 (broadcastInDim S4194304 ![] bcast_S_S4194304 : (⟨S_, .i32⟩ : BufTy).Contents (Elt F) → (⟨S4194304, .i32⟩ : BufTy).Contents (Elt F)),
    binary main_v23 main_v24 main_v25 (cmpi .slt : (⟨S4194304, .i32⟩ : BufTy).Contents (Elt F) → (⟨S4194304, .i32⟩ : BufTy).Contents (Elt F) → (⟨S4194304, .i1⟩ : BufTy).Contents (Elt F)),
    nullary main_c_5 (constantI S_ 32 4194304#32),
    unary main_c_5 main_v26 (broadcastInDim S4194304 ![] bcast_S_S4194304 : (⟨S_, .i32⟩ : BufTy).Contents (Elt F) → (⟨S4194304, .i32⟩ : BufTy).Contents (Elt F)),
    binary main_v23 main_v26 main_v27 (addi : (⟨S4194304, .i32⟩ : BufTy).Contents (Elt F) → (⟨S4194304, .i32⟩ : BufTy).Contents (Elt F) → (⟨S4194304, .i32⟩ : BufTy).Contents (Elt F)),
    ternary main_v25 main_v27 main_v23 main_v28 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v28 main_v29 (broadcastInDim S4194304x1 ![0] bcast_S4194304_S4194304x1_0 : (⟨S4194304, .i32⟩ : BufTy).Contents (Elt F) → (⟨S4194304x1, .i32⟩ : BufTy).Contents (Elt F)),
    binary main_v22 main_v29 main_v30 ((fun x i => Host.gather gather_S4194304_S4194304x1_S4194304_n_0_n_n_0_1_1 x i) : (⟨S4194304, .i32⟩ : BufTy).Contents (Elt F) → (⟨S4194304x1, .i32⟩ : BufTy).Contents (Elt F) → (⟨S4194304, .i32⟩ : BufTy).Contents (Elt F)) ]

/-- The operations 47 … 67. -/
abbrev ops0g : List (HloOp τ sig (Elt F)) :=
  [ nullary main_c_6 (constantI S_ 32 0#32),
    unary main_c_6 main_v31 (broadcastInDim S4194304 ![] bcast_S_S4194304 : (⟨S_, .i32⟩ : BufTy).Contents (Elt F) → (⟨S4194304, .i32⟩ : BufTy).Contents (Elt F)),
    binary main_v23 main_v31 main_v32 (cmpi .slt : (⟨S4194304, .i32⟩ : BufTy).Contents (Elt F) → (⟨S4194304, .i32⟩ : BufTy).Contents (Elt F) → (⟨S4194304, .i1⟩ : BufTy).Contents (Elt F)),
    nullary main_c_7 (constantI S_ 32 4194304#32),
    unary main_c_7 main_v33 (broadcastInDim S4194304 ![] bcast_S_S4194304 : (⟨S_, .i32⟩ : BufTy).Contents (Elt F) → (⟨S4194304, .i32⟩ : BufTy).Contents (Elt F)),
    binary main_v23 main_v33 main_v34 (addi : (⟨S4194304, .i32⟩ : BufTy).Contents (Elt F) → (⟨S4194304, .i32⟩ : BufTy).Contents (Elt F) → (⟨S4194304, .i32⟩ : BufTy).Contents (Elt F)),
    ternary main_v32 main_v34 main_v23 main_v35 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v35 main_v36 (broadcastInDim S4194304x1 ![0] bcast_S4194304_S4194304x1_0 : (⟨S4194304, .i32⟩ : BufTy).Contents (Elt F) → (⟨S4194304x1, .i32⟩ : BufTy).Contents (Elt F)),
    binary main_arg0 main_v36 main_v37 ((fun x i => Host.gather gather_S4194304x3_S4194304x1_S4194304x3_1_0_n_n_0_1_13 x i) : (⟨S4194304x3, .f32⟩ : BufTy).Contents (Elt F) → (⟨S4194304x1, .i32⟩ : BufTy).Contents (Elt F) → (⟨S4194304x3, .f32⟩ : BufTy).Contents (Elt F)),
    nullary main_c_8 (constantI S_ 32 0#32),
    unary main_c_8 main_v38 (broadcastInDim S4194304 ![] bcast_S_S4194304 : (⟨S_, .i32⟩ : BufTy).Contents (Elt F) → (⟨S4194304, .i32⟩ : BufTy).Contents (Elt F)),
    binary main_v30 main_v38 main_v39 (cmpi .slt : (⟨S4194304, .i32⟩ : BufTy).Contents (Elt F) → (⟨S4194304, .i32⟩ : BufTy).Contents (Elt F) → (⟨S4194304, .i1⟩ : BufTy).Contents (Elt F)),
    nullary main_c_9 (constantI S_ 32 64#32),
    unary main_c_9 main_v40 (broadcastInDim S4194304 ![] bcast_S_S4194304 : (⟨S_, .i32⟩ : BufTy).Contents (Elt F) → (⟨S4194304, .i32⟩ : BufTy).Contents (Elt F)),
    binary main_v30 main_v40 main_v41 (addi : (⟨S4194304, .i32⟩ : BufTy).Contents (Elt F) → (⟨S4194304, .i32⟩ : BufTy).Contents (Elt F) → (⟨S4194304, .i32⟩ : BufTy).Contents (Elt F)),
    ternary main_v39 main_v41 main_v30 main_v42 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v42 main_v43 (broadcastInDim S4194304x1 ![0] bcast_S4194304_S4194304x1_0 : (⟨S4194304, .i32⟩ : BufTy).Contents (Elt F) → (⟨S4194304x1, .i32⟩ : BufTy).Contents (Elt F)),
    binary main_arg3 main_v43 main_v44 ((fun x i => Host.gather gather_S64x3_S4194304x1_S4194304x3_1_0_n_n_0_1_13 x i) : (⟨S64x3, .f32⟩ : BufTy).Contents (Elt F) → (⟨S4194304x1, .i32⟩ : BufTy).Contents (Elt F) → (⟨S4194304x3, .f32⟩ : BufTy).Contents (Elt F)),
    binary main_v37 main_v44 main_v45 (subf : (⟨S4194304x3, .f32⟩ : BufTy).Contents (Elt F) → (⟨S4194304x3, .f32⟩ : BufTy).Contents (Elt F) → (⟨S4194304x3, .f32⟩ : BufTy).Contents (Elt F)),
    nullary main_cst_10 (constant S_ .f32 0x40000000#32),
    unary main_cst_10 main_v46 (broadcastInDim S4194304x3 ![] bcast_S_S4194304x3 : (⟨S_, .f32⟩ : BufTy).Contents (Elt F) → (⟨S4194304x3, .f32⟩ : BufTy).Contents (Elt F)) ]

/-- The window's list in its consecutive pieces. -/
theorem ops0_split : (ops0 : List (HloOp τ sig (Elt F))) = ops0a ++ (ops0b ++ (ops0c ++ (ops0d ++ (ops0e ++ (ops0f ++ (ops0g)))))) := rfl

/-- What is held at the start of piece b and still read. -/
def Inv0b (W : Valuation τ sig (Elt F)) (a0 : FVec F S4194304x3 .f32) (a1 : FVec F S2x3 .f32) (a2 : FVec F S256x256x256 .f32) (a3 a4 : FVec F S64x3 .f32) : Prop :=
  W (main_c : DevRef τ sig) = r_c a0 a1 a2 a3 a4
  ∧ W (main_c_0 : DevRef τ sig) = r_c_0 a0 a1 a2 a3 a4
  ∧ W (main_v15 : DevRef τ sig) = r_v15 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

/-- What is held at the start of piece c and still read. -/
def Inv0c (W : Valuation τ sig (Elt F)) (a0 : FVec F S4194304x3 .f32) (a1 : FVec F S2x3 .f32) (a2 : FVec F S256x256x256 .f32) (a3 a4 : FVec F S64x3 .f32) : Prop :=
  W (main_c_0 : DevRef τ sig) = r_c_0 a0 a1 a2 a3 a4
  ∧ W (main_v18 : DevRef τ sig) = r_v18 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

/-- What is held at the start of piece d and still read. -/
def Inv0d (W : Valuation τ sig (Elt F)) (a0 : FVec F S4194304x3 .f32) (a1 : FVec F S2x3 .f32) (a2 : FVec F S256x256x256 .f32) (a3 a4 : FVec F S64x3 .f32) : Prop :=
  W (main_v22 : DevRef τ sig) = r_v22 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

/-- What is held at the start of piece e and still read. -/
def Inv0e (W : Valuation τ sig (Elt F)) (a0 : FVec F S4194304x3 .f32) (a1 : FVec F S2x3 .f32) (a2 : FVec F S256x256x256 .f32) (a3 a4 : FVec F S64x3 .f32) : Prop :=
  W (main_v22 : DevRef τ sig) = r_v22 a0 a1 a2 a3 a4
  ∧ W (main_call1_v0 : DevRef τ sig) = r_call1_v0 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

/-- What is held at the start of piece f and still read. -/
def Inv0f (W : Valuation τ sig (Elt F)) (a0 : FVec F S4194304x3 .f32) (a1 : FVec F S2x3 .f32) (a2 : FVec F S256x256x256 .f32) (a3 a4 : FVec F S64x3 .f32) : Prop :=
  W (main_v22 : DevRef τ sig) = r_v22 a0 a1 a2 a3 a4
  ∧ W (main_v23 : DevRef τ sig) = r_v23 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

/-- What is held at the start of piece g and still read. -/
def Inv0g (W : Valuation τ sig (Elt F)) (a0 : FVec F S4194304x3 .f32) (a1 : FVec F S2x3 .f32) (a2 : FVec F S256x256x256 .f32) (a3 a4 : FVec F S64x3 .f32) : Prop :=
  W (main_v23 : DevRef τ sig) = r_v23 a0 a1 a2 a3 a4
  ∧ W (main_v30 : DevRef τ sig) = r_v30 a0 a1 a2 a3 a4
  ∧ W (main_arg0 : DevRef τ sig) = a0
  ∧ W (main_arg1 : DevRef τ sig) = a1
  ∧ W (main_arg2 : DevRef τ sig) = a2
  ∧ W (main_arg3 : DevRef τ sig) = a3
  ∧ W (main_arg4 : DevRef τ sig) = a4

-- the sorts, gathers and reductions stay folded: the equations below never look inside them
attribute [local irreducible] Host.sort2 Host.gather Host.reduce in
set_option maxRecDepth 8192 in
set_option maxHeartbeats 4000000 in
/-- Across ops0a: the stages held at its start give the stages held at its end. -/
theorem win0a (W : Valuation τ sig (Elt F)) (a0 : FVec F S4194304x3 .f32) (a1 : FVec F S2x3 .f32)
    (a2 : FVec F S256x256x256 .f32) (a3 a4 : FVec F S64x3 .f32) (h : Inv0 W a0 a1 a2 a3 a4) :
    Inv0b (after ops0a W) a0 a1 a2 a3 a4 := by
  unfold Inv0 at h
  unfold Inv0b
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops0b: the stages held at its start give the stages held at its end. -/
theorem win0b (W : Valuation τ sig (Elt F)) (a0 : FVec F S4194304x3 .f32) (a1 : FVec F S2x3 .f32)
    (a2 : FVec F S256x256x256 .f32) (a3 a4 : FVec F S64x3 .f32) (h : Inv0b W a0 a1 a2 a3 a4) :
    Inv0c (after ops0b W) a0 a1 a2 a3 a4 := by
  unfold Inv0b at h
  unfold Inv0c
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops0c: the stages held at its start give the stages held at its end. -/
theorem win0c (W : Valuation τ sig (Elt F)) (a0 : FVec F S4194304x3 .f32) (a1 : FVec F S2x3 .f32)
    (a2 : FVec F S256x256x256 .f32) (a3 a4 : FVec F S64x3 .f32) (h : Inv0c W a0 a1 a2 a3 a4) :
    Inv0d (after ops0c W) a0 a1 a2 a3 a4 := by
  unfold Inv0c at h
  unfold Inv0d
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops0d: the stages held at its start give the stages held at its end. -/
theorem win0d (W : Valuation τ sig (Elt F)) (a0 : FVec F S4194304x3 .f32) (a1 : FVec F S2x3 .f32)
    (a2 : FVec F S256x256x256 .f32) (a3 a4 : FVec F S64x3 .f32) (h : Inv0d W a0 a1 a2 a3 a4) :
    Inv0e (after ops0d W) a0 a1 a2 a3 a4 := by
  unfold Inv0d at h
  unfold Inv0e
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops0e: the stages held at its start give the stages held at its end. -/
theorem win0e (W : Valuation τ sig (Elt F)) (a0 : FVec F S4194304x3 .f32) (a1 : FVec F S2x3 .f32)
    (a2 : FVec F S256x256x256 .f32) (a3 a4 : FVec F S64x3 .f32) (h : Inv0e W a0 a1 a2 a3 a4) :
    Inv0f (after ops0e W) a0 a1 a2 a3 a4 := by
  unfold Inv0e at h
  unfold Inv0f
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops0f: the stages held at its start give the stages held at its end. -/
theorem win0f (W : Valuation τ sig (Elt F)) (a0 : FVec F S4194304x3 .f32) (a1 : FVec F S2x3 .f32)
    (a2 : FVec F S256x256x256 .f32) (a3 a4 : FVec F S64x3 .f32) (h : Inv0f W a0 a1 a2 a3 a4) :
    Inv0g (after ops0f W) a0 a1 a2 a3 a4 := by
  unfold Inv0f at h
  unfold Inv0g
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops0g: the stages held at its start give the stages held at its end. -/
theorem win0g (W : Valuation τ sig (Elt F)) (a0 : FVec F S4194304x3 .f32) (a1 : FVec F S2x3 .f32)
    (a2 : FVec F S256x256x256 .f32) (a3 a4 : FVec F S64x3 .f32) (h : Inv0g W a0 a1 a2 a3 a4) :
    Inv1 (after ops0g W) a0 a1 a2 a3 a4 := by
  unfold Inv0g at h
  unfold Inv1
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

/-- Across the whole window. -/
theorem win0 (W : Valuation τ sig (Elt F)) (a0 : FVec F S4194304x3 .f32) (a1 : FVec F S2x3 .f32)
    (a2 : FVec F S256x256x256 .f32) (a3 a4 : FVec F S64x3 .f32) (h : Inv0 W a0 a1 a2 a3 a4) :
    Inv1 (after ops0 W) a0 a1 a2 a3 a4 := by
  rw [ops0_split, after_append, after_append, after_append, after_append, after_append, after_append]
  exact (win0g _ _ _ _ _ _ (win0f _ _ _ _ _ _ (win0e _ _ _ _ _ _ (win0d _ _ _ _ _ _ (win0c _ _ _ _ _ _ (win0b _ _ _ _ _ _ (win0a _ _ _ _ _ _ h)))))))

end Cert.AlphaGrid.RefRun

end
-- ==== Proof.RefRunOps1.lean ====
/- The operations 68 … 127 of the reference (of 941, calls unfolded at their sites), in order: the window main_part1 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops1 : List (HloOp τ sig (Elt F)) :=
  [ binary main_v46 main_v45 main_v47 (mulf : (⟨S4194304x3, .f32⟩ : BufTy).Contents (Elt F) → (⟨S4194304x3, .f32⟩ : BufTy).Contents (Elt F) → (⟨S4194304x3, .f32⟩ : BufTy).Contents (Elt F)),
    nullary main_c_11 (constantI S_ 32 0#32),
    unary main_c_11 main_v48 (broadcastInDim S4194304 ![] bcast_S_S4194304 : (⟨S_, .i32⟩ : BufTy).Contents (Elt F) → (⟨S4194304, .i32⟩ : BufTy).Contents (Elt F)),
    binary main_v30 main_v48 main_v49 (cmpi .slt : (⟨S4194304, .i32⟩ : BufTy).Contents (Elt F) → (⟨S4194304, .i32⟩ : BufTy).Contents (Elt F) → (⟨S4194304, .i1⟩ : BufTy).Contents (Elt F)),
    nullary main_c_12 (constantI S_ 32 64#32),
    unary main_c_12 main_v50 (broadcastInDim S4194304 ![] bcast_S_S4194304 : (⟨S_, .i32⟩ : BufTy).Contents (Elt F) → (⟨S4194304, .i32⟩ : BufTy).Contents (Elt F)),
    binary main_v30 main_v50 main_v51 (addi : (⟨S4194304, .i32⟩ : BufTy).Contents (Elt F) → (⟨S4194304, .i32⟩ : BufTy).Contents (Elt F) → (⟨S4194304, .i32⟩ : BufTy).Contents (Elt F)),
    ternary main_v49 main_v51 main_v30 main_v52 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v52 main_v53 (broadcastInDim S4194304x1 ![0] bcast_S4194304_S4194304x1_0 : (⟨S4194304, .i32⟩ : BufTy).Contents (Elt F) → (⟨S4194304x1, .i32⟩ : BufTy).Contents (Elt F)),
    binary main_arg4 main_v53 main_v54 ((fun x i => Host.gather gather_S64x3_S4194304x1_S4194304x3_1_0_n_n_0_1_13 x i) : (⟨S64x3, .f32⟩ : BufTy).Contents (Elt F) → (⟨S4194304x1, .i32⟩ : BufTy).Contents (Elt F) → (⟨S4194304x3, .f32⟩ : BufTy).Contents (Elt F)),
    nullary main_c_13 (constantI S_ 32 0#32),
    unary main_c_13 main_v55 (broadcastInDim S4194304 ![] bcast_S_S4194304 : (⟨S_, .i32⟩ : BufTy).Contents (Elt F) → (⟨S4194304, .i32⟩ : BufTy).Contents (Elt F)),
    binary main_v30 main_v55 main_v56 (cmpi .slt : (⟨S4194304, .i32⟩ : BufTy).Contents (Elt F) → (⟨S4194304, .i32⟩ : BufTy).Contents (Elt F) → (⟨S4194304, .i1⟩ : BufTy).Contents (Elt F)),
    nullary main_c_14 (constantI S_ 32 64#32),
    unary main_c_14 main_v57 (broadcastInDim S4194304 ![] bcast_S_S4194304 : (⟨S_, .i32⟩ : BufTy).Contents (Elt F) → (⟨S4194304, .i32⟩ : BufTy).Contents (Elt F)),
    binary main_v30 main_v57 main_v58 (addi : (⟨S4194304, .i32⟩ : BufTy).Contents (Elt F) → (⟨S4194304, .i32⟩ : BufTy).Contents (Elt F) → (⟨S4194304, .i32⟩ : BufTy).Contents (Elt F)),
    ternary main_v56 main_v58 main_v30 main_v59 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v59 main_v60 (broadcastInDim S4194304x1 ![0] bcast_S4194304_S4194304x1_0 : (⟨S4194304, .i32⟩ : BufTy).Contents (Elt F) → (⟨S4194304x1, .i32⟩ : BufTy).Contents (Elt F)),
    binary main_arg3 main_v60 main_v61 ((fun x i => Host.gather gather_S64x3_S4194304x1_S4194304x3_1_0_n_n_0_1_13 x i) : (⟨S64x3, .f32⟩ : BufTy).Contents (Elt F) → (⟨S4194304x1, .i32⟩ : BufTy).Contents (Elt F) → (⟨S4194304x3, .f32⟩ : BufTy).Contents (Elt F)),
    binary main_v54 main_v61 main_v62 (subf : (⟨S4194304x3, .f32⟩ : BufTy).Contents (Elt F) → (⟨S4194304x3, .f32⟩ : BufTy).Contents (Elt F) → (⟨S4194304x3, .f32⟩ : BufTy).Contents (Elt F)),
    binary main_v47 main_v62 main_v63 (Host.divf : (⟨S4194304x3, .f32⟩ : BufTy).Contents (Elt F) → (⟨S4194304x3, .f32⟩ : BufTy).Contents (Elt F) → (⟨S4194304x3, .f32⟩ : BufTy).Contents (Elt F)),
    nullary main_cst_15 (constant S_ .f32 0x3F800000#32),
    unary main_cst_15 main_v64 (broadcastInDim S4194304x3 ![] bcast_S_S4194304x3 : (⟨S_, .f32⟩ : BufTy).Contents (Elt F) → (⟨S4194304x3, .f32⟩ : BufTy).Contents (Elt F)),
    binary main_v63 main_v64 main_v65 (subf : (⟨S4194304x3, .f32⟩ : BufTy).Contents (Elt F) → (⟨S4194304x3, .f32⟩ : BufTy).Contents (Elt F) → (⟨S4194304x3, .f32⟩ : BufTy).Contents (Elt F)),
    reshape main_arg2 main_v66 rfl shapeCasts_S256x256x256_S64x64x64x64,
    unary main_v65 main_v67 ((extractStridedSlice S4194304x1 ![0, 0] · slices_S4194304x3_S4194304x1_0_0) : (⟨S4194304x3, .f32⟩ : BufTy).Contents (Elt F) → (⟨S4194304x1, .f32⟩ : BufTy).Contents (Elt F)),
    reshape main_v67 main_v68 rfl shapeCasts_S4194304x1_S4194304,
    nullary main_cst_16 (constant S_ .f32 0x3F800000#32),
    unary main_cst_16 main_v69 (broadcastInDim S4194304 ![] bcast_S_S4194304 : (⟨S_, .f32⟩ : BufTy).Contents (Elt F) → (⟨S4194304, .f32⟩ : BufTy).Contents (Elt F)),
    binary main_v68 main_v69 main_v70 (addf : (⟨S4194304, .f32⟩ : BufTy).Contents (Elt F) → (⟨S4194304, .f32⟩ : BufTy).Contents (Elt F) → (⟨S4194304, .f32⟩ : BufTy).Contents (Elt F)),
    nullary main_cst_17 (constant S_ .f32 0x3F000000#32),
    unary main_cst_17 main_v71 (broadcastInDim S4194304 ![] bcast_S_S4194304 : (⟨S_, .f32⟩ : BufTy).Contents (Elt F) → (⟨S4194304, .f32⟩ : BufTy).Contents (Elt F)),
    binary main_v70 main_v71 main_v72 (mulf : (⟨S4194304, .f32⟩ : BufTy).Contents (Elt F) → (⟨S4194304, .f32⟩ : BufTy).Contents (Elt F) → (⟨S4194304, .f32⟩ : BufTy).Contents (Elt F)),
    nullary main_cst_18 (constant S_ .f32 0x427C0000#32),
    unary main_cst_18 main_v73 (broadcastInDim S4194304 ![] bcast_S_S4194304 : (⟨S_, .f32⟩ : BufTy).Contents (Elt F) → (⟨S4194304, .f32⟩ : BufTy).Contents (Elt F)),
    binary main_v72 main_v73 main_v74 (mulf : (⟨S4194304, .f32⟩ : BufTy).Contents (Elt F) → (⟨S4194304, .f32⟩ : BufTy).Contents (Elt F) → (⟨S4194304, .f32⟩ : BufTy).Contents (Elt F)),
    unary main_v65 main_v75 ((extractStridedSlice S4194304x1 ![0, 1] · slices_S4194304x3_S4194304x1_0_1) : (⟨S4194304x3, .f32⟩ : BufTy).Contents (Elt F) → (⟨S4194304x1, .f32⟩ : BufTy).Contents (Elt F)),
    reshape main_v75 main_v76 rfl shapeCasts_S4194304x1_S4194304,
    nullary main_cst_19 (constant S_ .f32 0x3F800000#32),
    unary main_cst_19 main_v77 (broadcastInDim S4194304 ![] bcast_S_S4194304 : (⟨S_, .f32⟩ : BufTy).Contents (Elt F) → (⟨S4194304, .f32⟩ : BufTy).Contents (Elt F)),
    binary main_v76 main_v77 main_v78 (addf : (⟨S4194304, .f32⟩ : BufTy).Contents (Elt F) → (⟨S4194304, .f32⟩ : BufTy).Contents (Elt F) → (⟨S4194304, .f32⟩ : BufTy).Contents (Elt F)),
    nullary main_cst_20 (constant S_ .f32 0x3F000000#32),
    unary main_cst_20 main_v79 (broadcastInDim S4194304 ![] bcast_S_S4194304 : (⟨S_, .f32⟩ : BufTy).Contents (Elt F) → (⟨S4194304, .f32⟩ : BufTy).Contents (Elt F)),
    binary main_v78 main_v79 main_v80 (mulf : (⟨S4194304, .f32⟩ : BufTy).Contents (Elt F) → (⟨S4194304, .f32⟩ : BufTy).Contents (Elt F) → (⟨S4194304, .f32⟩ : BufTy).Contents (Elt F)),
    nullary main_cst_21 (constant S_ .f32 0x427C0000#32),
    unary main_cst_21 main_v81 (broadcastInDim S4194304 ![] bcast_S_S4194304 : (⟨S_, .f32⟩ : BufTy).Contents (Elt F) → (⟨S4194304, .f32⟩ : BufTy).Contents (Elt F)),
    binary main_v80 main_v81 main_v82 (mulf : (⟨S4194304, .f32⟩ : BufTy).Contents (Elt F) → (⟨S4194304, .f32⟩ : BufTy).Contents (Elt F) → (⟨S4194304, .f32⟩ : BufTy).Contents (Elt F)),
    unary main_v65 main_v83 ((extractStridedSlice S4194304x1 ![0, 2] · slices_S4194304x3_S4194304x1_0_2) : (⟨S4194304x3, .f32⟩ : BufTy).Contents (Elt F) → (⟨S4194304x1, .f32⟩ : BufTy).Contents (Elt F)),
    reshape main_v83 main_v84 rfl shapeCasts_S4194304x1_S4194304,
    nullary main_cst_22 (constant S_ .f32 0x3F800000#32),
    unary main_cst_22 main_v85 (broadcastInDim S4194304 ![] bcast_S_S4194304 : (⟨S_, .f32⟩ : BufTy).Contents (Elt F) → (⟨S4194304, .f32⟩ : BufTy).Contents (Elt F)),
    binary main_v84 main_v85 main_v86 (addf : (⟨S4194304, .f32⟩ : BufTy).Contents (Elt F) → (⟨S4194304, .f32⟩ : BufTy).Contents (Elt F) → (⟨S4194304, .f32⟩ : BufTy).Contents (Elt F)),
    nullary main_cst_23 (constant S_ .f32 0x3F000000#32),
    unary main_cst_23 main_v87 (broadcastInDim S4194304 ![] bcast_S_S4194304 : (⟨S_, .f32⟩ : BufTy).Contents (Elt F) → (⟨S4194304, .f32⟩ : BufTy).Contents (Elt F)),
    binary main_v86 main_v87 main_v88 (mulf : (⟨S4194304, .f32⟩ : BufTy).Contents (Elt F) → (⟨S4194304, .f32⟩ : BufTy).Contents (Elt F) → (⟨S4194304, .f32⟩ : BufTy).Contents (Elt F)),
    nullary main_cst_24 (constant S_ .f32 0x427C0000#32),
    unary main_cst_24 main_v89 (broadcastInDim S4194304 ![] bcast_S_S4194304 : (⟨S_, .f32⟩ : BufTy).Contents (Elt F) → (⟨S4194304, .f32⟩ : BufTy).Contents (Elt F)),
    binary main_v88 main_v89 main_v90 (mulf : (⟨S4194304, .f32⟩ : BufTy).Contents (Elt F) → (⟨S4194304, .f32⟩ : BufTy).Contents (Elt F) → (⟨S4194304, .f32⟩ : BufTy).Contents (Elt F)),
    unary main_v74 main_v91 (Host.floor : (⟨S4194304, .f32⟩ : BufTy).Contents (Elt F) → (⟨S4194304, .f32⟩ : BufTy).Contents (Elt F)),
    unary main_v82 main_v92 (Host.floor : (⟨S4194304, .f32⟩ : BufTy).Contents (Elt F) → (⟨S4194304, .f32⟩ : BufTy).Contents (Elt F)) ]

theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.AlphaGrid.RefRun

end
-- ==== Proof.RefRunWin1.lean ====
/- Window 1 of the reference's @main: it is the line of its operations (every call it makes unfolds to the callee's operations
   over that call's buffers, and the sequencing reassociates), and running that line carries the boundary facts across: from the
   stages held at the window's start to the stages held at its end. Each buffer the window writes holds its operation's function of
   its operands' contents; those are stages by hypothesis or by the same fact one operation earlier, and a stage is by definition
   its operation applied to its operands' stages. A buffer the window does not write keeps what it held. -/
import proofs.«104803_j90202903151142_1_alg».proof.Proof.RefRunOps1
import proofs.«104803_j90202903151142_1_alg».proof.Proof.RefRunInv

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part1_eq (c : Dev nD) : main_part1 (F := F) c = seq ops1 := rfl

-- the sorts, gathers and reductions stay folded: the equations below never look inside them
attribute [local irreducible] Host.sort2 Host.gather Host.reduce in
set_option maxRecDepth 8192 in
set_option maxHeartbeats 4000000 in
/-- Across the window: the stages held at its start give the stages held at its end. -/
theorem win1 (W : Valuation τ sig (Elt F)) (a0 : FVec F S4194304x3 .f32) (a1 : FVec F S2x3 .f32)
    (a2 : FVec F S256x256x256 .f32) (a3 a4 : FVec F S64x3 .f32) (h : Inv1 W a0 a1 a2 a3 a4) :
    Inv2 (after ops1 W) a0 a1 a2 a3 a4 := by
  unfold Inv1 at h
  unfold Inv2
  repeat' apply And.intro
  all_goals
    simp (disch := decide) only [after_cons, after_nil,
      nullary_result', unary_result', binary_result', ternary_result', reshape_result', nary4_result',
      nullary_result_ne', unary_result_ne', binary_result_ne', ternary_result_ne', reshape_result_ne', nary_result_ne']
    try simp only [h]
    try rfl

end Cert.AlphaGrid.RefRun

end
-- ==== Proof.RefRunOps2.lean ====
/- The operations 128 … 197 of the reference (of 941, calls unfolded at their sites), in order: the window main_part2 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops2 : List (HloOp τ sig (Elt F)) :=
  [ unary main_v90 main_v93 (Host.floor : (⟨S4194304, .f32⟩ : BufTy).Contents (Elt F) → (⟨S4194304, .f32⟩ : BufTy).Contents (Elt F)),
    binary main_v74 main_v91 main_v94 (subf : (⟨S4194304, .f32⟩ : BufTy).Contents (Elt F) → (⟨S4194304, .f32⟩ : BufTy).Contents (Elt F) → (⟨S4194304, .f32⟩ : BufTy).Contents (Elt F)),
    binary main_v82 main_v92 main_v95 (subf : (⟨S4194304, .f32⟩ : BufTy).Contents (Elt F) → (⟨S4194304, .f32⟩ : BufTy).Contents (Elt F) → (⟨S4194304, .f32⟩ : BufTy).Contents (Elt F)),
    binary main_v90 main_v93 main_v96 (subf : (⟨S4194304, .f32⟩ : BufTy).Contents (Elt F) → (⟨S4194304, .f32⟩ : BufTy).Contents (Elt F) → (⟨S4194304, .f32⟩ : BufTy).Contents (Elt F)),
    unary main_v91 main_v97 (fptosi 32 : (⟨S4194304, .f32⟩ : BufTy).Contents (Elt F) → (⟨S4194304, .i32⟩ : BufTy).Contents (Elt F)),
    unary main_v92 main_v98 (fptosi 32 : (⟨S4194304, .f32⟩ : BufTy).Contents (Elt F) → (⟨S4194304, .i32⟩ : BufTy).Contents (Elt F)),
    unary main_v93 main_v99 (fptosi 32 : (⟨S4194304, .f32⟩ : BufTy).Contents (Elt F) → (⟨S4194304, .i32⟩ : BufTy).Contents (Elt F)),
    nullary main_cst_25 (constant S_ .f32 0x00000000#32),
    unary main_cst_25 main_v100 (broadcastInDim S4194304 ![] bcast_S_S4194304 : (⟨S_, .f32⟩ : BufTy).Contents (Elt F) → (⟨S4194304, .f32⟩ : BufTy).Contents (Elt F)),
    nullary main_cst_26 (constant S_ .f32 0x3F800000#32),
    unary main_cst_26 main_v101 (broadcastInDim S4194304 ![] bcast_S_S4194304 : (⟨S_, .f32⟩ : BufTy).Contents (Elt F) → (⟨S4194304, .f32⟩ : BufTy).Contents (Elt F)),
    binary main_v101 main_v96 main_v102 (subf : (⟨S4194304, .f32⟩ : BufTy).Contents (Elt F) → (⟨S4194304, .f32⟩ : BufTy).Contents (Elt F) → (⟨S4194304, .f32⟩ : BufTy).Contents (Elt F)),
    nullary main_cst_27 (constant S_ .f32 0x3F800000#32),
    unary main_cst_27 main_v103 (broadcastInDim S4194304 ![] bcast_S_S4194304 : (⟨S_, .f32⟩ : BufTy).Contents (Elt F) → (⟨S4194304, .f32⟩ : BufTy).Contents (Elt F)),
    binary main_v103 main_v95 main_v104 (subf : (⟨S4194304, .f32⟩ : BufTy).Contents (Elt F) → (⟨S4194304, .f32⟩ : BufTy).Contents (Elt F) → (⟨S4194304, .f32⟩ : BufTy).Contents (Elt F)),
    nullary main_cst_28 (constant S_ .f32 0x3F800000#32),
    unary main_cst_28 main_v105 (broadcastInDim S4194304 ![] bcast_S_S4194304 : (⟨S_, .f32⟩ : BufTy).Contents (Elt F) → (⟨S4194304, .f32⟩ : BufTy).Contents (Elt F)),
    binary main_v105 main_v94 main_v106 (subf : (⟨S4194304, .f32⟩ : BufTy).Contents (Elt F) → (⟨S4194304, .f32⟩ : BufTy).Contents (Elt F) → (⟨S4194304, .f32⟩ : BufTy).Contents (Elt F)),
    binary main_v102 main_v104 main_v107 (mulf : (⟨S4194304, .f32⟩ : BufTy).Contents (Elt F) → (⟨S4194304, .f32⟩ : BufTy).Contents (Elt F) → (⟨S4194304, .f32⟩ : BufTy).Contents (Elt F)),
    binary main_v107 main_v106 main_v108 (mulf : (⟨S4194304, .f32⟩ : BufTy).Contents (Elt F) → (⟨S4194304, .f32⟩ : BufTy).Contents (Elt F) → (⟨S4194304, .f32⟩ : BufTy).Contents (Elt F)),
    nullary main_c_29 (constantI S_ 32 0#32),
    unary main_c_29 main_v109 (broadcastInDim S4194304 ![] bcast_S_S4194304 : (⟨S_, .i32⟩ : BufTy).Contents (Elt F) → (⟨S4194304, .i32⟩ : BufTy).Contents (Elt F)),
    binary main_v99 main_v109 main_v110 (addi : (⟨S4194304, .i32⟩ : BufTy).Contents (Elt F) → (⟨S4194304, .i32⟩ : BufTy).Contents (Elt F) → (⟨S4194304, .i32⟩ : BufTy).Contents (Elt F)),
    nullary main_c_30 (constantI S_ 32 0#32),
    unary main_c_30 main_v111 (broadcastInDim S4194304 ![] bcast_S_S4194304 : (⟨S_, .i32⟩ : BufTy).Contents (Elt F) → (⟨S4194304, .i32⟩ : BufTy).Contents (Elt F)),
    binary main_v98 main_v111 main_v112 (addi : (⟨S4194304, .i32⟩ : BufTy).Contents (Elt F) → (⟨S4194304, .i32⟩ : BufTy).Contents (Elt F) → (⟨S4194304, .i32⟩ : BufTy).Contents (Elt F)),
    nullary main_c_31 (constantI S_ 32 0#32),
    unary main_c_31 main_v113 (broadcastInDim S4194304 ![] bcast_S_S4194304 : (⟨S_, .i32⟩ : BufTy).Contents (Elt F) → (⟨S4194304, .i32⟩ : BufTy).Contents (Elt F)),
    binary main_v97 main_v113 main_v114 (addi : (⟨S4194304, .i32⟩ : BufTy).Contents (Elt F) → (⟨S4194304, .i32⟩ : BufTy).Contents (Elt F) → (⟨S4194304, .i32⟩ : BufTy).Contents (Elt F)),
    nullary main_c_32 (constantI S_ 32 0#32),
    unary main_c_32 main_v115 (broadcastInDim S4194304 ![] bcast_S_S4194304 : (⟨S_, .i32⟩ : BufTy).Contents (Elt F) → (⟨S4194304, .i32⟩ : BufTy).Contents (Elt F)),
    binary main_v110 main_v115 main_v116 (cmpi .sge : (⟨S4194304, .i32⟩ : BufTy).Contents (Elt F) → (⟨S4194304, .i32⟩ : BufTy).Contents (Elt F) → (⟨S4194304, .i1⟩ : BufTy).Contents (Elt F)),
    nullary main_c_33 (constantI S_ 32 64#32),
    unary main_c_33 main_v117 (broadcastInDim S4194304 ![] bcast_S_S4194304 : (⟨S_, .i32⟩ : BufTy).Contents (Elt F) → (⟨S4194304, .i32⟩ : BufTy).Contents (Elt F)),
    binary main_v110 main_v117 main_v118 (cmpi .slt : (⟨S4194304, .i32⟩ : BufTy).Contents (Elt F) → (⟨S4194304, .i32⟩ : BufTy).Contents (Elt F) → (⟨S4194304, .i1⟩ : BufTy).Contents (Elt F)),
    binary main_v116 main_v118 main_v119 (andi : (⟨S4194304, .i1⟩ : BufTy).Contents (Elt F) → (⟨S4194304, .i1⟩ : BufTy).Contents (Elt F) → (⟨S4194304, .i1⟩ : BufTy).Contents (Elt F)),
    nullary main_c_34 (constantI S_ 32 0#32),
    unary main_c_34 main_v120 (broadcastInDim S4194304 ![] bcast_S_S4194304 : (⟨S_, .i32⟩ : BufTy).Contents (Elt F) → (⟨S4194304, .i32⟩ : BufTy).Contents (Elt F)),
    binary main_v112 main_v120 main_v121 (cmpi .sge : (⟨S4194304, .i32⟩ : BufTy).Contents (Elt F) → (⟨S4194304, .i32⟩ : BufTy).Contents (Elt F) → (⟨S4194304, .i1⟩ : BufTy).Contents (Elt F)),
    binary main_v119 main_v121 main_v122 (andi : (⟨S4194304, .i1⟩ : BufTy).Contents (Elt F) → (⟨S4194304, .i1⟩ : BufTy).Contents (Elt F) → (⟨S4194304, .i1⟩ : BufTy).Contents (Elt F)),
    nullary main_c_35 (constantI S_ 32 64#32),
    unary main_c_35 main_v123 (broadcastInDim S4194304 ![] bcast_S_S4194304 : (⟨S_, .i32⟩ : BufTy).Contents (Elt F) → (⟨S4194304, .i32⟩ : BufTy).Contents (Elt F)),
    binary main_v112 main_v123 main_v124 (cmpi .slt : (⟨S4194304, .i32⟩ : BufTy).Contents (Elt F) → (⟨S4194304, .i32⟩ : BufTy).Contents (Elt F) → (⟨S4194304, .i1⟩ : BufTy).Contents (Elt F)),
    binary main_v122 main_v124 main_v125 (andi : (⟨S4194304, .i1⟩ : BufTy).Contents (Elt F) → (⟨S4194304, .i1⟩ : BufTy).Contents (Elt F) → (⟨S4194304, .i1⟩ : BufTy).Contents (Elt F)),
    nullary main_c_36 (constantI S_ 32 0#32),
    unary main_c_36 main_v126 (broadcastInDim S4194304 ![] bcast_S_S4194304 : (⟨S_, .i32⟩ : BufTy).Contents (Elt F) → (⟨S4194304, .i32⟩ : BufTy).Contents (Elt F)),
    binary main_v114 main_v126 main_v127 (cmpi .sge : (⟨S4194304, .i32⟩ : BufTy).Contents (Elt F) → (⟨S4194304, .i32⟩ : BufTy).Contents (Elt F) → (⟨S4194304, .i1⟩ : BufTy).Contents (Elt F)),
    binary main_v125 main_v127 main_v128 (andi : (⟨S4194304, .i1⟩ : BufTy).Contents (Elt F) → (⟨S4194304, .i1⟩ : BufTy).Contents (Elt F) → (⟨S4194304, .i1⟩ : BufTy).Contents (Elt F)),
    nullary main_c_37 (constantI S_ 32 64#32),
    unary main_c_37 main_v129 (broadcastInDim S4194304 ![] bcast_S_S4194304 : (⟨S_, .i32⟩ : BufTy).Contents (Elt F) → (⟨S4194304, .i32⟩ : BufTy).Contents (Elt F)),
    binary main_v114 main_v129 main_v130 (cmpi .slt : (⟨S4194304, .i32⟩ : BufTy).Contents (Elt F) → (⟨S4194304, .i32⟩ : BufTy).Contents (Elt F) → (⟨S4194304, .i1⟩ : BufTy).Contents (Elt F)),
    binary main_v128 main_v130 main_v131 (andi : (⟨S4194304, .i1⟩ : BufTy).Contents (Elt F) → (⟨S4194304, .i1⟩ : BufTy).Contents (Elt F) → (⟨S4194304, .i1⟩ : BufTy).Contents (Elt F)),
    nullary main_c_38 (constantI S_ 32 0#32),
    nullary main_c_39 (constantI S_ 32 63#32),
    TRef.unary (TRef.of (T := ⟨S_, .i32⟩) main_c_38) (TRef.of (T := ⟨S_, .i32⟩) main_call2_v0) id,
    TRef.unary (TRef.of (T := ⟨S_, .i32⟩) main_call2_v0) (TRef.of (T := ⟨S4194304, .i32⟩) main_call2_v1) (broadcastInDim S4194304 ![] bcast_S_S4194304),
    TRef.binary (TRef.of (T := ⟨S4194304, .i32⟩) main_call2_v1) (TRef.of (T := ⟨S4194304, .i32⟩) main_v110) (TRef.of (T := ⟨S4194304, .i32⟩) main_call2_v2) maxsi,
    TRef.unary (TRef.of (T := ⟨S_, .i32⟩) main_c_39) (TRef.of (T := ⟨S_, .i32⟩) main_call2_v3) id,
    TRef.unary (TRef.of (T := ⟨S_, .i32⟩) main_call2_v3) (TRef.of (T := ⟨S4194304, .i32⟩) main_call2_v4) (broadcastInDim S4194304 ![] bcast_S_S4194304),
    TRef.binary (TRef.of (T := ⟨S4194304, .i32⟩) main_call2_v4) (TRef.of (T := ⟨S4194304, .i32⟩) main_call2_v2) (TRef.of (T := ⟨S4194304, .i32⟩) main_v132) minsi,
    nullary main_c_40 (constantI S_ 32 0#32),
    nullary main_c_41 (constantI S_ 32 63#32),
    TRef.unary (TRef.of (T := ⟨S_, .i32⟩) main_c_40) (TRef.of (T := ⟨S_, .i32⟩) main_call3_v0) id,
    TRef.unary (TRef.of (T := ⟨S_, .i32⟩) main_call3_v0) (TRef.of (T := ⟨S4194304, .i32⟩) main_call3_v1) (broadcastInDim S4194304 ![] bcast_S_S4194304),
    TRef.binary (TRef.of (T := ⟨S4194304, .i32⟩) main_call3_v1) (TRef.of (T := ⟨S4194304, .i32⟩) main_v112) (TRef.of (T := ⟨S4194304, .i32⟩) main_call3_v2) maxsi,
    TRef.unary (TRef.of (T := ⟨S_, .i32⟩) main_c_41) (TRef.of (T := ⟨S_, .i32⟩) main_call3_v3) id,
    TRef.unary (TRef.of (T := ⟨S_, .i32⟩) main_call3_v3) (TRef.of (T := ⟨S4194304, .i32⟩) main_call3_v4) (broadcastInDim S4194304 ![] bcast_S_S4194304),
    TRef.binary (TRef.of (T := ⟨S4194304, .i32⟩) main_call3_v4) (TRef.of (T := ⟨S4194304, .i32⟩) main_call3_v2) (TRef.of (T := ⟨S4194304, .i32⟩) main_v133) minsi,
    nullary main_c_42 (constantI S_ 32 0#32),
    nullary main_c_43 (constantI S_ 32 63#32) ]

theorem ops2_sub : (ops2 : List (HloOp τ sig (Elt F))).Forall fun op => op.bufs ⊆ tcRefs τ sig :=
  ⟨unary_bufs_sub .., binary_bufs_sub .., binary_bufs_sub .., binary_bufs_sub .., unary_bufs_sub .., unary_bufs_sub .., unary_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.AlphaGrid.RefRun

end
-- ==== Proof.RefRunWin2.lean ====
/- Window 2 of the reference's @main: it is the line of its operations (every call it makes unfolds to the callee's operations
   over that call's buffers, and the sequencing reassociates), and running that line carries the boundary facts across: from the
   stages held at the window's start to the stages held at its end. Each buffer the window writes holds its operation's function of
   its operands' contents; those are stages by hypothesis or by the same fact one operation earlier, and a stage is by definition
   its operation applied to its operands' stages. A buffer the window does not write keeps what it held. -/
import proofs.«104803_j90202903151142_1_alg».proof.Proof.RefRunOps2
import proofs.«104803_j90202903151142_1_alg».proof.Proof.RefRunInv

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part2_eq (c : Dev nD) : main_part2 (F := F) c = seq ops2 := rfl

-- the sorts, gathers and reductions stay folded: the equations below never look inside them
attribute [local irreducible] Host.sort2 Host.gather Host.reduce in
set_option maxRecDepth 8192 in
set_option maxHeartbeats 4000000 in
/-- Across the window: the stages held at its start give the stages held at its end. -/
theorem win2 (W : Valuation τ sig (Elt F)) (a0 : FVec F S4194304x3 .f32) (a1 : FVec F S2x3 .f32)
    (a2 : FVec F S256x256x256 .f32) (a3 a4 : FVec F S64x3 .f32) (h : Inv2 W a0 a1 a2 a3 a4) :
    Inv3 (after ops2 W) a0 a1 a2 a3 a4 := by
  unfold Inv2 at h
  unfold Inv3
  repeat' apply And.intro
  all_goals
    simp (disch := decide) only [after_cons, after_nil,
      nullary_result', unary_result', binary_result', ternary_result', reshape_result', nary4_result',
      nullary_result_ne', unary_result_ne', binary_result_ne', ternary_result_ne', reshape_result_ne', nary_result_ne']
    try simp only [h]
    try rfl

end Cert.AlphaGrid.RefRun

end
-- ==== Proof.RefRunOps3.lean ====
/- The operations 198 … 264 of the reference (of 941, calls unfolded at their sites), in order: the window main_part3 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops3 : List (HloOp τ sig (Elt F)) :=
  [ TRef.unary (TRef.of (T := ⟨S_, .i32⟩) main_c_42) (TRef.of (T := ⟨S_, .i32⟩) main_call4_v0) id,
    TRef.unary (TRef.of (T := ⟨S_, .i32⟩) main_call4_v0) (TRef.of (T := ⟨S4194304, .i32⟩) main_call4_v1) (broadcastInDim S4194304 ![] bcast_S_S4194304),
    TRef.binary (TRef.of (T := ⟨S4194304, .i32⟩) main_call4_v1) (TRef.of (T := ⟨S4194304, .i32⟩) main_v114) (TRef.of (T := ⟨S4194304, .i32⟩) main_call4_v2) maxsi,
    TRef.unary (TRef.of (T := ⟨S_, .i32⟩) main_c_43) (TRef.of (T := ⟨S_, .i32⟩) main_call4_v3) id,
    TRef.unary (TRef.of (T := ⟨S_, .i32⟩) main_call4_v3) (TRef.of (T := ⟨S4194304, .i32⟩) main_call4_v4) (broadcastInDim S4194304 ![] bcast_S_S4194304),
    TRef.binary (TRef.of (T := ⟨S4194304, .i32⟩) main_call4_v4) (TRef.of (T := ⟨S4194304, .i32⟩) main_call4_v2) (TRef.of (T := ⟨S4194304, .i32⟩) main_v134) minsi,
    nullary main_c_44 (constantI S_ 32 0#32),
    unary main_c_44 main_v135 (broadcastInDim S4194304 ![] bcast_S_S4194304 : (⟨S_, .i32⟩ : BufTy).Contents (Elt F) → (⟨S4194304, .i32⟩ : BufTy).Contents (Elt F)),
    binary main_v30 main_v135 main_v136 (cmpi .slt : (⟨S4194304, .i32⟩ : BufTy).Contents (Elt F) → (⟨S4194304, .i32⟩ : BufTy).Contents (Elt F) → (⟨S4194304, .i1⟩ : BufTy).Contents (Elt F)),
    nullary main_c_45 (constantI S_ 32 64#32),
    unary main_c_45 main_v137 (broadcastInDim S4194304 ![] bcast_S_S4194304 : (⟨S_, .i32⟩ : BufTy).Contents (Elt F) → (⟨S4194304, .i32⟩ : BufTy).Contents (Elt F)),
    binary main_v30 main_v137 main_v138 (addi : (⟨S4194304, .i32⟩ : BufTy).Contents (Elt F) → (⟨S4194304, .i32⟩ : BufTy).Contents (Elt F) → (⟨S4194304, .i32⟩ : BufTy).Contents (Elt F)),
    ternary main_v136 main_v138 main_v30 main_v139 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_46 (constantI S_ 32 0#32),
    unary main_c_46 main_v140 (broadcastInDim S4194304 ![] bcast_S_S4194304 : (⟨S_, .i32⟩ : BufTy).Contents (Elt F) → (⟨S4194304, .i32⟩ : BufTy).Contents (Elt F)),
    binary main_v132 main_v140 main_v141 (cmpi .slt : (⟨S4194304, .i32⟩ : BufTy).Contents (Elt F) → (⟨S4194304, .i32⟩ : BufTy).Contents (Elt F) → (⟨S4194304, .i1⟩ : BufTy).Contents (Elt F)),
    nullary main_c_47 (constantI S_ 32 64#32),
    unary main_c_47 main_v142 (broadcastInDim S4194304 ![] bcast_S_S4194304 : (⟨S_, .i32⟩ : BufTy).Contents (Elt F) → (⟨S4194304, .i32⟩ : BufTy).Contents (Elt F)),
    binary main_v132 main_v142 main_v143 (addi : (⟨S4194304, .i32⟩ : BufTy).Contents (Elt F) → (⟨S4194304, .i32⟩ : BufTy).Contents (Elt F) → (⟨S4194304, .i32⟩ : BufTy).Contents (Elt F)),
    ternary main_v141 main_v143 main_v132 main_v144 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_48 (constantI S_ 32 0#32),
    unary main_c_48 main_v145 (broadcastInDim S4194304 ![] bcast_S_S4194304 : (⟨S_, .i32⟩ : BufTy).Contents (Elt F) → (⟨S4194304, .i32⟩ : BufTy).Contents (Elt F)),
    binary main_v133 main_v145 main_v146 (cmpi .slt : (⟨S4194304, .i32⟩ : BufTy).Contents (Elt F) → (⟨S4194304, .i32⟩ : BufTy).Contents (Elt F) → (⟨S4194304, .i1⟩ : BufTy).Contents (Elt F)),
    nullary main_c_49 (constantI S_ 32 64#32),
    unary main_c_49 main_v147 (broadcastInDim S4194304 ![] bcast_S_S4194304 : (⟨S_, .i32⟩ : BufTy).Contents (Elt F) → (⟨S4194304, .i32⟩ : BufTy).Contents (Elt F)),
    binary main_v133 main_v147 main_v148 (addi : (⟨S4194304, .i32⟩ : BufTy).Contents (Elt F) → (⟨S4194304, .i32⟩ : BufTy).Contents (Elt F) → (⟨S4194304, .i32⟩ : BufTy).Contents (Elt F)),
    ternary main_v146 main_v148 main_v133 main_v149 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_50 (constantI S_ 32 0#32),
    unary main_c_50 main_v150 (broadcastInDim S4194304 ![] bcast_S_S4194304 : (⟨S_, .i32⟩ : BufTy).Contents (Elt F) → (⟨S4194304, .i32⟩ : BufTy).Contents (Elt F)),
    binary main_v134 main_v150 main_v151 (cmpi .slt : (⟨S4194304, .i32⟩ : BufTy).Contents (Elt F) → (⟨S4194304, .i32⟩ : BufTy).Contents (Elt F) → (⟨S4194304, .i1⟩ : BufTy).Contents (Elt F)),
    nullary main_c_51 (constantI S_ 32 64#32),
    unary main_c_51 main_v152 (broadcastInDim S4194304 ![] bcast_S_S4194304 : (⟨S_, .i32⟩ : BufTy).Contents (Elt F) → (⟨S4194304, .i32⟩ : BufTy).Contents (Elt F)),
    binary main_v134 main_v152 main_v153 (addi : (⟨S4194304, .i32⟩ : BufTy).Contents (Elt F) → (⟨S4194304, .i32⟩ : BufTy).Contents (Elt F) → (⟨S4194304, .i32⟩ : BufTy).Contents (Elt F)),
    ternary main_v151 main_v153 main_v134 main_v154 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v139 main_v155 (broadcastInDim S4194304x1 ![0] bcast_S4194304_S4194304x1_0 : (⟨S4194304, .i32⟩ : BufTy).Contents (Elt F) → (⟨S4194304x1, .i32⟩ : BufTy).Contents (Elt F)),
    unary main_v144 main_v156 (broadcastInDim S4194304x1 ![0] bcast_S4194304_S4194304x1_0 : (⟨S4194304, .i32⟩ : BufTy).Contents (Elt F) → (⟨S4194304x1, .i32⟩ : BufTy).Contents (Elt F)),
    unary main_v149 main_v157 (broadcastInDim S4194304x1 ![0] bcast_S4194304_S4194304x1_0 : (⟨S4194304, .i32⟩ : BufTy).Contents (Elt F) → (⟨S4194304x1, .i32⟩ : BufTy).Contents (Elt F)),
    unary main_v154 main_v158 (broadcastInDim S4194304x1 ![0] bcast_S4194304_S4194304x1_0 : (⟨S4194304, .i32⟩ : BufTy).Contents (Elt F) → (⟨S4194304x1, .i32⟩ : BufTy).Contents (Elt F)),
    nary ![main_v155, main_v156, main_v157, main_v158] main_v159 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1),
    binary main_v66 main_v159 main_v160 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_52 (constant S_ .f32 0x00000000#32),
    TRef.unary (TRef.of (T := ⟨S_, .f32⟩) main_cst_52) (TRef.of (T := ⟨S_, .f32⟩) main_call5_v0) id,
    TRef.unary (TRef.of (T := ⟨S_, .f32⟩) main_call5_v0) (TRef.of (T := ⟨S4194304, .f32⟩) main_call5_v1) (broadcastInDim S4194304 ![] bcast_S_S4194304),
    TRef.ternary (TRef.of (T := ⟨S4194304, .i1⟩) main_v131) (TRef.of (T := ⟨S4194304, .f32⟩) main_v160) (TRef.of (T := ⟨S4194304, .f32⟩) main_call5_v1) (TRef.of (T := ⟨S4194304, .f32⟩) main_v161) select,
    binary main_v108 main_v161 main_v162 (mulf : (⟨S4194304, .f32⟩ : BufTy).Contents (Elt F) → (⟨S4194304, .f32⟩ : BufTy).Contents (Elt F) → (⟨S4194304, .f32⟩ : BufTy).Contents (Elt F)),
    binary main_v100 main_v162 main_v163 (addf : (⟨S4194304, .f32⟩ : BufTy).Contents (Elt F) → (⟨S4194304, .f32⟩ : BufTy).Contents (Elt F) → (⟨S4194304, .f32⟩ : BufTy).Contents (Elt F)),
    binary main_v102 main_v104 main_v164 (mulf : (⟨S4194304, .f32⟩ : BufTy).Contents (Elt F) → (⟨S4194304, .f32⟩ : BufTy).Contents (Elt F) → (⟨S4194304, .f32⟩ : BufTy).Contents (Elt F)),
    binary main_v164 main_v94 main_v165 (mulf : (⟨S4194304, .f32⟩ : BufTy).Contents (Elt F) → (⟨S4194304, .f32⟩ : BufTy).Contents (Elt F) → (⟨S4194304, .f32⟩ : BufTy).Contents (Elt F)),
    nullary main_c_53 (constantI S_ 32 0#32),
    unary main_c_53 main_v166 (broadcastInDim S4194304 ![] bcast_S_S4194304 : (⟨S_, .i32⟩ : BufTy).Contents (Elt F) → (⟨S4194304, .i32⟩ : BufTy).Contents (Elt F)),
    binary main_v99 main_v166 main_v167 (addi : (⟨S4194304, .i32⟩ : BufTy).Contents (Elt F) → (⟨S4194304, .i32⟩ : BufTy).Contents (Elt F) → (⟨S4194304, .i32⟩ : BufTy).Contents (Elt F)),
    nullary main_c_54 (constantI S_ 32 0#32),
    unary main_c_54 main_v168 (broadcastInDim S4194304 ![] bcast_S_S4194304 : (⟨S_, .i32⟩ : BufTy).Contents (Elt F) → (⟨S4194304, .i32⟩ : BufTy).Contents (Elt F)),
    binary main_v98 main_v168 main_v169 (addi : (⟨S4194304, .i32⟩ : BufTy).Contents (Elt F) → (⟨S4194304, .i32⟩ : BufTy).Contents (Elt F) → (⟨S4194304, .i32⟩ : BufTy).Contents (Elt F)),
    nullary main_c_55 (constantI S_ 32 1#32),
    unary main_c_55 main_v170 (broadcastInDim S4194304 ![] bcast_S_S4194304 : (⟨S_, .i32⟩ : BufTy).Contents (Elt F) → (⟨S4194304, .i32⟩ : BufTy).Contents (Elt F)),
    binary main_v97 main_v170 main_v171 (addi : (⟨S4194304, .i32⟩ : BufTy).Contents (Elt F) → (⟨S4194304, .i32⟩ : BufTy).Contents (Elt F) → (⟨S4194304, .i32⟩ : BufTy).Contents (Elt F)),
    nullary main_c_56 (constantI S_ 32 0#32),
    unary main_c_56 main_v172 (broadcastInDim S4194304 ![] bcast_S_S4194304 : (⟨S_, .i32⟩ : BufTy).Contents (Elt F) → (⟨S4194304, .i32⟩ : BufTy).Contents (Elt F)),
    binary main_v167 main_v172 main_v173 (cmpi .sge : (⟨S4194304, .i32⟩ : BufTy).Contents (Elt F) → (⟨S4194304, .i32⟩ : BufTy).Contents (Elt F) → (⟨S4194304, .i1⟩ : BufTy).Contents (Elt F)),
    nullary main_c_57 (constantI S_ 32 64#32),
    unary main_c_57 main_v174 (broadcastInDim S4194304 ![] bcast_S_S4194304 : (⟨S_, .i32⟩ : BufTy).Contents (Elt F) → (⟨S4194304, .i32⟩ : BufTy).Contents (Elt F)),
    binary main_v167 main_v174 main_v175 (cmpi .slt : (⟨S4194304, .i32⟩ : BufTy).Contents (Elt F) → (⟨S4194304, .i32⟩ : BufTy).Contents (Elt F) → (⟨S4194304, .i1⟩ : BufTy).Contents (Elt F)),
    binary main_v173 main_v175 main_v176 (andi : (⟨S4194304, .i1⟩ : BufTy).Contents (Elt F) → (⟨S4194304, .i1⟩ : BufTy).Contents (Elt F) → (⟨S4194304, .i1⟩ : BufTy).Contents (Elt F)),
    nullary main_c_58 (constantI S_ 32 0#32),
    unary main_c_58 main_v177 (broadcastInDim S4194304 ![] bcast_S_S4194304 : (⟨S_, .i32⟩ : BufTy).Contents (Elt F) → (⟨S4194304, .i32⟩ : BufTy).Contents (Elt F)),
    binary main_v169 main_v177 main_v178 (cmpi .sge : (⟨S4194304, .i32⟩ : BufTy).Contents (Elt F) → (⟨S4194304, .i32⟩ : BufTy).Contents (Elt F) → (⟨S4194304, .i1⟩ : BufTy).Contents (Elt F)) ]

theorem ops3_sub : (ops3 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., unary_bufs_sub .., ternary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
abbrev ops3a : List (HloOp τ sig (Elt F)) :=
  [ TRef.unary (TRef.of (T := ⟨S_, .i32⟩) main_c_42) (TRef.of (T := ⟨S_, .i32⟩) main_call4_v0) id,
    TRef.unary (TRef.of (T := ⟨S_, .i32⟩) main_call4_v0) (TRef.of (T := ⟨S4194304, .i32⟩) main_call4_v1) (broadcastInDim S4194304 ![] bcast_S_S4194304),
    TRef.binary (TRef.of (T := ⟨S4194304, .i32⟩) main_call4_v1) (TRef.of (T := ⟨S4194304, .i32⟩) main_v114) (TRef.of (T := ⟨S4194304, .i32⟩) main_call4_v2) maxsi,
    TRef.unary (TRef.of (T := ⟨S_, .i32⟩) main_c_43) (TRef.of (T := ⟨S_, .i32⟩) main_call4_v3) id,
    TRef.unary (TRef.of (T := ⟨S_, .i32⟩) main_call4_v3) (TRef.of (T := ⟨S4194304, .i32⟩) main_call4_v4) (broadcastInDim S4194304 ![] bcast_S_S4194304),
    TRef.binary (TRef.of (T := ⟨S4194304, .i32⟩) main_call4_v4) (TRef.of (T := ⟨S4194304, .i32⟩) main_call4_v2) (TRef.of (T := ⟨S4194304, .i32⟩) main_v134) minsi,
    nullary main_c_44 (constantI S_ 32 0#32),
    unary main_c_44 main_v135 (broadcastInDim S4194304 ![] bcast_S_S4194304 : (⟨S_, .i32⟩ : BufTy).Contents (Elt F) → (⟨S4194304, .i32⟩ : BufTy).Contents (Elt F)),
    binary main_v30 main_v135 main_v136 (cmpi .slt : (⟨S4194304, .i32⟩ : BufTy).Contents (Elt F) → (⟨S4194304, .i32⟩ : BufTy).Contents (Elt F) → (⟨S4194304, .i1⟩ : BufTy).Contents (Elt F)),
    nullary main_c_45 (constantI S_ 32 64#32),
    unary main_c_45 main_v137 (broadcastInDim S4194304 ![] bcast_S_S4194304 : (⟨S_, .i32⟩ : BufTy).Contents (Elt F) → (⟨S4194304, .i32⟩ : BufTy).Contents (Elt F)),
    binary main_v30 main_v137 main_v138 (addi : (⟨S4194304, .i32⟩ : BufTy).Contents (Elt F) → (⟨S4194304, .i32⟩ : BufTy).Contents (Elt F) → (⟨S4194304, .i32⟩ : BufTy).Contents (Elt F)),
    ternary main_v136 main_v138 main_v30 main_v139 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_46 (constantI S_ 32 0#32),
    unary main_c_46 main_v140 (broadcastInDim S4194304 ![] bcast_S_S4194304 : (⟨S_, .i32⟩ : BufTy).Contents (Elt F) → (⟨S4194304, .i32⟩ : BufTy).Contents (Elt F)),
    binary main_v132 main_v140 main_v141 (cmpi .slt : (⟨S4194304, .i32⟩ : BufTy).Contents (Elt F) → (⟨S4194304, .i32⟩ : BufTy).Contents (Elt F) → (⟨S4194304, .i1⟩ : BufTy).Contents (Elt F)),
    nullary main_c_47 (constantI S_ 32 64#32),
    unary main_c_47 main_v142 (broadcastInDim S4194304 ![] bcast_S_S4194304 : (⟨S_, .i32⟩ : BufTy).Contents (Elt F) → (⟨S4194304, .i32⟩ : BufTy).Contents (Elt F)),
    binary main_v132 main_v142 main_v143 (addi : (⟨S4194304, .i32⟩ : BufTy).Contents (Elt F) → (⟨S4194304, .i32⟩ : BufTy).Contents (Elt F) → (⟨S4194304, .i32⟩ : BufTy).Contents (Elt F)),
    ternary main_v141 main_v143 main_v132 main_v144 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_48 (constantI S_ 32 0#32),
    unary main_c_48 main_v145 (broadcastInDim S4194304 ![] bcast_S_S4194304 : (⟨S_, .i32⟩ : BufTy).Contents (Elt F) → (⟨S4194304, .i32⟩ : BufTy).Contents (Elt F)),
    binary main_v133 main_v145 main_v146 (cmpi .slt : (⟨S4194304, .i32⟩ : BufTy).Contents (Elt F) → (⟨S4194304, .i32⟩ : BufTy).Contents (Elt F) → (⟨S4194304, .i1⟩ : BufTy).Contents (Elt F)),
    nullary main_c_49 (constantI S_ 32 64#32),
    unary main_c_49 main_v147 (broadcastInDim S4194304 ![] bcast_S_S4194304 : (⟨S_, .i32⟩ : BufTy).Contents (Elt F) → (⟨S4194304, .i32⟩ : BufTy).Contents (Elt F)),
    binary main_v133 main_v147 main_v148 (addi : (⟨S4194304, .i32⟩ : BufTy).Contents (Elt F) → (⟨S4194304, .i32⟩ : BufTy).Contents (Elt F) → (⟨S4194304, .i32⟩ : BufTy).Contents (Elt F)),
    ternary main_v146 main_v148 main_v133 main_v149 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_50 (constantI S_ 32 0#32),
    unary main_c_50 main_v150 (broadcastInDim S4194304 ![] bcast_S_S4194304 : (⟨S_, .i32⟩ : BufTy).Contents (Elt F) → (⟨S4194304, .i32⟩ : BufTy).Contents (Elt F)),
    binary main_v134 main_v150 main_v151 (cmpi .slt : (⟨S4194304, .i32⟩ : BufTy).Contents (Elt F) → (⟨S4194304, .i32⟩ : BufTy).Contents (Elt F) → (⟨S4194304, .i1⟩ : BufTy).Contents (Elt F)),
    nullary main_c_51 (constantI S_ 32 64#32),
    unary main_c_51 main_v152 (broadcastInDim S4194304 ![] bcast_S_S4194304 : (⟨S_, .i32⟩ : BufTy).Contents (Elt F) → (⟨S4194304, .i32⟩ : BufTy).Contents (Elt F)),
    binary main_v134 main_v152 main_v153 (addi : (⟨S4194304, .i32⟩ : BufTy).Contents (Elt F) → (⟨S4194304, .i32⟩ : BufTy).Contents (Elt F) → (⟨S4194304, .i32⟩ : BufTy).Contents (Elt F)),
    ternary main_v151 main_v153 main_v134 main_v154 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v139 main_v155 (broadcastInDim S4194304x1 ![0] bcast_S4194304_S4194304x1_0 : (⟨S4194304, .i32⟩ : BufTy).Contents (Elt F) → (⟨S4194304x1, .i32⟩ : BufTy).Contents (Elt F)),
    unary main_v144 main_v156 (broadcastInDim S4194304x1 ![0] bcast_S4194304_S4194304x1_0 : (⟨S4194304, .i32⟩ : BufTy).Contents (Elt F) → (⟨S4194304x1, .i32⟩ : BufTy).Contents (Elt F)),
    unary main_v149 main_v157 (broadcastInDim S4194304x1 ![0] bcast_S4194304_S4194304x1_0 : (⟨S4194304, .i32⟩ : BufTy).Contents (Elt F) → (⟨S4194304x1, .i32⟩ : BufTy).Contents (Elt F)),
    unary main_v154 main_v158 (broadcastInDim S4194304x1 ![0] bcast_S4194304_S4194304x1_0 : (⟨S4194304, .i32⟩ : BufTy).Contents (Elt F) → (⟨S4194304x1, .i32⟩ : BufTy).Contents (Elt F)) ]

set_option maxHeartbeats 4000000 in
abbrev ops3b : List (HloOp τ sig (Elt F)) :=
  [ nary ![main_v155, main_v156, main_v157, main_v158] main_v159 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ]

set_option maxHeartbeats 4000000 in
abbrev ops3c : List (HloOp τ sig (Elt F)) :=
  [ binary main_v66 main_v159 main_v160 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_52 (constant S_ .f32 0x00000000#32),
    TRef.unary (TRef.of (T := ⟨S_, .f32⟩) main_cst_52) (TRef.of (T := ⟨S_, .f32⟩) main_call5_v0) id,
    TRef.unary (TRef.of (T := ⟨S_, .f32⟩) main_call5_v0) (TRef.of (T := ⟨S4194304, .f32⟩) main_call5_v1) (broadcastInDim S4194304 ![] bcast_S_S4194304),
    TRef.ternary (TRef.of (T := ⟨S4194304, .i1⟩) main_v131) (TRef.of (T := ⟨S4194304, .f32⟩) main_v160) (TRef.of (T := ⟨S4194304, .f32⟩) main_call5_v1) (TRef.of (T := ⟨S4194304, .f32⟩) main_v161) select,
    binary main_v108 main_v161 main_v162 (mulf : (⟨S4194304, .f32⟩ : BufTy).Contents (Elt F) → (⟨S4194304, .f32⟩ : BufTy).Contents (Elt F) → (⟨S4194304, .f32⟩ : BufTy).Contents (Elt F)),
    binary main_v100 main_v162 main_v163 (addf : (⟨S4194304, .f32⟩ : BufTy).Contents (Elt F) → (⟨S4194304, .f32⟩ : BufTy).Contents (Elt F) → (⟨S4194304, .f32⟩ : BufTy).Contents (Elt F)),
    binary main_v102 main_v104 main_v164 (mulf : (⟨S4194304, .f32⟩ : BufTy).Contents (Elt F) → (⟨S4194304, .f32⟩ : BufTy).Contents (Elt F) → (⟨S4194304, .f32⟩ : BufTy).Contents (Elt F)),
    binary main_v164 main_v94 main_v165 (mulf : (⟨S4194304, .f32⟩ : BufTy).Contents (Elt F) → (⟨S4194304, .f32⟩ : BufTy).Contents (Elt F) → (⟨S4194304, .f32⟩ : BufTy).Contents (Elt F)),
    nullary main_c_53 (constantI S_ 32 0#32),
    unary main_c_53 main_v166 (broadcastInDim S4194304 ![] bcast_S_S4194304 : (⟨S_, .i32⟩ : BufTy).Contents (Elt F) → (⟨S4194304, .i32⟩ : BufTy).Contents (Elt F)),
    binary main_v99 main_v166 main_v167 (addi : (⟨S4194304, .i32⟩ : BufTy).Contents (Elt F) → (⟨S4194304, .i32⟩ : BufTy).Contents (Elt F) → (⟨S4194304, .i32⟩ : BufTy).Contents (Elt F)),
    nullary main_c_54 (constantI S_ 32 0#32),
    unary main_c_54 main_v168 (broadcastInDim S4194304 ![] bcast_S_S4194304 : (⟨S_, .i32⟩ : BufTy).Contents (Elt F) → (⟨S4194304, .i32⟩ : BufTy).Contents (Elt F)),
    binary main_v98 main_v168 main_v169 (addi : (⟨S4194304, .i32⟩ : BufTy).Contents (Elt F) → (⟨S4194304, .i32⟩ : BufTy).Contents (Elt F) → (⟨S4194304, .i32⟩ : BufTy).Contents (Elt F)),
    nullary main_c_55 (constantI S_ 32 1#32),
    unary main_c_55 main_v170 (broadcastInDim S4194304 ![] bcast_S_S4194304 : (⟨S_, .i32⟩ : BufTy).Contents (Elt F) → (⟨S4194304, .i32⟩ : BufTy).Contents (Elt F)),
    binary main_v97 main_v170 main_v171 (addi : (⟨S4194304, .i32⟩ : BufTy).Contents (Elt F) → (⟨S4194304, .i32⟩ : BufTy).Contents (Elt F) → (⟨S4194304, .i32⟩ : BufTy).Contents (Elt F)),
    nullary main_c_56 (constantI S_ 32 0#32),
    unary main_c_56 main_v172 (broadcastInDim S4194304 ![] bcast_S_S4194304 : (⟨S_, .i32⟩ : BufTy).Contents (Elt F) → (⟨S4194304, .i32⟩ : BufTy).Contents (Elt F)),
    binary main_v167 main_v172 main_v173 (cmpi .sge : (⟨S4194304, .i32⟩ : BufTy).Contents (Elt F) → (⟨S4194304, .i32⟩ : BufTy).Contents (Elt F) → (⟨S4194304, .i1⟩ : BufTy).Contents (Elt F)),
    nullary main_c_57 (constantI S_ 32 64#32),
    unary main_c_57 main_v174 (broadcastInDim S4194304 ![] bcast_S_S4194304 : (⟨S_, .i32⟩ : BufTy).Contents (Elt F) → (⟨S4194304, .i32⟩ : BufTy).Contents (Elt F)),
    binary main_v167 main_v174 main_v175 (cmpi .slt : (⟨S4194304, .i32⟩ : BufTy).Contents (Elt F) → (⟨S4194304, .i32⟩ : BufTy).Contents (Elt F) → (⟨S4194304, .i1⟩ : BufTy).Contents (Elt F)),
    binary main_v173 main_v175 main_v176 (andi : (⟨S4194304, .i1⟩ : BufTy).Contents (Elt F) → (⟨S4194304, .i1⟩ : BufTy).Contents (Elt F) → (⟨S4194304, .i1⟩ : BufTy).Contents (Elt F)),
    nullary main_c_58 (constantI S_ 32 0#32),
    unary main_c_58 main_v177 (broadcastInDim S4194304 ![] bcast_S_S4194304 : (⟨S_, .i32⟩ : BufTy).Contents (Elt F) → (⟨S4194304, .i32⟩ : BufTy).Contents (Elt F)),
    binary main_v169 main_v177 main_v178 (cmpi .sge : (⟨S4194304, .i32⟩ : BufTy).Contents (Elt F) → (⟨S4194304, .i32⟩ : BufTy).Contents (Elt F) → (⟨S4194304, .i1⟩ : BufTy).Contents (Elt F)) ]

end Cert.AlphaGrid.RefRun

end
-- ==== Proof.RefRunWin3.lean ====
/- Window 3 of the reference's @main: it is the line of its operations (every call it makes unfolds to the callee's operations
   over that call's buffers, and the sequencing reassociates), and running that line carries the boundary facts across: from the
   stages held at the window's start to the stages held at its end. Each buffer the line writes holds its operation's function of
   its operands' contents; those are stages by hypothesis or by the same fact one operation earlier, and a stage is by definition
   its operation applied to its operands' stages. A buffer the line does not write keeps what it held.
   The window holds one concatenate: the line is cut before and after it, and the concatenate, run alone from contents whose four
   operand buffers are at their stages, leaves its result at the concatenate of those stages, which is its own stage. -/
import proofs.«104803_j90202903151142_1_alg».proof.Proof.RefRunOps3
import proofs.«104803_j90202903151142_1_alg».proof.Proof.RefRunInv
import proofs.«104803_j90202903151142_1_alg».proof.Proof.RefRunBase

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part3_eq (c : Dev nD) : main_part3 (F := F) c = seq ops3 := rfl

/-- The window's list in three consecutive pieces: up to the concatenate, the concatenate, the rest. -/
theorem ops3_split : (ops3 : List (HloOp τ sig (Elt F))) = ops3a ++ (ops3b ++ ops3c) := rfl

-- the sorts, gathers and reductions stay folded: the equations below never look inside them
attribute [local irreducible] Host.sort2 Host.gather Host.reduce in
set_option maxRecDepth 8192 in
set_option maxHeartbeats 4000000 in
/-- Across ops3a: the stages held at its start give the stages held at its end. -/
theorem win3a (W : Valuation τ sig (Elt F)) (a0 : FVec F S4194304x3 .f32) (a1 : FVec F S2x3 .f32)
    (a2 : FVec F S256x256x256 .f32) (a3 a4 : FVec F S64x3 .f32) (h : Inv3 W a0 a1 a2 a3 a4) :
    Inv3b (after ops3a W) a0 a1 a2 a3 a4 := by
  unfold Inv3 at h
  unfold Inv3b
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops3b: the stages held at its start give the stages held at its end. -/
theorem win3b (W : Valuation τ sig (Elt F)) (a0 : FVec F S4194304x3 .f32) (a1 : FVec F S2x3 .f32)
    (a2 : FVec F S256x256x256 .f32) (a3 a4 : FVec F S64x3 .f32) (h : Inv3b W a0 a1 a2 a3 a4) :
    Inv3c (after ops3b W) a0 a1 a2 a3 a4 := by
  unfold Inv3b at h
  unfold Inv3c
  have h0 : W (main_v155 : DevRef τ sig) = r_v155 a0 a1 a2 a3 a4 := by simp only [h]
  have h1 : W (main_v156 : DevRef τ sig) = r_v156 a0 a1 a2 a3 a4 := by simp only [h]
  have h2 : W (main_v157 : DevRef τ sig) = r_v157 a0 a1 a2 a3 a4 := by simp only [h]
  have h3 : W (main_v158 : DevRef τ sig) = r_v158 a0 a1 a2 a3 a4 := by simp only [h]
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)
    | exact (nary4_chunk _ _ _ W h0 h1 h2 h3).trans rfl

-- the sorts, gathers and reductions stay folded: the equations below never look inside them
attribute [local irreducible] Host.sort2 Host.gather Host.reduce in
set_option maxRecDepth 8192 in
set_option maxHeartbeats 4000000 in
/-- Across ops3c: the stages held at its start give the stages held at its end. -/
theorem win3c (W : Valuation τ sig (Elt F)) (a0 : FVec F S4194304x3 .f32) (a1 : FVec F S2x3 .f32)
    (a2 : FVec F S256x256x256 .f32) (a3 a4 : FVec F S64x3 .f32) (h : Inv3c W a0 a1 a2 a3 a4) :
    Inv4 (after ops3c W) a0 a1 a2 a3 a4 := by
  unfold Inv3c at h
  unfold Inv4
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

/-- Across the whole window. -/
theorem win3 (W : Valuation τ sig (Elt F)) (a0 : FVec F S4194304x3 .f32) (a1 : FVec F S2x3 .f32)
    (a2 : FVec F S256x256x256 .f32) (a3 a4 : FVec F S64x3 .f32) (h : Inv3 W a0 a1 a2 a3 a4) :
    Inv4 (after ops3 W) a0 a1 a2 a3 a4 := by
  rw [ops3_split, after_append, after_append]
  exact win3c _ _ _ _ _ _ (win3b _ _ _ _ _ _ (win3a _ _ _ _ _ _ h))

end Cert.AlphaGrid.RefRun

end
-- ==== Proof.RefRunOps4.lean ====
/- The operations 265 … 341 of the reference (of 941, calls unfolded at their sites), in order: the window main_part4 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops4 : List (HloOp τ sig (Elt F)) :=
  [ binary main_v176 main_v178 main_v179 (andi : (⟨S4194304, .i1⟩ : BufTy).Contents (Elt F) → (⟨S4194304, .i1⟩ : BufTy).Contents (Elt F) → (⟨S4194304, .i1⟩ : BufTy).Contents (Elt F)),
    nullary main_c_59 (constantI S_ 32 64#32),
    unary main_c_59 main_v180 (broadcastInDim S4194304 ![] bcast_S_S4194304 : (⟨S_, .i32⟩ : BufTy).Contents (Elt F) → (⟨S4194304, .i32⟩ : BufTy).Contents (Elt F)),
    binary main_v169 main_v180 main_v181 (cmpi .slt : (⟨S4194304, .i32⟩ : BufTy).Contents (Elt F) → (⟨S4194304, .i32⟩ : BufTy).Contents (Elt F) → (⟨S4194304, .i1⟩ : BufTy).Contents (Elt F)),
    binary main_v179 main_v181 main_v182 (andi : (⟨S4194304, .i1⟩ : BufTy).Contents (Elt F) → (⟨S4194304, .i1⟩ : BufTy).Contents (Elt F) → (⟨S4194304, .i1⟩ : BufTy).Contents (Elt F)),
    nullary main_c_60 (constantI S_ 32 0#32),
    unary main_c_60 main_v183 (broadcastInDim S4194304 ![] bcast_S_S4194304 : (⟨S_, .i32⟩ : BufTy).Contents (Elt F) → (⟨S4194304, .i32⟩ : BufTy).Contents (Elt F)),
    binary main_v171 main_v183 main_v184 (cmpi .sge : (⟨S4194304, .i32⟩ : BufTy).Contents (Elt F) → (⟨S4194304, .i32⟩ : BufTy).Contents (Elt F) → (⟨S4194304, .i1⟩ : BufTy).Contents (Elt F)),
    binary main_v182 main_v184 main_v185 (andi : (⟨S4194304, .i1⟩ : BufTy).Contents (Elt F) → (⟨S4194304, .i1⟩ : BufTy).Contents (Elt F) → (⟨S4194304, .i1⟩ : BufTy).Contents (Elt F)),
    nullary main_c_61 (constantI S_ 32 64#32),
    unary main_c_61 main_v186 (broadcastInDim S4194304 ![] bcast_S_S4194304 : (⟨S_, .i32⟩ : BufTy).Contents (Elt F) → (⟨S4194304, .i32⟩ : BufTy).Contents (Elt F)),
    binary main_v171 main_v186 main_v187 (cmpi .slt : (⟨S4194304, .i32⟩ : BufTy).Contents (Elt F) → (⟨S4194304, .i32⟩ : BufTy).Contents (Elt F) → (⟨S4194304, .i1⟩ : BufTy).Contents (Elt F)),
    binary main_v185 main_v187 main_v188 (andi : (⟨S4194304, .i1⟩ : BufTy).Contents (Elt F) → (⟨S4194304, .i1⟩ : BufTy).Contents (Elt F) → (⟨S4194304, .i1⟩ : BufTy).Contents (Elt F)),
    nullary main_c_62 (constantI S_ 32 0#32),
    nullary main_c_63 (constantI S_ 32 63#32),
    TRef.unary (TRef.of (T := ⟨S_, .i32⟩) main_c_62) (TRef.of (T := ⟨S_, .i32⟩) main_call6_v0) id,
    TRef.unary (TRef.of (T := ⟨S_, .i32⟩) main_call6_v0) (TRef.of (T := ⟨S4194304, .i32⟩) main_call6_v1) (broadcastInDim S4194304 ![] bcast_S_S4194304),
    TRef.binary (TRef.of (T := ⟨S4194304, .i32⟩) main_call6_v1) (TRef.of (T := ⟨S4194304, .i32⟩) main_v167) (TRef.of (T := ⟨S4194304, .i32⟩) main_call6_v2) maxsi,
    TRef.unary (TRef.of (T := ⟨S_, .i32⟩) main_c_63) (TRef.of (T := ⟨S_, .i32⟩) main_call6_v3) id,
    TRef.unary (TRef.of (T := ⟨S_, .i32⟩) main_call6_v3) (TRef.of (T := ⟨S4194304, .i32⟩) main_call6_v4) (broadcastInDim S4194304 ![] bcast_S_S4194304),
    TRef.binary (TRef.of (T := ⟨S4194304, .i32⟩) main_call6_v4) (TRef.of (T := ⟨S4194304, .i32⟩) main_call6_v2) (TRef.of (T := ⟨S4194304, .i32⟩) main_v189) minsi,
    nullary main_c_64 (constantI S_ 32 0#32),
    nullary main_c_65 (constantI S_ 32 63#32),
    TRef.unary (TRef.of (T := ⟨S_, .i32⟩) main_c_64) (TRef.of (T := ⟨S_, .i32⟩) main_call7_v0) id,
    TRef.unary (TRef.of (T := ⟨S_, .i32⟩) main_call7_v0) (TRef.of (T := ⟨S4194304, .i32⟩) main_call7_v1) (broadcastInDim S4194304 ![] bcast_S_S4194304),
    TRef.binary (TRef.of (T := ⟨S4194304, .i32⟩) main_call7_v1) (TRef.of (T := ⟨S4194304, .i32⟩) main_v169) (TRef.of (T := ⟨S4194304, .i32⟩) main_call7_v2) maxsi,
    TRef.unary (TRef.of (T := ⟨S_, .i32⟩) main_c_65) (TRef.of (T := ⟨S_, .i32⟩) main_call7_v3) id,
    TRef.unary (TRef.of (T := ⟨S_, .i32⟩) main_call7_v3) (TRef.of (T := ⟨S4194304, .i32⟩) main_call7_v4) (broadcastInDim S4194304 ![] bcast_S_S4194304),
    TRef.binary (TRef.of (T := ⟨S4194304, .i32⟩) main_call7_v4) (TRef.of (T := ⟨S4194304, .i32⟩) main_call7_v2) (TRef.of (T := ⟨S4194304, .i32⟩) main_v190) minsi,
    nullary main_c_66 (constantI S_ 32 0#32),
    nullary main_c_67 (constantI S_ 32 63#32),
    TRef.unary (TRef.of (T := ⟨S_, .i32⟩) main_c_66) (TRef.of (T := ⟨S_, .i32⟩) main_call8_v0) id,
    TRef.unary (TRef.of (T := ⟨S_, .i32⟩) main_call8_v0) (TRef.of (T := ⟨S4194304, .i32⟩) main_call8_v1) (broadcastInDim S4194304 ![] bcast_S_S4194304),
    TRef.binary (TRef.of (T := ⟨S4194304, .i32⟩) main_call8_v1) (TRef.of (T := ⟨S4194304, .i32⟩) main_v171) (TRef.of (T := ⟨S4194304, .i32⟩) main_call8_v2) maxsi,
    TRef.unary (TRef.of (T := ⟨S_, .i32⟩) main_c_67) (TRef.of (T := ⟨S_, .i32⟩) main_call8_v3) id,
    TRef.unary (TRef.of (T := ⟨S_, .i32⟩) main_call8_v3) (TRef.of (T := ⟨S4194304, .i32⟩) main_call8_v4) (broadcastInDim S4194304 ![] bcast_S_S4194304),
    TRef.binary (TRef.of (T := ⟨S4194304, .i32⟩) main_call8_v4) (TRef.of (T := ⟨S4194304, .i32⟩) main_call8_v2) (TRef.of (T := ⟨S4194304, .i32⟩) main_v191) minsi,
    nullary main_c_68 (constantI S_ 32 0#32),
    unary main_c_68 main_v192 (broadcastInDim S4194304 ![] bcast_S_S4194304 : (⟨S_, .i32⟩ : BufTy).Contents (Elt F) → (⟨S4194304, .i32⟩ : BufTy).Contents (Elt F)),
    binary main_v30 main_v192 main_v193 (cmpi .slt : (⟨S4194304, .i32⟩ : BufTy).Contents (Elt F) → (⟨S4194304, .i32⟩ : BufTy).Contents (Elt F) → (⟨S4194304, .i1⟩ : BufTy).Contents (Elt F)),
    nullary main_c_69 (constantI S_ 32 64#32),
    unary main_c_69 main_v194 (broadcastInDim S4194304 ![] bcast_S_S4194304 : (⟨S_, .i32⟩ : BufTy).Contents (Elt F) → (⟨S4194304, .i32⟩ : BufTy).Contents (Elt F)),
    binary main_v30 main_v194 main_v195 (addi : (⟨S4194304, .i32⟩ : BufTy).Contents (Elt F) → (⟨S4194304, .i32⟩ : BufTy).Contents (Elt F) → (⟨S4194304, .i32⟩ : BufTy).Contents (Elt F)),
    ternary main_v193 main_v195 main_v30 main_v196 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_70 (constantI S_ 32 0#32),
    unary main_c_70 main_v197 (broadcastInDim S4194304 ![] bcast_S_S4194304 : (⟨S_, .i32⟩ : BufTy).Contents (Elt F) → (⟨S4194304, .i32⟩ : BufTy).Contents (Elt F)),
    binary main_v189 main_v197 main_v198 (cmpi .slt : (⟨S4194304, .i32⟩ : BufTy).Contents (Elt F) → (⟨S4194304, .i32⟩ : BufTy).Contents (Elt F) → (⟨S4194304, .i1⟩ : BufTy).Contents (Elt F)),
    nullary main_c_71 (constantI S_ 32 64#32),
    unary main_c_71 main_v199 (broadcastInDim S4194304 ![] bcast_S_S4194304 : (⟨S_, .i32⟩ : BufTy).Contents (Elt F) → (⟨S4194304, .i32⟩ : BufTy).Contents (Elt F)),
    binary main_v189 main_v199 main_v200 (addi : (⟨S4194304, .i32⟩ : BufTy).Contents (Elt F) → (⟨S4194304, .i32⟩ : BufTy).Contents (Elt F) → (⟨S4194304, .i32⟩ : BufTy).Contents (Elt F)),
    ternary main_v198 main_v200 main_v189 main_v201 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_72 (constantI S_ 32 0#32),
    unary main_c_72 main_v202 (broadcastInDim S4194304 ![] bcast_S_S4194304 : (⟨S_, .i32⟩ : BufTy).Contents (Elt F) → (⟨S4194304, .i32⟩ : BufTy).Contents (Elt F)),
    binary main_v190 main_v202 main_v203 (cmpi .slt : (⟨S4194304, .i32⟩ : BufTy).Contents (Elt F) → (⟨S4194304, .i32⟩ : BufTy).Contents (Elt F) → (⟨S4194304, .i1⟩ : BufTy).Contents (Elt F)),
    nullary main_c_73 (constantI S_ 32 64#32),
    unary main_c_73 main_v204 (broadcastInDim S4194304 ![] bcast_S_S4194304 : (⟨S_, .i32⟩ : BufTy).Contents (Elt F) → (⟨S4194304, .i32⟩ : BufTy).Contents (Elt F)),
    binary main_v190 main_v204 main_v205 (addi : (⟨S4194304, .i32⟩ : BufTy).Contents (Elt F) → (⟨S4194304, .i32⟩ : BufTy).Contents (Elt F) → (⟨S4194304, .i32⟩ : BufTy).Contents (Elt F)),
    ternary main_v203 main_v205 main_v190 main_v206 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_74 (constantI S_ 32 0#32),
    unary main_c_74 main_v207 (broadcastInDim S4194304 ![] bcast_S_S4194304 : (⟨S_, .i32⟩ : BufTy).Contents (Elt F) → (⟨S4194304, .i32⟩ : BufTy).Contents (Elt F)),
    binary main_v191 main_v207 main_v208 (cmpi .slt : (⟨S4194304, .i32⟩ : BufTy).Contents (Elt F) → (⟨S4194304, .i32⟩ : BufTy).Contents (Elt F) → (⟨S4194304, .i1⟩ : BufTy).Contents (Elt F)),
    nullary main_c_75 (constantI S_ 32 64#32),
    unary main_c_75 main_v209 (broadcastInDim S4194304 ![] bcast_S_S4194304 : (⟨S_, .i32⟩ : BufTy).Contents (Elt F) → (⟨S4194304, .i32⟩ : BufTy).Contents (Elt F)),
    binary main_v191 main_v209 main_v210 (addi : (⟨S4194304, .i32⟩ : BufTy).Contents (Elt F) → (⟨S4194304, .i32⟩ : BufTy).Contents (Elt F) → (⟨S4194304, .i32⟩ : BufTy).Contents (Elt F)),
    ternary main_v208 main_v210 main_v191 main_v211 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v196 main_v212 (broadcastInDim S4194304x1 ![0] bcast_S4194304_S4194304x1_0 : (⟨S4194304, .i32⟩ : BufTy).Contents (Elt F) → (⟨S4194304x1, .i32⟩ : BufTy).Contents (Elt F)),
    unary main_v201 main_v213 (broadcastInDim S4194304x1 ![0] bcast_S4194304_S4194304x1_0 : (⟨S4194304, .i32⟩ : BufTy).Contents (Elt F) → (⟨S4194304x1, .i32⟩ : BufTy).Contents (Elt F)),
    unary main_v206 main_v214 (broadcastInDim S4194304x1 ![0] bcast_S4194304_S4194304x1_0 : (⟨S4194304, .i32⟩ : BufTy).Contents (Elt F) → (⟨S4194304x1, .i32⟩ : BufTy).Contents (Elt F)),
    unary main_v211 main_v215 (broadcastInDim S4194304x1 ![0] bcast_S4194304_S4194304x1_0 : (⟨S4194304, .i32⟩ : BufTy).Contents (Elt F) → (⟨S4194304x1, .i32⟩ : BufTy).Contents (Elt F)),
    nary ![main_v212, main_v213, main_v214, main_v215] main_v216 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1),
    binary main_v66 main_v216 main_v217 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_76 (constant S_ .f32 0x00000000#32),
    TRef.unary (TRef.of (T := ⟨S_, .f32⟩) main_cst_76) (TRef.of (T := ⟨S_, .f32⟩) main_call9_v0) id,
    TRef.unary (TRef.of (T := ⟨S_, .f32⟩) main_call9_v0) (TRef.of (T := ⟨S4194304, .f32⟩) main_call9_v1) (broadcastInDim S4194304 ![] bcast_S_S4194304),
    TRef.ternary (TRef.of (T := ⟨S4194304, .i1⟩) main_v188) (TRef.of (T := ⟨S4194304, .f32⟩) main_v217) (TRef.of (T := ⟨S4194304, .f32⟩) main_call9_v1) (TRef.of (T := ⟨S4194304, .f32⟩) main_v218) select,
    binary main_v165 main_v218 main_v219 (mulf : (⟨S4194304, .f32⟩ : BufTy).Contents (Elt F) → (⟨S4194304, .f32⟩ : BufTy).Contents (Elt F) → (⟨S4194304, .f32⟩ : BufTy).Contents (Elt F)),
    binary main_v163 main_v219 main_v220 (addf : (⟨S4194304, .f32⟩ : BufTy).Contents (Elt F) → (⟨S4194304, .f32⟩ : BufTy).Contents (Elt F) → (⟨S4194304, .f32⟩ : BufTy).Contents (Elt F)) ]

theorem ops4_sub : (ops4 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., unary_bufs_sub .., ternary_bufs_sub .., binary_bufs_sub .., binary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
abbrev ops4a : List (HloOp τ sig (Elt F)) :=
  [ binary main_v176 main_v178 main_v179 (andi : (⟨S4194304, .i1⟩ : BufTy).Contents (Elt F) → (⟨S4194304, .i1⟩ : BufTy).Contents (Elt F) → (⟨S4194304, .i1⟩ : BufTy).Contents (Elt F)),
    nullary main_c_59 (constantI S_ 32 64#32),
    unary main_c_59 main_v180 (broadcastInDim S4194304 ![] bcast_S_S4194304 : (⟨S_, .i32⟩ : BufTy).Contents (Elt F) → (⟨S4194304, .i32⟩ : BufTy).Contents (Elt F)),
    binary main_v169 main_v180 main_v181 (cmpi .slt : (⟨S4194304, .i32⟩ : BufTy).Contents (Elt F) → (⟨S4194304, .i32⟩ : BufTy).Contents (Elt F) → (⟨S4194304, .i1⟩ : BufTy).Contents (Elt F)),
    binary main_v179 main_v181 main_v182 (andi : (⟨S4194304, .i1⟩ : BufTy).Contents (Elt F) → (⟨S4194304, .i1⟩ : BufTy).Contents (Elt F) → (⟨S4194304, .i1⟩ : BufTy).Contents (Elt F)),
    nullary main_c_60 (constantI S_ 32 0#32),
    unary main_c_60 main_v183 (broadcastInDim S4194304 ![] bcast_S_S4194304 : (⟨S_, .i32⟩ : BufTy).Contents (Elt F) → (⟨S4194304, .i32⟩ : BufTy).Contents (Elt F)),
    binary main_v171 main_v183 main_v184 (cmpi .sge : (⟨S4194304, .i32⟩ : BufTy).Contents (Elt F) → (⟨S4194304, .i32⟩ : BufTy).Contents (Elt F) → (⟨S4194304, .i1⟩ : BufTy).Contents (Elt F)),
    binary main_v182 main_v184 main_v185 (andi : (⟨S4194304, .i1⟩ : BufTy).Contents (Elt F) → (⟨S4194304, .i1⟩ : BufTy).Contents (Elt F) → (⟨S4194304, .i1⟩ : BufTy).Contents (Elt F)),
    nullary main_c_61 (constantI S_ 32 64#32),
    unary main_c_61 main_v186 (broadcastInDim S4194304 ![] bcast_S_S4194304 : (⟨S_, .i32⟩ : BufTy).Contents (Elt F) → (⟨S4194304, .i32⟩ : BufTy).Contents (Elt F)),
    binary main_v171 main_v186 main_v187 (cmpi .slt : (⟨S4194304, .i32⟩ : BufTy).Contents (Elt F) → (⟨S4194304, .i32⟩ : BufTy).Contents (Elt F) → (⟨S4194304, .i1⟩ : BufTy).Contents (Elt F)),
    binary main_v185 main_v187 main_v188 (andi : (⟨S4194304, .i1⟩ : BufTy).Contents (Elt F) → (⟨S4194304, .i1⟩ : BufTy).Contents (Elt F) → (⟨S4194304, .i1⟩ : BufTy).Contents (Elt F)),
    nullary main_c_62 (constantI S_ 32 0#32),
    nullary main_c_63 (constantI S_ 32 63#32),
    TRef.unary (TRef.of (T := ⟨S_, .i32⟩) main_c_62) (TRef.of (T := ⟨S_, .i32⟩) main_call6_v0) id,
    TRef.unary (TRef.of (T := ⟨S_, .i32⟩) main_call6_v0) (TRef.of (T := ⟨S4194304, .i32⟩) main_call6_v1) (broadcastInDim S4194304 ![] bcast_S_S4194304),
    TRef.binary (TRef.of (T := ⟨S4194304, .i32⟩) main_call6_v1) (TRef.of (T := ⟨S4194304, .i32⟩) main_v167) (TRef.of (T := ⟨S4194304, .i32⟩) main_call6_v2) maxsi,
    TRef.unary (TRef.of (T := ⟨S_, .i32⟩) main_c_63) (TRef.of (T := ⟨S_, .i32⟩) main_call6_v3) id,
    TRef.unary (TRef.of (T := ⟨S_, .i32⟩) main_call6_v3) (TRef.of (T := ⟨S4194304, .i32⟩) main_call6_v4) (broadcastInDim S4194304 ![] bcast_S_S4194304),
    TRef.binary (TRef.of (T := ⟨S4194304, .i32⟩) main_call6_v4) (TRef.of (T := ⟨S4194304, .i32⟩) main_call6_v2) (TRef.of (T := ⟨S4194304, .i32⟩) main_v189) minsi,
    nullary main_c_64 (constantI S_ 32 0#32),
    nullary main_c_65 (constantI S_ 32 63#32),
    TRef.unary (TRef.of (T := ⟨S_, .i32⟩) main_c_64) (TRef.of (T := ⟨S_, .i32⟩) main_call7_v0) id,
    TRef.unary (TRef.of (T := ⟨S_, .i32⟩) main_call7_v0) (TRef.of (T := ⟨S4194304, .i32⟩) main_call7_v1) (broadcastInDim S4194304 ![] bcast_S_S4194304),
    TRef.binary (TRef.of (T := ⟨S4194304, .i32⟩) main_call7_v1) (TRef.of (T := ⟨S4194304, .i32⟩) main_v169) (TRef.of (T := ⟨S4194304, .i32⟩) main_call7_v2) maxsi,
    TRef.unary (TRef.of (T := ⟨S_, .i32⟩) main_c_65) (TRef.of (T := ⟨S_, .i32⟩) main_call7_v3) id,
    TRef.unary (TRef.of (T := ⟨S_, .i32⟩) main_call7_v3) (TRef.of (T := ⟨S4194304, .i32⟩) main_call7_v4) (broadcastInDim S4194304 ![] bcast_S_S4194304),
    TRef.binary (TRef.of (T := ⟨S4194304, .i32⟩) main_call7_v4) (TRef.of (T := ⟨S4194304, .i32⟩) main_call7_v2) (TRef.of (T := ⟨S4194304, .i32⟩) main_v190) minsi,
    nullary main_c_66 (constantI S_ 32 0#32),
    nullary main_c_67 (constantI S_ 32 63#32),
    TRef.unary (TRef.of (T := ⟨S_, .i32⟩) main_c_66) (TRef.of (T := ⟨S_, .i32⟩) main_call8_v0) id,
    TRef.unary (TRef.of (T := ⟨S_, .i32⟩) main_call8_v0) (TRef.of (T := ⟨S4194304, .i32⟩) main_call8_v1) (broadcastInDim S4194304 ![] bcast_S_S4194304),
    TRef.binary (TRef.of (T := ⟨S4194304, .i32⟩) main_call8_v1) (TRef.of (T := ⟨S4194304, .i32⟩) main_v171) (TRef.of (T := ⟨S4194304, .i32⟩) main_call8_v2) maxsi,
    TRef.unary (TRef.of (T := ⟨S_, .i32⟩) main_c_67) (TRef.of (T := ⟨S_, .i32⟩) main_call8_v3) id,
    TRef.unary (TRef.of (T := ⟨S_, .i32⟩) main_call8_v3) (TRef.of (T := ⟨S4194304, .i32⟩) main_call8_v4) (broadcastInDim S4194304 ![] bcast_S_S4194304),
    TRef.binary (TRef.of (T := ⟨S4194304, .i32⟩) main_call8_v4) (TRef.of (T := ⟨S4194304, .i32⟩) main_call8_v2) (TRef.of (T := ⟨S4194304, .i32⟩) main_v191) minsi,
    nullary main_c_68 (constantI S_ 32 0#32),
    unary main_c_68 main_v192 (broadcastInDim S4194304 ![] bcast_S_S4194304 : (⟨S_, .i32⟩ : BufTy).Contents (Elt F) → (⟨S4194304, .i32⟩ : BufTy).Contents (Elt F)),
    binary main_v30 main_v192 main_v193 (cmpi .slt : (⟨S4194304, .i32⟩ : BufTy).Contents (Elt F) → (⟨S4194304, .i32⟩ : BufTy).Contents (Elt F) → (⟨S4194304, .i1⟩ : BufTy).Contents (Elt F)),
    nullary main_c_69 (constantI S_ 32 64#32),
    unary main_c_69 main_v194 (broadcastInDim S4194304 ![] bcast_S_S4194304 : (⟨S_, .i32⟩ : BufTy).Contents (Elt F) → (⟨S4194304, .i32⟩ : BufTy).Contents (Elt F)),
    binary main_v30 main_v194 main_v195 (addi : (⟨S4194304, .i32⟩ : BufTy).Contents (Elt F) → (⟨S4194304, .i32⟩ : BufTy).Contents (Elt F) → (⟨S4194304, .i32⟩ : BufTy).Contents (Elt F)),
    ternary main_v193 main_v195 main_v30 main_v196 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_70 (constantI S_ 32 0#32),
    unary main_c_70 main_v197 (broadcastInDim S4194304 ![] bcast_S_S4194304 : (⟨S_, .i32⟩ : BufTy).Contents (Elt F) → (⟨S4194304, .i32⟩ : BufTy).Contents (Elt F)),
    binary main_v189 main_v197 main_v198 (cmpi .slt : (⟨S4194304, .i32⟩ : BufTy).Contents (Elt F) → (⟨S4194304, .i32⟩ : BufTy).Contents (Elt F) → (⟨S4194304, .i1⟩ : BufTy).Contents (Elt F)),
    nullary main_c_71 (constantI S_ 32 64#32),
    unary main_c_71 main_v199 (broadcastInDim S4194304 ![] bcast_S_S4194304 : (⟨S_, .i32⟩ : BufTy).Contents (Elt F) → (⟨S4194304, .i32⟩ : BufTy).Contents (Elt F)),
    binary main_v189 main_v199 main_v200 (addi : (⟨S4194304, .i32⟩ : BufTy).Contents (Elt F) → (⟨S4194304, .i32⟩ : BufTy).Contents (Elt F) → (⟨S4194304, .i32⟩ : BufTy).Contents (Elt F)),
    ternary main_v198 main_v200 main_v189 main_v201 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_72 (constantI S_ 32 0#32),
    unary main_c_72 main_v202 (broadcastInDim S4194304 ![] bcast_S_S4194304 : (⟨S_, .i32⟩ : BufTy).Contents (Elt F) → (⟨S4194304, .i32⟩ : BufTy).Contents (Elt F)),
    binary main_v190 main_v202 main_v203 (cmpi .slt : (⟨S4194304, .i32⟩ : BufTy).Contents (Elt F) → (⟨S4194304, .i32⟩ : BufTy).Contents (Elt F) → (⟨S4194304, .i1⟩ : BufTy).Contents (Elt F)),
    nullary main_c_73 (constantI S_ 32 64#32),
    unary main_c_73 main_v204 (broadcastInDim S4194304 ![] bcast_S_S4194304 : (⟨S_, .i32⟩ : BufTy).Contents (Elt F) → (⟨S4194304, .i32⟩ : BufTy).Contents (Elt F)),
    binary main_v190 main_v204 main_v205 (addi : (⟨S4194304, .i32⟩ : BufTy).Contents (Elt F) → (⟨S4194304, .i32⟩ : BufTy).Contents (Elt F) → (⟨S4194304, .i32⟩ : BufTy).Contents (Elt F)),
    ternary main_v203 main_v205 main_v190 main_v206 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_74 (constantI S_ 32 0#32),
    unary main_c_74 main_v207 (broadcastInDim S4194304 ![] bcast_S_S4194304 : (⟨S_, .i32⟩ : BufTy).Contents (Elt F) → (⟨S4194304, .i32⟩ : BufTy).Contents (Elt F)),
    binary main_v191 main_v207 main_v208 (cmpi .slt : (⟨S4194304, .i32⟩ : BufTy).Contents (Elt F) → (⟨S4194304, .i32⟩ : BufTy).Contents (Elt F) → (⟨S4194304, .i1⟩ : BufTy).Contents (Elt F)),
    nullary main_c_75 (constantI S_ 32 64#32),
    unary main_c_75 main_v209 (broadcastInDim S4194304 ![] bcast_S_S4194304 : (⟨S_, .i32⟩ : BufTy).Contents (Elt F) → (⟨S4194304, .i32⟩ : BufTy).Contents (Elt F)),
    binary main_v191 main_v209 main_v210 (addi : (⟨S4194304, .i32⟩ : BufTy).Contents (Elt F) → (⟨S4194304, .i32⟩ : BufTy).Contents (Elt F) → (⟨S4194304, .i32⟩ : BufTy).Contents (Elt F)),
    ternary main_v208 main_v210 main_v191 main_v211 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v196 main_v212 (broadcastInDim S4194304x1 ![0] bcast_S4194304_S4194304x1_0 : (⟨S4194304, .i32⟩ : BufTy).Contents (Elt F) → (⟨S4194304x1, .i32⟩ : BufTy).Contents (Elt F)),
    unary main_v201 main_v213 (broadcastInDim S4194304x1 ![0] bcast_S4194304_S4194304x1_0 : (⟨S4194304, .i32⟩ : BufTy).Contents (Elt F) → (⟨S4194304x1, .i32⟩ : BufTy).Contents (Elt F)),
    unary main_v206 main_v214 (broadcastInDim S4194304x1 ![0] bcast_S4194304_S4194304x1_0 : (⟨S4194304, .i32⟩ : BufTy).Contents (Elt F) → (⟨S4194304x1, .i32⟩ : BufTy).Contents (Elt F)),
    unary main_v211 main_v215 (broadcastInDim S4194304x1 ![0] bcast_S4194304_S4194304x1_0 : (⟨S4194304, .i32⟩ : BufTy).Contents (Elt F) → (⟨S4194304x1, .i32⟩ : BufTy).Contents (Elt F)) ]

set_option maxHeartbeats 4000000 in
abbrev ops4b : List (HloOp τ sig (Elt F)) :=
  [ nary ![main_v212, main_v213, main_v214, main_v215] main_v216 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ]

set_option maxHeartbeats 4000000 in
abbrev ops4c : List (HloOp τ sig (Elt F)) :=
  [ binary main_v66 main_v216 main_v217 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_76 (constant S_ .f32 0x00000000#32),
    TRef.unary (TRef.of (T := ⟨S_, .f32⟩) main_cst_76) (TRef.of (T := ⟨S_, .f32⟩) main_call9_v0) id,
    TRef.unary (TRef.of (T := ⟨S_, .f32⟩) main_call9_v0) (TRef.of (T := ⟨S4194304, .f32⟩) main_call9_v1) (broadcastInDim S4194304 ![] bcast_S_S4194304),
    TRef.ternary (TRef.of (T := ⟨S4194304, .i1⟩) main_v188) (TRef.of (T := ⟨S4194304, .f32⟩) main_v217) (TRef.of (T := ⟨S4194304, .f32⟩) main_call9_v1) (TRef.of (T := ⟨S4194304, .f32⟩) main_v218) select,
    binary main_v165 main_v218 main_v219 (mulf : (⟨S4194304, .f32⟩ : BufTy).Contents (Elt F) → (⟨S4194304, .f32⟩ : BufTy).Contents (Elt F) → (⟨S4194304, .f32⟩ : BufTy).Contents (Elt F)),
    binary main_v163 main_v219 main_v220 (addf : (⟨S4194304, .f32⟩ : BufTy).Contents (Elt F) → (⟨S4194304, .f32⟩ : BufTy).Contents (Elt F) → (⟨S4194304, .f32⟩ : BufTy).Contents (Elt F)) ]

end Cert.AlphaGrid.RefRun

end
-- ==== Proof.RefRunWin4.lean ====
/- Window 4 of the reference's @main: it is the line of its operations (every call it makes unfolds to the callee's operations
   over that call's buffers, and the sequencing reassociates), and running that line carries the boundary facts across: from the
   stages held at the window's start to the stages held at its end. Each buffer the line writes holds its operation's function of
   its operands' contents; those are stages by hypothesis or by the same fact one operation earlier, and a stage is by definition
   its operation applied to its operands' stages. A buffer the line does not write keeps what it held.
   The window holds one concatenate: the line is cut before and after it, and the concatenate, run alone from contents whose four
   operand buffers are at their stages, leaves its result at the concatenate of those stages, which is its own stage. -/
import proofs.«104803_j90202903151142_1_alg».proof.Proof.RefRunOps4
import proofs.«104803_j90202903151142_1_alg».proof.Proof.RefRunInv
import proofs.«104803_j90202903151142_1_alg».proof.Proof.RefRunBase

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part4_eq (c : Dev nD) : main_part4 (F := F) c = seq ops4 := rfl

/-- The window's list in three consecutive pieces: up to the concatenate, the concatenate, the rest. -/
theorem ops4_split : (ops4 : List (HloOp τ sig (Elt F))) = ops4a ++ (ops4b ++ ops4c) := rfl

-- the sorts, gathers and reductions stay folded: the equations below never look inside them
attribute [local irreducible] Host.sort2 Host.gather Host.reduce in
set_option maxRecDepth 8192 in
set_option maxHeartbeats 4000000 in
/-- Across ops4a: the stages held at its start give the stages held at its end. -/
theorem win4a (W : Valuation τ sig (Elt F)) (a0 : FVec F S4194304x3 .f32) (a1 : FVec F S2x3 .f32)
    (a2 : FVec F S256x256x256 .f32) (a3 a4 : FVec F S64x3 .f32) (h : Inv4 W a0 a1 a2 a3 a4) :
    Inv4b (after ops4a W) a0 a1 a2 a3 a4 := by
  unfold Inv4 at h
  unfold Inv4b
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops4b: the stages held at its start give the stages held at its end. -/
theorem win4b (W : Valuation τ sig (Elt F)) (a0 : FVec F S4194304x3 .f32) (a1 : FVec F S2x3 .f32)
    (a2 : FVec F S256x256x256 .f32) (a3 a4 : FVec F S64x3 .f32) (h : Inv4b W a0 a1 a2 a3 a4) :
    Inv4c (after ops4b W) a0 a1 a2 a3 a4 := by
  unfold Inv4b at h
  unfold Inv4c
  have h0 : W (main_v212 : DevRef τ sig) = r_v212 a0 a1 a2 a3 a4 := by simp only [h]
  have h1 : W (main_v213 : DevRef τ sig) = r_v213 a0 a1 a2 a3 a4 := by simp only [h]
  have h2 : W (main_v214 : DevRef τ sig) = r_v214 a0 a1 a2 a3 a4 := by simp only [h]
  have h3 : W (main_v215 : DevRef τ sig) = r_v215 a0 a1 a2 a3 a4 := by simp only [h]
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)
    | exact (nary4_chunk _ _ _ W h0 h1 h2 h3).trans rfl

-- the sorts, gathers and reductions stay folded: the equations below never look inside them
attribute [local irreducible] Host.sort2 Host.gather Host.reduce in
set_option maxRecDepth 8192 in
set_option maxHeartbeats 4000000 in
/-- Across ops4c: the stages held at its start give the stages held at its end. -/
theorem win4c (W : Valuation τ sig (Elt F)) (a0 : FVec F S4194304x3 .f32) (a1 : FVec F S2x3 .f32)
    (a2 : FVec F S256x256x256 .f32) (a3 a4 : FVec F S64x3 .f32) (h : Inv4c W a0 a1 a2 a3 a4) :
    Inv5 (after ops4c W) a0 a1 a2 a3 a4 := by
  unfold Inv4c at h
  unfold Inv5
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

/-- Across the whole window. -/
theorem win4 (W : Valuation τ sig (Elt F)) (a0 : FVec F S4194304x3 .f32) (a1 : FVec F S2x3 .f32)
    (a2 : FVec F S256x256x256 .f32) (a3 a4 : FVec F S64x3 .f32) (h : Inv4 W a0 a1 a2 a3 a4) :
    Inv5 (after ops4 W) a0 a1 a2 a3 a4 := by
  rw [ops4_split, after_append, after_append]
  exact win4c _ _ _ _ _ _ (win4b _ _ _ _ _ _ (win4a _ _ _ _ _ _ h))

end Cert.AlphaGrid.RefRun

end
-- ==== Proof.RefRunOps5.lean ====
/- The operations 342 … 416 of the reference (of 941, calls unfolded at their sites), in order: the window main_part5 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops5 : List (HloOp τ sig (Elt F)) :=
  [ nullary main_cst_77 (constant S_ .f32 0x3F800000#32),
    unary main_cst_77 main_v221 (broadcastInDim S4194304 ![] bcast_S_S4194304 : (⟨S_, .f32⟩ : BufTy).Contents (Elt F) → (⟨S4194304, .f32⟩ : BufTy).Contents (Elt F)),
    binary main_v221 main_v94 main_v222 (subf : (⟨S4194304, .f32⟩ : BufTy).Contents (Elt F) → (⟨S4194304, .f32⟩ : BufTy).Contents (Elt F) → (⟨S4194304, .f32⟩ : BufTy).Contents (Elt F)),
    binary main_v102 main_v95 main_v223 (mulf : (⟨S4194304, .f32⟩ : BufTy).Contents (Elt F) → (⟨S4194304, .f32⟩ : BufTy).Contents (Elt F) → (⟨S4194304, .f32⟩ : BufTy).Contents (Elt F)),
    binary main_v223 main_v222 main_v224 (mulf : (⟨S4194304, .f32⟩ : BufTy).Contents (Elt F) → (⟨S4194304, .f32⟩ : BufTy).Contents (Elt F) → (⟨S4194304, .f32⟩ : BufTy).Contents (Elt F)),
    nullary main_c_78 (constantI S_ 32 0#32),
    unary main_c_78 main_v225 (broadcastInDim S4194304 ![] bcast_S_S4194304 : (⟨S_, .i32⟩ : BufTy).Contents (Elt F) → (⟨S4194304, .i32⟩ : BufTy).Contents (Elt F)),
    binary main_v99 main_v225 main_v226 (addi : (⟨S4194304, .i32⟩ : BufTy).Contents (Elt F) → (⟨S4194304, .i32⟩ : BufTy).Contents (Elt F) → (⟨S4194304, .i32⟩ : BufTy).Contents (Elt F)),
    nullary main_c_79 (constantI S_ 32 1#32),
    unary main_c_79 main_v227 (broadcastInDim S4194304 ![] bcast_S_S4194304 : (⟨S_, .i32⟩ : BufTy).Contents (Elt F) → (⟨S4194304, .i32⟩ : BufTy).Contents (Elt F)),
    binary main_v98 main_v227 main_v228 (addi : (⟨S4194304, .i32⟩ : BufTy).Contents (Elt F) → (⟨S4194304, .i32⟩ : BufTy).Contents (Elt F) → (⟨S4194304, .i32⟩ : BufTy).Contents (Elt F)),
    nullary main_c_80 (constantI S_ 32 0#32),
    unary main_c_80 main_v229 (broadcastInDim S4194304 ![] bcast_S_S4194304 : (⟨S_, .i32⟩ : BufTy).Contents (Elt F) → (⟨S4194304, .i32⟩ : BufTy).Contents (Elt F)),
    binary main_v97 main_v229 main_v230 (addi : (⟨S4194304, .i32⟩ : BufTy).Contents (Elt F) → (⟨S4194304, .i32⟩ : BufTy).Contents (Elt F) → (⟨S4194304, .i32⟩ : BufTy).Contents (Elt F)),
    nullary main_c_81 (constantI S_ 32 0#32),
    unary main_c_81 main_v231 (broadcastInDim S4194304 ![] bcast_S_S4194304 : (⟨S_, .i32⟩ : BufTy).Contents (Elt F) → (⟨S4194304, .i32⟩ : BufTy).Contents (Elt F)),
    binary main_v226 main_v231 main_v232 (cmpi .sge : (⟨S4194304, .i32⟩ : BufTy).Contents (Elt F) → (⟨S4194304, .i32⟩ : BufTy).Contents (Elt F) → (⟨S4194304, .i1⟩ : BufTy).Contents (Elt F)),
    nullary main_c_82 (constantI S_ 32 64#32),
    unary main_c_82 main_v233 (broadcastInDim S4194304 ![] bcast_S_S4194304 : (⟨S_, .i32⟩ : BufTy).Contents (Elt F) → (⟨S4194304, .i32⟩ : BufTy).Contents (Elt F)),
    binary main_v226 main_v233 main_v234 (cmpi .slt : (⟨S4194304, .i32⟩ : BufTy).Contents (Elt F) → (⟨S4194304, .i32⟩ : BufTy).Contents (Elt F) → (⟨S4194304, .i1⟩ : BufTy).Contents (Elt F)),
    binary main_v232 main_v234 main_v235 (andi : (⟨S4194304, .i1⟩ : BufTy).Contents (Elt F) → (⟨S4194304, .i1⟩ : BufTy).Contents (Elt F) → (⟨S4194304, .i1⟩ : BufTy).Contents (Elt F)),
    nullary main_c_83 (constantI S_ 32 0#32),
    unary main_c_83 main_v236 (broadcastInDim S4194304 ![] bcast_S_S4194304 : (⟨S_, .i32⟩ : BufTy).Contents (Elt F) → (⟨S4194304, .i32⟩ : BufTy).Contents (Elt F)),
    binary main_v228 main_v236 main_v237 (cmpi .sge : (⟨S4194304, .i32⟩ : BufTy).Contents (Elt F) → (⟨S4194304, .i32⟩ : BufTy).Contents (Elt F) → (⟨S4194304, .i1⟩ : BufTy).Contents (Elt F)),
    binary main_v235 main_v237 main_v238 (andi : (⟨S4194304, .i1⟩ : BufTy).Contents (Elt F) → (⟨S4194304, .i1⟩ : BufTy).Contents (Elt F) → (⟨S4194304, .i1⟩ : BufTy).Contents (Elt F)),
    nullary main_c_84 (constantI S_ 32 64#32),
    unary main_c_84 main_v239 (broadcastInDim S4194304 ![] bcast_S_S4194304 : (⟨S_, .i32⟩ : BufTy).Contents (Elt F) → (⟨S4194304, .i32⟩ : BufTy).Contents (Elt F)),
    binary main_v228 main_v239 main_v240 (cmpi .slt : (⟨S4194304, .i32⟩ : BufTy).Contents (Elt F) → (⟨S4194304, .i32⟩ : BufTy).Contents (Elt F) → (⟨S4194304, .i1⟩ : BufTy).Contents (Elt F)),
    binary main_v238 main_v240 main_v241 (andi : (⟨S4194304, .i1⟩ : BufTy).Contents (Elt F) → (⟨S4194304, .i1⟩ : BufTy).Contents (Elt F) → (⟨S4194304, .i1⟩ : BufTy).Contents (Elt F)),
    nullary main_c_85 (constantI S_ 32 0#32),
    unary main_c_85 main_v242 (broadcastInDim S4194304 ![] bcast_S_S4194304 : (⟨S_, .i32⟩ : BufTy).Contents (Elt F) → (⟨S4194304, .i32⟩ : BufTy).Contents (Elt F)),
    binary main_v230 main_v242 main_v243 (cmpi .sge : (⟨S4194304, .i32⟩ : BufTy).Contents (Elt F) → (⟨S4194304, .i32⟩ : BufTy).Contents (Elt F) → (⟨S4194304, .i1⟩ : BufTy).Contents (Elt F)),
    binary main_v241 main_v243 main_v244 (andi : (⟨S4194304, .i1⟩ : BufTy).Contents (Elt F) → (⟨S4194304, .i1⟩ : BufTy).Contents (Elt F) → (⟨S4194304, .i1⟩ : BufTy).Contents (Elt F)),
    nullary main_c_86 (constantI S_ 32 64#32),
    unary main_c_86 main_v245 (broadcastInDim S4194304 ![] bcast_S_S4194304 : (⟨S_, .i32⟩ : BufTy).Contents (Elt F) → (⟨S4194304, .i32⟩ : BufTy).Contents (Elt F)),
    binary main_v230 main_v245 main_v246 (cmpi .slt : (⟨S4194304, .i32⟩ : BufTy).Contents (Elt F) → (⟨S4194304, .i32⟩ : BufTy).Contents (Elt F) → (⟨S4194304, .i1⟩ : BufTy).Contents (Elt F)),
    binary main_v244 main_v246 main_v247 (andi : (⟨S4194304, .i1⟩ : BufTy).Contents (Elt F) → (⟨S4194304, .i1⟩ : BufTy).Contents (Elt F) → (⟨S4194304, .i1⟩ : BufTy).Contents (Elt F)),
    nullary main_c_87 (constantI S_ 32 0#32),
    nullary main_c_88 (constantI S_ 32 63#32),
    TRef.unary (TRef.of (T := ⟨S_, .i32⟩) main_c_87) (TRef.of (T := ⟨S_, .i32⟩) main_call10_v0) id,
    TRef.unary (TRef.of (T := ⟨S_, .i32⟩) main_call10_v0) (TRef.of (T := ⟨S4194304, .i32⟩) main_call10_v1) (broadcastInDim S4194304 ![] bcast_S_S4194304),
    TRef.binary (TRef.of (T := ⟨S4194304, .i32⟩) main_call10_v1) (TRef.of (T := ⟨S4194304, .i32⟩) main_v226) (TRef.of (T := ⟨S4194304, .i32⟩) main_call10_v2) maxsi,
    TRef.unary (TRef.of (T := ⟨S_, .i32⟩) main_c_88) (TRef.of (T := ⟨S_, .i32⟩) main_call10_v3) id,
    TRef.unary (TRef.of (T := ⟨S_, .i32⟩) main_call10_v3) (TRef.of (T := ⟨S4194304, .i32⟩) main_call10_v4) (broadcastInDim S4194304 ![] bcast_S_S4194304),
    TRef.binary (TRef.of (T := ⟨S4194304, .i32⟩) main_call10_v4) (TRef.of (T := ⟨S4194304, .i32⟩) main_call10_v2) (TRef.of (T := ⟨S4194304, .i32⟩) main_v248) minsi,
    nullary main_c_89 (constantI S_ 32 0#32),
    nullary main_c_90 (constantI S_ 32 63#32),
    TRef.unary (TRef.of (T := ⟨S_, .i32⟩) main_c_89) (TRef.of (T := ⟨S_, .i32⟩) main_call11_v0) id,
    TRef.unary (TRef.of (T := ⟨S_, .i32⟩) main_call11_v0) (TRef.of (T := ⟨S4194304, .i32⟩) main_call11_v1) (broadcastInDim S4194304 ![] bcast_S_S4194304),
    TRef.binary (TRef.of (T := ⟨S4194304, .i32⟩) main_call11_v1) (TRef.of (T := ⟨S4194304, .i32⟩) main_v228) (TRef.of (T := ⟨S4194304, .i32⟩) main_call11_v2) maxsi,
    TRef.unary (TRef.of (T := ⟨S_, .i32⟩) main_c_90) (TRef.of (T := ⟨S_, .i32⟩) main_call11_v3) id,
    TRef.unary (TRef.of (T := ⟨S_, .i32⟩) main_call11_v3) (TRef.of (T := ⟨S4194304, .i32⟩) main_call11_v4) (broadcastInDim S4194304 ![] bcast_S_S4194304),
    TRef.binary (TRef.of (T := ⟨S4194304, .i32⟩) main_call11_v4) (TRef.of (T := ⟨S4194304, .i32⟩) main_call11_v2) (TRef.of (T := ⟨S4194304, .i32⟩) main_v249) minsi,
    nullary main_c_91 (constantI S_ 32 0#32),
    nullary main_c_92 (constantI S_ 32 63#32),
    TRef.unary (TRef.of (T := ⟨S_, .i32⟩) main_c_91) (TRef.of (T := ⟨S_, .i32⟩) main_call12_v0) id,
    TRef.unary (TRef.of (T := ⟨S_, .i32⟩) main_call12_v0) (TRef.of (T := ⟨S4194304, .i32⟩) main_call12_v1) (broadcastInDim S4194304 ![] bcast_S_S4194304),
    TRef.binary (TRef.of (T := ⟨S4194304, .i32⟩) main_call12_v1) (TRef.of (T := ⟨S4194304, .i32⟩) main_v230) (TRef.of (T := ⟨S4194304, .i32⟩) main_call12_v2) maxsi,
    TRef.unary (TRef.of (T := ⟨S_, .i32⟩) main_c_92) (TRef.of (T := ⟨S_, .i32⟩) main_call12_v3) id,
    TRef.unary (TRef.of (T := ⟨S_, .i32⟩) main_call12_v3) (TRef.of (T := ⟨S4194304, .i32⟩) main_call12_v4) (broadcastInDim S4194304 ![] bcast_S_S4194304),
    TRef.binary (TRef.of (T := ⟨S4194304, .i32⟩) main_call12_v4) (TRef.of (T := ⟨S4194304, .i32⟩) main_call12_v2) (TRef.of (T := ⟨S4194304, .i32⟩) main_v250) minsi,
    nullary main_c_93 (constantI S_ 32 0#32),
    unary main_c_93 main_v251 (broadcastInDim S4194304 ![] bcast_S_S4194304 : (⟨S_, .i32⟩ : BufTy).Contents (Elt F) → (⟨S4194304, .i32⟩ : BufTy).Contents (Elt F)),
    binary main_v30 main_v251 main_v252 (cmpi .slt : (⟨S4194304, .i32⟩ : BufTy).Contents (Elt F) → (⟨S4194304, .i32⟩ : BufTy).Contents (Elt F) → (⟨S4194304, .i1⟩ : BufTy).Contents (Elt F)),
    nullary main_c_94 (constantI S_ 32 64#32),
    unary main_c_94 main_v253 (broadcastInDim S4194304 ![] bcast_S_S4194304 : (⟨S_, .i32⟩ : BufTy).Contents (Elt F) → (⟨S4194304, .i32⟩ : BufTy).Contents (Elt F)),
    binary main_v30 main_v253 main_v254 (addi : (⟨S4194304, .i32⟩ : BufTy).Contents (Elt F) → (⟨S4194304, .i32⟩ : BufTy).Contents (Elt F) → (⟨S4194304, .i32⟩ : BufTy).Contents (Elt F)),
    ternary main_v252 main_v254 main_v30 main_v255 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_95 (constantI S_ 32 0#32),
    unary main_c_95 main_v256 (broadcastInDim S4194304 ![] bcast_S_S4194304 : (⟨S_, .i32⟩ : BufTy).Contents (Elt F) → (⟨S4194304, .i32⟩ : BufTy).Contents (Elt F)),
    binary main_v248 main_v256 main_v257 (cmpi .slt : (⟨S4194304, .i32⟩ : BufTy).Contents (Elt F) → (⟨S4194304, .i32⟩ : BufTy).Contents (Elt F) → (⟨S4194304, .i1⟩ : BufTy).Contents (Elt F)),
    nullary main_c_96 (constantI S_ 32 64#32),
    unary main_c_96 main_v258 (broadcastInDim S4194304 ![] bcast_S_S4194304 : (⟨S_, .i32⟩ : BufTy).Contents (Elt F) → (⟨S4194304, .i32⟩ : BufTy).Contents (Elt F)),
    binary main_v248 main_v258 main_v259 (addi : (⟨S4194304, .i32⟩ : BufTy).Contents (Elt F) → (⟨S4194304, .i32⟩ : BufTy).Contents (Elt F) → (⟨S4194304, .i32⟩ : BufTy).Contents (Elt F)),
    ternary main_v257 main_v259 main_v248 main_v260 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)) ]

theorem ops5_sub : (ops5 : List (HloOp τ sig (Elt F))).Forall fun op => op.bufs ⊆ tcRefs τ sig :=
  ⟨nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.AlphaGrid.RefRun

end
-- ==== Proof.RefRunWin5.lean ====
/- Window 5 of the reference's @main: it is the line of its operations (every call it makes unfolds to the callee's operations
   over that call's buffers, and the sequencing reassociates), and running that line carries the boundary facts across: from the
   stages held at the window's start to the stages held at its end. Each buffer the line writes holds its operation's function of
   its operands' contents; those are stages by hypothesis or by the same fact one operation earlier, and a stage is by definition
   its operation applied to its operands' stages. A buffer the line does not write keeps what it held. -/
import proofs.«104803_j90202903151142_1_alg».proof.Proof.RefRunOps5
import proofs.«104803_j90202903151142_1_alg».proof.Proof.RefRunInv
import proofs.«104803_j90202903151142_1_alg».proof.Proof.RefRunBase

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part5_eq (c : Dev nD) : main_part5 (F := F) c = seq ops5 := rfl

-- the sorts, gathers and reductions stay folded: the equations below never look inside them
attribute [local irreducible] Host.sort2 Host.gather Host.reduce in
set_option maxRecDepth 8192 in
set_option maxHeartbeats 4000000 in
/-- Across ops5: the stages held at its start give the stages held at its end. -/
theorem win5 (W : Valuation τ sig (Elt F)) (a0 : FVec F S4194304x3 .f32) (a1 : FVec F S2x3 .f32)
    (a2 : FVec F S256x256x256 .f32) (a3 a4 : FVec F S64x3 .f32) (h : Inv5 W a0 a1 a2 a3 a4) :
    Inv6 (after ops5 W) a0 a1 a2 a3 a4 := by
  unfold Inv5 at h
  unfold Inv6
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

end Cert.AlphaGrid.RefRun

end
-- ==== Proof.RefRunOps6.lean ====
/- The operations 417 … 478 of the reference (of 941, calls unfolded at their sites), in order: the window main_part6 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops6 : List (HloOp τ sig (Elt F)) :=
  [ nullary main_c_97 (constantI S_ 32 0#32),
    unary main_c_97 main_v261 (broadcastInDim S4194304 ![] bcast_S_S4194304 : (⟨S_, .i32⟩ : BufTy).Contents (Elt F) → (⟨S4194304, .i32⟩ : BufTy).Contents (Elt F)),
    binary main_v249 main_v261 main_v262 (cmpi .slt : (⟨S4194304, .i32⟩ : BufTy).Contents (Elt F) → (⟨S4194304, .i32⟩ : BufTy).Contents (Elt F) → (⟨S4194304, .i1⟩ : BufTy).Contents (Elt F)),
    nullary main_c_98 (constantI S_ 32 64#32),
    unary main_c_98 main_v263 (broadcastInDim S4194304 ![] bcast_S_S4194304 : (⟨S_, .i32⟩ : BufTy).Contents (Elt F) → (⟨S4194304, .i32⟩ : BufTy).Contents (Elt F)),
    binary main_v249 main_v263 main_v264 (addi : (⟨S4194304, .i32⟩ : BufTy).Contents (Elt F) → (⟨S4194304, .i32⟩ : BufTy).Contents (Elt F) → (⟨S4194304, .i32⟩ : BufTy).Contents (Elt F)),
    ternary main_v262 main_v264 main_v249 main_v265 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_99 (constantI S_ 32 0#32),
    unary main_c_99 main_v266 (broadcastInDim S4194304 ![] bcast_S_S4194304 : (⟨S_, .i32⟩ : BufTy).Contents (Elt F) → (⟨S4194304, .i32⟩ : BufTy).Contents (Elt F)),
    binary main_v250 main_v266 main_v267 (cmpi .slt : (⟨S4194304, .i32⟩ : BufTy).Contents (Elt F) → (⟨S4194304, .i32⟩ : BufTy).Contents (Elt F) → (⟨S4194304, .i1⟩ : BufTy).Contents (Elt F)),
    nullary main_c_100 (constantI S_ 32 64#32),
    unary main_c_100 main_v268 (broadcastInDim S4194304 ![] bcast_S_S4194304 : (⟨S_, .i32⟩ : BufTy).Contents (Elt F) → (⟨S4194304, .i32⟩ : BufTy).Contents (Elt F)),
    binary main_v250 main_v268 main_v269 (addi : (⟨S4194304, .i32⟩ : BufTy).Contents (Elt F) → (⟨S4194304, .i32⟩ : BufTy).Contents (Elt F) → (⟨S4194304, .i32⟩ : BufTy).Contents (Elt F)),
    ternary main_v267 main_v269 main_v250 main_v270 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v255 main_v271 (broadcastInDim S4194304x1 ![0] bcast_S4194304_S4194304x1_0 : (⟨S4194304, .i32⟩ : BufTy).Contents (Elt F) → (⟨S4194304x1, .i32⟩ : BufTy).Contents (Elt F)),
    unary main_v260 main_v272 (broadcastInDim S4194304x1 ![0] bcast_S4194304_S4194304x1_0 : (⟨S4194304, .i32⟩ : BufTy).Contents (Elt F) → (⟨S4194304x1, .i32⟩ : BufTy).Contents (Elt F)),
    unary main_v265 main_v273 (broadcastInDim S4194304x1 ![0] bcast_S4194304_S4194304x1_0 : (⟨S4194304, .i32⟩ : BufTy).Contents (Elt F) → (⟨S4194304x1, .i32⟩ : BufTy).Contents (Elt F)),
    unary main_v270 main_v274 (broadcastInDim S4194304x1 ![0] bcast_S4194304_S4194304x1_0 : (⟨S4194304, .i32⟩ : BufTy).Contents (Elt F) → (⟨S4194304x1, .i32⟩ : BufTy).Contents (Elt F)),
    nary ![main_v271, main_v272, main_v273, main_v274] main_v275 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1),
    binary main_v66 main_v275 main_v276 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_101 (constant S_ .f32 0x00000000#32),
    TRef.unary (TRef.of (T := ⟨S_, .f32⟩) main_cst_101) (TRef.of (T := ⟨S_, .f32⟩) main_call13_v0) id,
    TRef.unary (TRef.of (T := ⟨S_, .f32⟩) main_call13_v0) (TRef.of (T := ⟨S4194304, .f32⟩) main_call13_v1) (broadcastInDim S4194304 ![] bcast_S_S4194304),
    TRef.ternary (TRef.of (T := ⟨S4194304, .i1⟩) main_v247) (TRef.of (T := ⟨S4194304, .f32⟩) main_v276) (TRef.of (T := ⟨S4194304, .f32⟩) main_call13_v1) (TRef.of (T := ⟨S4194304, .f32⟩) main_v277) select,
    binary main_v224 main_v277 main_v278 (mulf : (⟨S4194304, .f32⟩ : BufTy).Contents (Elt F) → (⟨S4194304, .f32⟩ : BufTy).Contents (Elt F) → (⟨S4194304, .f32⟩ : BufTy).Contents (Elt F)),
    binary main_v220 main_v278 main_v279 (addf : (⟨S4194304, .f32⟩ : BufTy).Contents (Elt F) → (⟨S4194304, .f32⟩ : BufTy).Contents (Elt F) → (⟨S4194304, .f32⟩ : BufTy).Contents (Elt F)),
    binary main_v102 main_v95 main_v280 (mulf : (⟨S4194304, .f32⟩ : BufTy).Contents (Elt F) → (⟨S4194304, .f32⟩ : BufTy).Contents (Elt F) → (⟨S4194304, .f32⟩ : BufTy).Contents (Elt F)),
    binary main_v280 main_v94 main_v281 (mulf : (⟨S4194304, .f32⟩ : BufTy).Contents (Elt F) → (⟨S4194304, .f32⟩ : BufTy).Contents (Elt F) → (⟨S4194304, .f32⟩ : BufTy).Contents (Elt F)),
    nullary main_c_102 (constantI S_ 32 0#32),
    unary main_c_102 main_v282 (broadcastInDim S4194304 ![] bcast_S_S4194304 : (⟨S_, .i32⟩ : BufTy).Contents (Elt F) → (⟨S4194304, .i32⟩ : BufTy).Contents (Elt F)),
    binary main_v99 main_v282 main_v283 (addi : (⟨S4194304, .i32⟩ : BufTy).Contents (Elt F) → (⟨S4194304, .i32⟩ : BufTy).Contents (Elt F) → (⟨S4194304, .i32⟩ : BufTy).Contents (Elt F)),
    nullary main_c_103 (constantI S_ 32 1#32),
    unary main_c_103 main_v284 (broadcastInDim S4194304 ![] bcast_S_S4194304 : (⟨S_, .i32⟩ : BufTy).Contents (Elt F) → (⟨S4194304, .i32⟩ : BufTy).Contents (Elt F)),
    binary main_v98 main_v284 main_v285 (addi : (⟨S4194304, .i32⟩ : BufTy).Contents (Elt F) → (⟨S4194304, .i32⟩ : BufTy).Contents (Elt F) → (⟨S4194304, .i32⟩ : BufTy).Contents (Elt F)),
    nullary main_c_104 (constantI S_ 32 1#32),
    unary main_c_104 main_v286 (broadcastInDim S4194304 ![] bcast_S_S4194304 : (⟨S_, .i32⟩ : BufTy).Contents (Elt F) → (⟨S4194304, .i32⟩ : BufTy).Contents (Elt F)),
    binary main_v97 main_v286 main_v287 (addi : (⟨S4194304, .i32⟩ : BufTy).Contents (Elt F) → (⟨S4194304, .i32⟩ : BufTy).Contents (Elt F) → (⟨S4194304, .i32⟩ : BufTy).Contents (Elt F)),
    nullary main_c_105 (constantI S_ 32 0#32),
    unary main_c_105 main_v288 (broadcastInDim S4194304 ![] bcast_S_S4194304 : (⟨S_, .i32⟩ : BufTy).Contents (Elt F) → (⟨S4194304, .i32⟩ : BufTy).Contents (Elt F)),
    binary main_v283 main_v288 main_v289 (cmpi .sge : (⟨S4194304, .i32⟩ : BufTy).Contents (Elt F) → (⟨S4194304, .i32⟩ : BufTy).Contents (Elt F) → (⟨S4194304, .i1⟩ : BufTy).Contents (Elt F)),
    nullary main_c_106 (constantI S_ 32 64#32),
    unary main_c_106 main_v290 (broadcastInDim S4194304 ![] bcast_S_S4194304 : (⟨S_, .i32⟩ : BufTy).Contents (Elt F) → (⟨S4194304, .i32⟩ : BufTy).Contents (Elt F)),
    binary main_v283 main_v290 main_v291 (cmpi .slt : (⟨S4194304, .i32⟩ : BufTy).Contents (Elt F) → (⟨S4194304, .i32⟩ : BufTy).Contents (Elt F) → (⟨S4194304, .i1⟩ : BufTy).Contents (Elt F)),
    binary main_v289 main_v291 main_v292 (andi : (⟨S4194304, .i1⟩ : BufTy).Contents (Elt F) → (⟨S4194304, .i1⟩ : BufTy).Contents (Elt F) → (⟨S4194304, .i1⟩ : BufTy).Contents (Elt F)),
    nullary main_c_107 (constantI S_ 32 0#32),
    unary main_c_107 main_v293 (broadcastInDim S4194304 ![] bcast_S_S4194304 : (⟨S_, .i32⟩ : BufTy).Contents (Elt F) → (⟨S4194304, .i32⟩ : BufTy).Contents (Elt F)),
    binary main_v285 main_v293 main_v294 (cmpi .sge : (⟨S4194304, .i32⟩ : BufTy).Contents (Elt F) → (⟨S4194304, .i32⟩ : BufTy).Contents (Elt F) → (⟨S4194304, .i1⟩ : BufTy).Contents (Elt F)),
    binary main_v292 main_v294 main_v295 (andi : (⟨S4194304, .i1⟩ : BufTy).Contents (Elt F) → (⟨S4194304, .i1⟩ : BufTy).Contents (Elt F) → (⟨S4194304, .i1⟩ : BufTy).Contents (Elt F)),
    nullary main_c_108 (constantI S_ 32 64#32),
    unary main_c_108 main_v296 (broadcastInDim S4194304 ![] bcast_S_S4194304 : (⟨S_, .i32⟩ : BufTy).Contents (Elt F) → (⟨S4194304, .i32⟩ : BufTy).Contents (Elt F)),
    binary main_v285 main_v296 main_v297 (cmpi .slt : (⟨S4194304, .i32⟩ : BufTy).Contents (Elt F) → (⟨S4194304, .i32⟩ : BufTy).Contents (Elt F) → (⟨S4194304, .i1⟩ : BufTy).Contents (Elt F)),
    binary main_v295 main_v297 main_v298 (andi : (⟨S4194304, .i1⟩ : BufTy).Contents (Elt F) → (⟨S4194304, .i1⟩ : BufTy).Contents (Elt F) → (⟨S4194304, .i1⟩ : BufTy).Contents (Elt F)),
    nullary main_c_109 (constantI S_ 32 0#32),
    unary main_c_109 main_v299 (broadcastInDim S4194304 ![] bcast_S_S4194304 : (⟨S_, .i32⟩ : BufTy).Contents (Elt F) → (⟨S4194304, .i32⟩ : BufTy).Contents (Elt F)),
    binary main_v287 main_v299 main_v300 (cmpi .sge : (⟨S4194304, .i32⟩ : BufTy).Contents (Elt F) → (⟨S4194304, .i32⟩ : BufTy).Contents (Elt F) → (⟨S4194304, .i1⟩ : BufTy).Contents (Elt F)),
    binary main_v298 main_v300 main_v301 (andi : (⟨S4194304, .i1⟩ : BufTy).Contents (Elt F) → (⟨S4194304, .i1⟩ : BufTy).Contents (Elt F) → (⟨S4194304, .i1⟩ : BufTy).Contents (Elt F)),
    nullary main_c_110 (constantI S_ 32 64#32),
    unary main_c_110 main_v302 (broadcastInDim S4194304 ![] bcast_S_S4194304 : (⟨S_, .i32⟩ : BufTy).Contents (Elt F) → (⟨S4194304, .i32⟩ : BufTy).Contents (Elt F)),
    binary main_v287 main_v302 main_v303 (cmpi .slt : (⟨S4194304, .i32⟩ : BufTy).Contents (Elt F) → (⟨S4194304, .i32⟩ : BufTy).Contents (Elt F) → (⟨S4194304, .i1⟩ : BufTy).Contents (Elt F)),
    binary main_v301 main_v303 main_v304 (andi : (⟨S4194304, .i1⟩ : BufTy).Contents (Elt F) → (⟨S4194304, .i1⟩ : BufTy).Contents (Elt F) → (⟨S4194304, .i1⟩ : BufTy).Contents (Elt F)),
    nullary main_c_111 (constantI S_ 32 0#32),
    nullary main_c_112 (constantI S_ 32 63#32) ]

theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., unary_bufs_sub .., ternary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub ..⟩

theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
abbrev ops6a : List (HloOp τ sig (Elt F)) :=
  [ nullary main_c_97 (constantI S_ 32 0#32),
    unary main_c_97 main_v261 (broadcastInDim S4194304 ![] bcast_S_S4194304 : (⟨S_, .i32⟩ : BufTy).Contents (Elt F) → (⟨S4194304, .i32⟩ : BufTy).Contents (Elt F)),
    binary main_v249 main_v261 main_v262 (cmpi .slt : (⟨S4194304, .i32⟩ : BufTy).Contents (Elt F) → (⟨S4194304, .i32⟩ : BufTy).Contents (Elt F) → (⟨S4194304, .i1⟩ : BufTy).Contents (Elt F)),
    nullary main_c_98 (constantI S_ 32 64#32),
    unary main_c_98 main_v263 (broadcastInDim S4194304 ![] bcast_S_S4194304 : (⟨S_, .i32⟩ : BufTy).Contents (Elt F) → (⟨S4194304, .i32⟩ : BufTy).Contents (Elt F)),
    binary main_v249 main_v263 main_v264 (addi : (⟨S4194304, .i32⟩ : BufTy).Contents (Elt F) → (⟨S4194304, .i32⟩ : BufTy).Contents (Elt F) → (⟨S4194304, .i32⟩ : BufTy).Contents (Elt F)),
    ternary main_v262 main_v264 main_v249 main_v265 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_99 (constantI S_ 32 0#32),
    unary main_c_99 main_v266 (broadcastInDim S4194304 ![] bcast_S_S4194304 : (⟨S_, .i32⟩ : BufTy).Contents (Elt F) → (⟨S4194304, .i32⟩ : BufTy).Contents (Elt F)),
    binary main_v250 main_v266 main_v267 (cmpi .slt : (⟨S4194304, .i32⟩ : BufTy).Contents (Elt F) → (⟨S4194304, .i32⟩ : BufTy).Contents (Elt F) → (⟨S4194304, .i1⟩ : BufTy).Contents (Elt F)),
    nullary main_c_100 (constantI S_ 32 64#32),
    unary main_c_100 main_v268 (broadcastInDim S4194304 ![] bcast_S_S4194304 : (⟨S_, .i32⟩ : BufTy).Contents (Elt F) → (⟨S4194304, .i32⟩ : BufTy).Contents (Elt F)),
    binary main_v250 main_v268 main_v269 (addi : (⟨S4194304, .i32⟩ : BufTy).Contents (Elt F) → (⟨S4194304, .i32⟩ : BufTy).Contents (Elt F) → (⟨S4194304, .i32⟩ : BufTy).Contents (Elt F)),
    ternary main_v267 main_v269 main_v250 main_v270 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v255 main_v271 (broadcastInDim S4194304x1 ![0] bcast_S4194304_S4194304x1_0 : (⟨S4194304, .i32⟩ : BufTy).Contents (Elt F) → (⟨S4194304x1, .i32⟩ : BufTy).Contents (Elt F)),
    unary main_v260 main_v272 (broadcastInDim S4194304x1 ![0] bcast_S4194304_S4194304x1_0 : (⟨S4194304, .i32⟩ : BufTy).Contents (Elt F) → (⟨S4194304x1, .i32⟩ : BufTy).Contents (Elt F)),
    unary main_v265 main_v273 (broadcastInDim S4194304x1 ![0] bcast_S4194304_S4194304x1_0 : (⟨S4194304, .i32⟩ : BufTy).Contents (Elt F) → (⟨S4194304x1, .i32⟩ : BufTy).Contents (Elt F)),
    unary main_v270 main_v274 (broadcastInDim S4194304x1 ![0] bcast_S4194304_S4194304x1_0 : (⟨S4194304, .i32⟩ : BufTy).Contents (Elt F) → (⟨S4194304x1, .i32⟩ : BufTy).Contents (Elt F)) ]

set_option maxHeartbeats 4000000 in
abbrev ops6b : List (HloOp τ sig (Elt F)) :=
  [ nary ![main_v271, main_v272, main_v273, main_v274] main_v275 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ]

set_option maxHeartbeats 4000000 in
abbrev ops6c : List (HloOp τ sig (Elt F)) :=
  [ binary main_v66 main_v275 main_v276 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_101 (constant S_ .f32 0x00000000#32),
    TRef.unary (TRef.of (T := ⟨S_, .f32⟩) main_cst_101) (TRef.of (T := ⟨S_, .f32⟩) main_call13_v0) id,
    TRef.unary (TRef.of (T := ⟨S_, .f32⟩) main_call13_v0) (TRef.of (T := ⟨S4194304, .f32⟩) main_call13_v1) (broadcastInDim S4194304 ![] bcast_S_S4194304),
    TRef.ternary (TRef.of (T := ⟨S4194304, .i1⟩) main_v247) (TRef.of (T := ⟨S4194304, .f32⟩) main_v276) (TRef.of (T := ⟨S4194304, .f32⟩) main_call13_v1) (TRef.of (T := ⟨S4194304, .f32⟩) main_v277) select,
    binary main_v224 main_v277 main_v278 (mulf : (⟨S4194304, .f32⟩ : BufTy).Contents (Elt F) → (⟨S4194304, .f32⟩ : BufTy).Contents (Elt F) → (⟨S4194304, .f32⟩ : BufTy).Contents (Elt F)),
    binary main_v220 main_v278 main_v279 (addf : (⟨S4194304, .f32⟩ : BufTy).Contents (Elt F) → (⟨S4194304, .f32⟩ : BufTy).Contents (Elt F) → (⟨S4194304, .f32⟩ : BufTy).Contents (Elt F)),
    binary main_v102 main_v95 main_v280 (mulf : (⟨S4194304, .f32⟩ : BufTy).Contents (Elt F) → (⟨S4194304, .f32⟩ : BufTy).Contents (Elt F) → (⟨S4194304, .f32⟩ : BufTy).Contents (Elt F)),
    binary main_v280 main_v94 main_v281 (mulf : (⟨S4194304, .f32⟩ : BufTy).Contents (Elt F) → (⟨S4194304, .f32⟩ : BufTy).Contents (Elt F) → (⟨S4194304, .f32⟩ : BufTy).Contents (Elt F)),
    nullary main_c_102 (constantI S_ 32 0#32),
    unary main_c_102 main_v282 (broadcastInDim S4194304 ![] bcast_S_S4194304 : (⟨S_, .i32⟩ : BufTy).Contents (Elt F) → (⟨S4194304, .i32⟩ : BufTy).Contents (Elt F)),
    binary main_v99 main_v282 main_v283 (addi : (⟨S4194304, .i32⟩ : BufTy).Contents (Elt F) → (⟨S4194304, .i32⟩ : BufTy).Contents (Elt F) → (⟨S4194304, .i32⟩ : BufTy).Contents (Elt F)),
    nullary main_c_103 (constantI S_ 32 1#32),
    unary main_c_103 main_v284 (broadcastInDim S4194304 ![] bcast_S_S4194304 : (⟨S_, .i32⟩ : BufTy).Contents (Elt F) → (⟨S4194304, .i32⟩ : BufTy).Contents (Elt F)),
    binary main_v98 main_v284 main_v285 (addi : (⟨S4194304, .i32⟩ : BufTy).Contents (Elt F) → (⟨S4194304, .i32⟩ : BufTy).Contents (Elt F) → (⟨S4194304, .i32⟩ : BufTy).Contents (Elt F)),
    nullary main_c_104 (constantI S_ 32 1#32),
    unary main_c_104 main_v286 (broadcastInDim S4194304 ![] bcast_S_S4194304 : (⟨S_, .i32⟩ : BufTy).Contents (Elt F) → (⟨S4194304, .i32⟩ : BufTy).Contents (Elt F)),
    binary main_v97 main_v286 main_v287 (addi : (⟨S4194304, .i32⟩ : BufTy).Contents (Elt F) → (⟨S4194304, .i32⟩ : BufTy).Contents (Elt F) → (⟨S4194304, .i32⟩ : BufTy).Contents (Elt F)),
    nullary main_c_105 (constantI S_ 32 0#32),
    unary main_c_105 main_v288 (broadcastInDim S4194304 ![] bcast_S_S4194304 : (⟨S_, .i32⟩ : BufTy).Contents (Elt F) → (⟨S4194304, .i32⟩ : BufTy).Contents (Elt F)),
    binary main_v283 main_v288 main_v289 (cmpi .sge : (⟨S4194304, .i32⟩ : BufTy).Contents (Elt F) → (⟨S4194304, .i32⟩ : BufTy).Contents (Elt F) → (⟨S4194304, .i1⟩ : BufTy).Contents (Elt F)),
    nullary main_c_106 (constantI S_ 32 64#32),
    unary main_c_106 main_v290 (broadcastInDim S4194304 ![] bcast_S_S4194304 : (⟨S_, .i32⟩ : BufTy).Contents (Elt F) → (⟨S4194304, .i32⟩ : BufTy).Contents (Elt F)),
    binary main_v283 main_v290 main_v291 (cmpi .slt : (⟨S4194304, .i32⟩ : BufTy).Contents (Elt F) → (⟨S4194304, .i32⟩ : BufTy).Contents (Elt F) → (⟨S4194304, .i1⟩ : BufTy).Contents (Elt F)),
    binary main_v289 main_v291 main_v292 (andi : (⟨S4194304, .i1⟩ : BufTy).Contents (Elt F) → (⟨S4194304, .i1⟩ : BufTy).Contents (Elt F) → (⟨S4194304, .i1⟩ : BufTy).Contents (Elt F)),
    nullary main_c_107 (constantI S_ 32 0#32),
    unary main_c_107 main_v293 (broadcastInDim S4194304 ![] bcast_S_S4194304 : (⟨S_, .i32⟩ : BufTy).Contents (Elt F) → (⟨S4194304, .i32⟩ : BufTy).Contents (Elt F)),
    binary main_v285 main_v293 main_v294 (cmpi .sge : (⟨S4194304, .i32⟩ : BufTy).Contents (Elt F) → (⟨S4194304, .i32⟩ : BufTy).Contents (Elt F) → (⟨S4194304, .i1⟩ : BufTy).Contents (Elt F)),
    binary main_v292 main_v294 main_v295 (andi : (⟨S4194304, .i1⟩ : BufTy).Contents (Elt F) → (⟨S4194304, .i1⟩ : BufTy).Contents (Elt F) → (⟨S4194304, .i1⟩ : BufTy).Contents (Elt F)),
    nullary main_c_108 (constantI S_ 32 64#32),
    unary main_c_108 main_v296 (broadcastInDim S4194304 ![] bcast_S_S4194304 : (⟨S_, .i32⟩ : BufTy).Contents (Elt F) → (⟨S4194304, .i32⟩ : BufTy).Contents (Elt F)),
    binary main_v285 main_v296 main_v297 (cmpi .slt : (⟨S4194304, .i32⟩ : BufTy).Contents (Elt F) → (⟨S4194304, .i32⟩ : BufTy).Contents (Elt F) → (⟨S4194304, .i1⟩ : BufTy).Contents (Elt F)),
    binary main_v295 main_v297 main_v298 (andi : (⟨S4194304, .i1⟩ : BufTy).Contents (Elt F) → (⟨S4194304, .i1⟩ : BufTy).Contents (Elt F) → (⟨S4194304, .i1⟩ : BufTy).Contents (Elt F)),
    nullary main_c_109 (constantI S_ 32 0#32),
    unary main_c_109 main_v299 (broadcastInDim S4194304 ![] bcast_S_S4194304 : (⟨S_, .i32⟩ : BufTy).Contents (Elt F) → (⟨S4194304, .i32⟩ : BufTy).Contents (Elt F)),
    binary main_v287 main_v299 main_v300 (cmpi .sge : (⟨S4194304, .i32⟩ : BufTy).Contents (Elt F) → (⟨S4194304, .i32⟩ : BufTy).Contents (Elt F) → (⟨S4194304, .i1⟩ : BufTy).Contents (Elt F)),
    binary main_v298 main_v300 main_v301 (andi : (⟨S4194304, .i1⟩ : BufTy).Contents (Elt F) → (⟨S4194304, .i1⟩ : BufTy).Contents (Elt F) → (⟨S4194304, .i1⟩ : BufTy).Contents (Elt F)),
    nullary main_c_110 (constantI S_ 32 64#32),
    unary main_c_110 main_v302 (broadcastInDim S4194304 ![] bcast_S_S4194304 : (⟨S_, .i32⟩ : BufTy).Contents (Elt F) → (⟨S4194304, .i32⟩ : BufTy).Contents (Elt F)),
    binary main_v287 main_v302 main_v303 (cmpi .slt : (⟨S4194304, .i32⟩ : BufTy).Contents (Elt F) → (⟨S4194304, .i32⟩ : BufTy).Contents (Elt F) → (⟨S4194304, .i1⟩ : BufTy).Contents (Elt F)),
    binary main_v301 main_v303 main_v304 (andi : (⟨S4194304, .i1⟩ : BufTy).Contents (Elt F) → (⟨S4194304, .i1⟩ : BufTy).Contents (Elt F) → (⟨S4194304, .i1⟩ : BufTy).Contents (Elt F)),
    nullary main_c_111 (constantI S_ 32 0#32),
    nullary main_c_112 (constantI S_ 32 63#32) ]

end Cert.AlphaGrid.RefRun

end
-- ==== Proof.RefRunWin6.lean ====
/- Window 6 of the reference's @main: it is the line of its operations (every call it makes unfolds to the callee's operations
   over that call's buffers, and the sequencing reassociates), and running that line carries the boundary facts across: from the
   stages held at the window's start to the stages held at its end. Each buffer the line writes holds its operation's function of
   its operands' contents; those are stages by hypothesis or by the same fact one operation earlier, and a stage is by definition
   its operation applied to its operands' stages. A buffer the line does not write keeps what it held.
   The window holds one concatenate: the line is cut before and after it, and the concatenate, run alone from contents whose four
   operand buffers are at their stages, leaves its result at the concatenate of those stages, which is its own stage. -/
import proofs.«104803_j90202903151142_1_alg».proof.Proof.RefRunOps6
import proofs.«104803_j90202903151142_1_alg».proof.Proof.RefRunInv
import proofs.«104803_j90202903151142_1_alg».proof.Proof.RefRunBase

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part6_eq (c : Dev nD) : main_part6 (F := F) c = seq ops6 := rfl

/-- The window's list in three consecutive pieces: up to the concatenate, the concatenate, the rest. -/
theorem ops6_split : (ops6 : List (HloOp τ sig (Elt F))) = ops6a ++ (ops6b ++ ops6c) := rfl

-- the sorts, gathers and reductions stay folded: the equations below never look inside them
attribute [local irreducible] Host.sort2 Host.gather Host.reduce in
set_option maxRecDepth 8192 in
set_option maxHeartbeats 4000000 in
/-- Across ops6a: the stages held at its start give the stages held at its end. -/
theorem win6a (W : Valuation τ sig (Elt F)) (a0 : FVec F S4194304x3 .f32) (a1 : FVec F S2x3 .f32)
    (a2 : FVec F S256x256x256 .f32) (a3 a4 : FVec F S64x3 .f32) (h : Inv6 W a0 a1 a2 a3 a4) :
    Inv6b (after ops6a W) a0 a1 a2 a3 a4 := by
  unfold Inv6 at h
  unfold Inv6b
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops6b: the stages held at its start give the stages held at its end. -/
theorem win6b (W : Valuation τ sig (Elt F)) (a0 : FVec F S4194304x3 .f32) (a1 : FVec F S2x3 .f32)
    (a2 : FVec F S256x256x256 .f32) (a3 a4 : FVec F S64x3 .f32) (h : Inv6b W a0 a1 a2 a3 a4) :
    Inv6c (after ops6b W) a0 a1 a2 a3 a4 := by
  unfold Inv6b at h
  unfold Inv6c
  have h0 : W (main_v271 : DevRef τ sig) = r_v271 a0 a1 a2 a3 a4 := by simp only [h]
  have h1 : W (main_v272 : DevRef τ sig) = r_v272 a0 a1 a2 a3 a4 := by simp only [h]
  have h2 : W (main_v273 : DevRef τ sig) = r_v273 a0 a1 a2 a3 a4 := by simp only [h]
  have h3 : W (main_v274 : DevRef τ sig) = r_v274 a0 a1 a2 a3 a4 := by simp only [h]
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)
    | exact (nary4_chunk _ _ _ W h0 h1 h2 h3).trans rfl

-- the sorts, gathers and reductions stay folded: the equations below never look inside them
attribute [local irreducible] Host.sort2 Host.gather Host.reduce in
set_option maxRecDepth 8192 in
set_option maxHeartbeats 4000000 in
/-- Across ops6c: the stages held at its start give the stages held at its end. -/
theorem win6c (W : Valuation τ sig (Elt F)) (a0 : FVec F S4194304x3 .f32) (a1 : FVec F S2x3 .f32)
    (a2 : FVec F S256x256x256 .f32) (a3 a4 : FVec F S64x3 .f32) (h : Inv6c W a0 a1 a2 a3 a4) :
    Inv7 (after ops6c W) a0 a1 a2 a3 a4 := by
  unfold Inv6c at h
  unfold Inv7
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

/-- Across the whole window. -/
theorem win6 (W : Valuation τ sig (Elt F)) (a0 : FVec F S4194304x3 .f32) (a1 : FVec F S2x3 .f32)
    (a2 : FVec F S256x256x256 .f32) (a3 a4 : FVec F S64x3 .f32) (h : Inv6 W a0 a1 a2 a3 a4) :
    Inv7 (after ops6 W) a0 a1 a2 a3 a4 := by
  rw [ops6_split, after_append, after_append]
  exact win6c _ _ _ _ _ _ (win6b _ _ _ _ _ _ (win6a _ _ _ _ _ _ h))

end Cert.AlphaGrid.RefRun

end
-- ==== Proof.RefRunOps7.lean ====
/- The operations 479 … 555 of the reference (of 941, calls unfolded at their sites), in order: the window main_part7 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops7 : List (HloOp τ sig (Elt F)) :=
  [ TRef.unary (TRef.of (T := ⟨S_, .i32⟩) main_c_111) (TRef.of (T := ⟨S_, .i32⟩) main_call14_v0) id,
    TRef.unary (TRef.of (T := ⟨S_, .i32⟩) main_call14_v0) (TRef.of (T := ⟨S4194304, .i32⟩) main_call14_v1) (broadcastInDim S4194304 ![] bcast_S_S4194304),
    TRef.binary (TRef.of (T := ⟨S4194304, .i32⟩) main_call14_v1) (TRef.of (T := ⟨S4194304, .i32⟩) main_v283) (TRef.of (T := ⟨S4194304, .i32⟩) main_call14_v2) maxsi,
    TRef.unary (TRef.of (T := ⟨S_, .i32⟩) main_c_112) (TRef.of (T := ⟨S_, .i32⟩) main_call14_v3) id,
    TRef.unary (TRef.of (T := ⟨S_, .i32⟩) main_call14_v3) (TRef.of (T := ⟨S4194304, .i32⟩) main_call14_v4) (broadcastInDim S4194304 ![] bcast_S_S4194304),
    TRef.binary (TRef.of (T := ⟨S4194304, .i32⟩) main_call14_v4) (TRef.of (T := ⟨S4194304, .i32⟩) main_call14_v2) (TRef.of (T := ⟨S4194304, .i32⟩) main_v305) minsi,
    nullary main_c_113 (constantI S_ 32 0#32),
    nullary main_c_114 (constantI S_ 32 63#32),
    TRef.unary (TRef.of (T := ⟨S_, .i32⟩) main_c_113) (TRef.of (T := ⟨S_, .i32⟩) main_call15_v0) id,
    TRef.unary (TRef.of (T := ⟨S_, .i32⟩) main_call15_v0) (TRef.of (T := ⟨S4194304, .i32⟩) main_call15_v1) (broadcastInDim S4194304 ![] bcast_S_S4194304),
    TRef.binary (TRef.of (T := ⟨S4194304, .i32⟩) main_call15_v1) (TRef.of (T := ⟨S4194304, .i32⟩) main_v285) (TRef.of (T := ⟨S4194304, .i32⟩) main_call15_v2) maxsi,
    TRef.unary (TRef.of (T := ⟨S_, .i32⟩) main_c_114) (TRef.of (T := ⟨S_, .i32⟩) main_call15_v3) id,
    TRef.unary (TRef.of (T := ⟨S_, .i32⟩) main_call15_v3) (TRef.of (T := ⟨S4194304, .i32⟩) main_call15_v4) (broadcastInDim S4194304 ![] bcast_S_S4194304),
    TRef.binary (TRef.of (T := ⟨S4194304, .i32⟩) main_call15_v4) (TRef.of (T := ⟨S4194304, .i32⟩) main_call15_v2) (TRef.of (T := ⟨S4194304, .i32⟩) main_v306) minsi,
    nullary main_c_115 (constantI S_ 32 0#32),
    nullary main_c_116 (constantI S_ 32 63#32),
    TRef.unary (TRef.of (T := ⟨S_, .i32⟩) main_c_115) (TRef.of (T := ⟨S_, .i32⟩) main_call16_v0) id,
    TRef.unary (TRef.of (T := ⟨S_, .i32⟩) main_call16_v0) (TRef.of (T := ⟨S4194304, .i32⟩) main_call16_v1) (broadcastInDim S4194304 ![] bcast_S_S4194304),
    TRef.binary (TRef.of (T := ⟨S4194304, .i32⟩) main_call16_v1) (TRef.of (T := ⟨S4194304, .i32⟩) main_v287) (TRef.of (T := ⟨S4194304, .i32⟩) main_call16_v2) maxsi,
    TRef.unary (TRef.of (T := ⟨S_, .i32⟩) main_c_116) (TRef.of (T := ⟨S_, .i32⟩) main_call16_v3) id,
    TRef.unary (TRef.of (T := ⟨S_, .i32⟩) main_call16_v3) (TRef.of (T := ⟨S4194304, .i32⟩) main_call16_v4) (broadcastInDim S4194304 ![] bcast_S_S4194304),
    TRef.binary (TRef.of (T := ⟨S4194304, .i32⟩) main_call16_v4) (TRef.of (T := ⟨S4194304, .i32⟩) main_call16_v2) (TRef.of (T := ⟨S4194304, .i32⟩) main_v307) minsi,
    nullary main_c_117 (constantI S_ 32 0#32),
    unary main_c_117 main_v308 (broadcastInDim S4194304 ![] bcast_S_S4194304 : (⟨S_, .i32⟩ : BufTy).Contents (Elt F) → (⟨S4194304, .i32⟩ : BufTy).Contents (Elt F)),
    binary main_v30 main_v308 main_v309 (cmpi .slt : (⟨S4194304, .i32⟩ : BufTy).Contents (Elt F) → (⟨S4194304, .i32⟩ : BufTy).Contents (Elt F) → (⟨S4194304, .i1⟩ : BufTy).Contents (Elt F)),
    nullary main_c_118 (constantI S_ 32 64#32),
    unary main_c_118 main_v310 (broadcastInDim S4194304 ![] bcast_S_S4194304 : (⟨S_, .i32⟩ : BufTy).Contents (Elt F) → (⟨S4194304, .i32⟩ : BufTy).Contents (Elt F)),
    binary main_v30 main_v310 main_v311 (addi : (⟨S4194304, .i32⟩ : BufTy).Contents (Elt F) → (⟨S4194304, .i32⟩ : BufTy).Contents (Elt F) → (⟨S4194304, .i32⟩ : BufTy).Contents (Elt F)),
    ternary main_v309 main_v311 main_v30 main_v312 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_119 (constantI S_ 32 0#32),
    unary main_c_119 main_v313 (broadcastInDim S4194304 ![] bcast_S_S4194304 : (⟨S_, .i32⟩ : BufTy).Contents (Elt F) → (⟨S4194304, .i32⟩ : BufTy).Contents (Elt F)),
    binary main_v305 main_v313 main_v314 (cmpi .slt : (⟨S4194304, .i32⟩ : BufTy).Contents (Elt F) → (⟨S4194304, .i32⟩ : BufTy).Contents (Elt F) → (⟨S4194304, .i1⟩ : BufTy).Contents (Elt F)),
    nullary main_c_120 (constantI S_ 32 64#32),
    unary main_c_120 main_v315 (broadcastInDim S4194304 ![] bcast_S_S4194304 : (⟨S_, .i32⟩ : BufTy).Contents (Elt F) → (⟨S4194304, .i32⟩ : BufTy).Contents (Elt F)),
    binary main_v305 main_v315 main_v316 (addi : (⟨S4194304, .i32⟩ : BufTy).Contents (Elt F) → (⟨S4194304, .i32⟩ : BufTy).Contents (Elt F) → (⟨S4194304, .i32⟩ : BufTy).Contents (Elt F)),
    ternary main_v314 main_v316 main_v305 main_v317 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_121 (constantI S_ 32 0#32),
    unary main_c_121 main_v318 (broadcastInDim S4194304 ![] bcast_S_S4194304 : (⟨S_, .i32⟩ : BufTy).Contents (Elt F) → (⟨S4194304, .i32⟩ : BufTy).Contents (Elt F)),
    binary main_v306 main_v318 main_v319 (cmpi .slt : (⟨S4194304, .i32⟩ : BufTy).Contents (Elt F) → (⟨S4194304, .i32⟩ : BufTy).Contents (Elt F) → (⟨S4194304, .i1⟩ : BufTy).Contents (Elt F)),
    nullary main_c_122 (constantI S_ 32 64#32),
    unary main_c_122 main_v320 (broadcastInDim S4194304 ![] bcast_S_S4194304 : (⟨S_, .i32⟩ : BufTy).Contents (Elt F) → (⟨S4194304, .i32⟩ : BufTy).Contents (Elt F)),
    binary main_v306 main_v320 main_v321 (addi : (⟨S4194304, .i32⟩ : BufTy).Contents (Elt F) → (⟨S4194304, .i32⟩ : BufTy).Contents (Elt F) → (⟨S4194304, .i32⟩ : BufTy).Contents (Elt F)),
    ternary main_v319 main_v321 main_v306 main_v322 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_123 (constantI S_ 32 0#32),
    unary main_c_123 main_v323 (broadcastInDim S4194304 ![] bcast_S_S4194304 : (⟨S_, .i32⟩ : BufTy).Contents (Elt F) → (⟨S4194304, .i32⟩ : BufTy).Contents (Elt F)),
    binary main_v307 main_v323 main_v324 (cmpi .slt : (⟨S4194304, .i32⟩ : BufTy).Contents (Elt F) → (⟨S4194304, .i32⟩ : BufTy).Contents (Elt F) → (⟨S4194304, .i1⟩ : BufTy).Contents (Elt F)),
    nullary main_c_124 (constantI S_ 32 64#32),
    unary main_c_124 main_v325 (broadcastInDim S4194304 ![] bcast_S_S4194304 : (⟨S_, .i32⟩ : BufTy).Contents (Elt F) → (⟨S4194304, .i32⟩ : BufTy).Contents (Elt F)),
    binary main_v307 main_v325 main_v326 (addi : (⟨S4194304, .i32⟩ : BufTy).Contents (Elt F) → (⟨S4194304, .i32⟩ : BufTy).Contents (Elt F) → (⟨S4194304, .i32⟩ : BufTy).Contents (Elt F)),
    ternary main_v324 main_v326 main_v307 main_v327 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v312 main_v328 (broadcastInDim S4194304x1 ![0] bcast_S4194304_S4194304x1_0 : (⟨S4194304, .i32⟩ : BufTy).Contents (Elt F) → (⟨S4194304x1, .i32⟩ : BufTy).Contents (Elt F)),
    unary main_v317 main_v329 (broadcastInDim S4194304x1 ![0] bcast_S4194304_S4194304x1_0 : (⟨S4194304, .i32⟩ : BufTy).Contents (Elt F) → (⟨S4194304x1, .i32⟩ : BufTy).Contents (Elt F)),
    unary main_v322 main_v330 (broadcastInDim S4194304x1 ![0] bcast_S4194304_S4194304x1_0 : (⟨S4194304, .i32⟩ : BufTy).Contents (Elt F) → (⟨S4194304x1, .i32⟩ : BufTy).Contents (Elt F)),
    unary main_v327 main_v331 (broadcastInDim S4194304x1 ![0] bcast_S4194304_S4194304x1_0 : (⟨S4194304, .i32⟩ : BufTy).Contents (Elt F) → (⟨S4194304x1, .i32⟩ : BufTy).Contents (Elt F)),
    nary ![main_v328, main_v329, main_v330, main_v331] main_v332 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1),
    binary main_v66 main_v332 main_v333 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_125 (constant S_ .f32 0x00000000#32),
    TRef.unary (TRef.of (T := ⟨S_, .f32⟩) main_cst_125) (TRef.of (T := ⟨S_, .f32⟩) main_call17_v0) id,
    TRef.unary (TRef.of (T := ⟨S_, .f32⟩) main_call17_v0) (TRef.of (T := ⟨S4194304, .f32⟩) main_call17_v1) (broadcastInDim S4194304 ![] bcast_S_S4194304),
    TRef.ternary (TRef.of (T := ⟨S4194304, .i1⟩) main_v304) (TRef.of (T := ⟨S4194304, .f32⟩) main_v333) (TRef.of (T := ⟨S4194304, .f32⟩) main_call17_v1) (TRef.of (T := ⟨S4194304, .f32⟩) main_v334) select,
    binary main_v281 main_v334 main_v335 (mulf : (⟨S4194304, .f32⟩ : BufTy).Contents (Elt F) → (⟨S4194304, .f32⟩ : BufTy).Contents (Elt F) → (⟨S4194304, .f32⟩ : BufTy).Contents (Elt F)),
    binary main_v279 main_v335 main_v336 (addf : (⟨S4194304, .f32⟩ : BufTy).Contents (Elt F) → (⟨S4194304, .f32⟩ : BufTy).Contents (Elt F) → (⟨S4194304, .f32⟩ : BufTy).Contents (Elt F)),
    nullary main_cst_126 (constant S_ .f32 0x3F800000#32),
    unary main_cst_126 main_v337 (broadcastInDim S4194304 ![] bcast_S_S4194304 : (⟨S_, .f32⟩ : BufTy).Contents (Elt F) → (⟨S4194304, .f32⟩ : BufTy).Contents (Elt F)),
    binary main_v337 main_v95 main_v338 (subf : (⟨S4194304, .f32⟩ : BufTy).Contents (Elt F) → (⟨S4194304, .f32⟩ : BufTy).Contents (Elt F) → (⟨S4194304, .f32⟩ : BufTy).Contents (Elt F)),
    nullary main_cst_127 (constant S_ .f32 0x3F800000#32),
    unary main_cst_127 main_v339 (broadcastInDim S4194304 ![] bcast_S_S4194304 : (⟨S_, .f32⟩ : BufTy).Contents (Elt F) → (⟨S4194304, .f32⟩ : BufTy).Contents (Elt F)),
    binary main_v339 main_v94 main_v340 (subf : (⟨S4194304, .f32⟩ : BufTy).Contents (Elt F) → (⟨S4194304, .f32⟩ : BufTy).Contents (Elt F) → (⟨S4194304, .f32⟩ : BufTy).Contents (Elt F)),
    binary main_v96 main_v338 main_v341 (mulf : (⟨S4194304, .f32⟩ : BufTy).Contents (Elt F) → (⟨S4194304, .f32⟩ : BufTy).Contents (Elt F) → (⟨S4194304, .f32⟩ : BufTy).Contents (Elt F)),
    binary main_v341 main_v340 main_v342 (mulf : (⟨S4194304, .f32⟩ : BufTy).Contents (Elt F) → (⟨S4194304, .f32⟩ : BufTy).Contents (Elt F) → (⟨S4194304, .f32⟩ : BufTy).Contents (Elt F)),
    nullary main_c_128 (constantI S_ 32 1#32),
    unary main_c_128 main_v343 (broadcastInDim S4194304 ![] bcast_S_S4194304 : (⟨S_, .i32⟩ : BufTy).Contents (Elt F) → (⟨S4194304, .i32⟩ : BufTy).Contents (Elt F)),
    binary main_v99 main_v343 main_v344 (addi : (⟨S4194304, .i32⟩ : BufTy).Contents (Elt F) → (⟨S4194304, .i32⟩ : BufTy).Contents (Elt F) → (⟨S4194304, .i32⟩ : BufTy).Contents (Elt F)),
    nullary main_c_129 (constantI S_ 32 0#32),
    unary main_c_129 main_v345 (broadcastInDim S4194304 ![] bcast_S_S4194304 : (⟨S_, .i32⟩ : BufTy).Contents (Elt F) → (⟨S4194304, .i32⟩ : BufTy).Contents (Elt F)),
    binary main_v98 main_v345 main_v346 (addi : (⟨S4194304, .i32⟩ : BufTy).Contents (Elt F) → (⟨S4194304, .i32⟩ : BufTy).Contents (Elt F) → (⟨S4194304, .i32⟩ : BufTy).Contents (Elt F)),
    nullary main_c_130 (constantI S_ 32 0#32) ]

theorem ops7_sub : (ops7 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub ..⟩

theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
abbrev ops7a : List (HloOp τ sig (Elt F)) :=
  [ TRef.unary (TRef.of (T := ⟨S_, .i32⟩) main_c_111) (TRef.of (T := ⟨S_, .i32⟩) main_call14_v0) id,
    TRef.unary (TRef.of (T := ⟨S_, .i32⟩) main_call14_v0) (TRef.of (T := ⟨S4194304, .i32⟩) main_call14_v1) (broadcastInDim S4194304 ![] bcast_S_S4194304),
    TRef.binary (TRef.of (T := ⟨S4194304, .i32⟩) main_call14_v1) (TRef.of (T := ⟨S4194304, .i32⟩) main_v283) (TRef.of (T := ⟨S4194304, .i32⟩) main_call14_v2) maxsi,
    TRef.unary (TRef.of (T := ⟨S_, .i32⟩) main_c_112) (TRef.of (T := ⟨S_, .i32⟩) main_call14_v3) id,
    TRef.unary (TRef.of (T := ⟨S_, .i32⟩) main_call14_v3) (TRef.of (T := ⟨S4194304, .i32⟩) main_call14_v4) (broadcastInDim S4194304 ![] bcast_S_S4194304),
    TRef.binary (TRef.of (T := ⟨S4194304, .i32⟩) main_call14_v4) (TRef.of (T := ⟨S4194304, .i32⟩) main_call14_v2) (TRef.of (T := ⟨S4194304, .i32⟩) main_v305) minsi,
    nullary main_c_113 (constantI S_ 32 0#32),
    nullary main_c_114 (constantI S_ 32 63#32),
    TRef.unary (TRef.of (T := ⟨S_, .i32⟩) main_c_113) (TRef.of (T := ⟨S_, .i32⟩) main_call15_v0) id,
    TRef.unary (TRef.of (T := ⟨S_, .i32⟩) main_call15_v0) (TRef.of (T := ⟨S4194304, .i32⟩) main_call15_v1) (broadcastInDim S4194304 ![] bcast_S_S4194304),
    TRef.binary (TRef.of (T := ⟨S4194304, .i32⟩) main_call15_v1) (TRef.of (T := ⟨S4194304, .i32⟩) main_v285) (TRef.of (T := ⟨S4194304, .i32⟩) main_call15_v2) maxsi,
    TRef.unary (TRef.of (T := ⟨S_, .i32⟩) main_c_114) (TRef.of (T := ⟨S_, .i32⟩) main_call15_v3) id,
    TRef.unary (TRef.of (T := ⟨S_, .i32⟩) main_call15_v3) (TRef.of (T := ⟨S4194304, .i32⟩) main_call15_v4) (broadcastInDim S4194304 ![] bcast_S_S4194304),
    TRef.binary (TRef.of (T := ⟨S4194304, .i32⟩) main_call15_v4) (TRef.of (T := ⟨S4194304, .i32⟩) main_call15_v2) (TRef.of (T := ⟨S4194304, .i32⟩) main_v306) minsi,
    nullary main_c_115 (constantI S_ 32 0#32),
    nullary main_c_116 (constantI S_ 32 63#32),
    TRef.unary (TRef.of (T := ⟨S_, .i32⟩) main_c_115) (TRef.of (T := ⟨S_, .i32⟩) main_call16_v0) id,
    TRef.unary (TRef.of (T := ⟨S_, .i32⟩) main_call16_v0) (TRef.of (T := ⟨S4194304, .i32⟩) main_call16_v1) (broadcastInDim S4194304 ![] bcast_S_S4194304),
    TRef.binary (TRef.of (T := ⟨S4194304, .i32⟩) main_call16_v1) (TRef.of (T := ⟨S4194304, .i32⟩) main_v287) (TRef.of (T := ⟨S4194304, .i32⟩) main_call16_v2) maxsi,
    TRef.unary (TRef.of (T := ⟨S_, .i32⟩) main_c_116) (TRef.of (T := ⟨S_, .i32⟩) main_call16_v3) id,
    TRef.unary (TRef.of (T := ⟨S_, .i32⟩) main_call16_v3) (TRef.of (T := ⟨S4194304, .i32⟩) main_call16_v4) (broadcastInDim S4194304 ![] bcast_S_S4194304),
    TRef.binary (TRef.of (T := ⟨S4194304, .i32⟩) main_call16_v4) (TRef.of (T := ⟨S4194304, .i32⟩) main_call16_v2) (TRef.of (T := ⟨S4194304, .i32⟩) main_v307) minsi,
    nullary main_c_117 (constantI S_ 32 0#32),
    unary main_c_117 main_v308 (broadcastInDim S4194304 ![] bcast_S_S4194304 : (⟨S_, .i32⟩ : BufTy).Contents (Elt F) → (⟨S4194304, .i32⟩ : BufTy).Contents (Elt F)),
    binary main_v30 main_v308 main_v309 (cmpi .slt : (⟨S4194304, .i32⟩ : BufTy).Contents (Elt F) → (⟨S4194304, .i32⟩ : BufTy).Contents (Elt F) → (⟨S4194304, .i1⟩ : BufTy).Contents (Elt F)),
    nullary main_c_118 (constantI S_ 32 64#32),
    unary main_c_118 main_v310 (broadcastInDim S4194304 ![] bcast_S_S4194304 : (⟨S_, .i32⟩ : BufTy).Contents (Elt F) → (⟨S4194304, .i32⟩ : BufTy).Contents (Elt F)),
    binary main_v30 main_v310 main_v311 (addi : (⟨S4194304, .i32⟩ : BufTy).Contents (Elt F) → (⟨S4194304, .i32⟩ : BufTy).Contents (Elt F) → (⟨S4194304, .i32⟩ : BufTy).Contents (Elt F)),
    ternary main_v309 main_v311 main_v30 main_v312 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_119 (constantI S_ 32 0#32),
    unary main_c_119 main_v313 (broadcastInDim S4194304 ![] bcast_S_S4194304 : (⟨S_, .i32⟩ : BufTy).Contents (Elt F) → (⟨S4194304, .i32⟩ : BufTy).Contents (Elt F)),
    binary main_v305 main_v313 main_v314 (cmpi .slt : (⟨S4194304, .i32⟩ : BufTy).Contents (Elt F) → (⟨S4194304, .i32⟩ : BufTy).Contents (Elt F) → (⟨S4194304, .i1⟩ : BufTy).Contents (Elt F)),
    nullary main_c_120 (constantI S_ 32 64#32),
    unary main_c_120 main_v315 (broadcastInDim S4194304 ![] bcast_S_S4194304 : (⟨S_, .i32⟩ : BufTy).Contents (Elt F) → (⟨S4194304, .i32⟩ : BufTy).Contents (Elt F)),
    binary main_v305 main_v315 main_v316 (addi : (⟨S4194304, .i32⟩ : BufTy).Contents (Elt F) → (⟨S4194304, .i32⟩ : BufTy).Contents (Elt F) → (⟨S4194304, .i32⟩ : BufTy).Contents (Elt F)),
    ternary main_v314 main_v316 main_v305 main_v317 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_121 (constantI S_ 32 0#32),
    unary main_c_121 main_v318 (broadcastInDim S4194304 ![] bcast_S_S4194304 : (⟨S_, .i32⟩ : BufTy).Contents (Elt F) → (⟨S4194304, .i32⟩ : BufTy).Contents (Elt F)),
    binary main_v306 main_v318 main_v319 (cmpi .slt : (⟨S4194304, .i32⟩ : BufTy).Contents (Elt F) → (⟨S4194304, .i32⟩ : BufTy).Contents (Elt F) → (⟨S4194304, .i1⟩ : BufTy).Contents (Elt F)),
    nullary main_c_122 (constantI S_ 32 64#32),
    unary main_c_122 main_v320 (broadcastInDim S4194304 ![] bcast_S_S4194304 : (⟨S_, .i32⟩ : BufTy).Contents (Elt F) → (⟨S4194304, .i32⟩ : BufTy).Contents (Elt F)),
    binary main_v306 main_v320 main_v321 (addi : (⟨S4194304, .i32⟩ : BufTy).Contents (Elt F) → (⟨S4194304, .i32⟩ : BufTy).Contents (Elt F) → (⟨S4194304, .i32⟩ : BufTy).Contents (Elt F)),
    ternary main_v319 main_v321 main_v306 main_v322 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_123 (constantI S_ 32 0#32),
    unary main_c_123 main_v323 (broadcastInDim S4194304 ![] bcast_S_S4194304 : (⟨S_, .i32⟩ : BufTy).Contents (Elt F) → (⟨S4194304, .i32⟩ : BufTy).Contents (Elt F)),
    binary main_v307 main_v323 main_v324 (cmpi .slt : (⟨S4194304, .i32⟩ : BufTy).Contents (Elt F) → (⟨S4194304, .i32⟩ : BufTy).Contents (Elt F) → (⟨S4194304, .i1⟩ : BufTy).Contents (Elt F)),
    nullary main_c_124 (constantI S_ 32 64#32),
    unary main_c_124 main_v325 (broadcastInDim S4194304 ![] bcast_S_S4194304 : (⟨S_, .i32⟩ : BufTy).Contents (Elt F) → (⟨S4194304, .i32⟩ : BufTy).Contents (Elt F)),
    binary main_v307 main_v325 main_v326 (addi : (⟨S4194304, .i32⟩ : BufTy).Contents (Elt F) → (⟨S4194304, .i32⟩ : BufTy).Contents (Elt F) → (⟨S4194304, .i32⟩ : BufTy).Contents (Elt F)),
    ternary main_v324 main_v326 main_v307 main_v327 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v312 main_v328 (broadcastInDim S4194304x1 ![0] bcast_S4194304_S4194304x1_0 : (⟨S4194304, .i32⟩ : BufTy).Contents (Elt F) → (⟨S4194304x1, .i32⟩ : BufTy).Contents (Elt F)),
    unary main_v317 main_v329 (broadcastInDim S4194304x1 ![0] bcast_S4194304_S4194304x1_0 : (⟨S4194304, .i32⟩ : BufTy).Contents (Elt F) → (⟨S4194304x1, .i32⟩ : BufTy).Contents (Elt F)),
    unary main_v322 main_v330 (broadcastInDim S4194304x1 ![0] bcast_S4194304_S4194304x1_0 : (⟨S4194304, .i32⟩ : BufTy).Contents (Elt F) → (⟨S4194304x1, .i32⟩ : BufTy).Contents (Elt F)),
    unary main_v327 main_v331 (broadcastInDim S4194304x1 ![0] bcast_S4194304_S4194304x1_0 : (⟨S4194304, .i32⟩ : BufTy).Contents (Elt F) → (⟨S4194304x1, .i32⟩ : BufTy).Contents (Elt F)) ]

set_option maxHeartbeats 4000000 in
abbrev ops7b : List (HloOp τ sig (Elt F)) :=
  [ nary ![main_v328, main_v329, main_v330, main_v331] main_v332 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ]

set_option maxHeartbeats 4000000 in
abbrev ops7c : List (HloOp τ sig (Elt F)) :=
  [ binary main_v66 main_v332 main_v333 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_125 (constant S_ .f32 0x00000000#32),
    TRef.unary (TRef.of (T := ⟨S_, .f32⟩) main_cst_125) (TRef.of (T := ⟨S_, .f32⟩) main_call17_v0) id,
    TRef.unary (TRef.of (T := ⟨S_, .f32⟩) main_call17_v0) (TRef.of (T := ⟨S4194304, .f32⟩) main_call17_v1) (broadcastInDim S4194304 ![] bcast_S_S4194304),
    TRef.ternary (TRef.of (T := ⟨S4194304, .i1⟩) main_v304) (TRef.of (T := ⟨S4194304, .f32⟩) main_v333) (TRef.of (T := ⟨S4194304, .f32⟩) main_call17_v1) (TRef.of (T := ⟨S4194304, .f32⟩) main_v334) select,
    binary main_v281 main_v334 main_v335 (mulf : (⟨S4194304, .f32⟩ : BufTy).Contents (Elt F) → (⟨S4194304, .f32⟩ : BufTy).Contents (Elt F) → (⟨S4194304, .f32⟩ : BufTy).Contents (Elt F)),
    binary main_v279 main_v335 main_v336 (addf : (⟨S4194304, .f32⟩ : BufTy).Contents (Elt F) → (⟨S4194304, .f32⟩ : BufTy).Contents (Elt F) → (⟨S4194304, .f32⟩ : BufTy).Contents (Elt F)),
    nullary main_cst_126 (constant S_ .f32 0x3F800000#32),
    unary main_cst_126 main_v337 (broadcastInDim S4194304 ![] bcast_S_S4194304 : (⟨S_, .f32⟩ : BufTy).Contents (Elt F) → (⟨S4194304, .f32⟩ : BufTy).Contents (Elt F)),
    binary main_v337 main_v95 main_v338 (subf : (⟨S4194304, .f32⟩ : BufTy).Contents (Elt F) → (⟨S4194304, .f32⟩ : BufTy).Contents (Elt F) → (⟨S4194304, .f32⟩ : BufTy).Contents (Elt F)),
    nullary main_cst_127 (constant S_ .f32 0x3F800000#32),
    unary main_cst_127 main_v339 (broadcastInDim S4194304 ![] bcast_S_S4194304 : (⟨S_, .f32⟩ : BufTy).Contents (Elt F) → (⟨S4194304, .f32⟩ : BufTy).Contents (Elt F)),
    binary main_v339 main_v94 main_v340 (subf : (⟨S4194304, .f32⟩ : BufTy).Contents (Elt F) → (⟨S4194304, .f32⟩ : BufTy).Contents (Elt F) → (⟨S4194304, .f32⟩ : BufTy).Contents (Elt F)),
    binary main_v96 main_v338 main_v341 (mulf : (⟨S4194304, .f32⟩ : BufTy).Contents (Elt F) → (⟨S4194304, .f32⟩ : BufTy).Contents (Elt F) → (⟨S4194304, .f32⟩ : BufTy).Contents (Elt F)),
    binary main_v341 main_v340 main_v342 (mulf : (⟨S4194304, .f32⟩ : BufTy).Contents (Elt F) → (⟨S4194304, .f32⟩ : BufTy).Contents (Elt F) → (⟨S4194304, .f32⟩ : BufTy).Contents (Elt F)),
    nullary main_c_128 (constantI S_ 32 1#32),
    unary main_c_128 main_v343 (broadcastInDim S4194304 ![] bcast_S_S4194304 : (⟨S_, .i32⟩ : BufTy).Contents (Elt F) → (⟨S4194304, .i32⟩ : BufTy).Contents (Elt F)),
    binary main_v99 main_v343 main_v344 (addi : (⟨S4194304, .i32⟩ : BufTy).Contents (Elt F) → (⟨S4194304, .i32⟩ : BufTy).Contents (Elt F) → (⟨S4194304, .i32⟩ : BufTy).Contents (Elt F)),
    nullary main_c_129 (constantI S_ 32 0#32),
    unary main_c_129 main_v345 (broadcastInDim S4194304 ![] bcast_S_S4194304 : (⟨S_, .i32⟩ : BufTy).Contents (Elt F) → (⟨S4194304, .i32⟩ : BufTy).Contents (Elt F)),
    binary main_v98 main_v345 main_v346 (addi : (⟨S4194304, .i32⟩ : BufTy).Contents (Elt F) → (⟨S4194304, .i32⟩ : BufTy).Contents (Elt F) → (⟨S4194304, .i32⟩ : BufTy).Contents (Elt F)),
    nullary main_c_130 (constantI S_ 32 0#32) ]

end Cert.AlphaGrid.RefRun

end
-- ==== Proof.RefRunWin7.lean ====
/- Window 7 of the reference's @main: it is the line of its operations (every call it makes unfolds to the callee's operations
   over that call's buffers, and the sequencing reassociates), and running that line carries the boundary facts across: from the
   stages held at the window's start to the stages held at its end. Each buffer the line writes holds its operation's function of
   its operands' contents; those are stages by hypothesis or by the same fact one operation earlier, and a stage is by definition
   its operation applied to its operands' stages. A buffer the line does not write keeps what it held.
   The window holds one concatenate: the line is cut before and after it, and the concatenate, run alone from contents whose four
   operand buffers are at their stages, leaves its result at the concatenate of those stages, which is its own stage. -/
import proofs.«104803_j90202903151142_1_alg».proof.Proof.RefRunOps7
import proofs.«104803_j90202903151142_1_alg».proof.Proof.RefRunInv
import proofs.«104803_j90202903151142_1_alg».proof.Proof.RefRunBase

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part7_eq (c : Dev nD) : main_part7 (F := F) c = seq ops7 := rfl

/-- The window's list in three consecutive pieces: up to the concatenate, the concatenate, the rest. -/
theorem ops7_split : (ops7 : List (HloOp τ sig (Elt F))) = ops7a ++ (ops7b ++ ops7c) := rfl

-- the sorts, gathers and reductions stay folded: the equations below never look inside them
attribute [local irreducible] Host.sort2 Host.gather Host.reduce in
set_option maxRecDepth 8192 in
set_option maxHeartbeats 4000000 in
/-- Across ops7a: the stages held at its start give the stages held at its end. -/
theorem win7a (W : Valuation τ sig (Elt F)) (a0 : FVec F S4194304x3 .f32) (a1 : FVec F S2x3 .f32)
    (a2 : FVec F S256x256x256 .f32) (a3 a4 : FVec F S64x3 .f32) (h : Inv7 W a0 a1 a2 a3 a4) :
    Inv7b (after ops7a W) a0 a1 a2 a3 a4 := by
  unfold Inv7 at h
  unfold Inv7b
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops7b: the stages held at its start give the stages held at its end. -/
theorem win7b (W : Valuation τ sig (Elt F)) (a0 : FVec F S4194304x3 .f32) (a1 : FVec F S2x3 .f32)
    (a2 : FVec F S256x256x256 .f32) (a3 a4 : FVec F S64x3 .f32) (h : Inv7b W a0 a1 a2 a3 a4) :
    Inv7c (after ops7b W) a0 a1 a2 a3 a4 := by
  unfold Inv7b at h
  unfold Inv7c
  have h0 : W (main_v328 : DevRef τ sig) = r_v328 a0 a1 a2 a3 a4 := by simp only [h]
  have h1 : W (main_v329 : DevRef τ sig) = r_v329 a0 a1 a2 a3 a4 := by simp only [h]
  have h2 : W (main_v330 : DevRef τ sig) = r_v330 a0 a1 a2 a3 a4 := by simp only [h]
  have h3 : W (main_v331 : DevRef τ sig) = r_v331 a0 a1 a2 a3 a4 := by simp only [h]
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)
    | exact (nary4_chunk _ _ _ W h0 h1 h2 h3).trans rfl

-- the sorts, gathers and reductions stay folded: the equations below never look inside them
attribute [local irreducible] Host.sort2 Host.gather Host.reduce in
set_option maxRecDepth 8192 in
set_option maxHeartbeats 4000000 in
/-- Across ops7c: the stages held at its start give the stages held at its end. -/
theorem win7c (W : Valuation τ sig (Elt F)) (a0 : FVec F S4194304x3 .f32) (a1 : FVec F S2x3 .f32)
    (a2 : FVec F S256x256x256 .f32) (a3 a4 : FVec F S64x3 .f32) (h : Inv7c W a0 a1 a2 a3 a4) :
    Inv8 (after ops7c W) a0 a1 a2 a3 a4 := by
  unfold Inv7c at h
  unfold Inv8
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

/-- Across the whole window. -/
theorem win7 (W : Valuation τ sig (Elt F)) (a0 : FVec F S4194304x3 .f32) (a1 : FVec F S2x3 .f32)
    (a2 : FVec F S256x256x256 .f32) (a3 a4 : FVec F S64x3 .f32) (h : Inv7 W a0 a1 a2 a3 a4) :
    Inv8 (after ops7 W) a0 a1 a2 a3 a4 := by
  rw [ops7_split, after_append, after_append]
  exact win7c _ _ _ _ _ _ (win7b _ _ _ _ _ _ (win7a _ _ _ _ _ _ h))

end Cert.AlphaGrid.RefRun

end
-- ==== Proof.RefRunOps8.lean ====
/- The operations 556 … 630 of the reference (of 941, calls unfolded at their sites), in order: the window main_part8 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops8 : List (HloOp τ sig (Elt F)) :=
  [ unary main_c_130 main_v347 (broadcastInDim S4194304 ![] bcast_S_S4194304 : (⟨S_, .i32⟩ : BufTy).Contents (Elt F) → (⟨S4194304, .i32⟩ : BufTy).Contents (Elt F)),
    binary main_v97 main_v347 main_v348 (addi : (⟨S4194304, .i32⟩ : BufTy).Contents (Elt F) → (⟨S4194304, .i32⟩ : BufTy).Contents (Elt F) → (⟨S4194304, .i32⟩ : BufTy).Contents (Elt F)),
    nullary main_c_131 (constantI S_ 32 0#32),
    unary main_c_131 main_v349 (broadcastInDim S4194304 ![] bcast_S_S4194304 : (⟨S_, .i32⟩ : BufTy).Contents (Elt F) → (⟨S4194304, .i32⟩ : BufTy).Contents (Elt F)),
    binary main_v344 main_v349 main_v350 (cmpi .sge : (⟨S4194304, .i32⟩ : BufTy).Contents (Elt F) → (⟨S4194304, .i32⟩ : BufTy).Contents (Elt F) → (⟨S4194304, .i1⟩ : BufTy).Contents (Elt F)),
    nullary main_c_132 (constantI S_ 32 64#32),
    unary main_c_132 main_v351 (broadcastInDim S4194304 ![] bcast_S_S4194304 : (⟨S_, .i32⟩ : BufTy).Contents (Elt F) → (⟨S4194304, .i32⟩ : BufTy).Contents (Elt F)),
    binary main_v344 main_v351 main_v352 (cmpi .slt : (⟨S4194304, .i32⟩ : BufTy).Contents (Elt F) → (⟨S4194304, .i32⟩ : BufTy).Contents (Elt F) → (⟨S4194304, .i1⟩ : BufTy).Contents (Elt F)),
    binary main_v350 main_v352 main_v353 (andi : (⟨S4194304, .i1⟩ : BufTy).Contents (Elt F) → (⟨S4194304, .i1⟩ : BufTy).Contents (Elt F) → (⟨S4194304, .i1⟩ : BufTy).Contents (Elt F)),
    nullary main_c_133 (constantI S_ 32 0#32),
    unary main_c_133 main_v354 (broadcastInDim S4194304 ![] bcast_S_S4194304 : (⟨S_, .i32⟩ : BufTy).Contents (Elt F) → (⟨S4194304, .i32⟩ : BufTy).Contents (Elt F)),
    binary main_v346 main_v354 main_v355 (cmpi .sge : (⟨S4194304, .i32⟩ : BufTy).Contents (Elt F) → (⟨S4194304, .i32⟩ : BufTy).Contents (Elt F) → (⟨S4194304, .i1⟩ : BufTy).Contents (Elt F)),
    binary main_v353 main_v355 main_v356 (andi : (⟨S4194304, .i1⟩ : BufTy).Contents (Elt F) → (⟨S4194304, .i1⟩ : BufTy).Contents (Elt F) → (⟨S4194304, .i1⟩ : BufTy).Contents (Elt F)),
    nullary main_c_134 (constantI S_ 32 64#32),
    unary main_c_134 main_v357 (broadcastInDim S4194304 ![] bcast_S_S4194304 : (⟨S_, .i32⟩ : BufTy).Contents (Elt F) → (⟨S4194304, .i32⟩ : BufTy).Contents (Elt F)),
    binary main_v346 main_v357 main_v358 (cmpi .slt : (⟨S4194304, .i32⟩ : BufTy).Contents (Elt F) → (⟨S4194304, .i32⟩ : BufTy).Contents (Elt F) → (⟨S4194304, .i1⟩ : BufTy).Contents (Elt F)),
    binary main_v356 main_v358 main_v359 (andi : (⟨S4194304, .i1⟩ : BufTy).Contents (Elt F) → (⟨S4194304, .i1⟩ : BufTy).Contents (Elt F) → (⟨S4194304, .i1⟩ : BufTy).Contents (Elt F)),
    nullary main_c_135 (constantI S_ 32 0#32),
    unary main_c_135 main_v360 (broadcastInDim S4194304 ![] bcast_S_S4194304 : (⟨S_, .i32⟩ : BufTy).Contents (Elt F) → (⟨S4194304, .i32⟩ : BufTy).Contents (Elt F)),
    binary main_v348 main_v360 main_v361 (cmpi .sge : (⟨S4194304, .i32⟩ : BufTy).Contents (Elt F) → (⟨S4194304, .i32⟩ : BufTy).Contents (Elt F) → (⟨S4194304, .i1⟩ : BufTy).Contents (Elt F)),
    binary main_v359 main_v361 main_v362 (andi : (⟨S4194304, .i1⟩ : BufTy).Contents (Elt F) → (⟨S4194304, .i1⟩ : BufTy).Contents (Elt F) → (⟨S4194304, .i1⟩ : BufTy).Contents (Elt F)),
    nullary main_c_136 (constantI S_ 32 64#32),
    unary main_c_136 main_v363 (broadcastInDim S4194304 ![] bcast_S_S4194304 : (⟨S_, .i32⟩ : BufTy).Contents (Elt F) → (⟨S4194304, .i32⟩ : BufTy).Contents (Elt F)),
    binary main_v348 main_v363 main_v364 (cmpi .slt : (⟨S4194304, .i32⟩ : BufTy).Contents (Elt F) → (⟨S4194304, .i32⟩ : BufTy).Contents (Elt F) → (⟨S4194304, .i1⟩ : BufTy).Contents (Elt F)),
    binary main_v362 main_v364 main_v365 (andi : (⟨S4194304, .i1⟩ : BufTy).Contents (Elt F) → (⟨S4194304, .i1⟩ : BufTy).Contents (Elt F) → (⟨S4194304, .i1⟩ : BufTy).Contents (Elt F)),
    nullary main_c_137 (constantI S_ 32 0#32),
    nullary main_c_138 (constantI S_ 32 63#32),
    TRef.unary (TRef.of (T := ⟨S_, .i32⟩) main_c_137) (TRef.of (T := ⟨S_, .i32⟩) main_call18_v0) id,
    TRef.unary (TRef.of (T := ⟨S_, .i32⟩) main_call18_v0) (TRef.of (T := ⟨S4194304, .i32⟩) main_call18_v1) (broadcastInDim S4194304 ![] bcast_S_S4194304),
    TRef.binary (TRef.of (T := ⟨S4194304, .i32⟩) main_call18_v1) (TRef.of (T := ⟨S4194304, .i32⟩) main_v344) (TRef.of (T := ⟨S4194304, .i32⟩) main_call18_v2) maxsi,
    TRef.unary (TRef.of (T := ⟨S_, .i32⟩) main_c_138) (TRef.of (T := ⟨S_, .i32⟩) main_call18_v3) id,
    TRef.unary (TRef.of (T := ⟨S_, .i32⟩) main_call18_v3) (TRef.of (T := ⟨S4194304, .i32⟩) main_call18_v4) (broadcastInDim S4194304 ![] bcast_S_S4194304),
    TRef.binary (TRef.of (T := ⟨S4194304, .i32⟩) main_call18_v4) (TRef.of (T := ⟨S4194304, .i32⟩) main_call18_v2) (TRef.of (T := ⟨S4194304, .i32⟩) main_v366) minsi,
    nullary main_c_139 (constantI S_ 32 0#32),
    nullary main_c_140 (constantI S_ 32 63#32),
    TRef.unary (TRef.of (T := ⟨S_, .i32⟩) main_c_139) (TRef.of (T := ⟨S_, .i32⟩) main_call19_v0) id,
    TRef.unary (TRef.of (T := ⟨S_, .i32⟩) main_call19_v0) (TRef.of (T := ⟨S4194304, .i32⟩) main_call19_v1) (broadcastInDim S4194304 ![] bcast_S_S4194304),
    TRef.binary (TRef.of (T := ⟨S4194304, .i32⟩) main_call19_v1) (TRef.of (T := ⟨S4194304, .i32⟩) main_v346) (TRef.of (T := ⟨S4194304, .i32⟩) main_call19_v2) maxsi,
    TRef.unary (TRef.of (T := ⟨S_, .i32⟩) main_c_140) (TRef.of (T := ⟨S_, .i32⟩) main_call19_v3) id,
    TRef.unary (TRef.of (T := ⟨S_, .i32⟩) main_call19_v3) (TRef.of (T := ⟨S4194304, .i32⟩) main_call19_v4) (broadcastInDim S4194304 ![] bcast_S_S4194304),
    TRef.binary (TRef.of (T := ⟨S4194304, .i32⟩) main_call19_v4) (TRef.of (T := ⟨S4194304, .i32⟩) main_call19_v2) (TRef.of (T := ⟨S4194304, .i32⟩) main_v367) minsi,
    nullary main_c_141 (constantI S_ 32 0#32),
    nullary main_c_142 (constantI S_ 32 63#32),
    TRef.unary (TRef.of (T := ⟨S_, .i32⟩) main_c_141) (TRef.of (T := ⟨S_, .i32⟩) main_call20_v0) id,
    TRef.unary (TRef.of (T := ⟨S_, .i32⟩) main_call20_v0) (TRef.of (T := ⟨S4194304, .i32⟩) main_call20_v1) (broadcastInDim S4194304 ![] bcast_S_S4194304),
    TRef.binary (TRef.of (T := ⟨S4194304, .i32⟩) main_call20_v1) (TRef.of (T := ⟨S4194304, .i32⟩) main_v348) (TRef.of (T := ⟨S4194304, .i32⟩) main_call20_v2) maxsi,
    TRef.unary (TRef.of (T := ⟨S_, .i32⟩) main_c_142) (TRef.of (T := ⟨S_, .i32⟩) main_call20_v3) id,
    TRef.unary (TRef.of (T := ⟨S_, .i32⟩) main_call20_v3) (TRef.of (T := ⟨S4194304, .i32⟩) main_call20_v4) (broadcastInDim S4194304 ![] bcast_S_S4194304),
    TRef.binary (TRef.of (T := ⟨S4194304, .i32⟩) main_call20_v4) (TRef.of (T := ⟨S4194304, .i32⟩) main_call20_v2) (TRef.of (T := ⟨S4194304, .i32⟩) main_v368) minsi,
    nullary main_c_143 (constantI S_ 32 0#32),
    unary main_c_143 main_v369 (broadcastInDim S4194304 ![] bcast_S_S4194304 : (⟨S_, .i32⟩ : BufTy).Contents (Elt F) → (⟨S4194304, .i32⟩ : BufTy).Contents (Elt F)),
    binary main_v30 main_v369 main_v370 (cmpi .slt : (⟨S4194304, .i32⟩ : BufTy).Contents (Elt F) → (⟨S4194304, .i32⟩ : BufTy).Contents (Elt F) → (⟨S4194304, .i1⟩ : BufTy).Contents (Elt F)),
    nullary main_c_144 (constantI S_ 32 64#32),
    unary main_c_144 main_v371 (broadcastInDim S4194304 ![] bcast_S_S4194304 : (⟨S_, .i32⟩ : BufTy).Contents (Elt F) → (⟨S4194304, .i32⟩ : BufTy).Contents (Elt F)),
    binary main_v30 main_v371 main_v372 (addi : (⟨S4194304, .i32⟩ : BufTy).Contents (Elt F) → (⟨S4194304, .i32⟩ : BufTy).Contents (Elt F) → (⟨S4194304, .i32⟩ : BufTy).Contents (Elt F)),
    ternary main_v370 main_v372 main_v30 main_v373 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_145 (constantI S_ 32 0#32),
    unary main_c_145 main_v374 (broadcastInDim S4194304 ![] bcast_S_S4194304 : (⟨S_, .i32⟩ : BufTy).Contents (Elt F) → (⟨S4194304, .i32⟩ : BufTy).Contents (Elt F)),
    binary main_v366 main_v374 main_v375 (cmpi .slt : (⟨S4194304, .i32⟩ : BufTy).Contents (Elt F) → (⟨S4194304, .i32⟩ : BufTy).Contents (Elt F) → (⟨S4194304, .i1⟩ : BufTy).Contents (Elt F)),
    nullary main_c_146 (constantI S_ 32 64#32),
    unary main_c_146 main_v376 (broadcastInDim S4194304 ![] bcast_S_S4194304 : (⟨S_, .i32⟩ : BufTy).Contents (Elt F) → (⟨S4194304, .i32⟩ : BufTy).Contents (Elt F)),
    binary main_v366 main_v376 main_v377 (addi : (⟨S4194304, .i32⟩ : BufTy).Contents (Elt F) → (⟨S4194304, .i32⟩ : BufTy).Contents (Elt F) → (⟨S4194304, .i32⟩ : BufTy).Contents (Elt F)),
    ternary main_v375 main_v377 main_v366 main_v378 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_147 (constantI S_ 32 0#32),
    unary main_c_147 main_v379 (broadcastInDim S4194304 ![] bcast_S_S4194304 : (⟨S_, .i32⟩ : BufTy).Contents (Elt F) → (⟨S4194304, .i32⟩ : BufTy).Contents (Elt F)),
    binary main_v367 main_v379 main_v380 (cmpi .slt : (⟨S4194304, .i32⟩ : BufTy).Contents (Elt F) → (⟨S4194304, .i32⟩ : BufTy).Contents (Elt F) → (⟨S4194304, .i1⟩ : BufTy).Contents (Elt F)),
    nullary main_c_148 (constantI S_ 32 64#32),
    unary main_c_148 main_v381 (broadcastInDim S4194304 ![] bcast_S_S4194304 : (⟨S_, .i32⟩ : BufTy).Contents (Elt F) → (⟨S4194304, .i32⟩ : BufTy).Contents (Elt F)),
    binary main_v367 main_v381 main_v382 (addi : (⟨S4194304, .i32⟩ : BufTy).Contents (Elt F) → (⟨S4194304, .i32⟩ : BufTy).Contents (Elt F) → (⟨S4194304, .i32⟩ : BufTy).Contents (Elt F)),
    ternary main_v380 main_v382 main_v367 main_v383 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_149 (constantI S_ 32 0#32),
    unary main_c_149 main_v384 (broadcastInDim S4194304 ![] bcast_S_S4194304 : (⟨S_, .i32⟩ : BufTy).Contents (Elt F) → (⟨S4194304, .i32⟩ : BufTy).Contents (Elt F)),
    binary main_v368 main_v384 main_v385 (cmpi .slt : (⟨S4194304, .i32⟩ : BufTy).Contents (Elt F) → (⟨S4194304, .i32⟩ : BufTy).Contents (Elt F) → (⟨S4194304, .i1⟩ : BufTy).Contents (Elt F)),
    nullary main_c_150 (constantI S_ 32 64#32),
    unary main_c_150 main_v386 (broadcastInDim S4194304 ![] bcast_S_S4194304 : (⟨S_, .i32⟩ : BufTy).Contents (Elt F) → (⟨S4194304, .i32⟩ : BufTy).Contents (Elt F)) ]

theorem ops8_sub : (ops8 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.AlphaGrid.RefRun

end
-- ==== Proof.RefRunWin8.lean ====
/- Window 8 of the reference's @main: it is the line of its operations (every call it makes unfolds to the callee's operations
   over that call's buffers, and the sequencing reassociates), and running that line carries the boundary facts across: from the
   stages held at the window's start to the stages held at its end. Each buffer the window writes holds its operation's function of
   its operands' contents; those are stages by hypothesis or by the same fact one operation earlier, and a stage is by definition
   its operation applied to its operands' stages. A buffer the window does not write keeps what it held. -/
import proofs.«104803_j90202903151142_1_alg».proof.Proof.RefRunOps8
import proofs.«104803_j90202903151142_1_alg».proof.Proof.RefRunInv

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part8_eq (c : Dev nD) : main_part8 (F := F) c = seq ops8 := rfl

-- the sorts, gathers, reductions and concatenations stay folded: the equations below never look inside them
attribute [local irreducible] Host.sort2 Host.gather Host.reduce concatenate in
set_option maxRecDepth 8192 in
set_option maxHeartbeats 4000000 in
/-- Across the window: the stages held at its start give the stages held at its end. -/
theorem win8 (W : Valuation τ sig (Elt F)) (a0 : FVec F S4194304x3 .f32) (a1 : FVec F S2x3 .f32)
    (a2 : FVec F S256x256x256 .f32) (a3 a4 : FVec F S64x3 .f32) (h : Inv8 W a0 a1 a2 a3 a4) :
    Inv9 (after ops8 W) a0 a1 a2 a3 a4 := by
  unfold Inv8 at h
  unfold Inv9
  repeat' apply And.intro
  all_goals
    simp (disch := decide) only [after_cons, after_nil,
      nullary_result', unary_result', binary_result', ternary_result', reshape_result', nary4_result',
      nullary_result_ne', unary_result_ne', binary_result_ne', ternary_result_ne', reshape_result_ne', nary_result_ne']
    try simp only [h]
    try rfl

end Cert.AlphaGrid.RefRun

end
-- ==== Proof.RefRunOps9.lean ====
/- The operations 631 … 707 of the reference (of 941, calls unfolded at their sites), in order: the window main_part9 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops9 : List (HloOp τ sig (Elt F)) :=
  [ binary main_v368 main_v386 main_v387 (addi : (⟨S4194304, .i32⟩ : BufTy).Contents (Elt F) → (⟨S4194304, .i32⟩ : BufTy).Contents (Elt F) → (⟨S4194304, .i32⟩ : BufTy).Contents (Elt F)),
    ternary main_v385 main_v387 main_v368 main_v388 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v373 main_v389 (broadcastInDim S4194304x1 ![0] bcast_S4194304_S4194304x1_0 : (⟨S4194304, .i32⟩ : BufTy).Contents (Elt F) → (⟨S4194304x1, .i32⟩ : BufTy).Contents (Elt F)),
    unary main_v378 main_v390 (broadcastInDim S4194304x1 ![0] bcast_S4194304_S4194304x1_0 : (⟨S4194304, .i32⟩ : BufTy).Contents (Elt F) → (⟨S4194304x1, .i32⟩ : BufTy).Contents (Elt F)),
    unary main_v383 main_v391 (broadcastInDim S4194304x1 ![0] bcast_S4194304_S4194304x1_0 : (⟨S4194304, .i32⟩ : BufTy).Contents (Elt F) → (⟨S4194304x1, .i32⟩ : BufTy).Contents (Elt F)),
    unary main_v388 main_v392 (broadcastInDim S4194304x1 ![0] bcast_S4194304_S4194304x1_0 : (⟨S4194304, .i32⟩ : BufTy).Contents (Elt F) → (⟨S4194304x1, .i32⟩ : BufTy).Contents (Elt F)),
    nary ![main_v389, main_v390, main_v391, main_v392] main_v393 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1),
    binary main_v66 main_v393 main_v394 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_151 (constant S_ .f32 0x00000000#32),
    TRef.unary (TRef.of (T := ⟨S_, .f32⟩) main_cst_151) (TRef.of (T := ⟨S_, .f32⟩) main_call21_v0) id,
    TRef.unary (TRef.of (T := ⟨S_, .f32⟩) main_call21_v0) (TRef.of (T := ⟨S4194304, .f32⟩) main_call21_v1) (broadcastInDim S4194304 ![] bcast_S_S4194304),
    TRef.ternary (TRef.of (T := ⟨S4194304, .i1⟩) main_v365) (TRef.of (T := ⟨S4194304, .f32⟩) main_v394) (TRef.of (T := ⟨S4194304, .f32⟩) main_call21_v1) (TRef.of (T := ⟨S4194304, .f32⟩) main_v395) select,
    binary main_v342 main_v395 main_v396 (mulf : (⟨S4194304, .f32⟩ : BufTy).Contents (Elt F) → (⟨S4194304, .f32⟩ : BufTy).Contents (Elt F) → (⟨S4194304, .f32⟩ : BufTy).Contents (Elt F)),
    binary main_v336 main_v396 main_v397 (addf : (⟨S4194304, .f32⟩ : BufTy).Contents (Elt F) → (⟨S4194304, .f32⟩ : BufTy).Contents (Elt F) → (⟨S4194304, .f32⟩ : BufTy).Contents (Elt F)),
    binary main_v96 main_v338 main_v398 (mulf : (⟨S4194304, .f32⟩ : BufTy).Contents (Elt F) → (⟨S4194304, .f32⟩ : BufTy).Contents (Elt F) → (⟨S4194304, .f32⟩ : BufTy).Contents (Elt F)),
    binary main_v398 main_v94 main_v399 (mulf : (⟨S4194304, .f32⟩ : BufTy).Contents (Elt F) → (⟨S4194304, .f32⟩ : BufTy).Contents (Elt F) → (⟨S4194304, .f32⟩ : BufTy).Contents (Elt F)),
    nullary main_c_152 (constantI S_ 32 1#32),
    unary main_c_152 main_v400 (broadcastInDim S4194304 ![] bcast_S_S4194304 : (⟨S_, .i32⟩ : BufTy).Contents (Elt F) → (⟨S4194304, .i32⟩ : BufTy).Contents (Elt F)),
    binary main_v99 main_v400 main_v401 (addi : (⟨S4194304, .i32⟩ : BufTy).Contents (Elt F) → (⟨S4194304, .i32⟩ : BufTy).Contents (Elt F) → (⟨S4194304, .i32⟩ : BufTy).Contents (Elt F)),
    nullary main_c_153 (constantI S_ 32 0#32),
    unary main_c_153 main_v402 (broadcastInDim S4194304 ![] bcast_S_S4194304 : (⟨S_, .i32⟩ : BufTy).Contents (Elt F) → (⟨S4194304, .i32⟩ : BufTy).Contents (Elt F)),
    binary main_v98 main_v402 main_v403 (addi : (⟨S4194304, .i32⟩ : BufTy).Contents (Elt F) → (⟨S4194304, .i32⟩ : BufTy).Contents (Elt F) → (⟨S4194304, .i32⟩ : BufTy).Contents (Elt F)),
    nullary main_c_154 (constantI S_ 32 1#32),
    unary main_c_154 main_v404 (broadcastInDim S4194304 ![] bcast_S_S4194304 : (⟨S_, .i32⟩ : BufTy).Contents (Elt F) → (⟨S4194304, .i32⟩ : BufTy).Contents (Elt F)),
    binary main_v97 main_v404 main_v405 (addi : (⟨S4194304, .i32⟩ : BufTy).Contents (Elt F) → (⟨S4194304, .i32⟩ : BufTy).Contents (Elt F) → (⟨S4194304, .i32⟩ : BufTy).Contents (Elt F)),
    nullary main_c_155 (constantI S_ 32 0#32),
    unary main_c_155 main_v406 (broadcastInDim S4194304 ![] bcast_S_S4194304 : (⟨S_, .i32⟩ : BufTy).Contents (Elt F) → (⟨S4194304, .i32⟩ : BufTy).Contents (Elt F)),
    binary main_v401 main_v406 main_v407 (cmpi .sge : (⟨S4194304, .i32⟩ : BufTy).Contents (Elt F) → (⟨S4194304, .i32⟩ : BufTy).Contents (Elt F) → (⟨S4194304, .i1⟩ : BufTy).Contents (Elt F)),
    nullary main_c_156 (constantI S_ 32 64#32),
    unary main_c_156 main_v408 (broadcastInDim S4194304 ![] bcast_S_S4194304 : (⟨S_, .i32⟩ : BufTy).Contents (Elt F) → (⟨S4194304, .i32⟩ : BufTy).Contents (Elt F)),
    binary main_v401 main_v408 main_v409 (cmpi .slt : (⟨S4194304, .i32⟩ : BufTy).Contents (Elt F) → (⟨S4194304, .i32⟩ : BufTy).Contents (Elt F) → (⟨S4194304, .i1⟩ : BufTy).Contents (Elt F)),
    binary main_v407 main_v409 main_v410 (andi : (⟨S4194304, .i1⟩ : BufTy).Contents (Elt F) → (⟨S4194304, .i1⟩ : BufTy).Contents (Elt F) → (⟨S4194304, .i1⟩ : BufTy).Contents (Elt F)),
    nullary main_c_157 (constantI S_ 32 0#32),
    unary main_c_157 main_v411 (broadcastInDim S4194304 ![] bcast_S_S4194304 : (⟨S_, .i32⟩ : BufTy).Contents (Elt F) → (⟨S4194304, .i32⟩ : BufTy).Contents (Elt F)),
    binary main_v403 main_v411 main_v412 (cmpi .sge : (⟨S4194304, .i32⟩ : BufTy).Contents (Elt F) → (⟨S4194304, .i32⟩ : BufTy).Contents (Elt F) → (⟨S4194304, .i1⟩ : BufTy).Contents (Elt F)),
    binary main_v410 main_v412 main_v413 (andi : (⟨S4194304, .i1⟩ : BufTy).Contents (Elt F) → (⟨S4194304, .i1⟩ : BufTy).Contents (Elt F) → (⟨S4194304, .i1⟩ : BufTy).Contents (Elt F)),
    nullary main_c_158 (constantI S_ 32 64#32),
    unary main_c_158 main_v414 (broadcastInDim S4194304 ![] bcast_S_S4194304 : (⟨S_, .i32⟩ : BufTy).Contents (Elt F) → (⟨S4194304, .i32⟩ : BufTy).Contents (Elt F)),
    binary main_v403 main_v414 main_v415 (cmpi .slt : (⟨S4194304, .i32⟩ : BufTy).Contents (Elt F) → (⟨S4194304, .i32⟩ : BufTy).Contents (Elt F) → (⟨S4194304, .i1⟩ : BufTy).Contents (Elt F)),
    binary main_v413 main_v415 main_v416 (andi : (⟨S4194304, .i1⟩ : BufTy).Contents (Elt F) → (⟨S4194304, .i1⟩ : BufTy).Contents (Elt F) → (⟨S4194304, .i1⟩ : BufTy).Contents (Elt F)),
    nullary main_c_159 (constantI S_ 32 0#32),
    unary main_c_159 main_v417 (broadcastInDim S4194304 ![] bcast_S_S4194304 : (⟨S_, .i32⟩ : BufTy).Contents (Elt F) → (⟨S4194304, .i32⟩ : BufTy).Contents (Elt F)),
    binary main_v405 main_v417 main_v418 (cmpi .sge : (⟨S4194304, .i32⟩ : BufTy).Contents (Elt F) → (⟨S4194304, .i32⟩ : BufTy).Contents (Elt F) → (⟨S4194304, .i1⟩ : BufTy).Contents (Elt F)),
    binary main_v416 main_v418 main_v419 (andi : (⟨S4194304, .i1⟩ : BufTy).Contents (Elt F) → (⟨S4194304, .i1⟩ : BufTy).Contents (Elt F) → (⟨S4194304, .i1⟩ : BufTy).Contents (Elt F)),
    nullary main_c_160 (constantI S_ 32 64#32),
    unary main_c_160 main_v420 (broadcastInDim S4194304 ![] bcast_S_S4194304 : (⟨S_, .i32⟩ : BufTy).Contents (Elt F) → (⟨S4194304, .i32⟩ : BufTy).Contents (Elt F)),
    binary main_v405 main_v420 main_v421 (cmpi .slt : (⟨S4194304, .i32⟩ : BufTy).Contents (Elt F) → (⟨S4194304, .i32⟩ : BufTy).Contents (Elt F) → (⟨S4194304, .i1⟩ : BufTy).Contents (Elt F)),
    binary main_v419 main_v421 main_v422 (andi : (⟨S4194304, .i1⟩ : BufTy).Contents (Elt F) → (⟨S4194304, .i1⟩ : BufTy).Contents (Elt F) → (⟨S4194304, .i1⟩ : BufTy).Contents (Elt F)),
    nullary main_c_161 (constantI S_ 32 0#32),
    nullary main_c_162 (constantI S_ 32 63#32),
    TRef.unary (TRef.of (T := ⟨S_, .i32⟩) main_c_161) (TRef.of (T := ⟨S_, .i32⟩) main_call22_v0) id,
    TRef.unary (TRef.of (T := ⟨S_, .i32⟩) main_call22_v0) (TRef.of (T := ⟨S4194304, .i32⟩) main_call22_v1) (broadcastInDim S4194304 ![] bcast_S_S4194304),
    TRef.binary (TRef.of (T := ⟨S4194304, .i32⟩) main_call22_v1) (TRef.of (T := ⟨S4194304, .i32⟩) main_v401) (TRef.of (T := ⟨S4194304, .i32⟩) main_call22_v2) maxsi,
    TRef.unary (TRef.of (T := ⟨S_, .i32⟩) main_c_162) (TRef.of (T := ⟨S_, .i32⟩) main_call22_v3) id,
    TRef.unary (TRef.of (T := ⟨S_, .i32⟩) main_call22_v3) (TRef.of (T := ⟨S4194304, .i32⟩) main_call22_v4) (broadcastInDim S4194304 ![] bcast_S_S4194304),
    TRef.binary (TRef.of (T := ⟨S4194304, .i32⟩) main_call22_v4) (TRef.of (T := ⟨S4194304, .i32⟩) main_call22_v2) (TRef.of (T := ⟨S4194304, .i32⟩) main_v423) minsi,
    nullary main_c_163 (constantI S_ 32 0#32),
    nullary main_c_164 (constantI S_ 32 63#32),
    TRef.unary (TRef.of (T := ⟨S_, .i32⟩) main_c_163) (TRef.of (T := ⟨S_, .i32⟩) main_call23_v0) id,
    TRef.unary (TRef.of (T := ⟨S_, .i32⟩) main_call23_v0) (TRef.of (T := ⟨S4194304, .i32⟩) main_call23_v1) (broadcastInDim S4194304 ![] bcast_S_S4194304),
    TRef.binary (TRef.of (T := ⟨S4194304, .i32⟩) main_call23_v1) (TRef.of (T := ⟨S4194304, .i32⟩) main_v403) (TRef.of (T := ⟨S4194304, .i32⟩) main_call23_v2) maxsi,
    TRef.unary (TRef.of (T := ⟨S_, .i32⟩) main_c_164) (TRef.of (T := ⟨S_, .i32⟩) main_call23_v3) id,
    TRef.unary (TRef.of (T := ⟨S_, .i32⟩) main_call23_v3) (TRef.of (T := ⟨S4194304, .i32⟩) main_call23_v4) (broadcastInDim S4194304 ![] bcast_S_S4194304),
    TRef.binary (TRef.of (T := ⟨S4194304, .i32⟩) main_call23_v4) (TRef.of (T := ⟨S4194304, .i32⟩) main_call23_v2) (TRef.of (T := ⟨S4194304, .i32⟩) main_v424) minsi,
    nullary main_c_165 (constantI S_ 32 0#32),
    nullary main_c_166 (constantI S_ 32 63#32),
    TRef.unary (TRef.of (T := ⟨S_, .i32⟩) main_c_165) (TRef.of (T := ⟨S_, .i32⟩) main_call24_v0) id,
    TRef.unary (TRef.of (T := ⟨S_, .i32⟩) main_call24_v0) (TRef.of (T := ⟨S4194304, .i32⟩) main_call24_v1) (broadcastInDim S4194304 ![] bcast_S_S4194304),
    TRef.binary (TRef.of (T := ⟨S4194304, .i32⟩) main_call24_v1) (TRef.of (T := ⟨S4194304, .i32⟩) main_v405) (TRef.of (T := ⟨S4194304, .i32⟩) main_call24_v2) maxsi,
    TRef.unary (TRef.of (T := ⟨S_, .i32⟩) main_c_166) (TRef.of (T := ⟨S_, .i32⟩) main_call24_v3) id,
    TRef.unary (TRef.of (T := ⟨S_, .i32⟩) main_call24_v3) (TRef.of (T := ⟨S4194304, .i32⟩) main_call24_v4) (broadcastInDim S4194304 ![] bcast_S_S4194304),
    TRef.binary (TRef.of (T := ⟨S4194304, .i32⟩) main_call24_v4) (TRef.of (T := ⟨S4194304, .i32⟩) main_call24_v2) (TRef.of (T := ⟨S4194304, .i32⟩) main_v425) minsi,
    nullary main_c_167 (constantI S_ 32 0#32),
    unary main_c_167 main_v426 (broadcastInDim S4194304 ![] bcast_S_S4194304 : (⟨S_, .i32⟩ : BufTy).Contents (Elt F) → (⟨S4194304, .i32⟩ : BufTy).Contents (Elt F)),
    binary main_v30 main_v426 main_v427 (cmpi .slt : (⟨S4194304, .i32⟩ : BufTy).Contents (Elt F) → (⟨S4194304, .i32⟩ : BufTy).Contents (Elt F) → (⟨S4194304, .i1⟩ : BufTy).Contents (Elt F)),
    nullary main_c_168 (constantI S_ 32 64#32),
    unary main_c_168 main_v428 (broadcastInDim S4194304 ![] bcast_S_S4194304 : (⟨S_, .i32⟩ : BufTy).Contents (Elt F) → (⟨S4194304, .i32⟩ : BufTy).Contents (Elt F)) ]

theorem ops9_sub : (ops9 : List (HloOp τ sig (Elt F))).Forall fun op => op.bufs ⊆ tcRefs τ sig :=
  ⟨binary_bufs_sub .., ternary_bufs_sub .., unary_bufs_sub .., unary_bufs_sub .., unary_bufs_sub .., unary_bufs_sub .., nary_bufs_sub .., binary_bufs_sub .., nullary_bufs_sub .., unary_bufs_sub .., unary_bufs_sub .., ternary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub ..⟩

theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
abbrev ops9a : List (HloOp τ sig (Elt F)) :=
  [ binary main_v368 main_v386 main_v387 (addi : (⟨S4194304, .i32⟩ : BufTy).Contents (Elt F) → (⟨S4194304, .i32⟩ : BufTy).Contents (Elt F) → (⟨S4194304, .i32⟩ : BufTy).Contents (Elt F)),
    ternary main_v385 main_v387 main_v368 main_v388 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v373 main_v389 (broadcastInDim S4194304x1 ![0] bcast_S4194304_S4194304x1_0 : (⟨S4194304, .i32⟩ : BufTy).Contents (Elt F) → (⟨S4194304x1, .i32⟩ : BufTy).Contents (Elt F)),
    unary main_v378 main_v390 (broadcastInDim S4194304x1 ![0] bcast_S4194304_S4194304x1_0 : (⟨S4194304, .i32⟩ : BufTy).Contents (Elt F) → (⟨S4194304x1, .i32⟩ : BufTy).Contents (Elt F)),
    unary main_v383 main_v391 (broadcastInDim S4194304x1 ![0] bcast_S4194304_S4194304x1_0 : (⟨S4194304, .i32⟩ : BufTy).Contents (Elt F) → (⟨S4194304x1, .i32⟩ : BufTy).Contents (Elt F)),
    unary main_v388 main_v392 (broadcastInDim S4194304x1 ![0] bcast_S4194304_S4194304x1_0 : (⟨S4194304, .i32⟩ : BufTy).Contents (Elt F) → (⟨S4194304x1, .i32⟩ : BufTy).Contents (Elt F)) ]

set_option maxHeartbeats 4000000 in
abbrev ops9b : List (HloOp τ sig (Elt F)) :=
  [ nary ![main_v389, main_v390, main_v391, main_v392] main_v393 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ]

set_option maxHeartbeats 4000000 in
abbrev ops9c : List (HloOp τ sig (Elt F)) :=
  [ binary main_v66 main_v393 main_v394 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_151 (constant S_ .f32 0x00000000#32),
    TRef.unary (TRef.of (T := ⟨S_, .f32⟩) main_cst_151) (TRef.of (T := ⟨S_, .f32⟩) main_call21_v0) id,
    TRef.unary (TRef.of (T := ⟨S_, .f32⟩) main_call21_v0) (TRef.of (T := ⟨S4194304, .f32⟩) main_call21_v1) (broadcastInDim S4194304 ![] bcast_S_S4194304),
    TRef.ternary (TRef.of (T := ⟨S4194304, .i1⟩) main_v365) (TRef.of (T := ⟨S4194304, .f32⟩) main_v394) (TRef.of (T := ⟨S4194304, .f32⟩) main_call21_v1) (TRef.of (T := ⟨S4194304, .f32⟩) main_v395) select,
    binary main_v342 main_v395 main_v396 (mulf : (⟨S4194304, .f32⟩ : BufTy).Contents (Elt F) → (⟨S4194304, .f32⟩ : BufTy).Contents (Elt F) → (⟨S4194304, .f32⟩ : BufTy).Contents (Elt F)),
    binary main_v336 main_v396 main_v397 (addf : (⟨S4194304, .f32⟩ : BufTy).Contents (Elt F) → (⟨S4194304, .f32⟩ : BufTy).Contents (Elt F) → (⟨S4194304, .f32⟩ : BufTy).Contents (Elt F)),
    binary main_v96 main_v338 main_v398 (mulf : (⟨S4194304, .f32⟩ : BufTy).Contents (Elt F) → (⟨S4194304, .f32⟩ : BufTy).Contents (Elt F) → (⟨S4194304, .f32⟩ : BufTy).Contents (Elt F)),
    binary main_v398 main_v94 main_v399 (mulf : (⟨S4194304, .f32⟩ : BufTy).Contents (Elt F) → (⟨S4194304, .f32⟩ : BufTy).Contents (Elt F) → (⟨S4194304, .f32⟩ : BufTy).Contents (Elt F)),
    nullary main_c_152 (constantI S_ 32 1#32),
    unary main_c_152 main_v400 (broadcastInDim S4194304 ![] bcast_S_S4194304 : (⟨S_, .i32⟩ : BufTy).Contents (Elt F) → (⟨S4194304, .i32⟩ : BufTy).Contents (Elt F)),
    binary main_v99 main_v400 main_v401 (addi : (⟨S4194304, .i32⟩ : BufTy).Contents (Elt F) → (⟨S4194304, .i32⟩ : BufTy).Contents (Elt F) → (⟨S4194304, .i32⟩ : BufTy).Contents (Elt F)),
    nullary main_c_153 (constantI S_ 32 0#32),
    unary main_c_153 main_v402 (broadcastInDim S4194304 ![] bcast_S_S4194304 : (⟨S_, .i32⟩ : BufTy).Contents (Elt F) → (⟨S4194304, .i32⟩ : BufTy).Contents (Elt F)),
    binary main_v98 main_v402 main_v403 (addi : (⟨S4194304, .i32⟩ : BufTy).Contents (Elt F) → (⟨S4194304, .i32⟩ : BufTy).Contents (Elt F) → (⟨S4194304, .i32⟩ : BufTy).Contents (Elt F)),
    nullary main_c_154 (constantI S_ 32 1#32),
    unary main_c_154 main_v404 (broadcastInDim S4194304 ![] bcast_S_S4194304 : (⟨S_, .i32⟩ : BufTy).Contents (Elt F) → (⟨S4194304, .i32⟩ : BufTy).Contents (Elt F)),
    binary main_v97 main_v404 main_v405 (addi : (⟨S4194304, .i32⟩ : BufTy).Contents (Elt F) → (⟨S4194304, .i32⟩ : BufTy).Contents (Elt F) → (⟨S4194304, .i32⟩ : BufTy).Contents (Elt F)),
    nullary main_c_155 (constantI S_ 32 0#32),
    unary main_c_155 main_v406 (broadcastInDim S4194304 ![] bcast_S_S4194304 : (⟨S_, .i32⟩ : BufTy).Contents (Elt F) → (⟨S4194304, .i32⟩ : BufTy).Contents (Elt F)),
    binary main_v401 main_v406 main_v407 (cmpi .sge : (⟨S4194304, .i32⟩ : BufTy).Contents (Elt F) → (⟨S4194304, .i32⟩ : BufTy).Contents (Elt F) → (⟨S4194304, .i1⟩ : BufTy).Contents (Elt F)),
    nullary main_c_156 (constantI S_ 32 64#32),
    unary main_c_156 main_v408 (broadcastInDim S4194304 ![] bcast_S_S4194304 : (⟨S_, .i32⟩ : BufTy).Contents (Elt F) → (⟨S4194304, .i32⟩ : BufTy).Contents (Elt F)),
    binary main_v401 main_v408 main_v409 (cmpi .slt : (⟨S4194304, .i32⟩ : BufTy).Contents (Elt F) → (⟨S4194304, .i32⟩ : BufTy).Contents (Elt F) → (⟨S4194304, .i1⟩ : BufTy).Contents (Elt F)),
    binary main_v407 main_v409 main_v410 (andi : (⟨S4194304, .i1⟩ : BufTy).Contents (Elt F) → (⟨S4194304, .i1⟩ : BufTy).Contents (Elt F) → (⟨S4194304, .i1⟩ : BufTy).Contents (Elt F)),
    nullary main_c_157 (constantI S_ 32 0#32),
    unary main_c_157 main_v411 (broadcastInDim S4194304 ![] bcast_S_S4194304 : (⟨S_, .i32⟩ : BufTy).Contents (Elt F) → (⟨S4194304, .i32⟩ : BufTy).Contents (Elt F)),
    binary main_v403 main_v411 main_v412 (cmpi .sge : (⟨S4194304, .i32⟩ : BufTy).Contents (Elt F) → (⟨S4194304, .i32⟩ : BufTy).Contents (Elt F) → (⟨S4194304, .i1⟩ : BufTy).Contents (Elt F)),
    binary main_v410 main_v412 main_v413 (andi : (⟨S4194304, .i1⟩ : BufTy).Contents (Elt F) → (⟨S4194304, .i1⟩ : BufTy).Contents (Elt F) → (⟨S4194304, .i1⟩ : BufTy).Contents (Elt F)),
    nullary main_c_158 (constantI S_ 32 64#32),
    unary main_c_158 main_v414 (broadcastInDim S4194304 ![] bcast_S_S4194304 : (⟨S_, .i32⟩ : BufTy).Contents (Elt F) → (⟨S4194304, .i32⟩ : BufTy).Contents (Elt F)),
    binary main_v403 main_v414 main_v415 (cmpi .slt : (⟨S4194304, .i32⟩ : BufTy).Contents (Elt F) → (⟨S4194304, .i32⟩ : BufTy).Contents (Elt F) → (⟨S4194304, .i1⟩ : BufTy).Contents (Elt F)),
    binary main_v413 main_v415 main_v416 (andi : (⟨S4194304, .i1⟩ : BufTy).Contents (Elt F) → (⟨S4194304, .i1⟩ : BufTy).Contents (Elt F) → (⟨S4194304, .i1⟩ : BufTy).Contents (Elt F)),
    nullary main_c_159 (constantI S_ 32 0#32),
    unary main_c_159 main_v417 (broadcastInDim S4194304 ![] bcast_S_S4194304 : (⟨S_, .i32⟩ : BufTy).Contents (Elt F) → (⟨S4194304, .i32⟩ : BufTy).Contents (Elt F)),
    binary main_v405 main_v417 main_v418 (cmpi .sge : (⟨S4194304, .i32⟩ : BufTy).Contents (Elt F) → (⟨S4194304, .i32⟩ : BufTy).Contents (Elt F) → (⟨S4194304, .i1⟩ : BufTy).Contents (Elt F)),
    binary main_v416 main_v418 main_v419 (andi : (⟨S4194304, .i1⟩ : BufTy).Contents (Elt F) → (⟨S4194304, .i1⟩ : BufTy).Contents (Elt F) → (⟨S4194304, .i1⟩ : BufTy).Contents (Elt F)),
    nullary main_c_160 (constantI S_ 32 64#32),
    unary main_c_160 main_v420 (broadcastInDim S4194304 ![] bcast_S_S4194304 : (⟨S_, .i32⟩ : BufTy).Contents (Elt F) → (⟨S4194304, .i32⟩ : BufTy).Contents (Elt F)),
    binary main_v405 main_v420 main_v421 (cmpi .slt : (⟨S4194304, .i32⟩ : BufTy).Contents (Elt F) → (⟨S4194304, .i32⟩ : BufTy).Contents (Elt F) → (⟨S4194304, .i1⟩ : BufTy).Contents (Elt F)),
    binary main_v419 main_v421 main_v422 (andi : (⟨S4194304, .i1⟩ : BufTy).Contents (Elt F) → (⟨S4194304, .i1⟩ : BufTy).Contents (Elt F) → (⟨S4194304, .i1⟩ : BufTy).Contents (Elt F)),
    nullary main_c_161 (constantI S_ 32 0#32),
    nullary main_c_162 (constantI S_ 32 63#32),
    TRef.unary (TRef.of (T := ⟨S_, .i32⟩) main_c_161) (TRef.of (T := ⟨S_, .i32⟩) main_call22_v0) id,
    TRef.unary (TRef.of (T := ⟨S_, .i32⟩) main_call22_v0) (TRef.of (T := ⟨S4194304, .i32⟩) main_call22_v1) (broadcastInDim S4194304 ![] bcast_S_S4194304),
    TRef.binary (TRef.of (T := ⟨S4194304, .i32⟩) main_call22_v1) (TRef.of (T := ⟨S4194304, .i32⟩) main_v401) (TRef.of (T := ⟨S4194304, .i32⟩) main_call22_v2) maxsi,
    TRef.unary (TRef.of (T := ⟨S_, .i32⟩) main_c_162) (TRef.of (T := ⟨S_, .i32⟩) main_call22_v3) id,
    TRef.unary (TRef.of (T := ⟨S_, .i32⟩) main_call22_v3) (TRef.of (T := ⟨S4194304, .i32⟩) main_call22_v4) (broadcastInDim S4194304 ![] bcast_S_S4194304),
    TRef.binary (TRef.of (T := ⟨S4194304, .i32⟩) main_call22_v4) (TRef.of (T := ⟨S4194304, .i32⟩) main_call22_v2) (TRef.of (T := ⟨S4194304, .i32⟩) main_v423) minsi,
    nullary main_c_163 (constantI S_ 32 0#32),
    nullary main_c_164 (constantI S_ 32 63#32),
    TRef.unary (TRef.of (T := ⟨S_, .i32⟩) main_c_163) (TRef.of (T := ⟨S_, .i32⟩) main_call23_v0) id,
    TRef.unary (TRef.of (T := ⟨S_, .i32⟩) main_call23_v0) (TRef.of (T := ⟨S4194304, .i32⟩) main_call23_v1) (broadcastInDim S4194304 ![] bcast_S_S4194304),
    TRef.binary (TRef.of (T := ⟨S4194304, .i32⟩) main_call23_v1) (TRef.of (T := ⟨S4194304, .i32⟩) main_v403) (TRef.of (T := ⟨S4194304, .i32⟩) main_call23_v2) maxsi,
    TRef.unary (TRef.of (T := ⟨S_, .i32⟩) main_c_164) (TRef.of (T := ⟨S_, .i32⟩) main_call23_v3) id,
    TRef.unary (TRef.of (T := ⟨S_, .i32⟩) main_call23_v3) (TRef.of (T := ⟨S4194304, .i32⟩) main_call23_v4) (broadcastInDim S4194304 ![] bcast_S_S4194304),
    TRef.binary (TRef.of (T := ⟨S4194304, .i32⟩) main_call23_v4) (TRef.of (T := ⟨S4194304, .i32⟩) main_call23_v2) (TRef.of (T := ⟨S4194304, .i32⟩) main_v424) minsi,
    nullary main_c_165 (constantI S_ 32 0#32),
    nullary main_c_166 (constantI S_ 32 63#32),
    TRef.unary (TRef.of (T := ⟨S_, .i32⟩) main_c_165) (TRef.of (T := ⟨S_, .i32⟩) main_call24_v0) id,
    TRef.unary (TRef.of (T := ⟨S_, .i32⟩) main_call24_v0) (TRef.of (T := ⟨S4194304, .i32⟩) main_call24_v1) (broadcastInDim S4194304 ![] bcast_S_S4194304),
    TRef.binary (TRef.of (T := ⟨S4194304, .i32⟩) main_call24_v1) (TRef.of (T := ⟨S4194304, .i32⟩) main_v405) (TRef.of (T := ⟨S4194304, .i32⟩) main_call24_v2) maxsi,
    TRef.unary (TRef.of (T := ⟨S_, .i32⟩) main_c_166) (TRef.of (T := ⟨S_, .i32⟩) main_call24_v3) id,
    TRef.unary (TRef.of (T := ⟨S_, .i32⟩) main_call24_v3) (TRef.of (T := ⟨S4194304, .i32⟩) main_call24_v4) (broadcastInDim S4194304 ![] bcast_S_S4194304),
    TRef.binary (TRef.of (T := ⟨S4194304, .i32⟩) main_call24_v4) (TRef.of (T := ⟨S4194304, .i32⟩) main_call24_v2) (TRef.of (T := ⟨S4194304, .i32⟩) main_v425) minsi,
    nullary main_c_167 (constantI S_ 32 0#32),
    unary main_c_167 main_v426 (broadcastInDim S4194304 ![] bcast_S_S4194304 : (⟨S_, .i32⟩ : BufTy).Contents (Elt F) → (⟨S4194304, .i32⟩ : BufTy).Contents (Elt F)),
    binary main_v30 main_v426 main_v427 (cmpi .slt : (⟨S4194304, .i32⟩ : BufTy).Contents (Elt F) → (⟨S4194304, .i32⟩ : BufTy).Contents (Elt F) → (⟨S4194304, .i1⟩ : BufTy).Contents (Elt F)),
    nullary main_c_168 (constantI S_ 32 64#32),
    unary main_c_168 main_v428 (broadcastInDim S4194304 ![] bcast_S_S4194304 : (⟨S_, .i32⟩ : BufTy).Contents (Elt F) → (⟨S4194304, .i32⟩ : BufTy).Contents (Elt F)) ]

end Cert.AlphaGrid.RefRun

end
-- ==== Proof.RefRunWin9.lean ====
/- Window 9 of the reference's @main: it is the line of its operations (every call it makes unfolds to the callee's operations
   over that call's buffers, and the sequencing reassociates), and running that line carries the boundary facts across: from the
   stages held at the window's start to the stages held at its end. Each buffer the line writes holds its operation's function of
   its operands' contents; those are stages by hypothesis or by the same fact one operation earlier, and a stage is by definition
   its operation applied to its operands' stages. A buffer the line does not write keeps what it held.
   The window holds one concatenate: the line is cut before and after it, and the concatenate, run alone from contents whose four
   operand buffers are at their stages, leaves its result at the concatenate of those stages, which is its own stage. -/
import proofs.«104803_j90202903151142_1_alg».proof.Proof.RefRunOps9
import proofs.«104803_j90202903151142_1_alg».proof.Proof.RefRunInv
import proofs.«104803_j90202903151142_1_alg».proof.Proof.RefRunBase

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part9_eq (c : Dev nD) : main_part9 (F := F) c = seq ops9 := rfl

/-- The window's list in three consecutive pieces: up to the concatenate, the concatenate, the rest. -/
theorem ops9_split : (ops9 : List (HloOp τ sig (Elt F))) = ops9a ++ (ops9b ++ ops9c) := rfl

-- the sorts, gathers and reductions stay folded: the equations below never look inside them
attribute [local irreducible] Host.sort2 Host.gather Host.reduce in
set_option maxRecDepth 8192 in
set_option maxHeartbeats 4000000 in
/-- Across ops9a: the stages held at its start give the stages held at its end. -/
theorem win9a (W : Valuation τ sig (Elt F)) (a0 : FVec F S4194304x3 .f32) (a1 : FVec F S2x3 .f32)
    (a2 : FVec F S256x256x256 .f32) (a3 a4 : FVec F S64x3 .f32) (h : Inv9 W a0 a1 a2 a3 a4) :
    Inv9b (after ops9a W) a0 a1 a2 a3 a4 := by
  unfold Inv9 at h
  unfold Inv9b
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops9b: the stages held at its start give the stages held at its end. -/
theorem win9b (W : Valuation τ sig (Elt F)) (a0 : FVec F S4194304x3 .f32) (a1 : FVec F S2x3 .f32)
    (a2 : FVec F S256x256x256 .f32) (a3 a4 : FVec F S64x3 .f32) (h : Inv9b W a0 a1 a2 a3 a4) :
    Inv9c (after ops9b W) a0 a1 a2 a3 a4 := by
  unfold Inv9b at h
  unfold Inv9c
  have h0 : W (main_v389 : DevRef τ sig) = r_v389 a0 a1 a2 a3 a4 := by simp only [h]
  have h1 : W (main_v390 : DevRef τ sig) = r_v390 a0 a1 a2 a3 a4 := by simp only [h]
  have h2 : W (main_v391 : DevRef τ sig) = r_v391 a0 a1 a2 a3 a4 := by simp only [h]
  have h3 : W (main_v392 : DevRef τ sig) = r_v392 a0 a1 a2 a3 a4 := by simp only [h]
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)
    | exact (nary4_chunk _ _ _ W h0 h1 h2 h3).trans rfl

-- the sorts, gathers and reductions stay folded: the equations below never look inside them
attribute [local irreducible] Host.sort2 Host.gather Host.reduce in
set_option maxRecDepth 8192 in
set_option maxHeartbeats 4000000 in
/-- Across ops9c: the stages held at its start give the stages held at its end. -/
theorem win9c (W : Valuation τ sig (Elt F)) (a0 : FVec F S4194304x3 .f32) (a1 : FVec F S2x3 .f32)
    (a2 : FVec F S256x256x256 .f32) (a3 a4 : FVec F S64x3 .f32) (h : Inv9c W a0 a1 a2 a3 a4) :
    Inv10 (after ops9c W) a0 a1 a2 a3 a4 := by
  unfold Inv9c at h
  unfold Inv10
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

/-- Across the whole window. -/
theorem win9 (W : Valuation τ sig (Elt F)) (a0 : FVec F S4194304x3 .f32) (a1 : FVec F S2x3 .f32)
    (a2 : FVec F S256x256x256 .f32) (a3 a4 : FVec F S64x3 .f32) (h : Inv9 W a0 a1 a2 a3 a4) :
    Inv10 (after ops9 W) a0 a1 a2 a3 a4 := by
  rw [ops9_split, after_append, after_append]
  exact win9c _ _ _ _ _ _ (win9b _ _ _ _ _ _ (win9a _ _ _ _ _ _ h))

end Cert.AlphaGrid.RefRun

end
-- ==== Proof.RefRunOps10.lean ====
/- The operations 708 … 769 of the reference (of 941, calls unfolded at their sites), in order: the window main_part10 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops10 : List (HloOp τ sig (Elt F)) :=
  [ binary main_v30 main_v428 main_v429 (addi : (⟨S4194304, .i32⟩ : BufTy).Contents (Elt F) → (⟨S4194304, .i32⟩ : BufTy).Contents (Elt F) → (⟨S4194304, .i32⟩ : BufTy).Contents (Elt F)),
    ternary main_v427 main_v429 main_v30 main_v430 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_169 (constantI S_ 32 0#32),
    unary main_c_169 main_v431 (broadcastInDim S4194304 ![] bcast_S_S4194304 : (⟨S_, .i32⟩ : BufTy).Contents (Elt F) → (⟨S4194304, .i32⟩ : BufTy).Contents (Elt F)),
    binary main_v423 main_v431 main_v432 (cmpi .slt : (⟨S4194304, .i32⟩ : BufTy).Contents (Elt F) → (⟨S4194304, .i32⟩ : BufTy).Contents (Elt F) → (⟨S4194304, .i1⟩ : BufTy).Contents (Elt F)),
    nullary main_c_170 (constantI S_ 32 64#32),
    unary main_c_170 main_v433 (broadcastInDim S4194304 ![] bcast_S_S4194304 : (⟨S_, .i32⟩ : BufTy).Contents (Elt F) → (⟨S4194304, .i32⟩ : BufTy).Contents (Elt F)),
    binary main_v423 main_v433 main_v434 (addi : (⟨S4194304, .i32⟩ : BufTy).Contents (Elt F) → (⟨S4194304, .i32⟩ : BufTy).Contents (Elt F) → (⟨S4194304, .i32⟩ : BufTy).Contents (Elt F)),
    ternary main_v432 main_v434 main_v423 main_v435 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_171 (constantI S_ 32 0#32),
    unary main_c_171 main_v436 (broadcastInDim S4194304 ![] bcast_S_S4194304 : (⟨S_, .i32⟩ : BufTy).Contents (Elt F) → (⟨S4194304, .i32⟩ : BufTy).Contents (Elt F)),
    binary main_v424 main_v436 main_v437 (cmpi .slt : (⟨S4194304, .i32⟩ : BufTy).Contents (Elt F) → (⟨S4194304, .i32⟩ : BufTy).Contents (Elt F) → (⟨S4194304, .i1⟩ : BufTy).Contents (Elt F)),
    nullary main_c_172 (constantI S_ 32 64#32),
    unary main_c_172 main_v438 (broadcastInDim S4194304 ![] bcast_S_S4194304 : (⟨S_, .i32⟩ : BufTy).Contents (Elt F) → (⟨S4194304, .i32⟩ : BufTy).Contents (Elt F)),
    binary main_v424 main_v438 main_v439 (addi : (⟨S4194304, .i32⟩ : BufTy).Contents (Elt F) → (⟨S4194304, .i32⟩ : BufTy).Contents (Elt F) → (⟨S4194304, .i32⟩ : BufTy).Contents (Elt F)),
    ternary main_v437 main_v439 main_v424 main_v440 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_173 (constantI S_ 32 0#32),
    unary main_c_173 main_v441 (broadcastInDim S4194304 ![] bcast_S_S4194304 : (⟨S_, .i32⟩ : BufTy).Contents (Elt F) → (⟨S4194304, .i32⟩ : BufTy).Contents (Elt F)),
    binary main_v425 main_v441 main_v442 (cmpi .slt : (⟨S4194304, .i32⟩ : BufTy).Contents (Elt F) → (⟨S4194304, .i32⟩ : BufTy).Contents (Elt F) → (⟨S4194304, .i1⟩ : BufTy).Contents (Elt F)),
    nullary main_c_174 (constantI S_ 32 64#32),
    unary main_c_174 main_v443 (broadcastInDim S4194304 ![] bcast_S_S4194304 : (⟨S_, .i32⟩ : BufTy).Contents (Elt F) → (⟨S4194304, .i32⟩ : BufTy).Contents (Elt F)),
    binary main_v425 main_v443 main_v444 (addi : (⟨S4194304, .i32⟩ : BufTy).Contents (Elt F) → (⟨S4194304, .i32⟩ : BufTy).Contents (Elt F) → (⟨S4194304, .i32⟩ : BufTy).Contents (Elt F)),
    ternary main_v442 main_v444 main_v425 main_v445 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v430 main_v446 (broadcastInDim S4194304x1 ![0] bcast_S4194304_S4194304x1_0 : (⟨S4194304, .i32⟩ : BufTy).Contents (Elt F) → (⟨S4194304x1, .i32⟩ : BufTy).Contents (Elt F)),
    unary main_v435 main_v447 (broadcastInDim S4194304x1 ![0] bcast_S4194304_S4194304x1_0 : (⟨S4194304, .i32⟩ : BufTy).Contents (Elt F) → (⟨S4194304x1, .i32⟩ : BufTy).Contents (Elt F)),
    unary main_v440 main_v448 (broadcastInDim S4194304x1 ![0] bcast_S4194304_S4194304x1_0 : (⟨S4194304, .i32⟩ : BufTy).Contents (Elt F) → (⟨S4194304x1, .i32⟩ : BufTy).Contents (Elt F)),
    unary main_v445 main_v449 (broadcastInDim S4194304x1 ![0] bcast_S4194304_S4194304x1_0 : (⟨S4194304, .i32⟩ : BufTy).Contents (Elt F) → (⟨S4194304x1, .i32⟩ : BufTy).Contents (Elt F)),
    nary ![main_v446, main_v447, main_v448, main_v449] main_v450 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1),
    binary main_v66 main_v450 main_v451 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_175 (constant S_ .f32 0x00000000#32),
    TRef.unary (TRef.of (T := ⟨S_, .f32⟩) main_cst_175) (TRef.of (T := ⟨S_, .f32⟩) main_call25_v0) id,
    TRef.unary (TRef.of (T := ⟨S_, .f32⟩) main_call25_v0) (TRef.of (T := ⟨S4194304, .f32⟩) main_call25_v1) (broadcastInDim S4194304 ![] bcast_S_S4194304),
    TRef.ternary (TRef.of (T := ⟨S4194304, .i1⟩) main_v422) (TRef.of (T := ⟨S4194304, .f32⟩) main_v451) (TRef.of (T := ⟨S4194304, .f32⟩) main_call25_v1) (TRef.of (T := ⟨S4194304, .f32⟩) main_v452) select,
    binary main_v399 main_v452 main_v453 (mulf : (⟨S4194304, .f32⟩ : BufTy).Contents (Elt F) → (⟨S4194304, .f32⟩ : BufTy).Contents (Elt F) → (⟨S4194304, .f32⟩ : BufTy).Contents (Elt F)),
    binary main_v397 main_v453 main_v454 (addf : (⟨S4194304, .f32⟩ : BufTy).Contents (Elt F) → (⟨S4194304, .f32⟩ : BufTy).Contents (Elt F) → (⟨S4194304, .f32⟩ : BufTy).Contents (Elt F)),
    nullary main_cst_176 (constant S_ .f32 0x3F800000#32),
    unary main_cst_176 main_v455 (broadcastInDim S4194304 ![] bcast_S_S4194304 : (⟨S_, .f32⟩ : BufTy).Contents (Elt F) → (⟨S4194304, .f32⟩ : BufTy).Contents (Elt F)),
    binary main_v455 main_v94 main_v456 (subf : (⟨S4194304, .f32⟩ : BufTy).Contents (Elt F) → (⟨S4194304, .f32⟩ : BufTy).Contents (Elt F) → (⟨S4194304, .f32⟩ : BufTy).Contents (Elt F)),
    binary main_v96 main_v95 main_v457 (mulf : (⟨S4194304, .f32⟩ : BufTy).Contents (Elt F) → (⟨S4194304, .f32⟩ : BufTy).Contents (Elt F) → (⟨S4194304, .f32⟩ : BufTy).Contents (Elt F)),
    binary main_v457 main_v456 main_v458 (mulf : (⟨S4194304, .f32⟩ : BufTy).Contents (Elt F) → (⟨S4194304, .f32⟩ : BufTy).Contents (Elt F) → (⟨S4194304, .f32⟩ : BufTy).Contents (Elt F)),
    nullary main_c_177 (constantI S_ 32 1#32),
    unary main_c_177 main_v459 (broadcastInDim S4194304 ![] bcast_S_S4194304 : (⟨S_, .i32⟩ : BufTy).Contents (Elt F) → (⟨S4194304, .i32⟩ : BufTy).Contents (Elt F)),
    binary main_v99 main_v459 main_v460 (addi : (⟨S4194304, .i32⟩ : BufTy).Contents (Elt F) → (⟨S4194304, .i32⟩ : BufTy).Contents (Elt F) → (⟨S4194304, .i32⟩ : BufTy).Contents (Elt F)),
    nullary main_c_178 (constantI S_ 32 1#32),
    unary main_c_178 main_v461 (broadcastInDim S4194304 ![] bcast_S_S4194304 : (⟨S_, .i32⟩ : BufTy).Contents (Elt F) → (⟨S4194304, .i32⟩ : BufTy).Contents (Elt F)),
    binary main_v98 main_v461 main_v462 (addi : (⟨S4194304, .i32⟩ : BufTy).Contents (Elt F) → (⟨S4194304, .i32⟩ : BufTy).Contents (Elt F) → (⟨S4194304, .i32⟩ : BufTy).Contents (Elt F)),
    nullary main_c_179 (constantI S_ 32 0#32),
    unary main_c_179 main_v463 (broadcastInDim S4194304 ![] bcast_S_S4194304 : (⟨S_, .i32⟩ : BufTy).Contents (Elt F) → (⟨S4194304, .i32⟩ : BufTy).Contents (Elt F)),
    binary main_v97 main_v463 main_v464 (addi : (⟨S4194304, .i32⟩ : BufTy).Contents (Elt F) → (⟨S4194304, .i32⟩ : BufTy).Contents (Elt F) → (⟨S4194304, .i32⟩ : BufTy).Contents (Elt F)),
    nullary main_c_180 (constantI S_ 32 0#32),
    unary main_c_180 main_v465 (broadcastInDim S4194304 ![] bcast_S_S4194304 : (⟨S_, .i32⟩ : BufTy).Contents (Elt F) → (⟨S4194304, .i32⟩ : BufTy).Contents (Elt F)),
    binary main_v460 main_v465 main_v466 (cmpi .sge : (⟨S4194304, .i32⟩ : BufTy).Contents (Elt F) → (⟨S4194304, .i32⟩ : BufTy).Contents (Elt F) → (⟨S4194304, .i1⟩ : BufTy).Contents (Elt F)),
    nullary main_c_181 (constantI S_ 32 64#32),
    unary main_c_181 main_v467 (broadcastInDim S4194304 ![] bcast_S_S4194304 : (⟨S_, .i32⟩ : BufTy).Contents (Elt F) → (⟨S4194304, .i32⟩ : BufTy).Contents (Elt F)),
    binary main_v460 main_v467 main_v468 (cmpi .slt : (⟨S4194304, .i32⟩ : BufTy).Contents (Elt F) → (⟨S4194304, .i32⟩ : BufTy).Contents (Elt F) → (⟨S4194304, .i1⟩ : BufTy).Contents (Elt F)),
    binary main_v466 main_v468 main_v469 (andi : (⟨S4194304, .i1⟩ : BufTy).Contents (Elt F) → (⟨S4194304, .i1⟩ : BufTy).Contents (Elt F) → (⟨S4194304, .i1⟩ : BufTy).Contents (Elt F)),
    nullary main_c_182 (constantI S_ 32 0#32),
    unary main_c_182 main_v470 (broadcastInDim S4194304 ![] bcast_S_S4194304 : (⟨S_, .i32⟩ : BufTy).Contents (Elt F) → (⟨S4194304, .i32⟩ : BufTy).Contents (Elt F)),
    binary main_v462 main_v470 main_v471 (cmpi .sge : (⟨S4194304, .i32⟩ : BufTy).Contents (Elt F) → (⟨S4194304, .i32⟩ : BufTy).Contents (Elt F) → (⟨S4194304, .i1⟩ : BufTy).Contents (Elt F)),
    binary main_v469 main_v471 main_v472 (andi : (⟨S4194304, .i1⟩ : BufTy).Contents (Elt F) → (⟨S4194304, .i1⟩ : BufTy).Contents (Elt F) → (⟨S4194304, .i1⟩ : BufTy).Contents (Elt F)),
    nullary main_c_183 (constantI S_ 32 64#32),
    unary main_c_183 main_v473 (broadcastInDim S4194304 ![] bcast_S_S4194304 : (⟨S_, .i32⟩ : BufTy).Contents (Elt F) → (⟨S4194304, .i32⟩ : BufTy).Contents (Elt F)) ]

theorem ops10_sub : (ops10 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., unary_bufs_sub .., ternary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩

theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
abbrev ops10a : List (HloOp τ sig (Elt F)) :=
  [ binary main_v30 main_v428 main_v429 (addi : (⟨S4194304, .i32⟩ : BufTy).Contents (Elt F) → (⟨S4194304, .i32⟩ : BufTy).Contents (Elt F) → (⟨S4194304, .i32⟩ : BufTy).Contents (Elt F)),
    ternary main_v427 main_v429 main_v30 main_v430 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_169 (constantI S_ 32 0#32),
    unary main_c_169 main_v431 (broadcastInDim S4194304 ![] bcast_S_S4194304 : (⟨S_, .i32⟩ : BufTy).Contents (Elt F) → (⟨S4194304, .i32⟩ : BufTy).Contents (Elt F)),
    binary main_v423 main_v431 main_v432 (cmpi .slt : (⟨S4194304, .i32⟩ : BufTy).Contents (Elt F) → (⟨S4194304, .i32⟩ : BufTy).Contents (Elt F) → (⟨S4194304, .i1⟩ : BufTy).Contents (Elt F)),
    nullary main_c_170 (constantI S_ 32 64#32),
    unary main_c_170 main_v433 (broadcastInDim S4194304 ![] bcast_S_S4194304 : (⟨S_, .i32⟩ : BufTy).Contents (Elt F) → (⟨S4194304, .i32⟩ : BufTy).Contents (Elt F)),
    binary main_v423 main_v433 main_v434 (addi : (⟨S4194304, .i32⟩ : BufTy).Contents (Elt F) → (⟨S4194304, .i32⟩ : BufTy).Contents (Elt F) → (⟨S4194304, .i32⟩ : BufTy).Contents (Elt F)),
    ternary main_v432 main_v434 main_v423 main_v435 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_171 (constantI S_ 32 0#32),
    unary main_c_171 main_v436 (broadcastInDim S4194304 ![] bcast_S_S4194304 : (⟨S_, .i32⟩ : BufTy).Contents (Elt F) → (⟨S4194304, .i32⟩ : BufTy).Contents (Elt F)),
    binary main_v424 main_v436 main_v437 (cmpi .slt : (⟨S4194304, .i32⟩ : BufTy).Contents (Elt F) → (⟨S4194304, .i32⟩ : BufTy).Contents (Elt F) → (⟨S4194304, .i1⟩ : BufTy).Contents (Elt F)),
    nullary main_c_172 (constantI S_ 32 64#32),
    unary main_c_172 main_v438 (broadcastInDim S4194304 ![] bcast_S_S4194304 : (⟨S_, .i32⟩ : BufTy).Contents (Elt F) → (⟨S4194304, .i32⟩ : BufTy).Contents (Elt F)),
    binary main_v424 main_v438 main_v439 (addi : (⟨S4194304, .i32⟩ : BufTy).Contents (Elt F) → (⟨S4194304, .i32⟩ : BufTy).Contents (Elt F) → (⟨S4194304, .i32⟩ : BufTy).Contents (Elt F)),
    ternary main_v437 main_v439 main_v424 main_v440 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_173 (constantI S_ 32 0#32),
    unary main_c_173 main_v441 (broadcastInDim S4194304 ![] bcast_S_S4194304 : (⟨S_, .i32⟩ : BufTy).Contents (Elt F) → (⟨S4194304, .i32⟩ : BufTy).Contents (Elt F)),
    binary main_v425 main_v441 main_v442 (cmpi .slt : (⟨S4194304, .i32⟩ : BufTy).Contents (Elt F) → (⟨S4194304, .i32⟩ : BufTy).Contents (Elt F) → (⟨S4194304, .i1⟩ : BufTy).Contents (Elt F)),
    nullary main_c_174 (constantI S_ 32 64#32),
    unary main_c_174 main_v443 (broadcastInDim S4194304 ![] bcast_S_S4194304 : (⟨S_, .i32⟩ : BufTy).Contents (Elt F) → (⟨S4194304, .i32⟩ : BufTy).Contents (Elt F)),
    binary main_v425 main_v443 main_v444 (addi : (⟨S4194304, .i32⟩ : BufTy).Contents (Elt F) → (⟨S4194304, .i32⟩ : BufTy).Contents (Elt F) → (⟨S4194304, .i32⟩ : BufTy).Contents (Elt F)),
    ternary main_v442 main_v444 main_v425 main_v445 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v430 main_v446 (broadcastInDim S4194304x1 ![0] bcast_S4194304_S4194304x1_0 : (⟨S4194304, .i32⟩ : BufTy).Contents (Elt F) → (⟨S4194304x1, .i32⟩ : BufTy).Contents (Elt F)),
    unary main_v435 main_v447 (broadcastInDim S4194304x1 ![0] bcast_S4194304_S4194304x1_0 : (⟨S4194304, .i32⟩ : BufTy).Contents (Elt F) → (⟨S4194304x1, .i32⟩ : BufTy).Contents (Elt F)),
    unary main_v440 main_v448 (broadcastInDim S4194304x1 ![0] bcast_S4194304_S4194304x1_0 : (⟨S4194304, .i32⟩ : BufTy).Contents (Elt F) → (⟨S4194304x1, .i32⟩ : BufTy).Contents (Elt F)),
    unary main_v445 main_v449 (broadcastInDim S4194304x1 ![0] bcast_S4194304_S4194304x1_0 : (⟨S4194304, .i32⟩ : BufTy).Contents (Elt F) → (⟨S4194304x1, .i32⟩ : BufTy).Contents (Elt F)) ]

set_option maxHeartbeats 4000000 in
abbrev ops10b : List (HloOp τ sig (Elt F)) :=
  [ nary ![main_v446, main_v447, main_v448, main_v449] main_v450 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ]

set_option maxHeartbeats 4000000 in
abbrev ops10c : List (HloOp τ sig (Elt F)) :=
  [ binary main_v66 main_v450 main_v451 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_175 (constant S_ .f32 0x00000000#32),
    TRef.unary (TRef.of (T := ⟨S_, .f32⟩) main_cst_175) (TRef.of (T := ⟨S_, .f32⟩) main_call25_v0) id,
    TRef.unary (TRef.of (T := ⟨S_, .f32⟩) main_call25_v0) (TRef.of (T := ⟨S4194304, .f32⟩) main_call25_v1) (broadcastInDim S4194304 ![] bcast_S_S4194304),
    TRef.ternary (TRef.of (T := ⟨S4194304, .i1⟩) main_v422) (TRef.of (T := ⟨S4194304, .f32⟩) main_v451) (TRef.of (T := ⟨S4194304, .f32⟩) main_call25_v1) (TRef.of (T := ⟨S4194304, .f32⟩) main_v452) select,
    binary main_v399 main_v452 main_v453 (mulf : (⟨S4194304, .f32⟩ : BufTy).Contents (Elt F) → (⟨S4194304, .f32⟩ : BufTy).Contents (Elt F) → (⟨S4194304, .f32⟩ : BufTy).Contents (Elt F)),
    binary main_v397 main_v453 main_v454 (addf : (⟨S4194304, .f32⟩ : BufTy).Contents (Elt F) → (⟨S4194304, .f32⟩ : BufTy).Contents (Elt F) → (⟨S4194304, .f32⟩ : BufTy).Contents (Elt F)),
    nullary main_cst_176 (constant S_ .f32 0x3F800000#32),
    unary main_cst_176 main_v455 (broadcastInDim S4194304 ![] bcast_S_S4194304 : (⟨S_, .f32⟩ : BufTy).Contents (Elt F) → (⟨S4194304, .f32⟩ : BufTy).Contents (Elt F)),
    binary main_v455 main_v94 main_v456 (subf : (⟨S4194304, .f32⟩ : BufTy).Contents (Elt F) → (⟨S4194304, .f32⟩ : BufTy).Contents (Elt F) → (⟨S4194304, .f32⟩ : BufTy).Contents (Elt F)),
    binary main_v96 main_v95 main_v457 (mulf : (⟨S4194304, .f32⟩ : BufTy).Contents (Elt F) → (⟨S4194304, .f32⟩ : BufTy).Contents (Elt F) → (⟨S4194304, .f32⟩ : BufTy).Contents (Elt F)),
    binary main_v457 main_v456 main_v458 (mulf : (⟨S4194304, .f32⟩ : BufTy).Contents (Elt F) → (⟨S4194304, .f32⟩ : BufTy).Contents (Elt F) → (⟨S4194304, .f32⟩ : BufTy).Contents (Elt F)),
    nullary main_c_177 (constantI S_ 32 1#32),
    unary main_c_177 main_v459 (broadcastInDim S4194304 ![] bcast_S_S4194304 : (⟨S_, .i32⟩ : BufTy).Contents (Elt F) → (⟨S4194304, .i32⟩ : BufTy).Contents (Elt F)),
    binary main_v99 main_v459 main_v460 (addi : (⟨S4194304, .i32⟩ : BufTy).Contents (Elt F) → (⟨S4194304, .i32⟩ : BufTy).Contents (Elt F) → (⟨S4194304, .i32⟩ : BufTy).Contents (Elt F)),
    nullary main_c_178 (constantI S_ 32 1#32),
    unary main_c_178 main_v461 (broadcastInDim S4194304 ![] bcast_S_S4194304 : (⟨S_, .i32⟩ : BufTy).Contents (Elt F) → (⟨S4194304, .i32⟩ : BufTy).Contents (Elt F)),
    binary main_v98 main_v461 main_v462 (addi : (⟨S4194304, .i32⟩ : BufTy).Contents (Elt F) → (⟨S4194304, .i32⟩ : BufTy).Contents (Elt F) → (⟨S4194304, .i32⟩ : BufTy).Contents (Elt F)),
    nullary main_c_179 (constantI S_ 32 0#32),
    unary main_c_179 main_v463 (broadcastInDim S4194304 ![] bcast_S_S4194304 : (⟨S_, .i32⟩ : BufTy).Contents (Elt F) → (⟨S4194304, .i32⟩ : BufTy).Contents (Elt F)),
    binary main_v97 main_v463 main_v464 (addi : (⟨S4194304, .i32⟩ : BufTy).Contents (Elt F) → (⟨S4194304, .i32⟩ : BufTy).Contents (Elt F) → (⟨S4194304, .i32⟩ : BufTy).Contents (Elt F)),
    nullary main_c_180 (constantI S_ 32 0#32),
    unary main_c_180 main_v465 (broadcastInDim S4194304 ![] bcast_S_S4194304 : (⟨S_, .i32⟩ : BufTy).Contents (Elt F) → (⟨S4194304, .i32⟩ : BufTy).Contents (Elt F)),
    binary main_v460 main_v465 main_v466 (cmpi .sge : (⟨S4194304, .i32⟩ : BufTy).Contents (Elt F) → (⟨S4194304, .i32⟩ : BufTy).Contents (Elt F) → (⟨S4194304, .i1⟩ : BufTy).Contents (Elt F)),
    nullary main_c_181 (constantI S_ 32 64#32),
    unary main_c_181 main_v467 (broadcastInDim S4194304 ![] bcast_S_S4194304 : (⟨S_, .i32⟩ : BufTy).Contents (Elt F) → (⟨S4194304, .i32⟩ : BufTy).Contents (Elt F)),
    binary main_v460 main_v467 main_v468 (cmpi .slt : (⟨S4194304, .i32⟩ : BufTy).Contents (Elt F) → (⟨S4194304, .i32⟩ : BufTy).Contents (Elt F) → (⟨S4194304, .i1⟩ : BufTy).Contents (Elt F)),
    binary main_v466 main_v468 main_v469 (andi : (⟨S4194304, .i1⟩ : BufTy).Contents (Elt F) → (⟨S4194304, .i1⟩ : BufTy).Contents (Elt F) → (⟨S4194304, .i1⟩ : BufTy).Contents (Elt F)),
    nullary main_c_182 (constantI S_ 32 0#32),
    unary main_c_182 main_v470 (broadcastInDim S4194304 ![] bcast_S_S4194304 : (⟨S_, .i32⟩ : BufTy).Contents (Elt F) → (⟨S4194304, .i32⟩ : BufTy).Contents (Elt F)),
    binary main_v462 main_v470 main_v471 (cmpi .sge : (⟨S4194304, .i32⟩ : BufTy).Contents (Elt F) → (⟨S4194304, .i32⟩ : BufTy).Contents (Elt F) → (⟨S4194304, .i1⟩ : BufTy).Contents (Elt F)),
    binary main_v469 main_v471 main_v472 (andi : (⟨S4194304, .i1⟩ : BufTy).Contents (Elt F) → (⟨S4194304, .i1⟩ : BufTy).Contents (Elt F) → (⟨S4194304, .i1⟩ : BufTy).Contents (Elt F)),
    nullary main_c_183 (constantI S_ 32 64#32),
    unary main_c_183 main_v473 (broadcastInDim S4194304 ![] bcast_S_S4194304 : (⟨S_, .i32⟩ : BufTy).Contents (Elt F) → (⟨S4194304, .i32⟩ : BufTy).Contents (Elt F)) ]

end Cert.AlphaGrid.RefRun

end
-- ==== Proof.RefRunWin10.lean ====
/- Window 10 of the reference's @main: it is the line of its operations (every call it makes unfolds to the callee's operations
   over that call's buffers, and the sequencing reassociates), and running that line carries the boundary facts across: from the
   stages held at the window's start to the stages held at its end. Each buffer the line writes holds its operation's function of
   its operands' contents; those are stages by hypothesis or by the same fact one operation earlier, and a stage is by definition
   its operation applied to its operands' stages. A buffer the line does not write keeps what it held.
   The window holds one concatenate: the line is cut before and after it, and the concatenate, run alone from contents whose four
   operand buffers are at their stages, leaves its result at the concatenate of those stages, which is its own stage. -/
import proofs.«104803_j90202903151142_1_alg».proof.Proof.RefRunOps10
import proofs.«104803_j90202903151142_1_alg».proof.Proof.RefRunInv
import proofs.«104803_j90202903151142_1_alg».proof.Proof.RefRunBase

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part10_eq (c : Dev nD) : main_part10 (F := F) c = seq ops10 := rfl

/-- The window's list in three consecutive pieces: up to the concatenate, the concatenate, the rest. -/
theorem ops10_split : (ops10 : List (HloOp τ sig (Elt F))) = ops10a ++ (ops10b ++ ops10c) := rfl

-- the sorts, gathers and reductions stay folded: the equations below never look inside them
attribute [local irreducible] Host.sort2 Host.gather Host.reduce in
set_option maxRecDepth 8192 in
set_option maxHeartbeats 4000000 in
/-- Across ops10a: the stages held at its start give the stages held at its end. -/
theorem win10a (W : Valuation τ sig (Elt F)) (a0 : FVec F S4194304x3 .f32) (a1 : FVec F S2x3 .f32)
    (a2 : FVec F S256x256x256 .f32) (a3 a4 : FVec F S64x3 .f32) (h : Inv10 W a0 a1 a2 a3 a4) :
    Inv10b (after ops10a W) a0 a1 a2 a3 a4 := by
  unfold Inv10 at h
  unfold Inv10b
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops10b: the stages held at its start give the stages held at its end. -/
theorem win10b (W : Valuation τ sig (Elt F)) (a0 : FVec F S4194304x3 .f32) (a1 : FVec F S2x3 .f32)
    (a2 : FVec F S256x256x256 .f32) (a3 a4 : FVec F S64x3 .f32) (h : Inv10b W a0 a1 a2 a3 a4) :
    Inv10c (after ops10b W) a0 a1 a2 a3 a4 := by
  unfold Inv10b at h
  unfold Inv10c
  have h0 : W (main_v446 : DevRef τ sig) = r_v446 a0 a1 a2 a3 a4 := by simp only [h]
  have h1 : W (main_v447 : DevRef τ sig) = r_v447 a0 a1 a2 a3 a4 := by simp only [h]
  have h2 : W (main_v448 : DevRef τ sig) = r_v448 a0 a1 a2 a3 a4 := by simp only [h]
  have h3 : W (main_v449 : DevRef τ sig) = r_v449 a0 a1 a2 a3 a4 := by simp only [h]
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)
    | exact (nary4_chunk _ _ _ W h0 h1 h2 h3).trans rfl

-- the sorts, gathers and reductions stay folded: the equations below never look inside them
attribute [local irreducible] Host.sort2 Host.gather Host.reduce in
set_option maxRecDepth 8192 in
set_option maxHeartbeats 4000000 in
/-- Across ops10c: the stages held at its start give the stages held at its end. -/
theorem win10c (W : Valuation τ sig (Elt F)) (a0 : FVec F S4194304x3 .f32) (a1 : FVec F S2x3 .f32)
    (a2 : FVec F S256x256x256 .f32) (a3 a4 : FVec F S64x3 .f32) (h : Inv10c W a0 a1 a2 a3 a4) :
    Inv11 (after ops10c W) a0 a1 a2 a3 a4 := by
  unfold Inv10c at h
  unfold Inv11
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

/-- Across the whole window. -/
theorem win10 (W : Valuation τ sig (Elt F)) (a0 : FVec F S4194304x3 .f32) (a1 : FVec F S2x3 .f32)
    (a2 : FVec F S256x256x256 .f32) (a3 a4 : FVec F S64x3 .f32) (h : Inv10 W a0 a1 a2 a3 a4) :
    Inv11 (after ops10 W) a0 a1 a2 a3 a4 := by
  rw [ops10_split, after_append, after_append]
  exact win10c _ _ _ _ _ _ (win10b _ _ _ _ _ _ (win10a _ _ _ _ _ _ h))

end Cert.AlphaGrid.RefRun

end
-- ==== Proof.RefRunOps11.lean ====
/- The operations 770 … 846 of the reference (of 941, calls unfolded at their sites), in order: the window main_part11 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops11 : List (HloOp τ sig (Elt F)) :=
  [ binary main_v462 main_v473 main_v474 (cmpi .slt : (⟨S4194304, .i32⟩ : BufTy).Contents (Elt F) → (⟨S4194304, .i32⟩ : BufTy).Contents (Elt F) → (⟨S4194304, .i1⟩ : BufTy).Contents (Elt F)),
    binary main_v472 main_v474 main_v475 (andi : (⟨S4194304, .i1⟩ : BufTy).Contents (Elt F) → (⟨S4194304, .i1⟩ : BufTy).Contents (Elt F) → (⟨S4194304, .i1⟩ : BufTy).Contents (Elt F)),
    nullary main_c_184 (constantI S_ 32 0#32),
    unary main_c_184 main_v476 (broadcastInDim S4194304 ![] bcast_S_S4194304 : (⟨S_, .i32⟩ : BufTy).Contents (Elt F) → (⟨S4194304, .i32⟩ : BufTy).Contents (Elt F)),
    binary main_v464 main_v476 main_v477 (cmpi .sge : (⟨S4194304, .i32⟩ : BufTy).Contents (Elt F) → (⟨S4194304, .i32⟩ : BufTy).Contents (Elt F) → (⟨S4194304, .i1⟩ : BufTy).Contents (Elt F)),
    binary main_v475 main_v477 main_v478 (andi : (⟨S4194304, .i1⟩ : BufTy).Contents (Elt F) → (⟨S4194304, .i1⟩ : BufTy).Contents (Elt F) → (⟨S4194304, .i1⟩ : BufTy).Contents (Elt F)),
    nullary main_c_185 (constantI S_ 32 64#32),
    unary main_c_185 main_v479 (broadcastInDim S4194304 ![] bcast_S_S4194304 : (⟨S_, .i32⟩ : BufTy).Contents (Elt F) → (⟨S4194304, .i32⟩ : BufTy).Contents (Elt F)),
    binary main_v464 main_v479 main_v480 (cmpi .slt : (⟨S4194304, .i32⟩ : BufTy).Contents (Elt F) → (⟨S4194304, .i32⟩ : BufTy).Contents (Elt F) → (⟨S4194304, .i1⟩ : BufTy).Contents (Elt F)),
    binary main_v478 main_v480 main_v481 (andi : (⟨S4194304, .i1⟩ : BufTy).Contents (Elt F) → (⟨S4194304, .i1⟩ : BufTy).Contents (Elt F) → (⟨S4194304, .i1⟩ : BufTy).Contents (Elt F)),
    nullary main_c_186 (constantI S_ 32 0#32),
    nullary main_c_187 (constantI S_ 32 63#32),
    TRef.unary (TRef.of (T := ⟨S_, .i32⟩) main_c_186) (TRef.of (T := ⟨S_, .i32⟩) main_call26_v0) id,
    TRef.unary (TRef.of (T := ⟨S_, .i32⟩) main_call26_v0) (TRef.of (T := ⟨S4194304, .i32⟩) main_call26_v1) (broadcastInDim S4194304 ![] bcast_S_S4194304),
    TRef.binary (TRef.of (T := ⟨S4194304, .i32⟩) main_call26_v1) (TRef.of (T := ⟨S4194304, .i32⟩) main_v460) (TRef.of (T := ⟨S4194304, .i32⟩) main_call26_v2) maxsi,
    TRef.unary (TRef.of (T := ⟨S_, .i32⟩) main_c_187) (TRef.of (T := ⟨S_, .i32⟩) main_call26_v3) id,
    TRef.unary (TRef.of (T := ⟨S_, .i32⟩) main_call26_v3) (TRef.of (T := ⟨S4194304, .i32⟩) main_call26_v4) (broadcastInDim S4194304 ![] bcast_S_S4194304),
    TRef.binary (TRef.of (T := ⟨S4194304, .i32⟩) main_call26_v4) (TRef.of (T := ⟨S4194304, .i32⟩) main_call26_v2) (TRef.of (T := ⟨S4194304, .i32⟩) main_v482) minsi,
    nullary main_c_188 (constantI S_ 32 0#32),
    nullary main_c_189 (constantI S_ 32 63#32),
    TRef.unary (TRef.of (T := ⟨S_, .i32⟩) main_c_188) (TRef.of (T := ⟨S_, .i32⟩) main_call27_v0) id,
    TRef.unary (TRef.of (T := ⟨S_, .i32⟩) main_call27_v0) (TRef.of (T := ⟨S4194304, .i32⟩) main_call27_v1) (broadcastInDim S4194304 ![] bcast_S_S4194304),
    TRef.binary (TRef.of (T := ⟨S4194304, .i32⟩) main_call27_v1) (TRef.of (T := ⟨S4194304, .i32⟩) main_v462) (TRef.of (T := ⟨S4194304, .i32⟩) main_call27_v2) maxsi,
    TRef.unary (TRef.of (T := ⟨S_, .i32⟩) main_c_189) (TRef.of (T := ⟨S_, .i32⟩) main_call27_v3) id,
    TRef.unary (TRef.of (T := ⟨S_, .i32⟩) main_call27_v3) (TRef.of (T := ⟨S4194304, .i32⟩) main_call27_v4) (broadcastInDim S4194304 ![] bcast_S_S4194304),
    TRef.binary (TRef.of (T := ⟨S4194304, .i32⟩) main_call27_v4) (TRef.of (T := ⟨S4194304, .i32⟩) main_call27_v2) (TRef.of (T := ⟨S4194304, .i32⟩) main_v483) minsi,
    nullary main_c_190 (constantI S_ 32 0#32),
    nullary main_c_191 (constantI S_ 32 63#32),
    TRef.unary (TRef.of (T := ⟨S_, .i32⟩) main_c_190) (TRef.of (T := ⟨S_, .i32⟩) main_call28_v0) id,
    TRef.unary (TRef.of (T := ⟨S_, .i32⟩) main_call28_v0) (TRef.of (T := ⟨S4194304, .i32⟩) main_call28_v1) (broadcastInDim S4194304 ![] bcast_S_S4194304),
    TRef.binary (TRef.of (T := ⟨S4194304, .i32⟩) main_call28_v1) (TRef.of (T := ⟨S4194304, .i32⟩) main_v464) (TRef.of (T := ⟨S4194304, .i32⟩) main_call28_v2) maxsi,
    TRef.unary (TRef.of (T := ⟨S_, .i32⟩) main_c_191) (TRef.of (T := ⟨S_, .i32⟩) main_call28_v3) id,
    TRef.unary (TRef.of (T := ⟨S_, .i32⟩) main_call28_v3) (TRef.of (T := ⟨S4194304, .i32⟩) main_call28_v4) (broadcastInDim S4194304 ![] bcast_S_S4194304),
    TRef.binary (TRef.of (T := ⟨S4194304, .i32⟩) main_call28_v4) (TRef.of (T := ⟨S4194304, .i32⟩) main_call28_v2) (TRef.of (T := ⟨S4194304, .i32⟩) main_v484) minsi,
    nullary main_c_192 (constantI S_ 32 0#32),
    unary main_c_192 main_v485 (broadcastInDim S4194304 ![] bcast_S_S4194304 : (⟨S_, .i32⟩ : BufTy).Contents (Elt F) → (⟨S4194304, .i32⟩ : BufTy).Contents (Elt F)),
    binary main_v30 main_v485 main_v486 (cmpi .slt : (⟨S4194304, .i32⟩ : BufTy).Contents (Elt F) → (⟨S4194304, .i32⟩ : BufTy).Contents (Elt F) → (⟨S4194304, .i1⟩ : BufTy).Contents (Elt F)),
    nullary main_c_193 (constantI S_ 32 64#32),
    unary main_c_193 main_v487 (broadcastInDim S4194304 ![] bcast_S_S4194304 : (⟨S_, .i32⟩ : BufTy).Contents (Elt F) → (⟨S4194304, .i32⟩ : BufTy).Contents (Elt F)),
    binary main_v30 main_v487 main_v488 (addi : (⟨S4194304, .i32⟩ : BufTy).Contents (Elt F) → (⟨S4194304, .i32⟩ : BufTy).Contents (Elt F) → (⟨S4194304, .i32⟩ : BufTy).Contents (Elt F)),
    ternary main_v486 main_v488 main_v30 main_v489 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_194 (constantI S_ 32 0#32),
    unary main_c_194 main_v490 (broadcastInDim S4194304 ![] bcast_S_S4194304 : (⟨S_, .i32⟩ : BufTy).Contents (Elt F) → (⟨S4194304, .i32⟩ : BufTy).Contents (Elt F)),
    binary main_v482 main_v490 main_v491 (cmpi .slt : (⟨S4194304, .i32⟩ : BufTy).Contents (Elt F) → (⟨S4194304, .i32⟩ : BufTy).Contents (Elt F) → (⟨S4194304, .i1⟩ : BufTy).Contents (Elt F)),
    nullary main_c_195 (constantI S_ 32 64#32),
    unary main_c_195 main_v492 (broadcastInDim S4194304 ![] bcast_S_S4194304 : (⟨S_, .i32⟩ : BufTy).Contents (Elt F) → (⟨S4194304, .i32⟩ : BufTy).Contents (Elt F)),
    binary main_v482 main_v492 main_v493 (addi : (⟨S4194304, .i32⟩ : BufTy).Contents (Elt F) → (⟨S4194304, .i32⟩ : BufTy).Contents (Elt F) → (⟨S4194304, .i32⟩ : BufTy).Contents (Elt F)),
    ternary main_v491 main_v493 main_v482 main_v494 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_196 (constantI S_ 32 0#32),
    unary main_c_196 main_v495 (broadcastInDim S4194304 ![] bcast_S_S4194304 : (⟨S_, .i32⟩ : BufTy).Contents (Elt F) → (⟨S4194304, .i32⟩ : BufTy).Contents (Elt F)),
    binary main_v483 main_v495 main_v496 (cmpi .slt : (⟨S4194304, .i32⟩ : BufTy).Contents (Elt F) → (⟨S4194304, .i32⟩ : BufTy).Contents (Elt F) → (⟨S4194304, .i1⟩ : BufTy).Contents (Elt F)),
    nullary main_c_197 (constantI S_ 32 64#32),
    unary main_c_197 main_v497 (broadcastInDim S4194304 ![] bcast_S_S4194304 : (⟨S_, .i32⟩ : BufTy).Contents (Elt F) → (⟨S4194304, .i32⟩ : BufTy).Contents (Elt F)),
    binary main_v483 main_v497 main_v498 (addi : (⟨S4194304, .i32⟩ : BufTy).Contents (Elt F) → (⟨S4194304, .i32⟩ : BufTy).Contents (Elt F) → (⟨S4194304, .i32⟩ : BufTy).Contents (Elt F)),
    ternary main_v496 main_v498 main_v483 main_v499 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_198 (constantI S_ 32 0#32),
    unary main_c_198 main_v500 (broadcastInDim S4194304 ![] bcast_S_S4194304 : (⟨S_, .i32⟩ : BufTy).Contents (Elt F) → (⟨S4194304, .i32⟩ : BufTy).Contents (Elt F)),
    binary main_v484 main_v500 main_v501 (cmpi .slt : (⟨S4194304, .i32⟩ : BufTy).Contents (Elt F) → (⟨S4194304, .i32⟩ : BufTy).Contents (Elt F) → (⟨S4194304, .i1⟩ : BufTy).Contents (Elt F)),
    nullary main_c_199 (constantI S_ 32 64#32),
    unary main_c_199 main_v502 (broadcastInDim S4194304 ![] bcast_S_S4194304 : (⟨S_, .i32⟩ : BufTy).Contents (Elt F) → (⟨S4194304, .i32⟩ : BufTy).Contents (Elt F)),
    binary main_v484 main_v502 main_v503 (addi : (⟨S4194304, .i32⟩ : BufTy).Contents (Elt F) → (⟨S4194304, .i32⟩ : BufTy).Contents (Elt F) → (⟨S4194304, .i32⟩ : BufTy).Contents (Elt F)),
    ternary main_v501 main_v503 main_v484 main_v504 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v489 main_v505 (broadcastInDim S4194304x1 ![0] bcast_S4194304_S4194304x1_0 : (⟨S4194304, .i32⟩ : BufTy).Contents (Elt F) → (⟨S4194304x1, .i32⟩ : BufTy).Contents (Elt F)),
    unary main_v494 main_v506 (broadcastInDim S4194304x1 ![0] bcast_S4194304_S4194304x1_0 : (⟨S4194304, .i32⟩ : BufTy).Contents (Elt F) → (⟨S4194304x1, .i32⟩ : BufTy).Contents (Elt F)),
    unary main_v499 main_v507 (broadcastInDim S4194304x1 ![0] bcast_S4194304_S4194304x1_0 : (⟨S4194304, .i32⟩ : BufTy).Contents (Elt F) → (⟨S4194304x1, .i32⟩ : BufTy).Contents (Elt F)),
    unary main_v504 main_v508 (broadcastInDim S4194304x1 ![0] bcast_S4194304_S4194304x1_0 : (⟨S4194304, .i32⟩ : BufTy).Contents (Elt F) → (⟨S4194304x1, .i32⟩ : BufTy).Contents (Elt F)),
    nary ![main_v505, main_v506, main_v507, main_v508] main_v509 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1),
    binary main_v66 main_v509 main_v510 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_200 (constant S_ .f32 0x00000000#32),
    TRef.unary (TRef.of (T := ⟨S_, .f32⟩) main_cst_200) (TRef.of (T := ⟨S_, .f32⟩) main_call29_v0) id,
    TRef.unary (TRef.of (T := ⟨S_, .f32⟩) main_call29_v0) (TRef.of (T := ⟨S4194304, .f32⟩) main_call29_v1) (broadcastInDim S4194304 ![] bcast_S_S4194304),
    TRef.ternary (TRef.of (T := ⟨S4194304, .i1⟩) main_v481) (TRef.of (T := ⟨S4194304, .f32⟩) main_v510) (TRef.of (T := ⟨S4194304, .f32⟩) main_call29_v1) (TRef.of (T := ⟨S4194304, .f32⟩) main_v511) select,
    binary main_v458 main_v511 main_v512 (mulf : (⟨S4194304, .f32⟩ : BufTy).Contents (Elt F) → (⟨S4194304, .f32⟩ : BufTy).Contents (Elt F) → (⟨S4194304, .f32⟩ : BufTy).Contents (Elt F)),
    binary main_v454 main_v512 main_v513 (addf : (⟨S4194304, .f32⟩ : BufTy).Contents (Elt F) → (⟨S4194304, .f32⟩ : BufTy).Contents (Elt F) → (⟨S4194304, .f32⟩ : BufTy).Contents (Elt F)),
    binary main_v96 main_v95 main_v514 (mulf : (⟨S4194304, .f32⟩ : BufTy).Contents (Elt F) → (⟨S4194304, .f32⟩ : BufTy).Contents (Elt F) → (⟨S4194304, .f32⟩ : BufTy).Contents (Elt F)),
    binary main_v514 main_v94 main_v515 (mulf : (⟨S4194304, .f32⟩ : BufTy).Contents (Elt F) → (⟨S4194304, .f32⟩ : BufTy).Contents (Elt F) → (⟨S4194304, .f32⟩ : BufTy).Contents (Elt F)),
    nullary main_c_201 (constantI S_ 32 1#32) ]

theorem ops11_sub : (ops11 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., unary_bufs_sub .., ternary_bufs_sub .., binary_bufs_sub .., binary_bufs_sub .., binary_bufs_sub .., binary_bufs_sub .., nullary_bufs_sub ..⟩

theorem ops11_fresh : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
abbrev ops11a : List (HloOp τ sig (Elt F)) :=
  [ binary main_v462 main_v473 main_v474 (cmpi .slt : (⟨S4194304, .i32⟩ : BufTy).Contents (Elt F) → (⟨S4194304, .i32⟩ : BufTy).Contents (Elt F) → (⟨S4194304, .i1⟩ : BufTy).Contents (Elt F)),
    binary main_v472 main_v474 main_v475 (andi : (⟨S4194304, .i1⟩ : BufTy).Contents (Elt F) → (⟨S4194304, .i1⟩ : BufTy).Contents (Elt F) → (⟨S4194304, .i1⟩ : BufTy).Contents (Elt F)),
    nullary main_c_184 (constantI S_ 32 0#32),
    unary main_c_184 main_v476 (broadcastInDim S4194304 ![] bcast_S_S4194304 : (⟨S_, .i32⟩ : BufTy).Contents (Elt F) → (⟨S4194304, .i32⟩ : BufTy).Contents (Elt F)),
    binary main_v464 main_v476 main_v477 (cmpi .sge : (⟨S4194304, .i32⟩ : BufTy).Contents (Elt F) → (⟨S4194304, .i32⟩ : BufTy).Contents (Elt F) → (⟨S4194304, .i1⟩ : BufTy).Contents (Elt F)),
    binary main_v475 main_v477 main_v478 (andi : (⟨S4194304, .i1⟩ : BufTy).Contents (Elt F) → (⟨S4194304, .i1⟩ : BufTy).Contents (Elt F) → (⟨S4194304, .i1⟩ : BufTy).Contents (Elt F)),
    nullary main_c_185 (constantI S_ 32 64#32),
    unary main_c_185 main_v479 (broadcastInDim S4194304 ![] bcast_S_S4194304 : (⟨S_, .i32⟩ : BufTy).Contents (Elt F) → (⟨S4194304, .i32⟩ : BufTy).Contents (Elt F)),
    binary main_v464 main_v479 main_v480 (cmpi .slt : (⟨S4194304, .i32⟩ : BufTy).Contents (Elt F) → (⟨S4194304, .i32⟩ : BufTy).Contents (Elt F) → (⟨S4194304, .i1⟩ : BufTy).Contents (Elt F)),
    binary main_v478 main_v480 main_v481 (andi : (⟨S4194304, .i1⟩ : BufTy).Contents (Elt F) → (⟨S4194304, .i1⟩ : BufTy).Contents (Elt F) → (⟨S4194304, .i1⟩ : BufTy).Contents (Elt F)),
    nullary main_c_186 (constantI S_ 32 0#32),
    nullary main_c_187 (constantI S_ 32 63#32),
    TRef.unary (TRef.of (T := ⟨S_, .i32⟩) main_c_186) (TRef.of (T := ⟨S_, .i32⟩) main_call26_v0) id,
    TRef.unary (TRef.of (T := ⟨S_, .i32⟩) main_call26_v0) (TRef.of (T := ⟨S4194304, .i32⟩) main_call26_v1) (broadcastInDim S4194304 ![] bcast_S_S4194304),
    TRef.binary (TRef.of (T := ⟨S4194304, .i32⟩) main_call26_v1) (TRef.of (T := ⟨S4194304, .i32⟩) main_v460) (TRef.of (T := ⟨S4194304, .i32⟩) main_call26_v2) maxsi,
    TRef.unary (TRef.of (T := ⟨S_, .i32⟩) main_c_187) (TRef.of (T := ⟨S_, .i32⟩) main_call26_v3) id,
    TRef.unary (TRef.of (T := ⟨S_, .i32⟩) main_call26_v3) (TRef.of (T := ⟨S4194304, .i32⟩) main_call26_v4) (broadcastInDim S4194304 ![] bcast_S_S4194304),
    TRef.binary (TRef.of (T := ⟨S4194304, .i32⟩) main_call26_v4) (TRef.of (T := ⟨S4194304, .i32⟩) main_call26_v2) (TRef.of (T := ⟨S4194304, .i32⟩) main_v482) minsi,
    nullary main_c_188 (constantI S_ 32 0#32),
    nullary main_c_189 (constantI S_ 32 63#32),
    TRef.unary (TRef.of (T := ⟨S_, .i32⟩) main_c_188) (TRef.of (T := ⟨S_, .i32⟩) main_call27_v0) id,
    TRef.unary (TRef.of (T := ⟨S_, .i32⟩) main_call27_v0) (TRef.of (T := ⟨S4194304, .i32⟩) main_call27_v1) (broadcastInDim S4194304 ![] bcast_S_S4194304),
    TRef.binary (TRef.of (T := ⟨S4194304, .i32⟩) main_call27_v1) (TRef.of (T := ⟨S4194304, .i32⟩) main_v462) (TRef.of (T := ⟨S4194304, .i32⟩) main_call27_v2) maxsi,
    TRef.unary (TRef.of (T := ⟨S_, .i32⟩) main_c_189) (TRef.of (T := ⟨S_, .i32⟩) main_call27_v3) id,
    TRef.unary (TRef.of (T := ⟨S_, .i32⟩) main_call27_v3) (TRef.of (T := ⟨S4194304, .i32⟩) main_call27_v4) (broadcastInDim S4194304 ![] bcast_S_S4194304),
    TRef.binary (TRef.of (T := ⟨S4194304, .i32⟩) main_call27_v4) (TRef.of (T := ⟨S4194304, .i32⟩) main_call27_v2) (TRef.of (T := ⟨S4194304, .i32⟩) main_v483) minsi,
    nullary main_c_190 (constantI S_ 32 0#32),
    nullary main_c_191 (constantI S_ 32 63#32),
    TRef.unary (TRef.of (T := ⟨S_, .i32⟩) main_c_190) (TRef.of (T := ⟨S_, .i32⟩) main_call28_v0) id,
    TRef.unary (TRef.of (T := ⟨S_, .i32⟩) main_call28_v0) (TRef.of (T := ⟨S4194304, .i32⟩) main_call28_v1) (broadcastInDim S4194304 ![] bcast_S_S4194304),
    TRef.binary (TRef.of (T := ⟨S4194304, .i32⟩) main_call28_v1) (TRef.of (T := ⟨S4194304, .i32⟩) main_v464) (TRef.of (T := ⟨S4194304, .i32⟩) main_call28_v2) maxsi,
    TRef.unary (TRef.of (T := ⟨S_, .i32⟩) main_c_191) (TRef.of (T := ⟨S_, .i32⟩) main_call28_v3) id,
    TRef.unary (TRef.of (T := ⟨S_, .i32⟩) main_call28_v3) (TRef.of (T := ⟨S4194304, .i32⟩) main_call28_v4) (broadcastInDim S4194304 ![] bcast_S_S4194304),
    TRef.binary (TRef.of (T := ⟨S4194304, .i32⟩) main_call28_v4) (TRef.of (T := ⟨S4194304, .i32⟩) main_call28_v2) (TRef.of (T := ⟨S4194304, .i32⟩) main_v484) minsi,
    nullary main_c_192 (constantI S_ 32 0#32),
    unary main_c_192 main_v485 (broadcastInDim S4194304 ![] bcast_S_S4194304 : (⟨S_, .i32⟩ : BufTy).Contents (Elt F) → (⟨S4194304, .i32⟩ : BufTy).Contents (Elt F)),
    binary main_v30 main_v485 main_v486 (cmpi .slt : (⟨S4194304, .i32⟩ : BufTy).Contents (Elt F) → (⟨S4194304, .i32⟩ : BufTy).Contents (Elt F) → (⟨S4194304, .i1⟩ : BufTy).Contents (Elt F)),
    nullary main_c_193 (constantI S_ 32 64#32),
    unary main_c_193 main_v487 (broadcastInDim S4194304 ![] bcast_S_S4194304 : (⟨S_, .i32⟩ : BufTy).Contents (Elt F) → (⟨S4194304, .i32⟩ : BufTy).Contents (Elt F)),
    binary main_v30 main_v487 main_v488 (addi : (⟨S4194304, .i32⟩ : BufTy).Contents (Elt F) → (⟨S4194304, .i32⟩ : BufTy).Contents (Elt F) → (⟨S4194304, .i32⟩ : BufTy).Contents (Elt F)),
    ternary main_v486 main_v488 main_v30 main_v489 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_194 (constantI S_ 32 0#32),
    unary main_c_194 main_v490 (broadcastInDim S4194304 ![] bcast_S_S4194304 : (⟨S_, .i32⟩ : BufTy).Contents (Elt F) → (⟨S4194304, .i32⟩ : BufTy).Contents (Elt F)),
    binary main_v482 main_v490 main_v491 (cmpi .slt : (⟨S4194304, .i32⟩ : BufTy).Contents (Elt F) → (⟨S4194304, .i32⟩ : BufTy).Contents (Elt F) → (⟨S4194304, .i1⟩ : BufTy).Contents (Elt F)),
    nullary main_c_195 (constantI S_ 32 64#32),
    unary main_c_195 main_v492 (broadcastInDim S4194304 ![] bcast_S_S4194304 : (⟨S_, .i32⟩ : BufTy).Contents (Elt F) → (⟨S4194304, .i32⟩ : BufTy).Contents (Elt F)),
    binary main_v482 main_v492 main_v493 (addi : (⟨S4194304, .i32⟩ : BufTy).Contents (Elt F) → (⟨S4194304, .i32⟩ : BufTy).Contents (Elt F) → (⟨S4194304, .i32⟩ : BufTy).Contents (Elt F)),
    ternary main_v491 main_v493 main_v482 main_v494 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_196 (constantI S_ 32 0#32),
    unary main_c_196 main_v495 (broadcastInDim S4194304 ![] bcast_S_S4194304 : (⟨S_, .i32⟩ : BufTy).Contents (Elt F) → (⟨S4194304, .i32⟩ : BufTy).Contents (Elt F)),
    binary main_v483 main_v495 main_v496 (cmpi .slt : (⟨S4194304, .i32⟩ : BufTy).Contents (Elt F) → (⟨S4194304, .i32⟩ : BufTy).Contents (Elt F) → (⟨S4194304, .i1⟩ : BufTy).Contents (Elt F)),
    nullary main_c_197 (constantI S_ 32 64#32),
    unary main_c_197 main_v497 (broadcastInDim S4194304 ![] bcast_S_S4194304 : (⟨S_, .i32⟩ : BufTy).Contents (Elt F) → (⟨S4194304, .i32⟩ : BufTy).Contents (Elt F)),
    binary main_v483 main_v497 main_v498 (addi : (⟨S4194304, .i32⟩ : BufTy).Contents (Elt F) → (⟨S4194304, .i32⟩ : BufTy).Contents (Elt F) → (⟨S4194304, .i32⟩ : BufTy).Contents (Elt F)),
    ternary main_v496 main_v498 main_v483 main_v499 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_198 (constantI S_ 32 0#32),
    unary main_c_198 main_v500 (broadcastInDim S4194304 ![] bcast_S_S4194304 : (⟨S_, .i32⟩ : BufTy).Contents (Elt F) → (⟨S4194304, .i32⟩ : BufTy).Contents (Elt F)),
    binary main_v484 main_v500 main_v501 (cmpi .slt : (⟨S4194304, .i32⟩ : BufTy).Contents (Elt F) → (⟨S4194304, .i32⟩ : BufTy).Contents (Elt F) → (⟨S4194304, .i1⟩ : BufTy).Contents (Elt F)),
    nullary main_c_199 (constantI S_ 32 64#32),
    unary main_c_199 main_v502 (broadcastInDim S4194304 ![] bcast_S_S4194304 : (⟨S_, .i32⟩ : BufTy).Contents (Elt F) → (⟨S4194304, .i32⟩ : BufTy).Contents (Elt F)),
    binary main_v484 main_v502 main_v503 (addi : (⟨S4194304, .i32⟩ : BufTy).Contents (Elt F) → (⟨S4194304, .i32⟩ : BufTy).Contents (Elt F) → (⟨S4194304, .i32⟩ : BufTy).Contents (Elt F)),
    ternary main_v501 main_v503 main_v484 main_v504 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v489 main_v505 (broadcastInDim S4194304x1 ![0] bcast_S4194304_S4194304x1_0 : (⟨S4194304, .i32⟩ : BufTy).Contents (Elt F) → (⟨S4194304x1, .i32⟩ : BufTy).Contents (Elt F)),
    unary main_v494 main_v506 (broadcastInDim S4194304x1 ![0] bcast_S4194304_S4194304x1_0 : (⟨S4194304, .i32⟩ : BufTy).Contents (Elt F) → (⟨S4194304x1, .i32⟩ : BufTy).Contents (Elt F)),
    unary main_v499 main_v507 (broadcastInDim S4194304x1 ![0] bcast_S4194304_S4194304x1_0 : (⟨S4194304, .i32⟩ : BufTy).Contents (Elt F) → (⟨S4194304x1, .i32⟩ : BufTy).Contents (Elt F)),
    unary main_v504 main_v508 (broadcastInDim S4194304x1 ![0] bcast_S4194304_S4194304x1_0 : (⟨S4194304, .i32⟩ : BufTy).Contents (Elt F) → (⟨S4194304x1, .i32⟩ : BufTy).Contents (Elt F)) ]

set_option maxHeartbeats 4000000 in
abbrev ops11b : List (HloOp τ sig (Elt F)) :=
  [ nary ![main_v505, main_v506, main_v507, main_v508] main_v509 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ]

set_option maxHeartbeats 4000000 in
abbrev ops11c : List (HloOp τ sig (Elt F)) :=
  [ binary main_v66 main_v509 main_v510 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_200 (constant S_ .f32 0x00000000#32),
    TRef.unary (TRef.of (T := ⟨S_, .f32⟩) main_cst_200) (TRef.of (T := ⟨S_, .f32⟩) main_call29_v0) id,
    TRef.unary (TRef.of (T := ⟨S_, .f32⟩) main_call29_v0) (TRef.of (T := ⟨S4194304, .f32⟩) main_call29_v1) (broadcastInDim S4194304 ![] bcast_S_S4194304),
    TRef.ternary (TRef.of (T := ⟨S4194304, .i1⟩) main_v481) (TRef.of (T := ⟨S4194304, .f32⟩) main_v510) (TRef.of (T := ⟨S4194304, .f32⟩) main_call29_v1) (TRef.of (T := ⟨S4194304, .f32⟩) main_v511) select,
    binary main_v458 main_v511 main_v512 (mulf : (⟨S4194304, .f32⟩ : BufTy).Contents (Elt F) → (⟨S4194304, .f32⟩ : BufTy).Contents (Elt F) → (⟨S4194304, .f32⟩ : BufTy).Contents (Elt F)),
    binary main_v454 main_v512 main_v513 (addf : (⟨S4194304, .f32⟩ : BufTy).Contents (Elt F) → (⟨S4194304, .f32⟩ : BufTy).Contents (Elt F) → (⟨S4194304, .f32⟩ : BufTy).Contents (Elt F)),
    binary main_v96 main_v95 main_v514 (mulf : (⟨S4194304, .f32⟩ : BufTy).Contents (Elt F) → (⟨S4194304, .f32⟩ : BufTy).Contents (Elt F) → (⟨S4194304, .f32⟩ : BufTy).Contents (Elt F)),
    binary main_v514 main_v94 main_v515 (mulf : (⟨S4194304, .f32⟩ : BufTy).Contents (Elt F) → (⟨S4194304, .f32⟩ : BufTy).Contents (Elt F) → (⟨S4194304, .f32⟩ : BufTy).Contents (Elt F)),
    nullary main_c_201 (constantI S_ 32 1#32) ]

end Cert.AlphaGrid.RefRun

end
-- ==== Proof.RefRunWin11.lean ====
/- Window 11 of the reference's @main: it is the line of its operations (every call it makes unfolds to the callee's operations
   over that call's buffers, and the sequencing reassociates), and running that line carries the boundary facts across: from the
   stages held at the window's start to the stages held at its end. Each buffer the line writes holds its operation's function of
   its operands' contents; those are stages by hypothesis or by the same fact one operation earlier, and a stage is by definition
   its operation applied to its operands' stages. A buffer the line does not write keeps what it held.
   The window holds one concatenate: the line is cut before and after it, and the concatenate, run alone from contents whose four
   operand buffers are at their stages, leaves its result at the concatenate of those stages, which is its own stage. -/
import proofs.«104803_j90202903151142_1_alg».proof.Proof.RefRunOps11
import proofs.«104803_j90202903151142_1_alg».proof.Proof.RefRunInv
import proofs.«104803_j90202903151142_1_alg».proof.Proof.RefRunBase

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part11_eq (c : Dev nD) : main_part11 (F := F) c = seq ops11 := rfl

/-- The window's list in three consecutive pieces: up to the concatenate, the concatenate, the rest. -/
theorem ops11_split : (ops11 : List (HloOp τ sig (Elt F))) = ops11a ++ (ops11b ++ ops11c) := rfl

-- the sorts, gathers and reductions stay folded: the equations below never look inside them
attribute [local irreducible] Host.sort2 Host.gather Host.reduce in
set_option maxRecDepth 8192 in
set_option maxHeartbeats 4000000 in
/-- Across ops11a: the stages held at its start give the stages held at its end. -/
theorem win11a (W : Valuation τ sig (Elt F)) (a0 : FVec F S4194304x3 .f32) (a1 : FVec F S2x3 .f32)
    (a2 : FVec F S256x256x256 .f32) (a3 a4 : FVec F S64x3 .f32) (h : Inv11 W a0 a1 a2 a3 a4) :
    Inv11b (after ops11a W) a0 a1 a2 a3 a4 := by
  unfold Inv11 at h
  unfold Inv11b
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops11b: the stages held at its start give the stages held at its end. -/
theorem win11b (W : Valuation τ sig (Elt F)) (a0 : FVec F S4194304x3 .f32) (a1 : FVec F S2x3 .f32)
    (a2 : FVec F S256x256x256 .f32) (a3 a4 : FVec F S64x3 .f32) (h : Inv11b W a0 a1 a2 a3 a4) :
    Inv11c (after ops11b W) a0 a1 a2 a3 a4 := by
  unfold Inv11b at h
  unfold Inv11c
  have h0 : W (main_v505 : DevRef τ sig) = r_v505 a0 a1 a2 a3 a4 := by simp only [h]
  have h1 : W (main_v506 : DevRef τ sig) = r_v506 a0 a1 a2 a3 a4 := by simp only [h]
  have h2 : W (main_v507 : DevRef τ sig) = r_v507 a0 a1 a2 a3 a4 := by simp only [h]
  have h3 : W (main_v508 : DevRef τ sig) = r_v508 a0 a1 a2 a3 a4 := by simp only [h]
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)
    | exact (nary4_chunk _ _ _ W h0 h1 h2 h3).trans rfl

-- the sorts, gathers and reductions stay folded: the equations below never look inside them
attribute [local irreducible] Host.sort2 Host.gather Host.reduce in
set_option maxRecDepth 8192 in
set_option maxHeartbeats 4000000 in
/-- Across ops11c: the stages held at its start give the stages held at its end. -/
theorem win11c (W : Valuation τ sig (Elt F)) (a0 : FVec F S4194304x3 .f32) (a1 : FVec F S2x3 .f32)
    (a2 : FVec F S256x256x256 .f32) (a3 a4 : FVec F S64x3 .f32) (h : Inv11c W a0 a1 a2 a3 a4) :
    Inv12 (after ops11c W) a0 a1 a2 a3 a4 := by
  unfold Inv11c at h
  unfold Inv12
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

/-- Across the whole window. -/
theorem win11 (W : Valuation τ sig (Elt F)) (a0 : FVec F S4194304x3 .f32) (a1 : FVec F S2x3 .f32)
    (a2 : FVec F S256x256x256 .f32) (a3 a4 : FVec F S64x3 .f32) (h : Inv11 W a0 a1 a2 a3 a4) :
    Inv12 (after ops11 W) a0 a1 a2 a3 a4 := by
  rw [ops11_split, after_append, after_append]
  exact win11c _ _ _ _ _ _ (win11b _ _ _ _ _ _ (win11a _ _ _ _ _ _ h))

end Cert.AlphaGrid.RefRun

end
-- ==== Proof.RefRunOps12.lean ====
/- The operations 847 … 921 of the reference (of 941, calls unfolded at their sites), in order: the window main_part12 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops12 : List (HloOp τ sig (Elt F)) :=
  [ unary main_c_201 main_v516 (broadcastInDim S4194304 ![] bcast_S_S4194304 : (⟨S_, .i32⟩ : BufTy).Contents (Elt F) → (⟨S4194304, .i32⟩ : BufTy).Contents (Elt F)),
    binary main_v99 main_v516 main_v517 (addi : (⟨S4194304, .i32⟩ : BufTy).Contents (Elt F) → (⟨S4194304, .i32⟩ : BufTy).Contents (Elt F) → (⟨S4194304, .i32⟩ : BufTy).Contents (Elt F)),
    nullary main_c_202 (constantI S_ 32 1#32),
    unary main_c_202 main_v518 (broadcastInDim S4194304 ![] bcast_S_S4194304 : (⟨S_, .i32⟩ : BufTy).Contents (Elt F) → (⟨S4194304, .i32⟩ : BufTy).Contents (Elt F)),
    binary main_v98 main_v518 main_v519 (addi : (⟨S4194304, .i32⟩ : BufTy).Contents (Elt F) → (⟨S4194304, .i32⟩ : BufTy).Contents (Elt F) → (⟨S4194304, .i32⟩ : BufTy).Contents (Elt F)),
    nullary main_c_203 (constantI S_ 32 1#32),
    unary main_c_203 main_v520 (broadcastInDim S4194304 ![] bcast_S_S4194304 : (⟨S_, .i32⟩ : BufTy).Contents (Elt F) → (⟨S4194304, .i32⟩ : BufTy).Contents (Elt F)),
    binary main_v97 main_v520 main_v521 (addi : (⟨S4194304, .i32⟩ : BufTy).Contents (Elt F) → (⟨S4194304, .i32⟩ : BufTy).Contents (Elt F) → (⟨S4194304, .i32⟩ : BufTy).Contents (Elt F)),
    nullary main_c_204 (constantI S_ 32 0#32),
    unary main_c_204 main_v522 (broadcastInDim S4194304 ![] bcast_S_S4194304 : (⟨S_, .i32⟩ : BufTy).Contents (Elt F) → (⟨S4194304, .i32⟩ : BufTy).Contents (Elt F)),
    binary main_v517 main_v522 main_v523 (cmpi .sge : (⟨S4194304, .i32⟩ : BufTy).Contents (Elt F) → (⟨S4194304, .i32⟩ : BufTy).Contents (Elt F) → (⟨S4194304, .i1⟩ : BufTy).Contents (Elt F)),
    nullary main_c_205 (constantI S_ 32 64#32),
    unary main_c_205 main_v524 (broadcastInDim S4194304 ![] bcast_S_S4194304 : (⟨S_, .i32⟩ : BufTy).Contents (Elt F) → (⟨S4194304, .i32⟩ : BufTy).Contents (Elt F)),
    binary main_v517 main_v524 main_v525 (cmpi .slt : (⟨S4194304, .i32⟩ : BufTy).Contents (Elt F) → (⟨S4194304, .i32⟩ : BufTy).Contents (Elt F) → (⟨S4194304, .i1⟩ : BufTy).Contents (Elt F)),
    binary main_v523 main_v525 main_v526 (andi : (⟨S4194304, .i1⟩ : BufTy).Contents (Elt F) → (⟨S4194304, .i1⟩ : BufTy).Contents (Elt F) → (⟨S4194304, .i1⟩ : BufTy).Contents (Elt F)),
    nullary main_c_206 (constantI S_ 32 0#32),
    unary main_c_206 main_v527 (broadcastInDim S4194304 ![] bcast_S_S4194304 : (⟨S_, .i32⟩ : BufTy).Contents (Elt F) → (⟨S4194304, .i32⟩ : BufTy).Contents (Elt F)),
    binary main_v519 main_v527 main_v528 (cmpi .sge : (⟨S4194304, .i32⟩ : BufTy).Contents (Elt F) → (⟨S4194304, .i32⟩ : BufTy).Contents (Elt F) → (⟨S4194304, .i1⟩ : BufTy).Contents (Elt F)),
    binary main_v526 main_v528 main_v529 (andi : (⟨S4194304, .i1⟩ : BufTy).Contents (Elt F) → (⟨S4194304, .i1⟩ : BufTy).Contents (Elt F) → (⟨S4194304, .i1⟩ : BufTy).Contents (Elt F)),
    nullary main_c_207 (constantI S_ 32 64#32),
    unary main_c_207 main_v530 (broadcastInDim S4194304 ![] bcast_S_S4194304 : (⟨S_, .i32⟩ : BufTy).Contents (Elt F) → (⟨S4194304, .i32⟩ : BufTy).Contents (Elt F)),
    binary main_v519 main_v530 main_v531 (cmpi .slt : (⟨S4194304, .i32⟩ : BufTy).Contents (Elt F) → (⟨S4194304, .i32⟩ : BufTy).Contents (Elt F) → (⟨S4194304, .i1⟩ : BufTy).Contents (Elt F)),
    binary main_v529 main_v531 main_v532 (andi : (⟨S4194304, .i1⟩ : BufTy).Contents (Elt F) → (⟨S4194304, .i1⟩ : BufTy).Contents (Elt F) → (⟨S4194304, .i1⟩ : BufTy).Contents (Elt F)),
    nullary main_c_208 (constantI S_ 32 0#32),
    unary main_c_208 main_v533 (broadcastInDim S4194304 ![] bcast_S_S4194304 : (⟨S_, .i32⟩ : BufTy).Contents (Elt F) → (⟨S4194304, .i32⟩ : BufTy).Contents (Elt F)),
    binary main_v521 main_v533 main_v534 (cmpi .sge : (⟨S4194304, .i32⟩ : BufTy).Contents (Elt F) → (⟨S4194304, .i32⟩ : BufTy).Contents (Elt F) → (⟨S4194304, .i1⟩ : BufTy).Contents (Elt F)),
    binary main_v532 main_v534 main_v535 (andi : (⟨S4194304, .i1⟩ : BufTy).Contents (Elt F) → (⟨S4194304, .i1⟩ : BufTy).Contents (Elt F) → (⟨S4194304, .i1⟩ : BufTy).Contents (Elt F)),
    nullary main_c_209 (constantI S_ 32 64#32),
    unary main_c_209 main_v536 (broadcastInDim S4194304 ![] bcast_S_S4194304 : (⟨S_, .i32⟩ : BufTy).Contents (Elt F) → (⟨S4194304, .i32⟩ : BufTy).Contents (Elt F)),
    binary main_v521 main_v536 main_v537 (cmpi .slt : (⟨S4194304, .i32⟩ : BufTy).Contents (Elt F) → (⟨S4194304, .i32⟩ : BufTy).Contents (Elt F) → (⟨S4194304, .i1⟩ : BufTy).Contents (Elt F)),
    binary main_v535 main_v537 main_v538 (andi : (⟨S4194304, .i1⟩ : BufTy).Contents (Elt F) → (⟨S4194304, .i1⟩ : BufTy).Contents (Elt F) → (⟨S4194304, .i1⟩ : BufTy).Contents (Elt F)),
    nullary main_c_210 (constantI S_ 32 0#32),
    nullary main_c_211 (constantI S_ 32 63#32),
    TRef.unary (TRef.of (T := ⟨S_, .i32⟩) main_c_210) (TRef.of (T := ⟨S_, .i32⟩) main_call30_v0) id,
    TRef.unary (TRef.of (T := ⟨S_, .i32⟩) main_call30_v0) (TRef.of (T := ⟨S4194304, .i32⟩) main_call30_v1) (broadcastInDim S4194304 ![] bcast_S_S4194304),
    TRef.binary (TRef.of (T := ⟨S4194304, .i32⟩) main_call30_v1) (TRef.of (T := ⟨S4194304, .i32⟩) main_v517) (TRef.of (T := ⟨S4194304, .i32⟩) main_call30_v2) maxsi,
    TRef.unary (TRef.of (T := ⟨S_, .i32⟩) main_c_211) (TRef.of (T := ⟨S_, .i32⟩) main_call30_v3) id,
    TRef.unary (TRef.of (T := ⟨S_, .i32⟩) main_call30_v3) (TRef.of (T := ⟨S4194304, .i32⟩) main_call30_v4) (broadcastInDim S4194304 ![] bcast_S_S4194304),
    TRef.binary (TRef.of (T := ⟨S4194304, .i32⟩) main_call30_v4) (TRef.of (T := ⟨S4194304, .i32⟩) main_call30_v2) (TRef.of (T := ⟨S4194304, .i32⟩) main_v539) minsi,
    nullary main_c_212 (constantI S_ 32 0#32),
    nullary main_c_213 (constantI S_ 32 63#32),
    TRef.unary (TRef.of (T := ⟨S_, .i32⟩) main_c_212) (TRef.of (T := ⟨S_, .i32⟩) main_call31_v0) id,
    TRef.unary (TRef.of (T := ⟨S_, .i32⟩) main_call31_v0) (TRef.of (T := ⟨S4194304, .i32⟩) main_call31_v1) (broadcastInDim S4194304 ![] bcast_S_S4194304),
    TRef.binary (TRef.of (T := ⟨S4194304, .i32⟩) main_call31_v1) (TRef.of (T := ⟨S4194304, .i32⟩) main_v519) (TRef.of (T := ⟨S4194304, .i32⟩) main_call31_v2) maxsi,
    TRef.unary (TRef.of (T := ⟨S_, .i32⟩) main_c_213) (TRef.of (T := ⟨S_, .i32⟩) main_call31_v3) id,
    TRef.unary (TRef.of (T := ⟨S_, .i32⟩) main_call31_v3) (TRef.of (T := ⟨S4194304, .i32⟩) main_call31_v4) (broadcastInDim S4194304 ![] bcast_S_S4194304),
    TRef.binary (TRef.of (T := ⟨S4194304, .i32⟩) main_call31_v4) (TRef.of (T := ⟨S4194304, .i32⟩) main_call31_v2) (TRef.of (T := ⟨S4194304, .i32⟩) main_v540) minsi,
    nullary main_c_214 (constantI S_ 32 0#32),
    nullary main_c_215 (constantI S_ 32 63#32),
    TRef.unary (TRef.of (T := ⟨S_, .i32⟩) main_c_214) (TRef.of (T := ⟨S_, .i32⟩) main_call32_v0) id,
    TRef.unary (TRef.of (T := ⟨S_, .i32⟩) main_call32_v0) (TRef.of (T := ⟨S4194304, .i32⟩) main_call32_v1) (broadcastInDim S4194304 ![] bcast_S_S4194304),
    TRef.binary (TRef.of (T := ⟨S4194304, .i32⟩) main_call32_v1) (TRef.of (T := ⟨S4194304, .i32⟩) main_v521) (TRef.of (T := ⟨S4194304, .i32⟩) main_call32_v2) maxsi,
    TRef.unary (TRef.of (T := ⟨S_, .i32⟩) main_c_215) (TRef.of (T := ⟨S_, .i32⟩) main_call32_v3) id,
    TRef.unary (TRef.of (T := ⟨S_, .i32⟩) main_call32_v3) (TRef.of (T := ⟨S4194304, .i32⟩) main_call32_v4) (broadcastInDim S4194304 ![] bcast_S_S4194304),
    TRef.binary (TRef.of (T := ⟨S4194304, .i32⟩) main_call32_v4) (TRef.of (T := ⟨S4194304, .i32⟩) main_call32_v2) (TRef.of (T := ⟨S4194304, .i32⟩) main_v541) minsi,
    nullary main_c_216 (constantI S_ 32 0#32),
    unary main_c_216 main_v542 (broadcastInDim S4194304 ![] bcast_S_S4194304 : (⟨S_, .i32⟩ : BufTy).Contents (Elt F) → (⟨S4194304, .i32⟩ : BufTy).Contents (Elt F)),
    binary main_v30 main_v542 main_v543 (cmpi .slt : (⟨S4194304, .i32⟩ : BufTy).Contents (Elt F) → (⟨S4194304, .i32⟩ : BufTy).Contents (Elt F) → (⟨S4194304, .i1⟩ : BufTy).Contents (Elt F)),
    nullary main_c_217 (constantI S_ 32 64#32),
    unary main_c_217 main_v544 (broadcastInDim S4194304 ![] bcast_S_S4194304 : (⟨S_, .i32⟩ : BufTy).Contents (Elt F) → (⟨S4194304, .i32⟩ : BufTy).Contents (Elt F)),
    binary main_v30 main_v544 main_v545 (addi : (⟨S4194304, .i32⟩ : BufTy).Contents (Elt F) → (⟨S4194304, .i32⟩ : BufTy).Contents (Elt F) → (⟨S4194304, .i32⟩ : BufTy).Contents (Elt F)),
    ternary main_v543 main_v545 main_v30 main_v546 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_218 (constantI S_ 32 0#32),
    unary main_c_218 main_v547 (broadcastInDim S4194304 ![] bcast_S_S4194304 : (⟨S_, .i32⟩ : BufTy).Contents (Elt F) → (⟨S4194304, .i32⟩ : BufTy).Contents (Elt F)),
    binary main_v539 main_v547 main_v548 (cmpi .slt : (⟨S4194304, .i32⟩ : BufTy).Contents (Elt F) → (⟨S4194304, .i32⟩ : BufTy).Contents (Elt F) → (⟨S4194304, .i1⟩ : BufTy).Contents (Elt F)),
    nullary main_c_219 (constantI S_ 32 64#32),
    unary main_c_219 main_v549 (broadcastInDim S4194304 ![] bcast_S_S4194304 : (⟨S_, .i32⟩ : BufTy).Contents (Elt F) → (⟨S4194304, .i32⟩ : BufTy).Contents (Elt F)),
    binary main_v539 main_v549 main_v550 (addi : (⟨S4194304, .i32⟩ : BufTy).Contents (Elt F) → (⟨S4194304, .i32⟩ : BufTy).Contents (Elt F) → (⟨S4194304, .i32⟩ : BufTy).Contents (Elt F)),
    ternary main_v548 main_v550 main_v539 main_v551 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_220 (constantI S_ 32 0#32),
    unary main_c_220 main_v552 (broadcastInDim S4194304 ![] bcast_S_S4194304 : (⟨S_, .i32⟩ : BufTy).Contents (Elt F) → (⟨S4194304, .i32⟩ : BufTy).Contents (Elt F)),
    binary main_v540 main_v552 main_v553 (cmpi .slt : (⟨S4194304, .i32⟩ : BufTy).Contents (Elt F) → (⟨S4194304, .i32⟩ : BufTy).Contents (Elt F) → (⟨S4194304, .i1⟩ : BufTy).Contents (Elt F)),
    nullary main_c_221 (constantI S_ 32 64#32),
    unary main_c_221 main_v554 (broadcastInDim S4194304 ![] bcast_S_S4194304 : (⟨S_, .i32⟩ : BufTy).Contents (Elt F) → (⟨S4194304, .i32⟩ : BufTy).Contents (Elt F)),
    binary main_v540 main_v554 main_v555 (addi : (⟨S4194304, .i32⟩ : BufTy).Contents (Elt F) → (⟨S4194304, .i32⟩ : BufTy).Contents (Elt F) → (⟨S4194304, .i32⟩ : BufTy).Contents (Elt F)) ]

theorem ops12_sub : (ops12 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩

theorem ops12_fresh : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.AlphaGrid.RefRun

end
-- ==== Proof.RefRunWin12.lean ====
/- Window 12 of the reference's @main: it is the line of its operations (every call it makes unfolds to the callee's operations
   over that call's buffers, and the sequencing reassociates), and running that line carries the boundary facts across: from the
   stages held at the window's start to the stages held at its end. Each buffer the line writes holds its operation's function of
   its operands' contents; those are stages by hypothesis or by the same fact one operation earlier, and a stage is by definition
   its operation applied to its operands' stages. A buffer the line does not write keeps what it held. -/
import proofs.«104803_j90202903151142_1_alg».proof.Proof.RefRunOps12
import proofs.«104803_j90202903151142_1_alg».proof.Proof.RefRunInv
import proofs.«104803_j90202903151142_1_alg».proof.Proof.RefRunBase

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part12_eq (c : Dev nD) : main_part12 (F := F) c = seq ops12 := rfl

-- the sorts, gathers and reductions stay folded: the equations below never look inside them
attribute [local irreducible] Host.sort2 Host.gather Host.reduce in
set_option maxRecDepth 8192 in
set_option maxHeartbeats 4000000 in
/-- Across ops12: the stages held at its start give the stages held at its end. -/
theorem win12 (W : Valuation τ sig (Elt F)) (a0 : FVec F S4194304x3 .f32) (a1 : FVec F S2x3 .f32)
    (a2 : FVec F S256x256x256 .f32) (a3 a4 : FVec F S64x3 .f32) (h : Inv12 W a0 a1 a2 a3 a4) :
    Inv13 (after ops12 W) a0 a1 a2 a3 a4 := by
  unfold Inv12 at h
  unfold Inv13
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

end Cert.AlphaGrid.RefRun

end
-- ==== Proof.RefRunOps13.lean ====
/- The operations 922 … 941 of the reference (of 941, calls unfolded at their sites), in order: the window main_part13 as a list,
   with, for each operation, that the buffers it touches are TensorCore references and that it determines its results; and the
   same list in consecutive pieces, cut before and after each concatenate. -/
import proofs.«104803_j90202903151142_1_alg».proof.ReferenceIdeal
import Idealize.ShloMosaic.Lib.StableHlo.Run

noncomputable section

namespace Cert.AlphaGrid.RefRun

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

set_option maxHeartbeats 4000000 in
abbrev ops13 : List (HloOp τ sig (Elt F)) :=
  [ ternary main_v553 main_v555 main_v540 main_v556 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_222 (constantI S_ 32 0#32),
    unary main_c_222 main_v557 (broadcastInDim S4194304 ![] bcast_S_S4194304 : (⟨S_, .i32⟩ : BufTy).Contents (Elt F) → (⟨S4194304, .i32⟩ : BufTy).Contents (Elt F)),
    binary main_v541 main_v557 main_v558 (cmpi .slt : (⟨S4194304, .i32⟩ : BufTy).Contents (Elt F) → (⟨S4194304, .i32⟩ : BufTy).Contents (Elt F) → (⟨S4194304, .i1⟩ : BufTy).Contents (Elt F)),
    nullary main_c_223 (constantI S_ 32 64#32),
    unary main_c_223 main_v559 (broadcastInDim S4194304 ![] bcast_S_S4194304 : (⟨S_, .i32⟩ : BufTy).Contents (Elt F) → (⟨S4194304, .i32⟩ : BufTy).Contents (Elt F)),
    binary main_v541 main_v559 main_v560 (addi : (⟨S4194304, .i32⟩ : BufTy).Contents (Elt F) → (⟨S4194304, .i32⟩ : BufTy).Contents (Elt F) → (⟨S4194304, .i32⟩ : BufTy).Contents (Elt F)),
    ternary main_v558 main_v560 main_v541 main_v561 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v546 main_v562 (broadcastInDim S4194304x1 ![0] bcast_S4194304_S4194304x1_0 : (⟨S4194304, .i32⟩ : BufTy).Contents (Elt F) → (⟨S4194304x1, .i32⟩ : BufTy).Contents (Elt F)),
    unary main_v551 main_v563 (broadcastInDim S4194304x1 ![0] bcast_S4194304_S4194304x1_0 : (⟨S4194304, .i32⟩ : BufTy).Contents (Elt F) → (⟨S4194304x1, .i32⟩ : BufTy).Contents (Elt F)),
    unary main_v556 main_v564 (broadcastInDim S4194304x1 ![0] bcast_S4194304_S4194304x1_0 : (⟨S4194304, .i32⟩ : BufTy).Contents (Elt F) → (⟨S4194304x1, .i32⟩ : BufTy).Contents (Elt F)),
    unary main_v561 main_v565 (broadcastInDim S4194304x1 ![0] bcast_S4194304_S4194304x1_0 : (⟨S4194304, .i32⟩ : BufTy).Contents (Elt F) → (⟨S4194304x1, .i32⟩ : BufTy).Contents (Elt F)),
    nary ![main_v562, main_v563, main_v564, main_v565] main_v566 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1),
    binary main_v66 main_v566 main_v567 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_224 (constant S_ .f32 0x00000000#32),
    TRef.unary (TRef.of (T := ⟨S_, .f32⟩) main_cst_224) (TRef.of (T := ⟨S_, .f32⟩) main_call33_v0) id,
    TRef.unary (TRef.of (T := ⟨S_, .f32⟩) main_call33_v0) (TRef.of (T := ⟨S4194304, .f32⟩) main_call33_v1) (broadcastInDim S4194304 ![] bcast_S_S4194304),
    TRef.ternary (TRef.of (T := ⟨S4194304, .i1⟩) main_v538) (TRef.of (T := ⟨S4194304, .f32⟩) main_v567) (TRef.of (T := ⟨S4194304, .f32⟩) main_call33_v1) (TRef.of (T := ⟨S4194304, .f32⟩) main_v568) select,
    binary main_v515 main_v568 main_v569 (mulf : (⟨S4194304, .f32⟩ : BufTy).Contents (Elt F) → (⟨S4194304, .f32⟩ : BufTy).Contents (Elt F) → (⟨S4194304, .f32⟩ : BufTy).Contents (Elt F)),
    binary main_v513 main_v569 main_v570 (addf : (⟨S4194304, .f32⟩ : BufTy).Contents (Elt F) → (⟨S4194304, .f32⟩ : BufTy).Contents (Elt F) → (⟨S4194304, .f32⟩ : BufTy).Contents (Elt F)) ]

theorem ops13_sub : (ops13 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., unary_bufs_sub .., ternary_bufs_sub .., binary_bufs_sub .., binary_bufs_sub ..⟩

theorem ops13_fresh : (ops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxHeartbeats 4000000 in
abbrev ops13a : List (HloOp τ sig (Elt F)) :=
  [ ternary main_v553 main_v555 main_v540 main_v556 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_222 (constantI S_ 32 0#32),
    unary main_c_222 main_v557 (broadcastInDim S4194304 ![] bcast_S_S4194304 : (⟨S_, .i32⟩ : BufTy).Contents (Elt F) → (⟨S4194304, .i32⟩ : BufTy).Contents (Elt F)),
    binary main_v541 main_v557 main_v558 (cmpi .slt : (⟨S4194304, .i32⟩ : BufTy).Contents (Elt F) → (⟨S4194304, .i32⟩ : BufTy).Contents (Elt F) → (⟨S4194304, .i1⟩ : BufTy).Contents (Elt F)),
    nullary main_c_223 (constantI S_ 32 64#32),
    unary main_c_223 main_v559 (broadcastInDim S4194304 ![] bcast_S_S4194304 : (⟨S_, .i32⟩ : BufTy).Contents (Elt F) → (⟨S4194304, .i32⟩ : BufTy).Contents (Elt F)),
    binary main_v541 main_v559 main_v560 (addi : (⟨S4194304, .i32⟩ : BufTy).Contents (Elt F) → (⟨S4194304, .i32⟩ : BufTy).Contents (Elt F) → (⟨S4194304, .i32⟩ : BufTy).Contents (Elt F)),
    ternary main_v558 main_v560 main_v541 main_v561 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v546 main_v562 (broadcastInDim S4194304x1 ![0] bcast_S4194304_S4194304x1_0 : (⟨S4194304, .i32⟩ : BufTy).Contents (Elt F) → (⟨S4194304x1, .i32⟩ : BufTy).Contents (Elt F)),
    unary main_v551 main_v563 (broadcastInDim S4194304x1 ![0] bcast_S4194304_S4194304x1_0 : (⟨S4194304, .i32⟩ : BufTy).Contents (Elt F) → (⟨S4194304x1, .i32⟩ : BufTy).Contents (Elt F)),
    unary main_v556 main_v564 (broadcastInDim S4194304x1 ![0] bcast_S4194304_S4194304x1_0 : (⟨S4194304, .i32⟩ : BufTy).Contents (Elt F) → (⟨S4194304x1, .i32⟩ : BufTy).Contents (Elt F)),
    unary main_v561 main_v565 (broadcastInDim S4194304x1 ![0] bcast_S4194304_S4194304x1_0 : (⟨S4194304, .i32⟩ : BufTy).Contents (Elt F) → (⟨S4194304x1, .i32⟩ : BufTy).Contents (Elt F)) ]

set_option maxHeartbeats 4000000 in
abbrev ops13b : List (HloOp τ sig (Elt F)) :=
  [ nary ![main_v562, main_v563, main_v564, main_v565] main_v566 (fun u => concatenate S4194304x4 1 [⟨S4194304x1, u 0⟩, ⟨S4194304x1, u 1⟩, ⟨S4194304x1, u 2⟩, ⟨S4194304x1, u 3⟩] concatenates_S4194304x1_S4194304x1_S4194304x1_S4194304x1_S4194304x4_d1) ]

set_option maxHeartbeats 4000000 in
abbrev ops13c : List (HloOp τ sig (Elt F)) :=
  [ binary main_v66 main_v566 main_v567 ((fun x i => Host.gather gather_S64x64x64x64_S4194304x4_S4194304_n_0123_n_n_0123_1_1111 x i) : (⟨S64x64x64x64, .f32⟩ : BufTy).Contents (Elt F) → (⟨S4194304x4, .i32⟩ : BufTy).Contents (Elt F) → (⟨S4194304, .f32⟩ : BufTy).Contents (Elt F)),
    nullary main_cst_224 (constant S_ .f32 0x00000000#32),
    TRef.unary (TRef.of (T := ⟨S_, .f32⟩) main_cst_224) (TRef.of (T := ⟨S_, .f32⟩) main_call33_v0) id,
    TRef.unary (TRef.of (T := ⟨S_, .f32⟩) main_call33_v0) (TRef.of (T := ⟨S4194304, .f32⟩) main_call33_v1) (broadcastInDim S4194304 ![] bcast_S_S4194304),
    TRef.ternary (TRef.of (T := ⟨S4194304, .i1⟩) main_v538) (TRef.of (T := ⟨S4194304, .f32⟩) main_v567) (TRef.of (T := ⟨S4194304, .f32⟩) main_call33_v1) (TRef.of (T := ⟨S4194304, .f32⟩) main_v568) select,
    binary main_v515 main_v568 main_v569 (mulf : (⟨S4194304, .f32⟩ : BufTy).Contents (Elt F) → (⟨S4194304, .f32⟩ : BufTy).Contents (Elt F) → (⟨S4194304, .f32⟩ : BufTy).Contents (Elt F)),
    binary main_v513 main_v569 main_v570 (addf : (⟨S4194304, .f32⟩ : BufTy).Contents (Elt F) → (⟨S4194304, .f32⟩ : BufTy).Contents (Elt F) → (⟨S4194304, .f32⟩ : BufTy).Contents (Elt F)) ]

end Cert.AlphaGrid.RefRun

end
-- ==== Proof.RefRunWin13.lean ====
/- Window 13 of the reference's @main: it is the line of its operations (every call it makes unfolds to the callee's operations
   over that call's buffers, and the sequencing reassociates), and running that line carries the boundary facts across: from the
   stages held at the window's start to the stages held at its end. Each buffer the line writes holds its operation's function of
   its operands' contents; those are stages by hypothesis or by the same fact one operation earlier, and a stage is by definition
   its operation applied to its operands' stages. A buffer the line does not write keeps what it held.
   The window holds one concatenate: the line is cut before and after it, and the concatenate, run alone from contents whose four
   operand buffers are at their stages, leaves its result at the concatenate of those stages, which is its own stage. -/
import proofs.«104803_j90202903151142_1_alg».proof.Proof.RefRunOps13
import proofs.«104803_j90202903151142_1_alg».proof.Proof.RefRunInv
import proofs.«104803_j90202903151142_1_alg».proof.Proof.RefRunBase

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

set_option maxRecDepth 8192 in
set_option maxHeartbeats 4000000 in
/-- The window is the straight line of its operations. -/
theorem part13_eq (c : Dev nD) : main_part13 (F := F) c = seq ops13 := rfl

/-- The window's list in three consecutive pieces: up to the concatenate, the concatenate, the rest. -/
theorem ops13_split : (ops13 : List (HloOp τ sig (Elt F))) = ops13a ++ (ops13b ++ ops13c) := rfl

-- the sorts, gathers and reductions stay folded: the equations below never look inside them
attribute [local irreducible] Host.sort2 Host.gather Host.reduce in
set_option maxRecDepth 8192 in
set_option maxHeartbeats 4000000 in
/-- Across ops13a: the stages held at its start give the stages held at its end. -/
theorem win13a (W : Valuation τ sig (Elt F)) (a0 : FVec F S4194304x3 .f32) (a1 : FVec F S2x3 .f32)
    (a2 : FVec F S256x256x256 .f32) (a3 a4 : FVec F S64x3 .f32) (h : Inv13 W a0 a1 a2 a3 a4) :
    Inv13b (after ops13a W) a0 a1 a2 a3 a4 := by
  unfold Inv13 at h
  unfold Inv13b
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

-- the sorts, gathers and reductions stay folded: the equations below never look inside them
attribute [local irreducible] Host.sort2 Host.gather Host.reduce in
set_option maxRecDepth 8192 in
set_option maxHeartbeats 4000000 in
/-- Across ops13b: the stages held at its start give the stages held at its end. -/
theorem win13b (W : Valuation τ sig (Elt F)) (a0 : FVec F S4194304x3 .f32) (a1 : FVec F S2x3 .f32)
    (a2 : FVec F S256x256x256 .f32) (a3 a4 : FVec F S64x3 .f32) (h : Inv13b W a0 a1 a2 a3 a4) :
    Inv13c (after ops13b W) a0 a1 a2 a3 a4 := by
  unfold Inv13b at h
  unfold Inv13c
  have h0 : W (main_v562 : DevRef τ sig) = r_v562 a0 a1 a2 a3 a4 := by simp only [h]
  have h1 : W (main_v563 : DevRef τ sig) = r_v563 a0 a1 a2 a3 a4 := by simp only [h]
  have h2 : W (main_v564 : DevRef τ sig) = r_v564 a0 a1 a2 a3 a4 := by simp only [h]
  have h3 : W (main_v565 : DevRef τ sig) = r_v565 a0 a1 a2 a3 a4 := by simp only [h]
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)
    | exact (nary4_chunk _ _ _ W h0 h1 h2 h3).trans rfl

-- the sorts, gathers and reductions stay folded: the equations below never look inside them
attribute [local irreducible] Host.sort2 Host.gather Host.reduce in
set_option maxRecDepth 8192 in
set_option maxHeartbeats 4000000 in
/-- Across ops13c: the stages held at its start give the stages held at its end. -/
theorem win13c (W : Valuation τ sig (Elt F)) (a0 : FVec F S4194304x3 .f32) (a1 : FVec F S2x3 .f32)
    (a2 : FVec F S256x256x256 .f32) (a3 a4 : FVec F S64x3 .f32) (h : Inv13c W a0 a1 a2 a3 a4) :
    Inv14 (after ops13c W) a0 a1 a2 a3 a4 := by
  unfold Inv13c at h
  unfold Inv14
  repeat' apply And.intro
  all_goals first
    | ((simp (disch := decide) only [after_cons, after_nil,
          nullary_result', unary_result', binary_result', ternary_result', reshape_result',
          nullary_result_ne', unary_result_ne', binary_result_ne', ternary_result_ne', reshape_result_ne', nary_result_ne']);
        (try simp only [TRef.ofBuf, TRef.toBuf, cast_eq]);
        (try simp only [h]);
        (try rfl);
        done)

/-- Across the whole window. -/
theorem win13 (W : Valuation τ sig (Elt F)) (a0 : FVec F S4194304x3 .f32) (a1 : FVec F S2x3 .f32)
    (a2 : FVec F S256x256x256 .f32) (a3 a4 : FVec F S64x3 .f32) (h : Inv13 W a0 a1 a2 a3 a4) :
    Inv14 (after ops13 W) a0 a1 a2 a3 a4 := by
  rw [ops13_split, after_append, after_append]
  exact win13c _ _ _ _ _ _ (win13b _ _ _ _ _ _ (win13a _ _ _ _ _ _ h))

end Cert.AlphaGrid.RefRun

end
-- ==== Proof.RefRun.lean ====
/- The reference's @main is the straight line of its fourteen windows' operations; run from any launch memory it ends with the
   returned buffer at the last stage r_v570 of the launch contents of its five arguments, and the arguments unchanged. The windows'
   equations join by `seq_append`; what the buffers hold after the whole line is what they hold after the windows one after the
   other (`after_append`), and each window carries the boundary facts one step (win0 … win13). -/
import proofs.«104803_j90202903151142_1_alg».proof.Proof.RefRunWin0
import proofs.«104803_j90202903151142_1_alg».proof.Proof.RefRunWin1
import proofs.«104803_j90202903151142_1_alg».proof.Proof.RefRunWin2
import proofs.«104803_j90202903151142_1_alg».proof.Proof.RefRunWin3
import proofs.«104803_j90202903151142_1_alg».proof.Proof.RefRunWin4
import proofs.«104803_j90202903151142_1_alg».proof.Proof.RefRunWin5
import proofs.«104803_j90202903151142_1_alg».proof.Proof.RefRunWin6
import proofs.«104803_j90202903151142_1_alg».proof.Proof.RefRunWin7
import proofs.«104803_j90202903151142_1_alg».proof.Proof.RefRunWin8
import proofs.«104803_j90202903151142_1_alg».proof.Proof.RefRunWin9
import proofs.«104803_j90202903151142_1_alg».proof.Proof.RefRunWin10
import proofs.«104803_j90202903151142_1_alg».proof.Proof.RefRunWin11
import proofs.«104803_j90202903151142_1_alg».proof.Proof.RefRunWin12
import proofs.«104803_j90202903151142_1_alg».proof.Proof.RefRunWin13

noncomputable section

namespace Cert.AlphaGrid.RefRun

open Cert.ReferenceIdeal Idealize.ShloMosaic Idealize.ShloMosaic.TcCoe Idealize.SL.Sem Idealize.ShloMosaic.StableHlo Cert.AlphaGrid.RefStages

variable [Cert.ReferenceIdeal.Facts]
open Cert.ReferenceIdeal.Facts₀ Cert.ReferenceIdeal.Facts

variable {F : FTy → Type} [FloatOps F]

/-- @main's operations, in order: the windows' lists one after the other. -/
def ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13)))))))))))))

set_option maxRecDepth 8192 in
/-- @main runs its windows in order, and each is the line of its operations. -/
theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c, ← part9_eq c, ← part10_eq c, ← part11_eq c, ← part12_eq c, ← part13_eq c]
  rfl

set_option maxRecDepth 100000 in
theorem scopedRefs_eq : (Finset.univ.filter fun b : Ref sig .tc => b.isScoped) = ∅ := by decide
set_option maxRecDepth 100000 in
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h]

/-- Every operation determines its results. -/
theorem ops_fresh : ∀ op ∈ (ops : List (HloOp τ sig (Elt F))), op.fresh = ∅ := fun op h => by
  simp only [ops, List.mem_append] at h
  rcases h with h | h | h | h | h | h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h, List.forall_iff_forall_mem.mp ops12_fresh op h, List.forall_iff_forall_mem.mp ops13_fresh op h]

/-- After the whole line, from any contents: the returned buffer is at the last stage of the argument buffers' contents, and
    the argument buffers are as they were. -/
theorem after_ops (V : Valuation τ sig (Elt F)) :
    Inv14 (after ops V) (V (main_arg0 : DevRef τ sig)) (V (main_arg1 : DevRef τ sig)) (V (main_arg2 : DevRef τ sig))
      (V (main_arg3 : DevRef τ sig)) (V (main_arg4 : DevRef τ sig)) := by
  simp only [ops, after_append]
  exact (win13 _ _ _ _ _ _ (win12 _ _ _ _ _ _ (win11 _ _ _ _ _ _ (win10 _ _ _ _ _ _ (win9 _ _ _ _ _ _ (win8 _ _ _ _ _ _ (win7 _ _ _ _ _ _ (win6 _ _ _ _ _ _ (win5 _ _ _ _ _ _ (win4 _ _ _ _ _ _ (win3 _ _ _ _ _ _ (win2 _ _ _ _ _ _ (win1 _ _ _ _ _ _ (win0 _ _ _ _ _ _ ⟨rfl, rfl, rfl, rfl, rfl⟩))))))))))))))

/-- On every device, for any float values, from any memory with zero counters: every weakly fair execution of @main terminates
    with the returned buffer at the stage r_v570 of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v570)
          = r_v570 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
      obtain ⟨e, e0, e1, e2, e3, e4⟩ := after_ops (F := F) (launchContents m c)
      exact ⟨(h c main_v570).trans e, (h c main_arg0).trans e0, (h c main_arg1).trans e1, (h c main_arg2).trans e2,
        (h c main_arg3).trans e3, (h c main_arg4).trans e4⟩)
    (run_seq scopedRefs_eq scopedSems_eq defs main (fun _ => ops) main_eq (fun _ => ops_sub) m ρ (fun _ => ops_fresh))

end Cert.AlphaGrid.RefRun

end
-- ==== Proof.RefValue.lean ====
/-
  The reference's result at one sorted point is the eight-corner trilinear sum of Spec, taken in the point's block of
  the volume at the base cells and weights that the kernel's program computes for that point.

  The reference prepares the sorted points as the kernel's program does (the same operations in the same order up to
  the names of the stages: block id, argsort, local coordinates, floors, remainders, base cells), so those stages are
  equal as functions. It then adds eight terms to zero, in the order depth, row, column: each term is a product of three
  side factors (1 - w for the base cell, w for the next) and a fetched value. The fetch tests the three cells against
  [0, 64), clips each to [0, 63], wraps a negative index by 64 (never needed after the clip, nor for a block id below
  64), joins the block id and the three cells into a four-column table, gathers single elements of the volume seen as
  [64, 64, 64, 64] (each start coordinate read signed and clamped into its axis), and replaces the value by zero where
  the test failed. In the block a cell is its own clip, wrap and clamp, so the gathered element is the volume's element
  number ((64 b + z) 64 + y) 64 + x, which is entry (z, 64 y + x) of block b; outside the block the value is the zero
  of Spec's corner. The sum over Fin 2 × Fin 2 × Fin 2 of Spec is the same eight terms in the same order.
-/
import proofs.«104803_j90202903151142_1_alg».proof.Proof.RefStages
import proofs.«104803_j90202903151142_1_alg».proof.Proof.Glue
import proofs.«104803_j90202903151142_1_alg».proof.Proof.Spec
import proofs.«104803_j90202903151142_1_alg».proof.Proof.Vol
import Idealize.ShloMosaic.Lib.ValueIdx
import Idealize.ShloMosaic.Lib.StableHlo.Predicate
import Idealize.ShloMosaic.Lib.Pipeline.Value
import Idealize.ShloMosaic.Lib.IdealHost

noncomputable section
namespace Cert.AlphaGrid.RefValue
open Idealize.ShloMosaic Idealize.ShloMosaic.ValueIdx

/-! ## Reading a column, a splat, four joined columns and a four-coordinate gather at an index -/

section Reads
variable {α : Type}

/-- A vector laid as an [n × 1] column reads, at row p, the vector at p. -/
theorem col_read {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- Four [n × 1] columns joined side by side read, at (p, k), column k at row p. -/
theorem cat4_read {n : Nat} (c : Fin 4 → ((⟨2, ![n, 1]⟩ : Shape).Idx → α))
    (h : Shape.Concatenates (([⟨⟨2, ![n, 1]⟩, c 0⟩, ⟨⟨2, ![n, 1]⟩, c 1⟩, ⟨⟨2, ![n, 1]⟩, c 2⟩, ⟨⟨2, ![n, 1]⟩, c 3⟩] :
      List ((s : Shape) × (s.Idx → α))).map (·.1)) ⟨2, ![n, 4]⟩ 1)
    (p : Fin n) (k : Fin 4) :
    concatenate ⟨2, ![n, 4]⟩ 1 [⟨⟨2, ![n, 1]⟩, c 0⟩, ⟨⟨2, ![n, 1]⟩, c 1⟩, ⟨⟨2, ![n, 1]⟩, c 2⟩, ⟨⟨2, ![n, 1]⟩, c 3⟩] h (ix2 p k)
      = c k (ix2 p (0 : Fin 1)) := by
  have key : ∀ (k : Fin 4) (hk : k.val < 4),
      ([⟨⟨2, ![n, 1]⟩, c 0⟩, ⟨⟨2, ![n, 1]⟩, c 1⟩, ⟨⟨2, ![n, 1]⟩, c 2⟩, ⟨⟨2, ![n, 1]⟩, c 3⟩] :
        List ((s : Shape) × (s.Idx → α)))[k.val]'hk = ⟨⟨2, ![n, 1]⟩, c k⟩ := by
    intro k hk
    match k with
    | ⟨0, _⟩ => rfl
    | ⟨1, _⟩ => rfl
    | ⟨2, _⟩ => rfl
    | ⟨3, _⟩ => rfl
  refine concatenate_apply_piece (1 : Fin (⟨2, ![n, 4]⟩ : Shape).rank) _ h (ix2 p k) k.val k.isLt ⟨2, ![n, 1]⟩ (c k) (key k k.isLt) rfl
    k.val ?_ (ix2 p (0 : Fin 1)) ?_ ?_
  · match k with
    | ⟨0, _⟩ => rfl
    | ⟨1, _⟩ => rfl
    | ⟨2, _⟩ => rfl
    | ⟨3, _⟩ => rfl
  · intro b hb
    match b with
    | ⟨0, _⟩ => rfl
    | ⟨1, _⟩ => exact absurd rfl hb
  · rfl

theorem fin4_mem : ∀ a : Fin 4, a ∈ ([0, 1, 2, 3] : List (Fin 4)) := by decide

theorem fin4_idxOf : ∀ a : Fin 4, List.idxOf a ([0, 1, 2, 3] : List (Fin 4)) = a.val := by decide

/-- A gather of single elements of a rank-4 array whose four start coordinates are the columns of an [n × 4] table:
    result p reads the array at the four words of row p, each read signed and clamped into its axis. -/
theorem gather4_read {A B C D n w : Nat} (d : GatherDims ⟨4, ![A, B, C, D]⟩ ⟨2, ![n, 4]⟩ ⟨1, ![n]⟩)
    (hcoll : d.collapsedSliceDims = [0, 1, 2, 3]) (hob : d.operandBatchingDims = [])
    (hsim : d.startIndexMap = [0, 1, 2, 3]) (hivd : d.indexVectorDim = 1)
    (x : (⟨4, ![A, B, C, D]⟩ : Shape).Idx → α) (idx : IVec ⟨2, ![n, 4]⟩ w) (p : Fin n)
    (J : (⟨4, ![A, B, C, D]⟩ : Shape).Idx)
    (hJ0 : (J 0).val = min (idx (ix2 p (0 : Fin 4))).toInt.toNat (A - 1))
    (hJ1 : (J 1).val = min (idx (ix2 p (1 : Fin 4))).toInt.toNat (B - 1))
    (hJ2 : (J 2).val = min (idx (ix2 p (2 : Fin 4))).toInt.toNat (C - 1))
    (hJ3 : (J 3).val = min (idx (ix2 p (3 : Fin 4))).toInt.toNat (D - 1)) :
    Host.gather d x idx (ix1 p) = x J := by
  have hJ : ∀ a : Fin 4, (J a).val = min (idx (ix2 p a)).toInt.toNat ((![A, B, C, D] : Fin 4 → Nat) a - 1) := fun a =>
    match a with
    | ⟨0, _⟩ => hJ0
    | ⟨1, _⟩ => hJ1
    | ⟨2, _⟩ => hJ2
    | ⟨3, _⟩ => hJ3
  unfold Host.gather
  congr 1
  funext a
  apply Fin.ext
  rw [hJ a]
  have hmem : a ∈ ([0, 1, 2, 3] : List (Fin 4)) := fin4_mem a
  have hidx : List.idxOf a ([0, 1, 2, 3] : List (Fin 4)) = a.val := fin4_idxOf a
  have hb : a ∉ d.operandBatchingDims := by rw [hob]; exact List.not_mem_nil
  have hk : a ∉ d.sKept := by rw [GatherDims.mem_sKept, hcoll]; exact fun h => h.1 hmem
  have hm : a ∈ d.startIndexMap := by rw [hsim]; exact hmem
  have hsl : d.sliceSizes a = 1 := d.slice_collapsed a (by rw [hcoll]; exact hmem)
  simp only [GatherDims.operandIdx, GatherDims.batchCoord_eq_zero _ _ _ hb, GatherDims.offCoord_eq_zero _ _ _ hk,
    Nat.add_zero, GatherDims.start, dif_pos hm]
  rw [hsl]
  show min (idx _).toInt.toNat ((![A, B, C, D] : Fin 4 → Nat) a - 1) = _
  congr 3
  congr 1
  funext b
  match b with
  | ⟨0, _⟩ =>
    unfold GatherDims.siIdx
    rw [dif_neg (by rw [hivd]; simp)]
    unfold GatherDims.siCoord
    apply Fin.ext
    simp only [Fin.val_cast]
    have e : ∀ X : Fin 1, ((ix1 p : (⟨1, ![n]⟩ : Shape).Idx) X).val = p.val := fun X => by
      have hX : X = 0 := Subsingleton.elim _ _
      subst hX; rfl
    exact e _
  | ⟨1, _⟩ =>
    unfold GatherDims.siIdx
    rw [dif_pos (by rw [hivd])]
    apply Fin.ext
    show List.idxOf a d.startIndexMap = a.val
    rw [hsim]; exact hidx

end Reads

/-! ## Words: the in-block test, the clip to [0, 63], the wrap of a negative index, and the clamped read position -/

section Words

theorem bit_and {a b : BitVec 1} : IntOp.andi a b = 1#1 ↔ a = 1#1 ∧ b = 1#1 := by
  revert a b; decide

theorem toInt_zero32 : (0#32 : BitVec 32).toInt = 0 := by decide
theorem toInt_63 : (63#32 : BitVec 32).toInt = 63 := by decide
theorem toInt_64 : (64#32 : BitVec 32).toInt = 64 := by decide

theorem sge0_iff (c : BitVec 32) : IntOp.cmpi .sge c 0#32 = 1#1 ↔ 0 ≤ c.toInt := by
  unfold IntOp.cmpi
  simp only [BitVec.sle, StableHlo.Predicate.ofBool_eq_one_iff, decide_eq_true_eq, toInt_zero32]

theorem slt64_iff (c : BitVec 32) : IntOp.cmpi .slt c 64#32 = 1#1 ↔ c.toInt < 64 := by
  unfold IntOp.cmpi
  simp only [BitVec.slt, StableHlo.Predicate.ofBool_eq_one_iff, decide_eq_true_eq, toInt_64]

/-- The six comparisons joined by "and" say that the three cells are in the block. -/
theorem mask_iff (z y x : BitVec 32) :
    IntOp.andi (IntOp.andi (IntOp.andi (IntOp.andi (IntOp.andi (IntOp.cmpi .sge z 0#32) (IntOp.cmpi .slt z 64#32))
      (IntOp.cmpi .sge y 0#32)) (IntOp.cmpi .slt y 64#32)) (IntOp.cmpi .sge x 0#32)) (IntOp.cmpi .slt x 64#32) = 1#1
      ↔ inb z ∧ inb y ∧ inb x := by
  simp only [bit_and, sge0_iff, slt64_iff, inb]
  tauto

/-- A cell in the block is its own clip to [0, 63]. -/
theorem clip_of_inb {c : BitVec 32} (h : inb c) : IntOp.minsi 63#32 (IntOp.maxsi 0#32 c) = c := by
  obtain ⟨h1, h2⟩ := h
  have e1 : IntOp.maxsi 0#32 c = c := by
    unfold IntOp.maxsi
    rw [if_neg]
    simp only [BitVec.slt, decide_eq_true_eq, toInt_zero32]; omega
  rw [e1]
  unfold IntOp.minsi
  rw [if_neg]
  simp only [BitVec.slt, decide_eq_true_eq, toInt_63]; omega

/-- A non-negative index is not wrapped. -/
theorem wrap_of_nonneg {c : BitVec 32} (h : 0 ≤ c.toInt) :
    Scalar.select (IntOp.cmpi .slt c 0#32) (IntOp.addi c 64#32) c = c := by
  have e : IntOp.cmpi .slt c 0#32 = 0#1 := by
    unfold IntOp.cmpi
    simp only [BitVec.slt, toInt_zero32]
    rw [decide_eq_false (by omega)]; rfl
  rw [e, select_zero]

/-- A word below 64 is a cell of the block. -/
theorem inb_of_toNat_lt {c : BitVec 32} (h : c.toNat < 64) : inb c := by
  have e : c.toInt = c.toNat := StableHlo.Predicate.toInt_eq_toNat_of_lt (by omega)
  unfold inb; omega

/-- A cell of the block is below 64 as a natural number, and that is its signed value. -/
theorem toNat_of_inb {c : BitVec 32} (h : inb c) : c.toNat < 64 ∧ c.toInt = c.toNat := by
  obtain ⟨h1, h2⟩ := h
  have hlt := c.isLt
  rw [BitVec.toInt_eq_toNat_cond] at h1 h2 ⊢
  split at h1 <;> split <;> omega

/-- The clamped read position of a cell of the block is the cell. -/
theorem pos_of_inb {c : BitVec 32} (h : inb c) : min c.toInt.toNat (64 - 1) = c.toNat := by
  obtain ⟨h1, h2⟩ := toNat_of_inb h
  rw [h2, Int.toNat_natCast]; omega

end Words

/-! ## The reference's fetch of one corner and its blend of the eight, as functions of the cells and weights -/

section Stages
open Cert.ReferenceIdeal
variable [Cert.ReferenceIdeal.Facts]
open Cert.ReferenceIdeal.Facts₀ Cert.ReferenceIdeal.Facts

/-- A word repeated at every point. -/
def splatI (c : BitVec 32) : IVec S4194304 32 :=
  broadcastInDim S4194304 ![] bcast_S_S4194304 (constantI S_ 32 c)

/-- The clip of every cell to [0, 63]. -/
def clip (z : IVec S4194304 32) : IVec S4194304 32 := minsi (splatI 63#32) (maxsi (splatI 0#32) z)

/-- The wrap of every negative index by 64. -/
def wrap (c : IVec S4194304 32) : IVec S4194304 32 := select (cmpi .slt c (splatI 0#32)) (addi c (splatI 64#32)) c

/-- A vector of words as a column. -/
def col (c : IVec S4194304 32) : IVec S4194304x1 32 :=
  broadcastInDim S4194304x1 ![0] bcast_S4194304_S4194304x1_0 c

/-- The six comparisons of the three cells against the block's bounds, joined. -/
def mask (z y x : IVec S4194304 32) : IVec S4194304 1 :=
  andi (andi (andi (andi (andi (cmpi .sge z (splatI 0#32)) (cmpi .slt z (splatI 64#32))) (cmpi .sge y (splatI 0#32)))
    (cmpi .slt y (splatI 64#32))) (cmpi .sge x (splatI 0#32))) (cmpi .slt x (splatI 64#32))

/-- The table of read positions: block, depth, row, column. -/
def table (bs z y x : IVec S4194304 32) : IVec S4194304x4 32 :=
  (fun u => concatenate S4194304x4 1 [⟨S4194304x1, u 0⟩, ⟨S4194304x1, u 1⟩, ⟨S4194304x1, u 2⟩, ⟨S4194304x1, u 3⟩]
    concatenates_S4194304x1_S4194304x1_S4194304x1_S4194304x1_S4194304x4_d1)
    ![col (wrap bs), col (wrap (clip z)), col (wrap (clip y)), col (wrap (clip x))]

variable {F : FTy → Type} [FloatOps F]

/-- A float pattern repeated at every point. -/
def splatF (b : BitVec 32) : FVec F S4194304 .f32 :=
  broadcastInDim S4194304 ![] bcast_S_S4194304 (constant (F := F) S_ .f32 b)

/-- The value fetched for one corner: the volume's element at the clipped cell where the cell is in the block, zero elsewhere. -/
def fetch (vols : FVec F S64x64x64x64 .f32) (bs z y x : IVec S4194304 32) : FVec F S4194304 .f32 :=
  select (mask z y x)
    (Host.gather gather_S64x64x64x64_S4194304x4_S4194304_n_0123_n_n_0123_1_1111 vols (table bs z y x))
    (splatF 0x00000000#32)

/-- The eight weighted corners added up in the order depth, row, column. -/
def blend (wz wy wx f000 f001 f010 f011 f100 f101 f110 f111 : FVec F S4194304 .f32) : FVec F S4194304 .f32 :=
  addf (addf (addf (addf (addf (addf (addf (addf (splatF 0x00000000#32)
    (mulf (mulf (mulf (subf (splatF 0x3F800000#32) wz) (subf (splatF 0x3F800000#32) wy)) (subf (splatF 0x3F800000#32) wx)) f000))
    (mulf (mulf (mulf (subf (splatF 0x3F800000#32) wz) (subf (splatF 0x3F800000#32) wy)) wx) f001))
    (mulf (mulf (mulf (subf (splatF 0x3F800000#32) wz) wy) (subf (splatF 0x3F800000#32) wx)) f010))
    (mulf (mulf (mulf (subf (splatF 0x3F800000#32) wz) wy) wx) f011))
    (mulf (mulf (mulf wz (subf (splatF 0x3F800000#32) wy)) (subf (splatF 0x3F800000#32) wx)) f100))
    (mulf (mulf (mulf wz (subf (splatF 0x3F800000#32) wy)) wx) f101))
    (mulf (mulf (mulf wz wy) (subf (splatF 0x3F800000#32) wx)) f110))
    (mulf (mulf (mulf wz wy) wx) f111)

/-- The cells of a corner: the base cells moved by the corner's offsets. -/
def cell (c : IVec S4194304 32) (d : BitVec 32) : IVec S4194304 32 := addi c (splatI d)

open RefStages in
/-- The reference's result is the blend of its eight fetches. -/
theorem out_eq (a0 : FVec F S4194304x3 .f32) (a1 : FVec F S2x3 .f32) (a2 : FVec F S256x256x256 .f32) (a3 a4 : FVec F S64x3 .f32) :
    r_v570 a0 a1 a2 a3 a4 = blend (r_v96 a0 a1 a2 a3 a4) (r_v95 a0 a1 a2 a3 a4) (r_v94 a0 a1 a2 a3 a4)
      (r_v161 a0 a1 a2 a3 a4) (r_v218 a0 a1 a2 a3 a4) (r_v277 a0 a1 a2 a3 a4) (r_v334 a0 a1 a2 a3 a4)
      (r_v395 a0 a1 a2 a3 a4) (r_v452 a0 a1 a2 a3 a4) (r_v511 a0 a1 a2 a3 a4) (r_v568 a0 a1 a2 a3 a4) := rfl

open RefStages in
theorem fetch_000 (a0 : FVec F S4194304x3 .f32) (a1 : FVec F S2x3 .f32) (a2 : FVec F S256x256x256 .f32) (a3 a4 : FVec F S64x3 .f32) :
    r_v161 a0 a1 a2 a3 a4 = fetch (r_v66 a0 a1 a2 a3 a4) (r_v30 a0 a1 a2 a3 a4)
      (cell (r_v99 a0 a1 a2 a3 a4) 0#32) (cell (r_v98 a0 a1 a2 a3 a4) 0#32) (cell (r_v97 a0 a1 a2 a3 a4) 0#32) := rfl

open RefStages in
theorem fetch_001 (a0 : FVec F S4194304x3 .f32) (a1 : FVec F S2x3 .f32) (a2 : FVec F S256x256x256 .f32) (a3 a4 : FVec F S64x3 .f32) :
    r_v218 a0 a1 a2 a3 a4 = fetch (r_v66 a0 a1 a2 a3 a4) (r_v30 a0 a1 a2 a3 a4)
      (cell (r_v99 a0 a1 a2 a3 a4) 0#32) (cell (r_v98 a0 a1 a2 a3 a4) 0#32) (cell (r_v97 a0 a1 a2 a3 a4) 1#32) := rfl

open RefStages in
theorem fetch_010 (a0 : FVec F S4194304x3 .f32) (a1 : FVec F S2x3 .f32) (a2 : FVec F S256x256x256 .f32) (a3 a4 : FVec F S64x3 .f32) :
    r_v277 a0 a1 a2 a3 a4 = fetch (r_v66 a0 a1 a2 a3 a4) (r_v30 a0 a1 a2 a3 a4)
      (cell (r_v99 a0 a1 a2 a3 a4) 0#32) (cell (r_v98 a0 a1 a2 a3 a4) 1#32) (cell (r_v97 a0 a1 a2 a3 a4) 0#32) := rfl

open RefStages in
theorem fetch_011 (a0 : FVec F S4194304x3 .f32) (a1 : FVec F S2x3 .f32) (a2 : FVec F S256x256x256 .f32) (a3 a4 : FVec F S64x3 .f32) :
    r_v334 a0 a1 a2 a3 a4 = fetch (r_v66 a0 a1 a2 a3 a4) (r_v30 a0 a1 a2 a3 a4)
      (cell (r_v99 a0 a1 a2 a3 a4) 0#32) (cell (r_v98 a0 a1 a2 a3 a4) 1#32) (cell (r_v97 a0 a1 a2 a3 a4) 1#32) := rfl

open RefStages in
theorem fetch_100 (a0 : FVec F S4194304x3 .f32) (a1 : FVec F S2x3 .f32) (a2 : FVec F S256x256x256 .f32) (a3 a4 : FVec F S64x3 .f32) :
    r_v395 a0 a1 a2 a3 a4 = fetch (r_v66 a0 a1 a2 a3 a4) (r_v30 a0 a1 a2 a3 a4)
      (cell (r_v99 a0 a1 a2 a3 a4) 1#32) (cell (r_v98 a0 a1 a2 a3 a4) 0#32) (cell (r_v97 a0 a1 a2 a3 a4) 0#32) := rfl

open RefStages in
theorem fetch_101 (a0 : FVec F S4194304x3 .f32) (a1 : FVec F S2x3 .f32) (a2 : FVec F S256x256x256 .f32) (a3 a4 : FVec F S64x3 .f32) :
    r_v452 a0 a1 a2 a3 a4 = fetch (r_v66 a0 a1 a2 a3 a4) (r_v30 a0 a1 a2 a3 a4)
      (cell (r_v99 a0 a1 a2 a3 a4) 1#32) (cell (r_v98 a0 a1 a2 a3 a4) 0#32) (cell (r_v97 a0 a1 a2 a3 a4) 1#32) := rfl

open RefStages in
theorem fetch_110 (a0 : FVec F S4194304x3 .f32) (a1 : FVec F S2x3 .f32) (a2 : FVec F S256x256x256 .f32) (a3 a4 : FVec F S64x3 .f32) :
    r_v511 a0 a1 a2 a3 a4 = fetch (r_v66 a0 a1 a2 a3 a4) (r_v30 a0 a1 a2 a3 a4)
      (cell (r_v99 a0 a1 a2 a3 a4) 1#32) (cell (r_v98 a0 a1 a2 a3 a4) 1#32) (cell (r_v97 a0 a1 a2 a3 a4) 0#32) := rfl

open RefStages in
theorem fetch_111 (a0 : FVec F S4194304x3 .f32) (a1 : FVec F S2x3 .f32) (a2 : FVec F S256x256x256 .f32) (a3 a4 : FVec F S64x3 .f32) :
    r_v568 a0 a1 a2 a3 a4 = fetch (r_v66 a0 a1 a2 a3 a4) (r_v30 a0 a1 a2 a3 a4)
      (cell (r_v99 a0 a1 a2 a3 a4) 1#32) (cell (r_v98 a0 a1 a2 a3 a4) 1#32) (cell (r_v97 a0 a1 a2 a3 a4) 1#32) := rfl

end Stages

/-! ## The fetch and the blend read at a point -/

section Value
open Cert.ReferenceIdeal
variable [Cert.ReferenceIdeal.Facts]
open Cert.ReferenceIdeal.Facts₀ Cert.ReferenceIdeal.Facts

theorem clip_apply (z : IVec S4194304 32) (j : S4194304.Idx) :
    clip z j = IntOp.minsi 63#32 (IntOp.maxsi 0#32 (z j)) := rfl

theorem wrap_apply (c : IVec S4194304 32) (j : S4194304.Idx) :
    wrap c j = Scalar.select (IntOp.cmpi .slt (c j) 0#32) (IntOp.addi (c j) 64#32) (c j) := rfl

theorem mask_apply (z y x : IVec S4194304 32) (j : S4194304.Idx) :
    mask z y x j = IntOp.andi (IntOp.andi (IntOp.andi (IntOp.andi (IntOp.andi (IntOp.cmpi .sge (z j) 0#32)
      (IntOp.cmpi .slt (z j) 64#32)) (IntOp.cmpi .sge (y j) 0#32)) (IntOp.cmpi .slt (y j) 64#32))
      (IntOp.cmpi .sge (x j) 0#32)) (IntOp.cmpi .slt (x j) 64#32) := rfl

theorem cell_apply (c : IVec S4194304 32) (d : BitVec 32) (j : S4194304.Idx) : cell c d j = c j + d := rfl

theorem splatF_apply (b : BitVec 32) (j : S4194304.Idx) : splatF (F := Ideal) b j = Ideal.ofBits .f32 b := rfl

/-- Row i of the table of read positions: the wrapped block id, then the wrapped clipped cells. -/
theorem table_read0 (bs z y x : IVec S4194304 32) (i : Fin 4194304) :
    table bs z y x (ix2 i (0 : Fin 4)) = wrap bs (ix1 i) := by
  refine (cat4_read ![col (wrap bs), col (wrap (clip z)), col (wrap (clip y)), col (wrap (clip x))]
    concatenates_S4194304x1_S4194304x1_S4194304x1_S4194304x1_S4194304x4_d1 i 0).trans ?_
  simp only [Matrix.cons_val]
  exact col_read bcast_S4194304_S4194304x1_0 (wrap bs) i

theorem table_read1 (bs z y x : IVec S4194304 32) (i : Fin 4194304) :
    table bs z y x (ix2 i (1 : Fin 4)) = wrap (clip z) (ix1 i) := by
  refine (cat4_read ![col (wrap bs), col (wrap (clip z)), col (wrap (clip y)), col (wrap (clip x))]
    concatenates_S4194304x1_S4194304x1_S4194304x1_S4194304x1_S4194304x4_d1 i 1).trans ?_
  simp only [Matrix.cons_val]
  exact col_read bcast_S4194304_S4194304x1_0 (wrap (clip z)) i

theorem table_read2 (bs z y x : IVec S4194304 32) (i : Fin 4194304) :
    table bs z y x (ix2 i (2 : Fin 4)) = wrap (clip y) (ix1 i) := by
  refine (cat4_read ![col (wrap bs), col (wrap (clip z)), col (wrap (clip y)), col (wrap (clip x))]
    concatenates_S4194304x1_S4194304x1_S4194304x1_S4194304x1_S4194304x4_d1 i 2).trans ?_
  simp only [Matrix.cons_val]
  exact col_read bcast_S4194304_S4194304x1_0 (wrap (clip y)) i

theorem table_read3 (bs z y x : IVec S4194304 32) (i : Fin 4194304) :
    table bs z y x (ix2 i (3 : Fin 4)) = wrap (clip x) (ix1 i) := by
  refine (cat4_read ![col (wrap bs), col (wrap (clip z)), col (wrap (clip y)), col (wrap (clip x))]
    concatenates_S4194304x1_S4194304x1_S4194304x1_S4194304x1_S4194304x4_d1 i 3).trans ?_
  simp only [Matrix.cons_val]
  exact col_read bcast_S4194304_S4194304x1_0 (wrap (clip x)) i

/-- The wrapped clipped cell of a cell of the block reads back, clamped, as the cell. -/
theorem pos_cell (z : IVec S4194304 32) (j : S4194304.Idx) (h : inb (z j)) :
    (z j).toNat = min (wrap (clip z) j).toInt.toNat (64 - 1) := by
  rw [wrap_apply, clip_apply, clip_of_inb h, wrap_of_nonneg h.1, pos_of_inb h]

/-- The wrapped block id of a block id below 64 reads back, clamped, as the id. -/
theorem pos_block (bs : IVec S4194304 32) (j : S4194304.Idx) (h : inb (bs j)) :
    (bs j).toNat = min (wrap bs j).toInt.toNat (64 - 1) := by
  rw [wrap_apply, wrap_of_nonneg h.1, pos_of_inb h]

/-- The volume seen as 64 blocks of 64³: entry (b, z, y, x) is the array's element number ((64 b + z) 64 + y) 64 + x. -/
theorem vols_read (a2 : FVec Ideal S256x256x256 .f32) (h : S256x256x256.ShapeCasts S64x64x64x64) (b z y x : Fin 64) :
    shapeCast S64x64x64x64 a2 h (ix4 b z y x) = flatAt a2 (((b.val * 64 + z.val) * 64 + y.val) * 64 + x.val) := by
  have hn : ((b.val * 64 + z.val) * 64 + y.val) * 64 + x.val < 16777216 := by omega
  unfold flatAt
  rw [dif_pos hn]
  refine shapeCast_apply a2 h _ _ ?_
  rw [Shape.rowMajor_val_three, Shape.rowMajor_val_four]
  show ((((b.val * 64 + z.val) * 64 + y.val) * 64 + x.val) / 65536 * 256
      + (((b.val * 64 + z.val) * 64 + y.val) * 64 + x.val) / 256 % 256) * 256
      + (((b.val * 64 + z.val) * 64 + y.val) * 64 + x.val) % 256
    = ((b.val * 64 + z.val) * 64 + y.val) * 64 + x.val
  omega

/-- THE FETCH AT A POINT: the corner's value in the point's block. -/
theorem fetch_read (a2 : FVec Ideal S256x256x256 .f32) (bs z y x : IVec S4194304 32) (i : Fin 4194304)
    (hb : (bs (ix1 i)).toNat < 64) :
    fetch (shapeCast S64x64x64x64 a2 shapeCasts_S256x256x256_S64x64x64x64) bs z y x (ix1 i)
      = corner (volAt a2 (bs (ix1 i))) (z (ix1 i)) (y (ix1 i)) (x (ix1 i)) := by
  unfold fetch corner
  rw [select_apply]
  by_cases h : inb (z (ix1 i)) ∧ inb (y (ix1 i)) ∧ inb (x (ix1 i))
  · rw [if_pos h]
    have hm : mask z y x (ix1 i) = 1#1 := by rw [mask_apply]; exact (mask_iff _ _ _).2 h
    rw [hm, select_one]
    obtain ⟨hz, hy, hx⟩ := h
    have hbi : inb (bs (ix1 i)) := inb_of_toNat_lt hb
    rw [gather4_read gather_S64x64x64x64_S4194304x4_S4194304_n_0123_n_n_0123_1_1111 rfl rfl rfl rfl _ _ i
      (ix4 (⟨(bs (ix1 i)).toNat, hb⟩ : Fin 64) (⟨(z (ix1 i)).toNat, (toNat_of_inb hz).1⟩ : Fin 64)
        (⟨(y (ix1 i)).toNat, (toNat_of_inb hy).1⟩ : Fin 64) (⟨(x (ix1 i)).toNat, (toNat_of_inb hx).1⟩ : Fin 64))
      (by rw [table_read0]; exact pos_block bs _ hbi) (by rw [table_read1]; exact pos_cell z _ hz)
      (by rw [table_read2]; exact pos_cell y _ hy) (by rw [table_read3]; exact pos_cell x _ hx)]
    rw [vols_read]
    unfold volAt
    refine congrArg (flatAt a2) ?_
    show (((bs (ix1 i)).toNat * 64 + (z (ix1 i)).toNat) * 64 + (y (ix1 i)).toNat) * 64 + (x (ix1 i)).toNat
      = ((bs (ix1 i)).toNat * 64 + (z (ix1 i)).toNat) * 4096 + ((y (ix1 i)).toNat * 64 + (x (ix1 i)).toNat)
    omega
  · rw [if_neg h]
    have hm : mask z y x (ix1 i) = 0#1 := by
      rw [mask_apply]; exact eq_zero_of_ne_one (fun e => h ((mask_iff _ _ _).1 e))
    rw [hm, select_zero, splatF_apply]
    exact Ideal.ofBits_zero_f32

/-- THE BLEND AT A POINT. -/
theorem blend_read (wz wy wx f000 f001 f010 f011 f100 f101 f110 f111 : FVec Ideal S4194304 .f32) (j : S4194304.Idx) :
    blend wz wy wx f000 f001 f010 f011 f100 f101 f110 f111 j
      = (0 : EReal) + (1 - wz j) * (1 - wy j) * (1 - wx j) * f000 j + (1 - wz j) * (1 - wy j) * wx j * f001 j
        + (1 - wz j) * wy j * (1 - wx j) * f010 j + (1 - wz j) * wy j * wx j * f011 j
        + wz j * (1 - wy j) * (1 - wx j) * f100 j + wz j * (1 - wy j) * wx j * f101 j
        + wz j * wy j * (1 - wx j) * f110 j + wz j * wy j * wx j * f111 j := by
  unfold blend
  simp only [addf_apply, mulf_apply, subf_apply, splatF_apply, Ideal.ofBits_zero_f32, Ideal.ofBits_one_f32]

theorem side_zero (w : EReal) : side 0 w = 1 - w := by simp [side]
theorem side_one (w : EReal) : side 1 w = w := by simp [side]

/-- The sum over the eight corners written out in the order depth, row, column. -/
theorem rval_expand (vol : Nat → Nat → EReal) (z y x : BitVec 32) (wz wy wx : EReal) :
    rval vol z y x wz wy wx
      = (0 : EReal) + (1 - wz) * (1 - wy) * (1 - wx) * corner vol (z + 0#32) (y + 0#32) (x + 0#32)
        + (1 - wz) * (1 - wy) * wx * corner vol (z + 0#32) (y + 0#32) (x + 1#32)
        + (1 - wz) * wy * (1 - wx) * corner vol (z + 0#32) (y + 1#32) (x + 0#32)
        + (1 - wz) * wy * wx * corner vol (z + 0#32) (y + 1#32) (x + 1#32)
        + wz * (1 - wy) * (1 - wx) * corner vol (z + 1#32) (y + 0#32) (x + 0#32)
        + wz * (1 - wy) * wx * corner vol (z + 1#32) (y + 0#32) (x + 1#32)
        + wz * wy * (1 - wx) * corner vol (z + 1#32) (y + 1#32) (x + 0#32)
        + wz * wy * wx * corner vol (z + 1#32) (y + 1#32) (x + 1#32) := by
  unfold rval
  simp only [Fin.sum_univ_two, side_zero, side_one, Fin.val_zero, Fin.val_one, zero_add, add_assoc]

end Value

/-! ## The two programs prepare the sorted points by the same operations -/

section GlueEq
open Cert.ReferenceIdeal
variable [Cert.ReferenceIdeal.Facts] [Cert.KernelIdeal.Facts]
variable {F : FTy → Type} [FloatOps F]

/-- The sorted block ids: the same chain of operations in both programs. -/
theorem glue_v30 (a0 : FVec F S4194304x3 .f32) (a1 : FVec F S2x3 .f32) (a2 : FVec F S256x256x256 .f32) (a3 a4 : FVec F S64x3 .f32) :
    RefStages.r_v30 a0 a1 a2 a3 a4 = Glue.g_v30 a0 a1 a3 a4 := rfl

/-- The weight along x: the same chain of operations in both programs. -/
theorem glue_v94 (a0 : FVec F S4194304x3 .f32) (a1 : FVec F S2x3 .f32) (a2 : FVec F S256x256x256 .f32) (a3 a4 : FVec F S64x3 .f32) :
    RefStages.r_v94 a0 a1 a2 a3 a4 = Glue.g_v86 a0 a1 a3 a4 := rfl

/-- The weight along y: the same chain of operations in both programs. -/
theorem glue_v95 (a0 : FVec F S4194304x3 .f32) (a1 : FVec F S2x3 .f32) (a2 : FVec F S256x256x256 .f32) (a3 a4 : FVec F S64x3 .f32) :
    RefStages.r_v95 a0 a1 a2 a3 a4 = Glue.g_v87 a0 a1 a3 a4 := rfl

/-- The weight along z: the same chain of operations in both programs. -/
theorem glue_v96 (a0 : FVec F S4194304x3 .f32) (a1 : FVec F S2x3 .f32) (a2 : FVec F S256x256x256 .f32) (a3 a4 : FVec F S64x3 .f32) :
    RefStages.r_v96 a0 a1 a2 a3 a4 = Glue.g_v88 a0 a1 a3 a4 := rfl

/-- The base cell along x: the same chain of operations in both programs. -/
theorem glue_v97 (a0 : FVec F S4194304x3 .f32) (a1 : FVec F S2x3 .f32) (a2 : FVec F S256x256x256 .f32) (a3 a4 : FVec F S64x3 .f32) :
    RefStages.r_v97 a0 a1 a2 a3 a4 = Glue.g_v89 a0 a1 a3 a4 := rfl

/-- The base cell along y: the same chain of operations in both programs. -/
theorem glue_v98 (a0 : FVec F S4194304x3 .f32) (a1 : FVec F S2x3 .f32) (a2 : FVec F S256x256x256 .f32) (a3 a4 : FVec F S64x3 .f32) :
    RefStages.r_v98 a0 a1 a2 a3 a4 = Glue.g_v90 a0 a1 a3 a4 := rfl

/-- The base cell along z: the same chain of operations in both programs. -/
theorem glue_v99 (a0 : FVec F S4194304x3 .f32) (a1 : FVec F S2x3 .f32) (a2 : FVec F S256x256x256 .f32) (a3 a4 : FVec F S64x3 .f32) :
    RefStages.r_v99 a0 a1 a2 a3 a4 = Glue.g_v91 a0 a1 a3 a4 := rfl

end GlueEq

/-! ## The reference's value at a sorted point -/

section Main
open Cert.ReferenceIdeal
variable [Cert.ReferenceIdeal.Facts] [Cert.KernelIdeal.Facts]
open Cert.ReferenceIdeal.Facts₀ Cert.ReferenceIdeal.Facts

/-- The reference's result at point i, over the reference's own stages. -/
theorem ref_value_stages (a0 : FVec Ideal S4194304x3 .f32) (a1 : FVec Ideal S2x3 .f32) (a2 : FVec Ideal S256x256x256 .f32) (a3 a4 : FVec Ideal S64x3 .f32) (i : Fin 4194304)
    (hb : (RefStages.r_v30 (F := Ideal) a0 a1 a2 a3 a4 (ix1 i)).toNat < 64) :
    RefStages.r_v570 (F := Ideal) a0 a1 a2 a3 a4 (ix1 i)
      = rval (volAt a2 (RefStages.r_v30 (F := Ideal) a0 a1 a2 a3 a4 (ix1 i)))
          (RefStages.r_v99 (F := Ideal) a0 a1 a2 a3 a4 (ix1 i)) (RefStages.r_v98 (F := Ideal) a0 a1 a2 a3 a4 (ix1 i))
          (RefStages.r_v97 (F := Ideal) a0 a1 a2 a3 a4 (ix1 i)) (RefStages.r_v96 (F := Ideal) a0 a1 a2 a3 a4 (ix1 i))
          (RefStages.r_v95 (F := Ideal) a0 a1 a2 a3 a4 (ix1 i)) (RefStages.r_v94 (F := Ideal) a0 a1 a2 a3 a4 (ix1 i)) := by
  have hv : RefStages.r_v66 (F := Ideal) a0 a1 a2 a3 a4
      = shapeCast S64x64x64x64 a2 shapeCasts_S256x256x256_S64x64x64x64 := rfl
  rw [out_eq, blend_read, fetch_000, fetch_001, fetch_010, fetch_011, fetch_100, fetch_101, fetch_110, fetch_111, hv,
    fetch_read a2 _ _ _ _ i hb, fetch_read a2 _ _ _ _ i hb, fetch_read a2 _ _ _ _ i hb, fetch_read a2 _ _ _ _ i hb,
    fetch_read a2 _ _ _ _ i hb, fetch_read a2 _ _ _ _ i hb, fetch_read a2 _ _ _ _ i hb, fetch_read a2 _ _ _ _ i hb,
    rval_expand]
  simp only [cell_apply]

/-- THE REFERENCE'S VALUE at sorted point i: the eight-corner sum in the point's block, at the base cells and weights the
    kernel's program computes. -/
theorem ref_value (a0 : FVec Ideal S4194304x3 .f32) (a1 : FVec Ideal S2x3 .f32) (a2 : FVec Ideal S256x256x256 .f32) (a3 a4 : FVec Ideal S64x3 .f32) (i : Fin 4194304)
    (hb : (Glue.g_v30 (F := Ideal) a0 a1 a3 a4 (ix1 i)).toNat < 64) :
    RefStages.r_v570 (F := Ideal) a0 a1 a2 a3 a4 (ix1 i)
      = rval (volAt a2 (Glue.g_v30 (F := Ideal) a0 a1 a3 a4 (ix1 i)))
          (Glue.g_v91 (F := Ideal) a0 a1 a3 a4 (ix1 i)) (Glue.g_v90 (F := Ideal) a0 a1 a3 a4 (ix1 i))
          (Glue.g_v89 (F := Ideal) a0 a1 a3 a4 (ix1 i)) (Glue.g_v88 (F := Ideal) a0 a1 a3 a4 (ix1 i))
          (Glue.g_v87 (F := Ideal) a0 a1 a3 a4 (ix1 i)) (Glue.g_v86 (F := Ideal) a0 a1 a3 a4 (ix1 i)) := by
  rw [← glue_v30 a0 a1 a2 a3 a4] at hb ⊢
  rw [← glue_v99 a0 a1 a2 a3 a4, ← glue_v98 a0 a1 a2 a3 a4, ← glue_v97 a0 a1 a2 a3 a4, ← glue_v96 a0 a1 a2 a3 a4,
    ← glue_v95 a0 a1 a2 a3 a4, ← glue_v94 a0 a1 a2 a3 a4]
  exact ref_value_stages a0 a1 a2 a3 a4 i hb

end Main
end Cert.AlphaGrid.RefValue

end
-- ==== Proof.FiniteInputs.lean ====
/-
  From the precondition "every input entry is finite" to the volume's entries as real numbers.

  The precondition is the conjunction, over the five inputs, of "every entry x has |x| < +∞". Its third conjunct read
  at an entry of the volume says max(x, -x) < ⊤ on the extended reals, which fails at ⊤ and at ⊥ (there the maximum
  is ⊤), so the entry is a real number. The element of the volume with row-major number `n` is then real too (past the
  end it is the real 0), and so is every entry of every block.
-/
import proofs.«104803_j90202903151142_1_alg».proof.Pre_finite_inputs
import proofs.«104803_j90202903151142_1_alg».proof.Proof.Gen.Pre_finite_inputs
import proofs.«104803_j90202903151142_1_alg».proof.Proof.Vol
import Idealize.ShloMosaic.Lib.ReduceAll
import Idealize.ShloMosaic.Lib.ValueIdx

noncomputable section

namespace Cert.AlphaGrid

open Idealize.ShloMosaic Idealize.ShloMosaic.ValueIdx

/-- The pattern 0x7F800000 denotes +∞. -/
theorem finite_inf_bits : Ideal.ofBits .f32 0x7F800000#32 = (⊤ : EReal) := by
  simp [Ideal.ofBits, Ideal.ieee]

/-- An extended real whose absolute value is below +∞ is a real number. -/
theorem finite_of_abs_lt (x : EReal)
    (h : Ideal.cmp .olt (max x (-x)) (Ideal.ofBits .f32 0x7F800000#32) = 1#1) : ∃ r : ℝ, x = (r : EReal) := by
  rw [finite_inf_bits] at h
  induction x using EReal.rec with
  | bot => simp [Ideal.cmp] at h
  | coe r => exact ⟨r, rfl⟩
  | top => simp [Ideal.cmp] at h

/-- Under the precondition every entry of the volume is a real number. -/
theorem vol_real (a0 : FVec Ideal (⟨2, ![4194304, 3]⟩ : Shape) .f32) (a1 : FVec Ideal (⟨2, ![2, 3]⟩ : Shape) .f32)
    (a2 : FVec Ideal (⟨3, ![256, 256, 256]⟩ : Shape) .f32) (a3 a4 : FVec Ideal (⟨2, ![64, 3]⟩ : Shape) .f32)
    (h : Cert.Pre_finite_inputs.fn (F := Ideal) a0 a1 a2 a3 a4 = fun _ => 1#1) (j : (⟨3, ![256, 256, 256]⟩ : Shape).Idx) :
    ∃ r : ℝ, a2 j = (r : EReal) := by
  haveI : Subsingleton (⟨0, ![]⟩ : Shape).Idx := ⟨fun a b => funext fun d => d.elim0⟩
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨-, h3⟩ := IntOp.andi_eq_one.1 h2
  exact finite_of_abs_lt (a2 j) (Host.reduce_andi_all _ _ _ _ _ h3 j)

/-- The element of the volume with row-major number `n` is a real number (the real 0 past the end). -/
theorem flatAt_real (a0 : FVec Ideal (⟨2, ![4194304, 3]⟩ : Shape) .f32) (a1 : FVec Ideal (⟨2, ![2, 3]⟩ : Shape) .f32)
    (a2 : FVec Ideal (⟨3, ![256, 256, 256]⟩ : Shape) .f32) (a3 a4 : FVec Ideal (⟨2, ![64, 3]⟩ : Shape) .f32)
    (h : Cert.Pre_finite_inputs.fn (F := Ideal) a0 a1 a2 a3 a4 = fun _ => 1#1) (n : Nat) :
    ∃ r : ℝ, flatAt a2 n = (r : EReal) := by
  unfold flatAt
  split
  · exact vol_real a0 a1 a2 a3 a4 h _
  · exact ⟨0, EReal.coe_zero.symm⟩

/-- Every entry of every block of the volume is a real number. -/
theorem volAt_real (a0 : FVec Ideal (⟨2, ![4194304, 3]⟩ : Shape) .f32) (a1 : FVec Ideal (⟨2, ![2, 3]⟩ : Shape) .f32)
    (a2 : FVec Ideal (⟨3, ![256, 256, 256]⟩ : Shape) .f32) (a3 a4 : FVec Ideal (⟨2, ![64, 3]⟩ : Shape) .f32)
    (h : Cert.Pre_finite_inputs.fn (F := Ideal) a0 a1 a2 a3 a4 = fun _ => 1#1) (b : BitVec 32) :
    ∀ d q, d < 64 → q < 4096 → ∃ r : ℝ, volAt a2 b d q = (r : EReal) :=
  fun _ _ _ _ => flatAt_real a0 a1 a2 a3 a4 h _

end Cert.AlphaGrid

end
-- ==== Proof.SampleAlgebra.lean ====
/-
  The trilinear sample computed by successive contraction equals the eight-corner sum.

  One axis at a time, the weight row of an axis is supported on at most two cells of the block (the base cell and
  the next one, each only when it lies inside the block), so a weighted sum over the 64 cells of an axis collapses to
  two selected values. Applying this to the depth axis, then to the row and the column of the flattened plane, turns
  the contraction into the eight-corner sum. When the base cell of an axis is a saturated word, neither that cell nor
  the next lies in the block: the weight row vanishes on the block and every corner is outside, so both sides are
  zero whatever the weight is. Otherwise all three weights are real, the slab is real on the block, and the identity
  is an identity of real numbers, transported to the extended reals along the inclusion.
-/
import proofs.«104803_j90202903151142_1_alg».proof.Proof.Spec

noncomputable section

namespace Cert.AlphaGrid

open Idealize.ShloMosaic

/-! ### Words and the block -/

/-- A word lies in the block exactly when its unsigned value is below 64. -/
theorem inb_iff (c : BitVec 32) : inb c ↔ c.toNat < 64 := by
  unfold inb
  rw [BitVec.toInt_eq_toNat_cond]
  have := c.isLt
  split_ifs <;> omega

/-- For a cell number below 64, its word is `c` exactly when `c` has that unsigned value. -/
theorem ofNat_eq_iff (c : BitVec 32) (d : Nat) (hd : d < 64) :
    BitVec.ofNat 32 d = c ↔ c.toNat = d := by
  constructor
  · intro h
    rw [← h, BitVec.toNat_ofNat]
    omega
  · intro h
    apply BitVec.eq_of_toNat_eq
    rw [BitVec.toNat_ofNat, h]
    omega

/-- Summing over the 64 cells of an axis a function supported on the cell whose word is `c` selects its value at
    `c` when `c` is in the block, and gives zero otherwise. -/
theorem sum_sel {M : Type*} [AddCommMonoid M] (c : BitVec 32) (g : ℕ → M) :
    ∑ d ∈ Finset.range 64, (if BitVec.ofNat 32 d = c then g d else 0)
      = if inb c then g c.toNat else 0 := by
  by_cases hc : inb c
  · rw [if_pos hc]
    have hlt := (inb_iff c).1 hc
    rw [Finset.sum_eq_single_of_mem c.toNat (Finset.mem_range.2 hlt)]
    · rw [if_pos ((ofNat_eq_iff c _ hlt).2 rfl)]
    · intro d hd hne
      rw [if_neg]
      intro h
      exact hne ((ofNat_eq_iff c d (Finset.mem_range.1 hd)).1 h).symm
  · rw [if_neg hc]
    apply Finset.sum_eq_zero
    intro d hd
    rw [if_neg]
    intro h
    apply hc
    rw [inb_iff, (ofNat_eq_iff c d (Finset.mem_range.1 hd)).1 h]
    exact Finset.mem_range.1 hd

/-- The flattened plane as 64 rows of 64 columns. -/
theorem sum_range_plane {M : Type*} [AddCommMonoid M] (F : ℕ → M) :
    ∑ q ∈ Finset.range 4096, F q
      = ∑ h ∈ Finset.range 64, ∑ w ∈ Finset.range 64, F (h * 64 + w) := by
  rw [← Finset.sum_product']
  symm
  apply Finset.sum_nbij' (fun p => p.1 * 64 + p.2) (fun q => (q / 64, q % 64))
  · intro p hp
    simp only [Finset.mem_product, Finset.mem_range] at hp ⊢
    omega
  · intro q hq
    simp only [Finset.mem_product, Finset.mem_range] at hq ⊢
    omega
  · intro p hp
    simp only [Finset.mem_product, Finset.mem_range] at hp
    ext <;> simp only <;> omega
  · intro q hq
    simp only
    omega
  · intro p hp
    rfl

/-! ### A saturated base cell -/

/-- At a saturated word neither the cell nor the next one lies in the block. -/
theorem sat_not_inb (c : BitVec 32) (h : c = BitVec.intMax 32 ∨ c = BitVec.intMin 32) :
    ¬ inb c ∧ ¬ inb (c + 1#32) := by
  rcases h with h | h <;> subst h <;> constructor <;> rw [inb_iff] <;> decide

/-- Off the two cells of its support the weight row vanishes on the block. -/
theorem lw_eq_zero (c : BitVec 32) (w : EReal) (d : Nat) (hd : d < 64)
    (h0 : ¬ inb c) (h1 : ¬ inb (c + 1#32)) : lw c w d = 0 := by
  have e0 : ¬ BitVec.ofNat 32 d = c := by
    intro h
    apply h0
    rw [inb_iff, (ofNat_eq_iff c d hd).1 h]
    exact hd
  have e1 : ¬ BitVec.ofNat 32 d = c + 1#32 := by
    intro h
    apply h1
    rw [inb_iff, (ofNat_eq_iff _ d hd).1 h]
    exact hd
  unfold lw
  rw [if_neg e0, if_neg e1, add_zero]

/-- The base cell or the next one, as the corner sum names them. -/
theorem step_cases (c : BitVec 32) (a : Fin 2) :
    c + BitVec.ofNat 32 a.val = c ∨ c + BitVec.ofNat 32 a.val = c + 1#32 := by
  fin_cases a
  · left; simp
  · right; simp

theorem step_not_inb (c : BitVec 32) (a : Fin 2) (h0 : ¬ inb c) (h1 : ¬ inb (c + 1#32)) :
    ¬ inb (c + BitVec.ofNat 32 a.val) := by
  rcases step_cases c a with h | h <;> rw [h] <;> assumption

theorem kval_dead_z (vol : Nat → Nat → EReal) (z y x : BitVec 32) (wz wy wx : EReal)
    (h0 : ¬ inb z) (h1 : ¬ inb (z + 1#32)) : kval vol z y x wz wy wx = 0 := by
  unfold kval
  apply Finset.sum_eq_zero
  intro q _
  rw [Finset.sum_eq_zero, mul_zero]
  intro d hd
  rw [lw_eq_zero z wz d (Finset.mem_range.1 hd) h0 h1, zero_mul]

theorem kval_dead_y (vol : Nat → Nat → EReal) (z y x : BitVec 32) (wz wy wx : EReal)
    (h0 : ¬ inb y) (h1 : ¬ inb (y + 1#32)) : kval vol z y x wz wy wx = 0 := by
  unfold kval
  apply Finset.sum_eq_zero
  intro q hq
  have hq' : q / 64 < 64 := by
    have := Finset.mem_range.1 hq
    omega
  rw [lw_eq_zero y wy (q / 64) hq' h0 h1, zero_mul, zero_mul]

theorem kval_dead_x (vol : Nat → Nat → EReal) (z y x : BitVec 32) (wz wy wx : EReal)
    (h0 : ¬ inb x) (h1 : ¬ inb (x + 1#32)) : kval vol z y x wz wy wx = 0 := by
  unfold kval
  apply Finset.sum_eq_zero
  intro q _
  have hq' : q % 64 < 64 := by omega
  rw [lw_eq_zero x wx (q % 64) hq' h0 h1, mul_zero, zero_mul]

/-- A corner with a coordinate outside the block has value zero. -/
theorem corner_eq_zero (vol : Nat → Nat → EReal) (z y x : BitVec 32)
    (h : ¬ inb z ∨ ¬ inb y ∨ ¬ inb x) : corner vol z y x = 0 := by
  unfold corner
  rw [if_neg]
  intro hh
  rcases h with h | h | h
  · exact h hh.1
  · exact h hh.2.1
  · exact h hh.2.2

theorem rval_dead (vol : Nat → Nat → EReal) (z y x : BitVec 32) (wz wy wx : EReal)
    (h : (¬ inb z ∧ ¬ inb (z + 1#32)) ∨ (¬ inb y ∧ ¬ inb (y + 1#32)) ∨ (¬ inb x ∧ ¬ inb (x + 1#32))) :
    rval vol z y x wz wy wx = 0 := by
  unfold rval
  apply Finset.sum_eq_zero
  intro a _
  apply Finset.sum_eq_zero
  intro b _
  apply Finset.sum_eq_zero
  intro c _
  rw [corner_eq_zero, mul_zero]
  rcases h with h | h | h
  · exact Or.inl (step_not_inb z a h.1 h.2)
  · exact Or.inr (Or.inl (step_not_inb y b h.1 h.2))
  · exact Or.inr (Or.inr (step_not_inb x c h.1 h.2))

/-! ### The identity over the real numbers -/

/-- The weight row of an axis, with a real weight. -/
def lwR (c : BitVec 32) (r : ℝ) (d : Nat) : ℝ :=
  (if BitVec.ofNat 32 d = c then 1 - r else 0) + (if BitVec.ofNat 32 d = c + 1#32 then r else 0)

/-- The value of `g` at cell `c`, zero when `c` is outside the block. -/
def selR (c : BitVec 32) (g : Nat → ℝ) : ℝ := if inb c then g c.toNat else 0

/-- One axis: the weighted sum over the 64 cells collapses to the two cells of the weight row's support. -/
theorem collapseR (c : BitVec 32) (r : ℝ) (f : Nat → ℝ) :
    ∑ d ∈ Finset.range 64, lwR c r d * f d = (1 - r) * selR c f + r * selR (c + 1#32) f := by
  unfold lwR selR
  simp only [add_mul, ite_mul, zero_mul, Finset.sum_add_distrib]
  rw [sum_sel c (fun d => (1 - r) * f d), sum_sel (c + 1#32) (fun d => r * f d)]
  simp only [mul_ite, mul_zero]

def kvalR (v : Nat → Nat → ℝ) (z y x : BitVec 32) (rz ry rx : ℝ) : ℝ :=
  ∑ q ∈ Finset.range 4096,
    (lwR y ry (q / 64) * lwR x rx (q % 64)) * ∑ d ∈ Finset.range 64, lwR z rz d * v d q

def sideR (a : Fin 2) (r : ℝ) : ℝ := if a = 0 then 1 - r else r

def cornerR (v : Nat → Nat → ℝ) (z y x : BitVec 32) : ℝ :=
  if inb z ∧ inb y ∧ inb x then v z.toNat (y.toNat * 64 + x.toNat) else 0

def rvalR (v : Nat → Nat → ℝ) (z y x : BitVec 32) (rz ry rx : ℝ) : ℝ :=
  ∑ a : Fin 2, ∑ b : Fin 2, ∑ c : Fin 2,
    ((sideR a rz * sideR b ry) * sideR c rx)
      * cornerR v (z + BitVec.ofNat 32 a.val) (y + BitVec.ofNat 32 b.val) (x + BitVec.ofNat 32 c.val)

/-- The contraction, with the depth axis collapsed and the plane read as rows of columns. -/
theorem kvalR_rows (v : Nat → Nat → ℝ) (z y x : BitVec 32) (rz ry rx : ℝ) :
    kvalR v z y x rz ry rx
      = ∑ h ∈ Finset.range 64, lwR y ry h * ∑ w ∈ Finset.range 64, lwR x rx w *
          ((1 - rz) * selR z (fun d => v d (h * 64 + w))
            + rz * selR (z + 1#32) (fun d => v d (h * 64 + w))) := by
  unfold kvalR
  rw [sum_range_plane]
  apply Finset.sum_congr rfl
  intro h _
  rw [Finset.mul_sum]
  apply Finset.sum_congr rfl
  intro w hw
  have hw' := Finset.mem_range.1 hw
  have e1 : (h * 64 + w) / 64 = h := by omega
  have e2 : (h * 64 + w) % 64 = w := by omega
  rw [e1, e2, collapseR z rz (fun d => v d (h * 64 + w)), mul_assoc]

theorem kvalR_eq_rvalR (v : Nat → Nat → ℝ) (z y x : BitVec 32) (rz ry rx : ℝ) :
    kvalR v z y x rz ry rx = rvalR v z y x rz ry rx := by
  rw [kvalR_rows]
  simp only [collapseR]
  unfold rvalR sideR cornerR selR
  simp only [Fin.sum_univ_two, Fin.isValue, Fin.val_zero, Fin.val_one, BitVec.ofNat_eq_ofNat,
    BitVec.add_zero, if_true, one_ne_zero, if_false]
  by_cases hz0 : inb z <;> by_cases hz1 : inb (z + 1#32) <;>
  by_cases hy0 : inb y <;> by_cases hy1 : inb (y + 1#32) <;>
  by_cases hx0 : inb x <;> by_cases hx1 : inb (x + 1#32) <;>
  simp only [hz0, hz1, hy0, hy1, hx0, hx1, and_self, and_true, true_and, and_false, false_and,
    if_true, if_false] <;> ring

/-! ### Transport to the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem lw_coe (c : BitVec 32) (r : ℝ) (d : Nat) : lw c (r : EReal) d = (lwR c r d : EReal) := by
  unfold lw lwR
  rw [EReal.coe_add]
  congr 1 <;> split_ifs <;> simp [EReal.coe_sub]

theorem side_coe (a : Fin 2) (r : ℝ) : side a (r : EReal) = (sideR a r : EReal) := by
  unfold side sideR
  split_ifs <;> simp [EReal.coe_sub]

theorem corner_coe (vol : Nat → Nat → EReal) (v : Nat → Nat → ℝ)
    (hv : ∀ d q, d < 64 → q < 4096 → vol d q = (v d q : EReal)) (z y x : BitVec 32) :
    corner vol z y x = (cornerR v z y x : EReal) := by
  unfold corner cornerR
  split_ifs with h
  · have hz := (inb_iff z).1 h.1
    have hy := (inb_iff y).1 h.2.1
    have hx := (inb_iff x).1 h.2.2
    exact hv _ _ hz (by omega)
  · simp

theorem kval_coe (vol : Nat → Nat → EReal) (v : Nat → Nat → ℝ)
    (hv : ∀ d q, d < 64 → q < 4096 → vol d q = (v d q : EReal)) (z y x : BitVec 32) (rz ry rx : ℝ) :
    kval vol z y x (rz : EReal) (ry : EReal) (rx : EReal) = (kvalR v z y x rz ry rx : EReal) := by
  unfold kval kvalR
  rw [coe_sum]
  apply Finset.sum_congr rfl
  intro q hq
  rw [EReal.coe_mul, EReal.coe_mul, coe_sum, lw_coe, lw_coe]
  congr 1
  apply Finset.sum_congr rfl
  intro d hd
  rw [EReal.coe_mul, lw_coe, hv d q (Finset.mem_range.1 hd) (Finset.mem_range.1 hq)]

theorem rval_coe (vol : Nat → Nat → EReal) (v : Nat → Nat → ℝ)
    (hv : ∀ d q, d < 64 → q < 4096 → vol d q = (v d q : EReal)) (z y x : BitVec 32) (rz ry rx : ℝ) :
    rval vol z y x (rz : EReal) (ry : EReal) (rx : EReal) = (rvalR v z y x rz ry rx : EReal) := by
  unfold rval rvalR
  rw [coe_sum]
  apply Finset.sum_congr rfl
  intro a _
  rw [coe_sum]
  apply Finset.sum_congr rfl
  intro b _
  rw [coe_sum]
  apply Finset.sum_congr rfl
  intro c _
  rw [EReal.coe_mul, EReal.coe_mul, EReal.coe_mul, side_coe, side_coe, side_coe,
    corner_coe vol v hv]

/-! ### The two computations agree -/

/-- An axis is either dead (no cell of its support in the block) or has a real weight. -/
theorem WOk.cases {c : BitVec 32} {w : EReal} (h : WOk c w) :
    (∃ r : ℝ, w = (r : EReal)) ∨ (¬ inb c ∧ ¬ inb (c + 1#32)) := by
  rcases h with h | h
  · exact Or.inl h
  · exact Or.inr (sat_not_inb c h)

theorem kval_eq_rval (vol : Nat → Nat → EReal) (z y x : BitVec 32) (wz wy wx : EReal)
    (hvol : ∀ d q, d < 64 → q < 4096 → ∃ r : ℝ, vol d q = (r : EReal))
    (hz : WOk z wz) (hy : WOk y wy) (hx : WOk x wx) :
    kval vol z y x wz wy wx = rval vol z y x wz wy wx := by
  rcases hz.cases with ⟨rz, rfl⟩ | dz
  · rcases hy.cases with ⟨ry, rfl⟩ | dy
    · rcases hx.cases with ⟨rx, rfl⟩ | dx
      · have hv : ∀ d q, d < 64 → q < 4096 → vol d q = ((vol d q).toReal : EReal) := by
          intro d q hd hq
          obtain ⟨r, hr⟩ := hvol d q hd hq
          rw [hr, EReal.toReal_coe]
        rw [kval_coe vol (fun d q => (vol d q).toReal) hv, rval_coe vol (fun d q => (vol d q).toReal) hv,
          kvalR_eq_rvalR]
      · rw [kval_dead_x vol z y x _ _ _ dx.1 dx.2, rval_dead vol z y x _ _ _ (Or.inr (Or.inr dx))]
    · rw [kval_dead_y vol z y x _ _ _ dy.1 dy.2, rval_dead vol z y x _ _ _ (Or.inr (Or.inl dy))]
  · rw [kval_dead_z vol z y x _ _ _ dz.1 dz.2, rval_dead vol z y x _ _ _ (Or.inl dz)]

end Cert.AlphaGrid

end
-- ==== Proof.lean ====
/-
  The certificate: a Pallas kernel that samples a 256³ volume trilinearly, block by block — the points sorted by the
  block that holds them, packed into 256-point tiles so that every tile reads one 64³ block, each tile contracting the
  block's depth axis by a matrix product and its flattened plane by a lane sum — against the reference that sums the
  eight corner values of each sorted point.

  The two programs run the same host operations up to the sorted points' block ids, base cells and fractional
  weights (Proof/Glue.lean names each stage). From there
    * the kernel's program counts the points per block, pads every block's run to a multiple of 256, scatters cells
      and weights to the padded slots, tabulates the block of every tile, runs the tiles, and gathers the results back
      (Proof/IntChain.lean, Proof/SlotsNat.lean, Proof/IntBridge*.lean: the slots are distinct and in range, and the
      tile of a point's slot reads the point's block; Proof/KernelChain*.lean, Proof/FrameValue.lean,
      Proof/BodyValue.lean, Proof/KernelValue.lean: the result at the sorted point `j` is `kout … j`);
    * the reference's result at `j` is `rout … j` (Proof/RefRun*.lean, Proof/RefValue.lean).
  `kout` and `rout` are the contracted and the eight-corner form of one sample (Proof/Spec.lean); they agree on
  the extended reals because the volume is finite (the precondition) and, per axis, the weight `f - ⌊f⌋` is a real
  number or the cell `⌊f⌋`, converted to a word, is saturated and selects nothing on either side
  (Proof/SampleAlgebra.lean, Proof/WeightFacts.lean).
  The frames: the kernel programs' are the library's pipeline run under the side condition that every tile's table
  entry names a block of the volume, which holds for every input (Proof/OkKernel*.lean); the reference's is its run.
-/
import proofs.«104803_j90202903151142_1_alg».proof.Defs
import proofs.«104803_j90202903151142_1_alg».proof.Proof.Gen.Kernel.Frame
import proofs.«104803_j90202903151142_1_alg».proof.Proof.Gen.KernelIdeal.Frame
import proofs.«104803_j90202903151142_1_alg».proof.Proof.Gen.ReferenceIdeal
import proofs.«104803_j90202903151142_1_alg».proof.Proof.Gen.Pre_finite_inputs
import proofs.«104803_j90202903151142_1_alg».proof.Proof.OkKernel
import proofs.«104803_j90202903151142_1_alg».proof.Proof.OkKernelIdeal
import proofs.«104803_j90202903151142_1_alg».proof.Proof.KernelTop
import proofs.«104803_j90202903151142_1_alg».proof.Proof.KernelValue
import proofs.«104803_j90202903151142_1_alg».proof.Proof.KernelChain
import proofs.«104803_j90202903151142_1_alg».proof.Proof.KernelChainA2
import proofs.«104803_j90202903151142_1_alg».proof.Proof.KernelChainB
import proofs.«104803_j90202903151142_1_alg».proof.Proof.KernelChainC
import proofs.«104803_j90202903151142_1_alg».proof.Proof.KernelChainB2
import proofs.«104803_j90202903151142_1_alg».proof.Proof.RefRun
import proofs.«104803_j90202903151142_1_alg».proof.Proof.RefValue
import proofs.«104803_j90202903151142_1_alg».proof.Proof.GlueFacts
import proofs.«104803_j90202903151142_1_alg».proof.Proof.FiniteInputs
import proofs.«104803_j90202903151142_1_alg».proof.Proof.SampleAlgebra
import Idealize.ShloMosaic.Adequacy
import Idealize.ShloMosaic.Init

set_option maxRecDepth 16384

noncomputable section

namespace Cert.Proof

open Idealize.ShloMosaic Idealize.SL.Sem Idealize.ShloMosaic.ValueIdx Cert.AlphaGrid

/-- The two forms of the sample agree at every sorted point: the volume is finite, and each axis' weight is real or
    its cell saturated. -/
theorem kout_eq_rout [Cert.KernelIdeal.Facts] (a0 : FVec Ideal Cert.KernelIdeal.S4194304x3 .f32) (a1 : FVec Ideal Cert.KernelIdeal.S2x3 .f32)
    (a2 : FVec Ideal Cert.KernelIdeal.S256x256x256 .f32) (a3 a4 : FVec Ideal Cert.KernelIdeal.S64x3 .f32)
    (h : Cert.Pre_finite_inputs.fn (F := Ideal) a0 a1 a2 a3 a4 = fun _ => 1#1) :
    kout a0 a1 a2 a3 a4 = rout a0 a1 a2 a3 a4 := by
  funext j
  obtain ⟨i, rfl⟩ : ∃ i : Fin 4194304, j = ix1 i := ⟨j 0, eq_ix1 j⟩
  exact kval_eq_rval _ _ _ _ _ _ _ (volAt_real a0 a1 a2 a3 a4 h _) (GlueFacts.wok_z a0 a1 a3 a4 i)
    (GlueFacts.wok_y a0 a1 a3 a4 i) (GlueFacts.wok_x a0 a1 a3 a4 i)

/-- The two programs end with equal results, given the run of each with its result named: the kernel program's
    as the contracted sample, the reference's as the composite of its own operations. -/
theorem algebraic_of
    (hk : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v206)
              = kout (m ((c.tc : Thread Cert.KernelIdeal.nD Cert.KernelIdeal.τ).loc Cert.KernelIdeal.main_arg0))
                  (m ((c.tc : Thread Cert.KernelIdeal.nD Cert.KernelIdeal.τ).loc Cert.KernelIdeal.main_arg1))
                  (m ((c.tc : Thread Cert.KernelIdeal.nD Cert.KernelIdeal.τ).loc Cert.KernelIdeal.main_arg2))
                  (m ((c.tc : Thread Cert.KernelIdeal.nD Cert.KernelIdeal.τ).loc Cert.KernelIdeal.main_arg3))
                  (m ((c.tc : Thread Cert.KernelIdeal.nD Cert.KernelIdeal.τ).loc Cert.KernelIdeal.main_arg4))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)))
    (hr : ∀ (m : (ℓ : Loc Cert.ReferenceIdeal.nD Cert.ReferenceIdeal.τ Cert.ReferenceIdeal.sig) → Buf (Elt Ideal) ℓ)
        (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩
        (fun r => ∀ c : Dev Cert.ReferenceIdeal.nD,
          r.2.mem ((c.tc : Thread Cert.ReferenceIdeal.nD Cert.ReferenceIdeal.τ).loc Cert.ReferenceIdeal.main_v570)
              = RefStages.r_v570 (F := Ideal) (m ((c.tc : Thread Cert.ReferenceIdeal.nD Cert.ReferenceIdeal.τ).loc Cert.ReferenceIdeal.main_arg0))
                  (m ((c.tc : Thread Cert.ReferenceIdeal.nD Cert.ReferenceIdeal.τ).loc Cert.ReferenceIdeal.main_arg1))
                  (m ((c.tc : Thread Cert.ReferenceIdeal.nD Cert.ReferenceIdeal.τ).loc Cert.ReferenceIdeal.main_arg2))
                  (m ((c.tc : Thread Cert.ReferenceIdeal.nD Cert.ReferenceIdeal.τ).loc Cert.ReferenceIdeal.main_arg3))
                  (m ((c.tc : Thread Cert.ReferenceIdeal.nD Cert.ReferenceIdeal.τ).loc Cert.ReferenceIdeal.main_arg4))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))) :
    @Cert.algebraic_KernelIdeal_ReferenceIdeal Cert.KernelIdeal.Gen.facts Cert.ReferenceIdeal.Gen.facts Cert.Pre_finite_inputs.Gen.facts := by
  intro m ρ m' ρ' hpre hagree
  refine ⟨fun c => kout (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    hk m ρ, ?_⟩
  refine (θ_run Cert.ReferenceIdeal.defs _ _).mono (fun r h c => ⟨(h c).1.trans ?_, (h c).2⟩) (hr m' ρ')
  rw [(hagree c).1, (hagree c).2.1, (hagree c).2.2.1, (hagree c).2.2.2.1, (hagree c).2.2.2.2]
  beta_reduce
  rw [kout_eq_rout _ _ _ _ _ (hpre c)]
  funext j
  obtain ⟨i, rfl⟩ : ∃ i : Fin 4194304, j = ix1 i := ⟨j 0, eq_ix1 j⟩
  exact Cert.AlphaGrid.RefValue.ref_value _ _ _ _ _ i (GlueFacts.bs_lt _ _ _ _ i)

/-- The reference's frame, from its run. -/
theorem frame_ri_of
    (hr : ∀ (m : (ℓ : Loc Cert.ReferenceIdeal.nD Cert.ReferenceIdeal.τ Cert.ReferenceIdeal.sig) → Buf (Elt Ideal) ℓ)
        (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩
        (fun r => ∀ c : Dev Cert.ReferenceIdeal.nD,
          r.2.mem ((c.tc : Thread Cert.ReferenceIdeal.nD Cert.ReferenceIdeal.τ).loc Cert.ReferenceIdeal.main_v570)
              = RefStages.r_v570 (F := Ideal) (m ((c.tc : Thread Cert.ReferenceIdeal.nD Cert.ReferenceIdeal.τ).loc Cert.ReferenceIdeal.main_arg0))
                  (m ((c.tc : Thread Cert.ReferenceIdeal.nD Cert.ReferenceIdeal.τ).loc Cert.ReferenceIdeal.main_arg1))
                  (m ((c.tc : Thread Cert.ReferenceIdeal.nD Cert.ReferenceIdeal.τ).loc Cert.ReferenceIdeal.main_arg2))
                  (m ((c.tc : Thread Cert.ReferenceIdeal.nD Cert.ReferenceIdeal.τ).loc Cert.ReferenceIdeal.main_arg3))
                  (m ((c.tc : Thread Cert.ReferenceIdeal.nD Cert.ReferenceIdeal.τ).loc Cert.ReferenceIdeal.main_arg4))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))) :
    @Cert.frame_ReferenceIdeal Cert.ReferenceIdeal.Gen.facts Cert.Pre_finite_inputs.Gen.facts :=
  fun m ρ _ => (θ_run Cert.ReferenceIdeal.defs _ _).mono (fun _ h c => (h c).2) (hr m ρ)

/-- The kernel program's frame as printed, from the side condition on its tile table. -/
theorem frame_p_of
    (hok : ∀ m : (ℓ : Loc Cert.Kernel.nD Cert.Kernel.τ Cert.Kernel.sig) → Buf (Elt Bits) ℓ, Cert.Kernel.Gen.Ok m) :
    @Cert.frame_Kernel Cert.Kernel.Gen.facts Cert.Pre_finite_inputs.Gen.facts :=
  fun m ρ _ => Cert.Kernel.Gen.frame m ρ (hok m)

/-- The same at the extended reals. -/
theorem frame_pi_of
    (hok : ∀ m : (ℓ : Loc Cert.KernelIdeal.nD Cert.KernelIdeal.τ Cert.KernelIdeal.sig) → Buf (Elt Ideal) ℓ, Cert.KernelIdeal.Gen.Ok m) :
    @Cert.frame_KernelIdeal Cert.KernelIdeal.Gen.facts Cert.Pre_finite_inputs.Gen.facts :=
  fun m ρ _ => Cert.KernelIdeal.Gen.frame m ρ (hok m)

theorem claim_of
    (fp : @Cert.frame_Kernel Cert.Kernel.Gen.facts Cert.Pre_finite_inputs.Gen.facts)
    (fpi : @Cert.frame_KernelIdeal Cert.KernelIdeal.Gen.facts Cert.Pre_finite_inputs.Gen.facts)
    (fri : @Cert.frame_ReferenceIdeal Cert.ReferenceIdeal.Gen.facts Cert.Pre_finite_inputs.Gen.facts)
    (alg : @Cert.algebraic_KernelIdeal_ReferenceIdeal Cert.KernelIdeal.Gen.facts Cert.ReferenceIdeal.Gen.facts Cert.Pre_finite_inputs.Gen.facts) :
    Cert.Claim :=
  ⟨Cert.Kernel.Gen.facts, Cert.KernelIdeal.Gen.facts, Cert.ReferenceIdeal.Gen.facts, Cert.Pre_finite_inputs.Gen.facts,
    fp, fpi, fri, trivial, alg⟩

section KernelResult

open Idealize.ShloMosaic.TcCoe Cert.KernelIdeal Cert.KernelIdeal.Gen

/-- The gather the lines after the region compute reads, at every point, the contracted sample of the launched
    arguments — given what the arrays computed before the region hold. -/
theorem v206_value_all_of (m : (ℓ : Loc nD τ sig) → Buf (Elt Ideal) ℓ) (hO : Ok m)
    (hV30 : ∀ c : Dev nD, (V m c main_v30 : IVec S4194304 32) = KernelValue.BS m c)
    (hV86 : ∀ c : Dev nD, (V m c main_v86 : FVec Ideal S4194304 .f32) = Glue.g_v86 (KernelValue.A0 m c) (KernelValue.A1 m c) (KernelValue.A3 m c) (KernelValue.A4 m c))
    (hV87 : ∀ c : Dev nD, (V m c main_v87 : FVec Ideal S4194304 .f32) = Glue.g_v87 (KernelValue.A0 m c) (KernelValue.A1 m c) (KernelValue.A3 m c) (KernelValue.A4 m c))
    (hV88 : ∀ c : Dev nD, (V m c main_v88 : FVec Ideal S4194304 .f32) = Glue.g_v88 (KernelValue.A0 m c) (KernelValue.A1 m c) (KernelValue.A3 m c) (KernelValue.A4 m c))
    (hV89 : ∀ c : Dev nD, (V m c main_v89 : IVec S4194304 32) = Glue.g_v89 (KernelValue.A0 m c) (KernelValue.A1 m c) (KernelValue.A3 m c) (KernelValue.A4 m c))
    (hV90 : ∀ c : Dev nD, (V m c main_v90 : IVec S4194304 32) = Glue.g_v90 (KernelValue.A0 m c) (KernelValue.A1 m c) (KernelValue.A3 m c) (KernelValue.A4 m c))
    (hV91 : ∀ c : Dev nD, (V m c main_v91 : IVec S4194304 32) = Glue.g_v91 (KernelValue.A0 m c) (KernelValue.A1 m c) (KernelValue.A3 m c) (KernelValue.A4 m c))
    (hV127 : ∀ c : Dev nD, (V m c main_v127 : IVec S4194304 32) = IntChain.i_v127 (V m c main_v30))
    (hV110 : ∀ c : Dev nD, V m c main_v110 = IntChain.i_v110 (V m c main_v30))
    (hV106 : ∀ c : Dev nD, V m c main_v106 = IntChain.i_v106 (V m c main_v30)) :
    ∀ (c : Dev nD) (i : Fin 4194304),
      Host.gather gather_S4210688_S4194304x1_S4194304_n_0_n_n_0_1_1 ((dats m hO 0 c).arrAt 7 (cfgM m hO).N)
          (WrapIdx.w_v205 (V m c main_v127)) (ix1 i)
        = kout (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (ix1 i) :=
  fun c i => KernelValue.v206_value m c hO (hV30 c) (hV86 c) (hV87 c) (hV88 c) (hV89 c) (hV90 c) (hV91 c) (hV127 c)
    (KernelChainB2.V_v196 m c (hV110 c) (hV106 c))
    (KernelChainC.V_main_v135 m c) (KernelChainC.V_main_v143 m c) (KernelChainC.V_main_v151 m c)
    (KernelChainC.V_main_v159 m c) (KernelChainC.V_main_v167 m c) (KernelChainC.V_main_v175 m c)
    (KernelChainC.V_main_v198 m c) i

end KernelResult

section KernelResultAll

open Idealize.ShloMosaic.TcCoe Cert.KernelIdeal Cert.KernelIdeal.Gen

/-- The gather after the region reads, at every point, the contracted sample of the launched arguments. -/
theorem v206_value_all (m : (ℓ : Loc nD τ sig) → Buf (Elt Ideal) ℓ) (hO : Ok m) :
    ∀ (c : Dev nD) (i : Fin 4194304),
      Host.gather gather_S4210688_S4194304x1_S4194304_n_0_n_n_0_1_1 ((dats m hO 0 c).arrAt 7 (cfgM m hO).N)
          (WrapIdx.w_v205 (V m c main_v127)) (ix1 i)
        = kout (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (ix1 i) :=
  v206_value_all_of m hO (fun c => KernelChain.V_v30 m c)
    (fun c => KernelChainA2.V_v86 m c) (fun c => KernelChainA2.V_v87 m c) (fun c => KernelChainA2.V_v88 m c)
    (fun c => KernelChainA2.V_v89 m c) (fun c => KernelChainA2.V_v90 m c) (fun c => KernelChainA2.V_v91 m c)
    (fun c => KernelChainB.V_v127 m c) (fun c => KernelChainB.V_v110 m c) (fun c => KernelChainB.V_v106 m c)

end KernelResultAll

/-! ### The claim -/

theorem frame_p : @Cert.frame_Kernel Cert.Kernel.Gen.facts Cert.Pre_finite_inputs.Gen.facts :=
  frame_p_of fun m => Cert.AlphaGrid.OkKernel.ok_of_pre m

theorem frame_pi : @Cert.frame_KernelIdeal Cert.KernelIdeal.Gen.facts Cert.Pre_finite_inputs.Gen.facts :=
  frame_pi_of fun m => Cert.AlphaGrid.OkKernelIdeal.ok_of_pre m

theorem frame_ri : @Cert.frame_ReferenceIdeal Cert.ReferenceIdeal.Gen.facts Cert.Pre_finite_inputs.Gen.facts :=
  frame_ri_of fun m ρ => Cert.AlphaGrid.RefRun.run (F := Ideal) m ρ

theorem algebraic : @Cert.algebraic_KernelIdeal_ReferenceIdeal Cert.KernelIdeal.Gen.facts Cert.ReferenceIdeal.Gen.facts Cert.Pre_finite_inputs.Gen.facts :=
  algebraic_of
    (fun m ρ => Cert.AlphaGrid.KernelTop.kernel_run m ρ (Cert.AlphaGrid.OkKernelIdeal.ok_of_pre m)
      (v206_value_all m (Cert.AlphaGrid.OkKernelIdeal.ok_of_pre m)))
    (fun m ρ => Cert.AlphaGrid.RefRun.run (F := Ideal) m ρ)

theorem claim : Cert.Claim := claim_of frame_p frame_pi frame_ri algebraic

end Cert.Proof

end
